-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x2048 : Shape := ⟨2, ![2048, 2048]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32 .f32) (main_arg8 : FVec F S32 .f32) (main_arg9 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg4 : FVec F S32 .f32) (main_arg5 : FVec F S32 .f32) (main_arg6 : FVec F S32x32 .f32) (main_arg7 : FVec F S32 .f32) (main_arg8 : FVec F S32 .f32) (main_arg9 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x64 .f32) (main_arg1 : FVec F S2048x2048 .f32) (main_arg2 : FVec F S64x32 .f32) (main_arg3 : FVec F S32 .f32) (main_arg4 : FVec F S32 .f32) (main_arg5 : FVec F S32 .f32) (main_arg6 : FVec F S32x32 .f32) (main_arg7 : FVec F S32 .f32) (main_arg8 : FVec F S32 .f32) (main_arg9 : FVec F S32 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S2048x64 : Shape := ⟨2, ![2048, 64]⟩
abbrev S2048x2048 : Shape := ⟨2, ![2048, 2048]⟩
abbrev S64x32 : Shape := ⟨2, ![64, 32]⟩
abbrev S32 : Shape := ⟨1, ![32]⟩
abbrev S32x32 : Shape := ⟨2, ![32, 32]⟩
abbrev S1x32 : Shape := ⟨2, ![1, 32]⟩
abbrev S2048x32 : Shape := ⟨2, ![2048, 32]⟩
abbrev S2048x1 : Shape := ⟨2, ![2048, 1]⟩
abbrev S2048x256 : Shape := ⟨2, ![2048, 256]⟩
abbrev S256 : Shape := ⟨1, ![256]⟩
abbrev S256x1 : Shape := ⟨2, ![256, 1]⟩
abbrev S256x32 : Shape := ⟨2, ![256, 32]⟩

abbrev nBuf : Space → Nat
  | .hbm => 17
  | .vmem => 17
  | .smem => 0
  | _ => 0

abbrev bufTy : (tb : Table) → Fin (tcTables nBuf tb) → BufTy
  | .hbm, ⟨0, _⟩ => ⟨S2048x64, .f32⟩
  | .hbm, ⟨1, _⟩ => ⟨S2048x2048, .f32⟩
  | .hbm, ⟨2, _⟩ => ⟨S64x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S2048x32, .f32⟩
  | .local _ .vmem, ⟨0, _⟩ => ⟨S2048x64, .f32⟩
  | .local _ .vmem, ⟨1, _⟩ => ⟨S2048x2048, .f32⟩
  | .local _ .vmem, ⟨2, _⟩ => ⟨S64x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S2048x32, .f32⟩
  | .local _ .vmem, ⟨11, _⟩ => ⟨S2048x1, .f32⟩
  | .local _ .vmem, ⟨12, _⟩ => ⟨S2048x1, .f32⟩
  | .local _ .vmem, ⟨13, _⟩ => ⟨S2048x32, .f32⟩
  | .local _ .vmem, ⟨14, _⟩ => ⟨S2048x32, .f32⟩
  | .local _ .vmem, ⟨15, _⟩ => ⟨S2048x32, .f32⟩
  | .local _ .vmem, ⟨16, _⟩ => ⟨S2048x32, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![3, 8], ![false, false]⟩

def k0_off1 (i : grid0.Coords) : Fin 2 → Nat :=
  let c0 : Index := 0#32
  let arg1 : BitVec 32 := BitVec.ofNat 32 (i 1).val
  let c256_i32 : BitVec 32 := 256#32
  let v0 : BitVec 32 := Scalar.muli arg1 c256_i32
  let v1 : Index := Scalar.indexCast v0
  ![0, v1.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_off2 (i : grid0.Coords) : Fin 2 → Nat :=
  let arg1 : BitVec 32 := BitVec.ofNat 32 (i 1).val
  let c256_i32 : BitVec 32 := 256#32
  let v0 : BitVec 32 := Scalar.muli arg1 c256_i32
  let v29 : Index := Scalar.indexCast v0
  let c0_11 : Index := 0#32
  ![v29.toNat, 0]
def k0_cond3 (i : grid0.Coords) : BitVec 1 :=
  let arg0 : BitVec 32 := BitVec.ofNat 32 (i 0).val
  let c1_i32_3 : BitVec 32 := 1#32
  let v11 : BitVec 1 := Scalar.cmpi .eq arg0 c1_i32_3
  let v12 : BitVec 32 := Scalar.extui v11
  let c0_i32_4 : BitVec 32 := 0#32
  let v13 : BitVec 1 := Scalar.cmpi .ne v12 c0_i32_4
  v13

def k0_off3 (i : grid0.Coords) : Fin 2 → Nat :=
  let arg1 : BitVec 32 := BitVec.ofNat 32 (i 1).val
  let c256_i32 : BitVec 32 := 256#32
  let v0 : BitVec 32 := Scalar.muli arg1 c256_i32
  let v29 : Index := Scalar.indexCast v0
  let c0_13 : Index := 0#32
  ![v29.toNat, 0]
def k0_off4 (i : grid0.Coords) : Fin 2 → Nat :=
  let arg1 : BitVec 32 := BitVec.ofNat 32 (i 1).val
  let c256_i32 : BitVec 32 := 256#32
  let v0 : BitVec 32 := Scalar.muli arg1 c256_i32
  let v31 : Index := Scalar.indexCast v0
  let c0_14 : Index := 0#32
  ![v31.toNat, 0]
def k0_cond5 (i : grid0.Coords) : BitVec 1 :=
  let arg0 : BitVec 32 := BitVec.ofNat 32 (i 0).val
  let c2_i32_7 : BitVec 32 := 2#32
  let v19 : BitVec 1 := Scalar.cmpi .eq arg0 c2_i32_7
  let v20 : BitVec 32 := Scalar.extui v19
  let c0_i32_8 : BitVec 32 := 0#32
  let v21 : BitVec 1 := Scalar.cmpi .ne v20 c0_i32_8
  v21

def k0_off5 (i : grid0.Coords) : Fin 2 → Nat :=
  let arg1 : BitVec 32 := BitVec.ofNat 32 (i 1).val
  let c256_i32 : BitVec 32 := 256#32
  let v0 : BitVec 32 := Scalar.muli arg1 c256_i32
  let v29 : Index := Scalar.indexCast v0
  let c0_13 : Index := 0#32
  ![v29.toNat, 0]
def k0_off6 (i : grid0.Coords) : Fin 2 → Nat :=
  let arg1 : BitVec 32 := BitVec.ofNat 32 (i 1).val
  let c256_i32 : BitVec 32 := 256#32
  let v0 : BitVec 32 := Scalar.muli arg1 c256_i32
  let v31 : Index := Scalar.indexCast v0
  let c0_14 : Index := 0#32
  ![v31.toNat, 0]
def k0_cond6 (i : grid0.Coords) : BitVec 1 :=
  let arg0 : BitVec 32 := BitVec.ofNat 32 (i 0).val
  let c2_i32_9 : BitVec 32 := 2#32
  let v22 : BitVec 1 := Scalar.cmpi .eq arg0 c2_i32_9
  let arg1 : BitVec 32 := BitVec.ofNat 32 (i 1).val
  let c7_i32 : BitVec 32 := 7#32
  let v23 : BitVec 1 := Scalar.cmpi .eq arg1 c7_i32
  let v24 : BitVec 1 := Scalar.andi v22 v23
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

class Facts₀ : Prop where
  shapeCasts_S32_S1x32 : S32.ShapeCasts S1x32
  h_S2048x256 : 0 < S2048x256.numel
  reduces_S2048x256_S256 : S2048x256.Reduces [0] S256
  shapeCasts_S256_S256x1 : S256.ShapeCasts S256x1
  h_S256x1 : 0 < S256x1.numel
  shapeCasts_S256x1_S256x1 : S256x1.ShapeCasts S256x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  inb_S64x32_S64x32_0_0 : ∀ a, (![0, 0] : Fin 2 → Nat) a + S64x32.size a ≤ S64x32.size a
  h_S64x32 : 0 < S64x32.numel
  broadcasts_S2048x1_S2048x32 : S2048x1.Broadcasts S2048x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  h_S256x32 : 0 < S256x32.numel
  broadcasts_S256x1_S256x32 : S256x1.Broadcasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  shapeCasts_S256x32_S256x32 : S256x32.ShapeCasts S256x32
  reduces_S2048x32_S32 : S2048x32.Reduces [0] S32
  broadcasts_S1x32_S2048x32 : S1x32.Broadcasts S2048x32
  inb_S32x32_S32x32_0_0 : ∀ a, (![0, 0] : Fin 2 → Nat) a + S32x32.size a ≤ S32x32.size a
  h_S32x32 : 0 < S32x32.numel
  dot_S2048x64_S64x32_S2048x32_1_0_0_1_n_n_wf : DotDims.WF S2048x64 S64x32 S2048x32 [1] [0] [0] [1] [] []
  dot_S2048x256_S2048x32_S256x32_0_0_1_1_n_n_wf : DotDims.WF S2048x256 S2048x32 S256x32 [0] [0] [1] [1] [] []
  dot_S2048x32_S32x32_S2048x32_1_0_0_1_n_n_wf : DotDims.WF S2048x32 S32x32 S2048x32 [1] [0] [0] [1] [] []
  hrank0 : 0 < grid0.rank
  k0_off1_inb : ∀ i : grid0.Coords, ∀ a, (k0_off1 i) a + S2048x256.size a ≤ S2048x2048.size a
  k0_off2_inb : ∀ i : grid0.Coords, ∀ (k0_h1 : k0_cond1 i = 1#1), ∀ a, (k0_off2 i) a + S256x1.size a ≤ S2048x1.size a
  k0_off3_inb : ∀ i : grid0.Coords, ∀ (k0_h3 : k0_cond3 i = 1#1), ∀ a, (k0_off3 i) a + S256x1.size a ≤ S2048x1.size a
  k0_off4_inb : ∀ i : grid0.Coords, ∀ (k0_h3 : k0_cond3 i = 1#1), ∀ a, (k0_off4 i) a + S256x32.size a ≤ S2048x32.size a
  k0_off5_inb : ∀ i : grid0.Coords, ∀ (k0_h5 : k0_cond5 i = 1#1), ∀ a, (k0_off5 i) a + S256x1.size a ≤ S2048x1.size a
  k0_off6_inb : ∀ i : grid0.Coords, ∀ (k0_h5 : k0_cond5 i = 1#1), ∀ a, (k0_off6 i) a + S256x32.size a ≤ S2048x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S2048x64.size a
  hwx0_0 : ∀ i : grid0.Coords, EltTy.bits .f32 = 32 ∨ (Rect.block (s := S2048x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x32.size a ≤ S2048x32.size a
  hwx0_10 : ∀ i : grid0.Coords, EltTy.bits .f32 = 32 ∨ (Rect.block (s := S2048x32) S2048x32.size (cc0_transform_10 i) (hinb0_10 i)).WholeWords (EltTy.packing .f32)

variable [Facts₀]

def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x256_S2048x32_S256x32_0_0_1_1_n_n : DotDims S2048x256 S2048x32 S256x32 where
  lhsContracting := [0]
  rhsContracting := [0]
  lhsNonContracting := [1]
  rhsNonContracting := [1]
  lhsBatch := []
  rhsBatch := []
  wf := dot_S2048x256_S2048x32_S256x32_0_0_1_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

abbrev win0_0 : Pipeline.Window sig grid0 :=
  Pipeline.Window.ofSpec (Memref.whole main_arg0) S2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S2048x32.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond6 i == 1#1) | ⟨_ + 11, h⟩ => absurd h (Nat.not_lt.2 (Nat.le_add_left _ _))

class Facts : Prop extends Facts₀ where

variable [Facts]
-- ==== ReferenceIdeal.lean ====
abbrev S2048x64 : Shape := ⟨2, ![2048, 64]⟩
abbrev S2048x2048 : Shape := ⟨2, ![2048, 2048]⟩
abbrev S64x32 : Shape := ⟨2, ![64, 32]⟩
abbrev S32 : Shape := ⟨1, ![32]⟩
abbrev S32x32 : Shape := ⟨2, ![32, 32]⟩
abbrev S_ : Shape := ⟨0, ![]⟩
abbrev S4194304 : Shape := ⟨1, ![4194304]⟩
abbrev S4194304x1 : Shape := ⟨2, ![4194304, 1]⟩
abbrev S4194304x2 : Shape := ⟨2, ![4194304, 2]⟩
abbrev S2048 : Shape := ⟨1, ![2048]⟩
abbrev S4196352 : Shape := ⟨1, ![4196352]⟩
abbrev S4196352x1 : Shape := ⟨2, ![4196352, 1]⟩
abbrev S2048x32 : Shape := ⟨2, ![2048, 32]⟩
abbrev S4196352x32 : Shape := ⟨2, ![4196352, 32]⟩
abbrev S1x32 : Shape := ⟨2, ![1, 32]⟩

abbrev nBuf : Space → Nat
  | .hbm => 414
  | .vmem => 0
  | .smem => 0
  | _ => 0

abbrev hbmTy0_0 (i : Nat) : BufTy := match i % 128 with
  | 0 => ⟨S2048x64, .f32⟩
  | 1 => ⟨S2048x2048, .f32⟩
  | 2 => ⟨S64x32, .f32⟩
  | 3 => ⟨S32, .f32⟩
  | 4 => ⟨S32, .f32⟩
  | 5 => ⟨S32, .f32⟩
  | 6 => ⟨S32x32, .f32⟩
  | 7 => ⟨S32, .f32⟩
  | 8 => ⟨S32, .f32⟩
  | 9 => ⟨S32, .f32⟩
  | 10 => ⟨S_, .f32⟩
  | 11 => ⟨S2048x2048, .f32⟩
  | 12 => ⟨S2048x2048, .i1⟩
  | 13 => ⟨S4194304, .i1⟩
  | 14 => ⟨S4194304, .i32⟩
  | 15 => ⟨S_, .i32⟩
  | 16 => ⟨S_, .i32⟩
  | 17 => ⟨S4194304, .i32⟩
  | 18 => ⟨S_, .i32⟩
  | 19 => ⟨S4194304, .i32⟩
  | 20 => ⟨S_, .i32⟩
  | 21 => ⟨S_, .i32⟩
  | 22 => ⟨S4194304, .i32⟩
  | 23 => ⟨S4194304, .i32⟩
  | 24 => ⟨S_, .i32⟩
  | 25 => ⟨S4194304, .i32⟩
  | 26 => ⟨S4194304, .i1⟩
  | 27 => ⟨S_, .i32⟩
  | 28 => ⟨S4194304, .i32⟩
  | 29 => ⟨S4194304, .i32⟩
  | 30 => ⟨S4194304, .i32⟩
  | 31 => ⟨S4194304x1, .i32⟩
  | 32 => ⟨S_, .i32⟩
  | 33 => ⟨S4194304, .i32⟩
  | 34 => ⟨S4194304, .i32⟩
  | 35 => ⟨S_, .i32⟩
  | 36 => ⟨S_, .i32⟩
  | 37 => ⟨S4194304, .i32⟩
  | 38 => ⟨S_, .i32⟩
  | 39 => ⟨S4194304, .i32⟩
  | 40 => ⟨S4194304, .i32⟩
  | 41 => ⟨S4194304, .i32⟩
  | 42 => ⟨S_, .i32⟩
  | 43 => ⟨S4194304, .i32⟩
  | 44 => ⟨S4194304, .i1⟩
  | 45 => ⟨S4194304, .i32⟩
  | 46 => ⟨S4194304, .i32⟩
  | 47 => ⟨S_, .i32⟩
  | 48 => ⟨S4194304, .i32⟩
  | 49 => ⟨S4194304, .i1⟩
  | 50 => ⟨S4194304, .i1⟩
  | 51 => ⟨S_, .i32⟩
  | 52 => ⟨S4194304, .i32⟩
  | 53 => ⟨S4194304, .i32⟩
  | 54 => ⟨S4194304, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S4194304, .i32⟩
  | 62 => ⟨S4194304, .i32⟩
  | 63 => ⟨S_, .i32⟩
  | 64 => ⟨S4194304, .i32⟩
  | 65 => ⟨S4194304, .i1⟩
  | 66 => ⟨S_, .i32⟩
  | 67 => ⟨S4194304, .i32⟩
  | 68 => ⟨S4194304, .i1⟩
  | 69 => ⟨S_, .i32⟩
  | 70 => ⟨S_, .i1⟩
  | 71 => ⟨S4194304, .i1⟩
  | 72 => ⟨S4194304, .i1⟩
  | 73 => ⟨S4194304, .i1⟩
  | 74 => ⟨S4194304, .i32⟩
  | 75 => ⟨S4194304, .i32⟩
  | 76 => ⟨S4194304, .i32⟩
  | 77 => ⟨S_, .i32⟩
  | 78 => ⟨S4194304, .i32⟩
  | 79 => ⟨S4194304, .i32⟩
  | 80 => ⟨S4194304, .i32⟩
  | 81 => ⟨S_, .i32⟩
  | 82 => ⟨S4194304, .i32⟩
  | 83 => ⟨S4194304, .i1⟩
  | 84 => ⟨S4194304, .i32⟩
  | 85 => ⟨S4194304, .i32⟩
  | 86 => ⟨S_, .i32⟩
  | 87 => ⟨S4194304, .i32⟩
  | 88 => ⟨S4194304, .i1⟩
  | 89 => ⟨S4194304, .i1⟩
  | 90 => ⟨S_, .i32⟩
  | 91 => ⟨S4194304, .i32⟩
  | 92 => ⟨S4194304, .i32⟩
  | 93 => ⟨S4194304, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S4194304, .i32⟩
  | 101 => ⟨S4194304, .i32⟩
  | 102 => ⟨S_, .i32⟩
  | 103 => ⟨S4194304, .i32⟩
  | 104 => ⟨S4194304, .i1⟩
  | 105 => ⟨S_, .i32⟩
  | 106 => ⟨S4194304, .i32⟩
  | 107 => ⟨S4194304, .i1⟩
  | 108 => ⟨S_, .i32⟩
  | 109 => ⟨S_, .i1⟩
  | 110 => ⟨S4194304, .i1⟩
  | 111 => ⟨S4194304, .i1⟩
  | 112 => ⟨S4194304, .i1⟩
  | 113 => ⟨S4194304, .i32⟩
  | 114 => ⟨S4194304, .i32⟩
  | 115 => ⟨S4194304, .i32⟩
  | 116 => ⟨S4194304, .i32⟩
  | 117 => ⟨S2048x2048, .i32⟩
  | 118 => ⟨S_, .i32⟩
  | 119 => ⟨S_, .i32⟩
  | 120 => ⟨S4194304, .i32⟩
  | 121 => ⟨S4194304, .i1⟩
  | 122 => ⟨S_, .i32⟩
  | 123 => ⟨S_, .i32⟩
  | 124 => ⟨S4194304, .i32⟩
  | 125 => ⟨S4194304, .i32⟩
  | 126 => ⟨S_, .i32⟩
  | 127 => ⟨S_, .i32⟩
  | _ => ⟨S2048x64, .f32⟩

abbrev hbmTy0_1 (i : Nat) : BufTy := match i % 128 with
  | 0 => ⟨S4194304, .i32⟩
  | 1 => ⟨S4194304, .i32⟩
  | 2 => ⟨S4194304, .i32⟩
  | 3 => ⟨S_, .f32⟩
  | 4 => ⟨S2048x2048, .f32⟩
  | 5 => ⟨S2048x2048, .i1⟩
  | 6 => ⟨S2048x2048, .i32⟩
  | 7 => ⟨S_, .i32⟩
  | 8 => ⟨S_, .i32⟩
  | 9 => ⟨S4194304, .i32⟩
  | 10 => ⟨S4194304, .i1⟩
  | 11 => ⟨S4194304, .f32⟩
  | 12 => ⟨S_, .i32⟩
  | 13 => ⟨S4194304, .i32⟩
  | 14 => ⟨S4194304, .i1⟩
  | 15 => ⟨S_, .i32⟩
  | 16 => ⟨S4194304, .i32⟩
  | 17 => ⟨S4194304, .i32⟩
  | 18 => ⟨S4194304, .i32⟩
  | 19 => ⟨S_, .i32⟩
  | 20 => ⟨S4194304, .i32⟩
  | 21 => ⟨S4194304, .i1⟩
  | 22 => ⟨S_, .i32⟩
  | 23 => ⟨S4194304, .i32⟩
  | 24 => ⟨S4194304, .i32⟩
  | 25 => ⟨S4194304, .i32⟩
  | 26 => ⟨S4194304x1, .i32⟩
  | 27 => ⟨S4194304x1, .i32⟩
  | 28 => ⟨S4194304x2, .i32⟩
  | 29 => ⟨S4194304, .f32⟩
  | 30 => ⟨S4194304, .f32⟩
  | 31 => ⟨S2048, .i32⟩
  | 32 => ⟨S4196352, .i32⟩
  | 33 => ⟨S4196352, .i32⟩
  | 34 => ⟨S_, .f32⟩
  | 35 => ⟨S2048, .f32⟩
  | 36 => ⟨S4196352, .f32⟩
  | 37 => ⟨S_, .f32⟩
  | 38 => ⟨S2048, .f32⟩
  | 39 => ⟨S_, .i32⟩
  | 40 => ⟨S4196352, .i32⟩
  | 41 => ⟨S4196352, .i1⟩
  | 42 => ⟨S_, .i32⟩
  | 43 => ⟨S4196352, .i32⟩
  | 44 => ⟨S4196352, .i32⟩
  | 45 => ⟨S4196352, .i32⟩
  | 46 => ⟨S4196352x1, .i32⟩
  | 47 => ⟨S2048, .f32⟩
  | 48 => ⟨S_, .f32⟩
  | 49 => ⟨S2048, .f32⟩
  | 50 => ⟨S2048, .i1⟩
  | 51 => ⟨S_, .f32⟩
  | 52 => ⟨S_, .f32⟩
  | 53 => ⟨S2048, .f32⟩
  | 54 => ⟨S2048, .f32⟩
  | 55 => ⟨S_, .f32⟩
  | 56 => ⟨S2048, .f32⟩
  | 57 => ⟨S2048, .i1⟩
  | 58 => ⟨S2048, .f32⟩
  | 59 => ⟨S_, .f32⟩
  | 60 => ⟨S2048, .f32⟩
  | 61 => ⟨S2048, .f32⟩
  | 62 => ⟨S_, .f32⟩
  | 63 => ⟨S_, .f32⟩
  | 64 => ⟨S2048, .f32⟩
  | 65 => ⟨S2048, .f32⟩
  | 66 => ⟨S_, .i32⟩
  | 67 => ⟨S4196352, .i32⟩
  | 68 => ⟨S4196352, .i1⟩
  | 69 => ⟨S_, .i32⟩
  | 70 => ⟨S4196352, .i32⟩
  | 71 => ⟨S4196352, .i32⟩
  | 72 => ⟨S4196352, .i32⟩
  | 73 => ⟨S4196352x1, .i32⟩
  | 74 => ⟨S4196352, .f32⟩
  | 75 => ⟨S4196352, .f32⟩
  | 76 => ⟨S_, .i32⟩
  | 77 => ⟨S4196352, .i32⟩
  | 78 => ⟨S4196352, .i1⟩
  | 79 => ⟨S_, .i32⟩
  | 80 => ⟨S4196352, .i32⟩
  | 81 => ⟨S4196352, .i32⟩
  | 82 => ⟨S4196352, .i32⟩
  | 83 => ⟨S4196352x1, .i32⟩
  | 84 => ⟨S4196352, .f32⟩
  | 85 => ⟨S4196352, .f32⟩
  | 86 => ⟨S2048x32, .f32⟩
  | 87 => ⟨S4196352x1, .f32⟩
  | 88 => ⟨S_, .i32⟩
  | 89 => ⟨S4196352, .i32⟩
  | 90 => ⟨S4196352, .i1⟩
  | 91 => ⟨S_, .i32⟩
  | 92 => ⟨S4196352, .i32⟩
  | 93 => ⟨S4196352, .i32⟩
  | 94 => ⟨S4196352, .i32⟩
  | 95 => ⟨S4196352x1, .i32⟩
  | 96 => ⟨S4196352x32, .f32⟩
  | 97 => ⟨S4196352x32, .f32⟩
  | 98 => ⟨S4196352x32, .f32⟩
  | 99 => ⟨S_, .f32⟩
  | 100 => ⟨S2048x32, .f32⟩
  | 101 => ⟨S_, .i32⟩
  | 102 => ⟨S4196352, .i32⟩
  | 103 => ⟨S4196352, .i1⟩
  | 104 => ⟨S_, .i32⟩
  | 105 => ⟨S4196352, .i32⟩
  | 106 => ⟨S4196352, .i32⟩
  | 107 => ⟨S4196352, .i32⟩
  | 108 => ⟨S4196352x1, .i32⟩
  | 109 => ⟨S2048x32, .f32⟩
  | 110 => ⟨S1x32, .f32⟩
  | 111 => ⟨S2048x32, .f32⟩
  | 112 => ⟨S2048x32, .f32⟩
  | 113 => ⟨S_, .f32⟩
  | 114 => ⟨S32, .f32⟩
  | 115 => ⟨S_, .f32⟩
  | 116 => ⟨S32, .f32⟩
  | 117 => ⟨S32, .f32⟩
  | 118 => ⟨S_, .i32⟩
  | 119 => ⟨S_, .f32⟩
  | 120 => ⟨S32, .f32⟩
  | 121 => ⟨S1x32, .f32⟩
  | 122 => ⟨S_, .f32⟩
  | 123 => ⟨S1x32, .f32⟩
  | 124 => ⟨S1x32, .f32⟩
  | 125 => ⟨S2048x32, .f32⟩
  | 126 => ⟨S2048x32, .f32⟩
  | 127 => ⟨S2048x32, .f32⟩
  | _ => ⟨S2048x64, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S32, .f32⟩
  | 5 => ⟨S32, .f32⟩
  | 6 => ⟨S32, .f32⟩
  | 7 => ⟨S_, .f32⟩
  | 8 => ⟨S_, .i1⟩
  | 9 => ⟨S_, .f32⟩
  | 10 => ⟨S_, .f32⟩
  | 11 => ⟨S32, .f32⟩
  | 12 => ⟨S32, .f32⟩
  | 13 => ⟨S1x32, .f32⟩
  | 14 => ⟨S2048x32, .f32⟩
  | 15 => ⟨S2048x32, .f32⟩
  | 16 => ⟨S_, .f32⟩
  | 17 => ⟨S32, .f32⟩
  | 18 => ⟨S32, .f32⟩
  | 19 => ⟨S32, .f32⟩
  | 20 => ⟨S1x32, .f32⟩
  | 21 => ⟨S2048x32, .f32⟩
  | 22 => ⟨S2048x32, .f32⟩
  | 23 => ⟨S1x32, .f32⟩
  | 24 => ⟨S2048x32, .f32⟩
  | 25 => ⟨S2048x32, .f32⟩
  | 26 => ⟨S1x32, .f32⟩
  | 27 => ⟨S2048x32, .f32⟩
  | 28 => ⟨S2048x32, .f32⟩
  | 29 => ⟨S_, .f32⟩
  | 30 => ⟨S2048x32, .f32⟩
  | 31 => ⟨S2048x32, .f32⟩
  | 32 => ⟨S2048, .i32⟩
  | 33 => ⟨S4196352, .i32⟩
  | 34 => ⟨S4196352, .i32⟩
  | 35 => ⟨S_, .f32⟩
  | 36 => ⟨S2048, .f32⟩
  | 37 => ⟨S4196352, .f32⟩
  | 38 => ⟨S_, .f32⟩
  | 39 => ⟨S2048, .f32⟩
  | 40 => ⟨S_, .i32⟩
  | 41 => ⟨S4196352, .i32⟩
  | 42 => ⟨S4196352, .i1⟩
  | 43 => ⟨S_, .i32⟩
  | 44 => ⟨S4196352, .i32⟩
  | 45 => ⟨S4196352, .i32⟩
  | 46 => ⟨S4196352, .i32⟩
  | 47 => ⟨S4196352x1, .i32⟩
  | 48 => ⟨S2048, .f32⟩
  | 49 => ⟨S_, .f32⟩
  | 50 => ⟨S2048, .f32⟩
  | 51 => ⟨S2048, .i1⟩
  | 52 => ⟨S_, .f32⟩
  | 53 => ⟨S_, .f32⟩
  | 54 => ⟨S2048, .f32⟩
  | 55 => ⟨S2048, .f32⟩
  | 56 => ⟨S_, .f32⟩
  | 57 => ⟨S2048, .f32⟩
  | 58 => ⟨S2048, .i1⟩
  | 59 => ⟨S2048, .f32⟩
  | 60 => ⟨S_, .f32⟩
  | 61 => ⟨S2048, .f32⟩
  | 62 => ⟨S2048, .f32⟩
  | 63 => ⟨S_, .f32⟩
  | 64 => ⟨S_, .f32⟩
  | 65 => ⟨S2048, .f32⟩
  | 66 => ⟨S2048, .f32⟩
  | 67 => ⟨S_, .i32⟩
  | 68 => ⟨S4196352, .i32⟩
  | 69 => ⟨S4196352, .i1⟩
  | 70 => ⟨S_, .i32⟩
  | 71 => ⟨S4196352, .i32⟩
  | 72 => ⟨S4196352, .i32⟩
  | 73 => ⟨S4196352, .i32⟩
  | 74 => ⟨S4196352x1, .i32⟩
  | 75 => ⟨S4196352, .f32⟩
  | 76 => ⟨S4196352, .f32⟩
  | 77 => ⟨S_, .i32⟩
  | 78 => ⟨S4196352, .i32⟩
  | 79 => ⟨S4196352, .i1⟩
  | 80 => ⟨S_, .i32⟩
  | 81 => ⟨S4196352, .i32⟩
  | 82 => ⟨S4196352, .i32⟩
  | 83 => ⟨S4196352, .i32⟩
  | 84 => ⟨S4196352x1, .i32⟩
  | 85 => ⟨S4196352, .f32⟩
  | 86 => ⟨S4196352, .f32⟩
  | 87 => ⟨S2048x32, .f32⟩
  | 88 => ⟨S4196352x1, .f32⟩
  | 89 => ⟨S_, .i32⟩
  | 90 => ⟨S4196352, .i32⟩
  | 91 => ⟨S4196352, .i1⟩
  | 92 => ⟨S_, .i32⟩
  | 93 => ⟨S4196352, .i32⟩
  | 94 => ⟨S4196352, .i32⟩
  | 95 => ⟨S4196352, .i32⟩
  | 96 => ⟨S4196352x1, .i32⟩
  | 97 => ⟨S4196352x32, .f32⟩
  | 98 => ⟨S4196352x32, .f32⟩
  | 99 => ⟨S4196352x32, .f32⟩
  | 100 => ⟨S_, .f32⟩
  | 101 => ⟨S2048x32, .f32⟩
  | 102 => ⟨S_, .i32⟩
  | 103 => ⟨S4196352, .i32⟩
  | 104 => ⟨S4196352, .i1⟩
  | 105 => ⟨S_, .i32⟩
  | 106 => ⟨S4196352, .i32⟩
  | 107 => ⟨S4196352, .i32⟩
  | 108 => ⟨S4196352, .i32⟩
  | 109 => ⟨S4196352x1, .i32⟩
  | 110 => ⟨S2048x32, .f32⟩
  | 111 => ⟨S1x32, .f32⟩
  | 112 => ⟨S2048x32, .f32⟩
  | 113 => ⟨S2048x32, .f32⟩
  | 114 => ⟨S_, .f32⟩
  | 115 => ⟨S32, .f32⟩
  | 116 => ⟨S_, .f32⟩
  | 117 => ⟨S32, .f32⟩
  | 118 => ⟨S32, .f32⟩
  | 119 => ⟨S_, .i32⟩
  | 120 => ⟨S_, .f32⟩
  | 121 => ⟨S32, .f32⟩
  | 122 => ⟨S1x32, .f32⟩
  | 123 => ⟨S_, .f32⟩
  | 124 => ⟨S1x32, .f32⟩
  | 125 => ⟨S1x32, .f32⟩
  | 126 => ⟨S2048x32, .f32⟩
  | 127 => ⟨S2048x32, .f32⟩
  | _ => ⟨S2048x64, .f32⟩

abbrev hbmTy0_3 (i : Nat) : BufTy := match i % 128 with
  | 0 => ⟨S2048x32, .f32⟩
  | 1 => ⟨S_, .f32⟩
  | 2 => ⟨S_, .f32⟩
  | 3 => ⟨S_, .f32⟩
  | 4 => ⟨S_, .f32⟩
  | 5 => ⟨S32, .f32⟩
  | 6 => ⟨S32, .f32⟩
  | 7 => ⟨S32, .f32⟩
  | 8 => ⟨S_, .f32⟩
  | 9 => ⟨S_, .i1⟩
  | 10 => ⟨S_, .f32⟩
  | 11 => ⟨S_, .f32⟩
  | 12 => ⟨S32, .f32⟩
  | 13 => ⟨S32, .f32⟩
  | 14 => ⟨S1x32, .f32⟩
  | 15 => ⟨S2048x32, .f32⟩
  | 16 => ⟨S2048x32, .f32⟩
  | 17 => ⟨S_, .f32⟩
  | 18 => ⟨S32, .f32⟩
  | 19 => ⟨S32, .f32⟩
  | 20 => ⟨S32, .f32⟩
  | 21 => ⟨S1x32, .f32⟩
  | 22 => ⟨S2048x32, .f32⟩
  | 23 => ⟨S2048x32, .f32⟩
  | 24 => ⟨S1x32, .f32⟩
  | 25 => ⟨S2048x32, .f32⟩
  | 26 => ⟨S2048x32, .f32⟩
  | 27 => ⟨S1x32, .f32⟩
  | 28 => ⟨S2048x32, .f32⟩
  | 29 => ⟨S2048x32, .f32⟩
  | _ => ⟨S2048x64, .f32⟩

abbrev hbmTy (i : Nat) : BufTy := match i / 128 with
  | 0 => hbmTy0_0 i
  | 1 => hbmTy0_1 i
  | 2 => hbmTy0_2 i
  | 3 => hbmTy0_3 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_call0_v0 : Ref sig .tc := ⟨.hbm, 13, rfl⟩
abbrev main_call0_v1 : Ref sig .tc := ⟨.hbm, 14, rfl⟩
abbrev main_call0_call0_c : Ref sig .tc := ⟨.hbm, 15, rfl⟩
abbrev main_call0_call0_v0 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v4 : Ref sig .tc := ⟨.hbm, 23, rfl⟩
abbrev main_c_1 : Ref sig .tc := ⟨.hbm, 24, rfl⟩
abbrev main_v5 : Ref sig .tc := ⟨.hbm, 25, rfl⟩
abbrev main_v6 : Ref sig .tc := ⟨.hbm, 26, rfl⟩
abbrev main_c_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_call2_call0_c : Ref sig .tc := ⟨.hbm, 35, rfl⟩
abbrev main_call2_call0_v0 : Ref sig .tc := ⟨.hbm, 36, rfl⟩
abbrev main_v13 : Ref sig .tc := ⟨.hbm, 37, rfl⟩
abbrev main_c_4 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_v6 : Ref sig .tc := ⟨.hbm, 45, rfl⟩
abbrev main_call3_v7 : Ref sig .tc := ⟨.hbm, 46, rfl⟩
abbrev main_call3_c : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_c_0 : Ref sig .tc := ⟨.hbm, 51, rfl⟩
abbrev main_call3_v11 : Ref sig .tc := ⟨.hbm, 52, rfl⟩
abbrev main_call3_v12 : Ref sig .tc := ⟨.hbm, 53, rfl⟩
abbrev main_v14 : Ref sig .tc := ⟨.hbm, 54, rfl⟩
abbrev main_c_5 : Ref sig .tc := ⟨.hbm, 55, rfl⟩
abbrev main_call4_v0 : Ref sig .tc := ⟨.hbm, 56, rfl⟩
abbrev main_call4_c : Ref sig .tc := ⟨.hbm, 57, rfl⟩
abbrev main_call4_v1 : Ref sig .tc := ⟨.hbm, 58, rfl⟩
abbrev main_call4_c_0 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_call4_c_1 : Ref sig .tc := ⟨.hbm, 63, rfl⟩
abbrev main_call4_v5 : Ref sig .tc := ⟨.hbm, 64, rfl⟩
abbrev main_call4_v6 : Ref sig .tc := ⟨.hbm, 65, rfl⟩
abbrev main_call4_c_2 : Ref sig .tc := ⟨.hbm, 66, rfl⟩
abbrev main_call4_v7 : Ref sig .tc := ⟨.hbm, 67, rfl⟩
abbrev main_call4_v8 : Ref sig .tc := ⟨.hbm, 68, rfl⟩
abbrev main_call4_c_3 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_v12 : Ref sig .tc := ⟨.hbm, 73, rfl⟩
abbrev main_call4_v13 : Ref sig .tc := ⟨.hbm, 74, rfl⟩
abbrev main_call4_v14 : Ref sig .tc := ⟨.hbm, 75, rfl⟩
abbrev main_v15 : Ref sig .tc := ⟨.hbm, 76, rfl⟩
abbrev main_c_6 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_v6 : Ref sig .tc := ⟨.hbm, 84, rfl⟩
abbrev main_call5_v7 : Ref sig .tc := ⟨.hbm, 85, rfl⟩
abbrev main_call5_c : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_c_0 : Ref sig .tc := ⟨.hbm, 90, rfl⟩
abbrev main_call5_v11 : Ref sig .tc := ⟨.hbm, 91, rfl⟩
abbrev main_call5_v12 : Ref sig .tc := ⟨.hbm, 92, rfl⟩
abbrev main_v16 : Ref sig .tc := ⟨.hbm, 93, rfl⟩
abbrev main_c_7 : Ref sig .tc := ⟨.hbm, 94, rfl⟩
abbrev main_call6_v0 : Ref sig .tc := ⟨.hbm, 95, rfl⟩
abbrev main_call6_c : Ref sig .tc := ⟨.hbm, 96, rfl⟩
abbrev main_call6_v1 : Ref sig .tc := ⟨.hbm, 97, rfl⟩
abbrev main_call6_c_0 : Ref sig .tc := ⟨.hbm, 98, rfl⟩
abbrev main_call6_v2 : Ref sig .tc := ⟨.hbm, 99, rfl⟩
abbrev main_call6_v3 : Ref sig .tc := ⟨.hbm, 100, rfl⟩
abbrev main_call6_v4 : Ref sig .tc := ⟨.hbm, 101, rfl⟩
abbrev main_call6_c_1 : Ref sig .tc := ⟨.hbm, 102, rfl⟩
abbrev main_call6_v5 : Ref sig .tc := ⟨.hbm, 103, rfl⟩
abbrev main_call6_v6 : Ref sig .tc := ⟨.hbm, 104, rfl⟩
abbrev main_call6_c_2 : Ref sig .tc := ⟨.hbm, 105, rfl⟩
abbrev main_call6_v7 : Ref sig .tc := ⟨.hbm, 106, rfl⟩
abbrev main_call6_v8 : Ref sig .tc := ⟨.hbm, 107, rfl⟩
abbrev main_call6_c_3 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_v12 : Ref sig .tc := ⟨.hbm, 112, rfl⟩
abbrev main_call6_v13 : Ref sig .tc := ⟨.hbm, 113, rfl⟩
abbrev main_call6_v14 : Ref sig .tc := ⟨.hbm, 114, rfl⟩
abbrev main_v17 : Ref sig .tc := ⟨.hbm, 115, rfl⟩
abbrev main_v18 : Ref sig .tc := ⟨.hbm, 116, rfl⟩
abbrev main_v19 : Ref sig .tc := ⟨.hbm, 117, rfl⟩
abbrev main_c_8 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_c_9 : Ref sig .tc := ⟨.hbm, 122, rfl⟩
abbrev main_call7_v0 : Ref sig .tc := ⟨.hbm, 123, rfl⟩
abbrev main_call7_v1 : Ref sig .tc := ⟨.hbm, 124, rfl⟩
abbrev main_v23 : Ref sig .tc := ⟨.hbm, 125, rfl⟩
abbrev main_c_10 : Ref sig .tc := ⟨.hbm, 126, rfl⟩
abbrev main_call8_v0 : Ref sig .tc := ⟨.hbm, 127, rfl⟩
abbrev main_call8_v1 : Ref sig .tc := ⟨.hbm, 128, rfl⟩
abbrev main_v24 : Ref sig .tc := ⟨.hbm, 129, rfl⟩
abbrev main_v25 : Ref sig .tc := ⟨.hbm, 130, rfl⟩
abbrev main_call9_cst : Ref sig .tc := ⟨.hbm, 131, rfl⟩
abbrev main_call9_v0 : Ref sig .tc := ⟨.hbm, 132, rfl⟩
abbrev main_call9_v1 : Ref sig .tc := ⟨.hbm, 133, rfl⟩
abbrev main_call9_v2 : Ref sig .tc := ⟨.hbm, 134, rfl⟩
abbrev main_call9_c : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_c_11 : Ref sig .tc := ⟨.hbm, 140, rfl⟩
abbrev main_v30 : Ref sig .tc := ⟨.hbm, 141, rfl⟩
abbrev main_v31 : Ref sig .tc := ⟨.hbm, 142, rfl⟩
abbrev main_c_12 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_c_13 : Ref sig .tc := ⟨.hbm, 147, rfl⟩
abbrev main_v35 : Ref sig .tc := ⟨.hbm, 148, rfl⟩
abbrev main_v36 : Ref sig .tc := ⟨.hbm, 149, rfl⟩
abbrev main_c_14 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_cst_15 : Ref sig .tc := ⟨.hbm, 162, rfl⟩
abbrev main_v48 : Ref sig .tc := ⟨.hbm, 163, rfl⟩
abbrev main_v49 : Ref sig .tc := ⟨.hbm, 164, rfl⟩
abbrev main_cst_16 : Ref sig .tc := ⟨.hbm, 165, rfl⟩
abbrev main_v50 : Ref sig .tc := ⟨.hbm, 166, rfl⟩
abbrev main_c_17 : Ref sig .tc := ⟨.hbm, 167, rfl⟩
abbrev main_v51 : Ref sig .tc := ⟨.hbm, 168, rfl⟩
abbrev main_v52 : Ref sig .tc := ⟨.hbm, 169, rfl⟩
abbrev main_c_18 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_cst_19 : Ref sig .tc := ⟨.hbm, 176, rfl⟩
abbrev main_v58 : Ref sig .tc := ⟨.hbm, 177, rfl⟩
abbrev main_v59 : Ref sig .tc := ⟨.hbm, 178, rfl⟩
abbrev main_cst_20 : Ref sig .tc := ⟨.hbm, 179, rfl⟩
abbrev main_call10_v0 : Ref sig .tc := ⟨.hbm, 180, rfl⟩
abbrev main_call10_v1 : Ref sig .tc := ⟨.hbm, 181, rfl⟩
abbrev main_v60 : Ref sig .tc := ⟨.hbm, 182, rfl⟩
abbrev main_cst_21 : Ref sig .tc := ⟨.hbm, 183, rfl⟩
abbrev main_v61 : Ref sig .tc := ⟨.hbm, 184, rfl⟩
abbrev main_v62 : Ref sig .tc := ⟨.hbm, 185, rfl⟩
abbrev main_v63 : Ref sig .tc := ⟨.hbm, 186, rfl⟩
abbrev main_cst_22 : Ref sig .tc := ⟨.hbm, 187, rfl⟩
abbrev main_v64 : Ref sig .tc := ⟨.hbm, 188, rfl⟩
abbrev main_v65 : Ref sig .tc := ⟨.hbm, 189, rfl⟩
abbrev main_cst_23 : Ref sig .tc := ⟨.hbm, 190, rfl⟩
abbrev main_call11_v0 : Ref sig .tc := ⟨.hbm, 191, rfl⟩
abbrev main_call11_v1 : Ref sig .tc := ⟨.hbm, 192, rfl⟩
abbrev main_v66 : Ref sig .tc := ⟨.hbm, 193, rfl⟩
abbrev main_c_24 : Ref sig .tc := ⟨.hbm, 194, rfl⟩
abbrev main_v67 : Ref sig .tc := ⟨.hbm, 195, rfl⟩
abbrev main_v68 : Ref sig .tc := ⟨.hbm, 196, rfl⟩
abbrev main_c_25 : Ref sig .tc := ⟨.hbm, 197, rfl⟩
abbrev main_v69 : Ref sig .tc := ⟨.hbm, 198, rfl⟩
abbrev main_v70 : Ref sig .tc := ⟨.hbm, 199, rfl⟩
abbrev main_v71 : Ref sig .tc := ⟨.hbm, 200, rfl⟩
abbrev main_v72 : Ref sig .tc := ⟨.hbm, 201, rfl⟩
abbrev main_v73 : Ref sig .tc := ⟨.hbm, 202, rfl⟩
abbrev main_v74 : Ref sig .tc := ⟨.hbm, 203, rfl⟩
abbrev main_c_26 : Ref sig .tc := ⟨.hbm, 204, rfl⟩
abbrev main_v75 : Ref sig .tc := ⟨.hbm, 205, rfl⟩
abbrev main_v76 : Ref sig .tc := ⟨.hbm, 206, rfl⟩
abbrev main_c_27 : Ref sig .tc := ⟨.hbm, 207, rfl⟩
abbrev main_v77 : Ref sig .tc := ⟨.hbm, 208, rfl⟩
abbrev main_v78 : Ref sig .tc := ⟨.hbm, 209, rfl⟩
abbrev main_v79 : Ref sig .tc := ⟨.hbm, 210, rfl⟩
abbrev main_v80 : Ref sig .tc := ⟨.hbm, 211, rfl⟩
abbrev main_v81 : Ref sig .tc := ⟨.hbm, 212, rfl⟩
abbrev main_v82 : Ref sig .tc := ⟨.hbm, 213, rfl⟩
abbrev main_v83 : Ref sig .tc := ⟨.hbm, 214, rfl⟩
abbrev main_v84 : Ref sig .tc := ⟨.hbm, 215, rfl⟩
abbrev main_c_28 : Ref sig .tc := ⟨.hbm, 216, rfl⟩
abbrev main_v85 : Ref sig .tc := ⟨.hbm, 217, rfl⟩
abbrev main_v86 : Ref sig .tc := ⟨.hbm, 218, rfl⟩
abbrev main_c_29 : Ref sig .tc := ⟨.hbm, 219, rfl⟩
abbrev main_v87 : Ref sig .tc := ⟨.hbm, 220, rfl⟩
abbrev main_v88 : Ref sig .tc := ⟨.hbm, 221, rfl⟩
abbrev main_v89 : Ref sig .tc := ⟨.hbm, 222, rfl⟩
abbrev main_v90 : Ref sig .tc := ⟨.hbm, 223, rfl⟩
abbrev main_v91 : Ref sig .tc := ⟨.hbm, 224, rfl⟩
abbrev main_v92 : Ref sig .tc := ⟨.hbm, 225, rfl⟩
abbrev main_v93 : Ref sig .tc := ⟨.hbm, 226, rfl⟩
abbrev main_cst_30 : Ref sig .tc := ⟨.hbm, 227, rfl⟩
abbrev main_v94 : Ref sig .tc := ⟨.hbm, 228, rfl⟩
abbrev main_c_31 : Ref sig .tc := ⟨.hbm, 229, rfl⟩
abbrev main_v95 : Ref sig .tc := ⟨.hbm, 230, rfl⟩
abbrev main_v96 : Ref sig .tc := ⟨.hbm, 231, rfl⟩
abbrev main_c_32 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_v103 : Ref sig .tc := ⟨.hbm, 239, rfl⟩
abbrev main_v104 : Ref sig .tc := ⟨.hbm, 240, rfl⟩
abbrev main_cst_33 : Ref sig .tc := ⟨.hbm, 241, rfl⟩
abbrev main_v105 : Ref sig .tc := ⟨.hbm, 242, rfl⟩
abbrev main_cst_34 : Ref sig .tc := ⟨.hbm, 243, rfl⟩
abbrev main_v106 : Ref sig .tc := ⟨.hbm, 244, rfl⟩
abbrev main_v107 : Ref sig .tc := ⟨.hbm, 245, rfl⟩
abbrev main_c_35 : Ref sig .tc := ⟨.hbm, 246, rfl⟩
abbrev main_call12_cst : Ref sig .tc := ⟨.hbm, 247, rfl⟩
abbrev main_call12_v0 : Ref sig .tc := ⟨.hbm, 248, rfl⟩
abbrev main_call12_v1 : Ref sig .tc := ⟨.hbm, 249, rfl⟩
abbrev main_call12_cst_0 : Ref sig .tc := ⟨.hbm, 250, rfl⟩
abbrev main_call12_v2 : Ref sig .tc := ⟨.hbm, 251, rfl⟩
abbrev main_call12_v3 : Ref sig .tc := ⟨.hbm, 252, rfl⟩
abbrev main_call12_v4 : Ref sig .tc := ⟨.hbm, 253, rfl⟩
abbrev main_call12_v5 : Ref sig .tc := ⟨.hbm, 254, rfl⟩
abbrev main_call12_v6 : Ref sig .tc := ⟨.hbm, 255, rfl⟩
abbrev main_call12_v7 : Ref sig .tc := ⟨.hbm, 256, rfl⟩
abbrev main_call12_cst_1 : Ref sig .tc := ⟨.hbm, 257, rfl⟩
abbrev main_call12_v8 : Ref sig .tc := ⟨.hbm, 258, rfl⟩
abbrev main_call12_cst_2 : Ref sig .tc := ⟨.hbm, 259, rfl⟩
abbrev main_call12_v9 : Ref sig .tc := ⟨.hbm, 260, rfl⟩
abbrev main_call12_v10 : Ref sig .tc := ⟨.hbm, 261, rfl⟩
abbrev main_call12_v11 : Ref sig .tc := ⟨.hbm, 262, rfl⟩
abbrev main_call12_cst_3 : Ref sig .tc := ⟨.hbm, 263, rfl⟩
abbrev main_call12_v12 : Ref sig .tc := ⟨.hbm, 264, rfl⟩
abbrev main_call12_cst_4 : Ref sig .tc := ⟨.hbm, 265, rfl⟩
abbrev main_call12_call0_v0 : Ref sig .tc := ⟨.hbm, 266, rfl⟩
abbrev main_call12_call0_v1 : Ref sig .tc := ⟨.hbm, 267, rfl⟩
abbrev main_v108 : Ref sig .tc := ⟨.hbm, 268, rfl⟩
abbrev main_v109 : Ref sig .tc := ⟨.hbm, 269, rfl⟩
abbrev main_v110 : Ref sig .tc := ⟨.hbm, 270, rfl⟩
abbrev main_v111 : Ref sig .tc := ⟨.hbm, 271, rfl⟩
abbrev main_cst_36 : Ref sig .tc := ⟨.hbm, 272, rfl⟩
abbrev main_v112 : Ref sig .tc := ⟨.hbm, 273, rfl⟩
abbrev main_v113 : Ref sig .tc := ⟨.hbm, 274, rfl⟩
abbrev main_v114 : Ref sig .tc := ⟨.hbm, 275, rfl⟩
abbrev main_v115 : Ref sig .tc := ⟨.hbm, 276, rfl⟩
abbrev main_v116 : Ref sig .tc := ⟨.hbm, 277, rfl⟩
abbrev main_v117 : Ref sig .tc := ⟨.hbm, 278, rfl⟩
abbrev main_v118 : Ref sig .tc := ⟨.hbm, 279, rfl⟩
abbrev main_v119 : Ref sig .tc := ⟨.hbm, 280, rfl⟩
abbrev main_v120 : Ref sig .tc := ⟨.hbm, 281, rfl⟩
abbrev main_v121 : Ref sig .tc := ⟨.hbm, 282, rfl⟩
abbrev main_v122 : Ref sig .tc := ⟨.hbm, 283, rfl⟩
abbrev main_v123 : Ref sig .tc := ⟨.hbm, 284, rfl⟩
abbrev main_call13_cst : Ref sig .tc := ⟨.hbm, 285, rfl⟩
abbrev main_call13_v0 : Ref sig .tc := ⟨.hbm, 286, rfl⟩
abbrev main_v124 : Ref sig .tc := ⟨.hbm, 287, rfl⟩
abbrev main_v125 : Ref sig .tc := ⟨.hbm, 288, rfl⟩
abbrev main_v126 : Ref sig .tc := ⟨.hbm, 289, rfl⟩
abbrev main_v127 : Ref sig .tc := ⟨.hbm, 290, rfl⟩
abbrev main_cst_37 : Ref sig .tc := ⟨.hbm, 291, rfl⟩
abbrev main_v128 : Ref sig .tc := ⟨.hbm, 292, rfl⟩
abbrev main_v129 : Ref sig .tc := ⟨.hbm, 293, rfl⟩
abbrev main_cst_38 : Ref sig .tc := ⟨.hbm, 294, rfl⟩
abbrev main_v130 : Ref sig .tc := ⟨.hbm, 295, rfl⟩
abbrev main_c_39 : Ref sig .tc := ⟨.hbm, 296, rfl⟩
abbrev main_v131 : Ref sig .tc := ⟨.hbm, 297, rfl⟩
abbrev main_v132 : Ref sig .tc := ⟨.hbm, 298, rfl⟩
abbrev main_c_40 : Ref sig .tc := ⟨.hbm, 299, rfl⟩
abbrev main_v133 : Ref sig .tc := ⟨.hbm, 300, rfl⟩
abbrev main_v134 : Ref sig .tc := ⟨.hbm, 301, rfl⟩
abbrev main_v135 : Ref sig .tc := ⟨.hbm, 302, rfl⟩
abbrev main_v136 : Ref sig .tc := ⟨.hbm, 303, rfl⟩
abbrev main_v137 : Ref sig .tc := ⟨.hbm, 304, rfl⟩
abbrev main_cst_41 : Ref sig .tc := ⟨.hbm, 305, rfl⟩
abbrev main_v138 : Ref sig .tc := ⟨.hbm, 306, rfl⟩
abbrev main_v139 : Ref sig .tc := ⟨.hbm, 307, rfl⟩
abbrev main_cst_42 : Ref sig .tc := ⟨.hbm, 308, rfl⟩
abbrev main_call14_v0 : Ref sig .tc := ⟨.hbm, 309, rfl⟩
abbrev main_call14_v1 : Ref sig .tc := ⟨.hbm, 310, rfl⟩
abbrev main_v140 : Ref sig .tc := ⟨.hbm, 311, rfl⟩
abbrev main_cst_43 : Ref sig .tc := ⟨.hbm, 312, rfl⟩
abbrev main_v141 : Ref sig .tc := ⟨.hbm, 313, rfl⟩
abbrev main_v142 : Ref sig .tc := ⟨.hbm, 314, rfl⟩
abbrev main_v143 : Ref sig .tc := ⟨.hbm, 315, rfl⟩
abbrev main_cst_44 : Ref sig .tc := ⟨.hbm, 316, rfl⟩
abbrev main_v144 : Ref sig .tc := ⟨.hbm, 317, rfl⟩
abbrev main_v145 : Ref sig .tc := ⟨.hbm, 318, rfl⟩
abbrev main_cst_45 : Ref sig .tc := ⟨.hbm, 319, rfl⟩
abbrev main_call15_v0 : Ref sig .tc := ⟨.hbm, 320, rfl⟩
abbrev main_call15_v1 : Ref sig .tc := ⟨.hbm, 321, rfl⟩
abbrev main_v146 : Ref sig .tc := ⟨.hbm, 322, rfl⟩
abbrev main_c_46 : Ref sig .tc := ⟨.hbm, 323, rfl⟩
abbrev main_v147 : Ref sig .tc := ⟨.hbm, 324, rfl⟩
abbrev main_v148 : Ref sig .tc := ⟨.hbm, 325, rfl⟩
abbrev main_c_47 : Ref sig .tc := ⟨.hbm, 326, rfl⟩
abbrev main_v149 : Ref sig .tc := ⟨.hbm, 327, rfl⟩
abbrev main_v150 : Ref sig .tc := ⟨.hbm, 328, rfl⟩
abbrev main_v151 : Ref sig .tc := ⟨.hbm, 329, rfl⟩
abbrev main_v152 : Ref sig .tc := ⟨.hbm, 330, rfl⟩
abbrev main_v153 : Ref sig .tc := ⟨.hbm, 331, rfl⟩
abbrev main_v154 : Ref sig .tc := ⟨.hbm, 332, rfl⟩
abbrev main_c_48 : Ref sig .tc := ⟨.hbm, 333, rfl⟩
abbrev main_v155 : Ref sig .tc := ⟨.hbm, 334, rfl⟩
abbrev main_v156 : Ref sig .tc := ⟨.hbm, 335, rfl⟩
abbrev main_c_49 : Ref sig .tc := ⟨.hbm, 336, rfl⟩
abbrev main_v157 : Ref sig .tc := ⟨.hbm, 337, rfl⟩
abbrev main_v158 : Ref sig .tc := ⟨.hbm, 338, rfl⟩
abbrev main_v159 : Ref sig .tc := ⟨.hbm, 339, rfl⟩
abbrev main_v160 : Ref sig .tc := ⟨.hbm, 340, rfl⟩
abbrev main_v161 : Ref sig .tc := ⟨.hbm, 341, rfl⟩
abbrev main_v162 : Ref sig .tc := ⟨.hbm, 342, rfl⟩
abbrev main_v163 : Ref sig .tc := ⟨.hbm, 343, rfl⟩
abbrev main_v164 : Ref sig .tc := ⟨.hbm, 344, rfl⟩
abbrev main_c_50 : Ref sig .tc := ⟨.hbm, 345, rfl⟩
abbrev main_v165 : Ref sig .tc := ⟨.hbm, 346, rfl⟩
abbrev main_v166 : Ref sig .tc := ⟨.hbm, 347, rfl⟩
abbrev main_c_51 : Ref sig .tc := ⟨.hbm, 348, rfl⟩
abbrev main_v167 : Ref sig .tc := ⟨.hbm, 349, rfl⟩
abbrev main_v168 : Ref sig .tc := ⟨.hbm, 350, rfl⟩
abbrev main_v169 : Ref sig .tc := ⟨.hbm, 351, rfl⟩
abbrev main_v170 : Ref sig .tc := ⟨.hbm, 352, rfl⟩
abbrev main_v171 : Ref sig .tc := ⟨.hbm, 353, rfl⟩
abbrev main_v172 : Ref sig .tc := ⟨.hbm, 354, rfl⟩
abbrev main_v173 : Ref sig .tc := ⟨.hbm, 355, rfl⟩
abbrev main_cst_52 : Ref sig .tc := ⟨.hbm, 356, rfl⟩
abbrev main_v174 : Ref sig .tc := ⟨.hbm, 357, rfl⟩
abbrev main_c_53 : Ref sig .tc := ⟨.hbm, 358, rfl⟩
abbrev main_v175 : Ref sig .tc := ⟨.hbm, 359, rfl⟩
abbrev main_v176 : Ref sig .tc := ⟨.hbm, 360, rfl⟩
abbrev main_c_54 : Ref sig .tc := ⟨.hbm, 361, rfl⟩
abbrev main_v177 : Ref sig .tc := ⟨.hbm, 362, rfl⟩
abbrev main_v178 : Ref sig .tc := ⟨.hbm, 363, rfl⟩
abbrev main_v179 : Ref sig .tc := ⟨.hbm, 364, rfl⟩
abbrev main_v180 : Ref sig .tc := ⟨.hbm, 365, rfl⟩
abbrev main_v181 : Ref sig .tc := ⟨.hbm, 366, rfl⟩
abbrev main_v182 : Ref sig .tc := ⟨.hbm, 367, rfl⟩
abbrev main_v183 : Ref sig .tc := ⟨.hbm, 368, rfl⟩
abbrev main_v184 : Ref sig .tc := ⟨.hbm, 369, rfl⟩
abbrev main_cst_55 : Ref sig .tc := ⟨.hbm, 370, rfl⟩
abbrev main_v185 : Ref sig .tc := ⟨.hbm, 371, rfl⟩
abbrev main_cst_56 : Ref sig .tc := ⟨.hbm, 372, rfl⟩
abbrev main_v186 : Ref sig .tc := ⟨.hbm, 373, rfl⟩
abbrev main_v187 : Ref sig .tc := ⟨.hbm, 374, rfl⟩
abbrev main_c_57 : Ref sig .tc := ⟨.hbm, 375, rfl⟩
abbrev main_call16_cst : Ref sig .tc := ⟨.hbm, 376, rfl⟩
abbrev main_call16_v0 : Ref sig .tc := ⟨.hbm, 377, rfl⟩
abbrev main_call16_v1 : Ref sig .tc := ⟨.hbm, 378, rfl⟩
abbrev main_call16_cst_0 : Ref sig .tc := ⟨.hbm, 379, rfl⟩
abbrev main_call16_v2 : Ref sig .tc := ⟨.hbm, 380, rfl⟩
abbrev main_call16_v3 : Ref sig .tc := ⟨.hbm, 381, rfl⟩
abbrev main_call16_v4 : Ref sig .tc := ⟨.hbm, 382, rfl⟩
abbrev main_call16_v5 : Ref sig .tc := ⟨.hbm, 383, rfl⟩
abbrev main_call16_v6 : Ref sig .tc := ⟨.hbm, 384, rfl⟩
abbrev main_call16_v7 : Ref sig .tc := ⟨.hbm, 385, rfl⟩
abbrev main_call16_cst_1 : Ref sig .tc := ⟨.hbm, 386, rfl⟩
abbrev main_call16_v8 : Ref sig .tc := ⟨.hbm, 387, rfl⟩
abbrev main_call16_cst_2 : Ref sig .tc := ⟨.hbm, 388, rfl⟩
abbrev main_call16_v9 : Ref sig .tc := ⟨.hbm, 389, rfl⟩
abbrev main_call16_v10 : Ref sig .tc := ⟨.hbm, 390, rfl⟩
abbrev main_call16_v11 : Ref sig .tc := ⟨.hbm, 391, rfl⟩
abbrev main_call16_cst_3 : Ref sig .tc := ⟨.hbm, 392, rfl⟩
abbrev main_call16_v12 : Ref sig .tc := ⟨.hbm, 393, rfl⟩
abbrev main_call16_cst_4 : Ref sig .tc := ⟨.hbm, 394, rfl⟩
abbrev main_call16_call0_v0 : Ref sig .tc := ⟨.hbm, 395, rfl⟩
abbrev main_call16_call0_v1 : Ref sig .tc := ⟨.hbm, 396, rfl⟩
abbrev main_v188 : Ref sig .tc := ⟨.hbm, 397, rfl⟩
abbrev main_v189 : Ref sig .tc := ⟨.hbm, 398, rfl⟩
abbrev main_v190 : Ref sig .tc := ⟨.hbm, 399, rfl⟩
abbrev main_v191 : Ref sig .tc := ⟨.hbm, 400, rfl⟩
abbrev main_cst_58 : Ref sig .tc := ⟨.hbm, 401, rfl⟩
abbrev main_v192 : Ref sig .tc := ⟨.hbm, 402, rfl⟩
abbrev main_v193 : Ref sig .tc := ⟨.hbm, 403, rfl⟩
abbrev main_v194 : Ref sig .tc := ⟨.hbm, 404, rfl⟩
abbrev main_v195 : Ref sig .tc := ⟨.hbm, 405, rfl⟩
abbrev main_v196 : Ref sig .tc := ⟨.hbm, 406, rfl⟩
abbrev main_v197 : Ref sig .tc := ⟨.hbm, 407, rfl⟩
abbrev main_v198 : Ref sig .tc := ⟨.hbm, 408, rfl⟩
abbrev main_v199 : Ref sig .tc := ⟨.hbm, 409, rfl⟩
abbrev main_v200 : Ref sig .tc := ⟨.hbm, 410, rfl⟩
abbrev main_v201 : Ref sig .tc := ⟨.hbm, 411, rfl⟩
abbrev main_v202 : Ref sig .tc := ⟨.hbm, 412, rfl⟩
abbrev main_v203 : Ref sig .tc := ⟨.hbm, 413, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  shapeCasts_S2048x2048_S4194304 : S2048x2048.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S2048x2048_S_d0_1 : S2048x2048.ReducesTo [0, 1] S_
  concatenates_S4194304x1_S4194304x1_S4194304x2_d1 : Shape.Concatenates [S4194304x1, S4194304x1] S4194304x2 1
  concatenates_S4194304_S2048_S4196352_d0 : Shape.Concatenates [S4194304, S2048] S4196352 0
  bcast_S_S2048 : S_.BroadcastsInDim S2048 (![] : Fin 0 → Fin S2048.rank)
  bcast_S_S4196352 : S_.BroadcastsInDim S4196352 (![] : Fin 0 → Fin S4196352.rank)
  bcast_S4196352_S4196352x1_0 : S4196352.BroadcastsInDim S4196352x1 (![0] : Fin 1 → Fin S4196352x1.rank)
  bcast_S4196352x1_S4196352x32_0_1 : S4196352x1.BroadcastsInDim S4196352x32 (![0, 1] : Fin 2 → Fin S4196352x32.rank)
  bcast_S_S2048x32 : S_.BroadcastsInDim S2048x32 (![] : Fin 0 → Fin S2048x32.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  reducesTo_S2048x32_S32_d0 : S2048x32.ReducesTo [0] S32
  bcast_S_S32 : S_.BroadcastsInDim S32 (![] : Fin 0 → Fin S32.rank)
  bcast_S_S1x32 : S_.BroadcastsInDim S1x32 (![] : Fin 0 → Fin S1x32.rank)
  scatter_S4194304_S4194304x1_S4194304_n_0_0_1_wf : ScatterDims.WF S4194304 S4194304x1 S4194304 [] [0] [0] 1
  gather_S2048x2048_S4194304x2_S4194304_n_01_n_n_01_1_11_wf : GatherDims.WF S2048x2048 S4194304x2 S4194304 [] [0, 1] [] [0, 1] [] 1 ![1, 1]
  scatter_S2048_S4196352x1_S4196352_n_0_0_1_wf : ScatterDims.WF S2048 S4196352x1 S4196352 [] [0] [0] 1
  gather_S2048_S4196352x1_S4196352_n_0_n_n_0_1_1_wf : GatherDims.WF S2048 S4196352x1 S4196352 [] [0] [] [0] [] 1 ![1]
  dot_S2048x64_S64x32_S2048x32_1_0_0_1_n_n_wf : DotDims.WF S2048x64 S64x32 S2048x32 [1] [0] [0] [1] [] []
  gather_S2048x32_S4196352x1_S4196352x32_1_0_n_n_0_1_132_wf : GatherDims.WF S2048x32 S4196352x1 S4196352x32 [1] [0] [] [0] [] 1 ![1, 32]
  scatter_S2048x32_S4196352x1_S4196352x32_1_0_0_1_wf : ScatterDims.WF S2048x32 S4196352x1 S4196352x32 [1] [0] [0] 1
  dot_S2048x32_S32x32_S2048x32_1_0_0_1_n_n_wf : DotDims.WF S2048x32 S32x32 S2048x32 [1] [0] [0] [1] [] []

variable [Facts₀]

def scatter_S4194304_S4194304x1_S4194304_n_0_0_1 : ScatterDims S4194304 S4194304x1 S4194304 where
  updateWindowDims := []
  insertedWindowDims := [0]
  scatterDimsToOperandDims := [0]
  indexVectorDim := 1
  wf := scatter_S4194304_S4194304x1_S4194304_n_0_0_1_wf
def gather_S2048x2048_S4194304x2_S4194304_n_01_n_n_01_1_11 : GatherDims S2048x2048 S4194304x2 S4194304 where
  offsetDims := []
  collapsedSliceDims := [0, 1]
  operandBatchingDims := []
  startIndicesBatchingDims := []
  startIndexMap := [0, 1]
  indexVectorDim := 1
  sliceSizes := ![1, 1]
  wf := gather_S2048x2048_S4194304x2_S4194304_n_01_n_n_01_1_11_wf
def scatter_S2048_S4196352x1_S4196352_n_0_0_1 : ScatterDims S2048 S4196352x1 S4196352 where
  updateWindowDims := []
  insertedWindowDims := [0]
  scatterDimsToOperandDims := [0]
  indexVectorDim := 1
  wf := scatter_S2048_S4196352x1_S4196352_n_0_0_1_wf
def gather_S2048_S4196352x1_S4196352_n_0_n_n_0_1_1 : GatherDims S2048 S4196352x1 S4196352 where
  offsetDims := []
  collapsedSliceDims := [0]
  operandBatchingDims := []
  startIndicesBatchingDims := []
  startIndexMap := [0]
  indexVectorDim := 1
  sliceSizes := ![1]
  wf := gather_S2048_S4196352x1_S4196352_n_0_n_n_0_1_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def gather_S2048x32_S4196352x1_S4196352x32_1_0_n_n_0_1_132 : GatherDims S2048x32 S4196352x1 S4196352x32 where
  offsetDims := [1]
  collapsedSliceDims := [0]
  operandBatchingDims := []
  startIndicesBatchingDims := []
  startIndexMap := [0]
  indexVectorDim := 1
  sliceSizes := ![1, 32]
  wf := gather_S2048x32_S4196352x1_S4196352x32_1_0_n_n_0_1_132_wf
def scatter_S2048x32_S4196352x1_S4196352x32_1_0_0_1 : ScatterDims S2048x32 S4196352x1 S4196352x32 where
  updateWindowDims := [1]
  insertedWindowDims := [0]
  scatterDimsToOperandDims := [0]
  indexVectorDim := 1
  wf := scatter_S2048x32_S4196352x1_S4196352x32_1_0_0_1_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

class Facts : Prop extends Facts₀ where

variable [Facts]
-- ==== Proof.WContents.lean ====
/-
  The carried contents of the two-layer graph convolution kernel, point by point.

  The kernel walks a grid of 24 points `t = 8·p + j` (`p < 3`, `j < 8`) and keeps six arrays between points:
  the column sums of the adjacency, their inverse square roots, and per layer the scaled linear map `u` and
  the propagated rows `y`. The points fall into six control cases by their coordinates: `p = 0` (the column
  sums of block `j` are stored), `(1, 0)` (the inverse roots and `u₁` are stored whole, then rows block 0 of
  `y₁`), `p = 1, j ≠ 0` (rows block `j` of `y₁`), `(2, 0)` (`u₂` whole, then rows block 0 of `y₂`),
  `p = 2, 0 < j < 7` (rows block `j` of `y₂`), `(2, 7)` (rows block 7 of `y₂`, then the result whole).

  Here: the six arrays as one record `St`; what the assembly takes of the body per case (`CaseRuns`: the new
  record as a function of the input blocks and the old record, with the body's triple); one point as a function
  `step` on records, by cases on the position; and the iteration `stAt` from the contents `z` the carried
  buffers happen to hold when the grid is entered (they are not initialised), with `step`'s value in each case.
-/
import proofs.«121040_g28046136442917_fold_wed_c4_759_6_alg».proof.Proof.Gen.Kernel.Frame

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The resource model the assembly's assertions live in. -/
abbrev MM (F : FTy → Type) : Type := MT nD τ sig Unit (Elt F) ℕ (UR sig nD τ) ℕ

/-! ## The buffers at a point -/

/-- Window 0's current buffer at point `t`. -/
abbrev stg0 (t : Fin cfg0.N) : Memref sig .tc .vmem S2048x64 .f32 := win0_0.stage (cfg0.slots t 0)
/-- Window 1's current buffer at point `t`. -/
abbrev stg1 (t : Fin cfg0.N) : Memref sig .tc .vmem S2048x2048 .f32 := win0_1.stage (cfg0.slots t 1)
/-- Window 2's current buffer at point `t`. -/
abbrev stg2 (t : Fin cfg0.N) : Memref sig .tc .vmem S64x32 .f32 := win0_2.stage (cfg0.slots t 2)
/-- Window 3's current buffer at point `t`. -/
abbrev stg3 (t : Fin cfg0.N) : Memref sig .tc .vmem S1x32 .f32 := win0_3.stage (cfg0.slots t 3)
/-- Window 4's current buffer at point `t`. -/
abbrev stg4 (t : Fin cfg0.N) : Memref sig .tc .vmem S1x32 .f32 := win0_4.stage (cfg0.slots t 4)
/-- Window 5's current buffer at point `t`. -/
abbrev stg5 (t : Fin cfg0.N) : Memref sig .tc .vmem S1x32 .f32 := win0_5.stage (cfg0.slots t 5)
/-- Window 6's current buffer at point `t`. -/
abbrev stg6 (t : Fin cfg0.N) : Memref sig .tc .vmem S32x32 .f32 := win0_6.stage (cfg0.slots t 6)
/-- Window 7's current buffer at point `t`. -/
abbrev stg7 (t : Fin cfg0.N) : Memref sig .tc .vmem S1x32 .f32 := win0_7.stage (cfg0.slots t 7)
/-- Window 8's current buffer at point `t`. -/
abbrev stg8 (t : Fin cfg0.N) : Memref sig .tc .vmem S1x32 .f32 := win0_8.stage (cfg0.slots t 8)
/-- Window 9's current buffer at point `t`. -/
abbrev stg9 (t : Fin cfg0.N) : Memref sig .tc .vmem S1x32 .f32 := win0_9.stage (cfg0.slots t 9)
/-- Window 10's current buffer at point `t`. -/
abbrev stg10 (t : Fin cfg0.N) : Memref sig .tc .vmem S2048x32 .f32 := win0_10.stage (cfg0.slots t 10)
/-- Carried buffer 0, whole. -/
abbrev scr0 : Memref sig .tc .vmem S2048x1 .f32 := Memref.whole cc0_scratch0
/-- Carried buffer 1, whole. -/
abbrev scr1 : Memref sig .tc .vmem S2048x1 .f32 := Memref.whole cc0_scratch1
/-- Carried buffer 2, whole. -/
abbrev scr2 : Memref sig .tc .vmem S2048x32 .f32 := Memref.whole cc0_scratch2
/-- Carried buffer 3, whole. -/
abbrev scr3 : Memref sig .tc .vmem S2048x32 .f32 := Memref.whole cc0_scratch3
/-- Carried buffer 4, whole. -/
abbrev scr4 : Memref sig .tc .vmem S2048x32 .f32 := Memref.whole cc0_scratch4
/-- Carried buffer 5, whole. -/
abbrev scr5 : Memref sig .tc .vmem S2048x32 .f32 := Memref.whole cc0_scratch5

/-- The six carried arrays: column sums, their inverse roots, and per layer the scaled linear map and the
    propagated rows. -/
structure St (F : FTy → Type) where
  deg : Vec F S2048x1 .f32
  dis : Vec F S2048x1 .f32
  u1 : Vec F S2048x32 .f32
  y1 : Vec F S2048x32 .f32
  u2 : Vec F S2048x32 .f32
  y2 : Vec F S2048x32 .f32

/-- The ten input blocks a point reads (every input window holds its whole array). -/
structure Ins (F : FTy → Type) where
  x0 : Vec F S2048x64 .f32
  x1 : Vec F S2048x2048 .f32
  x2 : Vec F S64x32 .f32
  x3 : Vec F S1x32 .f32
  x4 : Vec F S1x32 .f32
  x5 : Vec F S1x32 .f32
  x6 : Vec F S32x32 .f32
  x7 : Vec F S1x32 .f32
  x8 : Vec F S1x32 .f32
  x9 : Vec F S1x32 .f32

/-- The ten input buffers at point `t`, owned at the contents `x`. -/
def insOwn (c : Dev nD) (t : Fin cfg0.N) (x : Ins F) : sProp 𝕄 :=
  iprop(owns (c : Thread nD τ) (stg0 t) fullShare x.x0
    ∗ owns (c : Thread nD τ) (stg1 t) fullShare x.x1
    ∗ owns (c : Thread nD τ) (stg2 t) fullShare x.x2
    ∗ owns (c : Thread nD τ) (stg3 t) fullShare x.x3
    ∗ owns (c : Thread nD τ) (stg4 t) fullShare x.x4
    ∗ owns (c : Thread nD τ) (stg5 t) fullShare x.x5
    ∗ owns (c : Thread nD τ) (stg6 t) fullShare x.x6
    ∗ owns (c : Thread nD τ) (stg7 t) fullShare x.x7
    ∗ owns (c : Thread nD τ) (stg8 t) fullShare x.x8
    ∗ owns (c : Thread nD τ) (stg9 t) fullShare x.x9)

/-- The six carried buffers, owned at the contents `d`. -/
def scrOwn (c : Dev nD) (d : St F) : sProp 𝕄 :=
  iprop(owns (c : Thread nD τ) scr0 fullShare d.deg
    ∗ owns (c : Thread nD τ) scr1 fullShare d.dis
    ∗ owns (c : Thread nD τ) scr2 fullShare d.u1
    ∗ owns (c : Thread nD τ) scr3 fullShare d.y1
    ∗ owns (c : Thread nD τ) scr4 fullShare d.u2
    ∗ owns (c : Thread nD τ) scr5 fullShare d.y2)

/-- What the assembly takes of the kernel body, control case by control case. The 24 points fall into six cases
    by their coordinates `(p, j) = (t / 8, t % 8)`: `p = 0`; `(1, 0)`; `p = 1, j ≠ 0`; `(2, 0)`; `p = 2, 0 < j < 7`;
    `(2, 7)`. Per case: the carried arrays after the body as a function of the input blocks and the carried arrays
    before it, and the body's triple at a point of the case — from the ten input buffers, the output buffer and the
    six carried buffers at named contents it runs to the same buffers, the carried ones at the new contents; in the
    last case the output buffer, found at anything, is left at the case's result. -/
structure CaseRuns (F : FTy → Type) [FloatOps F] where
  fA : Dev nD → (t : Fin cfg0.N) → t.val < 8 → Ins F → St F → St F
  runA : ∀ (c : Dev nD) (t : Fin cfg0.N) (h : t.val < 8) (x : Ins F) (d : St F) (o : Vec F S2048x32 .f32) (E : Set ℕ) (K : PUnit → sProp (MM F)),
    iprop(insOwn c t x ∗ owns (c : Thread nD τ) (stg10 t) fullShare o ∗ scrOwn c d
        ∗ (iprop(insOwn c t x ∗ owns (c : Thread nD τ) (stg10 t) fullShare o ∗ scrOwn c (fA c t h x d)) -∗ K ⟨⟩))
      ⊢ wp frame (wpE (defs₀ (F := F)) Variants.none c none) E (bodyAt0 t) K
  fB : Dev nD → (t : Fin cfg0.N) → t.val = 8 → Ins F → St F → St F
  runB : ∀ (c : Dev nD) (t : Fin cfg0.N) (h : t.val = 8) (x : Ins F) (d : St F) (o : Vec F S2048x32 .f32) (E : Set ℕ) (K : PUnit → sProp (MM F)),
    iprop(insOwn c t x ∗ owns (c : Thread nD τ) (stg10 t) fullShare o ∗ scrOwn c d
        ∗ (iprop(insOwn c t x ∗ owns (c : Thread nD τ) (stg10 t) fullShare o ∗ scrOwn c (fB c t h x d)) -∗ K ⟨⟩))
      ⊢ wp frame (wpE (defs₀ (F := F)) Variants.none c none) E (bodyAt0 t) K
  fC : Dev nD → (t : Fin cfg0.N) → 8 < t.val ∧ t.val < 16 → Ins F → St F → St F
  runC : ∀ (c : Dev nD) (t : Fin cfg0.N) (h : 8 < t.val ∧ t.val < 16) (x : Ins F) (d : St F) (o : Vec F S2048x32 .f32) (E : Set ℕ) (K : PUnit → sProp (MM F)),
    iprop(insOwn c t x ∗ owns (c : Thread nD τ) (stg10 t) fullShare o ∗ scrOwn c d
        ∗ (iprop(insOwn c t x ∗ owns (c : Thread nD τ) (stg10 t) fullShare o ∗ scrOwn c (fC c t h x d)) -∗ K ⟨⟩))
      ⊢ wp frame (wpE (defs₀ (F := F)) Variants.none c none) E (bodyAt0 t) K
  fD : Dev nD → (t : Fin cfg0.N) → t.val = 16 → Ins F → St F → St F
  runD : ∀ (c : Dev nD) (t : Fin cfg0.N) (h : t.val = 16) (x : Ins F) (d : St F) (o : Vec F S2048x32 .f32) (E : Set ℕ) (K : PUnit → sProp (MM F)),
    iprop(insOwn c t x ∗ owns (c : Thread nD τ) (stg10 t) fullShare o ∗ scrOwn c d
        ∗ (iprop(insOwn c t x ∗ owns (c : Thread nD τ) (stg10 t) fullShare o ∗ scrOwn c (fD c t h x d)) -∗ K ⟨⟩))
      ⊢ wp frame (wpE (defs₀ (F := F)) Variants.none c none) E (bodyAt0 t) K
  fE : Dev nD → (t : Fin cfg0.N) → 16 < t.val ∧ t.val < 23 → Ins F → St F → St F
  runE : ∀ (c : Dev nD) (t : Fin cfg0.N) (h : 16 < t.val ∧ t.val < 23) (x : Ins F) (d : St F) (o : Vec F S2048x32 .f32) (E : Set ℕ) (K : PUnit → sProp (MM F)),
    iprop(insOwn c t x ∗ owns (c : Thread nD τ) (stg10 t) fullShare o ∗ scrOwn c d
        ∗ (iprop(insOwn c t x ∗ owns (c : Thread nD τ) (stg10 t) fullShare o ∗ scrOwn c (fE c t h x d)) -∗ K ⟨⟩))
      ⊢ wp frame (wpE (defs₀ (F := F)) Variants.none c none) E (bodyAt0 t) K
  fF : Dev nD → (t : Fin cfg0.N) → t.val = 23 → Ins F → St F → St F
  outF : Dev nD → (t : Fin cfg0.N) → t.val = 23 → Ins F → St F → Vec F S2048x32 .f32
  runF : ∀ (c : Dev nD) (t : Fin cfg0.N) (h : t.val = 23) (x : Ins F) (d : St F) (E : Set ℕ) (K : PUnit → sProp (MM F)),
    iprop(insOwn c t x ∗ (∃ o, owns (c : Thread nD τ) (stg10 t) fullShare o) ∗ scrOwn c d
        ∗ (iprop(insOwn c t x ∗ owns (c : Thread nD τ) (stg10 t) fullShare (outF c t h x d) ∗ scrOwn c (fF c t h x d)) -∗ K ⟨⟩))
      ⊢ wp frame (wpE (defs₀ (F := F)) Variants.none c none) E (bodyAt0 t) K

variable (R : CaseRuns F) (m : (ℓ : Loc nD τ sig) → Buf (Elt F) ℓ) (ρ : Dev nD → PrngReg)

/-! ## The carried contents point by point -/

/-- The input blocks at point `t`: each window's block of its array as the region finds it. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- A placeholder for the output buffer at the points that do not store into it (it is not consulted there). -/
def outIdle : Vec F S2048x32 .f32 :=
  (scr5 : Memref sig .tc .vmem S2048x32 .f32).view.read (Elt F) (scr5 : Memref sig .tc .vmem S2048x32 .f32).view.junk

/-- ONE POINT. The carried arrays and the output buffer after the body at point `t`, from the carried arrays `d`
    before it: the point's case applied to the point's input blocks. -/
def step (c : Dev nD) (t : Fin cfg0.N) (d : St F) : St F × Vec F S2048x32 .f32 :=
  if hA : t.val < 8 then (R.fA c t hA (insAt m c t) d, outIdle (F := F))
  else if hB : t.val = 8 then (R.fB c t hB (insAt m c t) d, outIdle (F := F))
  else if hC : t.val < 16 then (R.fC c t ⟨by omega, hC⟩ (insAt m c t) d, outIdle (F := F))
  else if hD : t.val = 16 then (R.fD c t hD (insAt m c t) d, outIdle (F := F))
  else if hE : t.val < 23 then (R.fE c t ⟨by omega, hE⟩ (insAt m c t) d, outIdle (F := F))
  else (R.fF c t (by have := t.isLt; have hN : cfg0.N = 24 := N_0; omega) (insAt m c t) d,
        R.outF c t (by have := t.isLt; have hN : cfg0.N = 24 := N_0; omega) (insAt m c t) d)

/-- THE ACCUMULATION. The carried arrays and the output buffer after the body at position `n`, from the contents
    `z` the carried buffers hold when the region is entered (they are not initialised): `step` iterated. -/
def stAt (c : Dev nD) (z : St F) : (n : ℕ) → n < cfg0.N → St F × Vec F S2048x32 .f32
  | 0, hn => step R m c ⟨0, hn⟩ z
  | n + 1, hn => step R m c ⟨n + 1, hn⟩ (stAt c z n (Nat.lt_of_succ_lt hn)).1

/-- The carried arrays before the body at position `n`: the entry contents, or what the point before left. -/
def stBefore (c : Dev nD) (z : St F) : (n : ℕ) → n < cfg0.N → St F
  | 0, _ => z
  | n + 1, hn => (stAt R m c z n (Nat.lt_of_succ_lt hn)).1

theorem stAt_eq_step (c : Dev nD) (z : St F) (t : Fin cfg0.N) :
    stAt R m c z t.val t.isLt = step R m c t (stBefore R m c z t.val t.isLt) := by
  obtain ⟨n, hn⟩ := t
  cases n with
  | zero => rfl
  | succ n => rfl

/-- `step` at a point of case A. -/
theorem step_A (c : Dev nD) (t : Fin cfg0.N) (h : t.val < 8) (d : St F) :
    step R m c t d = (R.fA c t h (insAt m c t) d, outIdle (F := F)) := by
  unfold step; rw [dif_pos h]

/-- `step` at a point of case B. -/
theorem step_B (c : Dev nD) (t : Fin cfg0.N) (h : t.val = 8) (d : St F) :
    step R m c t d = (R.fB c t h (insAt m c t) d, outIdle (F := F)) := by
  unfold step; rw [dif_neg (by omega), dif_pos h]

/-- `step` at a point of case C. -/
theorem step_C (c : Dev nD) (t : Fin cfg0.N) (h : 8 < t.val ∧ t.val < 16) (d : St F) :
    step R m c t d = (R.fC c t h (insAt m c t) d, outIdle (F := F)) := by
  unfold step; rw [dif_neg (by omega), dif_neg (by omega), dif_pos h.2]

/-- `step` at a point of case D. -/
theorem step_D (c : Dev nD) (t : Fin cfg0.N) (h : t.val = 16) (d : St F) :
    step R m c t d = (R.fD c t h (insAt m c t) d, outIdle (F := F)) := by
  unfold step; rw [dif_neg (by omega), dif_neg (by omega), dif_neg (by omega), dif_pos h]

/-- `step` at a point of case E. -/
theorem step_E (c : Dev nD) (t : Fin cfg0.N) (h : 16 < t.val ∧ t.val < 23) (d : St F) :
    step R m c t d = (R.fE c t h (insAt m c t) d, outIdle (F := F)) := by
  unfold step; rw [dif_neg (by omega), dif_neg (by omega), dif_neg (by omega), dif_neg (by omega), dif_pos h.2]

/-- `step` at a point of case F. -/
theorem step_F (c : Dev nD) (t : Fin cfg0.N) (h : t.val = 23) (d : St F) :
    step R m c t d = (R.fF c t h (insAt m c t) d, R.outF c t h (insAt m c t) d) := by
  unfold step; rw [dif_neg (by omega), dif_neg (by omega), dif_neg (by omega), dif_neg (by omega), dif_neg (by omega)]

end Cert.Kernel.Hand

end
-- ==== Proof.WFrame.lean ====
/-
  The frame of the two-layer graph convolution kernel, assembled from the body's six control cases.

  Between points the kernel keeps six arrays in buffers of its own, which are not initialised: if they hold `z`
  when the grid is entered, after `n` points they hold `stAt z n`. The invariant before a point says exactly this,
  for SOME `z` (before the first point: the buffers hold anything). The ten input windows hold their whole arrays
  at every point; the output window is stored into, and written back, at the last point only, and is left as found
  at the others.

  The body obligation at a point: the invariant yields `z` and the arrays the points before made of it; the
  point's case runs the body to `step` of them, which is `stAt z` at this point; the invariant is restored with the
  same `z`. At the last point the output buffer is left at the case's result computed from `z`; the proof data names
  the result computed from one fixed choice of entry contents, so there the obligation uses that the result does
  not depend on the entry contents (`OutIndep`, a hypothesis here). With the output window's contents left
  unnamed no such fact is needed, and that obligation gives the run whose post is the frame: the argument arrays
  end as launched. With them named, the run's post also gives the result array: the one write-back, at the last
  point, covers it.
-/
import proofs.«121040_g28046136442917_fold_wed_c4_759_6_alg».proof.Proof.WContents
import Idealize.ShloMosaic.Lib.Pipeline.Value

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R : CaseRuns F) (m : (ℓ : Loc nD τ sig) → Buf (Elt F) ℓ) (ρ : Dev nD → PrngReg)

/-! ## The invariant between points -/

/-- The class invariant spelled out: each of the six carried buffers owned at some contents, and the generator
    register at some state. -/
theorem PhiA_carried_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-- The invariant before position `n`: before the first point the carried buffers hold anything; afterwards, for
    some entry contents `z`, what `z` has become after `n` points. -/
def PhiS (c : Dev nD) : (n : ℕ) → n ≤ cfg0.N → sProp 𝕄
  | 0, _ => Pipeline.ΦA spec0 c
  | n + 1, hn => iprop((∃ z, scrOwn c (stAt R m c z n hn).1) ∗ (∃ r, prngReg c r))

theorem PhiS_succ (c : Dev nD) (n : ℕ) (hn : n < cfg0.N) :
    PhiS R m c (n + 1) hn = iprop((∃ z, scrOwn c (stAt R m c z n hn).1) ∗ (∃ r, prngReg c r)) := rfl

/-- Before any point the carried buffers hold, for some entry contents `z`, what the points before made of `z`
    (at the first point: `z` itself, the contents found). -/
theorem PhiS_before (c : Dev nD) (t : Fin cfg0.N) :
    PhiS R m c t.val (Nat.le_of_lt t.isLt) ⊢ iprop((∃ z, scrOwn c (stBefore R m c z t.val t.isLt)) ∗ (∃ r, prngReg c r)) := by
  obtain ⟨n, hn⟩ := t
  cases n with
  | zero =>
    show Pipeline.ΦA spec0 c ⊢ _
    rw [PhiA_carried_eq]
    iintro ⟨⟨⟨%d0, H0⟩, ⟨%d1, H1⟩, ⟨%d2, H2⟩, ⟨%d3, H3⟩, ⟨%d4, H4⟩, ⟨%d5, H5⟩⟩, Hg⟩
    isplitr [Hg]
    · iexists (⟨d0, d1, d2, d3, d4, d5⟩ : St F)
      simp only [stBefore]
      unfold scrOwn
      isplitl [H0]; · iexact H0
      isplitl [H1]; · iexact H1
      isplitl [H2]; · iexact H2
      isplitl [H3]; · iexact H3
      isplitl [H4]; · iexact H4
      iexact H5
    · iexact Hg
  | succ n => exact Idealize.SL.BI.Entails.refl _

/-- After any point but none the invariant names the contents. -/
theorem PhiS_pos (c : Dev nD) (n : ℕ) (h : n ≤ cfg0.N) (hz : n ≠ 0) :
    PhiS R m c n h = iprop((∃ z, scrOwn c (stAt R m c z (n - 1) (by omega)).1) ∗ (∃ r, prngReg c r)) := by
  cases n with
  | zero => exact absurd rfl hz
  | succ n => rfl

/-- A fixed choice of entry contents, at which the output's named values are computed (the result does not
    depend on the choice). -/
def stIdle : St F :=
  ⟨(scr0 : Memref sig .tc .vmem S2048x1 .f32).view.read (Elt F) (scr0 : Memref sig .tc .vmem S2048x1 .f32).view.junk,
   (scr0 : Memref sig .tc .vmem S2048x1 .f32).view.read (Elt F) (scr0 : Memref sig .tc .vmem S2048x1 .f32).view.junk,
   outIdle (F := F), outIdle (F := F), outIdle (F := F), outIdle (F := F)⟩

/-! ## The pipeline's proof data -/

/-- The proof data of the one pipeline on core `c`: the arrays as the region finds them; after the body at point
    `t` each input's buffer at its block and the output's at what the point leaves from the fixed entry contents;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (stAt R m c stIdle t.val t.isLt).2
  Φ t := PhiS R m c t.val (Nat.le_of_lt_succ t.isLt)
  q _ := fullShare
  owed _ := 0

theorem A_eq (c : Dev nD) (w : Fin cfg0.W) : (dats R m 0 c).A w = V m c (Pipeline.arrRef spec0 w) := by
  dsimp only [dats]

theorem PhiS_castSucc (c : Dev nD) (t : Fin cfg0.N) :
    (dats R m 0 c).Φ t.castSucc = PhiS R m c t.val (Nat.le_of_lt t.isLt) := by
  dsimp only [dats]; simp only [Fin.coe_castSucc]

theorem after0_0 (c : Dev nD) (t : Fin cfg0.N) : (dats R m 0 c).after 0 t = iblk m c 0 t := by dsimp only [dats]
theorem after0_1 (c : Dev nD) (t : Fin cfg0.N) : (dats R m 0 c).after 1 t = iblk m c 1 t := by dsimp only [dats]
theorem after0_2 (c : Dev nD) (t : Fin cfg0.N) : (dats R m 0 c).after 2 t = iblk m c 2 t := by dsimp only [dats]
theorem after0_3 (c : Dev nD) (t : Fin cfg0.N) : (dats R m 0 c).after 3 t = iblk m c 3 t := by dsimp only [dats]
theorem after0_4 (c : Dev nD) (t : Fin cfg0.N) : (dats R m 0 c).after 4 t = iblk m c 4 t := by dsimp only [dats]
theorem after0_5 (c : Dev nD) (t : Fin cfg0.N) : (dats R m 0 c).after 5 t = iblk m c 5 t := by dsimp only [dats]
theorem after0_6 (c : Dev nD) (t : Fin cfg0.N) : (dats R m 0 c).after 6 t = iblk m c 6 t := by dsimp only [dats]
theorem after0_7 (c : Dev nD) (t : Fin cfg0.N) : (dats R m 0 c).after 7 t = iblk m c 7 t := by dsimp only [dats]
theorem after0_8 (c : Dev nD) (t : Fin cfg0.N) : (dats R m 0 c).after 8 t = iblk m c 8 t := by dsimp only [dats]
theorem after0_9 (c : Dev nD) (t : Fin cfg0.N) : (dats R m 0 c).after 9 t = iblk m c 9 t := by dsimp only [dats]
theorem after0_10 (c : Dev nD) (t : Fin cfg0.N) : (dats R m 0 c).after 10 t = (stAt R m c stIdle t.val t.isLt).2 := by dsimp only [dats]

theorem before0_0 (c : Dev nD) (t : Fin cfg0.N) (d) : (dats R m 0 c).before 0 t d = iblk m c 0 t :=
  before0_0_of m (dats R m 0 c) (A_eq R m c 0) (after0_0 R m c) t d
theorem before0_1 (c : Dev nD) (t : Fin cfg0.N) (d) : (dats R m 0 c).before 1 t d = iblk m c 1 t :=
  before0_1_of m (dats R m 0 c) (A_eq R m c 1) (after0_1 R m c) t d
theorem before0_2 (c : Dev nD) (t : Fin cfg0.N) (d) : (dats R m 0 c).before 2 t d = iblk m c 2 t :=
  before0_2_of m (dats R m 0 c) (A_eq R m c 2) (after0_2 R m c) t d
theorem before0_3 (c : Dev nD) (t : Fin cfg0.N) (d) : (dats R m 0 c).before 3 t d = iblk m c 3 t :=
  before0_3_of m (dats R m 0 c) (A_eq R m c 3) (after0_3 R m c) t d
theorem before0_4 (c : Dev nD) (t : Fin cfg0.N) (d) : (dats R m 0 c).before 4 t d = iblk m c 4 t :=
  before0_4_of m (dats R m 0 c) (A_eq R m c 4) (after0_4 R m c) t d
theorem before0_5 (c : Dev nD) (t : Fin cfg0.N) (d) : (dats R m 0 c).before 5 t d = iblk m c 5 t :=
  before0_5_of m (dats R m 0 c) (A_eq R m c 5) (after0_5 R m c) t d
theorem before0_6 (c : Dev nD) (t : Fin cfg0.N) (d) : (dats R m 0 c).before 6 t d = iblk m c 6 t :=
  before0_6_of m (dats R m 0 c) (A_eq R m c 6) (after0_6 R m c) t d
theorem before0_7 (c : Dev nD) (t : Fin cfg0.N) (d) : (dats R m 0 c).before 7 t d = iblk m c 7 t :=
  before0_7_of m (dats R m 0 c) (A_eq R m c 7) (after0_7 R m c) t d
theorem before0_8 (c : Dev nD) (t : Fin cfg0.N) (d) : (dats R m 0 c).before 8 t d = iblk m c 8 t :=
  before0_8_of m (dats R m 0 c) (A_eq R m c 8) (after0_8 R m c) t d
theorem before0_9 (c : Dev nD) (t : Fin cfg0.N) (d) : (dats R m 0 c).before 9 t d = iblk m c 9 t :=
  before0_9_of m (dats R m 0 c) (A_eq R m c 9) (after0_9 R m c) t d

/-! ## Where the output window is idle -/

/-- The output window is idle, and not written back, at every point but the last. -/
theorem idle10 : ∀ t : Fin cfg0.N, t.val ≠ 23 → cfg0.idle 10 (grid0.coords t) = true := by decide +kernel
theorem noFlush10 (t : Fin cfg0.N) (ht : t.val ≠ 23) : (cfg0.win 10).flush t = false :=
  Bool.eq_false_iff.mpr fun hf => by
    have h1 := (flush0_10 t).mp hf
    have hN : cfg0.N = 24 := N_0
    have := t.isLt
    omega
/-- At the last point it is live. -/
theorem live10 : ∀ t : Fin cfg0.N, t.val = 23 → cfg0.idle 10 (grid0.coords t) = false := by decide +kernel

/-- No input window is ever idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl
theorem liveAt0_4 (t : Fin cfg0.N) : cfg0.idle 4 (grid0.coords t) = false := rfl
theorem liveAt0_5 (t : Fin cfg0.N) : cfg0.idle 5 (grid0.coords t) = false := rfl
theorem liveAt0_6 (t : Fin cfg0.N) : cfg0.idle 6 (grid0.coords t) = false := rfl
theorem liveAt0_7 (t : Fin cfg0.N) : cfg0.idle 7 (grid0.coords t) = false := rfl
theorem liveAt0_8 (t : Fin cfg0.N) : cfg0.idle 8 (grid0.coords t) = false := rfl
theorem liveAt0_9 (t : Fin cfg0.N) : cfg0.idle 9 (grid0.coords t) = false := rfl

/-- What the body must leave in an input window's buffer: its block. -/
theorem leaves_in0 (c : Dev nD) (t : Fin cfg0.N) :
    (dats R m 0 c).leavesExact 0 t = owns (c : Thread nD τ) (stg0 t) fullShare (iblk m c 0 t) := by
  rw [show (dats R m 0 c).leavesExact 0 t = owns (c : Thread nD τ) (stg0 t) fullShare ((dats R m 0 c).after 0 t) from by
    unfold Dat.leavesExact; rw [liveAt0_0 t], after0_0]
theorem leaves_in1 (c : Dev nD) (t : Fin cfg0.N) :
    (dats R m 0 c).leavesExact 1 t = owns (c : Thread nD τ) (stg1 t) fullShare (iblk m c 1 t) := by
  rw [show (dats R m 0 c).leavesExact 1 t = owns (c : Thread nD τ) (stg1 t) fullShare ((dats R m 0 c).after 1 t) from by
    unfold Dat.leavesExact; rw [liveAt0_1 t], after0_1]
theorem leaves_in2 (c : Dev nD) (t : Fin cfg0.N) :
    (dats R m 0 c).leavesExact 2 t = owns (c : Thread nD τ) (stg2 t) fullShare (iblk m c 2 t) := by
  rw [show (dats R m 0 c).leavesExact 2 t = owns (c : Thread nD τ) (stg2 t) fullShare ((dats R m 0 c).after 2 t) from by
    unfold Dat.leavesExact; rw [liveAt0_2 t], after0_2]
theorem leaves_in3 (c : Dev nD) (t : Fin cfg0.N) :
    (dats R m 0 c).leavesExact 3 t = owns (c : Thread nD τ) (stg3 t) fullShare (iblk m c 3 t) := by
  rw [show (dats R m 0 c).leavesExact 3 t = owns (c : Thread nD τ) (stg3 t) fullShare ((dats R m 0 c).after 3 t) from by
    unfold Dat.leavesExact; rw [liveAt0_3 t], after0_3]
theorem leaves_in4 (c : Dev nD) (t : Fin cfg0.N) :
    (dats R m 0 c).leavesExact 4 t = owns (c : Thread nD τ) (stg4 t) fullShare (iblk m c 4 t) := by
  rw [show (dats R m 0 c).leavesExact 4 t = owns (c : Thread nD τ) (stg4 t) fullShare ((dats R m 0 c).after 4 t) from by
    unfold Dat.leavesExact; rw [liveAt0_4 t], after0_4]
theorem leaves_in5 (c : Dev nD) (t : Fin cfg0.N) :
    (dats R m 0 c).leavesExact 5 t = owns (c : Thread nD τ) (stg5 t) fullShare (iblk m c 5 t) := by
  rw [show (dats R m 0 c).leavesExact 5 t = owns (c : Thread nD τ) (stg5 t) fullShare ((dats R m 0 c).after 5 t) from by
    unfold Dat.leavesExact; rw [liveAt0_5 t], after0_5]
theorem leaves_in6 (c : Dev nD) (t : Fin cfg0.N) :
    (dats R m 0 c).leavesExact 6 t = owns (c : Thread nD τ) (stg6 t) fullShare (iblk m c 6 t) := by
  rw [show (dats R m 0 c).leavesExact 6 t = owns (c : Thread nD τ) (stg6 t) fullShare ((dats R m 0 c).after 6 t) from by
    unfold Dat.leavesExact; rw [liveAt0_6 t], after0_6]
theorem leaves_in7 (c : Dev nD) (t : Fin cfg0.N) :
    (dats R m 0 c).leavesExact 7 t = owns (c : Thread nD τ) (stg7 t) fullShare (iblk m c 7 t) := by
  rw [show (dats R m 0 c).leavesExact 7 t = owns (c : Thread nD τ) (stg7 t) fullShare ((dats R m 0 c).after 7 t) from by
    unfold Dat.leavesExact; rw [liveAt0_7 t], after0_7]
theorem leaves_in8 (c : Dev nD) (t : Fin cfg0.N) :
    (dats R m 0 c).leavesExact 8 t = owns (c : Thread nD τ) (stg8 t) fullShare (iblk m c 8 t) := by
  rw [show (dats R m 0 c).leavesExact 8 t = owns (c : Thread nD τ) (stg8 t) fullShare ((dats R m 0 c).after 8 t) from by
    unfold Dat.leavesExact; rw [liveAt0_8 t], after0_8]
theorem leaves_in9 (c : Dev nD) (t : Fin cfg0.N) :
    (dats R m 0 c).leavesExact 9 t = owns (c : Thread nD τ) (stg9 t) fullShare (iblk m c 9 t) := by
  rw [show (dats R m 0 c).leavesExact 9 t = owns (c : Thread nD τ) (stg9 t) fullShare ((dats R m 0 c).after 9 t) from by
    unfold Dat.leavesExact; rw [liveAt0_9 t], after0_9]

/-! ## The body at a point, over `step` -/

/-- At a point that does not store into the output buffer: from the carried buffers at `d`, the input buffers at
    the point's blocks and the output buffer at `o`, the body runs to the carried buffers at `step`'s contents,
    the rest as found. The point's case by its position; the case's triple. -/
theorem sound_idle (c : Dev nD) (t : Fin cfg0.N) (ht : t.val ≠ 23) (d : St F) (o : Vec F S2048x32 .f32)
    (E : Set ℕ) (K : PUnit → sProp 𝕄) :
    iprop(insOwn c t (insAt m c t) ∗ owns (c : Thread nD τ) (stg10 t) fullShare o ∗ scrOwn c d
        ∗ (iprop(insOwn c t (insAt m c t) ∗ owns (c : Thread nD τ) (stg10 t) fullShare o ∗ scrOwn c (step R m c t d).1) -∗ K ⟨⟩))
      ⊢ wp frame (wpE (defs₀ (F := F)) Variants.none c none) E (bodyAt0 t) K := by
  have hN : cfg0.N = 24 := N_0
  have hlt := t.isLt
  by_cases hA : t.val < 8
  · rw [step_A R m c t hA]; exact R.runA c t hA (insAt m c t) d o E K
  by_cases hB : t.val = 8
  · rw [step_B R m c t hB]; exact R.runB c t hB (insAt m c t) d o E K
  by_cases hC : t.val < 16
  · rw [step_C R m c t ⟨by omega, hC⟩]; exact R.runC c t ⟨by omega, hC⟩ (insAt m c t) d o E K
  by_cases hD : t.val = 16
  · rw [step_D R m c t hD]; exact R.runD c t hD (insAt m c t) d o E K
  · have hE : 16 < t.val ∧ t.val < 23 := ⟨by omega, by omega⟩
    rw [step_E R m c t hE]; exact R.runE c t hE (insAt m c t) d o E K

/-- At the last point: the output buffer, found at anything, is left at `step`'s result. -/
theorem sound_last (c : Dev nD) (t : Fin cfg0.N) (ht : t.val = 23) (d : St F)
    (E : Set ℕ) (K : PUnit → sProp 𝕄) :
    iprop(insOwn c t (insAt m c t) ∗ (∃ o, owns (c : Thread nD τ) (stg10 t) fullShare o) ∗ scrOwn c d
        ∗ (iprop(insOwn c t (insAt m c t) ∗ owns (c : Thread nD τ) (stg10 t) fullShare (step R m c t d).2 ∗ scrOwn c (step R m c t d).1) -∗ K ⟨⟩))
      ⊢ wp frame (wpE (defs₀ (F := F)) Variants.none c none) E (bodyAt0 t) K := by
  rw [step_F R m c t ht]; exact R.runF c t ht (insAt m c t) d E K

/-! ## The body obligation -/

/-- What the body is called with at point `t`, the windows one by one, -/
def bodyPre (c : Dev nD) (t : Fin cfg0.N) : sProp 𝕄 :=
  iprop((dats R m 0 c).Φ t.castSucc ∗ (dats R m 0 c).owesAt () t.castSucc
    ∗ (∃ d, owns (c : Thread nD τ) (stg0 t) fullShare ((dats R m 0 c).before 0 t d))
    ∗ (∃ d, owns (c : Thread nD τ) (stg1 t) fullShare ((dats R m 0 c).before 1 t d))
    ∗ (∃ d, owns (c : Thread nD τ) (stg2 t) fullShare ((dats R m 0 c).before 2 t d))
    ∗ (∃ d, owns (c : Thread nD τ) (stg3 t) fullShare ((dats R m 0 c).before 3 t d))
    ∗ (∃ d, owns (c : Thread nD τ) (stg4 t) fullShare ((dats R m 0 c).before 4 t d))
    ∗ (∃ d, owns (c : Thread nD τ) (stg5 t) fullShare ((dats R m 0 c).before 5 t d))
    ∗ (∃ d, owns (c : Thread nD τ) (stg6 t) fullShare ((dats R m 0 c).before 6 t d))
    ∗ (∃ d, owns (c : Thread nD τ) (stg7 t) fullShare ((dats R m 0 c).before 7 t d))
    ∗ (∃ d, owns (c : Thread nD τ) (stg8 t) fullShare ((dats R m 0 c).before 8 t d))
    ∗ (∃ d, owns (c : Thread nD τ) (stg9 t) fullShare ((dats R m 0 c).before 9 t d))
    ∗ (∃ d, owns (c : Thread nD τ) (stg10 t) fullShare ((dats R m 0 c).before 10 t d)))

/-- and what it returns. -/
def bodyPost (c : Dev nD) (t : Fin cfg0.N) : sProp 𝕄 :=
  iprop((dats R m 0 c).Φ t.succ ∗ (dats R m 0 c).owesAt () t.succ
    ∗ (dats R m 0 c).leavesExact 0 t
    ∗ (dats R m 0 c).leavesExact 1 t
    ∗ (dats R m 0 c).leavesExact 2 t
    ∗ (dats R m 0 c).leavesExact 3 t
    ∗ (dats R m 0 c).leavesExact 4 t
    ∗ (dats R m 0 c).leavesExact 5 t
    ∗ (dats R m 0 c).leavesExact 6 t
    ∗ (dats R m 0 c).leavesExact 7 t
    ∗ (dats R m 0 c).leavesExact 8 t
    ∗ (dats R m 0 c).leavesExact 9 t
    ∗ (dats R m 0 c).leavesExact 10 t)

/-- The result at the last point does not depend on the contents the carried buffers are entered with. -/
def OutIndep : Prop :=
  ∀ (c : Dev nD) (z z' : St F) (h : 23 < cfg0.N), (stAt R m c z 23 h).2 = (stAt R m c z' 23 h).2

/-- The named result at the last point is the one the run reaches, whatever the entry contents. -/
theorem out_last (hind : OutIndep R m) (c : Dev nD) (t : Fin cfg0.N) (ht : t.val = 23) (z : St F) :
    (stAt R m c stIdle t.val t.isLt).2 = (step R m c t (stBefore R m c z t.val t.isLt)).2 := by
  rw [← stAt_eq_step]
  obtain ⟨n, hn⟩ := t
  dsimp only at ht; subst ht
  exact hind c stIdle z hn

set_option maxHeartbeats 1600000 in
theorem sound_body (hind : OutIndep R m) (c : Dev nD) (t : Fin cfg0.N) :
    bodyPre R m c t ⊢ wp frame (wpE (defs₀ (F := F)) Variants.none c none) Set.univ (bodyAt0 t) (fun _ => bodyPost R m c t) := by
  unfold bodyPre bodyPost
  simp only [before0_0 R m c, before0_1 R m c, before0_2 R m c, before0_3 R m c, before0_4 R m c, before0_5 R m c, before0_6 R m c, before0_7 R m c, before0_8 R m c, before0_9 R m c]
  rw [show (dats R m 0 c).owesAt () t.succ = (dats R m 0 c).owesAt () t.castSucc from rfl]
  rw [show (dats R m 0 c).Φ t.succ = PhiS R m c (t.val + 1) t.isLt from rfl, PhiS_succ, PhiS_castSucc]
  rw [leaves_in0 R m c t, leaves_in1 R m c t, leaves_in2 R m c t, leaves_in3 R m c t, leaves_in4 R m c t, leaves_in5 R m c t, leaves_in6 R m c t, leaves_in7 R m c t, leaves_in8 R m c t, leaves_in9 R m c t]
  by_cases ht : t.val = 23
  · rw [show (dats R m 0 c).leavesExact 10 t = owns (c : Thread nD τ) (stg10 t) fullShare ((dats R m 0 c).after 10 t) from by
      unfold Dat.leavesExact; rw [live10 t ht], after0_10]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HP' := (PhiS_before R m c t) $$ HP
    icases HP' with ⟨⟨%z, HS⟩, Hg⟩
    rw [out_last R m hind c t ht z]
    iapply (sound_last R m c t ht (stBefore R m c z t.val t.isLt) Set.univ _)
    isplitl [H0 H1 H2 H3 H4 H5 H6 H7 H8 H9]
    · unfold insOwn insAt; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [HS]; · iexact HS
    iintro ⟨HI, H10, HS⟩
    isplitl [HS Hg]
    · isplitl [HS]
      · iexists z; rw [stAt_eq_step]; iexact HS
      · iexact Hg
    isplitl [Ho]; · iexact Ho
    unfold insOwn insAt; dsimp only
    icases HI with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Dat.leavesExact_idle (dats R m 0 c) 10 t (idle10 t ht) (noFlush10 t ht)]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HP' := (PhiS_before R m c t) $$ HP
    icases HP' with ⟨⟨%z, HS⟩, Hg⟩
    iapply (sound_idle R m c t ht (stBefore R m c z t.val t.isLt) _ Set.univ _)
    isplitl [H0 H1 H2 H3 H4 H5 H6 H7 H8 H9]
    · unfold insOwn insAt; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [HS]; · iexact HS
    iintro ⟨HI, H10, HS⟩
    isplitl [HS Hg]
    · isplitl [HS]
      · iexists z; rw [stAt_eq_step]; iexact HS
      · iexact Hg
    isplitl [Ho]; · iexact Ho
    unfold insOwn insAt; dsimp only
    icases HI with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10

/-- The library's body obligation, at every point. -/
theorem body_obligation (hind : OutIndep R m) (c : Dev nD) :
    BodyObligation (dats (F := F) R m 0 c) (defs₀ (F := F)) Variants.none () Set.univ := fun t => by
  rw [bigSep_W0, bigSep_W0]
  exact sound_body R m hind c t

/-! ## The obligation with the output window's contents unnamed

For a claim that reads nothing of the output (the arguments are unchanged): the output window is handed to the body
at anything and taken back at anything, so no result need be named and nothing about the entry contents is used. -/

/-- The windows whose contents are not named: the output window alone. -/
def fgt10 : Fin cfg0.W → Bool := fun w => w.val == 10

def bodyPreU (c : Dev nD) (t : Fin cfg0.N) : sProp 𝕄 :=
  iprop((dats R m 0 c).Φ t.castSucc ∗ (dats R m 0 c).owesAt () t.castSucc
    ∗ (∃ d, owns (c : Thread nD τ) (stg0 t) fullShare ((dats R m 0 c).before 0 t d))
    ∗ (∃ d, owns (c : Thread nD τ) (stg1 t) fullShare ((dats R m 0 c).before 1 t d))
    ∗ (∃ d, owns (c : Thread nD τ) (stg2 t) fullShare ((dats R m 0 c).before 2 t d))
    ∗ (∃ d, owns (c : Thread nD τ) (stg3 t) fullShare ((dats R m 0 c).before 3 t d))
    ∗ (∃ d, owns (c : Thread nD τ) (stg4 t) fullShare ((dats R m 0 c).before 4 t d))
    ∗ (∃ d, owns (c : Thread nD τ) (stg5 t) fullShare ((dats R m 0 c).before 5 t d))
    ∗ (∃ d, owns (c : Thread nD τ) (stg6 t) fullShare ((dats R m 0 c).before 6 t d))
    ∗ (∃ d, owns (c : Thread nD τ) (stg7 t) fullShare ((dats R m 0 c).before 7 t d))
    ∗ (∃ d, owns (c : Thread nD τ) (stg8 t) fullShare ((dats R m 0 c).before 8 t d))
    ∗ (∃ d, owns (c : Thread nD τ) (stg9 t) fullShare ((dats R m 0 c).before 9 t d))
    ∗ (∃ X, owns (c : Thread nD τ) (stg10 t) fullShare X))

def bodyPostU (c : Dev nD) (t : Fin cfg0.N) : sProp 𝕄 :=
  iprop((dats R m 0 c).Φ t.succ ∗ (dats R m 0 c).owesAt () t.succ
    ∗ (dats R m 0 c).leavesExact 0 t
    ∗ (dats R m 0 c).leavesExact 1 t
    ∗ (dats R m 0 c).leavesExact 2 t
    ∗ (dats R m 0 c).leavesExact 3 t
    ∗ (dats R m 0 c).leavesExact 4 t
    ∗ (dats R m 0 c).leavesExact 5 t
    ∗ (dats R m 0 c).leavesExact 6 t
    ∗ (dats R m 0 c).leavesExact 7 t
    ∗ (dats R m 0 c).leavesExact 8 t
    ∗ (dats R m 0 c).leavesExact 9 t
    ∗ (∃ X, owns (c : Thread nD τ) (stg10 t) fullShare X))

set_option maxHeartbeats 1600000 in
theorem sound_bodyU (c : Dev nD) (t : Fin cfg0.N) :
    bodyPreU R m c t ⊢ wp frame (wpE (defs₀ (F := F)) Variants.none c none) Set.univ (bodyAt0 t) (fun _ => bodyPostU R m c t) := by
  unfold bodyPreU bodyPostU
  simp only [before0_0 R m c, before0_1 R m c, before0_2 R m c, before0_3 R m c, before0_4 R m c, before0_5 R m c, before0_6 R m c, before0_7 R m c, before0_8 R m c, before0_9 R m c]
  rw [show (dats R m 0 c).owesAt () t.succ = (dats R m 0 c).owesAt () t.castSucc from rfl]
  rw [show (dats R m 0 c).Φ t.succ = PhiS R m c (t.val + 1) t.isLt from rfl, PhiS_succ, PhiS_castSucc]
  rw [leaves_in0 R m c t, leaves_in1 R m c t, leaves_in2 R m c t, leaves_in3 R m c t, leaves_in4 R m c t, leaves_in5 R m c t, leaves_in6 R m c t, leaves_in7 R m c t, leaves_in8 R m c t, leaves_in9 R m c t]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HP' := (PhiS_before R m c t) $$ HP
  icases HP' with ⟨⟨%z, HS⟩, Hg⟩
  by_cases ht : t.val = 23
  · iapply (sound_last R m c t ht (stBefore R m c z t.val t.isLt) Set.univ _)
    isplitl [H0 H1 H2 H3 H4 H5 H6 H7 H8 H9]
    · unfold insOwn insAt; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [HS]; · iexact HS
    iintro ⟨HI, H10, HS⟩
    isplitl [HS Hg]
    · isplitl [HS]
      · iexists z; rw [stAt_eq_step]; iexact HS
      · iexact Hg
    isplitl [Ho]; · iexact Ho
    unfold insOwn insAt; dsimp only
    icases HI with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · iapply (sound_idle R m c t ht (stBefore R m c z t.val t.isLt) _ Set.univ _)
    isplitl [H0 H1 H2 H3 H4 H5 H6 H7 H8 H9]
    · unfold insOwn insAt; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [HS]; · iexact HS
    iintro ⟨HI, H10, HS⟩
    isplitl [HS Hg]
    · isplitl [HS]
      · iexists z; rw [stAt_eq_step]; iexact HS
      · iexact Hg
    isplitl [Ho]; · iexact Ho
    unfold insOwn insAt; dsimp only
    icases HI with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10

/-- The library's body obligation with the output window unnamed, at every point. -/
theorem body_obligationU (c : Dev nD) :
    BodyObligation (dats (F := F) R m 0 c) (defs₀ (F := F)) Variants.none () Set.univ fgt10 := fun t => by
  rw [bigSep_W0, bigSep_W0]
  exact sound_bodyU R m c t

/-! ## The run and the frame -/

theorem hin (c : Dev nD) : Pipeline.ΦA spec0 c ⊢ (dats R m 0 c).Φ 0 := by
  rw [show (dats R m 0 c).Φ 0 = PhiS R m c 0 (Nat.zero_le _) from rfl]
  exact Idealize.SL.BI.Entails.refl _

theorem hout (c : Dev nD) : (dats R m 0 c).Φ (Fin.last cfg0.N) ⊢ Pipeline.ΦA spec0 c := by
  rw [show (dats R m 0 c).Φ (Fin.last cfg0.N) = PhiS R m c (Fin.last cfg0.N).val (Nat.le_of_lt_succ (Fin.last cfg0.N).isLt) from rfl,
    PhiS_pos R m c _ _ (by rw [Fin.val_last]; have : cfg0.N = 24 := N_0; omega), PhiA_carried_eq]
  iintro ⟨⟨%z, HS⟩, Hg⟩
  unfold scrOwn
  icases HS with ⟨H0, H1, H2, H3, H4, H5⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  · iexact Hg

set_option backward.isDefEq.respectTransparency.types false in
theorem run_main (hind : OutIndep R m) :
    θ_run defs (onTc (τ := τ) (main (F := F))) (s₀ m ρ) (Pipeline.FramePost cfgs (dats R m) 0 (V m)) :=
  Pipeline.θ_run_frame_track cfgs (dats R m) (0 : Fin 1) launch0 defs₀ Variants.none m ρ main
    (hbody := fun c => (body_obligation R m hind c).loose) (hshare := fun c => (dats R m 0 c).share_full fun _ => rfl)
    (howed := fun _ _ => rfl) (V := V m)
    (hmain := hmain m Variants.none) (hA := A_eq R m) (hin := hin R m) (hout := hout R m)

/-- The run with the output window unnamed: every weakly fair execution terminates; every input array ends as it
    began (an input window is never written back) and every buffer that bypasses the region as it was found. -/
theorem run_frame :
    θ_run defs (onTc (τ := τ) (main (F := F))) (s₀ m ρ)
      (Pipeline.RDat.FramePost cfg0 (fun c => (dats R m 0 c).toRForget fgt10) (V m)) :=
  Pipeline.RDat.θ_run_frame_track cfgs (0 : Fin 1) launch0 defs₀ Variants.none (fun c => (dats R m 0 c).toRForget fgt10) m ρ main
    (hbody := fun c => (body_obligationU R m c).toRForget)
    (hshare := fun c w => (dats R m 0 c).share_full (fun _ => rfl) w)
    (howed := fun _ _ => rfl) (V := V m)
    (hmain := hmain m Variants.none) (hA := A_eq R m) (hin := hin R m) (hout := hout R m)

/-- An input window's array may end only as the region found it. -/
theorem arr_in (c : Dev nD) (w : Fin cfg0.W) (hw : (cfg0.win w).isOut = false)
    (X : Buf (Elt F) ((cfg0.win w).arr.view.loc (c.tc : Thread nD τ)))
    (h : ((dats R m 0 c).toRForget fgt10).ArrAt w cfg0.N X) : X = V m c (Pipeline.arrRef spec0 w) := by
  rw [((dats R m 0 c).toRForget fgt10).ArrAt_in w hw] at h
  exact h.trans (A_eq R m c w)

include R in
/-- THE FRAME: every argument array ends as it was launched — a staged one because its window is never written
    back, a reshaped one because it bypasses the region; then each as no host line before the region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨(arr_in R m c 0 rfl _ ((h c).1 0)).trans (V_main_arg0 m c),
      (arr_in R m c 1 rfl _ ((h c).1 1)).trans (V_main_arg1 m c),
      (arr_in R m c 2 rfl _ ((h c).1 2)).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (arr_in R m c 6 rfl _ ((h c).1 6)).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_frame R m ρ)

/-! ## The result array -/

/-- The last point. -/
abbrev tLast : Fin cfg0.N := ⟨23, by rw [show cfg0.N = 24 from N_0]; decide⟩

/-- The result: what the last point leaves in the output buffer (from the fixed entry contents), as contents of
    the result array — its one block is the array. -/
abbrev result (c : Dev nD) : Buf (Elt F) ((c : Thread nD τ).loc main_v6) := (stAt R m c stIdle 23 tLast.isLt).2

/-- The one write-back, at the last point, writes it: block (0, 0) of the array read through zero offsets is the array. -/
theorem flushed_eq (c : Dev nD) (t : Fin cfg0.N) (hf : (cfg0.win 10).flush t = true) :
    (dats R m 0 c).flushed 10 t = ((cfg0.win 10).blk t).view.read (Elt F) (result R m c) := by
  have hN : cfg0.N = 24 := N_0
  have h23 : t.val = 23 := by have := (flush0_10 t).mp hf; have := t.isLt; omega
  obtain rfl : t = tLast := Fin.ext h23
  show (cfg0.win 10).cut (grid0.coords tLast) ((dats R m 0 c).after 10 tLast) = _
  rw [after0_10]
  have hz' : (fun a => win0_10.index tLast a * main_v6.ty.shape.size a) = fun _ => 0 := funext fun a => by fin_cases a <;> decide +kernel
  exact (Memref.read_access_unit_zero (Elt F) main_v6 hz' (fun a => by rw [congrFun hz' a]; simp) (result R m c)).symm

/-- So the result array ends holding it: the last point's block covers the array. -/
theorem final_out (c : Dev nD) : (dats R m 0 c).arrAt 10 cfg0.N = result R m c :=
  (dats R m 0 c).arrAt_eq_of_cover 10 (result R m c) (flushed_eq R m c) fun i =>
    ⟨tLast, (flush0_10 tLast).mpr rfl, by
      show i ∈ ((View.whole main_v6).slice (win0_10.rect tLast)).set
      rw [View.set_slice_whole, Rect.mem_set_unit]
      intro a
      have h0 : (i 0 : Nat) < 2048 := (i 0).isLt
      have h1 : (i 1 : Nat) < 32 := (i 1).isLt
      match a with
      | ⟨0, _⟩ => show win0_10.index tLast 0 * win0_10.size 0 ≤ (i 0 : Nat) ∧ (i 0 : Nat) < win0_10.index tLast 0 * win0_10.size 0 + win0_10.xsize (grid0.coords tLast) 0
                  rw [show win0_10.index tLast 0 * win0_10.size 0 = 0 from by decide +kernel, show win0_10.xsize (grid0.coords tLast) 0 = 2048 from by decide +kernel]; omega
      | ⟨1, _⟩ => show win0_10.index tLast 1 * win0_10.size 1 ≤ (i 1 : Nat) ∧ (i 1 : Nat) < win0_10.index tLast 1 * win0_10.size 1 + win0_10.xsize (grid0.coords tLast) 1
                  rw [show win0_10.index tLast 1 * win0_10.size 1 = 0 from by decide +kernel, show win0_10.xsize (grid0.coords tLast) 1 = 32 from by decide +kernel]; omega⟩

/-- THE RESULT ARRAY after the run: every weakly fair execution terminates with the result array at `result`. -/
theorem out_array (hind : OutIndep R m) :
    θ_run defs (onTc (τ := τ) (main (F := F))) ⟨m, fun _ => 0, ρ⟩ fun r => ∀ c : Dev nD,
      r.2.mem ((c : Thread nD τ).loc main_v6) = result R m c :=
  (θ_run defs _ _).mono (fun _ h c => ((h c).1 10).trans (final_out R m c)) (run_main R m ρ hind)

end Cert.Kernel.Hand

end
-- ==== Proof.WRuns.lean ====
/- The kernel body branches on six conditions of the grid coordinates (p, j) = (t / 8, t % 8) of a point t of the
   3 x 8 grid: p = 0; p = 1 and j = 0; p = 1; p = 2 and j = 0; p = 2; p = 2 and j = 7. Each is an equation between
   one-bit words computed from the coordinates; over the 24 points each is equivalent to a closed form in t, decided
   by enumeration. The result window is idle exactly where the last condition fails, and is written back at the
   last point only. The six scratch buffers (column sums, their inverse square roots, the two scaled feature
   matrices and the two propagated ones) are whole buffers of the kernel's own, owned beside the windows. -/
import proofs.«121040_g28046136442917_fold_wed_c4_759_6_alg».proof.Proof.Gen.Kernel.Frame
import proofs.«121040_g28046136442917_fold_wed_c4_759_6_alg».proof.Proof.Gen.Kernel.Skeleton

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's six branch conditions -/

/-- p = 0: the block's column sums are stored. -/
abbrev cond0_1 (i : grid0.Coords) : Prop := k0_cond1 i = 1#1
/-- p = 1 and j = 0: the inverse square roots and the first scaled feature matrix are stored. -/
abbrev cond0_2 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- p = 1: a row block of the first propagated matrix is stored. -/
abbrev cond0_3 (i : grid0.Coords) : Prop := k0_cond3 i = 1#1
/-- p = 2 and j = 0: the second scaled feature matrix is stored. -/
abbrev cond0_4 (i : grid0.Coords) : Prop :=
  (Scalar.cmpi .ne (Scalar.extui (Scalar.andi (Scalar.cmpi .eq (BitVec.ofNat 32 (i 0).val) 2#32) (Scalar.cmpi .eq (BitVec.ofNat 32 (i 1).val) 0#32))) 0#32) = 1#1
/-- p = 2: a row block of the second propagated matrix is stored. -/
abbrev cond0_5 (i : grid0.Coords) : Prop := k0_cond5 i = 1#1
/-- p = 2 and j = 7: the result is stored. -/
abbrev cond0_6 (i : grid0.Coords) : Prop := k0_cond6 i = 1#1

theorem hcond0_1 : ∀ t : Fin cfg0.N, cond0_1 (grid0.coords t) ↔ t.val / 8 = 0 :=
  (by decide +kernel : ∀ t : Fin grid0.N, cond0_1 (grid0.coords t) ↔ t.val / 8 = 0)
theorem hcond0_2 : ∀ t : Fin cfg0.N, cond0_2 (grid0.coords t) ↔ t.val = 8 :=
  (by decide +kernel : ∀ t : Fin grid0.N, cond0_2 (grid0.coords t) ↔ t.val = 8)
theorem hcond0_3 : ∀ t : Fin cfg0.N, cond0_3 (grid0.coords t) ↔ t.val / 8 = 1 :=
  (by decide +kernel : ∀ t : Fin grid0.N, cond0_3 (grid0.coords t) ↔ t.val / 8 = 1)
theorem hcond0_4 : ∀ t : Fin cfg0.N, cond0_4 (grid0.coords t) ↔ t.val = 16 :=
  (by decide +kernel : ∀ t : Fin grid0.N, cond0_4 (grid0.coords t) ↔ t.val = 16)
theorem hcond0_5 : ∀ t : Fin cfg0.N, cond0_5 (grid0.coords t) ↔ t.val / 8 = 2 :=
  (by decide +kernel : ∀ t : Fin grid0.N, cond0_5 (grid0.coords t) ↔ t.val / 8 = 2)
theorem hcond0_6 : ∀ t : Fin cfg0.N, cond0_6 (grid0.coords t) ↔ t.val = 23 :=
  (by decide +kernel : ∀ t : Fin grid0.N, cond0_6 (grid0.coords t) ↔ t.val = 23)

/-! ## Where the windows are idle -/

/-- The ten inputs are never idle. -/
theorem liveAt0_in : ∀ (w : Fin cfg0.W), w.val < 10 → ∀ t : Fin cfg0.N, cfg0.idle w (grid0.coords t) = false := by decide +kernel
/-- The result window is idle wherever the last condition fails, -/
theorem idleAt0_10 : ∀ t : Fin cfg0.N, ¬cond0_6 (grid0.coords t) → cfg0.idle 10 (grid0.coords t) = true := by decide +kernel
/-- is not written back there, -/
theorem noFlush0_10 : ∀ t : Fin cfg0.N, ¬cond0_6 (grid0.coords t) → (cfg0.win 10).flush t = false := by decide +kernel
/-- and is live where it holds. -/
theorem liveAt0_10 : ∀ t : Fin cfg0.N, cond0_6 (grid0.coords t) → cfg0.idle 10 (grid0.coords t) = false := by decide +kernel

/-! ## The staging and scratch memrefs at a point -/

abbrev ms0_0 (t : Fin cfg0.N) : Memref sig .tc .vmem S2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x32 .f32 := win0_10.stage (cfg0.slots t 10)
abbrev hs0_10 (t : Fin cfg0.N) : (ms0_10 t).IsWhole := hstage0_10 ((cfg0.slots t 10).cast nbuf0_10)

/-- The six scratch operands: whole scoped buffers, passed beside the windows. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x32 .f32 := Memref.whole cc0_scratch2
abbrev scM0_3 : Memref sig .tc .vmem S2048x32 .f32 := Memref.whole cc0_scratch3
abbrev scM0_4 : Memref sig .tc .vmem S2048x32 .f32 := Memref.whole cc0_scratch4
abbrev scM0_5 : Memref sig .tc .vmem S2048x32 .f32 := Memref.whole cc0_scratch5

/-- What the launch hands the region beside the windows: each scratch buffer owned whole at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.WRunA.lean ====
/- Case p = 0 of the kernel body (only the first condition holds): the body loads the 2048 x 256 column block j of
   the adjacency window and stores that block's 256 column sums into rows 256 j .. 256 j + 255 of the first scratch
   buffer; every other buffer is left as it was. Stated as a weakest-precondition triple on whole memrefs at given
   contents: afterwards the first scratch holds its former contents with that one rectangle overwritten. -/
import proofs.«121040_g28046136442917_fold_wed_c4_759_6_alg».proof.Proof.WRuns

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : cond0_1 i) (hc2 : ¬cond0_2 i) (hc3 : ¬cond0_3 i) (hc4 : ¬cond0_4 i) (hc5 : ¬cond0_5 i) (hc6 : ¬cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    { LS0 : List (View.Piece (Elt F) S2048x1 .f32) //
      ∀ (o : Vec F S2048x32 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare o
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare o
                ∗ owns (c : Thread nD τ) arg13 fullShare (arg13.view.read (Elt F) (arg13.view.writes (Elt F) (harg13.unread d0) LS0))
                ∗ owns (c : Thread nD τ) arg14 fullShare d1
                ∗ owns (c : Thread nD τ) arg15 fullShare d2
                ∗ owns (c : Thread nD τ) arg16 fullShare d3
                ∗ owns (c : Thread nD τ) arg17 fullShare d4
                ∗ owns (c : Thread nD τ) arg18 fullShare d5) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun o E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; isplitr; · ipureintro; exact harg18.read_unread _
    iexact H18

end Cert.Kernel.Hand

end
-- ==== Proof.WRunB.lean ====
/- Case p = 1, j = 0 of the kernel body (the second and third conditions hold): the body reads the column sums,
   stores their shifted inverse square roots (zero where the shifted sum is not positive) as the whole second
   scratch buffer and the features times the first weight matrix, row-scaled by them, as the whole third; then it
   stores rows 256 j .. 256 j + 255 of the fourth: the transposed adjacency block times the third buffer plus the
   third buffer's own rows, row-scaled, plus the first bias. Stated as a weakest-precondition triple on whole
   memrefs at given contents. -/
import proofs.«121040_g28046136442917_fold_wed_c4_759_6_alg».proof.Proof.WRunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : cond0_2 i) (hc3 : cond0_3 i) (hc4 : ¬cond0_4 i) (hc5 : ¬cond0_5 i) (hc6 : ¬cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    Σ' (LS1 : List (View.Piece (Elt F) S2048x1 .f32)), Σ' (LS2 : List (View.Piece (Elt F) S2048x32 .f32)), { LS3 : List (View.Piece (Elt F) S2048x32 .f32) //
      ∀ (o : Vec F S2048x32 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare o
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare o
                ∗ owns (c : Thread nD τ) arg13 fullShare d0
                ∗ owns (c : Thread nD τ) arg14 fullShare (View.canon LS1)
                ∗ owns (c : Thread nD τ) arg15 fullShare (View.canon LS2)
                ∗ owns (c : Thread nD τ) arg16 fullShare (arg16.view.read (Elt F) (arg16.view.writes (Elt F) (harg16.unread d3) LS3))
                ∗ owns (c : Thread nD τ) arg17 fullShare d4
                ∗ owns (c : Thread nD τ) arg18 fullShare d5) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun o E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; swap; · iexact H14
      ipureintro; exact View.read_writes_junk_eq_canon (Val := Elt F) _ _
    isplitl [H15]
    · iexists _; isplitr; swap; · iexact H15
      ipureintro; exact View.read_writes_junk_eq_canon (Val := Elt F) _ _
    isplitl [H16]
    · iexists _; isplitr; swap; · iexact H16
      ipureintro; rfl
    isplitl [H17]
    · iexists _; isplitr; · ipureintro; exact harg17.read_unread _
      iexact H17
    iexists _; isplitr; · ipureintro; exact harg18.read_unread _
    iexact H18

end Cert.Kernel.Hand

end
-- ==== Proof.WRunC.lean ====
/- Case p = 1, j > 0 of the kernel body (only the third condition holds): the body stores rows 256 j .. 256 j + 255
   of the fourth scratch buffer: the transposed adjacency block times the third buffer plus the third buffer's own
   rows, row-scaled by the second buffer's rows, plus the first bias. Every other buffer is left as it was. -/
import proofs.«121040_g28046136442917_fold_wed_c4_759_6_alg».proof.Proof.WRunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : cond0_3 i) (hc4 : ¬cond0_4 i) (hc5 : ¬cond0_5 i) (hc6 : ¬cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    { LS3 : List (View.Piece (Elt F) S2048x32 .f32) //
      ∀ (o : Vec F S2048x32 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare o
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare o
                ∗ owns (c : Thread nD τ) arg13 fullShare d0
                ∗ owns (c : Thread nD τ) arg14 fullShare d1
                ∗ owns (c : Thread nD τ) arg15 fullShare d2
                ∗ owns (c : Thread nD τ) arg16 fullShare (arg16.view.read (Elt F) (arg16.view.writes (Elt F) (harg16.unread d3) LS3))
                ∗ owns (c : Thread nD τ) arg17 fullShare d4
                ∗ owns (c : Thread nD τ) arg18 fullShare d5) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun o E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; swap; · iexact H16
      ipureintro; rfl
    isplitl [H17]
    · iexists _; isplitr; · ipureintro; exact harg17.read_unread _
      iexact H17
    iexists _; isplitr; · ipureintro; exact harg18.read_unread _
    iexact H18

end Cert.Kernel.Hand

end
-- ==== Proof.WRunD.lean ====
/- Case p = 2, j = 0 of the kernel body (the fourth and fifth conditions hold): the body normalises the fourth
   scratch buffer column by column (mean and variance over its 2048 rows), scales, shifts and clamps it at zero,
   multiplies by the second weight matrix and row-scales by the second buffer, storing the result as the whole fifth
   scratch buffer; then it stores rows 256 j .. 256 j + 255 of the sixth: the transposed adjacency block times the
   fifth buffer plus the fifth buffer's own rows, row-scaled, plus the second bias. -/
import proofs.«121040_g28046136442917_fold_wed_c4_759_6_alg».proof.Proof.WRunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_D (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : ¬cond0_3 i) (hc4 : cond0_4 i) (hc5 : cond0_5 i) (hc6 : ¬cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    Σ' (LS4 : List (View.Piece (Elt F) S2048x32 .f32)), { LS5 : List (View.Piece (Elt F) S2048x32 .f32) //
      ∀ (o : Vec F S2048x32 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare o
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare o
                ∗ owns (c : Thread nD τ) arg13 fullShare d0
                ∗ owns (c : Thread nD τ) arg14 fullShare d1
                ∗ owns (c : Thread nD τ) arg15 fullShare d2
                ∗ owns (c : Thread nD τ) arg16 fullShare d3
                ∗ owns (c : Thread nD τ) arg17 fullShare (View.canon LS4)
                ∗ owns (c : Thread nD τ) arg18 fullShare (arg18.view.read (Elt F) (arg18.view.writes (Elt F) (harg18.unread d5) LS5))) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun o E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; swap; · iexact H17
      ipureintro; exact View.read_writes_junk_eq_canon (Val := Elt F) _ _
    iexists _; isplitr; swap; · iexact H18
    ipureintro; rfl

end Cert.Kernel.Hand

end
-- ==== Proof.WRunE.lean ====
/- Case p = 2, 0 < j < 7 of the kernel body (only the fifth condition holds): the body stores rows
   256 j .. 256 j + 255 of the sixth scratch buffer: the transposed adjacency block times the fifth buffer plus the
   fifth buffer's own rows, row-scaled by the second buffer's rows, plus the second bias. -/
import proofs.«121040_g28046136442917_fold_wed_c4_759_6_alg».proof.Proof.WRunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_E (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : ¬cond0_3 i) (hc4 : ¬cond0_4 i) (hc5 : cond0_5 i) (hc6 : ¬cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    { LS5 : List (View.Piece (Elt F) S2048x32 .f32) //
      ∀ (o : Vec F S2048x32 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare o
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare o
                ∗ owns (c : Thread nD τ) arg13 fullShare d0
                ∗ owns (c : Thread nD τ) arg14 fullShare d1
                ∗ owns (c : Thread nD τ) arg15 fullShare d2
                ∗ owns (c : Thread nD τ) arg16 fullShare d3
                ∗ owns (c : Thread nD τ) arg17 fullShare d4
                ∗ owns (c : Thread nD τ) arg18 fullShare (arg18.view.read (Elt F) (arg18.view.writes (Elt F) (harg18.unread d5) LS5))) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun o E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; isplitr; swap; · iexact H18
    ipureintro; rfl

end Cert.Kernel.Hand

end
-- ==== Proof.WRunF.lean ====
/- Case p = 2, j = 7 of the kernel body (the fifth and sixth conditions hold): the body stores the last row block
   of the sixth scratch buffer as in the other points of the phase, then normalises that buffer column by column
   (mean and variance over its 2048 rows), scales and shifts it, and stores the result as the whole result block. -/
import proofs.«121040_g28046136442917_fold_wed_c4_759_6_alg».proof.Proof.WRunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_F (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : ¬cond0_3 i) (hc4 : ¬cond0_4 i) (hc5 : cond0_5 i) (hc6 : cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    Σ' (L10 : List (View.Piece (Elt F) S2048x32 .f32)), { LS5 : List (View.Piece (Elt F) S2048x32 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ (∃ d, owns (c : Thread nD τ) arg12 fullShare d)
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ (∃ f, owns (c : Thread nD τ) arg12 fullShare (arg12.view.read (Elt F) (arg12.view.writes (Elt F) f L10)))
                ∗ owns (c : Thread nD τ) arg13 fullShare d0
                ∗ owns (c : Thread nD τ) arg14 fullShare d1
                ∗ owns (c : Thread nD τ) arg15 fullShare d2
                ∗ owns (c : Thread nD τ) arg16 fullShare d3
                ∗ owns (c : Thread nD τ) arg17 fullShare d4
                ∗ owns (c : Thread nD τ) arg18 fullShare (arg18.view.read (Elt F) (arg18.view.writes (Elt F) (harg18.unread d5) LS5))) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexists _; isplitr; swap; · iexact H12
      ipureintro; rfl
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; isplitr; swap; · iexact H18
    ipureintro; rfl

end Cert.Kernel.Hand

end
-- ==== Proof.WCases.lean ====
/-
  The six control cases of the kernel body, as functions on the carried arrays.

  At a point of the grid the body is one of six straight-line programs, according to the point's position
  t = 8 p + j.  In each case the body's run leaves every input buffer as it found it and replaces the contents
  of the carried buffers it stores into by their former contents overwritten with the pieces the run stores:
    p = 0            : the column sums of block j, into rows 256 j .. 256 j + 255 of the first carried buffer;
    (p, j) = (1, 0)  : the second and third carried buffers whole, then rows block 0 of the fourth;
    p = 1, j > 0     : rows block j of the fourth;
    (p, j) = (2, 0)  : the fifth whole, then rows block 0 of the sixth;
    p = 2, 0 < j < 7 : rows block j of the sixth;
    (p, j) = (2, 7)  : rows block 7 of the sixth, then the output buffer whole.
  The new carried arrays of a case are therefore a function of the input blocks and the old carried arrays, and
  the body's triple at a point of the case follows from the run's triple by regrouping the separating
  conjunction of the seventeen buffers.
-/
import proofs.«121040_g28046136442917_fold_wed_c4_759_6_alg».proof.Proof.WContents
import proofs.«121040_g28046136442917_fold_wed_c4_759_6_alg».proof.Proof.WRunA
import proofs.«121040_g28046136442917_fold_wed_c4_759_6_alg».proof.Proof.WRunB
import proofs.«121040_g28046136442917_fold_wed_c4_759_6_alg».proof.Proof.WRunC
import proofs.«121040_g28046136442917_fold_wed_c4_759_6_alg».proof.Proof.WRunD
import proofs.«121040_g28046136442917_fold_wed_c4_759_6_alg».proof.Proof.WRunE
import proofs.«121040_g28046136442917_fold_wed_c4_759_6_alg».proof.Proof.WRunF

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Case p = 0 -/

/-- At a point with p = 0 only the first condition holds. -/
theorem condsA (t : Fin cfg0.N) (h : t.val < 8) :
    cond0_1 (grid0.coords t) ∧ ¬cond0_2 (grid0.coords t) ∧ ¬cond0_3 (grid0.coords t) ∧ ¬cond0_4 (grid0.coords t) ∧ ¬cond0_5 (grid0.coords t) ∧ ¬cond0_6 (grid0.coords t) := by
  refine ⟨(hcond0_1 t).2 (by omega), fun e => ?_, fun e => ?_, fun e => ?_, fun e => ?_, fun e => ?_⟩
  · have := (hcond0_2 t).1 e; omega
  · have := (hcond0_3 t).1 e; omega
  · have := (hcond0_4 t).1 e; omega
  · have := (hcond0_5 t).1 e; omega
  · have := (hcond0_6 t).1 e; omega

/-- The pieces the body stores into the first carried buffer at a point with p = 0. -/
def piecesA (c : Dev nD) (t : Fin cfg0.N) (h : t.val < 8) (x : Ins F) (d : St F) :
    List (View.Piece (Elt F) S2048x1 .f32) :=
  (kernelRun0_A (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsA t h).1 (condsA t h).2.1 (condsA t h).2.2.1 (condsA t h).2.2.2.1 (condsA t h).2.2.2.2.1 (condsA t h).2.2.2.2.2
    x.x0 x.x1 x.x2 x.x3 x.x4 x.x5 x.x6 x.x7 x.x8 x.x9 d.deg d.dis d.u1 d.y1 d.u2 d.y2).1

/-- The carried arrays after the body at a point with p = 0: the stored-into ones overwritten by the stored pieces. -/
def fA0 (c : Dev nD) (t : Fin cfg0.N) (h : t.val < 8) (x : Ins F) (d : St F) : St F :=
  { d with
    deg := scr0.view.read (Elt F)
      (scr0.view.writes (Elt F) ((Memref.isWhole_whole cc0_scratch0).unread d.deg) (piecesA c t h x d)) }

/-- The body's triple at a point with p = 0. -/
theorem runA0 (c : Dev nD) (t : Fin cfg0.N) (h : t.val < 8) (x : Ins F) (d : St F) (o : Vec F S2048x32 .f32)
    (E : Set ℕ) (K : PUnit → sProp (MM F)) :
    iprop(insOwn c t x ∗ owns (c : Thread nD τ) (stg10 t) fullShare o ∗ scrOwn c d
        ∗ (iprop(insOwn c t x ∗ owns (c : Thread nD τ) (stg10 t) fullShare o ∗ scrOwn c (fA0 c t h x d)) -∗ K ⟨⟩))
      ⊢ wp frame (wpE (defs₀ (F := F)) Variants.none c none) E (bodyAt0 t) K := by
  unfold insOwn scrOwn fA0
  dsimp only
  iintro ⟨⟨H0, H1, H2, H3, H4, H5, H6, H7, H8, H9⟩, HO, ⟨S0, S1, S2, S3, S4, S5⟩, Hk⟩
  iapply (kernelRun0_A (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsA t h).1 (condsA t h).2.1 (condsA t h).2.2.1 (condsA t h).2.2.2.1 (condsA t h).2.2.2.2.1 (condsA t h).2.2.2.2.2
    x.x0 x.x1 x.x2 x.x3 x.x4 x.x5 x.x6 x.x7 x.x8 x.x9 d.deg d.dis d.u1 d.y1 d.u2 d.y2).2 o E K
  iframe H0 H1 H2 H3 H4 H5 H6 H7 H8 H9 HO S0 S1 S2 S3 S4 S5
  iintro ⟨H0, H1, H2, H3, H4, H5, H6, H7, H8, H9, HO, S0, S1, S2, S3, S4, S5⟩
  iapply Hk
  iframe H0 H1 H2 H3 H4 H5 H6 H7 H8 H9 HO S1 S2 S3 S4 S5
  iexact S0

/-! ## Case (p, j) = (1, 0) -/

/-- At the point (1, 0) exactly the second and third conditions hold. -/
theorem condsB (t : Fin cfg0.N) (h : t.val = 8) :
    ¬cond0_1 (grid0.coords t) ∧ cond0_2 (grid0.coords t) ∧ cond0_3 (grid0.coords t) ∧ ¬cond0_4 (grid0.coords t) ∧ ¬cond0_5 (grid0.coords t) ∧ ¬cond0_6 (grid0.coords t) := by
  refine ⟨fun e => ?_, (hcond0_2 t).2 (by omega), (hcond0_3 t).2 (by omega), fun e => ?_, fun e => ?_, fun e => ?_⟩
  · have := (hcond0_1 t).1 e; omega
  · have := (hcond0_4 t).1 e; omega
  · have := (hcond0_5 t).1 e; omega
  · have := (hcond0_6 t).1 e; omega

/-- The pieces the body stores into the second carried buffer at the point (1, 0). -/
def piecesB1 (c : Dev nD) (t : Fin cfg0.N) (h : t.val = 8) (x : Ins F) (d : St F) :
    List (View.Piece (Elt F) S2048x1 .f32) :=
  (kernelRun0_B (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsB t h).1 (condsB t h).2.1 (condsB t h).2.2.1 (condsB t h).2.2.2.1 (condsB t h).2.2.2.2.1 (condsB t h).2.2.2.2.2
    x.x0 x.x1 x.x2 x.x3 x.x4 x.x5 x.x6 x.x7 x.x8 x.x9 d.deg d.dis d.u1 d.y1 d.u2 d.y2).1

/-- The pieces the body stores into the third carried buffer at the point (1, 0). -/
def piecesB2 (c : Dev nD) (t : Fin cfg0.N) (h : t.val = 8) (x : Ins F) (d : St F) :
    List (View.Piece (Elt F) S2048x32 .f32) :=
  (kernelRun0_B (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsB t h).1 (condsB t h).2.1 (condsB t h).2.2.1 (condsB t h).2.2.2.1 (condsB t h).2.2.2.2.1 (condsB t h).2.2.2.2.2
    x.x0 x.x1 x.x2 x.x3 x.x4 x.x5 x.x6 x.x7 x.x8 x.x9 d.deg d.dis d.u1 d.y1 d.u2 d.y2).2.1

/-- The pieces the body stores into the fourth carried buffer at the point (1, 0). -/
def piecesB3 (c : Dev nD) (t : Fin cfg0.N) (h : t.val = 8) (x : Ins F) (d : St F) :
    List (View.Piece (Elt F) S2048x32 .f32) :=
  (kernelRun0_B (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsB t h).1 (condsB t h).2.1 (condsB t h).2.2.1 (condsB t h).2.2.2.1 (condsB t h).2.2.2.2.1 (condsB t h).2.2.2.2.2
    x.x0 x.x1 x.x2 x.x3 x.x4 x.x5 x.x6 x.x7 x.x8 x.x9 d.deg d.dis d.u1 d.y1 d.u2 d.y2).2.2.1

/-- The carried arrays after the body at the point (1, 0): the stored-into ones overwritten by the stored pieces. -/
def fB0 (c : Dev nD) (t : Fin cfg0.N) (h : t.val = 8) (x : Ins F) (d : St F) : St F :=
  { d with
    dis := View.canon (piecesB1 c t h x d)
    u1 := View.canon (piecesB2 c t h x d)
    y1 := scr3.view.read (Elt F)
      (scr3.view.writes (Elt F) ((Memref.isWhole_whole cc0_scratch3).unread d.y1) (piecesB3 c t h x d)) }

/-- The body's triple at the point (1, 0). -/
theorem runB0 (c : Dev nD) (t : Fin cfg0.N) (h : t.val = 8) (x : Ins F) (d : St F) (o : Vec F S2048x32 .f32)
    (E : Set ℕ) (K : PUnit → sProp (MM F)) :
    iprop(insOwn c t x ∗ owns (c : Thread nD τ) (stg10 t) fullShare o ∗ scrOwn c d
        ∗ (iprop(insOwn c t x ∗ owns (c : Thread nD τ) (stg10 t) fullShare o ∗ scrOwn c (fB0 c t h x d)) -∗ K ⟨⟩))
      ⊢ wp frame (wpE (defs₀ (F := F)) Variants.none c none) E (bodyAt0 t) K := by
  unfold insOwn scrOwn fB0
  dsimp only
  iintro ⟨⟨H0, H1, H2, H3, H4, H5, H6, H7, H8, H9⟩, HO, ⟨S0, S1, S2, S3, S4, S5⟩, Hk⟩
  iapply (kernelRun0_B (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsB t h).1 (condsB t h).2.1 (condsB t h).2.2.1 (condsB t h).2.2.2.1 (condsB t h).2.2.2.2.1 (condsB t h).2.2.2.2.2
    x.x0 x.x1 x.x2 x.x3 x.x4 x.x5 x.x6 x.x7 x.x8 x.x9 d.deg d.dis d.u1 d.y1 d.u2 d.y2).2.2.2 o E K
  iframe H0 H1 H2 H3 H4 H5 H6 H7 H8 H9 HO S0 S1 S2 S3 S4 S5
  iintro ⟨H0, H1, H2, H3, H4, H5, H6, H7, H8, H9, HO, S0, S1, S2, S3, S4, S5⟩
  iapply Hk
  iframe H0 H1 H2 H3 H4 H5 H6 H7 H8 H9 HO S0 S4 S5
  isplitl [S1]
  · iexact S1
  isplitl [S2]
  · iexact S2
  iexact S3

/-! ## Case p = 1, j > 0 -/

/-- At a point with p = 1 and j > 0 only the third condition holds. -/
theorem condsC (t : Fin cfg0.N) (h : 8 < t.val ∧ t.val < 16) :
    ¬cond0_1 (grid0.coords t) ∧ ¬cond0_2 (grid0.coords t) ∧ cond0_3 (grid0.coords t) ∧ ¬cond0_4 (grid0.coords t) ∧ ¬cond0_5 (grid0.coords t) ∧ ¬cond0_6 (grid0.coords t) := by
  refine ⟨fun e => ?_, fun e => ?_, (hcond0_3 t).2 (by omega), fun e => ?_, fun e => ?_, fun e => ?_⟩
  · have := (hcond0_1 t).1 e; omega
  · have := (hcond0_2 t).1 e; omega
  · have := (hcond0_4 t).1 e; omega
  · have := (hcond0_5 t).1 e; omega
  · have := (hcond0_6 t).1 e; omega

/-- The pieces the body stores into the fourth carried buffer at a point with p = 1 and j > 0. -/
def piecesC (c : Dev nD) (t : Fin cfg0.N) (h : 8 < t.val ∧ t.val < 16) (x : Ins F) (d : St F) :
    List (View.Piece (Elt F) S2048x32 .f32) :=
  (kernelRun0_C (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsC t h).1 (condsC t h).2.1 (condsC t h).2.2.1 (condsC t h).2.2.2.1 (condsC t h).2.2.2.2.1 (condsC t h).2.2.2.2.2
    x.x0 x.x1 x.x2 x.x3 x.x4 x.x5 x.x6 x.x7 x.x8 x.x9 d.deg d.dis d.u1 d.y1 d.u2 d.y2).1

/-- The carried arrays after the body at a point with p = 1 and j > 0: the stored-into ones overwritten by the stored pieces. -/
def fC0 (c : Dev nD) (t : Fin cfg0.N) (h : 8 < t.val ∧ t.val < 16) (x : Ins F) (d : St F) : St F :=
  { d with
    y1 := scr3.view.read (Elt F)
      (scr3.view.writes (Elt F) ((Memref.isWhole_whole cc0_scratch3).unread d.y1) (piecesC c t h x d)) }

/-- The body's triple at a point with p = 1 and j > 0. -/
theorem runC0 (c : Dev nD) (t : Fin cfg0.N) (h : 8 < t.val ∧ t.val < 16) (x : Ins F) (d : St F) (o : Vec F S2048x32 .f32)
    (E : Set ℕ) (K : PUnit → sProp (MM F)) :
    iprop(insOwn c t x ∗ owns (c : Thread nD τ) (stg10 t) fullShare o ∗ scrOwn c d
        ∗ (iprop(insOwn c t x ∗ owns (c : Thread nD τ) (stg10 t) fullShare o ∗ scrOwn c (fC0 c t h x d)) -∗ K ⟨⟩))
      ⊢ wp frame (wpE (defs₀ (F := F)) Variants.none c none) E (bodyAt0 t) K := by
  unfold insOwn scrOwn fC0
  dsimp only
  iintro ⟨⟨H0, H1, H2, H3, H4, H5, H6, H7, H8, H9⟩, HO, ⟨S0, S1, S2, S3, S4, S5⟩, Hk⟩
  iapply (kernelRun0_C (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsC t h).1 (condsC t h).2.1 (condsC t h).2.2.1 (condsC t h).2.2.2.1 (condsC t h).2.2.2.2.1 (condsC t h).2.2.2.2.2
    x.x0 x.x1 x.x2 x.x3 x.x4 x.x5 x.x6 x.x7 x.x8 x.x9 d.deg d.dis d.u1 d.y1 d.u2 d.y2).2 o E K
  iframe H0 H1 H2 H3 H4 H5 H6 H7 H8 H9 HO S0 S1 S2 S3 S4 S5
  iintro ⟨H0, H1, H2, H3, H4, H5, H6, H7, H8, H9, HO, S0, S1, S2, S3, S4, S5⟩
  iapply Hk
  iframe H0 H1 H2 H3 H4 H5 H6 H7 H8 H9 HO S0 S1 S2 S4 S5
  iexact S3

/-! ## Case (p, j) = (2, 0) -/

/-- At the point (2, 0) exactly the fourth and fifth conditions hold. -/
theorem condsD (t : Fin cfg0.N) (h : t.val = 16) :
    ¬cond0_1 (grid0.coords t) ∧ ¬cond0_2 (grid0.coords t) ∧ ¬cond0_3 (grid0.coords t) ∧ cond0_4 (grid0.coords t) ∧ cond0_5 (grid0.coords t) ∧ ¬cond0_6 (grid0.coords t) := by
  refine ⟨fun e => ?_, fun e => ?_, fun e => ?_, (hcond0_4 t).2 (by omega), (hcond0_5 t).2 (by omega), fun e => ?_⟩
  · have := (hcond0_1 t).1 e; omega
  · have := (hcond0_2 t).1 e; omega
  · have := (hcond0_3 t).1 e; omega
  · have := (hcond0_6 t).1 e; omega

/-- The pieces the body stores into the fifth carried buffer at the point (2, 0). -/
def piecesD4 (c : Dev nD) (t : Fin cfg0.N) (h : t.val = 16) (x : Ins F) (d : St F) :
    List (View.Piece (Elt F) S2048x32 .f32) :=
  (kernelRun0_D (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsD t h).1 (condsD t h).2.1 (condsD t h).2.2.1 (condsD t h).2.2.2.1 (condsD t h).2.2.2.2.1 (condsD t h).2.2.2.2.2
    x.x0 x.x1 x.x2 x.x3 x.x4 x.x5 x.x6 x.x7 x.x8 x.x9 d.deg d.dis d.u1 d.y1 d.u2 d.y2).1

/-- The pieces the body stores into the sixth carried buffer at the point (2, 0). -/
def piecesD5 (c : Dev nD) (t : Fin cfg0.N) (h : t.val = 16) (x : Ins F) (d : St F) :
    List (View.Piece (Elt F) S2048x32 .f32) :=
  (kernelRun0_D (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsD t h).1 (condsD t h).2.1 (condsD t h).2.2.1 (condsD t h).2.2.2.1 (condsD t h).2.2.2.2.1 (condsD t h).2.2.2.2.2
    x.x0 x.x1 x.x2 x.x3 x.x4 x.x5 x.x6 x.x7 x.x8 x.x9 d.deg d.dis d.u1 d.y1 d.u2 d.y2).2.1

/-- The carried arrays after the body at the point (2, 0): the stored-into ones overwritten by the stored pieces. -/
def fD0 (c : Dev nD) (t : Fin cfg0.N) (h : t.val = 16) (x : Ins F) (d : St F) : St F :=
  { d with
    u2 := View.canon (piecesD4 c t h x d)
    y2 := scr5.view.read (Elt F)
      (scr5.view.writes (Elt F) ((Memref.isWhole_whole cc0_scratch5).unread d.y2) (piecesD5 c t h x d)) }

/-- The body's triple at the point (2, 0). -/
theorem runD0 (c : Dev nD) (t : Fin cfg0.N) (h : t.val = 16) (x : Ins F) (d : St F) (o : Vec F S2048x32 .f32)
    (E : Set ℕ) (K : PUnit → sProp (MM F)) :
    iprop(insOwn c t x ∗ owns (c : Thread nD τ) (stg10 t) fullShare o ∗ scrOwn c d
        ∗ (iprop(insOwn c t x ∗ owns (c : Thread nD τ) (stg10 t) fullShare o ∗ scrOwn c (fD0 c t h x d)) -∗ K ⟨⟩))
      ⊢ wp frame (wpE (defs₀ (F := F)) Variants.none c none) E (bodyAt0 t) K := by
  unfold insOwn scrOwn fD0
  dsimp only
  iintro ⟨⟨H0, H1, H2, H3, H4, H5, H6, H7, H8, H9⟩, HO, ⟨S0, S1, S2, S3, S4, S5⟩, Hk⟩
  iapply (kernelRun0_D (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsD t h).1 (condsD t h).2.1 (condsD t h).2.2.1 (condsD t h).2.2.2.1 (condsD t h).2.2.2.2.1 (condsD t h).2.2.2.2.2
    x.x0 x.x1 x.x2 x.x3 x.x4 x.x5 x.x6 x.x7 x.x8 x.x9 d.deg d.dis d.u1 d.y1 d.u2 d.y2).2.2 o E K
  iframe H0 H1 H2 H3 H4 H5 H6 H7 H8 H9 HO S0 S1 S2 S3 S4 S5
  iintro ⟨H0, H1, H2, H3, H4, H5, H6, H7, H8, H9, HO, S0, S1, S2, S3, S4, S5⟩
  iapply Hk
  iframe H0 H1 H2 H3 H4 H5 H6 H7 H8 H9 HO S0 S1 S2 S3
  isplitl [S4]
  · iexact S4
  iexact S5

/-! ## Case p = 2, 0 < j < 7 -/

/-- At a point with p = 2 and 0 < j < 7 only the fifth condition holds. -/
theorem condsE (t : Fin cfg0.N) (h : 16 < t.val ∧ t.val < 23) :
    ¬cond0_1 (grid0.coords t) ∧ ¬cond0_2 (grid0.coords t) ∧ ¬cond0_3 (grid0.coords t) ∧ ¬cond0_4 (grid0.coords t) ∧ cond0_5 (grid0.coords t) ∧ ¬cond0_6 (grid0.coords t) := by
  refine ⟨fun e => ?_, fun e => ?_, fun e => ?_, fun e => ?_, (hcond0_5 t).2 (by omega), fun e => ?_⟩
  · have := (hcond0_1 t).1 e; omega
  · have := (hcond0_2 t).1 e; omega
  · have := (hcond0_3 t).1 e; omega
  · have := (hcond0_4 t).1 e; omega
  · have := (hcond0_6 t).1 e; omega

/-- The pieces the body stores into the sixth carried buffer at a point with p = 2 and 0 < j < 7. -/
def piecesE (c : Dev nD) (t : Fin cfg0.N) (h : 16 < t.val ∧ t.val < 23) (x : Ins F) (d : St F) :
    List (View.Piece (Elt F) S2048x32 .f32) :=
  (kernelRun0_E (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsE t h).1 (condsE t h).2.1 (condsE t h).2.2.1 (condsE t h).2.2.2.1 (condsE t h).2.2.2.2.1 (condsE t h).2.2.2.2.2
    x.x0 x.x1 x.x2 x.x3 x.x4 x.x5 x.x6 x.x7 x.x8 x.x9 d.deg d.dis d.u1 d.y1 d.u2 d.y2).1

/-- The carried arrays after the body at a point with p = 2 and 0 < j < 7: the stored-into ones overwritten by the stored pieces. -/
def fE0 (c : Dev nD) (t : Fin cfg0.N) (h : 16 < t.val ∧ t.val < 23) (x : Ins F) (d : St F) : St F :=
  { d with
    y2 := scr5.view.read (Elt F)
      (scr5.view.writes (Elt F) ((Memref.isWhole_whole cc0_scratch5).unread d.y2) (piecesE c t h x d)) }

/-- The body's triple at a point with p = 2 and 0 < j < 7. -/
theorem runE0 (c : Dev nD) (t : Fin cfg0.N) (h : 16 < t.val ∧ t.val < 23) (x : Ins F) (d : St F) (o : Vec F S2048x32 .f32)
    (E : Set ℕ) (K : PUnit → sProp (MM F)) :
    iprop(insOwn c t x ∗ owns (c : Thread nD τ) (stg10 t) fullShare o ∗ scrOwn c d
        ∗ (iprop(insOwn c t x ∗ owns (c : Thread nD τ) (stg10 t) fullShare o ∗ scrOwn c (fE0 c t h x d)) -∗ K ⟨⟩))
      ⊢ wp frame (wpE (defs₀ (F := F)) Variants.none c none) E (bodyAt0 t) K := by
  unfold insOwn scrOwn fE0
  dsimp only
  iintro ⟨⟨H0, H1, H2, H3, H4, H5, H6, H7, H8, H9⟩, HO, ⟨S0, S1, S2, S3, S4, S5⟩, Hk⟩
  iapply (kernelRun0_E (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsE t h).1 (condsE t h).2.1 (condsE t h).2.2.1 (condsE t h).2.2.2.1 (condsE t h).2.2.2.2.1 (condsE t h).2.2.2.2.2
    x.x0 x.x1 x.x2 x.x3 x.x4 x.x5 x.x6 x.x7 x.x8 x.x9 d.deg d.dis d.u1 d.y1 d.u2 d.y2).2 o E K
  iframe H0 H1 H2 H3 H4 H5 H6 H7 H8 H9 HO S0 S1 S2 S3 S4 S5
  iintro ⟨H0, H1, H2, H3, H4, H5, H6, H7, H8, H9, HO, S0, S1, S2, S3, S4, S5⟩
  iapply Hk
  iframe H0 H1 H2 H3 H4 H5 H6 H7 H8 H9 HO S0 S1 S2 S3 S4
  iexact S5

/-! ## Case (p, j) = (2, 7) -/

/-- At the point (2, 7) exactly the fifth and sixth conditions hold. -/
theorem condsF (t : Fin cfg0.N) (h : t.val = 23) :
    ¬cond0_1 (grid0.coords t) ∧ ¬cond0_2 (grid0.coords t) ∧ ¬cond0_3 (grid0.coords t) ∧ ¬cond0_4 (grid0.coords t) ∧ cond0_5 (grid0.coords t) ∧ cond0_6 (grid0.coords t) := by
  refine ⟨fun e => ?_, fun e => ?_, fun e => ?_, fun e => ?_, (hcond0_5 t).2 (by omega), (hcond0_6 t).2 (by omega)⟩
  · have := (hcond0_1 t).1 e; omega
  · have := (hcond0_2 t).1 e; omega
  · have := (hcond0_3 t).1 e; omega
  · have := (hcond0_4 t).1 e; omega

/-- The pieces the body stores into the output buffer at the point (2, 7). -/
def piecesF10 (c : Dev nD) (t : Fin cfg0.N) (h : t.val = 23) (x : Ins F) (d : St F) :
    List (View.Piece (Elt F) S2048x32 .f32) :=
  (kernelRun0_F (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsF t h).1 (condsF t h).2.1 (condsF t h).2.2.1 (condsF t h).2.2.2.1 (condsF t h).2.2.2.2.1 (condsF t h).2.2.2.2.2
    x.x0 x.x1 x.x2 x.x3 x.x4 x.x5 x.x6 x.x7 x.x8 x.x9 d.deg d.dis d.u1 d.y1 d.u2 d.y2).1

/-- The pieces the body stores into the sixth carried buffer at the point (2, 7). -/
def piecesF5 (c : Dev nD) (t : Fin cfg0.N) (h : t.val = 23) (x : Ins F) (d : St F) :
    List (View.Piece (Elt F) S2048x32 .f32) :=
  (kernelRun0_F (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsF t h).1 (condsF t h).2.1 (condsF t h).2.2.1 (condsF t h).2.2.2.1 (condsF t h).2.2.2.2.1 (condsF t h).2.2.2.2.2
    x.x0 x.x1 x.x2 x.x3 x.x4 x.x5 x.x6 x.x7 x.x8 x.x9 d.deg d.dis d.u1 d.y1 d.u2 d.y2).2.1

/-- The carried arrays after the body at the point (2, 7): the sixth overwritten by the stored pieces. -/
def fF0 (c : Dev nD) (t : Fin cfg0.N) (h : t.val = 23) (x : Ins F) (d : St F) : St F :=
  { d with
    y2 := scr5.view.read (Elt F)
      (scr5.view.writes (Elt F) ((Memref.isWhole_whole cc0_scratch5).unread d.y2) (piecesF5 c t h x d)) }

/-- The output buffer after the body at the point (2, 7): at each index the value of the stored piece that holds
    it. The pieces hold every index, so the contents they are stored over do not matter. -/
def outF0 (c : Dev nD) (t : Fin cfg0.N) (h : t.val = 23) (x : Ins F) (d : St F) : Vec F S2048x32 .f32 :=
  View.canon (piecesF10 c t h x d)

/-- The store into the output buffer is through the rectangle of all its indices. -/
theorem piecesF10_cover (c : Dev nD) (t : Fin cfg0.N) (h : t.val = 23) (x : Ins F) (d : St F) :
    ∀ y, ∃ p ∈ piecesF10 c t h x d, y ∈ p.1.set := by
  intro y
  unfold piecesF10 kernelRun0_F
  dsimp only
  refine ⟨_, List.mem_cons_self, ?_⟩
  rw [Rect.mem_set_unit, Fin.forall_fin_two]
  have h0 : (y 0).val < 2048 := (y 0).isLt
  have h1 : (y 1).val < 32 := (y 1).isLt
  exact ⟨⟨by show 0 ≤ (y 0).val; omega, by show (y 0).val < 0 + 2048; omega⟩,
    ⟨by show 0 ≤ (y 1).val; omega, by show (y 1).val < 0 + 32; omega⟩⟩

/-- The body's triple at the point (2, 7). -/
theorem runF0 (c : Dev nD) (t : Fin cfg0.N) (h : t.val = 23) (x : Ins F) (d : St F)
    (E : Set ℕ) (K : PUnit → sProp (MM F)) :
    iprop(insOwn c t x ∗ (∃ o, owns (c : Thread nD τ) (stg10 t) fullShare o) ∗ scrOwn c d
        ∗ (iprop(insOwn c t x ∗ owns (c : Thread nD τ) (stg10 t) fullShare (outF0 c t h x d) ∗ scrOwn c (fF0 c t h x d)) -∗ K ⟨⟩))
      ⊢ wp frame (wpE (defs₀ (F := F)) Variants.none c none) E (bodyAt0 t) K := by
  unfold insOwn scrOwn fF0 outF0 piecesF10 piecesF5
  dsimp only
  iintro ⟨⟨H0, H1, H2, H3, H4, H5, H6, H7, H8, H9⟩, HO, ⟨S0, S1, S2, S3, S4, S5⟩, Hk⟩
  iapply (kernelRun0_F (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsF t h).1 (condsF t h).2.1 (condsF t h).2.2.1 (condsF t h).2.2.2.1 (condsF t h).2.2.2.2.1 (condsF t h).2.2.2.2.2
    x.x0 x.x1 x.x2 x.x3 x.x4 x.x5 x.x6 x.x7 x.x8 x.x9 d.deg d.dis d.u1 d.y1 d.u2 d.y2).2.2 E K
  iframe H0 H1 H2 H3 H4 H5 H6 H7 H8 H9 HO S0 S1 S2 S3 S4 S5
  iintro ⟨H0, H1, H2, H3, H4, H5, H6, H7, H8, H9, ⟨%f, HO⟩, S0, S1, S2, S3, S4, S5⟩
  iapply Hk
  have e := View.read_writes_eq_canon (stg10 t).view f (piecesF10 c t h x d) (piecesF10_cover c t h x d)
  unfold piecesF10 at e
  rw [e]
  iframe H0 H1 H2 H3 H4 H5 H6 H7 H8 H9 S0 S1 S2 S3 S4
  isplitl [HO]
  · iexact HO
  iexact S5

/-! ## The six cases together -/

/-- The kernel body's six control cases: per case the new carried arrays and the body's triple. -/
def runs : CaseRuns F where
  fA := fA0
  runA := runA0
  fB := fB0
  runB := runB0
  fC := fC0
  runC := runC0
  fD := fD0
  runD := runD0
  fE := fE0
  runE := runE0
  fF := fF0
  outF := outF0
  runF := runF0

end Cert.Kernel.Hand

end
-- ==== Proof.KLay.lean ====
/-
  Reading the kernel's non-pointwise operations at an index, on the extended reals.

  Layout: a vector [a] cast to a column [a,1] reads its entry at the row; a column [a,1] spread over [a,b] reads the
  row's one entry at every column.  Sums: the sum over the rows of a [2048,n] array, read at column c, is the sum over
  k of the entries (k, c).  Products: the three matrix products of the kernel read at (r, f) — x·W1 and h·W2 as
  the sum over k of l(r,k)·r(k,f), and the transposed product adjᵀ·u as the sum over k of adj(k,r)·u(k,f).
-/
import proofs.«121040_g28046136442917_fold_wed_c4_759_6_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Idealize.ShloMosaic Idealize.ShloMosaic.ValueIdx Cert.KernelIdeal Cert.KernelIdeal.Gen

/-! ## Layout -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums over the rows -/

/-- The sum over the rows of a `[2048, 256]` block, at column `c`. -/
theorem colsum256_apply (x : FVec Ideal S2048x256 .f32) (hacc : (0x00000000#32 : BitVec 32) = 0x00000000#32) (c : Fin 256) :
    multiReduction (F := Ideal) .add [0] S256 x 0x00000000#32 reduces_S2048x256_S256 (.inl rfl) hacc (ix1 c)
      = ∑ k : Fin 2048, x (ix2 k c) := by
  refine (Ideal.multiReduction_add_single x 0x00000000#32 reduces_S2048x256_S256 (.inl rfl) hacc (ix1 c)).trans ?_
  refine Finset.sum_congr rfl fun k _ => congrArg x ?_
  funext ax; match ax with | ⟨0, _⟩ => rfl | ⟨1, _⟩ => rfl

/-- The sum over the rows of a `[2048, 32]` array, at column `f`. -/
theorem colsum32_apply (x : FVec Ideal S2048x32 .f32) (hacc : (0x00000000#32 : BitVec 32) = 0x00000000#32) (f : Fin 32) :
    multiReduction (F := Ideal) .add [0] S32 x 0x00000000#32 reduces_S2048x32_S32 (.inl rfl) hacc (ix1 f)
      = ∑ k : Fin 2048, x (ix2 k f) := by
  refine (Ideal.multiReduction_add_single x 0x00000000#32 reduces_S2048x32_S32 (.inl rfl) hacc (ix1 f)).trans ?_
  refine Finset.sum_congr rfl fun k _ => congrArg x ?_
  funext ax; match ax with | ⟨0, _⟩ => rfl | ⟨1, _⟩ => rfl

end Cert.KernelIdeal.HandValue

end
-- ==== Proof.KMat.lean ====
/-
  The kernel's three matrix products read at an index, on the extended reals: into the zero accumulator a product is the
  plain sum over the contracted coordinate.  x·W1 at (r, f) is the sum over k of x(r,k)·W1(k,f); the hidden activations
  times W2 likewise; the product of the adjacency's column block, transposed, with u at (r, f) is the sum over the
  2048 rows k of adj(k,r)·u(k,f).
-/
import proofs.«121040_g28046136442917_fold_wed_c4_759_6_alg».proof.Proof.Gen.KernelIdeal.Skeleton
import Idealize.ShloMosaic.Lib.ValueIdx
import Idealize.ShloMosaic.PureOps.Ideal.Laws

noncomputable section

namespace Cert.KernelIdeal.HandValue

open Idealize.ShloMosaic Idealize.ShloMosaic.ValueIdx Cert.KernelIdeal Cert.KernelIdeal.Gen

/-- `x · W1` at `(r, f)`. -/
theorem matmul_xW1_apply (x : FVec Ideal S2048x64 .f32) (W : FVec Ideal S64x32 .f32) (r : Fin 2048) (f : Fin 32) :
    matmul dot_S2048x64_S64x32_S2048x32_1_0_0_1_n_n none x W (constant (F := Ideal) S2048x32 .f32 0x00000000#32) (ix2 r f)
      = ∑ k : Fin 64, x (ix2 r k) * W (ix2 k f) := by
  show FloatOps.matmul _ none x W _ (ix2 r f) = _
  rw [Ideal.matmul_constant_zero_apply,
    ← Equiv.sum_comp (contrEquiv1 dot_S2048x64_S64x32_S2048x32_1_0_0_1_n_n 64 rfl rfl).symm]
  refine Finset.sum_congr rfl fun c _ => ?_
  have c2 := contrEquiv1_symm_val dot_S2048x64_S64x32_S2048x32_1_0_0_1_n_n 64 rfl rfl c
  have l2 : dot_S2048x64_S64x32_S2048x32_1_0_0_1_n_n.lhsIdx (ix2 r f) ((contrEquiv1 _ 64 rfl rfl).symm c) = ix2 r c := by
    funext ax; apply Fin.ext
    match ax with
    | ⟨0, _⟩ => simp [DotDims.lhsIdx, dot_S2048x64_S64x32_S2048x32_1_0_0_1_n_n]; rfl
    | ⟨1, _⟩ => simp [DotDims.lhsIdx, dot_S2048x64_S64x32_S2048x32_1_0_0_1_n_n]; exact c2
  have r2 : dot_S2048x64_S64x32_S2048x32_1_0_0_1_n_n.rhsIdx (ix2 r f) ((contrEquiv1 _ 64 rfl rfl).symm c) = ix2 c f := by
    funext ax; apply Fin.ext
    match ax with
    | ⟨0, _⟩ => simp [DotDims.rhsIdx, dot_S2048x64_S64x32_S2048x32_1_0_0_1_n_n]; exact c2
    | ⟨1, _⟩ => simp [DotDims.rhsIdx, dot_S2048x64_S64x32_S2048x32_1_0_0_1_n_n]; rfl
  rw [l2, r2]

/-- `h · W2` at `(r, f)`. -/
theorem matmul_hW2_apply (x : FVec Ideal S2048x32 .f32) (W : FVec Ideal S32x32 .f32) (r : Fin 2048) (f : Fin 32) :
    matmul dot_S2048x32_S32x32_S2048x32_1_0_0_1_n_n none x W (constant (F := Ideal) S2048x32 .f32 0x00000000#32) (ix2 r f)
      = ∑ k : Fin 32, x (ix2 r k) * W (ix2 k f) := by
  show FloatOps.matmul _ none x W _ (ix2 r f) = _
  rw [Ideal.matmul_constant_zero_apply,
    ← Equiv.sum_comp (contrEquiv1 dot_S2048x32_S32x32_S2048x32_1_0_0_1_n_n 32 rfl rfl).symm]
  refine Finset.sum_congr rfl fun c _ => ?_
  have c2 := contrEquiv1_symm_val dot_S2048x32_S32x32_S2048x32_1_0_0_1_n_n 32 rfl rfl c
  have l2 : dot_S2048x32_S32x32_S2048x32_1_0_0_1_n_n.lhsIdx (ix2 r f) ((contrEquiv1 _ 32 rfl rfl).symm c) = ix2 r c := by
    funext ax; apply Fin.ext
    match ax with
    | ⟨0, _⟩ => simp [DotDims.lhsIdx, dot_S2048x32_S32x32_S2048x32_1_0_0_1_n_n]; rfl
    | ⟨1, _⟩ => simp [DotDims.lhsIdx, dot_S2048x32_S32x32_S2048x32_1_0_0_1_n_n]; exact c2
  have r2 : dot_S2048x32_S32x32_S2048x32_1_0_0_1_n_n.rhsIdx (ix2 r f) ((contrEquiv1 _ 32 rfl rfl).symm c) = ix2 c f := by
    funext ax; apply Fin.ext
    match ax with
    | ⟨0, _⟩ => simp [DotDims.rhsIdx, dot_S2048x32_S32x32_S2048x32_1_0_0_1_n_n]; exact c2
    | ⟨1, _⟩ => simp [DotDims.rhsIdx, dot_S2048x32_S32x32_S2048x32_1_0_0_1_n_n]; rfl
  rw [l2, r2]

/-- The transposed product `adjᵀ · u` of a column block at `(r, f)`: the sum over the 2048 rows. -/
theorem matmul_adjT_apply (a : FVec Ideal S2048x256 .f32) (u : FVec Ideal S2048x32 .f32) (r : Fin 256) (f : Fin 32) :
    matmul dot_S2048x256_S2048x32_S256x32_0_0_1_1_n_n none a u (constant (F := Ideal) S256x32 .f32 0x00000000#32) (ix2 r f)
      = ∑ k : Fin 2048, a (ix2 k r) * u (ix2 k f) := by
  show FloatOps.matmul _ none a u _ (ix2 r f) = _
  rw [Ideal.matmul_constant_zero_apply,
    ← Equiv.sum_comp (contrEquiv1 dot_S2048x256_S2048x32_S256x32_0_0_1_1_n_n 2048 rfl rfl).symm]
  refine Finset.sum_congr rfl fun c _ => ?_
  have c2 := contrEquiv1_symm_val dot_S2048x256_S2048x32_S256x32_0_0_1_1_n_n 2048 rfl rfl c
  have l2 : dot_S2048x256_S2048x32_S256x32_0_0_1_1_n_n.lhsIdx (ix2 r f) ((contrEquiv1 _ 2048 rfl rfl).symm c) = ix2 c r := by
    funext ax; apply Fin.ext
    match ax with
    | ⟨0, _⟩ => simp [DotDims.lhsIdx, dot_S2048x256_S2048x32_S256x32_0_0_1_1_n_n]; exact c2
    | ⟨1, _⟩ => simp [DotDims.lhsIdx, dot_S2048x256_S2048x32_S256x32_0_0_1_1_n_n]; rfl
  have r2 : dot_S2048x256_S2048x32_S256x32_0_0_1_1_n_n.rhsIdx (ix2 r f) ((contrEquiv1 _ 2048 rfl rfl).symm c) = ix2 c f := by
    funext ax; apply Fin.ext
    match ax with
    | ⟨0, _⟩ => simp [DotDims.rhsIdx, dot_S2048x256_S2048x32_S256x32_0_0_1_1_n_n]; exact c2
    | ⟨1, _⟩ => simp [DotDims.rhsIdx, dot_S2048x256_S2048x32_S256x32_0_0_1_1_n_n]; rfl
  rw [l2, r2]

end Cert.KernelIdeal.HandValue

end
-- ==== Proof.Spec.lean ====
/-
  The two-layer graph convolution as ONE function of the argument arrays, on the extended reals.

  For an adjacency array `adj` (rows = source nodes, columns = target nodes):
    deg c  = (∑ r, adj r c) + 1                     -- column sums plus the self loop
    dis c  = deg c ^ (-1/2) where deg c > 0, else 0
    conv h b (c, f) = dis c · ( ∑ r, adj r c · (dis r · h r f)  +  dis c · h c f ) + b f
  A layer is `conv` of the linear map `h = y · W`; between the layers stand a batch normalisation over the
  2048 rows (mean and biased variance per feature) and `max · 0`; after the second layer a batch
  normalisation only.  The four float literals are kept as their words.
-/
import Idealize.ShloMosaic.PureOps.Ideal
import Idealize.ShloMosaic.Lib.ValueIdx

noncomputable section

namespace Cert.Gcn

open Idealize.ShloMosaic Idealize.ShloMosaic.ValueIdx

abbrev SX : Shape := ⟨2, ![2048, 64]⟩
abbrev SA : Shape := ⟨2, ![2048, 2048]⟩
abbrev SW1 : Shape := ⟨2, ![64, 32]⟩
abbrev SV : Shape := ⟨1, ![32]⟩
abbrev SW2 : Shape := ⟨2, ![32, 32]⟩
abbrev SO : Shape := ⟨2, ![2048, 32]⟩

/-- The word of `0.0`. -/
abbrev wZero : EReal := Ideal.ofBits .f32 0x00000000#32
/-- The word of `1.0`. -/
abbrev wOne : EReal := Ideal.ofBits .f32 0x3F800000#32
/-- The word of `2048.0`, the number of rows. -/
abbrev wRows : EReal := Ideal.ofBits .f32 0x45000000#32
/-- The word of the variance's epsilon, `f32(1e-5)`. -/
abbrev wEps : EReal := Ideal.ofBits .f32 0x3727C5AC#32

/-- Column sum of the adjacency plus the self loop. -/
def deg (adj : Fin 2048 → Fin 2048 → EReal) (c : Fin 2048) : EReal := (∑ r : Fin 2048, adj r c) + wOne

/-- `deg ^ (-1/2)` where the degree is positive, zero elsewhere. -/
def dis (adj : Fin 2048 → Fin 2048 → EReal) (c : Fin 2048) : EReal :=
  Scalar.select (Ideal.cmp .ogt (deg adj c) wZero) (Ideal.rsqrt (deg adj c)) wZero

/-- `y · W`: row `r` of `y` against column `f` of `W`. -/
def lin {K : ℕ} (y : Fin 2048 → Fin K → EReal) (W : Fin K → Fin 32 → EReal) (r : Fin 2048) (f : Fin 32) : EReal :=
  ∑ k : Fin K, y r k * W k f

/-- The normalised propagation of `h` along the adjacency's columns, with the self loop and the bias. -/
def conv (adj : Fin 2048 → Fin 2048 → EReal) (h : Fin 2048 → Fin 32 → EReal) (b : Fin 32 → EReal)
    (c : Fin 2048) (f : Fin 32) : EReal :=
  dis adj c * ((∑ r : Fin 2048, adj r c * (dis adj r * h r f)) + dis adj c * h c f) + b f

/-- Mean of feature `f` over the rows. -/
def mean (y : Fin 2048 → Fin 32 → EReal) (f : Fin 32) : EReal := Ideal.div (∑ r : Fin 2048, y r f) wRows

/-- Biased variance of feature `f` over the rows. -/
def var (y : Fin 2048 → Fin 32 → EReal) (f : Fin 32) : EReal :=
  Ideal.div (∑ r : Fin 2048, (y r f - mean y f) * (y r f - mean y f)) wRows

/-- Batch normalisation over the rows with scale `g` and shift `be`. -/
def bn (y : Fin 2048 → Fin 32 → EReal) (g be : Fin 32 → EReal) (r : Fin 2048) (f : Fin 32) : EReal :=
  (y r f - mean y f) * Ideal.rsqrt (var y f + wEps) * g f + be f

/-- The first layer before its normalisation. -/
def layer1 (x : Fin 2048 → Fin 64 → EReal) (adj : Fin 2048 → Fin 2048 → EReal) (W1 : Fin 64 → Fin 32 → EReal)
    (b1 : Fin 32 → EReal) : Fin 2048 → Fin 32 → EReal := conv adj (lin x W1) b1

/-- The hidden activations: normalised first layer, negative part cut. -/
def hidden (x : Fin 2048 → Fin 64 → EReal) (adj : Fin 2048 → Fin 2048 → EReal) (W1 : Fin 64 → Fin 32 → EReal)
    (b1 g1 be1 : Fin 32 → EReal) (r : Fin 2048) (f : Fin 32) : EReal :=
  max (bn (layer1 x adj W1 b1) g1 be1 r f) wZero

/-- The second layer before its normalisation. -/
def layer2 (x : Fin 2048 → Fin 64 → EReal) (adj : Fin 2048 → Fin 2048 → EReal) (W1 : Fin 64 → Fin 32 → EReal)
    (b1 g1 be1 : Fin 32 → EReal) (W2 : Fin 32 → Fin 32 → EReal) (b2 : Fin 32 → EReal) : Fin 2048 → Fin 32 → EReal :=
  conv adj (lin (hidden x adj W1 b1 g1 be1) W2) b2

/-- The network's result over coordinates. -/
def net (x : Fin 2048 → Fin 64 → EReal) (adj : Fin 2048 → Fin 2048 → EReal) (W1 : Fin 64 → Fin 32 → EReal)
    (b1 g1 be1 : Fin 32 → EReal) (W2 : Fin 32 → Fin 32 → EReal) (b2 g2 be2 : Fin 32 → EReal) :
    Fin 2048 → Fin 32 → EReal :=
  bn (layer2 x adj W1 b1 g1 be1 W2 b2) g2 be2

/-- The result array as a function of the ten argument arrays, index by index. -/
def G (x : SX.Idx → EReal) (adj : SA.Idx → EReal) (W1 : SW1.Idx → EReal) (b1 g1 be1 : SV.Idx → EReal)
    (W2 : SW2.Idx → EReal) (b2 g2 be2 : SV.Idx → EReal) : SO.Idx → EReal := fun i =>
  net (fun r k => x (ix2 r k)) (fun r c => adj (ix2 r c)) (fun k f => W1 (ix2 k f))
    (fun f => b1 (ix1 f)) (fun f => g1 (ix1 f)) (fun f => be1 (ix1 f))
    (fun k f => W2 (ix2 k f)) (fun f => b2 (ix1 f)) (fun f => g2 (ix1 f)) (fun f => be2 (ix1 f)) (i 0) (i 1)

end Cert.Gcn

end
-- ==== Proof.KPay.lean ====
/-
  The kernel's stored values read at an index, on the extended reals.

  Each store of the kernel body writes a vector computed from the values loaded before it.  Read at one index, over
  explicit coordinates, these vectors are: the column sums of an adjacency column block (the degrees without the self
  loop); the inverse square root of the degree plus one where that is positive and zero elsewhere; the linear map
  x·W scaled row by row; the propagation of one column block, ds(r)·((∑ k, a(k,r)·u(k,f)) + ub(r,f)) + b(f); and the batch
  normalisation (y − mean)·rsqrt(var + ε)·g + be with mean and biased variance per feature over the 2048 rows, which
  are the specification's `mean`, `var` and `bn` word for word.
-/
import proofs.«121040_g28046136442917_fold_wed_c4_759_6_alg».proof.Proof.KLay
import proofs.«121040_g28046136442917_fold_wed_c4_759_6_alg».proof.Proof.KMat
import proofs.«121040_g28046136442917_fold_wed_c4_759_6_alg».proof.Proof.Spec

noncomputable section

namespace Cert.KernelIdeal.HandValue

open Idealize.ShloMosaic Idealize.ShloMosaic.ValueIdx Cert.KernelIdeal Cert.KernelIdeal.Gen

/-! ## The batch normalisation as the kernel computes it -/

/-- The per-feature mean, a `[1, 32]` row: the sum over the rows divided by the word of 2048. -/
def meanRow (y : Vec Ideal S2048x32 .f32) : FVec Ideal S1x32 .f32 :=
  divf (shapeCast S1x32 (multiReduction (F := Ideal) .add [0] S32 y 0x00000000#32 reduces_S2048x32_S32 (.inl rfl) rfl)
      shapeCasts_S32_S1x32)
    (broadcast S1x32 (Scalar.ofBits (F := Ideal) .f32 0x45000000#32))

theorem meanRow_apply (y : Vec Ideal S2048x32 .f32) (f : Fin 32) :
    meanRow y (ix2 (0 : Fin 1) f) = Gcn.mean (fun r f => y (ix2 r f)) f := by
  unfold meanRow Gcn.mean
  refine (divf_apply _ _ _).trans ?_
  refine congrArg₂ Ideal.div ?_ rfl
  exact (shapeCast_a_1a_apply _ _ 0 f).trans (colsum32_apply y rfl f)

/-- The array minus its per-feature mean. -/
def centred (y : Vec Ideal S2048x32 .f32) : FVec Ideal S2048x32 .f32 :=
  subf y (broadcastTo S2048x32 (meanRow y) broadcasts_S1x32_S2048x32)

theorem centred_apply (y : Vec Ideal S2048x32 .f32) (r : Fin 2048) (f : Fin 32) :
    centred y (ix2 r f) = y (ix2 r f) - Gcn.mean (fun r f => y (ix2 r f)) f := by
  unfold centred
  refine (subf_apply _ _ _).trans ?_
  exact congrArg (y (ix2 r f) - ·) ((broadcastTo_1b_ab_apply _ _ r f).trans (meanRow_apply y f))

/-- The per-feature biased variance, a `[1, 32]` row. -/
def varRow (y : Vec Ideal S2048x32 .f32) : FVec Ideal S1x32 .f32 :=
  divf (shapeCast S1x32 (multiReduction (F := Ideal) .add [0] S32 (mulf (centred y) (centred y)) 0x00000000#32
      reduces_S2048x32_S32 (.inl rfl) rfl) shapeCasts_S32_S1x32)
    (broadcast S1x32 (Scalar.ofBits (F := Ideal) .f32 0x45000000#32))

theorem varRow_apply (y : Vec Ideal S2048x32 .f32) (f : Fin 32) :
    varRow y (ix2 (0 : Fin 1) f) = Gcn.var (fun r f => y (ix2 r f)) f := by
  unfold varRow Gcn.var
  refine (divf_apply _ _ _).trans ?_
  refine congrArg₂ Ideal.div ?_ rfl
  refine (shapeCast_a_1a_apply _ _ 0 f).trans ((colsum32_apply _ rfl f).trans ?_)
  refine Finset.sum_congr rfl fun k _ => ?_
  refine (mulf_apply _ _ _).trans ?_
  rw [centred_apply]

/-- The normalised array with scale `g` and shift `be` (rows `[1, 32]`). -/
def bnVec (y : Vec Ideal S2048x32 .f32) (g be : Vec Ideal S1x32 .f32) : FVec Ideal S2048x32 .f32 :=
  addf
    (mulf
      (mulf (centred y)
        (broadcastTo S2048x32
          (rsqrt (addf (varRow y) (broadcast S1x32 (Scalar.ofBits (F := Ideal) .f32 0x3727C5AC#32))))
          broadcasts_S1x32_S2048x32))
      (broadcastTo S2048x32 (shapeCast S1x32 g shapeCasts_S1x32_S1x32) broadcasts_S1x32_S2048x32))
    (broadcastTo S2048x32 (shapeCast S1x32 be shapeCasts_S1x32_S1x32) broadcasts_S1x32_S2048x32)

theorem bnVec_apply (y : Vec Ideal S2048x32 .f32) (g be : Vec Ideal S1x32 .f32) (r : Fin 2048) (f : Fin 32) :
    bnVec y g be (ix2 r f)
      = Gcn.bn (fun r f => y (ix2 r f)) (fun f => g (ix2 (0 : Fin 1) f)) (fun f => be (ix2 (0 : Fin 1) f)) r f := by
  unfold bnVec Gcn.bn
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) (centred_apply y r f) ?_
      refine (broadcastTo_1b_ab_apply _ _ r f).trans ?_
      show Ideal.rsqrt (varRow y (ix2 (0 : Fin 1) f) + Ideal.ofBits .f32 0x3727C5AC#32) = _
      rw [varRow_apply]
    · refine (broadcastTo_1b_ab_apply _ _ r f).trans ?_
      exact congrFun (shapeCast_self _ _) _
  · refine (broadcastTo_1b_ab_apply _ _ r f).trans ?_
    exact congrFun (shapeCast_self _ _) _

/-! ## The payloads at an index -/

/-- The degree store's payload at row `r` of the block: the block's column sum. -/
theorem pay1_apply (x : Vec Ideal S2048x256 .f32) (r : Fin 256) (u : Fin 1) :
    k0_pay1 (F := Ideal) x (ix2 r u) = ∑ k : Fin 2048, x (ix2 k r) := by
  unfold k0_pay1
  dsimp only
  refine (congrFun (shapeCast_self _ _) _).trans ?_
  exact (shapeCast_a_a1_apply _ _ r u).trans (colsum256_apply x rfl r)

/-- The inverse square root of the degree plus one where that is positive, zero elsewhere. -/
theorem pay2_apply (d : Vec Ideal S2048x1 .f32) (r : Fin 2048) (u : Fin 1) :
    k0_pay2 (F := Ideal) d (ix2 r u)
      = Scalar.select (Ideal.cmp .ogt (d (ix2 r u) + Gcn.wOne) Gcn.wZero) (Ideal.rsqrt (d (ix2 r u) + Gcn.wOne)) Gcn.wZero :=
  rfl

theorem pay3_apply (d : Vec Ideal S2048x1 .f32) (r : Fin 2048) (u : Fin 1) :
    k0_pay3 (F := Ideal) d (ix2 r u)
      = Scalar.select (Ideal.cmp .ogt (d (ix2 r u) + Gcn.wOne) Gcn.wZero) (Ideal.rsqrt (d (ix2 r u) + Gcn.wOne)) Gcn.wZero := by
  unfold k0_pay3
  exact (congrFun (shapeCast_self _ _) _).trans (pay2_apply d r u)

/-- The scaled linear map `dis · (x · W1)` at `(r, f)`. -/
theorem pay4_apply (d : Vec Ideal S2048x1 .f32) (x : Vec Ideal S2048x64 .f32) (W : Vec Ideal S64x32 .f32)
    (r : Fin 2048) (f : Fin 32) :
    k0_pay4 (F := Ideal) d x W (ix2 r f)
      = k0_pay2 (F := Ideal) d (ix2 r (0 : Fin 1)) * ∑ k : Fin 64, x (ix2 r k) * W (ix2 k f) := by
  unfold k0_pay4
  refine (congrFun (shapeCast_self _ _) _).trans ?_
  refine (mulf_apply _ _ _).trans ?_
  exact congrArg₂ (· * ·) (broadcastTo_a1_ab_apply _ _ r f) (matmul_xW1_apply x W r f)

/-- The propagation of one column block: `ds(r) · ((∑ k, a(k,r) · u(k,f)) + ub(r,f)) + b(f)`. -/
theorem pay5_apply (a : Vec Ideal S2048x256 .f32) (u : Vec Ideal S2048x32 .f32) (ds : Vec Ideal S256x1 .f32)
    (ub : Vec Ideal S256x32 .f32) (b : Vec Ideal S1x32 .f32) (r : Fin 256) (f : Fin 32) :
    k0_pay5 (F := Ideal) a u ds ub b (ix2 r f)
      = ds (ix2 r (0 : Fin 1)) * ((∑ k : Fin 2048, a (ix2 k r) * u (ix2 k f)) + ub (ix2 r f)) + b (ix2 (0 : Fin 1) f) := by
  unfold k0_pay5
  refine (congrFun (shapeCast_self _ _) _).trans ?_
  refine (addf_apply _ _ _).trans ?_
  refine congrArg₂ (· + ·) ?_ ?_
  · refine (mulf_apply _ _ _).trans ?_
    refine congrArg₂ (· * ·) (broadcastTo_a1_ab_apply _ _ r f) ?_
    refine (addf_apply _ _ _).trans ?_
    exact congrArg (· + ub (ix2 r f)) (matmul_adjT_apply a u r f)
  · refine (broadcastTo_1b_ab_apply _ _ r f).trans ?_
    exact congrFun (shapeCast_self _ _) _

/-- The second layer's propagation is the same term. -/
theorem pay7_eq : @k0_pay7 Ideal _ = @k0_pay5 Ideal _ := rfl

/-- The output store's payload is the normalised array. -/
theorem pay8_apply (y : Vec Ideal S2048x32 .f32) (g be : Vec Ideal S1x32 .f32) (r : Fin 2048) (f : Fin 32) :
    k0_pay8 (F := Ideal) y g be (ix2 r f)
      = Gcn.bn (fun r f => y (ix2 r f)) (fun f => g (ix2 (0 : Fin 1) f)) (fun f => be (ix2 (0 : Fin 1) f)) r f :=
  bnVec_apply y g be r f

/-- The second layer's scaled linear map: `ds(r) · ∑ k, max (bn y)(r,k) 0 · W2(k,f)`. -/
theorem pay6_apply (y : Vec Ideal S2048x32 .f32) (g be : Vec Ideal S1x32 .f32) (W : Vec Ideal S32x32 .f32)
    (ds : Vec Ideal S2048x1 .f32) (r : Fin 2048) (f : Fin 32) :
    k0_pay6 (F := Ideal) y g be W ds (ix2 r f)
      = ds (ix2 r (0 : Fin 1)) * ∑ k : Fin 32,
          max (Gcn.bn (fun r f => y (ix2 r f)) (fun f => g (ix2 (0 : Fin 1) f)) (fun f => be (ix2 (0 : Fin 1) f)) r k) Gcn.wZero
            * W (ix2 k f) := by
  show shapeCast S2048x32 (mulf (broadcastTo S2048x32 ds broadcasts_S2048x1_S2048x32)
      (matmul dot_S2048x32_S32x32_S2048x32_1_0_0_1_n_n none
        (maximumf (bnVec y g be) (broadcast S2048x32 (Scalar.ofBits (F := Ideal) .f32 0x00000000#32))) W
        (constant (F := Ideal) S2048x32 .f32 0x00000000#32))) shapeCasts_S2048x32_S2048x32 (ix2 r f) = _
  refine (congrFun (shapeCast_self _ _) _).trans ?_
  refine (mulf_apply _ _ _).trans ?_
  refine congrArg₂ (· * ·) (broadcastTo_a1_ab_apply _ _ r f) ?_
  refine (matmul_hW2_apply _ W r f).trans ?_
  refine Finset.sum_congr rfl fun k _ => ?_
  refine congrArg (· * W (ix2 k f)) ?_
  refine (maximumf_apply _ _ _).trans ?_
  exact congrArg (max · Gcn.wZero) (bnVec_apply y g be r k)

end Cert.KernelIdeal.HandValue

end
-- ==== Proof.KModel.lean ====
/-
  The kernel's 24 grid points as a pure recursion on the carried buffers.

  The carried state is the seven arrays the body stores into: the column sums, their inverse square roots, the
  two scaled feature matrices u1 and u2, the two propagated matrices y1 and y2, and the result.  Point t = 8 p + j
  updates the state as the body's stores say: for p = 0 rows 256 j .. 256 j + 255 of the column sums; at t = 8 the
  inverse square roots and u1, whole; for p = 1 rows 256 j .. of y1; at t = 16 u2, whole; for p = 2 rows 256 j .. of y2;
  at t = 23 the result, whole.  A store of a row block keeps every other row.
-/
import proofs.«121040_g28046136442917_fold_wed_c4_759_6_alg».proof.Proof.KPay

noncomputable section

namespace Cert.KernelIdeal.HandValue

open Idealize.ShloMosaic Idealize.ShloMosaic.ValueIdx Cert.KernelIdeal Cert.KernelIdeal.Gen

/-- The carried buffers. -/
structure St where
  deg : Vec Ideal S2048x1 .f32
  dis : Vec Ideal S2048x1 .f32
  u1 : Vec Ideal S2048x32 .f32
  y1 : Vec Ideal S2048x32 .f32
  u2 : Vec Ideal S2048x32 .f32
  y2 : Vec Ideal S2048x32 .f32
  out : Vec Ideal S2048x32 .f32

/-- Columns `256 j .. 256 j + 255` of the adjacency. -/
def adjBlk (A : Vec Ideal S2048x2048 .f32) (j : Fin 8) : Vec Ideal S2048x256 .f32 :=
  fun i => A (ix2 (n0 := 2048) (n1 := 2048) ⟨(i 0).val, idx2_lt0 i⟩
    ⟨256 * j.val + (i 1).val, by have := idx2_lt1 i; have := j.isLt; omega⟩)

/-- Rows `256 j .. 256 j + 255` of an array of 2048 rows. -/
def rowBlk {N : ℕ} (v : Vec Ideal ⟨2, ![2048, N]⟩ .f32) (j : Fin 8) : Vec Ideal ⟨2, ![256, N]⟩ .f32 :=
  fun i => v (ix2 (n0 := 2048) (n1 := N) ⟨256 * j.val + (i 0).val, by have := idx2_lt0 i; have := j.isLt; omega⟩
    ⟨(i 1).val, idx2_lt1 i⟩)

/-- An array of 2048 rows with rows `256 j .. 256 j + 255` replaced by a block. -/
def setRows {N : ℕ} (j : Fin 8) (blk : Vec Ideal ⟨2, ![256, N]⟩ .f32) (old : Vec Ideal ⟨2, ![2048, N]⟩ .f32) :
    Vec Ideal ⟨2, ![2048, N]⟩ .f32 :=
  fun i => if h : 256 * j.val ≤ (i 0).val ∧ (i 0).val < 256 * j.val + 256 then
      blk (ix2 (n0 := 256) (n1 := N) ⟨(i 0).val - 256 * j.val, by omega⟩ ⟨(i 1).val, idx2_lt1 i⟩)
    else old i

theorem setRows_apply_of_mem {N : ℕ} (j : Fin 8) (blk : Vec Ideal ⟨2, ![256, N]⟩ .f32)
    (old : Vec Ideal ⟨2, ![2048, N]⟩ .f32) (i : (⟨2, ![2048, N]⟩ : Shape).Idx) (q : Fin 256)
    (hq : (i 0).val = 256 * j.val + q.val) :
    setRows j blk old i = blk (ix2 (n0 := 256) (n1 := N) q ⟨(i 1).val, idx2_lt1 i⟩) := by
  unfold setRows
  have h : 256 * j.val ≤ (i 0).val ∧ (i 0).val < 256 * j.val + 256 := by have := q.isLt; omega
  rw [dif_pos h]
  exact congrArg blk (funext fun a => Fin.ext (by
    match a with
    | ⟨0, _⟩ => show (i 0).val - 256 * j.val = q.val; omega
    | ⟨1, _⟩ => rfl))

theorem setRows_apply_of_not_mem {N : ℕ} (j : Fin 8) (blk : Vec Ideal ⟨2, ![256, N]⟩ .f32)
    (old : Vec Ideal ⟨2, ![2048, N]⟩ .f32) (i : (⟨2, ![2048, N]⟩ : Shape).Idx)
    (hr : (i 0).val < 256 * j.val ∨ 256 * j.val + 256 ≤ (i 0).val) :
    setRows j blk old i = old i := by
  unfold setRows
  have h : ¬(256 * j.val ≤ (i 0).val ∧ (i 0).val < 256 * j.val + 256) := by omega
  rw [dif_neg h]

/-- A row inside the block reads the block. -/
theorem setRows_of_mem {N : ℕ} (j : Fin 8) (blk : Vec Ideal ⟨2, ![256, N]⟩ .f32) (old : Vec Ideal ⟨2, ![2048, N]⟩ .f32)
    (r : Fin 2048) (f : Fin N) (q : Fin 256) (hq : r.val = 256 * j.val + q.val) :
    setRows j blk old (ix2 r f) = blk (ix2 q f) :=
  setRows_apply_of_mem j blk old (ix2 r f) q hq

/-- A row outside the block reads what was there. -/
theorem setRows_of_not_mem {N : ℕ} (j : Fin 8) (blk : Vec Ideal ⟨2, ![256, N]⟩ .f32) (old : Vec Ideal ⟨2, ![2048, N]⟩ .f32)
    (r : Fin 2048) (f : Fin N) (hr : r.val < 256 * j.val ∨ 256 * j.val + 256 ≤ r.val) :
    setRows j blk old (ix2 r f) = old (ix2 r f) :=
  setRows_apply_of_not_mem j blk old (ix2 r f) hr

section Steps

variable (X : Vec Ideal S2048x64 .f32) (A : Vec Ideal S2048x2048 .f32) (W1 : Vec Ideal S64x32 .f32)
  (b1 g1 be1 : Vec Ideal S1x32 .f32) (W2 : Vec Ideal S32x32 .f32) (b2 g2 be2 : Vec Ideal S1x32 .f32)

/-- p = 0: the block's column sums into rows `256 j ..` of the first buffer. -/
def stepDeg (j : Fin 8) (s : St) : St :=
  { s with deg := setRows j (k0_pay1 (F := Ideal) (adjBlk A j)) s.deg }

/-- t = 8: the inverse square roots and the first scaled feature matrix, whole. -/
def stepDis (s : St) : St :=
  { s with dis := k0_pay3 (F := Ideal) s.deg, u1 := k0_pay4 (F := Ideal) s.deg X W1 }

/-- p = 1: rows `256 j ..` of the first propagated matrix. -/
def stepY1 (j : Fin 8) (s : St) : St :=
  { s with y1 := setRows j (k0_pay5 (F := Ideal) (adjBlk A j) s.u1 (rowBlk s.dis j) (rowBlk s.u1 j) b1) s.y1 }

/-- t = 16: the second scaled feature matrix, whole. -/
def stepHid (s : St) : St :=
  { s with u2 := k0_pay6 (F := Ideal) s.y1 g1 be1 W2 s.dis }

/-- p = 2: rows `256 j ..` of the second propagated matrix. -/
def stepY2 (j : Fin 8) (s : St) : St :=
  { s with y2 := setRows j (k0_pay7 (F := Ideal) (adjBlk A j) s.u2 (rowBlk s.dis j) (rowBlk s.u2 j) b2) s.y2 }

/-- t = 23: the result, whole. -/
def stepOut (s : St) : St :=
  { s with out := k0_pay8 (F := Ideal) s.y2 g2 be2 }

/-- The column block of point `n`. -/
def colOf (n : ℕ) : Fin 8 := ⟨n % 8, Nat.mod_lt _ (by decide)⟩

/-- What point `n` does to the carried buffers. -/
def step (n : ℕ) (s : St) : St :=
  if n / 8 = 0 then stepDeg A (colOf n) s
  else if n = 8 then stepY1 A b1 (colOf n) (stepDis X W1 s)
  else if n / 8 = 1 then stepY1 A b1 (colOf n) s
  else if n = 16 then stepY2 A b2 (colOf n) (stepHid g1 be1 W2 s)
  else if n = 23 then stepOut g2 be2 (stepY2 A b2 (colOf n) s)
  else stepY2 A b2 (colOf n) s

/-- The carried buffers after the first `n` points, from the contents `z` the region found. -/
def runTo (z : St) : ℕ → St
  | 0 => z
  | n + 1 => step X A W1 b1 g1 be1 W2 b2 g2 be2 n (runTo z n)

end Steps

end Cert.KernelIdeal.HandValue

end
-- ==== Proof.KInv.lean ====
/-
  The invariant of the 24 points and the result it gives.

  After the first n points: rows below 256 n of the first buffer hold the adjacency's column sums; from n = 9 on the second
  buffer holds the specification's `dis` and the third `dis · (x · W1)`; rows below 256 (n − 8) of the fourth hold the
  first layer; from n = 17 on the fifth holds `dis · (hidden · W2)`; rows below 256 (n − 16) of the sixth hold the second
  layer; and after all 24 the result holds the network.  Each point extends the rows by one block, or fills a whole
  buffer from buffers already complete; nothing depends on what the buffers held at the start.
-/
import proofs.«121040_g28046136442917_fold_wed_c4_759_6_alg».proof.Proof.KModel

noncomputable section

namespace Cert.KernelIdeal.HandValue

open Idealize.ShloMosaic Idealize.ShloMosaic.ValueIdx Cert.KernelIdeal Cert.KernelIdeal.Gen

/-- An array of two axes read by coordinates. -/
abbrev rd2 {a b : ℕ} (v : Vec Ideal ⟨2, ![a, b]⟩ .f32) : Fin a → Fin b → EReal := fun r c => v (ix2 r c)
/-- A `[1, 32]` row read by its column. -/
abbrev rd1 (v : Vec Ideal S1x32 .f32) : Fin 32 → EReal := fun f => v (ix2 (0 : Fin 1) f)

/-- A store of rows `256 j ..` extends what holds of the rows below `256 j` to the rows below `256 (j + 1)`. -/
theorem setRows_extends {N : ℕ} (j : Fin 8) (blk : Vec Ideal ⟨2, ![256, N]⟩ .f32) (old : Vec Ideal ⟨2, ![2048, N]⟩ .f32)
    (T : Fin 2048 → Fin N → EReal) (hold : ∀ r f, r.val < 256 * j.val → old (ix2 r f) = T r f)
    (hblk : ∀ (q : Fin 256) (r : Fin 2048) (f : Fin N), r.val = 256 * j.val + q.val → blk (ix2 q f) = T r f)
    (r : Fin 2048) (f : Fin N) (hr : r.val < 256 * (j.val + 1)) : setRows j blk old (ix2 r f) = T r f := by
  by_cases hlt : r.val < 256 * j.val
  · rw [setRows_of_not_mem j blk old r f (Or.inl hlt)]
    exact hold r f hlt
  · have hq : r.val - 256 * j.val < 256 := by omega
    rw [setRows_of_mem j blk old r f ⟨r.val - 256 * j.val, hq⟩ (by show r.val = 256 * j.val + (r.val - 256 * j.val); omega)]
    exact hblk _ r f (by show r.val = 256 * j.val + (r.val - 256 * j.val); omega)

section

variable (X : Vec Ideal S2048x64 .f32) (A : Vec Ideal S2048x2048 .f32) (W1 : Vec Ideal S64x32 .f32)
  (b1 g1 be1 : Vec Ideal S1x32 .f32) (W2 : Vec Ideal S32x32 .f32) (b2 g2 be2 : Vec Ideal S1x32 .f32)

/-! ## The pieces -/

/-- The column sum of a block's column is the adjacency's. -/
theorem deg_block (j : Fin 8) (q : Fin 256) (r : Fin 2048) (u : Fin 1) (hq : r.val = 256 * j.val + q.val) :
    k0_pay1 (F := Ideal) (adjBlk A j) (ix2 q u) = ∑ k : Fin 2048, A (ix2 k r) := by
  rw [pay1_apply]
  refine Finset.sum_congr rfl fun k _ => ?_
  unfold adjBlk
  exact congrArg A (funext fun a => Fin.ext (by
    match a with
    | ⟨0, _⟩ => rfl
    | ⟨1, _⟩ => show 256 * j.val + q.val = r.val; omega))

/-- From the column sums, the specification's `dis`. -/
theorem dis_of_deg (d : Vec Ideal S2048x1 .f32) (hd : ∀ r : Fin 2048, d (ix2 r (0 : Fin 1)) = ∑ k : Fin 2048, A (ix2 k r))
    (r : Fin 2048) : k0_pay2 (F := Ideal) d (ix2 r (0 : Fin 1)) = Gcn.dis (rd2 A) r := by
  rw [pay2_apply, hd]
  rfl

theorem dis_of_deg' (d : Vec Ideal S2048x1 .f32) (hd : ∀ r : Fin 2048, d (ix2 r (0 : Fin 1)) = ∑ k : Fin 2048, A (ix2 k r))
    (r : Fin 2048) : k0_pay3 (F := Ideal) d (ix2 r (0 : Fin 1)) = Gcn.dis (rd2 A) r := by
  rw [pay3_apply, hd]
  rfl

/-- From the column sums, `dis · (x · W1)`. -/
theorem u1_of_deg (d : Vec Ideal S2048x1 .f32) (hd : ∀ r : Fin 2048, d (ix2 r (0 : Fin 1)) = ∑ k : Fin 2048, A (ix2 k r))
    (r : Fin 2048) (f : Fin 32) :
    k0_pay4 (F := Ideal) d X W1 (ix2 r f) = Gcn.dis (rd2 A) r * Gcn.lin (rd2 X) (rd2 W1) r f := by
  rw [pay4_apply, dis_of_deg A d hd]
  rfl

/-- One block of the propagation of `h`, from `dis` and `u = dis · h`. -/
theorem conv_block (h : Fin 2048 → Fin 32 → EReal) (b : Vec Ideal S1x32 .f32) (dis : Vec Ideal S2048x1 .f32)
    (u : Vec Ideal S2048x32 .f32) (hd : ∀ r : Fin 2048, dis (ix2 r (0 : Fin 1)) = Gcn.dis (rd2 A) r)
    (hu : ∀ (r : Fin 2048) (f : Fin 32), u (ix2 r f) = Gcn.dis (rd2 A) r * h r f)
    (j : Fin 8) (q : Fin 256) (r : Fin 2048) (f : Fin 32) (hq : r.val = 256 * j.val + q.val) :
    k0_pay5 (F := Ideal) (adjBlk A j) u (rowBlk dis j) (rowBlk u j) b (ix2 q f) = Gcn.conv (rd2 A) h (rd1 b) r f := by
  rw [pay5_apply]
  have e0 : rowBlk dis j (ix2 q (0 : Fin 1)) = Gcn.dis (rd2 A) r := by
    rw [← hd r]; unfold rowBlk
    exact congrArg dis (funext fun a => Fin.ext (by
      match a with
      | ⟨0, _⟩ => show 256 * j.val + q.val = r.val; omega
      | ⟨1, _⟩ => rfl))
  have e1 : rowBlk u j (ix2 q f) = Gcn.dis (rd2 A) r * h r f := by
    rw [← hu r f]; unfold rowBlk
    exact congrArg u (funext fun a => Fin.ext (by
      match a with
      | ⟨0, _⟩ => show 256 * j.val + q.val = r.val; omega
      | ⟨1, _⟩ => rfl))
  have e3 : (∑ k : Fin 2048, adjBlk A j (ix2 k q) * u (ix2 k f))
      = ∑ k : Fin 2048, rd2 A k r * (Gcn.dis (rd2 A) k * h k f) := by
    refine Finset.sum_congr rfl fun k _ => ?_
    rw [hu k f]
    refine congrArg (· * (Gcn.dis (rd2 A) k * h k f)) ?_
    unfold adjBlk
    exact congrArg A (funext fun a => Fin.ext (by
      match a with
      | ⟨0, _⟩ => rfl
      | ⟨1, _⟩ => show 256 * j.val + q.val = r.val; omega))
  rw [e0, e1, e3]
  rfl

/-- From the complete first layer and `dis`, `dis · (hidden · W2)`. -/
theorem u2_of (y1 : Vec Ideal S2048x32 .f32) (dis : Vec Ideal S2048x1 .f32)
    (hy : ∀ (r : Fin 2048) (f : Fin 32), y1 (ix2 r f) = Gcn.layer1 (rd2 X) (rd2 A) (rd2 W1) (rd1 b1) r f)
    (hd : ∀ r : Fin 2048, dis (ix2 r (0 : Fin 1)) = Gcn.dis (rd2 A) r) (r : Fin 2048) (f : Fin 32) :
    k0_pay6 (F := Ideal) y1 g1 be1 W2 dis (ix2 r f)
      = Gcn.dis (rd2 A) r * Gcn.lin (Gcn.hidden (rd2 X) (rd2 A) (rd2 W1) (rd1 b1) (rd1 g1) (rd1 be1)) (rd2 W2) r f := by
  have ey : (fun r f => y1 (ix2 r f)) = Gcn.layer1 (rd2 X) (rd2 A) (rd2 W1) (rd1 b1) :=
    funext fun r => funext fun f => hy r f
  rw [pay6_apply, hd, ey]
  rfl

/-- From the complete second layer, the network. -/
theorem out_of (y2 : Vec Ideal S2048x32 .f32)
    (hy : ∀ (r : Fin 2048) (f : Fin 32),
      y2 (ix2 r f) = Gcn.layer2 (rd2 X) (rd2 A) (rd2 W1) (rd1 b1) (rd1 g1) (rd1 be1) (rd2 W2) (rd1 b2) r f)
    (r : Fin 2048) (f : Fin 32) :
    k0_pay8 (F := Ideal) y2 g2 be2 (ix2 r f)
      = Gcn.net (rd2 X) (rd2 A) (rd2 W1) (rd1 b1) (rd1 g1) (rd1 be1) (rd2 W2) (rd1 b2) (rd1 g2) (rd1 be2) r f := by
  have ey : (fun r f => y2 (ix2 r f))
      = Gcn.layer2 (rd2 X) (rd2 A) (rd2 W1) (rd1 b1) (rd1 g1) (rd1 be1) (rd2 W2) (rd1 b2) :=
    funext fun r => funext fun f => hy r f
  rw [pay8_apply, ey]
  rfl

end

section

variable (X : Vec Ideal S2048x64 .f32) (A : Vec Ideal S2048x2048 .f32) (W1 : Vec Ideal S64x32 .f32)
  (b1 g1 be1 : Vec Ideal S1x32 .f32) (W2 : Vec Ideal S32x32 .f32) (b2 g2 be2 : Vec Ideal S1x32 .f32)

/-! ## The invariant -/

/-- What the carried buffers hold after the first `n` points. -/
structure Inv (n : ℕ) (s : St) : Prop where
  deg : ∀ r : Fin 2048, r.val < 256 * n → s.deg (ix2 r (0 : Fin 1)) = ∑ k : Fin 2048, A (ix2 k r)
  dis : 9 ≤ n → ∀ r : Fin 2048, s.dis (ix2 r (0 : Fin 1)) = Gcn.dis (rd2 A) r
  u1 : 9 ≤ n → ∀ (r : Fin 2048) (f : Fin 32), s.u1 (ix2 r f) = Gcn.dis (rd2 A) r * Gcn.lin (rd2 X) (rd2 W1) r f
  y1 : ∀ (r : Fin 2048) (f : Fin 32), r.val + 2048 < 256 * n →
    s.y1 (ix2 r f) = Gcn.layer1 (rd2 X) (rd2 A) (rd2 W1) (rd1 b1) r f
  u2 : 17 ≤ n → ∀ (r : Fin 2048) (f : Fin 32), s.u2 (ix2 r f)
    = Gcn.dis (rd2 A) r * Gcn.lin (Gcn.hidden (rd2 X) (rd2 A) (rd2 W1) (rd1 b1) (rd1 g1) (rd1 be1)) (rd2 W2) r f
  y2 : ∀ (r : Fin 2048) (f : Fin 32), r.val + 4096 < 256 * n →
    s.y2 (ix2 r f) = Gcn.layer2 (rd2 X) (rd2 A) (rd2 W1) (rd1 b1) (rd1 g1) (rd1 be1) (rd2 W2) (rd1 b2) r f
  out : 24 ≤ n → ∀ (r : Fin 2048) (f : Fin 32), s.out (ix2 r f)
    = Gcn.net (rd2 X) (rd2 A) (rd2 W1) (rd1 b1) (rd1 g1) (rd1 be1) (rd2 W2) (rd1 b2) (rd1 g2) (rd1 be2) r f

/-- Before the first point nothing is claimed. -/
theorem inv_zero (z : St) : Inv X A W1 b1 g1 be1 W2 b2 g2 be2 0 z :=
  ⟨fun r h => absurd h (by omega), fun h => absurd h (by omega), fun h => absurd h (by omega),
    fun r f h => absurd h (by omega), fun h => absurd h (by omega), fun r f h => absurd h (by omega),
    fun h => absurd h (by omega)⟩

/-- A point of the first phase: one more block of column sums. -/
theorem inv_deg (n : ℕ) (hn : n < 8) (s : St) (h : Inv X A W1 b1 g1 be1 W2 b2 g2 be2 n s) :
    Inv X A W1 b1 g1 be1 W2 b2 g2 be2 (n + 1) (stepDeg A (colOf n) s) := by
  have hj : (colOf n).val = n := by show n % 8 = n; omega
  refine ⟨fun r hr => ?_, fun h9 => absurd h9 (by omega), fun h9 => absurd h9 (by omega),
    fun r f hr => absurd hr (by omega), fun h17 => absurd h17 (by omega), fun r f hr => absurd hr (by omega),
    fun h24 => absurd h24 (by omega)⟩
  show setRows (colOf n) (k0_pay1 (F := Ideal) (adjBlk A (colOf n))) s.deg (ix2 r (0 : Fin 1)) = _
  exact setRows_extends (colOf n) _ s.deg (fun r _ => ∑ k : Fin 2048, A (ix2 k r))
    (fun r f hlt => by
      have e : f = (0 : Fin 1) := Subsingleton.elim _ _
      subst e
      exact h.deg r (by omega))
    (fun q r f hq => deg_block A (colOf n) q r f hq) r (0 : Fin 1) (by omega)

/-- A point that stores a block of the first layer, `dis` and `u1` being complete. -/
theorem inv_y1 (n : ℕ) (h8 : 8 ≤ n) (h16 : n < 16) (s : St)
    (hdeg : ∀ r : Fin 2048, s.deg (ix2 r (0 : Fin 1)) = ∑ k : Fin 2048, A (ix2 k r))
    (hdis : ∀ r : Fin 2048, s.dis (ix2 r (0 : Fin 1)) = Gcn.dis (rd2 A) r)
    (hu1 : ∀ (r : Fin 2048) (f : Fin 32), s.u1 (ix2 r f) = Gcn.dis (rd2 A) r * Gcn.lin (rd2 X) (rd2 W1) r f)
    (hy1 : ∀ (r : Fin 2048) (f : Fin 32), r.val + 2048 < 256 * n →
      s.y1 (ix2 r f) = Gcn.layer1 (rd2 X) (rd2 A) (rd2 W1) (rd1 b1) r f) :
    Inv X A W1 b1 g1 be1 W2 b2 g2 be2 (n + 1) (stepY1 A b1 (colOf n) s) := by
  have hj : (colOf n).val = n - 8 := by show n % 8 = n - 8; omega
  refine ⟨fun r _ => hdeg r, fun _ => hdis, fun _ => hu1, fun r f hr => ?_, fun h17 => absurd h17 (by omega),
    fun r f hr => absurd hr (by omega), fun h24 => absurd h24 (by omega)⟩
  show setRows (colOf n) (k0_pay5 (F := Ideal) (adjBlk A (colOf n)) s.u1 (rowBlk s.dis (colOf n))
    (rowBlk s.u1 (colOf n)) b1) s.y1 (ix2 r f) = _
  exact setRows_extends (colOf n) _ s.y1 (Gcn.layer1 (rd2 X) (rd2 A) (rd2 W1) (rd1 b1))
    (fun r f hlt => hy1 r f (by omega))
    (fun q r f hq => conv_block A (Gcn.lin (rd2 X) (rd2 W1)) b1 s.dis s.u1 hdis hu1 (colOf n) q r f hq)
    r f (by omega)

/-- A point that stores a block of the second layer, `dis` and `u2` being complete: the rows it leaves. -/
theorem y2_step (n : ℕ) (h16 : 16 ≤ n) (h24 : n < 24) (s : St)
    (hdis : ∀ r : Fin 2048, s.dis (ix2 r (0 : Fin 1)) = Gcn.dis (rd2 A) r)
    (hu2 : ∀ (r : Fin 2048) (f : Fin 32), s.u2 (ix2 r f)
      = Gcn.dis (rd2 A) r * Gcn.lin (Gcn.hidden (rd2 X) (rd2 A) (rd2 W1) (rd1 b1) (rd1 g1) (rd1 be1)) (rd2 W2) r f)
    (hy2 : ∀ (r : Fin 2048) (f : Fin 32), r.val + 4096 < 256 * n →
      s.y2 (ix2 r f) = Gcn.layer2 (rd2 X) (rd2 A) (rd2 W1) (rd1 b1) (rd1 g1) (rd1 be1) (rd2 W2) (rd1 b2) r f)
    (r : Fin 2048) (f : Fin 32) (hr : r.val + 4096 < 256 * (n + 1)) :
    (stepY2 A b2 (colOf n) s).y2 (ix2 r f)
      = Gcn.layer2 (rd2 X) (rd2 A) (rd2 W1) (rd1 b1) (rd1 g1) (rd1 be1) (rd2 W2) (rd1 b2) r f := by
  have hj : (colOf n).val = n - 16 := by show n % 8 = n - 16; omega
  show setRows (colOf n) (k0_pay7 (F := Ideal) (adjBlk A (colOf n)) s.u2 (rowBlk s.dis (colOf n))
    (rowBlk s.u2 (colOf n)) b2) s.y2 (ix2 r f) = _
  exact setRows_extends (colOf n) _ s.y2
    (Gcn.layer2 (rd2 X) (rd2 A) (rd2 W1) (rd1 b1) (rd1 g1) (rd1 be1) (rd2 W2) (rd1 b2))
    (fun r f hlt => hy2 r f (by omega))
    (fun q r f hq => conv_block A
      (Gcn.lin (Gcn.hidden (rd2 X) (rd2 A) (rd2 W1) (rd1 b1) (rd1 g1) (rd1 be1)) (rd2 W2)) b2 s.dis s.u2 hdis hu2
      (colOf n) q r f hq)
    r f (by omega)

/-- One point keeps the invariant. -/
theorem inv_step (n : ℕ) (hn : n < 24) (s : St) (h : Inv X A W1 b1 g1 be1 W2 b2 g2 be2 n s) :
    Inv X A W1 b1 g1 be1 W2 b2 g2 be2 (n + 1) (step X A W1 b1 g1 be1 W2 b2 g2 be2 n s) := by
  unfold step
  by_cases c1 : n / 8 = 0
  · rw [if_pos c1]
    exact inv_deg X A W1 b1 g1 be1 W2 b2 g2 be2 n (by omega) s h
  rw [if_neg c1]
  have hdeg : ∀ r : Fin 2048, s.deg (ix2 r (0 : Fin 1)) = ∑ k : Fin 2048, A (ix2 k r) :=
    fun r => h.deg r (by have := r.isLt; omega)
  by_cases c2 : n = 8
  · rw [if_pos c2]
    subst c2
    exact inv_y1 X A W1 b1 g1 be1 W2 b2 g2 be2 8 (le_refl _) (by omega) (stepDis X W1 s) hdeg
      (fun r => dis_of_deg' A s.deg hdeg r) (fun r f => u1_of_deg X A W1 s.deg hdeg r f)
      (fun r f hr => absurd hr (by omega))
  rw [if_neg c2]
  have hdis := h.dis (by omega)
  have hu1 := h.u1 (by omega)
  by_cases c3 : n / 8 = 1
  · rw [if_pos c3]
    exact inv_y1 X A W1 b1 g1 be1 W2 b2 g2 be2 n (by omega) (by omega) s hdeg hdis hu1 h.y1
  rw [if_neg c3]
  have hy1 : ∀ (r : Fin 2048) (f : Fin 32),
      s.y1 (ix2 r f) = Gcn.layer1 (rd2 X) (rd2 A) (rd2 W1) (rd1 b1) r f :=
    fun r f => h.y1 r f (by have := r.isLt; omega)
  by_cases c4 : n = 16
  · rw [if_pos c4]
    subst c4
    have hu2 := fun r f => u2_of X A W1 b1 g1 be1 W2 s.y1 s.dis hy1 hdis r f
    exact ⟨fun r _ => hdeg r, fun _ => hdis, fun _ => hu1, fun r f _ => hy1 r f, fun _ => hu2,
      fun r f hr => y2_step X A W1 b1 g1 be1 W2 b2 16 (le_refl _) (by omega) (stepHid g1 be1 W2 s) hdis hu2
        (fun r f hr => absurd hr (by omega)) r f hr,
      fun h24 => absurd h24 (by omega)⟩
  rw [if_neg c4]
  have hu2 := h.u2 (by omega)
  by_cases c5 : n = 23
  · rw [if_pos c5]
    subst c5
    have hy2 := fun (r : Fin 2048) (f : Fin 32) => y2_step X A W1 b1 g1 be1 W2 b2 23 (by omega) (by omega) s hdis hu2
      h.y2 r f (by have := r.isLt; omega)
    exact ⟨fun r _ => hdeg r, fun _ => hdis, fun _ => hu1, fun r f _ => hy1 r f, fun _ => hu2,
      fun r f _ => hy2 r f,
      fun _ r f => out_of X A W1 b1 g1 be1 W2 b2 g2 be2 (stepY2 A b2 (colOf 23) s).y2 hy2 r f⟩
  rw [if_neg c5]
  exact ⟨fun r _ => hdeg r, fun _ => hdis, fun _ => hu1, fun r f _ => hy1 r f, fun _ => hu2,
    fun r f hr => y2_step X A W1 b1 g1 be1 W2 b2 n (by omega) hn s hdis hu2 h.y2 r f hr,
    fun h24 => absurd h24 (by omega)⟩

/-- The invariant after the first `n` points, whatever the buffers held at the start. -/
theorem inv_runTo (z : St) : ∀ n : ℕ, n ≤ 24 →
    Inv X A W1 b1 g1 be1 W2 b2 g2 be2 n (runTo X A W1 b1 g1 be1 W2 b2 g2 be2 z n)
  | 0, _ => inv_zero X A W1 b1 g1 be1 W2 b2 g2 be2 z
  | n + 1, hn => inv_step X A W1 b1 g1 be1 W2 b2 g2 be2 n (by omega) _
      (inv_runTo z n (by omega))

/-- After the 24 points the result buffer holds the network, whatever the buffers held at the start. -/
theorem runTo_out (z : St) (r : Fin 2048) (f : Fin 32) :
    (runTo X A W1 b1 g1 be1 W2 b2 g2 be2 z 24).out (ix2 r f)
      = Gcn.net (rd2 X) (rd2 A) (rd2 W1) (rd1 b1) (rd1 g1) (rd1 be1) (rd2 W2) (rd1 b2) (rd1 g2) (rd1 be2) r f :=
  (inv_runTo X A W1 b1 g1 be1 W2 b2 g2 be2 z 24 (le_refl _)).out (le_refl _) r f

end

section

/-- The result buffer after the 24 points is the specification's array of the argument arrays, the six `[32]` vectors
    reaching the kernel as `[1, 32]` rows. -/
theorem runTo_out_eq_G (x : Vec Ideal S2048x64 .f32) (adj : Vec Ideal S2048x2048 .f32) (W1 : Vec Ideal S64x32 .f32)
    (b1 g1 be1 : Gcn.SV.Idx → EReal) (W2 : Vec Ideal S32x32 .f32) (b2 g2 be2 : Gcn.SV.Idx → EReal)
    (b1K g1K be1K b2K g2K be2K : Vec Ideal S1x32 .f32)
    (hb1 : ∀ f : Fin 32, b1K (ix2 (0 : Fin 1) f) = b1 (ix1 f)) (hg1 : ∀ f : Fin 32, g1K (ix2 (0 : Fin 1) f) = g1 (ix1 f))
    (hbe1 : ∀ f : Fin 32, be1K (ix2 (0 : Fin 1) f) = be1 (ix1 f)) (hb2 : ∀ f : Fin 32, b2K (ix2 (0 : Fin 1) f) = b2 (ix1 f))
    (hg2 : ∀ f : Fin 32, g2K (ix2 (0 : Fin 1) f) = g2 (ix1 f)) (hbe2 : ∀ f : Fin 32, be2K (ix2 (0 : Fin 1) f) = be2 (ix1 f))
    (z : St) :
    (runTo x adj W1 b1K g1K be1K W2 b2K g2K be2K z 24).out = Gcn.G x adj W1 b1 g1 be1 W2 b2 g2 be2 := by
  funext i
  obtain ⟨r, f, rfl⟩ : ∃ (r : Fin 2048) (f : Fin 32), i = ix2 r f := ⟨i 0, i 1, eq_ix2 i⟩
  rw [runTo_out]
  have e1 : rd1 b1K = fun f => b1 (ix1 f) := funext hb1
  have e2 : rd1 g1K = fun f => g1 (ix1 f) := funext hg1
  have e3 : rd1 be1K = fun f => be1 (ix1 f) := funext hbe1
  have e4 : rd1 b2K = fun f => b2 (ix1 f) := funext hb2
  have e5 : rd1 g2K = fun f => g2 (ix1 f) := funext hg2
  have e6 : rd1 be2K = fun f => be2 (ix1 f) := funext hbe2
  rw [e1, e2, e3, e4, e5, e6]
  rfl

end

end Cert.KernelIdeal.HandValue

end
-- ==== Proof.KHost.lean ====
/-
  The six `[32]` vectors (biases, scales and shifts) reach the kernel as `[1, 32]` rows: before the region the program
  reshapes each, and a reshape keeps the row-major position, so the row read at column f is the vector's entry f.  The four
  matrices reach it as launched.
-/
import proofs.«121040_g28046136442917_fold_wed_c4_759_6_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HandValue

open Idealize.ShloMosaic Idealize.ShloMosaic.ValueIdx Cert.KernelIdeal Cert.KernelIdeal.Gen
open Idealize.ShloMosaic.TcCoe Idealize.SL.Sem

variable (m : (ℓ : Loc nD τ sig) → Buf (Elt Ideal) ℓ)

/-- The row the region finds in `main_v0` is the reshape of argument 3. -/
theorem V_main_v0 (c : Dev nD) :
    (V m c main_v0 : S1x32.Idx → EReal)
      = shapeCast S1x32 (m ((c : Thread nD τ).loc main_arg3) : S32.Idx → EReal) shapeCasts_S32_S1x32 := by
  dsimp only [Gen.V, Gen.hostOps0]; after_results; rfl

/-- Read at column `f`: the argument's entry `f`. -/
theorem V_main_v0_apply (c : Dev nD) (f : Fin 32) :
    (V m c main_v0 : S1x32.Idx → EReal) (ix2 (0 : Fin 1) f)
      = (m ((c : Thread nD τ).loc main_arg3) : S32.Idx → EReal) (ix1 f) := by
  rw [V_main_v0]
  exact shapeCast_a_1a_apply _ _ 0 f

/-- The row the region finds in `main_v1` is the reshape of argument 4. -/
theorem V_main_v1 (c : Dev nD) :
    (V m c main_v1 : S1x32.Idx → EReal)
      = shapeCast S1x32 (m ((c : Thread nD τ).loc main_arg4) : S32.Idx → EReal) shapeCasts_S32_S1x32 := by
  dsimp only [Gen.V, Gen.hostOps0]; after_results; rfl

/-- Read at column `f`: the argument's entry `f`. -/
theorem V_main_v1_apply (c : Dev nD) (f : Fin 32) :
    (V m c main_v1 : S1x32.Idx → EReal) (ix2 (0 : Fin 1) f)
      = (m ((c : Thread nD τ).loc main_arg4) : S32.Idx → EReal) (ix1 f) := by
  rw [V_main_v1]
  exact shapeCast_a_1a_apply _ _ 0 f

/-- The row the region finds in `main_v2` is the reshape of argument 5. -/
theorem V_main_v2 (c : Dev nD) :
    (V m c main_v2 : S1x32.Idx → EReal)
      = shapeCast S1x32 (m ((c : Thread nD τ).loc main_arg5) : S32.Idx → EReal) shapeCasts_S32_S1x32 := by
  dsimp only [Gen.V, Gen.hostOps0]; after_results; rfl

/-- Read at column `f`: the argument's entry `f`. -/
theorem V_main_v2_apply (c : Dev nD) (f : Fin 32) :
    (V m c main_v2 : S1x32.Idx → EReal) (ix2 (0 : Fin 1) f)
      = (m ((c : Thread nD τ).loc main_arg5) : S32.Idx → EReal) (ix1 f) := by
  rw [V_main_v2]
  exact shapeCast_a_1a_apply _ _ 0 f

/-- The row the region finds in `main_v3` is the reshape of argument 7. -/
theorem V_main_v3 (c : Dev nD) :
    (V m c main_v3 : S1x32.Idx → EReal)
      = shapeCast S1x32 (m ((c : Thread nD τ).loc main_arg7) : S32.Idx → EReal) shapeCasts_S32_S1x32 := by
  dsimp only [Gen.V, Gen.hostOps0]; after_results; rfl

/-- Read at column `f`: the argument's entry `f`. -/
theorem V_main_v3_apply (c : Dev nD) (f : Fin 32) :
    (V m c main_v3 : S1x32.Idx → EReal) (ix2 (0 : Fin 1) f)
      = (m ((c : Thread nD τ).loc main_arg7) : S32.Idx → EReal) (ix1 f) := by
  rw [V_main_v3]
  exact shapeCast_a_1a_apply _ _ 0 f

/-- The row the region finds in `main_v4` is the reshape of argument 8. -/
theorem V_main_v4 (c : Dev nD) :
    (V m c main_v4 : S1x32.Idx → EReal)
      = shapeCast S1x32 (m ((c : Thread nD τ).loc main_arg8) : S32.Idx → EReal) shapeCasts_S32_S1x32 := by
  dsimp only [Gen.V, Gen.hostOps0]; after_results; rfl

/-- Read at column `f`: the argument's entry `f`. -/
theorem V_main_v4_apply (c : Dev nD) (f : Fin 32) :
    (V m c main_v4 : S1x32.Idx → EReal) (ix2 (0 : Fin 1) f)
      = (m ((c : Thread nD τ).loc main_arg8) : S32.Idx → EReal) (ix1 f) := by
  rw [V_main_v4]
  exact shapeCast_a_1a_apply _ _ 0 f

/-- The row the region finds in `main_v5` is the reshape of argument 9. -/
theorem V_main_v5 (c : Dev nD) :
    (V m c main_v5 : S1x32.Idx → EReal)
      = shapeCast S1x32 (m ((c : Thread nD τ).loc main_arg9) : S32.Idx → EReal) shapeCasts_S32_S1x32 := by
  dsimp only [Gen.V, Gen.hostOps0]; after_results; rfl

/-- Read at column `f`: the argument's entry `f`. -/
theorem V_main_v5_apply (c : Dev nD) (f : Fin 32) :
    (V m c main_v5 : S1x32.Idx → EReal) (ix2 (0 : Fin 1) f)
      = (m ((c : Thread nD τ).loc main_arg9) : S32.Idx → EReal) (ix1 f) := by
  rw [V_main_v5]
  exact shapeCast_a_1a_apply _ _ 0 f

end Cert.KernelIdeal.HandValue

end
-- ==== Proof.KBlocks.lean ====
/-
  Each of the ten input windows of the kernel takes the whole of its array as its one block, at every grid point: the
  block a point reads is the array as the region finds it.
-/
import proofs.«121040_g28046136442917_fold_wed_c4_759_6_alg».proof.Proof.Gen.KernelIdeal.Frame

set_option maxRecDepth 16384

noncomputable section

namespace Cert.KernelIdeal.HandValue

open Idealize.ShloMosaic Cert.KernelIdeal Cert.KernelIdeal.Gen
open Idealize.ShloMosaic.TcCoe Idealize.SL.Sem

variable {F : FTy → Type} [FloatOps F] (m : (ℓ : Loc nD τ sig) → Buf (Elt F) ℓ)

/-- Every input window's block index is zero at every point: each holds its whole array. -/
theorem index_zero : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Window 0's block at any point is its array as the region finds it. -/
theorem iblk_0 (c : Dev nD) (t : Fin cfg0.N) : (iblk m c 0 t : Vec F S2048x64 .f32) = (V m c main_arg0 : Vec F S2048x64 .f32) := by
  obtain ⟨e0, e1⟩ := (index_zero t).1
  funext j
  show V m c main_arg0 (((cfg0.win 0).blk t).view.emb j) = V m c main_arg0 j
  refine congrArg _ (funext fun a => Fin.ext ?_)
  match a with
  | ⟨0, _⟩ => show win0_0.index t (0 : Fin 2) * 2048 + 1 * (j 0).val = (j 0).val; omega
  | ⟨1, _⟩ => show win0_0.index t (1 : Fin 2) * 64 + 1 * (j 1).val = (j 1).val; omega

/-- Window 1's block at any point is its array as the region finds it. -/
theorem iblk_1 (c : Dev nD) (t : Fin cfg0.N) : (iblk m c 1 t : Vec F S2048x2048 .f32) = (V m c main_arg1 : Vec F S2048x2048 .f32) := by
  obtain ⟨e0, e1⟩ := (index_zero t).2.1
  funext j
  show V m c main_arg1 (((cfg0.win 1).blk t).view.emb j) = V m c main_arg1 j
  refine congrArg _ (funext fun a => Fin.ext ?_)
  match a with
  | ⟨0, _⟩ => show win0_1.index t (0 : Fin 2) * 2048 + 1 * (j 0).val = (j 0).val; omega
  | ⟨1, _⟩ => show win0_1.index t (1 : Fin 2) * 2048 + 1 * (j 1).val = (j 1).val; omega

/-- Window 2's block at any point is its array as the region finds it. -/
theorem iblk_2 (c : Dev nD) (t : Fin cfg0.N) : (iblk m c 2 t : Vec F S64x32 .f32) = (V m c main_arg2 : Vec F S64x32 .f32) := by
  obtain ⟨e0, e1⟩ := (index_zero t).2.2.1
  funext j
  show V m c main_arg2 (((cfg0.win 2).blk t).view.emb j) = V m c main_arg2 j
  refine congrArg _ (funext fun a => Fin.ext ?_)
  match a with
  | ⟨0, _⟩ => show win0_2.index t (0 : Fin 2) * 64 + 1 * (j 0).val = (j 0).val; omega
  | ⟨1, _⟩ => show win0_2.index t (1 : Fin 2) * 32 + 1 * (j 1).val = (j 1).val; omega

/-- Window 3's block at any point is its array as the region finds it. -/
theorem iblk_3 (c : Dev nD) (t : Fin cfg0.N) : (iblk m c 3 t : Vec F S1x32 .f32) = (V m c main_v0 : Vec F S1x32 .f32) := by
  obtain ⟨e0, e1⟩ := (index_zero t).2.2.2.1
  funext j
  show V m c main_v0 (((cfg0.win 3).blk t).view.emb j) = V m c main_v0 j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 32 + 1 * (j 1).val = (j 1).val; omega

/-- Window 4's block at any point is its array as the region finds it. -/
theorem iblk_4 (c : Dev nD) (t : Fin cfg0.N) : (iblk m c 4 t : Vec F S1x32 .f32) = (V m c main_v1 : Vec F S1x32 .f32) := by
  obtain ⟨e0, e1⟩ := (index_zero t).2.2.2.2.1
  funext j
  show V m c main_v1 (((cfg0.win 4).blk t).view.emb j) = V m c main_v1 j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 32 + 1 * (j 1).val = (j 1).val; omega

/-- Window 5's block at any point is its array as the region finds it. -/
theorem iblk_5 (c : Dev nD) (t : Fin cfg0.N) : (iblk m c 5 t : Vec F S1x32 .f32) = (V m c main_v2 : Vec F S1x32 .f32) := by
  obtain ⟨e0, e1⟩ := (index_zero t).2.2.2.2.2.1
  funext j
  show V m c main_v2 (((cfg0.win 5).blk t).view.emb j) = V m c main_v2 j
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 32 + 1 * (j 1).val = (j 1).val; omega

/-- Window 6's block at any point is its array as the region finds it. -/
theorem iblk_6 (c : Dev nD) (t : Fin cfg0.N) : (iblk m c 6 t : Vec F S32x32 .f32) = (V m c main_arg6 : Vec F S32x32 .f32) := by
  obtain ⟨e0, e1⟩ := (index_zero t).2.2.2.2.2.2.1
  funext j
  show V m c main_arg6 (((cfg0.win 6).blk t).view.emb j) = V m c main_arg6 j
  refine congrArg _ (funext fun a => Fin.ext ?_)
  match a with
  | ⟨0, _⟩ => show win0_6.index t (0 : Fin 2) * 32 + 1 * (j 0).val = (j 0).val; omega
  | ⟨1, _⟩ => show win0_6.index t (1 : Fin 2) * 32 + 1 * (j 1).val = (j 1).val; omega

/-- Window 7's block at any point is its array as the region finds it. -/
theorem iblk_7 (c : Dev nD) (t : Fin cfg0.N) : (iblk m c 7 t : Vec F S1x32 .f32) = (V m c main_v3 : Vec F S1x32 .f32) := by
  obtain ⟨e0, e1⟩ := (index_zero t).2.2.2.2.2.2.2.1
  funext j
  show V m c main_v3 (((cfg0.win 7).blk t).view.emb j) = V m c main_v3 j
  refine congrArg _ (funext fun a => Fin.ext ?_)
  match a with
  | ⟨0, _⟩ => show win0_7.index t (0 : Fin 2) * 1 + 1 * (j 0).val = (j 0).val; omega
  | ⟨1, _⟩ => show win0_7.index t (1 : Fin 2) * 32 + 1 * (j 1).val = (j 1).val; omega

/-- Window 8's block at any point is its array as the region finds it. -/
theorem iblk_8 (c : Dev nD) (t : Fin cfg0.N) : (iblk m c 8 t : Vec F S1x32 .f32) = (V m c main_v4 : Vec F S1x32 .f32) := by
  obtain ⟨e0, e1⟩ := (index_zero t).2.2.2.2.2.2.2.2.1
  funext j
  show V m c main_v4 (((cfg0.win 8).blk t).view.emb j) = V m c main_v4 j
  refine congrArg _ (funext fun a => Fin.ext ?_)
  match a with
  | ⟨0, _⟩ => show win0_8.index t (0 : Fin 2) * 1 + 1 * (j 0).val = (j 0).val; omega
  | ⟨1, _⟩ => show win0_8.index t (1 : Fin 2) * 32 + 1 * (j 1).val = (j 1).val; omega

/-- Window 9's block at any point is its array as the region finds it. -/
theorem iblk_9 (c : Dev nD) (t : Fin cfg0.N) : (iblk m c 9 t : Vec F S1x32 .f32) = (V m c main_v5 : Vec F S1x32 .f32) := by
  obtain ⟨e0, e1⟩ := (index_zero t).2.2.2.2.2.2.2.2.2
  funext j
  show V m c main_v5 (((cfg0.win 9).blk t).view.emb j) = V m c main_v5 j
  refine congrArg _ (funext fun a => Fin.ext ?_)
  match a with
  | ⟨0, _⟩ => show win0_9.index t (0 : Fin 2) * 1 + 1 * (j 0).val = (j 0).val; omega
  | ⟨1, _⟩ => show win0_9.index t (1 : Fin 2) * 32 + 1 * (j 1).val = (j 1).val; omega

end Cert.KernelIdeal.HandValue

end
-- ==== Proof.KContents.lean ====
/-
  The carried contents of the two-layer graph convolution kernel, point by point.

  The kernel walks a grid of 24 points `t = 8·p + j` (`p < 3`, `j < 8`) and keeps six arrays between points:
  the column sums of the adjacency, their inverse square roots, and per layer the scaled linear map `u` and
  the propagated rows `y`. The points fall into six control cases by their coordinates: `p = 0` (the column
  sums of block `j` are stored), `(1, 0)` (the inverse roots and `u₁` are stored whole, then rows block 0 of
  `y₁`), `p = 1, j ≠ 0` (rows block `j` of `y₁`), `(2, 0)` (`u₂` whole, then rows block 0 of `y₂`),
  `p = 2, 0 < j < 7` (rows block `j` of `y₂`), `(2, 7)` (rows block 7 of `y₂`, then the result whole).

  Here: the six arrays as one record `St`; what the assembly takes of the body per case (`CaseRuns`: the new
  record as a function of the input blocks and the old record, with the body's triple); one point as a function
  `step` on records, by cases on the position; and the iteration `stAt` from the contents `z` the carried
  buffers happen to hold when the grid is entered (they are not initialised), with `step`'s value in each case.
-/
import proofs.«121040_g28046136442917_fold_wed_c4_759_6_alg».proof.Proof.Gen.KernelIdeal.Frame

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The resource model the assembly's assertions live in. -/
abbrev MM (F : FTy → Type) : Type := MT nD τ sig Unit (Elt F) ℕ (UR sig nD τ) ℕ

/-! ## The buffers at a point -/

/-- Window 0's current buffer at point `t`. -/
abbrev stg0 (t : Fin cfg0.N) : Memref sig .tc .vmem S2048x64 .f32 := win0_0.stage (cfg0.slots t 0)
/-- Window 1's current buffer at point `t`. -/
abbrev stg1 (t : Fin cfg0.N) : Memref sig .tc .vmem S2048x2048 .f32 := win0_1.stage (cfg0.slots t 1)
/-- Window 2's current buffer at point `t`. -/
abbrev stg2 (t : Fin cfg0.N) : Memref sig .tc .vmem S64x32 .f32 := win0_2.stage (cfg0.slots t 2)
/-- Window 3's current buffer at point `t`. -/
abbrev stg3 (t : Fin cfg0.N) : Memref sig .tc .vmem S1x32 .f32 := win0_3.stage (cfg0.slots t 3)
/-- Window 4's current buffer at point `t`. -/
abbrev stg4 (t : Fin cfg0.N) : Memref sig .tc .vmem S1x32 .f32 := win0_4.stage (cfg0.slots t 4)
/-- Window 5's current buffer at point `t`. -/
abbrev stg5 (t : Fin cfg0.N) : Memref sig .tc .vmem S1x32 .f32 := win0_5.stage (cfg0.slots t 5)
/-- Window 6's current buffer at point `t`. -/
abbrev stg6 (t : Fin cfg0.N) : Memref sig .tc .vmem S32x32 .f32 := win0_6.stage (cfg0.slots t 6)
/-- Window 7's current buffer at point `t`. -/
abbrev stg7 (t : Fin cfg0.N) : Memref sig .tc .vmem S1x32 .f32 := win0_7.stage (cfg0.slots t 7)
/-- Window 8's current buffer at point `t`. -/
abbrev stg8 (t : Fin cfg0.N) : Memref sig .tc .vmem S1x32 .f32 := win0_8.stage (cfg0.slots t 8)
/-- Window 9's current buffer at point `t`. -/
abbrev stg9 (t : Fin cfg0.N) : Memref sig .tc .vmem S1x32 .f32 := win0_9.stage (cfg0.slots t 9)
/-- Window 10's current buffer at point `t`. -/
abbrev stg10 (t : Fin cfg0.N) : Memref sig .tc .vmem S2048x32 .f32 := win0_10.stage (cfg0.slots t 10)
/-- Carried buffer 0, whole. -/
abbrev scr0 : Memref sig .tc .vmem S2048x1 .f32 := Memref.whole cc0_scratch0
/-- Carried buffer 1, whole. -/
abbrev scr1 : Memref sig .tc .vmem S2048x1 .f32 := Memref.whole cc0_scratch1
/-- Carried buffer 2, whole. -/
abbrev scr2 : Memref sig .tc .vmem S2048x32 .f32 := Memref.whole cc0_scratch2
/-- Carried buffer 3, whole. -/
abbrev scr3 : Memref sig .tc .vmem S2048x32 .f32 := Memref.whole cc0_scratch3
/-- Carried buffer 4, whole. -/
abbrev scr4 : Memref sig .tc .vmem S2048x32 .f32 := Memref.whole cc0_scratch4
/-- Carried buffer 5, whole. -/
abbrev scr5 : Memref sig .tc .vmem S2048x32 .f32 := Memref.whole cc0_scratch5

/-- The six carried arrays: column sums, their inverse roots, and per layer the scaled linear map and the
    propagated rows. -/
structure St (F : FTy → Type) where
  deg : Vec F S2048x1 .f32
  dis : Vec F S2048x1 .f32
  u1 : Vec F S2048x32 .f32
  y1 : Vec F S2048x32 .f32
  u2 : Vec F S2048x32 .f32
  y2 : Vec F S2048x32 .f32

/-- The ten input blocks a point reads (every input window holds its whole array). -/
structure Ins (F : FTy → Type) where
  x0 : Vec F S2048x64 .f32
  x1 : Vec F S2048x2048 .f32
  x2 : Vec F S64x32 .f32
  x3 : Vec F S1x32 .f32
  x4 : Vec F S1x32 .f32
  x5 : Vec F S1x32 .f32
  x6 : Vec F S32x32 .f32
  x7 : Vec F S1x32 .f32
  x8 : Vec F S1x32 .f32
  x9 : Vec F S1x32 .f32

/-- The ten input buffers at point `t`, owned at the contents `x`. -/
def insOwn (c : Dev nD) (t : Fin cfg0.N) (x : Ins F) : sProp 𝕄 :=
  iprop(owns (c : Thread nD τ) (stg0 t) fullShare x.x0
    ∗ owns (c : Thread nD τ) (stg1 t) fullShare x.x1
    ∗ owns (c : Thread nD τ) (stg2 t) fullShare x.x2
    ∗ owns (c : Thread nD τ) (stg3 t) fullShare x.x3
    ∗ owns (c : Thread nD τ) (stg4 t) fullShare x.x4
    ∗ owns (c : Thread nD τ) (stg5 t) fullShare x.x5
    ∗ owns (c : Thread nD τ) (stg6 t) fullShare x.x6
    ∗ owns (c : Thread nD τ) (stg7 t) fullShare x.x7
    ∗ owns (c : Thread nD τ) (stg8 t) fullShare x.x8
    ∗ owns (c : Thread nD τ) (stg9 t) fullShare x.x9)

/-- The six carried buffers, owned at the contents `d`. -/
def scrOwn (c : Dev nD) (d : St F) : sProp 𝕄 :=
  iprop(owns (c : Thread nD τ) scr0 fullShare d.deg
    ∗ owns (c : Thread nD τ) scr1 fullShare d.dis
    ∗ owns (c : Thread nD τ) scr2 fullShare d.u1
    ∗ owns (c : Thread nD τ) scr3 fullShare d.y1
    ∗ owns (c : Thread nD τ) scr4 fullShare d.u2
    ∗ owns (c : Thread nD τ) scr5 fullShare d.y2)

/-- What the assembly takes of the kernel body, control case by control case. The 24 points fall into six cases
    by their coordinates `(p, j) = (t / 8, t % 8)`: `p = 0`; `(1, 0)`; `p = 1, j ≠ 0`; `(2, 0)`; `p = 2, 0 < j < 7`;
    `(2, 7)`. Per case: the carried arrays after the body as a function of the input blocks and the carried arrays
    before it, and the body's triple at a point of the case — from the ten input buffers, the output buffer and the
    six carried buffers at named contents it runs to the same buffers, the carried ones at the new contents; in the
    last case the output buffer, found at anything, is left at the case's result. -/
structure CaseRuns (F : FTy → Type) [FloatOps F] where
  fA : Dev nD → (t : Fin cfg0.N) → t.val < 8 → Ins F → St F → St F
  runA : ∀ (c : Dev nD) (t : Fin cfg0.N) (h : t.val < 8) (x : Ins F) (d : St F) (o : Vec F S2048x32 .f32) (E : Set ℕ) (K : PUnit → sProp (MM F)),
    iprop(insOwn c t x ∗ owns (c : Thread nD τ) (stg10 t) fullShare o ∗ scrOwn c d
        ∗ (iprop(insOwn c t x ∗ owns (c : Thread nD τ) (stg10 t) fullShare o ∗ scrOwn c (fA c t h x d)) -∗ K ⟨⟩))
      ⊢ wp frame (wpE (defs₀ (F := F)) Variants.none c none) E (bodyAt0 t) K
  fB : Dev nD → (t : Fin cfg0.N) → t.val = 8 → Ins F → St F → St F
  runB : ∀ (c : Dev nD) (t : Fin cfg0.N) (h : t.val = 8) (x : Ins F) (d : St F) (o : Vec F S2048x32 .f32) (E : Set ℕ) (K : PUnit → sProp (MM F)),
    iprop(insOwn c t x ∗ owns (c : Thread nD τ) (stg10 t) fullShare o ∗ scrOwn c d
        ∗ (iprop(insOwn c t x ∗ owns (c : Thread nD τ) (stg10 t) fullShare o ∗ scrOwn c (fB c t h x d)) -∗ K ⟨⟩))
      ⊢ wp frame (wpE (defs₀ (F := F)) Variants.none c none) E (bodyAt0 t) K
  fC : Dev nD → (t : Fin cfg0.N) → 8 < t.val ∧ t.val < 16 → Ins F → St F → St F
  runC : ∀ (c : Dev nD) (t : Fin cfg0.N) (h : 8 < t.val ∧ t.val < 16) (x : Ins F) (d : St F) (o : Vec F S2048x32 .f32) (E : Set ℕ) (K : PUnit → sProp (MM F)),
    iprop(insOwn c t x ∗ owns (c : Thread nD τ) (stg10 t) fullShare o ∗ scrOwn c d
        ∗ (iprop(insOwn c t x ∗ owns (c : Thread nD τ) (stg10 t) fullShare o ∗ scrOwn c (fC c t h x d)) -∗ K ⟨⟩))
      ⊢ wp frame (wpE (defs₀ (F := F)) Variants.none c none) E (bodyAt0 t) K
  fD : Dev nD → (t : Fin cfg0.N) → t.val = 16 → Ins F → St F → St F
  runD : ∀ (c : Dev nD) (t : Fin cfg0.N) (h : t.val = 16) (x : Ins F) (d : St F) (o : Vec F S2048x32 .f32) (E : Set ℕ) (K : PUnit → sProp (MM F)),
    iprop(insOwn c t x ∗ owns (c : Thread nD τ) (stg10 t) fullShare o ∗ scrOwn c d
        ∗ (iprop(insOwn c t x ∗ owns (c : Thread nD τ) (stg10 t) fullShare o ∗ scrOwn c (fD c t h x d)) -∗ K ⟨⟩))
      ⊢ wp frame (wpE (defs₀ (F := F)) Variants.none c none) E (bodyAt0 t) K
  fE : Dev nD → (t : Fin cfg0.N) → 16 < t.val ∧ t.val < 23 → Ins F → St F → St F
  runE : ∀ (c : Dev nD) (t : Fin cfg0.N) (h : 16 < t.val ∧ t.val < 23) (x : Ins F) (d : St F) (o : Vec F S2048x32 .f32) (E : Set ℕ) (K : PUnit → sProp (MM F)),
    iprop(insOwn c t x ∗ owns (c : Thread nD τ) (stg10 t) fullShare o ∗ scrOwn c d
        ∗ (iprop(insOwn c t x ∗ owns (c : Thread nD τ) (stg10 t) fullShare o ∗ scrOwn c (fE c t h x d)) -∗ K ⟨⟩))
      ⊢ wp frame (wpE (defs₀ (F := F)) Variants.none c none) E (bodyAt0 t) K
  fF : Dev nD → (t : Fin cfg0.N) → t.val = 23 → Ins F → St F → St F
  outF : Dev nD → (t : Fin cfg0.N) → t.val = 23 → Ins F → St F → Vec F S2048x32 .f32
  runF : ∀ (c : Dev nD) (t : Fin cfg0.N) (h : t.val = 23) (x : Ins F) (d : St F) (E : Set ℕ) (K : PUnit → sProp (MM F)),
    iprop(insOwn c t x ∗ (∃ o, owns (c : Thread nD τ) (stg10 t) fullShare o) ∗ scrOwn c d
        ∗ (iprop(insOwn c t x ∗ owns (c : Thread nD τ) (stg10 t) fullShare (outF c t h x d) ∗ scrOwn c (fF c t h x d)) -∗ K ⟨⟩))
      ⊢ wp frame (wpE (defs₀ (F := F)) Variants.none c none) E (bodyAt0 t) K

variable (R : CaseRuns F) (m : (ℓ : Loc nD τ sig) → Buf (Elt F) ℓ) (ρ : Dev nD → PrngReg)

/-! ## The carried contents point by point -/

/-- The input blocks at point `t`: each window's block of its array as the region finds it. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- A placeholder for the output buffer at the points that do not store into it (it is not consulted there). -/
def outIdle : Vec F S2048x32 .f32 :=
  (scr5 : Memref sig .tc .vmem S2048x32 .f32).view.read (Elt F) (scr5 : Memref sig .tc .vmem S2048x32 .f32).view.junk

/-- ONE POINT. The carried arrays and the output buffer after the body at point `t`, from the carried arrays `d`
    before it: the point's case applied to the point's input blocks. -/
def step (c : Dev nD) (t : Fin cfg0.N) (d : St F) : St F × Vec F S2048x32 .f32 :=
  if hA : t.val < 8 then (R.fA c t hA (insAt m c t) d, outIdle (F := F))
  else if hB : t.val = 8 then (R.fB c t hB (insAt m c t) d, outIdle (F := F))
  else if hC : t.val < 16 then (R.fC c t ⟨by omega, hC⟩ (insAt m c t) d, outIdle (F := F))
  else if hD : t.val = 16 then (R.fD c t hD (insAt m c t) d, outIdle (F := F))
  else if hE : t.val < 23 then (R.fE c t ⟨by omega, hE⟩ (insAt m c t) d, outIdle (F := F))
  else (R.fF c t (by have := t.isLt; have hN : cfg0.N = 24 := N_0; omega) (insAt m c t) d,
        R.outF c t (by have := t.isLt; have hN : cfg0.N = 24 := N_0; omega) (insAt m c t) d)

/-- THE ACCUMULATION. The carried arrays and the output buffer after the body at position `n`, from the contents
    `z` the carried buffers hold when the region is entered (they are not initialised): `step` iterated. -/
def stAt (c : Dev nD) (z : St F) : (n : ℕ) → n < cfg0.N → St F × Vec F S2048x32 .f32
  | 0, hn => step R m c ⟨0, hn⟩ z
  | n + 1, hn => step R m c ⟨n + 1, hn⟩ (stAt c z n (Nat.lt_of_succ_lt hn)).1

/-- The carried arrays before the body at position `n`: the entry contents, or what the point before left. -/
def stBefore (c : Dev nD) (z : St F) : (n : ℕ) → n < cfg0.N → St F
  | 0, _ => z
  | n + 1, hn => (stAt R m c z n (Nat.lt_of_succ_lt hn)).1

theorem stAt_eq_step (c : Dev nD) (z : St F) (t : Fin cfg0.N) :
    stAt R m c z t.val t.isLt = step R m c t (stBefore R m c z t.val t.isLt) := by
  obtain ⟨n, hn⟩ := t
  cases n with
  | zero => rfl
  | succ n => rfl

/-- `step` at a point of case A. -/
theorem step_A (c : Dev nD) (t : Fin cfg0.N) (h : t.val < 8) (d : St F) :
    step R m c t d = (R.fA c t h (insAt m c t) d, outIdle (F := F)) := by
  unfold step; rw [dif_pos h]

/-- `step` at a point of case B. -/
theorem step_B (c : Dev nD) (t : Fin cfg0.N) (h : t.val = 8) (d : St F) :
    step R m c t d = (R.fB c t h (insAt m c t) d, outIdle (F := F)) := by
  unfold step; rw [dif_neg (by omega), dif_pos h]

/-- `step` at a point of case C. -/
theorem step_C (c : Dev nD) (t : Fin cfg0.N) (h : 8 < t.val ∧ t.val < 16) (d : St F) :
    step R m c t d = (R.fC c t h (insAt m c t) d, outIdle (F := F)) := by
  unfold step; rw [dif_neg (by omega), dif_neg (by omega), dif_pos h.2]

/-- `step` at a point of case D. -/
theorem step_D (c : Dev nD) (t : Fin cfg0.N) (h : t.val = 16) (d : St F) :
    step R m c t d = (R.fD c t h (insAt m c t) d, outIdle (F := F)) := by
  unfold step; rw [dif_neg (by omega), dif_neg (by omega), dif_neg (by omega), dif_pos h]

/-- `step` at a point of case E. -/
theorem step_E (c : Dev nD) (t : Fin cfg0.N) (h : 16 < t.val ∧ t.val < 23) (d : St F) :
    step R m c t d = (R.fE c t h (insAt m c t) d, outIdle (F := F)) := by
  unfold step; rw [dif_neg (by omega), dif_neg (by omega), dif_neg (by omega), dif_neg (by omega), dif_pos h.2]

/-- `step` at a point of case F. -/
theorem step_F (c : Dev nD) (t : Fin cfg0.N) (h : t.val = 23) (d : St F) :
    step R m c t d = (R.fF c t h (insAt m c t) d, R.outF c t h (insAt m c t) d) := by
  unfold step; rw [dif_neg (by omega), dif_neg (by omega), dif_neg (by omega), dif_neg (by omega), dif_neg (by omega)]

end Cert.KernelIdeal.Hand

end
-- ==== Proof.KBridge.lean ====
/-
  From the body's six cases to the result array.

  Suppose each control case of the body leaves the carried arrays as the model's step functions say (the hypotheses
  `Pieces`: one equation per case between what the case's run found and the payloads over block loads and row-block
  stores).  Every input block is the whole of its array, the same at every point, so the carried arrays after point n are
  the model's state after n + 1 steps, whatever the buffers held at the start; and the output buffer after the last point
  is the specification's array of the ten argument arrays.
-/
import proofs.«121040_g28046136442917_fold_wed_c4_759_6_alg».proof.Proof.KInv
import proofs.«121040_g28046136442917_fold_wed_c4_759_6_alg».proof.Proof.KHost
import proofs.«121040_g28046136442917_fold_wed_c4_759_6_alg».proof.Proof.KBlocks
import proofs.«121040_g28046136442917_fold_wed_c4_759_6_alg».proof.Proof.KContents

set_option maxRecDepth 16384

noncomputable section

namespace Cert.KernelIdeal.HandValue

open Idealize.ShloMosaic Idealize.ShloMosaic.ValueIdx Cert.KernelIdeal Cert.KernelIdeal.Gen
open Idealize.ShloMosaic.TcCoe Idealize.SL.Sem

/-- The six carried arrays with an output buffer beside them, as the model's state. -/
def toM (d : Hand.St Ideal) (o : Vec Ideal S2048x32 .f32) : St := ⟨d.deg, d.dis, d.u1, d.y1, d.u2, d.y2, o⟩

/-- What each control case leaves, over the payloads: the model's step functions of the case's input blocks. -/
structure Pieces (R : Hand.CaseRuns Ideal) : Prop where
  fA : ∀ (c : Dev nD) (t : Fin cfg0.N) (h : t.val < 8) (x : Hand.Ins Ideal) (d : Hand.St Ideal)
    (o : Vec Ideal S2048x32 .f32), toM (R.fA c t h x d) o = stepDeg x.x1 (colOf t.val) (toM d o)
  fB : ∀ (c : Dev nD) (t : Fin cfg0.N) (h : t.val = 8) (x : Hand.Ins Ideal) (d : Hand.St Ideal)
    (o : Vec Ideal S2048x32 .f32),
    toM (R.fB c t h x d) o = stepY1 x.x1 x.x3 (colOf t.val) (stepDis x.x0 x.x2 (toM d o))
  fC : ∀ (c : Dev nD) (t : Fin cfg0.N) (h : 8 < t.val ∧ t.val < 16) (x : Hand.Ins Ideal) (d : Hand.St Ideal)
    (o : Vec Ideal S2048x32 .f32), toM (R.fC c t h x d) o = stepY1 x.x1 x.x3 (colOf t.val) (toM d o)
  fD : ∀ (c : Dev nD) (t : Fin cfg0.N) (h : t.val = 16) (x : Hand.Ins Ideal) (d : Hand.St Ideal)
    (o : Vec Ideal S2048x32 .f32),
    toM (R.fD c t h x d) o = stepY2 x.x1 x.x7 (colOf t.val) (stepHid x.x4 x.x5 x.x6 (toM d o))
  fE : ∀ (c : Dev nD) (t : Fin cfg0.N) (h : 16 < t.val ∧ t.val < 23) (x : Hand.Ins Ideal) (d : Hand.St Ideal)
    (o : Vec Ideal S2048x32 .f32), toM (R.fE c t h x d) o = stepY2 x.x1 x.x7 (colOf t.val) (toM d o)
  fF : ∀ (c : Dev nD) (t : Fin cfg0.N) (h : t.val = 23) (x : Hand.Ins Ideal) (d : Hand.St Ideal)
    (o : Vec Ideal S2048x32 .f32),
    toM (R.fF c t h x d) (R.outF c t h x d) = stepOut x.x8 x.x9 (stepY2 x.x1 x.x7 (colOf t.val) (toM d o))

section Model

variable (X : Vec Ideal S2048x64 .f32) (A : Vec Ideal S2048x2048 .f32) (W1 : Vec Ideal S64x32 .f32)
  (b1 g1 be1 : Vec Ideal S1x32 .f32) (W2 : Vec Ideal S32x32 .f32) (b2 g2 be2 : Vec Ideal S1x32 .f32)

theorem step_lt8 (n : ℕ) (h : n < 8) (s : St) :
    step X A W1 b1 g1 be1 W2 b2 g2 be2 n s = stepDeg A (colOf n) s := by
  unfold step; rw [if_pos (by omega)]
theorem step_eq8 (n : ℕ) (h : n = 8) (s : St) :
    step X A W1 b1 g1 be1 W2 b2 g2 be2 n s = stepY1 A b1 (colOf n) (stepDis X W1 s) := by
  unfold step; rw [if_neg (by omega), if_pos h]
theorem step_mid1 (n : ℕ) (h : 8 < n ∧ n < 16) (s : St) :
    step X A W1 b1 g1 be1 W2 b2 g2 be2 n s = stepY1 A b1 (colOf n) s := by
  unfold step; rw [if_neg (by omega), if_neg (by omega), if_pos (by omega)]
theorem step_eq16 (n : ℕ) (h : n = 16) (s : St) :
    step X A W1 b1 g1 be1 W2 b2 g2 be2 n s = stepY2 A b2 (colOf n) (stepHid g1 be1 W2 s) := by
  unfold step; rw [if_neg (by omega), if_neg (by omega), if_neg (by omega), if_pos h]
theorem step_mid2 (n : ℕ) (h : 16 < n ∧ n < 23) (s : St) :
    step X A W1 b1 g1 be1 W2 b2 g2 be2 n s = stepY2 A b2 (colOf n) s := by
  unfold step; rw [if_neg (by omega), if_neg (by omega), if_neg (by omega), if_neg (by omega), if_neg (by omega)]
theorem step_eq23 (n : ℕ) (h : n = 23) (s : St) :
    step X A W1 b1 g1 be1 W2 b2 g2 be2 n s = stepOut g2 be2 (stepY2 A b2 (colOf n) s) := by
  unfold step; rw [if_neg (by omega), if_neg (by omega), if_neg (by omega), if_neg (by omega), if_pos h]

end Model

variable (R : Hand.CaseRuns Ideal) (m : (ℓ : Loc nD τ sig) → Buf (Elt Ideal) ℓ)

/-- The input blocks at any point are the arrays as the region finds them. -/
theorem insAt_eq (c : Dev nD) (t : Fin cfg0.N) :
    Hand.insAt m c t = ⟨V m c main_arg0, V m c main_arg1, V m c main_arg2, V m c main_v0, V m c main_v1, V m c main_v2,
      V m c main_arg6, V m c main_v3, V m c main_v4, V m c main_v5⟩ := by
  unfold Hand.insAt
  rw [iblk_0, iblk_1, iblk_2, iblk_3, iblk_4, iblk_5, iblk_6, iblk_7, iblk_8, iblk_9]

/-- The model's step over the arrays as the region finds them. -/
abbrev mstep (c : Dev nD) (n : ℕ) (s : St) : St :=
  step (V m c main_arg0) (V m c main_arg1) (V m c main_arg2) (V m c main_v0) (V m c main_v1) (V m c main_v2)
    (V m c main_arg6) (V m c main_v3) (V m c main_v4) (V m c main_v5) n s

/-- The model's run over the arrays as the region finds them. -/
abbrev mrun (c : Dev nD) (z : St) (n : ℕ) : St :=
  runTo (V m c main_arg0) (V m c main_arg1) (V m c main_arg2) (V m c main_v0) (V m c main_v1) (V m c main_v2)
    (V m c main_arg6) (V m c main_v3) (V m c main_v4) (V m c main_v5) z n

variable {R}

/-- One point before the last, on the carried arrays, is the model's step. -/
theorem step_bridge (P : Pieces R) (c : Dev nD) (t : Fin cfg0.N) (d : Hand.St Ideal) (o : Vec Ideal S2048x32 .f32)
    (ht : t.val < 23) : toM (Hand.step R m c t d).1 o = mstep m c t.val (toM d o) := by
  by_cases hA : t.val < 8
  · rw [Hand.step_A R m c t hA d]
    show toM (R.fA c t hA (Hand.insAt m c t) d) o = _
    rw [P.fA, insAt_eq, mstep, step_lt8 _ _ _ _ _ _ _ _ _ _ _ hA]
  by_cases hB : t.val = 8
  · rw [Hand.step_B R m c t hB d]
    show toM (R.fB c t hB (Hand.insAt m c t) d) o = _
    rw [P.fB, insAt_eq, mstep, step_eq8 _ _ _ _ _ _ _ _ _ _ _ hB]
  by_cases hC : t.val < 16
  · have hC' : 8 < t.val ∧ t.val < 16 := ⟨by omega, hC⟩
    rw [Hand.step_C R m c t hC' d]
    show toM (R.fC c t hC' (Hand.insAt m c t) d) o = _
    rw [P.fC, insAt_eq, mstep, step_mid1 _ _ _ _ _ _ _ _ _ _ _ hC']
  by_cases hD : t.val = 16
  · rw [Hand.step_D R m c t hD d]
    show toM (R.fD c t hD (Hand.insAt m c t) d) o = _
    rw [P.fD, insAt_eq, mstep, step_eq16 _ _ _ _ _ _ _ _ _ _ _ hD]
  · have hE' : 16 < t.val ∧ t.val < 23 := ⟨by omega, ht⟩
    rw [Hand.step_E R m c t hE' d]
    show toM (R.fE c t hE' (Hand.insAt m c t) d) o = _
    rw [P.fE, insAt_eq, mstep, step_mid2 _ _ _ _ _ _ _ _ _ _ _ hE']

/-- The last point, with the output buffer it leaves, is the model's last step. -/
theorem step_bridge_last (P : Pieces R) (c : Dev nD) (t : Fin cfg0.N) (d : Hand.St Ideal) (o : Vec Ideal S2048x32 .f32)
    (ht : t.val = 23) :
    toM (Hand.step R m c t d).1 (Hand.step R m c t d).2 = mstep m c t.val (toM d o) := by
  rw [Hand.step_F R m c t ht d]
  show toM (R.fF c t ht (Hand.insAt m c t) d) (R.outF c t ht (Hand.insAt m c t) d) = _
  rw [P.fF c t ht _ d o, insAt_eq, mstep, step_eq23 _ _ _ _ _ _ _ _ _ _ _ ht]

/-- The carried arrays after point `n` (before the last) are the model's state after `n + 1` steps. -/
theorem stAt_bridge (P : Pieces R) (c : Dev nD) (z : Hand.St Ideal) (o : Vec Ideal S2048x32 .f32) :
    ∀ (n : ℕ) (hn : n < cfg0.N), n < 23 → toM (Hand.stAt R m c z n hn).1 o = mrun m c (toM z o) (n + 1)
  | 0, hn, h23 => step_bridge m P c ⟨0, hn⟩ z o h23
  | n + 1, hn, h23 => by
    show toM (Hand.step R m c ⟨n + 1, hn⟩ (Hand.stAt R m c z n (Nat.lt_of_succ_lt hn)).1).1 o = _
    rw [step_bridge m P c ⟨n + 1, hn⟩ _ o h23, stAt_bridge P c z o n (Nat.lt_of_succ_lt hn) (by omega)]
    rfl

/-- The output buffer after the last point is the model's result after the 24 steps. -/
theorem stAt_last (P : Pieces R) (c : Dev nD) (z : Hand.St Ideal) (o : Vec Ideal S2048x32 .f32) (h : 23 < cfg0.N) :
    (Hand.stAt R m c z 23 h).2 = (mrun m c (toM z o) 24).out := by
  have e := step_bridge_last m P c ⟨23, h⟩ (Hand.stAt R m c z 22 (Nat.lt_of_succ_lt h)).1 o rfl
  rw [stAt_bridge m P c z o 22 (Nat.lt_of_succ_lt h) (by omega)] at e
  exact congrArg St.out e

/-- THE RESULT: whatever the carried buffers held at the start, the output buffer after the last point is the
    specification's array of the ten argument arrays. -/
theorem out_eq_G (P : Pieces R) (c : Dev nD) (z : Hand.St Ideal) (h : 23 < cfg0.N) :
    (Hand.stAt R m c z 23 h).2
      = Gcn.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) := by
  rw [stAt_last m P c z (Hand.stAt R m c z 23 h).2 h]
  rw [← V_main_arg0 m c, ← V_main_arg1 m c, ← V_main_arg2 m c, ← V_main_arg6 m c]
  exact runTo_out_eq_G (V m c main_arg0) (V m c main_arg1) (V m c main_arg2) _ _ _ (V m c main_arg6) _ _ _
    (V m c main_v0) (V m c main_v1) (V m c main_v2) (V m c main_v3) (V m c main_v4) (V m c main_v5)
    (V_main_v0_apply m c) (V_main_v1_apply m c) (V_main_v2_apply m c) (V_main_v3_apply m c) (V_main_v4_apply m c)
    (V_main_v5_apply m c) _

/-- So the output buffer after the last point does not depend on what the carried buffers held at the start. -/
theorem out_indep (P : Pieces R) (c : Dev nD) (z z' : Hand.St Ideal) (h : 23 < cfg0.N) :
    (Hand.stAt R m c z 23 h).2 = (Hand.stAt R m c z' 23 h).2 :=
  (out_eq_G m P c z h).trans (out_eq_G m P c z' h).symm

end Cert.KernelIdeal.HandValue

end
-- ==== Proof.KFrame.lean ====
/-
  The frame of the two-layer graph convolution kernel, assembled from the body's six control cases.

  Between points the kernel keeps six arrays in buffers of its own, which are not initialised: if they hold `z`
  when the grid is entered, after `n` points they hold `stAt z n`. The invariant before a point says exactly this,
  for SOME `z` (before the first point: the buffers hold anything). The ten input windows hold their whole arrays
  at every point; the output window is stored into, and written back, at the last point only, and is left as found
  at the others.

  The body obligation at a point: the invariant yields `z` and the arrays the points before made of it; the
  point's case runs the body to `step` of them, which is `stAt z` at this point; the invariant is restored with the
  same `z`. At the last point the output buffer is left at the case's result computed from `z`; the proof data names
  the result computed from one fixed choice of entry contents, so there the obligation uses that the result does
  not depend on the entry contents (`OutIndep`, a hypothesis here). With the output window's contents left
  unnamed no such fact is needed, and that obligation gives the run whose post is the frame: the argument arrays
  end as launched. With them named, the run's post also gives the result array: the one write-back, at the last
  point, covers it.
-/
import proofs.«121040_g28046136442917_fold_wed_c4_759_6_alg».proof.Proof.KContents
import Idealize.ShloMosaic.Lib.Pipeline.Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R : CaseRuns F) (m : (ℓ : Loc nD τ sig) → Buf (Elt F) ℓ) (ρ : Dev nD → PrngReg)

/-! ## The invariant between points -/

/-- The class invariant spelled out: each of the six carried buffers owned at some contents, and the generator
    register at some state. -/
theorem PhiA_carried_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-- The invariant before position `n`: before the first point the carried buffers hold anything; afterwards, for
    some entry contents `z`, what `z` has become after `n` points. -/
def PhiS (c : Dev nD) : (n : ℕ) → n ≤ cfg0.N → sProp 𝕄
  | 0, _ => Pipeline.ΦA spec0 c
  | n + 1, hn => iprop((∃ z, scrOwn c (stAt R m c z n hn).1) ∗ (∃ r, prngReg c r))

theorem PhiS_succ (c : Dev nD) (n : ℕ) (hn : n < cfg0.N) :
    PhiS R m c (n + 1) hn = iprop((∃ z, scrOwn c (stAt R m c z n hn).1) ∗ (∃ r, prngReg c r)) := rfl

/-- Before any point the carried buffers hold, for some entry contents `z`, what the points before made of `z`
    (at the first point: `z` itself, the contents found). -/
theorem PhiS_before (c : Dev nD) (t : Fin cfg0.N) :
    PhiS R m c t.val (Nat.le_of_lt t.isLt) ⊢ iprop((∃ z, scrOwn c (stBefore R m c z t.val t.isLt)) ∗ (∃ r, prngReg c r)) := by
  obtain ⟨n, hn⟩ := t
  cases n with
  | zero =>
    show Pipeline.ΦA spec0 c ⊢ _
    rw [PhiA_carried_eq]
    iintro ⟨⟨⟨%d0, H0⟩, ⟨%d1, H1⟩, ⟨%d2, H2⟩, ⟨%d3, H3⟩, ⟨%d4, H4⟩, ⟨%d5, H5⟩⟩, Hg⟩
    isplitr [Hg]
    · iexists (⟨d0, d1, d2, d3, d4, d5⟩ : St F)
      simp only [stBefore]
      unfold scrOwn
      isplitl [H0]; · iexact H0
      isplitl [H1]; · iexact H1
      isplitl [H2]; · iexact H2
      isplitl [H3]; · iexact H3
      isplitl [H4]; · iexact H4
      iexact H5
    · iexact Hg
  | succ n => exact Idealize.SL.BI.Entails.refl _

/-- After any point but none the invariant names the contents. -/
theorem PhiS_pos (c : Dev nD) (n : ℕ) (h : n ≤ cfg0.N) (hz : n ≠ 0) :
    PhiS R m c n h = iprop((∃ z, scrOwn c (stAt R m c z (n - 1) (by omega)).1) ∗ (∃ r, prngReg c r)) := by
  cases n with
  | zero => exact absurd rfl hz
  | succ n => rfl

/-- A fixed choice of entry contents, at which the output's named values are computed (the result does not
    depend on the choice). -/
def stIdle : St F :=
  ⟨(scr0 : Memref sig .tc .vmem S2048x1 .f32).view.read (Elt F) (scr0 : Memref sig .tc .vmem S2048x1 .f32).view.junk,
   (scr0 : Memref sig .tc .vmem S2048x1 .f32).view.read (Elt F) (scr0 : Memref sig .tc .vmem S2048x1 .f32).view.junk,
   outIdle (F := F), outIdle (F := F), outIdle (F := F), outIdle (F := F)⟩

/-! ## The pipeline's proof data -/

/-- The proof data of the one pipeline on core `c`: the arrays as the region finds them; after the body at point
    `t` each input's buffer at its block and the output's at what the point leaves from the fixed entry contents;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (stAt R m c stIdle t.val t.isLt).2
  Φ t := PhiS R m c t.val (Nat.le_of_lt_succ t.isLt)
  q _ := fullShare
  owed _ := 0

theorem A_eq (c : Dev nD) (w : Fin cfg0.W) : (dats R m 0 c).A w = V m c (Pipeline.arrRef spec0 w) := by
  dsimp only [dats]

theorem PhiS_castSucc (c : Dev nD) (t : Fin cfg0.N) :
    (dats R m 0 c).Φ t.castSucc = PhiS R m c t.val (Nat.le_of_lt t.isLt) := by
  dsimp only [dats]; simp only [Fin.coe_castSucc]

theorem after0_0 (c : Dev nD) (t : Fin cfg0.N) : (dats R m 0 c).after 0 t = iblk m c 0 t := by dsimp only [dats]
theorem after0_1 (c : Dev nD) (t : Fin cfg0.N) : (dats R m 0 c).after 1 t = iblk m c 1 t := by dsimp only [dats]
theorem after0_2 (c : Dev nD) (t : Fin cfg0.N) : (dats R m 0 c).after 2 t = iblk m c 2 t := by dsimp only [dats]
theorem after0_3 (c : Dev nD) (t : Fin cfg0.N) : (dats R m 0 c).after 3 t = iblk m c 3 t := by dsimp only [dats]
theorem after0_4 (c : Dev nD) (t : Fin cfg0.N) : (dats R m 0 c).after 4 t = iblk m c 4 t := by dsimp only [dats]
theorem after0_5 (c : Dev nD) (t : Fin cfg0.N) : (dats R m 0 c).after 5 t = iblk m c 5 t := by dsimp only [dats]
theorem after0_6 (c : Dev nD) (t : Fin cfg0.N) : (dats R m 0 c).after 6 t = iblk m c 6 t := by dsimp only [dats]
theorem after0_7 (c : Dev nD) (t : Fin cfg0.N) : (dats R m 0 c).after 7 t = iblk m c 7 t := by dsimp only [dats]
theorem after0_8 (c : Dev nD) (t : Fin cfg0.N) : (dats R m 0 c).after 8 t = iblk m c 8 t := by dsimp only [dats]
theorem after0_9 (c : Dev nD) (t : Fin cfg0.N) : (dats R m 0 c).after 9 t = iblk m c 9 t := by dsimp only [dats]
theorem after0_10 (c : Dev nD) (t : Fin cfg0.N) : (dats R m 0 c).after 10 t = (stAt R m c stIdle t.val t.isLt).2 := by dsimp only [dats]

theorem before0_0 (c : Dev nD) (t : Fin cfg0.N) (d) : (dats R m 0 c).before 0 t d = iblk m c 0 t :=
  before0_0_of m (dats R m 0 c) (A_eq R m c 0) (after0_0 R m c) t d
theorem before0_1 (c : Dev nD) (t : Fin cfg0.N) (d) : (dats R m 0 c).before 1 t d = iblk m c 1 t :=
  before0_1_of m (dats R m 0 c) (A_eq R m c 1) (after0_1 R m c) t d
theorem before0_2 (c : Dev nD) (t : Fin cfg0.N) (d) : (dats R m 0 c).before 2 t d = iblk m c 2 t :=
  before0_2_of m (dats R m 0 c) (A_eq R m c 2) (after0_2 R m c) t d
theorem before0_3 (c : Dev nD) (t : Fin cfg0.N) (d) : (dats R m 0 c).before 3 t d = iblk m c 3 t :=
  before0_3_of m (dats R m 0 c) (A_eq R m c 3) (after0_3 R m c) t d
theorem before0_4 (c : Dev nD) (t : Fin cfg0.N) (d) : (dats R m 0 c).before 4 t d = iblk m c 4 t :=
  before0_4_of m (dats R m 0 c) (A_eq R m c 4) (after0_4 R m c) t d
theorem before0_5 (c : Dev nD) (t : Fin cfg0.N) (d) : (dats R m 0 c).before 5 t d = iblk m c 5 t :=
  before0_5_of m (dats R m 0 c) (A_eq R m c 5) (after0_5 R m c) t d
theorem before0_6 (c : Dev nD) (t : Fin cfg0.N) (d) : (dats R m 0 c).before 6 t d = iblk m c 6 t :=
  before0_6_of m (dats R m 0 c) (A_eq R m c 6) (after0_6 R m c) t d
theorem before0_7 (c : Dev nD) (t : Fin cfg0.N) (d) : (dats R m 0 c).before 7 t d = iblk m c 7 t :=
  before0_7_of m (dats R m 0 c) (A_eq R m c 7) (after0_7 R m c) t d
theorem before0_8 (c : Dev nD) (t : Fin cfg0.N) (d) : (dats R m 0 c).before 8 t d = iblk m c 8 t :=
  before0_8_of m (dats R m 0 c) (A_eq R m c 8) (after0_8 R m c) t d
theorem before0_9 (c : Dev nD) (t : Fin cfg0.N) (d) : (dats R m 0 c).before 9 t d = iblk m c 9 t :=
  before0_9_of m (dats R m 0 c) (A_eq R m c 9) (after0_9 R m c) t d

/-! ## Where the output window is idle -/

/-- The output window is idle, and not written back, at every point but the last. -/
theorem idle10 : ∀ t : Fin cfg0.N, t.val ≠ 23 → cfg0.idle 10 (grid0.coords t) = true := by decide +kernel
theorem noFlush10 (t : Fin cfg0.N) (ht : t.val ≠ 23) : (cfg0.win 10).flush t = false :=
  Bool.eq_false_iff.mpr fun hf => by
    have h1 := (flush0_10 t).mp hf
    have hN : cfg0.N = 24 := N_0
    have := t.isLt
    omega
/-- At the last point it is live. -/
theorem live10 : ∀ t : Fin cfg0.N, t.val = 23 → cfg0.idle 10 (grid0.coords t) = false := by decide +kernel

/-- No input window is ever idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl
theorem liveAt0_4 (t : Fin cfg0.N) : cfg0.idle 4 (grid0.coords t) = false := rfl
theorem liveAt0_5 (t : Fin cfg0.N) : cfg0.idle 5 (grid0.coords t) = false := rfl
theorem liveAt0_6 (t : Fin cfg0.N) : cfg0.idle 6 (grid0.coords t) = false := rfl
theorem liveAt0_7 (t : Fin cfg0.N) : cfg0.idle 7 (grid0.coords t) = false := rfl
theorem liveAt0_8 (t : Fin cfg0.N) : cfg0.idle 8 (grid0.coords t) = false := rfl
theorem liveAt0_9 (t : Fin cfg0.N) : cfg0.idle 9 (grid0.coords t) = false := rfl

/-- What the body must leave in an input window's buffer: its block. -/
theorem leaves_in0 (c : Dev nD) (t : Fin cfg0.N) :
    (dats R m 0 c).leavesExact 0 t = owns (c : Thread nD τ) (stg0 t) fullShare (iblk m c 0 t) := by
  rw [show (dats R m 0 c).leavesExact 0 t = owns (c : Thread nD τ) (stg0 t) fullShare ((dats R m 0 c).after 0 t) from by
    unfold Dat.leavesExact; rw [liveAt0_0 t], after0_0]
theorem leaves_in1 (c : Dev nD) (t : Fin cfg0.N) :
    (dats R m 0 c).leavesExact 1 t = owns (c : Thread nD τ) (stg1 t) fullShare (iblk m c 1 t) := by
  rw [show (dats R m 0 c).leavesExact 1 t = owns (c : Thread nD τ) (stg1 t) fullShare ((dats R m 0 c).after 1 t) from by
    unfold Dat.leavesExact; rw [liveAt0_1 t], after0_1]
theorem leaves_in2 (c : Dev nD) (t : Fin cfg0.N) :
    (dats R m 0 c).leavesExact 2 t = owns (c : Thread nD τ) (stg2 t) fullShare (iblk m c 2 t) := by
  rw [show (dats R m 0 c).leavesExact 2 t = owns (c : Thread nD τ) (stg2 t) fullShare ((dats R m 0 c).after 2 t) from by
    unfold Dat.leavesExact; rw [liveAt0_2 t], after0_2]
theorem leaves_in3 (c : Dev nD) (t : Fin cfg0.N) :
    (dats R m 0 c).leavesExact 3 t = owns (c : Thread nD τ) (stg3 t) fullShare (iblk m c 3 t) := by
  rw [show (dats R m 0 c).leavesExact 3 t = owns (c : Thread nD τ) (stg3 t) fullShare ((dats R m 0 c).after 3 t) from by
    unfold Dat.leavesExact; rw [liveAt0_3 t], after0_3]
theorem leaves_in4 (c : Dev nD) (t : Fin cfg0.N) :
    (dats R m 0 c).leavesExact 4 t = owns (c : Thread nD τ) (stg4 t) fullShare (iblk m c 4 t) := by
  rw [show (dats R m 0 c).leavesExact 4 t = owns (c : Thread nD τ) (stg4 t) fullShare ((dats R m 0 c).after 4 t) from by
    unfold Dat.leavesExact; rw [liveAt0_4 t], after0_4]
theorem leaves_in5 (c : Dev nD) (t : Fin cfg0.N) :
    (dats R m 0 c).leavesExact 5 t = owns (c : Thread nD τ) (stg5 t) fullShare (iblk m c 5 t) := by
  rw [show (dats R m 0 c).leavesExact 5 t = owns (c : Thread nD τ) (stg5 t) fullShare ((dats R m 0 c).after 5 t) from by
    unfold Dat.leavesExact; rw [liveAt0_5 t], after0_5]
theorem leaves_in6 (c : Dev nD) (t : Fin cfg0.N) :
    (dats R m 0 c).leavesExact 6 t = owns (c : Thread nD τ) (stg6 t) fullShare (iblk m c 6 t) := by
  rw [show (dats R m 0 c).leavesExact 6 t = owns (c : Thread nD τ) (stg6 t) fullShare ((dats R m 0 c).after 6 t) from by
    unfold Dat.leavesExact; rw [liveAt0_6 t], after0_6]
theorem leaves_in7 (c : Dev nD) (t : Fin cfg0.N) :
    (dats R m 0 c).leavesExact 7 t = owns (c : Thread nD τ) (stg7 t) fullShare (iblk m c 7 t) := by
  rw [show (dats R m 0 c).leavesExact 7 t = owns (c : Thread nD τ) (stg7 t) fullShare ((dats R m 0 c).after 7 t) from by
    unfold Dat.leavesExact; rw [liveAt0_7 t], after0_7]
theorem leaves_in8 (c : Dev nD) (t : Fin cfg0.N) :
    (dats R m 0 c).leavesExact 8 t = owns (c : Thread nD τ) (stg8 t) fullShare (iblk m c 8 t) := by
  rw [show (dats R m 0 c).leavesExact 8 t = owns (c : Thread nD τ) (stg8 t) fullShare ((dats R m 0 c).after 8 t) from by
    unfold Dat.leavesExact; rw [liveAt0_8 t], after0_8]
theorem leaves_in9 (c : Dev nD) (t : Fin cfg0.N) :
    (dats R m 0 c).leavesExact 9 t = owns (c : Thread nD τ) (stg9 t) fullShare (iblk m c 9 t) := by
  rw [show (dats R m 0 c).leavesExact 9 t = owns (c : Thread nD τ) (stg9 t) fullShare ((dats R m 0 c).after 9 t) from by
    unfold Dat.leavesExact; rw [liveAt0_9 t], after0_9]

/-! ## The body at a point, over `step` -/

/-- At a point that does not store into the output buffer: from the carried buffers at `d`, the input buffers at
    the point's blocks and the output buffer at `o`, the body runs to the carried buffers at `step`'s contents,
    the rest as found. The point's case by its position; the case's triple. -/
theorem sound_idle (c : Dev nD) (t : Fin cfg0.N) (ht : t.val ≠ 23) (d : St F) (o : Vec F S2048x32 .f32)
    (E : Set ℕ) (K : PUnit → sProp 𝕄) :
    iprop(insOwn c t (insAt m c t) ∗ owns (c : Thread nD τ) (stg10 t) fullShare o ∗ scrOwn c d
        ∗ (iprop(insOwn c t (insAt m c t) ∗ owns (c : Thread nD τ) (stg10 t) fullShare o ∗ scrOwn c (step R m c t d).1) -∗ K ⟨⟩))
      ⊢ wp frame (wpE (defs₀ (F := F)) Variants.none c none) E (bodyAt0 t) K := by
  have hN : cfg0.N = 24 := N_0
  have hlt := t.isLt
  by_cases hA : t.val < 8
  · rw [step_A R m c t hA]; exact R.runA c t hA (insAt m c t) d o E K
  by_cases hB : t.val = 8
  · rw [step_B R m c t hB]; exact R.runB c t hB (insAt m c t) d o E K
  by_cases hC : t.val < 16
  · rw [step_C R m c t ⟨by omega, hC⟩]; exact R.runC c t ⟨by omega, hC⟩ (insAt m c t) d o E K
  by_cases hD : t.val = 16
  · rw [step_D R m c t hD]; exact R.runD c t hD (insAt m c t) d o E K
  · have hE : 16 < t.val ∧ t.val < 23 := ⟨by omega, by omega⟩
    rw [step_E R m c t hE]; exact R.runE c t hE (insAt m c t) d o E K

/-- At the last point: the output buffer, found at anything, is left at `step`'s result. -/
theorem sound_last (c : Dev nD) (t : Fin cfg0.N) (ht : t.val = 23) (d : St F)
    (E : Set ℕ) (K : PUnit → sProp 𝕄) :
    iprop(insOwn c t (insAt m c t) ∗ (∃ o, owns (c : Thread nD τ) (stg10 t) fullShare o) ∗ scrOwn c d
        ∗ (iprop(insOwn c t (insAt m c t) ∗ owns (c : Thread nD τ) (stg10 t) fullShare (step R m c t d).2 ∗ scrOwn c (step R m c t d).1) -∗ K ⟨⟩))
      ⊢ wp frame (wpE (defs₀ (F := F)) Variants.none c none) E (bodyAt0 t) K := by
  rw [step_F R m c t ht]; exact R.runF c t ht (insAt m c t) d E K

/-! ## The body obligation -/

/-- What the body is called with at point `t`, the windows one by one, -/
def bodyPre (c : Dev nD) (t : Fin cfg0.N) : sProp 𝕄 :=
  iprop((dats R m 0 c).Φ t.castSucc ∗ (dats R m 0 c).owesAt () t.castSucc
    ∗ (∃ d, owns (c : Thread nD τ) (stg0 t) fullShare ((dats R m 0 c).before 0 t d))
    ∗ (∃ d, owns (c : Thread nD τ) (stg1 t) fullShare ((dats R m 0 c).before 1 t d))
    ∗ (∃ d, owns (c : Thread nD τ) (stg2 t) fullShare ((dats R m 0 c).before 2 t d))
    ∗ (∃ d, owns (c : Thread nD τ) (stg3 t) fullShare ((dats R m 0 c).before 3 t d))
    ∗ (∃ d, owns (c : Thread nD τ) (stg4 t) fullShare ((dats R m 0 c).before 4 t d))
    ∗ (∃ d, owns (c : Thread nD τ) (stg5 t) fullShare ((dats R m 0 c).before 5 t d))
    ∗ (∃ d, owns (c : Thread nD τ) (stg6 t) fullShare ((dats R m 0 c).before 6 t d))
    ∗ (∃ d, owns (c : Thread nD τ) (stg7 t) fullShare ((dats R m 0 c).before 7 t d))
    ∗ (∃ d, owns (c : Thread nD τ) (stg8 t) fullShare ((dats R m 0 c).before 8 t d))
    ∗ (∃ d, owns (c : Thread nD τ) (stg9 t) fullShare ((dats R m 0 c).before 9 t d))
    ∗ (∃ d, owns (c : Thread nD τ) (stg10 t) fullShare ((dats R m 0 c).before 10 t d)))

/-- and what it returns. -/
def bodyPost (c : Dev nD) (t : Fin cfg0.N) : sProp 𝕄 :=
  iprop((dats R m 0 c).Φ t.succ ∗ (dats R m 0 c).owesAt () t.succ
    ∗ (dats R m 0 c).leavesExact 0 t
    ∗ (dats R m 0 c).leavesExact 1 t
    ∗ (dats R m 0 c).leavesExact 2 t
    ∗ (dats R m 0 c).leavesExact 3 t
    ∗ (dats R m 0 c).leavesExact 4 t
    ∗ (dats R m 0 c).leavesExact 5 t
    ∗ (dats R m 0 c).leavesExact 6 t
    ∗ (dats R m 0 c).leavesExact 7 t
    ∗ (dats R m 0 c).leavesExact 8 t
    ∗ (dats R m 0 c).leavesExact 9 t
    ∗ (dats R m 0 c).leavesExact 10 t)

/-- The result at the last point does not depend on the contents the carried buffers are entered with. -/
def OutIndep : Prop :=
  ∀ (c : Dev nD) (z z' : St F) (h : 23 < cfg0.N), (stAt R m c z 23 h).2 = (stAt R m c z' 23 h).2

/-- The named result at the last point is the one the run reaches, whatever the entry contents. -/
theorem out_last (hind : OutIndep R m) (c : Dev nD) (t : Fin cfg0.N) (ht : t.val = 23) (z : St F) :
    (stAt R m c stIdle t.val t.isLt).2 = (step R m c t (stBefore R m c z t.val t.isLt)).2 := by
  rw [← stAt_eq_step]
  obtain ⟨n, hn⟩ := t
  dsimp only at ht; subst ht
  exact hind c stIdle z hn

set_option maxHeartbeats 1600000 in
theorem sound_body (hind : OutIndep R m) (c : Dev nD) (t : Fin cfg0.N) :
    bodyPre R m c t ⊢ wp frame (wpE (defs₀ (F := F)) Variants.none c none) Set.univ (bodyAt0 t) (fun _ => bodyPost R m c t) := by
  unfold bodyPre bodyPost
  simp only [before0_0 R m c, before0_1 R m c, before0_2 R m c, before0_3 R m c, before0_4 R m c, before0_5 R m c, before0_6 R m c, before0_7 R m c, before0_8 R m c, before0_9 R m c]
  rw [show (dats R m 0 c).owesAt () t.succ = (dats R m 0 c).owesAt () t.castSucc from rfl]
  rw [show (dats R m 0 c).Φ t.succ = PhiS R m c (t.val + 1) t.isLt from rfl, PhiS_succ, PhiS_castSucc]
  rw [leaves_in0 R m c t, leaves_in1 R m c t, leaves_in2 R m c t, leaves_in3 R m c t, leaves_in4 R m c t, leaves_in5 R m c t, leaves_in6 R m c t, leaves_in7 R m c t, leaves_in8 R m c t, leaves_in9 R m c t]
  by_cases ht : t.val = 23
  · rw [show (dats R m 0 c).leavesExact 10 t = owns (c : Thread nD τ) (stg10 t) fullShare ((dats R m 0 c).after 10 t) from by
      unfold Dat.leavesExact; rw [live10 t ht], after0_10]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HP' := (PhiS_before R m c t) $$ HP
    icases HP' with ⟨⟨%z, HS⟩, Hg⟩
    rw [out_last R m hind c t ht z]
    iapply (sound_last R m c t ht (stBefore R m c z t.val t.isLt) Set.univ _)
    isplitl [H0 H1 H2 H3 H4 H5 H6 H7 H8 H9]
    · unfold insOwn insAt; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [HS]; · iexact HS
    iintro ⟨HI, H10, HS⟩
    isplitl [HS Hg]
    · isplitl [HS]
      · iexists z; rw [stAt_eq_step]; iexact HS
      · iexact Hg
    isplitl [Ho]; · iexact Ho
    unfold insOwn insAt; dsimp only
    icases HI with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Dat.leavesExact_idle (dats R m 0 c) 10 t (idle10 t ht) (noFlush10 t ht)]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HP' := (PhiS_before R m c t) $$ HP
    icases HP' with ⟨⟨%z, HS⟩, Hg⟩
    iapply (sound_idle R m c t ht (stBefore R m c z t.val t.isLt) _ Set.univ _)
    isplitl [H0 H1 H2 H3 H4 H5 H6 H7 H8 H9]
    · unfold insOwn insAt; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [HS]; · iexact HS
    iintro ⟨HI, H10, HS⟩
    isplitl [HS Hg]
    · isplitl [HS]
      · iexists z; rw [stAt_eq_step]; iexact HS
      · iexact Hg
    isplitl [Ho]; · iexact Ho
    unfold insOwn insAt; dsimp only
    icases HI with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10

/-- The library's body obligation, at every point. -/
theorem body_obligation (hind : OutIndep R m) (c : Dev nD) :
    BodyObligation (dats (F := F) R m 0 c) (defs₀ (F := F)) Variants.none () Set.univ := fun t => by
  rw [bigSep_W0, bigSep_W0]
  exact sound_body R m hind c t

/-! ## The obligation with the output window's contents unnamed

For a claim that reads nothing of the output (the arguments are unchanged): the output window is handed to the body
at anything and taken back at anything, so no result need be named and nothing about the entry contents is used. -/

/-- The windows whose contents are not named: the output window alone. -/
def fgt10 : Fin cfg0.W → Bool := fun w => w.val == 10

def bodyPreU (c : Dev nD) (t : Fin cfg0.N) : sProp 𝕄 :=
  iprop((dats R m 0 c).Φ t.castSucc ∗ (dats R m 0 c).owesAt () t.castSucc
    ∗ (∃ d, owns (c : Thread nD τ) (stg0 t) fullShare ((dats R m 0 c).before 0 t d))
    ∗ (∃ d, owns (c : Thread nD τ) (stg1 t) fullShare ((dats R m 0 c).before 1 t d))
    ∗ (∃ d, owns (c : Thread nD τ) (stg2 t) fullShare ((dats R m 0 c).before 2 t d))
    ∗ (∃ d, owns (c : Thread nD τ) (stg3 t) fullShare ((dats R m 0 c).before 3 t d))
    ∗ (∃ d, owns (c : Thread nD τ) (stg4 t) fullShare ((dats R m 0 c).before 4 t d))
    ∗ (∃ d, owns (c : Thread nD τ) (stg5 t) fullShare ((dats R m 0 c).before 5 t d))
    ∗ (∃ d, owns (c : Thread nD τ) (stg6 t) fullShare ((dats R m 0 c).before 6 t d))
    ∗ (∃ d, owns (c : Thread nD τ) (stg7 t) fullShare ((dats R m 0 c).before 7 t d))
    ∗ (∃ d, owns (c : Thread nD τ) (stg8 t) fullShare ((dats R m 0 c).before 8 t d))
    ∗ (∃ d, owns (c : Thread nD τ) (stg9 t) fullShare ((dats R m 0 c).before 9 t d))
    ∗ (∃ X, owns (c : Thread nD τ) (stg10 t) fullShare X))

def bodyPostU (c : Dev nD) (t : Fin cfg0.N) : sProp 𝕄 :=
  iprop((dats R m 0 c).Φ t.succ ∗ (dats R m 0 c).owesAt () t.succ
    ∗ (dats R m 0 c).leavesExact 0 t
    ∗ (dats R m 0 c).leavesExact 1 t
    ∗ (dats R m 0 c).leavesExact 2 t
    ∗ (dats R m 0 c).leavesExact 3 t
    ∗ (dats R m 0 c).leavesExact 4 t
    ∗ (dats R m 0 c).leavesExact 5 t
    ∗ (dats R m 0 c).leavesExact 6 t
    ∗ (dats R m 0 c).leavesExact 7 t
    ∗ (dats R m 0 c).leavesExact 8 t
    ∗ (dats R m 0 c).leavesExact 9 t
    ∗ (∃ X, owns (c : Thread nD τ) (stg10 t) fullShare X))

set_option maxHeartbeats 1600000 in
theorem sound_bodyU (c : Dev nD) (t : Fin cfg0.N) :
    bodyPreU R m c t ⊢ wp frame (wpE (defs₀ (F := F)) Variants.none c none) Set.univ (bodyAt0 t) (fun _ => bodyPostU R m c t) := by
  unfold bodyPreU bodyPostU
  simp only [before0_0 R m c, before0_1 R m c, before0_2 R m c, before0_3 R m c, before0_4 R m c, before0_5 R m c, before0_6 R m c, before0_7 R m c, before0_8 R m c, before0_9 R m c]
  rw [show (dats R m 0 c).owesAt () t.succ = (dats R m 0 c).owesAt () t.castSucc from rfl]
  rw [show (dats R m 0 c).Φ t.succ = PhiS R m c (t.val + 1) t.isLt from rfl, PhiS_succ, PhiS_castSucc]
  rw [leaves_in0 R m c t, leaves_in1 R m c t, leaves_in2 R m c t, leaves_in3 R m c t, leaves_in4 R m c t, leaves_in5 R m c t, leaves_in6 R m c t, leaves_in7 R m c t, leaves_in8 R m c t, leaves_in9 R m c t]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HP' := (PhiS_before R m c t) $$ HP
  icases HP' with ⟨⟨%z, HS⟩, Hg⟩
  by_cases ht : t.val = 23
  · iapply (sound_last R m c t ht (stBefore R m c z t.val t.isLt) Set.univ _)
    isplitl [H0 H1 H2 H3 H4 H5 H6 H7 H8 H9]
    · unfold insOwn insAt; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [HS]; · iexact HS
    iintro ⟨HI, H10, HS⟩
    isplitl [HS Hg]
    · isplitl [HS]
      · iexists z; rw [stAt_eq_step]; iexact HS
      · iexact Hg
    isplitl [Ho]; · iexact Ho
    unfold insOwn insAt; dsimp only
    icases HI with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · iapply (sound_idle R m c t ht (stBefore R m c z t.val t.isLt) _ Set.univ _)
    isplitl [H0 H1 H2 H3 H4 H5 H6 H7 H8 H9]
    · unfold insOwn insAt; dsimp only
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [HS]; · iexact HS
    iintro ⟨HI, H10, HS⟩
    isplitl [HS Hg]
    · isplitl [HS]
      · iexists z; rw [stAt_eq_step]; iexact HS
      · iexact Hg
    isplitl [Ho]; · iexact Ho
    unfold insOwn insAt; dsimp only
    icases HI with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10

/-- The library's body obligation with the output window unnamed, at every point. -/
theorem body_obligationU (c : Dev nD) :
    BodyObligation (dats (F := F) R m 0 c) (defs₀ (F := F)) Variants.none () Set.univ fgt10 := fun t => by
  rw [bigSep_W0, bigSep_W0]
  exact sound_bodyU R m c t

/-! ## The run and the frame -/

theorem hin (c : Dev nD) : Pipeline.ΦA spec0 c ⊢ (dats R m 0 c).Φ 0 := by
  rw [show (dats R m 0 c).Φ 0 = PhiS R m c 0 (Nat.zero_le _) from rfl]
  exact Idealize.SL.BI.Entails.refl _

theorem hout (c : Dev nD) : (dats R m 0 c).Φ (Fin.last cfg0.N) ⊢ Pipeline.ΦA spec0 c := by
  rw [show (dats R m 0 c).Φ (Fin.last cfg0.N) = PhiS R m c (Fin.last cfg0.N).val (Nat.le_of_lt_succ (Fin.last cfg0.N).isLt) from rfl,
    PhiS_pos R m c _ _ (by rw [Fin.val_last]; have : cfg0.N = 24 := N_0; omega), PhiA_carried_eq]
  iintro ⟨⟨%z, HS⟩, Hg⟩
  unfold scrOwn
  icases HS with ⟨H0, H1, H2, H3, H4, H5⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  · iexact Hg

set_option backward.isDefEq.respectTransparency.types false in
theorem run_main (hind : OutIndep R m) :
    θ_run defs (onTc (τ := τ) (main (F := F))) (s₀ m ρ) (Pipeline.FramePost cfgs (dats R m) 0 (V m)) :=
  Pipeline.θ_run_frame_track cfgs (dats R m) (0 : Fin 1) launch0 defs₀ Variants.none m ρ main
    (hbody := fun c => (body_obligation R m hind c).loose) (hshare := fun c => (dats R m 0 c).share_full fun _ => rfl)
    (howed := fun _ _ => rfl) (V := V m)
    (hmain := hmain m Variants.none) (hA := A_eq R m) (hin := hin R m) (hout := hout R m)

/-- The run with the output window unnamed: every weakly fair execution terminates; every input array ends as it
    began (an input window is never written back) and every buffer that bypasses the region as it was found. -/
theorem run_frame :
    θ_run defs (onTc (τ := τ) (main (F := F))) (s₀ m ρ)
      (Pipeline.RDat.FramePost cfg0 (fun c => (dats R m 0 c).toRForget fgt10) (V m)) :=
  Pipeline.RDat.θ_run_frame_track cfgs (0 : Fin 1) launch0 defs₀ Variants.none (fun c => (dats R m 0 c).toRForget fgt10) m ρ main
    (hbody := fun c => (body_obligationU R m c).toRForget)
    (hshare := fun c w => (dats R m 0 c).share_full (fun _ => rfl) w)
    (howed := fun _ _ => rfl) (V := V m)
    (hmain := hmain m Variants.none) (hA := A_eq R m) (hin := hin R m) (hout := hout R m)

/-- An input window's array may end only as the region found it. -/
theorem arr_in (c : Dev nD) (w : Fin cfg0.W) (hw : (cfg0.win w).isOut = false)
    (X : Buf (Elt F) ((cfg0.win w).arr.view.loc (c.tc : Thread nD τ)))
    (h : ((dats R m 0 c).toRForget fgt10).ArrAt w cfg0.N X) : X = V m c (Pipeline.arrRef spec0 w) := by
  rw [((dats R m 0 c).toRForget fgt10).ArrAt_in w hw] at h
  exact h.trans (A_eq R m c w)

include R in
/-- THE FRAME: every argument array ends as it was launched — a staged one because its window is never written
    back, a reshaped one because it bypasses the region; then each as no host line before the region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨(arr_in R m c 0 rfl _ ((h c).1 0)).trans (V_main_arg0 m c),
      (arr_in R m c 1 rfl _ ((h c).1 1)).trans (V_main_arg1 m c),
      (arr_in R m c 2 rfl _ ((h c).1 2)).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (arr_in R m c 6 rfl _ ((h c).1 6)).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_frame R m ρ)

/-! ## The result array -/

/-- The last point. -/
abbrev tLast : Fin cfg0.N := ⟨23, by rw [show cfg0.N = 24 from N_0]; decide⟩

/-- The result: what the last point leaves in the output buffer (from the fixed entry contents), as contents of
    the result array — its one block is the array. -/
abbrev result (c : Dev nD) : Buf (Elt F) ((c : Thread nD τ).loc main_v6) := (stAt R m c stIdle 23 tLast.isLt).2

/-- The one write-back, at the last point, writes it: block (0, 0) of the array read through zero offsets is the array. -/
theorem flushed_eq (c : Dev nD) (t : Fin cfg0.N) (hf : (cfg0.win 10).flush t = true) :
    (dats R m 0 c).flushed 10 t = ((cfg0.win 10).blk t).view.read (Elt F) (result R m c) := by
  have hN : cfg0.N = 24 := N_0
  have h23 : t.val = 23 := by have := (flush0_10 t).mp hf; have := t.isLt; omega
  obtain rfl : t = tLast := Fin.ext h23
  show (cfg0.win 10).cut (grid0.coords tLast) ((dats R m 0 c).after 10 tLast) = _
  rw [after0_10]
  have hz' : (fun a => win0_10.index tLast a * main_v6.ty.shape.size a) = fun _ => 0 := funext fun a => by fin_cases a <;> decide +kernel
  exact (Memref.read_access_unit_zero (Elt F) main_v6 hz' (fun a => by rw [congrFun hz' a]; simp) (result R m c)).symm

/-- So the result array ends holding it: the last point's block covers the array. -/
theorem final_out (c : Dev nD) : (dats R m 0 c).arrAt 10 cfg0.N = result R m c :=
  (dats R m 0 c).arrAt_eq_of_cover 10 (result R m c) (flushed_eq R m c) fun i =>
    ⟨tLast, (flush0_10 tLast).mpr rfl, by
      show i ∈ ((View.whole main_v6).slice (win0_10.rect tLast)).set
      rw [View.set_slice_whole, Rect.mem_set_unit]
      intro a
      have h0 : (i 0 : Nat) < 2048 := (i 0).isLt
      have h1 : (i 1 : Nat) < 32 := (i 1).isLt
      match a with
      | ⟨0, _⟩ => show win0_10.index tLast 0 * win0_10.size 0 ≤ (i 0 : Nat) ∧ (i 0 : Nat) < win0_10.index tLast 0 * win0_10.size 0 + win0_10.xsize (grid0.coords tLast) 0
                  rw [show win0_10.index tLast 0 * win0_10.size 0 = 0 from by decide +kernel, show win0_10.xsize (grid0.coords tLast) 0 = 2048 from by decide +kernel]; omega
      | ⟨1, _⟩ => show win0_10.index tLast 1 * win0_10.size 1 ≤ (i 1 : Nat) ∧ (i 1 : Nat) < win0_10.index tLast 1 * win0_10.size 1 + win0_10.xsize (grid0.coords tLast) 1
                  rw [show win0_10.index tLast 1 * win0_10.size 1 = 0 from by decide +kernel, show win0_10.xsize (grid0.coords tLast) 1 = 32 from by decide +kernel]; omega⟩

/-- THE RESULT ARRAY after the run: every weakly fair execution terminates with the result array at `result`. -/
theorem out_array (hind : OutIndep R m) :
    θ_run defs (onTc (τ := τ) (main (F := F))) ⟨m, fun _ => 0, ρ⟩ fun r => ∀ c : Dev nD,
      r.2.mem ((c : Thread nD τ).loc main_v6) = result R m c :=
  (θ_run defs _ _).mono (fun _ h c => ((h c).1 10).trans (final_out R m c)) (run_main R m ρ hind)

end Cert.KernelIdeal.Hand

end
-- ==== Proof.KValue.lean ====
/-
  The kernel's run, read: every weakly fair execution terminates with the result array holding the specification's
  array of the ten argument arrays, and the argument arrays as they were launched.

  The result array is written back once, at the last point, from the output buffer; the output buffer then holds the
  batch normalisation of the completed second layer, which the invariant of the 24 points identifies with the
  specification, whatever the carried buffers held when the region was entered.
-/
import proofs.«121040_g28046136442917_fold_wed_c4_759_6_alg».proof.Proof.KBridge
import proofs.«121040_g28046136442917_fold_wed_c4_759_6_alg».proof.Proof.KFrame

set_option maxRecDepth 16384

noncomputable section

namespace Cert.KernelIdeal.HandValue

open Idealize.ShloMosaic Idealize.ShloMosaic.ValueIdx Cert.KernelIdeal Cert.KernelIdeal.Gen
open Idealize.ShloMosaic.TcCoe Idealize.SL.Sem

/-- The run, for any six case runs whose stored pieces are the model's step functions. -/
theorem run_of (R : Hand.CaseRuns Ideal) (P : Pieces R) (m : (ℓ : Loc nD τ sig) → Buf (Elt Ideal) ℓ)
    (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
        = Gcn.G (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).1 10).trans ((Hand.final_out R m c).trans (out_eq_G m P c Hand.stIdle Hand.tLast.isLt)),
      ((h c).1 0).trans (((Hand.dats R m 0 c).arrAt_in 0 rfl _).trans ((Hand.A_eq R m c 0).trans (V_main_arg0 m c))),
      ((h c).1 1).trans (((Hand.dats R m 0 c).arrAt_in 1 rfl _).trans ((Hand.A_eq R m c 1).trans (V_main_arg1 m c))),
      ((h c).1 2).trans (((Hand.dats R m 0 c).arrAt_in 2 rfl _).trans ((Hand.A_eq R m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((Hand.dats R m 0 c).arrAt_in 6 rfl _).trans ((Hand.A_eq R m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (Hand.run_main R m ρ (fun c z z' h => out_indep m P c z z' h))

end Cert.KernelIdeal.HandValue

end
-- ==== Proof.KRuns.lean ====
/- The kernel body branches on six conditions of the grid coordinates (p, j) = (t / 8, t % 8) of a point t of the
   3 x 8 grid: p = 0; p = 1 and j = 0; p = 1; p = 2 and j = 0; p = 2; p = 2 and j = 7. Each is an equation between
   one-bit words computed from the coordinates; over the 24 points each is equivalent to a closed form in t, decided
   by enumeration. The result window is idle exactly where the last condition fails, and is written back at the
   last point only. The six scratch buffers (column sums, their inverse square roots, the two scaled feature
   matrices and the two propagated ones) are whole buffers of the kernel's own, owned beside the windows. -/
import proofs.«121040_g28046136442917_fold_wed_c4_759_6_alg».proof.Proof.Gen.KernelIdeal.Frame
import proofs.«121040_g28046136442917_fold_wed_c4_759_6_alg».proof.Proof.Gen.KernelIdeal.Skeleton

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's six branch conditions -/

/-- p = 0: the block's column sums are stored. -/
abbrev cond0_1 (i : grid0.Coords) : Prop := k0_cond1 i = 1#1
/-- p = 1 and j = 0: the inverse square roots and the first scaled feature matrix are stored. -/
abbrev cond0_2 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- p = 1: a row block of the first propagated matrix is stored. -/
abbrev cond0_3 (i : grid0.Coords) : Prop := k0_cond3 i = 1#1
/-- p = 2 and j = 0: the second scaled feature matrix is stored. -/
abbrev cond0_4 (i : grid0.Coords) : Prop :=
  (Scalar.cmpi .ne (Scalar.extui (Scalar.andi (Scalar.cmpi .eq (BitVec.ofNat 32 (i 0).val) 2#32) (Scalar.cmpi .eq (BitVec.ofNat 32 (i 1).val) 0#32))) 0#32) = 1#1
/-- p = 2: a row block of the second propagated matrix is stored. -/
abbrev cond0_5 (i : grid0.Coords) : Prop := k0_cond5 i = 1#1
/-- p = 2 and j = 7: the result is stored. -/
abbrev cond0_6 (i : grid0.Coords) : Prop := k0_cond6 i = 1#1

theorem hcond0_1 : ∀ t : Fin cfg0.N, cond0_1 (grid0.coords t) ↔ t.val / 8 = 0 :=
  (by decide +kernel : ∀ t : Fin grid0.N, cond0_1 (grid0.coords t) ↔ t.val / 8 = 0)
theorem hcond0_2 : ∀ t : Fin cfg0.N, cond0_2 (grid0.coords t) ↔ t.val = 8 :=
  (by decide +kernel : ∀ t : Fin grid0.N, cond0_2 (grid0.coords t) ↔ t.val = 8)
theorem hcond0_3 : ∀ t : Fin cfg0.N, cond0_3 (grid0.coords t) ↔ t.val / 8 = 1 :=
  (by decide +kernel : ∀ t : Fin grid0.N, cond0_3 (grid0.coords t) ↔ t.val / 8 = 1)
theorem hcond0_4 : ∀ t : Fin cfg0.N, cond0_4 (grid0.coords t) ↔ t.val = 16 :=
  (by decide +kernel : ∀ t : Fin grid0.N, cond0_4 (grid0.coords t) ↔ t.val = 16)
theorem hcond0_5 : ∀ t : Fin cfg0.N, cond0_5 (grid0.coords t) ↔ t.val / 8 = 2 :=
  (by decide +kernel : ∀ t : Fin grid0.N, cond0_5 (grid0.coords t) ↔ t.val / 8 = 2)
theorem hcond0_6 : ∀ t : Fin cfg0.N, cond0_6 (grid0.coords t) ↔ t.val = 23 :=
  (by decide +kernel : ∀ t : Fin grid0.N, cond0_6 (grid0.coords t) ↔ t.val = 23)

/-! ## Where the windows are idle -/

/-- The ten inputs are never idle. -/
theorem liveAt0_in : ∀ (w : Fin cfg0.W), w.val < 10 → ∀ t : Fin cfg0.N, cfg0.idle w (grid0.coords t) = false := by decide +kernel
/-- The result window is idle wherever the last condition fails, -/
theorem idleAt0_10 : ∀ t : Fin cfg0.N, ¬cond0_6 (grid0.coords t) → cfg0.idle 10 (grid0.coords t) = true := by decide +kernel
/-- is not written back there, -/
theorem noFlush0_10 : ∀ t : Fin cfg0.N, ¬cond0_6 (grid0.coords t) → (cfg0.win 10).flush t = false := by decide +kernel
/-- and is live where it holds. -/
theorem liveAt0_10 : ∀ t : Fin cfg0.N, cond0_6 (grid0.coords t) → cfg0.idle 10 (grid0.coords t) = false := by decide +kernel

/-! ## The staging and scratch memrefs at a point -/

abbrev ms0_0 (t : Fin cfg0.N) : Memref sig .tc .vmem S2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x32 .f32 := win0_10.stage (cfg0.slots t 10)
abbrev hs0_10 (t : Fin cfg0.N) : (ms0_10 t).IsWhole := hstage0_10 ((cfg0.slots t 10).cast nbuf0_10)

/-- The six scratch operands: whole scoped buffers, passed beside the windows. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x32 .f32 := Memref.whole cc0_scratch2
abbrev scM0_3 : Memref sig .tc .vmem S2048x32 .f32 := Memref.whole cc0_scratch3
abbrev scM0_4 : Memref sig .tc .vmem S2048x32 .f32 := Memref.whole cc0_scratch4
abbrev scM0_5 : Memref sig .tc .vmem S2048x32 .f32 := Memref.whole cc0_scratch5

/-- What the launch hands the region beside the windows: each scratch buffer owned whole at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.KRunA.lean ====
/- Case p = 0 of the kernel body (only the first condition holds): the body loads the 2048 x 256 column block j of
   the adjacency window and stores that block's 256 column sums into rows 256 j .. 256 j + 255 of the first scratch
   buffer; every other buffer is left as it was. Stated as a weakest-precondition triple on whole memrefs at given
   contents: afterwards the first scratch holds its former contents with that one rectangle overwritten. -/
import proofs.«121040_g28046136442917_fold_wed_c4_759_6_alg».proof.Proof.KRuns

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : cond0_1 i) (hc2 : ¬cond0_2 i) (hc3 : ¬cond0_3 i) (hc4 : ¬cond0_4 i) (hc5 : ¬cond0_5 i) (hc6 : ¬cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    { LS0 : List (View.Piece (Elt F) S2048x1 .f32) //
      ∀ (o : Vec F S2048x32 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare o
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare o
                ∗ owns (c : Thread nD τ) arg13 fullShare (arg13.view.read (Elt F) (arg13.view.writes (Elt F) (harg13.unread d0) LS0))
                ∗ owns (c : Thread nD τ) arg14 fullShare d1
                ∗ owns (c : Thread nD τ) arg15 fullShare d2
                ∗ owns (c : Thread nD τ) arg16 fullShare d3
                ∗ owns (c : Thread nD τ) arg17 fullShare d4
                ∗ owns (c : Thread nD τ) arg18 fullShare d5) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun o E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; swap; · iexact H13
      ipureintro; rfl
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; isplitr; · ipureintro; exact harg18.read_unread _
    iexact H18

end Cert.KernelIdeal.Hand

end
-- ==== Proof.KRunB.lean ====
/- Case p = 1, j = 0 of the kernel body (the second and third conditions hold): the body reads the column sums,
   stores their shifted inverse square roots (zero where the shifted sum is not positive) as the whole second
   scratch buffer and the features times the first weight matrix, row-scaled by them, as the whole third; then it
   stores rows 256 j .. 256 j + 255 of the fourth: the transposed adjacency block times the third buffer plus the
   third buffer's own rows, row-scaled, plus the first bias. Stated as a weakest-precondition triple on whole
   memrefs at given contents. -/
import proofs.«121040_g28046136442917_fold_wed_c4_759_6_alg».proof.Proof.KRunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : cond0_2 i) (hc3 : cond0_3 i) (hc4 : ¬cond0_4 i) (hc5 : ¬cond0_5 i) (hc6 : ¬cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    Σ' (LS1 : List (View.Piece (Elt F) S2048x1 .f32)), Σ' (LS2 : List (View.Piece (Elt F) S2048x32 .f32)), { LS3 : List (View.Piece (Elt F) S2048x32 .f32) //
      ∀ (o : Vec F S2048x32 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare o
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare o
                ∗ owns (c : Thread nD τ) arg13 fullShare d0
                ∗ owns (c : Thread nD τ) arg14 fullShare (View.canon LS1)
                ∗ owns (c : Thread nD τ) arg15 fullShare (View.canon LS2)
                ∗ owns (c : Thread nD τ) arg16 fullShare (arg16.view.read (Elt F) (arg16.view.writes (Elt F) (harg16.unread d3) LS3))
                ∗ owns (c : Thread nD τ) arg17 fullShare d4
                ∗ owns (c : Thread nD τ) arg18 fullShare d5) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun o E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; swap; · iexact H14
      ipureintro; exact View.read_writes_junk_eq_canon (Val := Elt F) _ _
    isplitl [H15]
    · iexists _; isplitr; swap; · iexact H15
      ipureintro; exact View.read_writes_junk_eq_canon (Val := Elt F) _ _
    isplitl [H16]
    · iexists _; isplitr; swap; · iexact H16
      ipureintro; rfl
    isplitl [H17]
    · iexists _; isplitr; · ipureintro; exact harg17.read_unread _
      iexact H17
    iexists _; isplitr; · ipureintro; exact harg18.read_unread _
    iexact H18

end Cert.KernelIdeal.Hand

end
-- ==== Proof.KRunC.lean ====
/- Case p = 1, j > 0 of the kernel body (only the third condition holds): the body stores rows 256 j .. 256 j + 255
   of the fourth scratch buffer: the transposed adjacency block times the third buffer plus the third buffer's own
   rows, row-scaled by the second buffer's rows, plus the first bias. Every other buffer is left as it was. -/
import proofs.«121040_g28046136442917_fold_wed_c4_759_6_alg».proof.Proof.KRunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : cond0_3 i) (hc4 : ¬cond0_4 i) (hc5 : ¬cond0_5 i) (hc6 : ¬cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    { LS3 : List (View.Piece (Elt F) S2048x32 .f32) //
      ∀ (o : Vec F S2048x32 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare o
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare o
                ∗ owns (c : Thread nD τ) arg13 fullShare d0
                ∗ owns (c : Thread nD τ) arg14 fullShare d1
                ∗ owns (c : Thread nD τ) arg15 fullShare d2
                ∗ owns (c : Thread nD τ) arg16 fullShare (arg16.view.read (Elt F) (arg16.view.writes (Elt F) (harg16.unread d3) LS3))
                ∗ owns (c : Thread nD τ) arg17 fullShare d4
                ∗ owns (c : Thread nD τ) arg18 fullShare d5) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun o E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; swap; · iexact H16
      ipureintro; rfl
    isplitl [H17]
    · iexists _; isplitr; · ipureintro; exact harg17.read_unread _
      iexact H17
    iexists _; isplitr; · ipureintro; exact harg18.read_unread _
    iexact H18

end Cert.KernelIdeal.Hand

end
-- ==== Proof.KRunD.lean ====
/- Case p = 2, j = 0 of the kernel body (the fourth and fifth conditions hold): the body normalises the fourth
   scratch buffer column by column (mean and variance over its 2048 rows), scales, shifts and clamps it at zero,
   multiplies by the second weight matrix and row-scales by the second buffer, storing the result as the whole fifth
   scratch buffer; then it stores rows 256 j .. 256 j + 255 of the sixth: the transposed adjacency block times the
   fifth buffer plus the fifth buffer's own rows, row-scaled, plus the second bias. -/
import proofs.«121040_g28046136442917_fold_wed_c4_759_6_alg».proof.Proof.KRunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_D (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : ¬cond0_3 i) (hc4 : cond0_4 i) (hc5 : cond0_5 i) (hc6 : ¬cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    Σ' (LS4 : List (View.Piece (Elt F) S2048x32 .f32)), { LS5 : List (View.Piece (Elt F) S2048x32 .f32) //
      ∀ (o : Vec F S2048x32 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare o
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare o
                ∗ owns (c : Thread nD τ) arg13 fullShare d0
                ∗ owns (c : Thread nD τ) arg14 fullShare d1
                ∗ owns (c : Thread nD τ) arg15 fullShare d2
                ∗ owns (c : Thread nD τ) arg16 fullShare d3
                ∗ owns (c : Thread nD τ) arg17 fullShare (View.canon LS4)
                ∗ owns (c : Thread nD τ) arg18 fullShare (arg18.view.read (Elt F) (arg18.view.writes (Elt F) (harg18.unread d5) LS5))) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun o E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; swap; · iexact H17
      ipureintro; exact View.read_writes_junk_eq_canon (Val := Elt F) _ _
    iexists _; isplitr; swap; · iexact H18
    ipureintro; rfl

end Cert.KernelIdeal.Hand

end
-- ==== Proof.KRunE.lean ====
/- Case p = 2, 0 < j < 7 of the kernel body (only the fifth condition holds): the body stores rows
   256 j .. 256 j + 255 of the sixth scratch buffer: the transposed adjacency block times the fifth buffer plus the
   fifth buffer's own rows, row-scaled by the second buffer's rows, plus the second bias. -/
import proofs.«121040_g28046136442917_fold_wed_c4_759_6_alg».proof.Proof.KRunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_E (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : ¬cond0_3 i) (hc4 : ¬cond0_4 i) (hc5 : cond0_5 i) (hc6 : ¬cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    { LS5 : List (View.Piece (Elt F) S2048x32 .f32) //
      ∀ (o : Vec F S2048x32 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare o
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare o
                ∗ owns (c : Thread nD τ) arg13 fullShare d0
                ∗ owns (c : Thread nD τ) arg14 fullShare d1
                ∗ owns (c : Thread nD τ) arg15 fullShare d2
                ∗ owns (c : Thread nD τ) arg16 fullShare d3
                ∗ owns (c : Thread nD τ) arg17 fullShare d4
                ∗ owns (c : Thread nD τ) arg18 fullShare (arg18.view.read (Elt F) (arg18.view.writes (Elt F) (harg18.unread d5) LS5))) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun o E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; isplitr; swap; · iexact H18
    ipureintro; rfl

end Cert.KernelIdeal.Hand

end
-- ==== Proof.KRunF.lean ====
/- Case p = 2, j = 7 of the kernel body (the fifth and sixth conditions hold): the body stores the last row block
   of the sixth scratch buffer as in the other points of the phase, then normalises that buffer column by column
   (mean and variance over its 2048 rows), scales and shifts it, and stores the result as the whole result block. -/
import proofs.«121040_g28046136442917_fold_wed_c4_759_6_alg».proof.Proof.KRunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_F (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : ¬cond0_3 i) (hc4 : ¬cond0_4 i) (hc5 : cond0_5 i) (hc6 : cond0_6 i)
    (x0 : Vec F S2048x64 .f32) (x1 : Vec F S2048x2048 .f32) (x2 : Vec F S64x32 .f32) (x3 : Vec F S1x32 .f32) (x4 : Vec F S1x32 .f32) (x5 : Vec F S1x32 .f32) (x6 : Vec F S32x32 .f32) (x7 : Vec F S1x32 .f32) (x8 : Vec F S1x32 .f32) (x9 : Vec F S1x32 .f32)
    (d0 : Vec F S2048x1 .f32) (d1 : Vec F S2048x1 .f32) (d2 : Vec F S2048x32 .f32) (d3 : Vec F S2048x32 .f32) (d4 : Vec F S2048x32 .f32) (d5 : Vec F S2048x32 .f32) :
    Σ' (L10 : List (View.Piece (Elt F) S2048x32 .f32)), { LS5 : List (View.Piece (Elt F) S2048x32 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ (∃ d, owns (c : Thread nD τ) arg12 fullShare d)
            ∗ owns (c : Thread nD τ) arg13 fullShare d0
            ∗ owns (c : Thread nD τ) arg14 fullShare d1
            ∗ owns (c : Thread nD τ) arg15 fullShare d2
            ∗ owns (c : Thread nD τ) arg16 fullShare d3
            ∗ owns (c : Thread nD τ) arg17 fullShare d4
            ∗ owns (c : Thread nD τ) arg18 fullShare d5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ (∃ f, owns (c : Thread nD τ) arg12 fullShare (arg12.view.read (Elt F) (arg12.view.writes (Elt F) f L10)))
                ∗ owns (c : Thread nD τ) arg13 fullShare d0
                ∗ owns (c : Thread nD τ) arg14 fullShare d1
                ∗ owns (c : Thread nD τ) arg15 fullShare d2
                ∗ owns (c : Thread nD τ) arg16 fullShare d3
                ∗ owns (c : Thread nD τ) arg17 fullShare d4
                ∗ owns (c : Thread nD τ) arg18 fullShare (arg18.view.read (Elt F) (arg18.view.writes (Elt F) (harg18.unread d5) LS5))) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexists _; isplitr; swap; · iexact H12
      ipureintro; rfl
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; isplitr; swap; · iexact H18
    ipureintro; rfl

end Cert.KernelIdeal.Hand

end
-- ==== Proof.KCases.lean ====
/-
  The six control cases of the kernel body, as functions on the carried arrays.

  At a point of the grid the body is one of six straight-line programs, according to the point's position
  t = 8 p + j.  In each case the body's run leaves every input buffer as it found it and replaces the contents
  of the carried buffers it stores into by their former contents overwritten with the pieces the run stores:
    p = 0            : the column sums of block j, into rows 256 j .. 256 j + 255 of the first carried buffer;
    (p, j) = (1, 0)  : the second and third carried buffers whole, then rows block 0 of the fourth;
    p = 1, j > 0     : rows block j of the fourth;
    (p, j) = (2, 0)  : the fifth whole, then rows block 0 of the sixth;
    p = 2, 0 < j < 7 : rows block j of the sixth;
    (p, j) = (2, 7)  : rows block 7 of the sixth, then the output buffer whole.
  The new carried arrays of a case are therefore a function of the input blocks and the old carried arrays, and
  the body's triple at a point of the case follows from the run's triple by regrouping the separating
  conjunction of the seventeen buffers.
-/
import proofs.«121040_g28046136442917_fold_wed_c4_759_6_alg».proof.Proof.KContents
import proofs.«121040_g28046136442917_fold_wed_c4_759_6_alg».proof.Proof.KRunA
import proofs.«121040_g28046136442917_fold_wed_c4_759_6_alg».proof.Proof.KRunB
import proofs.«121040_g28046136442917_fold_wed_c4_759_6_alg».proof.Proof.KRunC
import proofs.«121040_g28046136442917_fold_wed_c4_759_6_alg».proof.Proof.KRunD
import proofs.«121040_g28046136442917_fold_wed_c4_759_6_alg».proof.Proof.KRunE
import proofs.«121040_g28046136442917_fold_wed_c4_759_6_alg».proof.Proof.KRunF

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Case p = 0 -/

/-- At a point with p = 0 only the first condition holds. -/
theorem condsA (t : Fin cfg0.N) (h : t.val < 8) :
    cond0_1 (grid0.coords t) ∧ ¬cond0_2 (grid0.coords t) ∧ ¬cond0_3 (grid0.coords t) ∧ ¬cond0_4 (grid0.coords t) ∧ ¬cond0_5 (grid0.coords t) ∧ ¬cond0_6 (grid0.coords t) := by
  refine ⟨(hcond0_1 t).2 (by omega), fun e => ?_, fun e => ?_, fun e => ?_, fun e => ?_, fun e => ?_⟩
  · have := (hcond0_2 t).1 e; omega
  · have := (hcond0_3 t).1 e; omega
  · have := (hcond0_4 t).1 e; omega
  · have := (hcond0_5 t).1 e; omega
  · have := (hcond0_6 t).1 e; omega

/-- The pieces the body stores into the first carried buffer at a point with p = 0. -/
def piecesA (c : Dev nD) (t : Fin cfg0.N) (h : t.val < 8) (x : Ins F) (d : St F) :
    List (View.Piece (Elt F) S2048x1 .f32) :=
  (kernelRun0_A (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsA t h).1 (condsA t h).2.1 (condsA t h).2.2.1 (condsA t h).2.2.2.1 (condsA t h).2.2.2.2.1 (condsA t h).2.2.2.2.2
    x.x0 x.x1 x.x2 x.x3 x.x4 x.x5 x.x6 x.x7 x.x8 x.x9 d.deg d.dis d.u1 d.y1 d.u2 d.y2).1

/-- The carried arrays after the body at a point with p = 0: the stored-into ones overwritten by the stored pieces. -/
def fA0 (c : Dev nD) (t : Fin cfg0.N) (h : t.val < 8) (x : Ins F) (d : St F) : St F :=
  { d with
    deg := scr0.view.read (Elt F)
      (scr0.view.writes (Elt F) ((Memref.isWhole_whole cc0_scratch0).unread d.deg) (piecesA c t h x d)) }

/-- The body's triple at a point with p = 0. -/
theorem runA0 (c : Dev nD) (t : Fin cfg0.N) (h : t.val < 8) (x : Ins F) (d : St F) (o : Vec F S2048x32 .f32)
    (E : Set ℕ) (K : PUnit → sProp (MM F)) :
    iprop(insOwn c t x ∗ owns (c : Thread nD τ) (stg10 t) fullShare o ∗ scrOwn c d
        ∗ (iprop(insOwn c t x ∗ owns (c : Thread nD τ) (stg10 t) fullShare o ∗ scrOwn c (fA0 c t h x d)) -∗ K ⟨⟩))
      ⊢ wp frame (wpE (defs₀ (F := F)) Variants.none c none) E (bodyAt0 t) K := by
  unfold insOwn scrOwn fA0
  dsimp only
  iintro ⟨⟨H0, H1, H2, H3, H4, H5, H6, H7, H8, H9⟩, HO, ⟨S0, S1, S2, S3, S4, S5⟩, Hk⟩
  iapply (kernelRun0_A (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsA t h).1 (condsA t h).2.1 (condsA t h).2.2.1 (condsA t h).2.2.2.1 (condsA t h).2.2.2.2.1 (condsA t h).2.2.2.2.2
    x.x0 x.x1 x.x2 x.x3 x.x4 x.x5 x.x6 x.x7 x.x8 x.x9 d.deg d.dis d.u1 d.y1 d.u2 d.y2).2 o E K
  iframe H0 H1 H2 H3 H4 H5 H6 H7 H8 H9 HO S0 S1 S2 S3 S4 S5
  iintro ⟨H0, H1, H2, H3, H4, H5, H6, H7, H8, H9, HO, S0, S1, S2, S3, S4, S5⟩
  iapply Hk
  iframe H0 H1 H2 H3 H4 H5 H6 H7 H8 H9 HO S1 S2 S3 S4 S5
  iexact S0

/-! ## Case (p, j) = (1, 0) -/

/-- At the point (1, 0) exactly the second and third conditions hold. -/
theorem condsB (t : Fin cfg0.N) (h : t.val = 8) :
    ¬cond0_1 (grid0.coords t) ∧ cond0_2 (grid0.coords t) ∧ cond0_3 (grid0.coords t) ∧ ¬cond0_4 (grid0.coords t) ∧ ¬cond0_5 (grid0.coords t) ∧ ¬cond0_6 (grid0.coords t) := by
  refine ⟨fun e => ?_, (hcond0_2 t).2 (by omega), (hcond0_3 t).2 (by omega), fun e => ?_, fun e => ?_, fun e => ?_⟩
  · have := (hcond0_1 t).1 e; omega
  · have := (hcond0_4 t).1 e; omega
  · have := (hcond0_5 t).1 e; omega
  · have := (hcond0_6 t).1 e; omega

/-- The pieces the body stores into the second carried buffer at the point (1, 0). -/
def piecesB1 (c : Dev nD) (t : Fin cfg0.N) (h : t.val = 8) (x : Ins F) (d : St F) :
    List (View.Piece (Elt F) S2048x1 .f32) :=
  (kernelRun0_B (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsB t h).1 (condsB t h).2.1 (condsB t h).2.2.1 (condsB t h).2.2.2.1 (condsB t h).2.2.2.2.1 (condsB t h).2.2.2.2.2
    x.x0 x.x1 x.x2 x.x3 x.x4 x.x5 x.x6 x.x7 x.x8 x.x9 d.deg d.dis d.u1 d.y1 d.u2 d.y2).1

/-- The pieces the body stores into the third carried buffer at the point (1, 0). -/
def piecesB2 (c : Dev nD) (t : Fin cfg0.N) (h : t.val = 8) (x : Ins F) (d : St F) :
    List (View.Piece (Elt F) S2048x32 .f32) :=
  (kernelRun0_B (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsB t h).1 (condsB t h).2.1 (condsB t h).2.2.1 (condsB t h).2.2.2.1 (condsB t h).2.2.2.2.1 (condsB t h).2.2.2.2.2
    x.x0 x.x1 x.x2 x.x3 x.x4 x.x5 x.x6 x.x7 x.x8 x.x9 d.deg d.dis d.u1 d.y1 d.u2 d.y2).2.1

/-- The pieces the body stores into the fourth carried buffer at the point (1, 0). -/
def piecesB3 (c : Dev nD) (t : Fin cfg0.N) (h : t.val = 8) (x : Ins F) (d : St F) :
    List (View.Piece (Elt F) S2048x32 .f32) :=
  (kernelRun0_B (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsB t h).1 (condsB t h).2.1 (condsB t h).2.2.1 (condsB t h).2.2.2.1 (condsB t h).2.2.2.2.1 (condsB t h).2.2.2.2.2
    x.x0 x.x1 x.x2 x.x3 x.x4 x.x5 x.x6 x.x7 x.x8 x.x9 d.deg d.dis d.u1 d.y1 d.u2 d.y2).2.2.1

/-- The carried arrays after the body at the point (1, 0): the stored-into ones overwritten by the stored pieces. -/
def fB0 (c : Dev nD) (t : Fin cfg0.N) (h : t.val = 8) (x : Ins F) (d : St F) : St F :=
  { d with
    dis := View.canon (piecesB1 c t h x d)
    u1 := View.canon (piecesB2 c t h x d)
    y1 := scr3.view.read (Elt F)
      (scr3.view.writes (Elt F) ((Memref.isWhole_whole cc0_scratch3).unread d.y1) (piecesB3 c t h x d)) }

/-- The body's triple at the point (1, 0). -/
theorem runB0 (c : Dev nD) (t : Fin cfg0.N) (h : t.val = 8) (x : Ins F) (d : St F) (o : Vec F S2048x32 .f32)
    (E : Set ℕ) (K : PUnit → sProp (MM F)) :
    iprop(insOwn c t x ∗ owns (c : Thread nD τ) (stg10 t) fullShare o ∗ scrOwn c d
        ∗ (iprop(insOwn c t x ∗ owns (c : Thread nD τ) (stg10 t) fullShare o ∗ scrOwn c (fB0 c t h x d)) -∗ K ⟨⟩))
      ⊢ wp frame (wpE (defs₀ (F := F)) Variants.none c none) E (bodyAt0 t) K := by
  unfold insOwn scrOwn fB0
  dsimp only
  iintro ⟨⟨H0, H1, H2, H3, H4, H5, H6, H7, H8, H9⟩, HO, ⟨S0, S1, S2, S3, S4, S5⟩, Hk⟩
  iapply (kernelRun0_B (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsB t h).1 (condsB t h).2.1 (condsB t h).2.2.1 (condsB t h).2.2.2.1 (condsB t h).2.2.2.2.1 (condsB t h).2.2.2.2.2
    x.x0 x.x1 x.x2 x.x3 x.x4 x.x5 x.x6 x.x7 x.x8 x.x9 d.deg d.dis d.u1 d.y1 d.u2 d.y2).2.2.2 o E K
  iframe H0 H1 H2 H3 H4 H5 H6 H7 H8 H9 HO S0 S1 S2 S3 S4 S5
  iintro ⟨H0, H1, H2, H3, H4, H5, H6, H7, H8, H9, HO, S0, S1, S2, S3, S4, S5⟩
  iapply Hk
  iframe H0 H1 H2 H3 H4 H5 H6 H7 H8 H9 HO S0 S4 S5
  isplitl [S1]
  · iexact S1
  isplitl [S2]
  · iexact S2
  iexact S3

/-! ## Case p = 1, j > 0 -/

/-- At a point with p = 1 and j > 0 only the third condition holds. -/
theorem condsC (t : Fin cfg0.N) (h : 8 < t.val ∧ t.val < 16) :
    ¬cond0_1 (grid0.coords t) ∧ ¬cond0_2 (grid0.coords t) ∧ cond0_3 (grid0.coords t) ∧ ¬cond0_4 (grid0.coords t) ∧ ¬cond0_5 (grid0.coords t) ∧ ¬cond0_6 (grid0.coords t) := by
  refine ⟨fun e => ?_, fun e => ?_, (hcond0_3 t).2 (by omega), fun e => ?_, fun e => ?_, fun e => ?_⟩
  · have := (hcond0_1 t).1 e; omega
  · have := (hcond0_2 t).1 e; omega
  · have := (hcond0_4 t).1 e; omega
  · have := (hcond0_5 t).1 e; omega
  · have := (hcond0_6 t).1 e; omega

/-- The pieces the body stores into the fourth carried buffer at a point with p = 1 and j > 0. -/
def piecesC (c : Dev nD) (t : Fin cfg0.N) (h : 8 < t.val ∧ t.val < 16) (x : Ins F) (d : St F) :
    List (View.Piece (Elt F) S2048x32 .f32) :=
  (kernelRun0_C (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsC t h).1 (condsC t h).2.1 (condsC t h).2.2.1 (condsC t h).2.2.2.1 (condsC t h).2.2.2.2.1 (condsC t h).2.2.2.2.2
    x.x0 x.x1 x.x2 x.x3 x.x4 x.x5 x.x6 x.x7 x.x8 x.x9 d.deg d.dis d.u1 d.y1 d.u2 d.y2).1

/-- The carried arrays after the body at a point with p = 1 and j > 0: the stored-into ones overwritten by the stored pieces. -/
def fC0 (c : Dev nD) (t : Fin cfg0.N) (h : 8 < t.val ∧ t.val < 16) (x : Ins F) (d : St F) : St F :=
  { d with
    y1 := scr3.view.read (Elt F)
      (scr3.view.writes (Elt F) ((Memref.isWhole_whole cc0_scratch3).unread d.y1) (piecesC c t h x d)) }

/-- The body's triple at a point with p = 1 and j > 0. -/
theorem runC0 (c : Dev nD) (t : Fin cfg0.N) (h : 8 < t.val ∧ t.val < 16) (x : Ins F) (d : St F) (o : Vec F S2048x32 .f32)
    (E : Set ℕ) (K : PUnit → sProp (MM F)) :
    iprop(insOwn c t x ∗ owns (c : Thread nD τ) (stg10 t) fullShare o ∗ scrOwn c d
        ∗ (iprop(insOwn c t x ∗ owns (c : Thread nD τ) (stg10 t) fullShare o ∗ scrOwn c (fC0 c t h x d)) -∗ K ⟨⟩))
      ⊢ wp frame (wpE (defs₀ (F := F)) Variants.none c none) E (bodyAt0 t) K := by
  unfold insOwn scrOwn fC0
  dsimp only
  iintro ⟨⟨H0, H1, H2, H3, H4, H5, H6, H7, H8, H9⟩, HO, ⟨S0, S1, S2, S3, S4, S5⟩, Hk⟩
  iapply (kernelRun0_C (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsC t h).1 (condsC t h).2.1 (condsC t h).2.2.1 (condsC t h).2.2.2.1 (condsC t h).2.2.2.2.1 (condsC t h).2.2.2.2.2
    x.x0 x.x1 x.x2 x.x3 x.x4 x.x5 x.x6 x.x7 x.x8 x.x9 d.deg d.dis d.u1 d.y1 d.u2 d.y2).2 o E K
  iframe H0 H1 H2 H3 H4 H5 H6 H7 H8 H9 HO S0 S1 S2 S3 S4 S5
  iintro ⟨H0, H1, H2, H3, H4, H5, H6, H7, H8, H9, HO, S0, S1, S2, S3, S4, S5⟩
  iapply Hk
  iframe H0 H1 H2 H3 H4 H5 H6 H7 H8 H9 HO S0 S1 S2 S4 S5
  iexact S3

/-! ## Case (p, j) = (2, 0) -/

/-- At the point (2, 0) exactly the fourth and fifth conditions hold. -/
theorem condsD (t : Fin cfg0.N) (h : t.val = 16) :
    ¬cond0_1 (grid0.coords t) ∧ ¬cond0_2 (grid0.coords t) ∧ ¬cond0_3 (grid0.coords t) ∧ cond0_4 (grid0.coords t) ∧ cond0_5 (grid0.coords t) ∧ ¬cond0_6 (grid0.coords t) := by
  refine ⟨fun e => ?_, fun e => ?_, fun e => ?_, (hcond0_4 t).2 (by omega), (hcond0_5 t).2 (by omega), fun e => ?_⟩
  · have := (hcond0_1 t).1 e; omega
  · have := (hcond0_2 t).1 e; omega
  · have := (hcond0_3 t).1 e; omega
  · have := (hcond0_6 t).1 e; omega

/-- The pieces the body stores into the fifth carried buffer at the point (2, 0). -/
def piecesD4 (c : Dev nD) (t : Fin cfg0.N) (h : t.val = 16) (x : Ins F) (d : St F) :
    List (View.Piece (Elt F) S2048x32 .f32) :=
  (kernelRun0_D (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsD t h).1 (condsD t h).2.1 (condsD t h).2.2.1 (condsD t h).2.2.2.1 (condsD t h).2.2.2.2.1 (condsD t h).2.2.2.2.2
    x.x0 x.x1 x.x2 x.x3 x.x4 x.x5 x.x6 x.x7 x.x8 x.x9 d.deg d.dis d.u1 d.y1 d.u2 d.y2).1

/-- The pieces the body stores into the sixth carried buffer at the point (2, 0). -/
def piecesD5 (c : Dev nD) (t : Fin cfg0.N) (h : t.val = 16) (x : Ins F) (d : St F) :
    List (View.Piece (Elt F) S2048x32 .f32) :=
  (kernelRun0_D (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsD t h).1 (condsD t h).2.1 (condsD t h).2.2.1 (condsD t h).2.2.2.1 (condsD t h).2.2.2.2.1 (condsD t h).2.2.2.2.2
    x.x0 x.x1 x.x2 x.x3 x.x4 x.x5 x.x6 x.x7 x.x8 x.x9 d.deg d.dis d.u1 d.y1 d.u2 d.y2).2.1

/-- The carried arrays after the body at the point (2, 0): the stored-into ones overwritten by the stored pieces. -/
def fD0 (c : Dev nD) (t : Fin cfg0.N) (h : t.val = 16) (x : Ins F) (d : St F) : St F :=
  { d with
    u2 := View.canon (piecesD4 c t h x d)
    y2 := scr5.view.read (Elt F)
      (scr5.view.writes (Elt F) ((Memref.isWhole_whole cc0_scratch5).unread d.y2) (piecesD5 c t h x d)) }

/-- The body's triple at the point (2, 0). -/
theorem runD0 (c : Dev nD) (t : Fin cfg0.N) (h : t.val = 16) (x : Ins F) (d : St F) (o : Vec F S2048x32 .f32)
    (E : Set ℕ) (K : PUnit → sProp (MM F)) :
    iprop(insOwn c t x ∗ owns (c : Thread nD τ) (stg10 t) fullShare o ∗ scrOwn c d
        ∗ (iprop(insOwn c t x ∗ owns (c : Thread nD τ) (stg10 t) fullShare o ∗ scrOwn c (fD0 c t h x d)) -∗ K ⟨⟩))
      ⊢ wp frame (wpE (defs₀ (F := F)) Variants.none c none) E (bodyAt0 t) K := by
  unfold insOwn scrOwn fD0
  dsimp only
  iintro ⟨⟨H0, H1, H2, H3, H4, H5, H6, H7, H8, H9⟩, HO, ⟨S0, S1, S2, S3, S4, S5⟩, Hk⟩
  iapply (kernelRun0_D (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsD t h).1 (condsD t h).2.1 (condsD t h).2.2.1 (condsD t h).2.2.2.1 (condsD t h).2.2.2.2.1 (condsD t h).2.2.2.2.2
    x.x0 x.x1 x.x2 x.x3 x.x4 x.x5 x.x6 x.x7 x.x8 x.x9 d.deg d.dis d.u1 d.y1 d.u2 d.y2).2.2 o E K
  iframe H0 H1 H2 H3 H4 H5 H6 H7 H8 H9 HO S0 S1 S2 S3 S4 S5
  iintro ⟨H0, H1, H2, H3, H4, H5, H6, H7, H8, H9, HO, S0, S1, S2, S3, S4, S5⟩
  iapply Hk
  iframe H0 H1 H2 H3 H4 H5 H6 H7 H8 H9 HO S0 S1 S2 S3
  isplitl [S4]
  · iexact S4
  iexact S5

/-! ## Case p = 2, 0 < j < 7 -/

/-- At a point with p = 2 and 0 < j < 7 only the fifth condition holds. -/
theorem condsE (t : Fin cfg0.N) (h : 16 < t.val ∧ t.val < 23) :
    ¬cond0_1 (grid0.coords t) ∧ ¬cond0_2 (grid0.coords t) ∧ ¬cond0_3 (grid0.coords t) ∧ ¬cond0_4 (grid0.coords t) ∧ cond0_5 (grid0.coords t) ∧ ¬cond0_6 (grid0.coords t) := by
  refine ⟨fun e => ?_, fun e => ?_, fun e => ?_, fun e => ?_, (hcond0_5 t).2 (by omega), fun e => ?_⟩
  · have := (hcond0_1 t).1 e; omega
  · have := (hcond0_2 t).1 e; omega
  · have := (hcond0_3 t).1 e; omega
  · have := (hcond0_4 t).1 e; omega
  · have := (hcond0_6 t).1 e; omega

/-- The pieces the body stores into the sixth carried buffer at a point with p = 2 and 0 < j < 7. -/
def piecesE (c : Dev nD) (t : Fin cfg0.N) (h : 16 < t.val ∧ t.val < 23) (x : Ins F) (d : St F) :
    List (View.Piece (Elt F) S2048x32 .f32) :=
  (kernelRun0_E (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsE t h).1 (condsE t h).2.1 (condsE t h).2.2.1 (condsE t h).2.2.2.1 (condsE t h).2.2.2.2.1 (condsE t h).2.2.2.2.2
    x.x0 x.x1 x.x2 x.x3 x.x4 x.x5 x.x6 x.x7 x.x8 x.x9 d.deg d.dis d.u1 d.y1 d.u2 d.y2).1

/-- The carried arrays after the body at a point with p = 2 and 0 < j < 7: the stored-into ones overwritten by the stored pieces. -/
def fE0 (c : Dev nD) (t : Fin cfg0.N) (h : 16 < t.val ∧ t.val < 23) (x : Ins F) (d : St F) : St F :=
  { d with
    y2 := scr5.view.read (Elt F)
      (scr5.view.writes (Elt F) ((Memref.isWhole_whole cc0_scratch5).unread d.y2) (piecesE c t h x d)) }

/-- The body's triple at a point with p = 2 and 0 < j < 7. -/
theorem runE0 (c : Dev nD) (t : Fin cfg0.N) (h : 16 < t.val ∧ t.val < 23) (x : Ins F) (d : St F) (o : Vec F S2048x32 .f32)
    (E : Set ℕ) (K : PUnit → sProp (MM F)) :
    iprop(insOwn c t x ∗ owns (c : Thread nD τ) (stg10 t) fullShare o ∗ scrOwn c d
        ∗ (iprop(insOwn c t x ∗ owns (c : Thread nD τ) (stg10 t) fullShare o ∗ scrOwn c (fE0 c t h x d)) -∗ K ⟨⟩))
      ⊢ wp frame (wpE (defs₀ (F := F)) Variants.none c none) E (bodyAt0 t) K := by
  unfold insOwn scrOwn fE0
  dsimp only
  iintro ⟨⟨H0, H1, H2, H3, H4, H5, H6, H7, H8, H9⟩, HO, ⟨S0, S1, S2, S3, S4, S5⟩, Hk⟩
  iapply (kernelRun0_E (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsE t h).1 (condsE t h).2.1 (condsE t h).2.2.1 (condsE t h).2.2.2.1 (condsE t h).2.2.2.2.1 (condsE t h).2.2.2.2.2
    x.x0 x.x1 x.x2 x.x3 x.x4 x.x5 x.x6 x.x7 x.x8 x.x9 d.deg d.dis d.u1 d.y1 d.u2 d.y2).2 o E K
  iframe H0 H1 H2 H3 H4 H5 H6 H7 H8 H9 HO S0 S1 S2 S3 S4 S5
  iintro ⟨H0, H1, H2, H3, H4, H5, H6, H7, H8, H9, HO, S0, S1, S2, S3, S4, S5⟩
  iapply Hk
  iframe H0 H1 H2 H3 H4 H5 H6 H7 H8 H9 HO S0 S1 S2 S3 S4
  iexact S5

/-! ## Case (p, j) = (2, 7) -/

/-- At the point (2, 7) exactly the fifth and sixth conditions hold. -/
theorem condsF (t : Fin cfg0.N) (h : t.val = 23) :
    ¬cond0_1 (grid0.coords t) ∧ ¬cond0_2 (grid0.coords t) ∧ ¬cond0_3 (grid0.coords t) ∧ ¬cond0_4 (grid0.coords t) ∧ cond0_5 (grid0.coords t) ∧ cond0_6 (grid0.coords t) := by
  refine ⟨fun e => ?_, fun e => ?_, fun e => ?_, fun e => ?_, (hcond0_5 t).2 (by omega), (hcond0_6 t).2 (by omega)⟩
  · have := (hcond0_1 t).1 e; omega
  · have := (hcond0_2 t).1 e; omega
  · have := (hcond0_3 t).1 e; omega
  · have := (hcond0_4 t).1 e; omega

/-- The pieces the body stores into the output buffer at the point (2, 7). -/
def piecesF10 (c : Dev nD) (t : Fin cfg0.N) (h : t.val = 23) (x : Ins F) (d : St F) :
    List (View.Piece (Elt F) S2048x32 .f32) :=
  (kernelRun0_F (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsF t h).1 (condsF t h).2.1 (condsF t h).2.2.1 (condsF t h).2.2.2.1 (condsF t h).2.2.2.2.1 (condsF t h).2.2.2.2.2
    x.x0 x.x1 x.x2 x.x3 x.x4 x.x5 x.x6 x.x7 x.x8 x.x9 d.deg d.dis d.u1 d.y1 d.u2 d.y2).1

/-- The pieces the body stores into the sixth carried buffer at the point (2, 7). -/
def piecesF5 (c : Dev nD) (t : Fin cfg0.N) (h : t.val = 23) (x : Ins F) (d : St F) :
    List (View.Piece (Elt F) S2048x32 .f32) :=
  (kernelRun0_F (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsF t h).1 (condsF t h).2.1 (condsF t h).2.2.1 (condsF t h).2.2.2.1 (condsF t h).2.2.2.2.1 (condsF t h).2.2.2.2.2
    x.x0 x.x1 x.x2 x.x3 x.x4 x.x5 x.x6 x.x7 x.x8 x.x9 d.deg d.dis d.u1 d.y1 d.u2 d.y2).2.1

/-- The carried arrays after the body at the point (2, 7): the sixth overwritten by the stored pieces. -/
def fF0 (c : Dev nD) (t : Fin cfg0.N) (h : t.val = 23) (x : Ins F) (d : St F) : St F :=
  { d with
    y2 := scr5.view.read (Elt F)
      (scr5.view.writes (Elt F) ((Memref.isWhole_whole cc0_scratch5).unread d.y2) (piecesF5 c t h x d)) }

/-- The output buffer after the body at the point (2, 7): at each index the value of the stored piece that holds
    it. The pieces hold every index, so the contents they are stored over do not matter. -/
def outF0 (c : Dev nD) (t : Fin cfg0.N) (h : t.val = 23) (x : Ins F) (d : St F) : Vec F S2048x32 .f32 :=
  View.canon (piecesF10 c t h x d)

/-- The store into the output buffer is through the rectangle of all its indices. -/
theorem piecesF10_cover (c : Dev nD) (t : Fin cfg0.N) (h : t.val = 23) (x : Ins F) (d : St F) :
    ∀ y, ∃ p ∈ piecesF10 c t h x d, y ∈ p.1.set := by
  intro y
  unfold piecesF10 kernelRun0_F
  dsimp only
  refine ⟨_, List.mem_cons_self, ?_⟩
  rw [Rect.mem_set_unit, Fin.forall_fin_two]
  have h0 : (y 0).val < 2048 := (y 0).isLt
  have h1 : (y 1).val < 32 := (y 1).isLt
  exact ⟨⟨by show 0 ≤ (y 0).val; omega, by show (y 0).val < 0 + 2048; omega⟩,
    ⟨by show 0 ≤ (y 1).val; omega, by show (y 1).val < 0 + 32; omega⟩⟩

/-- The body's triple at the point (2, 7). -/
theorem runF0 (c : Dev nD) (t : Fin cfg0.N) (h : t.val = 23) (x : Ins F) (d : St F)
    (E : Set ℕ) (K : PUnit → sProp (MM F)) :
    iprop(insOwn c t x ∗ (∃ o, owns (c : Thread nD τ) (stg10 t) fullShare o) ∗ scrOwn c d
        ∗ (iprop(insOwn c t x ∗ owns (c : Thread nD τ) (stg10 t) fullShare (outF0 c t h x d) ∗ scrOwn c (fF0 c t h x d)) -∗ K ⟨⟩))
      ⊢ wp frame (wpE (defs₀ (F := F)) Variants.none c none) E (bodyAt0 t) K := by
  unfold insOwn scrOwn fF0 outF0 piecesF10 piecesF5
  dsimp only
  iintro ⟨⟨H0, H1, H2, H3, H4, H5, H6, H7, H8, H9⟩, HO, ⟨S0, S1, S2, S3, S4, S5⟩, Hk⟩
  iapply (kernelRun0_F (F := F) c (grid0.coords t) (stg0 t) (hs0_0 t) (stg1 t) (hs0_1 t) (stg2 t) (hs0_2 t) (stg3 t) (hs0_3 t) (stg4 t) (hs0_4 t) (stg5 t) (hs0_5 t) (stg6 t) (hs0_6 t) (stg7 t) (hs0_7 t) (stg8 t) (hs0_8 t) (stg9 t) (hs0_9 t) (stg10 t) (hs0_10 t) scr0 (Memref.isWhole_whole _) scr1 (Memref.isWhole_whole _) scr2 (Memref.isWhole_whole _) scr3 (Memref.isWhole_whole _) scr4 (Memref.isWhole_whole _) scr5 (Memref.isWhole_whole _)
    (condsF t h).1 (condsF t h).2.1 (condsF t h).2.2.1 (condsF t h).2.2.2.1 (condsF t h).2.2.2.2.1 (condsF t h).2.2.2.2.2
    x.x0 x.x1 x.x2 x.x3 x.x4 x.x5 x.x6 x.x7 x.x8 x.x9 d.deg d.dis d.u1 d.y1 d.u2 d.y2).2.2 E K
  iframe H0 H1 H2 H3 H4 H5 H6 H7 H8 H9 HO S0 S1 S2 S3 S4 S5
  iintro ⟨H0, H1, H2, H3, H4, H5, H6, H7, H8, H9, ⟨%f, HO⟩, S0, S1, S2, S3, S4, S5⟩
  iapply Hk
  have e := View.read_writes_eq_canon (stg10 t).view f (piecesF10 c t h x d) (piecesF10_cover c t h x d)
  unfold piecesF10 at e
  rw [e]
  iframe H0 H1 H2 H3 H4 H5 H6 H7 H8 H9 S0 S1 S2 S3 S4
  isplitl [HO]
  · iexact HO
  iexact S5

/-! ## The six cases together -/

/-- The kernel body's six control cases: per case the new carried arrays and the body's triple. -/
def runs : CaseRuns F where
  fA := fA0
  runA := runA0
  fB := fB0
  runB := runB0
  fC := fC0
  runC := runC0
  fD := fD0
  runD := runD0
  fE := fE0
  runE := runE0
  fF := fF0
  outF := outF0
  runF := runF0

end Cert.KernelIdeal.Hand

end
-- ==== Proof.KRead.lean ====
/-
  Reading a carried buffer after the body's stores, and the body's block loads, as functions of coordinates.

  A store of 256 whole rows at row offset 256 j into a whole buffer of 2048 rows leaves the block on those rows and the
  former contents on every other row.  A store of the whole buffer leaves its payload.  A load of the 256 columns at
  column offset 256 j of the adjacency reads the column block; a load of 256 rows at row offset 256 j reads the row
  block; a load of the whole buffer reads its contents.
-/
import proofs.«121040_g28046136442917_fold_wed_c4_759_6_alg».proof.Proof.KModel
import Idealize.ShloMosaic.Lib.WritesUnit
import Idealize.ShloMosaic.Lib.Pipeline.Value
import Idealize.ShloMosaic.Lib.Pipeline.FrameBody

noncomputable section

namespace Cert.KernelIdeal.HandValue

open Idealize.ShloMosaic Idealize.ShloMosaic.ValueIdx Cert.KernelIdeal Cert.KernelIdeal.Gen

/-- Rows `256 j ..` stored into a whole buffer at contents `X`. -/
theorem read_store_rows {N : ℕ} (M : Memref sig .tc .vmem ⟨2, ![2048, N]⟩ .f32) (hM : M.IsWhole)
    (X : Vec Ideal ⟨2, ![2048, N]⟩ .f32) (off : Fin 2 → ℕ)
    (inb : ∀ a, off a + (![256, N] : Fin 2 → ℕ) a ≤ (⟨2, ![2048, N]⟩ : Shape).size a)
    (w : (Rect.unit (s := ⟨2, ![2048, N]⟩) off ![256, N] inb).shape.Idx → Elt Ideal .f32) (j : Fin 8)
    (hoff : off = ![256 * j.val, 0]) :
    M.view.read (Elt Ideal) (M.view.writes (Elt Ideal) (hM.unread X)
        [(⟨Rect.unit (s := ⟨2, ![2048, N]⟩) off ![256, N] inb, w⟩ : View.Piece (Elt Ideal) ⟨2, ![2048, N]⟩ .f32)])
      = setRows j w X := by
  funext y
  rw [View.read_writes_cons_rows (o := 256 * j.val) (W := 256) M.view (hM.unread X) inb w [] y hoff
    (show (![256, N] : Fin 2 → ℕ) 0 = 256 from rfl) (show (![256, N] : Fin 2 → ℕ) 1 = (![2048, N] : Fin 2 → ℕ) 1 from rfl)]
  unfold setRows
  by_cases h : 256 * j.val ≤ (y 0).val ∧ (y 0).val < 256 * j.val + 256
  · rw [dif_pos h, dif_pos h]
    exact congrArg w (funext fun a => Fin.ext (by
      match a with
      | ⟨0, _⟩ => rfl
      | ⟨1, _⟩ => show (y 1).val - 0 = (y 1).val; omega))
  · rw [dif_neg h, dif_neg h, View.writes_nil, hM.read_unread]

/-- The whole buffer stored. -/
theorem read_store_whole {S : Shape} (M : Memref sig .tc .vmem S .f32) (hM : M.IsWhole) (X : Vec Ideal S .f32)
    (off : Fin S.rank → ℕ) (h : off = fun _ => 0) (inb : ∀ a, off a + S.size a ≤ S.size a) (w : S.Idx → Elt Ideal .f32) :
    M.view.read (Elt Ideal) (M.view.writes (Elt Ideal) (hM.unread X)
        [(⟨Rect.unit off S.size inb, w⟩ : View.Piece (Elt Ideal) S .f32)]) = w := by
  rw [View.read_writes_eq_canon _ _ _ (fun y => ⟨_, List.mem_singleton_self _, View.mem_set_unit_zero h inb y⟩),
    View.canon_unit_zero h]

/-- The whole buffer loaded. -/
theorem readAt_whole {S : Shape} (M : Memref sig .tc .vmem S .f32) (hM : M.IsWhole) (X : Vec Ideal S .f32)
    (off : Fin S.rank → ℕ) (h : off = fun _ => 0) (inb : ∀ a, off a + S.size a ≤ S.size a) :
    View.readAt (Elt Ideal) M.view (Rect.unit off S.size inb).toLoadRect (hM.unread X) = X := by
  rw [View.readAt_eq_ld, hM.read_unread, View.ld_unit_zero h]

/-- Columns `256 j ..` of the adjacency loaded. -/
theorem readAt_cols (M : Memref sig .tc .vmem S2048x2048 .f32) (hM : M.IsWhole) (X : Vec Ideal S2048x2048 .f32)
    (off : Fin 2 → ℕ) (inb : ∀ a, off a + (![2048, 256] : Fin 2 → ℕ) a ≤ S2048x2048.size a) (j : Fin 8)
    (hoff : off = ![0, 256 * j.val]) :
    View.readAt (Elt Ideal) M.view (Rect.unit (s := S2048x2048) off ![2048, 256] inb).toLoadRect (hM.unread X) = adjBlk X j := by
  subst hoff
  rw [View.readAt_eq_ld, hM.read_unread]
  funext x
  unfold adjBlk
  exact congrArg X (funext fun a => Fin.ext (by
    match a with
    | ⟨0, _⟩ => show 0 + 1 * (x 0).val = (x 0).val; omega
    | ⟨1, _⟩ => show 256 * j.val + 1 * (x 1).val = 256 * j.val + (x 1).val; omega))

/-- Rows `256 j ..` of a buffer of 2048 rows loaded. -/
theorem readAt_rows {N : ℕ} (M : Memref sig .tc .vmem ⟨2, ![2048, N]⟩ .f32) (hM : M.IsWhole)
    (X : Vec Ideal ⟨2, ![2048, N]⟩ .f32) (off : Fin 2 → ℕ)
    (inb : ∀ a, off a + (![256, N] : Fin 2 → ℕ) a ≤ (⟨2, ![2048, N]⟩ : Shape).size a) (j : Fin 8)
    (hoff : off = ![256 * j.val, 0]) :
    View.readAt (Elt Ideal) M.view (Rect.unit (s := ⟨2, ![2048, N]⟩) off ![256, N] inb).toLoadRect (hM.unread X) = rowBlk X j := by
  subst hoff
  rw [View.readAt_eq_ld, hM.read_unread]
  funext x
  unfold rowBlk
  exact congrArg X (funext fun a => Fin.ext (by
    match a with
    | ⟨0, _⟩ => show 256 * j.val + 1 * (x 0).val = 256 * j.val + (x 0).val; omega
    | ⟨1, _⟩ => show 0 + 1 * (x 1).val = (x 1).val; omega))

/-- Rows `256 j ..` loaded of a buffer whose whole was stored earlier in the same body. -/
theorem readCov_whole_rows {N : ℕ} (v : View sig .tc .vmem ⟨2, ![2048, N]⟩ .f32) (off : Fin 2 → ℕ) (h : off = fun _ => 0)
    (inb : ∀ a, off a + (⟨2, ![2048, N]⟩ : Shape).size a ≤ (⟨2, ![2048, N]⟩ : Shape).size a)
    (w : (⟨2, ![2048, N]⟩ : Shape).Idx → Elt Ideal .f32) (off2 : Fin 2 → ℕ)
    (inb2 : ∀ a, off2 a + (![256, N] : Fin 2 → ℕ) a ≤ (⟨2, ![2048, N]⟩ : Shape).size a) (j : Fin 8)
    (hoff : off2 = ![256 * j.val, 0]) :
    v.readCov [(⟨Rect.unit off (⟨2, ![2048, N]⟩ : Shape).size inb, w⟩ : View.Piece (Elt Ideal) ⟨2, ![2048, N]⟩ .f32)]
        (Rect.unit (s := ⟨2, ![2048, N]⟩) off2 ![256, N] inb2).toLoadRect = rowBlk w j := by
  subst hoff
  rw [View.readCov_eq_canon', View.canon_unit_zero h]
  funext x
  unfold rowBlk
  exact congrArg w (funext fun a => Fin.ext (by
    match a with
    | ⟨0, _⟩ => show 256 * j.val + 1 * (x 0).val = 256 * j.val + (x 0).val; omega
    | ⟨1, _⟩ => show 0 + 1 * (x 1).val = (x 1).val; omega))

/-- The whole loaded of a buffer whose whole was stored earlier in the same body. -/
theorem readCov_whole_whole {S : Shape} (v : View sig .tc .vmem S .f32) (off : Fin S.rank → ℕ) (h : off = fun _ => 0)
    (inb : ∀ a, off a + S.size a ≤ S.size a) (w : S.Idx → Elt Ideal .f32) (off2 : Fin S.rank → ℕ) (h2 : off2 = fun _ => 0)
    (inb2 : ∀ a, off2 a + S.size a ≤ S.size a) :
    v.readCov [(⟨Rect.unit off S.size inb, w⟩ : View.Piece (Elt Ideal) S .f32)] (Rect.unit off2 S.size inb2).toLoadRect = w := by
  rw [View.readCov_eq_canon', View.canon_unit_zero h]
  exact View.ld_unit_zero h2 inb2 w

/-- The two zero offsets are the zero function. -/
theorem zero2 : (![0, 0] : Fin 2 → ℕ) = fun _ => 0 := funext fun a => by
  match a with
  | ⟨0, _⟩ => rfl
  | ⟨1, _⟩ => rfl

/-- The column coordinate of point `t` is `t % 8`. -/
theorem coords_col : ∀ t : Fin cfg0.N, ((grid0.coords t) 1).val = t.val % 8 :=
  (by decide +kernel : ∀ t : Fin grid0.N, ((grid0.coords t) 1).val = t.val % 8)

end Cert.KernelIdeal.HandValue

end
-- ==== Proof.KPiecesAB.lean ====
/-
  What the body's stores leave in the carried buffers, case by case, as functions of coordinates.

  In each control case the run of the body found the list of its stores; read back through the buffer, a store of rows
  256 j .. 256 j + 255 leaves the payload's block on those rows and the former contents elsewhere, a store of the whole
  buffer leaves its payload, and the loads the payloads are computed from are the column block j of the adjacency, the
  row blocks j of the carried buffers, and whole buffers — a buffer stored whole earlier in the same body reading as the
  payload just stored.
-/
import proofs.«121040_g28046136442917_fold_wed_c4_759_6_alg».proof.Proof.KRead
import proofs.«121040_g28046136442917_fold_wed_c4_759_6_alg».proof.Proof.KRunB

set_option maxRecDepth 16384

noncomputable section

namespace Cert.KernelIdeal.HandValue

open Idealize.ShloMosaic Idealize.ShloMosaic.ValueIdx Cert.KernelIdeal Cert.KernelIdeal.Gen
open Idealize.ShloMosaic.TcCoe Idealize.ShloMosaic.Tactic Idealize.SL.Sem
open Cert.KernelIdeal.Hand (cond0_1 cond0_2 cond0_3 cond0_4 cond0_5 cond0_6)

/-- Case p = 0: the first carried buffer after the body. -/
theorem pieceA (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : cond0_1 i) (hc2 : ¬cond0_2 i) (hc3 : ¬cond0_3 i) (hc4 : ¬cond0_4 i) (hc5 : ¬cond0_5 i) (hc6 : ¬cond0_6 i)
    (x0 : Vec Ideal S2048x64 .f32) (x1 : Vec Ideal S2048x2048 .f32) (x2 : Vec Ideal S64x32 .f32) (x3 : Vec Ideal S1x32 .f32) (x4 : Vec Ideal S1x32 .f32) (x5 : Vec Ideal S1x32 .f32) (x6 : Vec Ideal S32x32 .f32) (x7 : Vec Ideal S1x32 .f32) (x8 : Vec Ideal S1x32 .f32) (x9 : Vec Ideal S1x32 .f32)
    (d0 : Vec Ideal S2048x1 .f32) (d1 : Vec Ideal S2048x1 .f32) (d2 : Vec Ideal S2048x32 .f32) (d3 : Vec Ideal S2048x32 .f32) (d4 : Vec Ideal S2048x32 .f32) (d5 : Vec Ideal S2048x32 .f32) (j : Fin 8) (hj : (i 1).val = j.val) :
    arg13.view.read (Elt Ideal) (arg13.view.writes (Elt Ideal) (harg13.unread d0) (Hand.kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 d0 d1 d2 d3 d4 d5).1)
      = setRows j (k0_pay1 (F := Ideal) (adjBlk x1 j)) d0 := by
  show arg13.view.read (Elt Ideal) (arg13.view.writes (Elt Ideal) (harg13.unread d0)
      [(⟨Rect.unit (s := S2048x1) (k0_off2 i) S256x1.size (k0_off2_inb i hc1),
        k0_pay1 (F := Ideal) (View.readAt (Elt Ideal) arg3.view
          (Rect.unit (s := S2048x2048) (k0_off1 i) S2048x256.size (k0_off1_inb i)).toLoadRect (harg3.unread x1))⟩ :
        View.Piece (Elt Ideal) S2048x1 .f32)]) = _
  rw [read_store_rows arg13 harg13 d0 (k0_off2 i) (k0_off2_inb i hc1) _ j ((k0_off2_eq i).trans (by rw [hj])),
    readAt_cols arg3 harg3 x1 (k0_off1 i) (k0_off1_inb i) j ((k0_off1_eq i).trans (by rw [hj]))]

/-- Case p = 1, j = 0: the second carried buffer after the body. -/
theorem pieceB_dis (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : cond0_2 i) (hc3 : cond0_3 i) (hc4 : ¬cond0_4 i) (hc5 : ¬cond0_5 i) (hc6 : ¬cond0_6 i)
    (x0 : Vec Ideal S2048x64 .f32) (x1 : Vec Ideal S2048x2048 .f32) (x2 : Vec Ideal S64x32 .f32) (x3 : Vec Ideal S1x32 .f32) (x4 : Vec Ideal S1x32 .f32) (x5 : Vec Ideal S1x32 .f32) (x6 : Vec Ideal S32x32 .f32) (x7 : Vec Ideal S1x32 .f32) (x8 : Vec Ideal S1x32 .f32) (x9 : Vec Ideal S1x32 .f32)
    (d0 : Vec Ideal S2048x1 .f32) (d1 : Vec Ideal S2048x1 .f32) (d2 : Vec Ideal S2048x32 .f32) (d3 : Vec Ideal S2048x32 .f32) (d4 : Vec Ideal S2048x32 .f32) (d5 : Vec Ideal S2048x32 .f32) :
    View.canon (Hand.kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 d0 d1 d2 d3 d4 d5).1 = k0_pay3 (F := Ideal) d0 := by
  show View.canon [(⟨Rect.unit (s := S2048x1) ![0, 0] S2048x1.size inb_S2048x1_S2048x1_0_0, k0_pay3 (F := Ideal) (View.readAt (Elt Ideal) arg13.view (Rect.unit (s := S2048x1) ![0, 0] S2048x1.size inb_S2048x1_S2048x1_0_0).toLoadRect (harg13.unread d0))⟩ : View.Piece (Elt Ideal) S2048x1 .f32)] = _
  rw [View.canon_unit_zero zero2, readAt_whole arg13 harg13 d0 ![0, 0] zero2 inb_S2048x1_S2048x1_0_0]

/-- Case p = 1, j = 0: the third carried buffer after the body. -/
theorem pieceB_u1 (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : cond0_2 i) (hc3 : cond0_3 i) (hc4 : ¬cond0_4 i) (hc5 : ¬cond0_5 i) (hc6 : ¬cond0_6 i)
    (x0 : Vec Ideal S2048x64 .f32) (x1 : Vec Ideal S2048x2048 .f32) (x2 : Vec Ideal S64x32 .f32) (x3 : Vec Ideal S1x32 .f32) (x4 : Vec Ideal S1x32 .f32) (x5 : Vec Ideal S1x32 .f32) (x6 : Vec Ideal S32x32 .f32) (x7 : Vec Ideal S1x32 .f32) (x8 : Vec Ideal S1x32 .f32) (x9 : Vec Ideal S1x32 .f32)
    (d0 : Vec Ideal S2048x1 .f32) (d1 : Vec Ideal S2048x1 .f32) (d2 : Vec Ideal S2048x32 .f32) (d3 : Vec Ideal S2048x32 .f32) (d4 : Vec Ideal S2048x32 .f32) (d5 : Vec Ideal S2048x32 .f32) :
    View.canon (Hand.kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 d0 d1 d2 d3 d4 d5).2.1 = k0_pay4 (F := Ideal) d0 x0 x2 := by
  show View.canon [(⟨Rect.unit (s := S2048x32) ![0, 0] S2048x32.size inb_S2048x32_S2048x32_0_0, k0_pay4 (F := Ideal) (View.readAt (Elt Ideal) arg13.view (Rect.unit (s := S2048x1) ![0, 0] S2048x1.size inb_S2048x1_S2048x1_0_0).toLoadRect (harg13.unread d0))
            (View.readAt (Elt Ideal) arg2.view (Rect.unit (s := S2048x64) ![0, 0] S2048x64.size inb_S2048x64_S2048x64_0_0).toLoadRect (harg2.unread x0))
            (View.readAt (Elt Ideal) arg4.view (Rect.unit (s := S64x32) ![0, 0] S64x32.size inb_S64x32_S64x32_0_0).toLoadRect (harg4.unread x2))⟩ : View.Piece (Elt Ideal) S2048x32 .f32)] = _
  rw [View.canon_unit_zero zero2, readAt_whole arg13 harg13 d0 ![0, 0] zero2 inb_S2048x1_S2048x1_0_0,
    readAt_whole arg2 harg2 x0 ![0, 0] zero2 inb_S2048x64_S2048x64_0_0,
    readAt_whole arg4 harg4 x2 ![0, 0] zero2 inb_S64x32_S64x32_0_0]

/-- Case p = 1, j = 0: the fourth carried buffer after the body. -/
theorem pieceB_y1 (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : cond0_2 i) (hc3 : cond0_3 i) (hc4 : ¬cond0_4 i) (hc5 : ¬cond0_5 i) (hc6 : ¬cond0_6 i)
    (x0 : Vec Ideal S2048x64 .f32) (x1 : Vec Ideal S2048x2048 .f32) (x2 : Vec Ideal S64x32 .f32) (x3 : Vec Ideal S1x32 .f32) (x4 : Vec Ideal S1x32 .f32) (x5 : Vec Ideal S1x32 .f32) (x6 : Vec Ideal S32x32 .f32) (x7 : Vec Ideal S1x32 .f32) (x8 : Vec Ideal S1x32 .f32) (x9 : Vec Ideal S1x32 .f32)
    (d0 : Vec Ideal S2048x1 .f32) (d1 : Vec Ideal S2048x1 .f32) (d2 : Vec Ideal S2048x32 .f32) (d3 : Vec Ideal S2048x32 .f32) (d4 : Vec Ideal S2048x32 .f32) (d5 : Vec Ideal S2048x32 .f32) (j : Fin 8) (hj : (i 1).val = j.val) :
    arg16.view.read (Elt Ideal) (arg16.view.writes (Elt Ideal) (harg16.unread d3) (Hand.kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 d0 d1 d2 d3 d4 d5).2.2.1)
      = setRows j (k0_pay5 (F := Ideal) (adjBlk x1 j) (k0_pay4 (F := Ideal) d0 x0 x2)
          (rowBlk (k0_pay3 (F := Ideal) d0) j) (rowBlk (k0_pay4 (F := Ideal) d0 x0 x2) j) x3) d3 := by
  show arg16.view.read (Elt Ideal) (arg16.view.writes (Elt Ideal) (harg16.unread d3)
      [(⟨Rect.unit (s := S2048x32) (k0_off4 i) S256x32.size (k0_off4_inb i hc3),
        k0_pay5 (F := Ideal)
          (View.readAt (Elt Ideal) arg3.view
            (Rect.unit (s := S2048x2048) (k0_off1 i) S2048x256.size (k0_off1_inb i)).toLoadRect (harg3.unread x1))
          (arg15.view.readCov [(⟨Rect.unit (s := S2048x32) ![0, 0] S2048x32.size inb_S2048x32_S2048x32_0_0, k0_pay4 (F := Ideal) (View.readAt (Elt Ideal) arg13.view (Rect.unit (s := S2048x1) ![0, 0] S2048x1.size inb_S2048x1_S2048x1_0_0).toLoadRect (harg13.unread d0))
            (View.readAt (Elt Ideal) arg2.view (Rect.unit (s := S2048x64) ![0, 0] S2048x64.size inb_S2048x64_S2048x64_0_0).toLoadRect (harg2.unread x0))
            (View.readAt (Elt Ideal) arg4.view (Rect.unit (s := S64x32) ![0, 0] S64x32.size inb_S64x32_S64x32_0_0).toLoadRect (harg4.unread x2))⟩ : View.Piece (Elt Ideal) S2048x32 .f32)]
            (Rect.unit (s := S2048x32) ![0, 0] S2048x32.size inb_S2048x32_S2048x32_0_0).toLoadRect)
          (arg14.view.readCov [(⟨Rect.unit (s := S2048x1) ![0, 0] S2048x1.size inb_S2048x1_S2048x1_0_0, k0_pay3 (F := Ideal) (View.readAt (Elt Ideal) arg13.view (Rect.unit (s := S2048x1) ![0, 0] S2048x1.size inb_S2048x1_S2048x1_0_0).toLoadRect (harg13.unread d0))⟩ : View.Piece (Elt Ideal) S2048x1 .f32)]
            (Rect.unit (s := S2048x1) (k0_off3 i) S256x1.size (k0_off3_inb i hc3)).toLoadRect)
          (arg15.view.readCov [(⟨Rect.unit (s := S2048x32) ![0, 0] S2048x32.size inb_S2048x32_S2048x32_0_0, k0_pay4 (F := Ideal) (View.readAt (Elt Ideal) arg13.view (Rect.unit (s := S2048x1) ![0, 0] S2048x1.size inb_S2048x1_S2048x1_0_0).toLoadRect (harg13.unread d0))
            (View.readAt (Elt Ideal) arg2.view (Rect.unit (s := S2048x64) ![0, 0] S2048x64.size inb_S2048x64_S2048x64_0_0).toLoadRect (harg2.unread x0))
            (View.readAt (Elt Ideal) arg4.view (Rect.unit (s := S64x32) ![0, 0] S64x32.size inb_S64x32_S64x32_0_0).toLoadRect (harg4.unread x2))⟩ : View.Piece (Elt Ideal) S2048x32 .f32)]
            (Rect.unit (s := S2048x32) (k0_off4 i) S256x32.size (k0_off4_inb i hc3)).toLoadRect)
          (View.readAt (Elt Ideal) arg5.view
            (Rect.unit (s := S1x32) ![0, 0] S1x32.size inb_S1x32_S1x32_0_0).toLoadRect (harg5.unread x3))⟩ :
        View.Piece (Elt Ideal) S2048x32 .f32)]) = _
  rw [read_store_rows arg16 harg16 d3 (k0_off4 i) (k0_off4_inb i hc3) _ j ((k0_off4_eq i).trans (by rw [hj])),
    readAt_cols arg3 harg3 x1 (k0_off1 i) (k0_off1_inb i) j ((k0_off1_eq i).trans (by rw [hj])),
    readCov_whole_whole arg15.view ![0, 0] zero2 inb_S2048x32_S2048x32_0_0 _ ![0, 0] zero2 inb_S2048x32_S2048x32_0_0,
    readCov_whole_rows arg14.view ![0, 0] zero2 inb_S2048x1_S2048x1_0_0 _ (k0_off3 i) (k0_off3_inb i hc3) j
      ((k0_off3_eq i).trans (by rw [hj])),
    readCov_whole_rows arg15.view ![0, 0] zero2 inb_S2048x32_S2048x32_0_0 _ (k0_off4 i) (k0_off4_inb i hc3) j
      ((k0_off4_eq i).trans (by rw [hj])),
    readAt_whole arg13 harg13 d0 ![0, 0] zero2 inb_S2048x1_S2048x1_0_0,
    readAt_whole arg2 harg2 x0 ![0, 0] zero2 inb_S2048x64_S2048x64_0_0,
    readAt_whole arg4 harg4 x2 ![0, 0] zero2 inb_S64x32_S64x32_0_0,
    readAt_whole arg5 harg5 x3 ![0, 0] zero2 inb_S1x32_S1x32_0_0]

end Cert.KernelIdeal.HandValue

end
-- ==== Proof.KPiecesC.lean ====
/-
  Case p = 1, j > 0 of the body: the one store, of rows 256 j .. 256 j + 255 of the first propagated matrix, read back as a
  function of coordinates — the payload's block on those rows, over the column block j of the adjacency, the scaled
  feature matrix whole and its row block j, the row block j of the inverse square roots and the bias row; the former
  contents on every other row.
-/
import proofs.«121040_g28046136442917_fold_wed_c4_759_6_alg».proof.Proof.KRead
import proofs.«121040_g28046136442917_fold_wed_c4_759_6_alg».proof.Proof.KRunC

set_option maxRecDepth 16384

noncomputable section

namespace Cert.KernelIdeal.HandValue

open Idealize.ShloMosaic Idealize.ShloMosaic.ValueIdx Cert.KernelIdeal Cert.KernelIdeal.Gen
open Idealize.ShloMosaic.TcCoe Idealize.ShloMosaic.Tactic Idealize.SL.Sem
open Cert.KernelIdeal.Hand (cond0_1 cond0_2 cond0_3 cond0_4 cond0_5 cond0_6)

/-- Case p = 1, j ≠ 0: the fourth carried buffer after the body. -/
theorem pieceC (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : cond0_3 i) (hc4 : ¬cond0_4 i) (hc5 : ¬cond0_5 i) (hc6 : ¬cond0_6 i)
    (x0 : Vec Ideal S2048x64 .f32) (x1 : Vec Ideal S2048x2048 .f32) (x2 : Vec Ideal S64x32 .f32) (x3 : Vec Ideal S1x32 .f32) (x4 : Vec Ideal S1x32 .f32) (x5 : Vec Ideal S1x32 .f32) (x6 : Vec Ideal S32x32 .f32) (x7 : Vec Ideal S1x32 .f32) (x8 : Vec Ideal S1x32 .f32) (x9 : Vec Ideal S1x32 .f32)
    (d0 : Vec Ideal S2048x1 .f32) (d1 : Vec Ideal S2048x1 .f32) (d2 : Vec Ideal S2048x32 .f32) (d3 : Vec Ideal S2048x32 .f32) (d4 : Vec Ideal S2048x32 .f32) (d5 : Vec Ideal S2048x32 .f32) (j : Fin 8) (hj : (i 1).val = j.val) :
    arg16.view.read (Elt Ideal) (arg16.view.writes (Elt Ideal) (harg16.unread d3) (Hand.kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 d0 d1 d2 d3 d4 d5).1)
      = setRows j (k0_pay5 (F := Ideal) (adjBlk x1 j) d2 (rowBlk d1 j) (rowBlk d2 j) x3) d3 := by
  show arg16.view.read (Elt Ideal) (arg16.view.writes (Elt Ideal) (harg16.unread d3)
      [(⟨Rect.unit (s := S2048x32) (k0_off4 i) S256x32.size (k0_off4_inb i hc3),
        k0_pay5 (F := Ideal)
          (View.readAt (Elt Ideal) arg3.view
            (Rect.unit (s := S2048x2048) (k0_off1 i) S2048x256.size (k0_off1_inb i)).toLoadRect (harg3.unread x1))
          (View.readAt (Elt Ideal) arg15.view
            (Rect.unit (s := S2048x32) ![0, 0] S2048x32.size inb_S2048x32_S2048x32_0_0).toLoadRect (harg15.unread d2))
          (View.readAt (Elt Ideal) arg14.view
            (Rect.unit (s := S2048x1) (k0_off3 i) S256x1.size (k0_off3_inb i hc3)).toLoadRect (harg14.unread d1))
          (View.readAt (Elt Ideal) arg15.view
            (Rect.unit (s := S2048x32) (k0_off4 i) S256x32.size (k0_off4_inb i hc3)).toLoadRect (harg15.unread d2))
          (View.readAt (Elt Ideal) arg5.view
            (Rect.unit (s := S1x32) ![0, 0] S1x32.size inb_S1x32_S1x32_0_0).toLoadRect (harg5.unread x3))⟩ :
        View.Piece (Elt Ideal) S2048x32 .f32)]) = _
  rw [read_store_rows arg16 harg16 d3 (k0_off4 i) (k0_off4_inb i hc3) _ j ((k0_off4_eq i).trans (by rw [hj])),
    readAt_cols arg3 harg3 x1 (k0_off1 i) (k0_off1_inb i) j ((k0_off1_eq i).trans (by rw [hj])),
    readAt_whole arg15 harg15 d2 ![0, 0] zero2 inb_S2048x32_S2048x32_0_0,
    readAt_rows arg14 harg14 d1 (k0_off3 i) (k0_off3_inb i hc3) j ((k0_off3_eq i).trans (by rw [hj])),
    readAt_rows arg15 harg15 d2 (k0_off4 i) (k0_off4_inb i hc3) j ((k0_off4_eq i).trans (by rw [hj])),
    readAt_whole arg5 harg5 x3 ![0, 0] zero2 inb_S1x32_S1x32_0_0]

end Cert.KernelIdeal.HandValue

end
-- ==== Proof.KPiecesDEF.lean ====
/-
  What the body's cases of the third phase leave in the carried buffers, as functions of coordinates.

  At the phase's first point (p = 2, j = 0) the fifth buffer is stored whole: the fourth buffer normalised column by
  column, scaled, shifted and clamped at zero, times the second weight matrix, row-scaled by the second buffer. At
  every point of the phase but the last the sixth buffer keeps its rows except rows 256 j .. 256 j + 255, which become
  the transposed column block j of the adjacency times the fifth buffer, plus the fifth buffer's own rows, row-scaled
  by the second buffer's rows, plus the second bias — at the first point with the fifth buffer as just stored.
  Each is read off the one piece the case's run stores: a store of 256 whole rows leaves the block on those rows and
  the former contents elsewhere; a store of the whole buffer leaves its payload; the loads read the column block, the
  row blocks and the whole buffers.
-/
import proofs.«121040_g28046136442917_fold_wed_c4_759_6_alg».proof.Proof.KRunD
import proofs.«121040_g28046136442917_fold_wed_c4_759_6_alg».proof.Proof.KRunE
import proofs.«121040_g28046136442917_fold_wed_c4_759_6_alg».proof.Proof.KRead

set_option maxRecDepth 16384

noncomputable section

namespace Cert.KernelIdeal.HandValue

open Idealize.ShloMosaic Idealize.ShloMosaic.ValueIdx Cert.KernelIdeal Cert.KernelIdeal.Gen
open Idealize.ShloMosaic.TcCoe Idealize.ShloMosaic.Tactic Idealize.SL.Sem
open Cert.KernelIdeal.Hand (cond0_1 cond0_2 cond0_3 cond0_4 cond0_5 cond0_6)

/-- Case p = 2, j = 0: the fifth carried buffer is stored whole, at the normalised, clamped fourth buffer times the
    second weight matrix, row-scaled by the second buffer. -/
theorem pieceD_u2 (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : ¬cond0_3 i) (hc4 : cond0_4 i) (hc5 : cond0_5 i) (hc6 : ¬cond0_6 i)
    (x0 : Vec Ideal S2048x64 .f32) (x1 : Vec Ideal S2048x2048 .f32) (x2 : Vec Ideal S64x32 .f32) (x3 : Vec Ideal S1x32 .f32) (x4 : Vec Ideal S1x32 .f32) (x5 : Vec Ideal S1x32 .f32) (x6 : Vec Ideal S32x32 .f32) (x7 : Vec Ideal S1x32 .f32) (x8 : Vec Ideal S1x32 .f32) (x9 : Vec Ideal S1x32 .f32)
    (d0 : Vec Ideal S2048x1 .f32) (d1 : Vec Ideal S2048x1 .f32) (d2 : Vec Ideal S2048x32 .f32) (d3 : Vec Ideal S2048x32 .f32) (d4 : Vec Ideal S2048x32 .f32) (d5 : Vec Ideal S2048x32 .f32) :
    View.canon (Hand.kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 d0 d1 d2 d3 d4 d5).1 = k0_pay6 (F := Ideal) d3 x4 x5 x6 d1 := by
  show View.canon [(⟨Rect.unit (s := S2048x32) ![0, 0] S2048x32.size inb_S2048x32_S2048x32_0_0,
          k0_pay6 (F := Ideal) (View.readAt (Elt Ideal) arg16.view (Rect.unit (s := S2048x32) ![0, 0] S2048x32.size inb_S2048x32_S2048x32_0_0).toLoadRect (harg16.unread d3)) (View.readAt (Elt Ideal) arg6.view (Rect.unit (s := S1x32) ![0, 0] S1x32.size inb_S1x32_S1x32_0_0).toLoadRect (harg6.unread x4)) (View.readAt (Elt Ideal) arg7.view (Rect.unit (s := S1x32) ![0, 0] S1x32.size inb_S1x32_S1x32_0_0).toLoadRect (harg7.unread x5)) (View.readAt (Elt Ideal) arg8.view (Rect.unit (s := S32x32) ![0, 0] S32x32.size inb_S32x32_S32x32_0_0).toLoadRect (harg8.unread x6)) (View.readAt (Elt Ideal) arg14.view (Rect.unit (s := S2048x1) ![0, 0] S2048x1.size inb_S2048x1_S2048x1_0_0).toLoadRect (harg14.unread d1))⟩ : View.Piece (Elt Ideal) S2048x32 .f32)] = _
  rw [View.canon_unit_zero zero2, readAt_whole arg16 harg16 d3 ![0, 0] zero2 inb_S2048x32_S2048x32_0_0, readAt_whole arg6 harg6 x4 ![0, 0] zero2 inb_S1x32_S1x32_0_0,
    readAt_whole arg7 harg7 x5 ![0, 0] zero2 inb_S1x32_S1x32_0_0, readAt_whole arg8 harg8 x6 ![0, 0] zero2 inb_S32x32_S32x32_0_0,
    readAt_whole arg14 harg14 d1 ![0, 0] zero2 inb_S2048x1_S2048x1_0_0]

/-- Case p = 2, j = 0: the sixth carried buffer after the body is the former contents with rows `256 j ..` replaced by
    the payload over the column block, the fifth buffer just stored, and the row blocks of the second buffer and of it. -/
theorem pieceD_y2 (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : ¬cond0_3 i) (hc4 : cond0_4 i) (hc5 : cond0_5 i) (hc6 : ¬cond0_6 i)
    (x0 : Vec Ideal S2048x64 .f32) (x1 : Vec Ideal S2048x2048 .f32) (x2 : Vec Ideal S64x32 .f32) (x3 : Vec Ideal S1x32 .f32) (x4 : Vec Ideal S1x32 .f32) (x5 : Vec Ideal S1x32 .f32) (x6 : Vec Ideal S32x32 .f32) (x7 : Vec Ideal S1x32 .f32) (x8 : Vec Ideal S1x32 .f32) (x9 : Vec Ideal S1x32 .f32)
    (d0 : Vec Ideal S2048x1 .f32) (d1 : Vec Ideal S2048x1 .f32) (d2 : Vec Ideal S2048x32 .f32) (d3 : Vec Ideal S2048x32 .f32) (d4 : Vec Ideal S2048x32 .f32) (d5 : Vec Ideal S2048x32 .f32) (j : Fin 8) (hj : (i 1).val = j.val) :
    arg18.view.read (Elt Ideal) (arg18.view.writes (Elt Ideal) (harg18.unread d5) (Hand.kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 d0 d1 d2 d3 d4 d5).2.1)
      = setRows j (k0_pay7 (F := Ideal) (adjBlk x1 j) (k0_pay6 (F := Ideal) d3 x4 x5 x6 d1) (rowBlk d1 j)
          (rowBlk (k0_pay6 (F := Ideal) d3 x4 x5 x6 d1) j) x7) d5 := by
  show arg18.view.read (Elt Ideal) (arg18.view.writes (Elt Ideal) (harg18.unread d5)
      [(⟨Rect.unit (s := S2048x32) (k0_off6 i) S256x32.size (k0_off6_inb i hc5),
        k0_pay7 (F := Ideal)
          (View.readAt (Elt Ideal) arg3.view (Rect.unit (s := S2048x2048) (k0_off1 i) S2048x256.size (k0_off1_inb i)).toLoadRect (harg3.unread x1))
          (arg17.view.readCov [(⟨Rect.unit (s := S2048x32) ![0, 0] S2048x32.size inb_S2048x32_S2048x32_0_0,
          k0_pay6 (F := Ideal) (View.readAt (Elt Ideal) arg16.view (Rect.unit (s := S2048x32) ![0, 0] S2048x32.size inb_S2048x32_S2048x32_0_0).toLoadRect (harg16.unread d3)) (View.readAt (Elt Ideal) arg6.view (Rect.unit (s := S1x32) ![0, 0] S1x32.size inb_S1x32_S1x32_0_0).toLoadRect (harg6.unread x4)) (View.readAt (Elt Ideal) arg7.view (Rect.unit (s := S1x32) ![0, 0] S1x32.size inb_S1x32_S1x32_0_0).toLoadRect (harg7.unread x5)) (View.readAt (Elt Ideal) arg8.view (Rect.unit (s := S32x32) ![0, 0] S32x32.size inb_S32x32_S32x32_0_0).toLoadRect (harg8.unread x6)) (View.readAt (Elt Ideal) arg14.view (Rect.unit (s := S2048x1) ![0, 0] S2048x1.size inb_S2048x1_S2048x1_0_0).toLoadRect (harg14.unread d1))⟩ : View.Piece (Elt Ideal) S2048x32 .f32)] (Rect.unit (s := S2048x32) ![0, 0] S2048x32.size inb_S2048x32_S2048x32_0_0).toLoadRect)
          (View.readAt (Elt Ideal) arg14.view (Rect.unit (s := S2048x1) (k0_off5 i) S256x1.size (k0_off5_inb i hc5)).toLoadRect (harg14.unread d1))
          (arg17.view.readCov [(⟨Rect.unit (s := S2048x32) ![0, 0] S2048x32.size inb_S2048x32_S2048x32_0_0,
          k0_pay6 (F := Ideal) (View.readAt (Elt Ideal) arg16.view (Rect.unit (s := S2048x32) ![0, 0] S2048x32.size inb_S2048x32_S2048x32_0_0).toLoadRect (harg16.unread d3)) (View.readAt (Elt Ideal) arg6.view (Rect.unit (s := S1x32) ![0, 0] S1x32.size inb_S1x32_S1x32_0_0).toLoadRect (harg6.unread x4)) (View.readAt (Elt Ideal) arg7.view (Rect.unit (s := S1x32) ![0, 0] S1x32.size inb_S1x32_S1x32_0_0).toLoadRect (harg7.unread x5)) (View.readAt (Elt Ideal) arg8.view (Rect.unit (s := S32x32) ![0, 0] S32x32.size inb_S32x32_S32x32_0_0).toLoadRect (harg8.unread x6)) (View.readAt (Elt Ideal) arg14.view (Rect.unit (s := S2048x1) ![0, 0] S2048x1.size inb_S2048x1_S2048x1_0_0).toLoadRect (harg14.unread d1))⟩ : View.Piece (Elt Ideal) S2048x32 .f32)] (Rect.unit (s := S2048x32) (k0_off6 i) S256x32.size (k0_off6_inb i hc5)).toLoadRect)
          (View.readAt (Elt Ideal) arg9.view (Rect.unit (s := S1x32) ![0, 0] S1x32.size inb_S1x32_S1x32_0_0).toLoadRect (harg9.unread x7))⟩ : View.Piece (Elt Ideal) S2048x32 .f32)]) = _
  rw [read_store_rows arg18 harg18 d5 (k0_off6 i) (k0_off6_inb i hc5) _ j ((k0_off6_eq i).trans (by rw [hj])),
    readAt_cols arg3 harg3 x1 (k0_off1 i) (k0_off1_inb i) j ((k0_off1_eq i).trans (by rw [hj])),
    readCov_whole_whole arg17.view ![0, 0] zero2 inb_S2048x32_S2048x32_0_0 _ ![0, 0] zero2 inb_S2048x32_S2048x32_0_0,
    readAt_rows arg14 harg14 d1 (k0_off5 i) (k0_off5_inb i hc5) j ((k0_off5_eq i).trans (by rw [hj])),
    readCov_whole_rows arg17.view ![0, 0] zero2 inb_S2048x32_S2048x32_0_0 _ (k0_off6 i) (k0_off6_inb i hc5) j ((k0_off6_eq i).trans (by rw [hj])),
    readAt_whole arg9 harg9 x7 ![0, 0] zero2 inb_S1x32_S1x32_0_0,
    readAt_whole arg16 harg16 d3 ![0, 0] zero2 inb_S2048x32_S2048x32_0_0, readAt_whole arg6 harg6 x4 ![0, 0] zero2 inb_S1x32_S1x32_0_0,
    readAt_whole arg7 harg7 x5 ![0, 0] zero2 inb_S1x32_S1x32_0_0, readAt_whole arg8 harg8 x6 ![0, 0] zero2 inb_S32x32_S32x32_0_0,
    readAt_whole arg14 harg14 d1 ![0, 0] zero2 inb_S2048x1_S2048x1_0_0]

/-- Case p = 2, 0 < j < 7: the sixth carried buffer after the body is the former contents with rows `256 j ..` replaced
    by the payload over the column block, the fifth buffer, and the row blocks of the second and fifth buffers. -/
theorem pieceE (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : ¬cond0_3 i) (hc4 : ¬cond0_4 i) (hc5 : cond0_5 i) (hc6 : ¬cond0_6 i)
    (x0 : Vec Ideal S2048x64 .f32) (x1 : Vec Ideal S2048x2048 .f32) (x2 : Vec Ideal S64x32 .f32) (x3 : Vec Ideal S1x32 .f32) (x4 : Vec Ideal S1x32 .f32) (x5 : Vec Ideal S1x32 .f32) (x6 : Vec Ideal S32x32 .f32) (x7 : Vec Ideal S1x32 .f32) (x8 : Vec Ideal S1x32 .f32) (x9 : Vec Ideal S1x32 .f32)
    (d0 : Vec Ideal S2048x1 .f32) (d1 : Vec Ideal S2048x1 .f32) (d2 : Vec Ideal S2048x32 .f32) (d3 : Vec Ideal S2048x32 .f32) (d4 : Vec Ideal S2048x32 .f32) (d5 : Vec Ideal S2048x32 .f32) (j : Fin 8) (hj : (i 1).val = j.val) :
    arg18.view.read (Elt Ideal) (arg18.view.writes (Elt Ideal) (harg18.unread d5) (Hand.kernelRun0_E (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 d0 d1 d2 d3 d4 d5).1)
      = setRows j (k0_pay7 (F := Ideal) (adjBlk x1 j) d4 (rowBlk d1 j) (rowBlk d4 j) x7) d5 := by
  show arg18.view.read (Elt Ideal) (arg18.view.writes (Elt Ideal) (harg18.unread d5)
      [(⟨Rect.unit (s := S2048x32) (k0_off6 i) S256x32.size (k0_off6_inb i hc5),
        k0_pay7 (F := Ideal)
          (View.readAt (Elt Ideal) arg3.view (Rect.unit (s := S2048x2048) (k0_off1 i) S2048x256.size (k0_off1_inb i)).toLoadRect (harg3.unread x1))
          (View.readAt (Elt Ideal) arg17.view (Rect.unit (s := S2048x32) ![0, 0] S2048x32.size inb_S2048x32_S2048x32_0_0).toLoadRect (harg17.unread d4))
          (View.readAt (Elt Ideal) arg14.view (Rect.unit (s := S2048x1) (k0_off5 i) S256x1.size (k0_off5_inb i hc5)).toLoadRect (harg14.unread d1))
          (View.readAt (Elt Ideal) arg17.view (Rect.unit (s := S2048x32) (k0_off6 i) S256x32.size (k0_off6_inb i hc5)).toLoadRect (harg17.unread d4))
          (View.readAt (Elt Ideal) arg9.view (Rect.unit (s := S1x32) ![0, 0] S1x32.size inb_S1x32_S1x32_0_0).toLoadRect (harg9.unread x7))⟩ : View.Piece (Elt Ideal) S2048x32 .f32)]) = _
  rw [read_store_rows arg18 harg18 d5 (k0_off6 i) (k0_off6_inb i hc5) _ j ((k0_off6_eq i).trans (by rw [hj])),
    readAt_cols arg3 harg3 x1 (k0_off1 i) (k0_off1_inb i) j ((k0_off1_eq i).trans (by rw [hj])),
    readAt_whole arg17 harg17 d4 ![0, 0] zero2 inb_S2048x32_S2048x32_0_0,
    readAt_rows arg14 harg14 d1 (k0_off5 i) (k0_off5_inb i hc5) j ((k0_off5_eq i).trans (by rw [hj])),
    readAt_rows arg17 harg17 d4 (k0_off6 i) (k0_off6_inb i hc5) j ((k0_off6_eq i).trans (by rw [hj])),
    readAt_whole arg9 harg9 x7 ![0, 0] zero2 inb_S1x32_S1x32_0_0]

end Cert.KernelIdeal.HandValue

end
-- ==== Proof.KPieceF.lean ====
/-
  The last grid point (p = 2, j = 7): what the body leaves in the sixth carried buffer and in the result block.

  The body first stores rows 256 j .. 256 j + 255 of the sixth carried buffer — the transposed adjacency block times the
  fifth buffer plus the fifth buffer's own rows, row-scaled by the second buffer's rows, plus the second bias — keeping
  every other row; then it loads that buffer whole, which reads exactly the contents just described, normalises it column
  by column, scales and shifts it, and stores the result as the whole result block, whatever that block held before.
-/
import proofs.«121040_g28046136442917_fold_wed_c4_759_6_alg».proof.Proof.KRead
import proofs.«121040_g28046136442917_fold_wed_c4_759_6_alg».proof.Proof.KRunF

set_option maxRecDepth 16384

noncomputable section

namespace Cert.KernelIdeal.HandValue

open Idealize.ShloMosaic Idealize.ShloMosaic.ValueIdx Cert.KernelIdeal Cert.KernelIdeal.Gen
open Idealize.ShloMosaic.TcCoe Idealize.ShloMosaic.Tactic Idealize.SL.Sem
open Cert.KernelIdeal.Hand (cond0_1 cond0_2 cond0_3 cond0_4 cond0_5 cond0_6)

/-- A load of a whole buffer at zero offsets reads its contents, whatever they are. -/
theorem readAt_whole_raw {S : Shape} (M : Memref sig .tc .vmem S .f32) (g : M.view.ty.Contents (Elt Ideal))
    (off : Fin S.rank → ℕ) (h : off = fun _ => 0) (inb : ∀ a, off a + S.size a ≤ S.size a) :
    View.readAt (Elt Ideal) M.view (Rect.unit off S.size inb).toLoadRect g = M.view.read (Elt Ideal) g := by
  rw [View.readAt_eq_ld, View.ld_unit_zero h]

/-- One store of the whole buffer leaves its payload, whatever the buffer held. -/
theorem read_store_whole_raw {S : Shape} (M : Memref sig .tc .vmem S .f32) (g : M.view.ty.Contents (Elt Ideal))
    (off : Fin S.rank → ℕ) (h : off = fun _ => 0) (inb : ∀ a, off a + S.size a ≤ S.size a) (w : S.Idx → Elt Ideal .f32) :
    M.view.read (Elt Ideal) (M.view.writes (Elt Ideal) g
        [(⟨Rect.unit off S.size inb, w⟩ : View.Piece (Elt Ideal) S .f32)]) = w := by
  rw [View.read_writes_eq_canon _ _ _ (fun y => ⟨_, List.mem_singleton_self _, View.mem_set_unit_zero h inb y⟩),
    View.canon_unit_zero h]

/-- Case p = 2, j = 7: the sixth carried buffer after the body. -/
theorem pieceF_y2 (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : ¬cond0_3 i) (hc4 : ¬cond0_4 i) (hc5 : cond0_5 i) (hc6 : cond0_6 i)
    (x0 : Vec Ideal S2048x64 .f32) (x1 : Vec Ideal S2048x2048 .f32) (x2 : Vec Ideal S64x32 .f32) (x3 : Vec Ideal S1x32 .f32) (x4 : Vec Ideal S1x32 .f32) (x5 : Vec Ideal S1x32 .f32) (x6 : Vec Ideal S32x32 .f32) (x7 : Vec Ideal S1x32 .f32) (x8 : Vec Ideal S1x32 .f32) (x9 : Vec Ideal S1x32 .f32)
    (d0 : Vec Ideal S2048x1 .f32) (d1 : Vec Ideal S2048x1 .f32) (d2 : Vec Ideal S2048x32 .f32) (d3 : Vec Ideal S2048x32 .f32) (d4 : Vec Ideal S2048x32 .f32) (d5 : Vec Ideal S2048x32 .f32) (j : Fin 8) (hj : (i 1).val = j.val) :
    arg18.view.read (Elt Ideal) (arg18.view.writes (Elt Ideal) (harg18.unread d5) (Hand.kernelRun0_F (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 d0 d1 d2 d3 d4 d5).2.1)
      = setRows j (k0_pay7 (F := Ideal) (adjBlk x1 j) d4 (rowBlk d1 j) (rowBlk d4 j) x7) d5 := by
  show arg18.view.read (Elt Ideal) (arg18.view.writes (Elt Ideal) (harg18.unread d5)
      [(⟨Rect.unit (s := S2048x32) (k0_off6 i) S256x32.size (k0_off6_inb i hc5),
        k0_pay7 (F := Ideal)
          (View.readAt (Elt Ideal) arg3.view
            (Rect.unit (s := S2048x2048) (k0_off1 i) S2048x256.size (k0_off1_inb i)).toLoadRect (harg3.unread x1))
          (View.readAt (Elt Ideal) arg17.view
            (Rect.unit (s := S2048x32) ![0, 0] S2048x32.size inb_S2048x32_S2048x32_0_0).toLoadRect (harg17.unread d4))
          (View.readAt (Elt Ideal) arg14.view
            (Rect.unit (s := S2048x1) (k0_off5 i) S256x1.size (k0_off5_inb i hc5)).toLoadRect (harg14.unread d1))
          (View.readAt (Elt Ideal) arg17.view
            (Rect.unit (s := S2048x32) (k0_off6 i) S256x32.size (k0_off6_inb i hc5)).toLoadRect (harg17.unread d4))
          (View.readAt (Elt Ideal) arg9.view
            (Rect.unit (s := S1x32) ![0, 0] S1x32.size inb_S1x32_S1x32_0_0).toLoadRect (harg9.unread x7))⟩ :
        View.Piece (Elt Ideal) S2048x32 .f32)]) = _
  rw [read_store_rows arg18 harg18 d5 (k0_off6 i) (k0_off6_inb i hc5) _ j ((k0_off6_eq i).trans (by rw [hj])),
    readAt_cols arg3 harg3 x1 (k0_off1 i) (k0_off1_inb i) j ((k0_off1_eq i).trans (by rw [hj])),
    readAt_whole arg17 harg17 d4 ![0, 0] zero2 inb_S2048x32_S2048x32_0_0,
    readAt_rows arg14 harg14 d1 (k0_off5 i) (k0_off5_inb i hc5) j ((k0_off5_eq i).trans (by rw [hj])),
    readAt_rows arg17 harg17 d4 (k0_off6 i) (k0_off6_inb i hc5) j ((k0_off6_eq i).trans (by rw [hj])),
    readAt_whole arg9 harg9 x7 ![0, 0] zero2 inb_S1x32_S1x32_0_0]

/-- Case p = 2, j = 7: the result block after the body, whatever it held before: the batch-normalised sixth carried
    buffer as the body has just left it. -/
theorem pieceF_out (c : Dev nD) (i : grid0.Coords) (arg2 : Memref sig .tc .vmem S2048x64 .f32) (harg2 : arg2.IsWhole) (arg3 : Memref sig .tc .vmem S2048x2048 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond0_1 i) (hc2 : ¬cond0_2 i) (hc3 : ¬cond0_3 i) (hc4 : ¬cond0_4 i) (hc5 : cond0_5 i) (hc6 : cond0_6 i)
    (x0 : Vec Ideal S2048x64 .f32) (x1 : Vec Ideal S2048x2048 .f32) (x2 : Vec Ideal S64x32 .f32) (x3 : Vec Ideal S1x32 .f32) (x4 : Vec Ideal S1x32 .f32) (x5 : Vec Ideal S1x32 .f32) (x6 : Vec Ideal S32x32 .f32) (x7 : Vec Ideal S1x32 .f32) (x8 : Vec Ideal S1x32 .f32) (x9 : Vec Ideal S1x32 .f32)
    (d0 : Vec Ideal S2048x1 .f32) (d1 : Vec Ideal S2048x1 .f32) (d2 : Vec Ideal S2048x32 .f32) (d3 : Vec Ideal S2048x32 .f32) (d4 : Vec Ideal S2048x32 .f32) (d5 : Vec Ideal S2048x32 .f32) (j : Fin 8) (hj : (i 1).val = j.val) (f : arg12.view.ty.Contents (Elt Ideal)) :
    arg12.view.read (Elt Ideal) (arg12.view.writes (Elt Ideal) f (Hand.kernelRun0_F (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 d0 d1 d2 d3 d4 d5).1)
      = k0_pay8 (F := Ideal) (setRows j (k0_pay7 (F := Ideal) (adjBlk x1 j) d4 (rowBlk d1 j) (rowBlk d4 j) x7) d5) x8 x9 := by
  show arg12.view.read (Elt Ideal) (arg12.view.writes (Elt Ideal) f
      [(⟨Rect.unit (s := S2048x32) ![0, 0] S2048x32.size inb_S2048x32_S2048x32_0_0,
        k0_pay8 (F := Ideal)
          (View.readAt (Elt Ideal) arg18.view
            (Rect.unit (s := S2048x32) ![0, 0] S2048x32.size inb_S2048x32_S2048x32_0_0).toLoadRect
            (arg18.view.writes (Elt Ideal) (harg18.unread d5)
              [(⟨Rect.unit (s := S2048x32) (k0_off6 i) S256x32.size (k0_off6_inb i hc5),
        k0_pay7 (F := Ideal)
          (View.readAt (Elt Ideal) arg3.view
            (Rect.unit (s := S2048x2048) (k0_off1 i) S2048x256.size (k0_off1_inb i)).toLoadRect (harg3.unread x1))
          (View.readAt (Elt Ideal) arg17.view
            (Rect.unit (s := S2048x32) ![0, 0] S2048x32.size inb_S2048x32_S2048x32_0_0).toLoadRect (harg17.unread d4))
          (View.readAt (Elt Ideal) arg14.view
            (Rect.unit (s := S2048x1) (k0_off5 i) S256x1.size (k0_off5_inb i hc5)).toLoadRect (harg14.unread d1))
          (View.readAt (Elt Ideal) arg17.view
            (Rect.unit (s := S2048x32) (k0_off6 i) S256x32.size (k0_off6_inb i hc5)).toLoadRect (harg17.unread d4))
          (View.readAt (Elt Ideal) arg9.view
            (Rect.unit (s := S1x32) ![0, 0] S1x32.size inb_S1x32_S1x32_0_0).toLoadRect (harg9.unread x7))⟩ :
        View.Piece (Elt Ideal) S2048x32 .f32)]))
          (View.readAt (Elt Ideal) arg10.view
            (Rect.unit (s := S1x32) ![0, 0] S1x32.size inb_S1x32_S1x32_0_0).toLoadRect (harg10.unread x8))
          (View.readAt (Elt Ideal) arg11.view
            (Rect.unit (s := S1x32) ![0, 0] S1x32.size inb_S1x32_S1x32_0_0).toLoadRect (harg11.unread x9))⟩ :
        View.Piece (Elt Ideal) S2048x32 .f32)]) = _
  rw [read_store_whole_raw arg12 f ![0, 0] zero2 inb_S2048x32_S2048x32_0_0,
    readAt_whole_raw arg18 _ ![0, 0] zero2 inb_S2048x32_S2048x32_0_0,
    read_store_rows arg18 harg18 d5 (k0_off6 i) (k0_off6_inb i hc5) _ j ((k0_off6_eq i).trans (by rw [hj])),
    readAt_cols arg3 harg3 x1 (k0_off1 i) (k0_off1_inb i) j ((k0_off1_eq i).trans (by rw [hj])),
    readAt_whole arg17 harg17 d4 ![0, 0] zero2 inb_S2048x32_S2048x32_0_0,
    readAt_rows arg14 harg14 d1 (k0_off5 i) (k0_off5_inb i hc5) j ((k0_off5_eq i).trans (by rw [hj])),
    readAt_rows arg17 harg17 d4 (k0_off6 i) (k0_off6_inb i hc5) j ((k0_off6_eq i).trans (by rw [hj])),
    readAt_whole arg9 harg9 x7 ![0, 0] zero2 inb_S1x32_S1x32_0_0,
    readAt_whole arg10 harg10 x8 ![0, 0] zero2 inb_S1x32_S1x32_0_0,
    readAt_whole arg11 harg11 x9 ![0, 0] zero2 inb_S1x32_S1x32_0_0]

end Cert.KernelIdeal.HandValue

end
-- ==== Proof.KRunValue.lean ====
/-
  The kernel's value: the six control cases of the body leave the carried arrays as the 24-point recursion says, so every
  weakly fair execution of the program terminates with the result array holding the specification's array of the ten
  argument arrays and the argument arrays unchanged.
-/
import proofs.«121040_g28046136442917_fold_wed_c4_759_6_alg».proof.Proof.KValue
import proofs.«121040_g28046136442917_fold_wed_c4_759_6_alg».proof.Proof.KCases
import proofs.«121040_g28046136442917_fold_wed_c4_759_6_alg».proof.Proof.KPiecesAB
import proofs.«121040_g28046136442917_fold_wed_c4_759_6_alg».proof.Proof.KPiecesC
import proofs.«121040_g28046136442917_fold_wed_c4_759_6_alg».proof.Proof.KPiecesDEF
import proofs.«121040_g28046136442917_fold_wed_c4_759_6_alg».proof.Proof.KPieceF

set_option maxRecDepth 16384

noncomputable section

namespace Cert.KernelIdeal.HandValue

open Idealize.ShloMosaic Idealize.ShloMosaic.ValueIdx Cert.KernelIdeal Cert.KernelIdeal.Gen
open Idealize.ShloMosaic.TcCoe Idealize.SL.Sem

/-! ## Each control case leaves the carried arrays as the model's step of the case's input blocks -/

theorem piece_fieldA (c : Dev nD) (t : Fin cfg0.N) (h : t.val < 8) (x : Hand.Ins Ideal) (d : Hand.St Ideal)
    (o : Vec Ideal S2048x32 .f32) :
    toM ((Hand.runs (F := Ideal)).fA c t h x d) o = stepDeg x.x1 (colOf t.val) (toM d o) := by
  have hr : (Hand.runs (F := Ideal)).fA = Hand.fA0 := rfl
  rw [hr]
  have e : Hand.scr0.view.read (Elt Ideal) (Hand.scr0.view.writes (Elt Ideal)
        ((Memref.isWhole_whole cc0_scratch0).unread d.deg) (Hand.piecesA c t h x d))
      = setRows (colOf t.val) (k0_pay1 (F := Ideal) (adjBlk x.x1 (colOf t.val))) d.deg :=
    pieceA c (grid0.coords t) (Hand.stg0 t) (Hand.hs0_0 t) (Hand.stg1 t) (Hand.hs0_1 t) (Hand.stg2 t) (Hand.hs0_2 t) (Hand.stg3 t) (Hand.hs0_3 t) (Hand.stg4 t) (Hand.hs0_4 t) (Hand.stg5 t) (Hand.hs0_5 t) (Hand.stg6 t) (Hand.hs0_6 t) (Hand.stg7 t) (Hand.hs0_7 t) (Hand.stg8 t) (Hand.hs0_8 t) (Hand.stg9 t) (Hand.hs0_9 t) (Hand.stg10 t) (Hand.hs0_10 t) Hand.scr0 (Memref.isWhole_whole _) Hand.scr1 (Memref.isWhole_whole _) Hand.scr2 (Memref.isWhole_whole _) Hand.scr3 (Memref.isWhole_whole _) Hand.scr4 (Memref.isWhole_whole _) Hand.scr5 (Memref.isWhole_whole _)
        (Hand.condsA t h).1 (Hand.condsA t h).2.1 (Hand.condsA t h).2.2.1 (Hand.condsA t h).2.2.2.1 (Hand.condsA t h).2.2.2.2.1 (Hand.condsA t h).2.2.2.2.2
        x.x0 x.x1 x.x2 x.x3 x.x4 x.x5 x.x6 x.x7 x.x8 x.x9 d.deg d.dis d.u1 d.y1 d.u2 d.y2 (colOf t.val) (coords_col t)
  unfold Hand.fA0 toM
  dsimp only
  rw [e]
  rfl

theorem piece_fieldB (c : Dev nD) (t : Fin cfg0.N) (h : t.val = 8) (x : Hand.Ins Ideal) (d : Hand.St Ideal)
    (o : Vec Ideal S2048x32 .f32) :
    toM ((Hand.runs (F := Ideal)).fB c t h x d) o = stepY1 x.x1 x.x3 (colOf t.val) (stepDis x.x0 x.x2 (toM d o)) := by
  have hr : (Hand.runs (F := Ideal)).fB = Hand.fB0 := rfl
  rw [hr]
  have e1 : View.canon (Hand.piecesB1 c t h x d) = k0_pay3 (F := Ideal) d.deg :=
    pieceB_dis c (grid0.coords t) (Hand.stg0 t) (Hand.hs0_0 t) (Hand.stg1 t) (Hand.hs0_1 t) (Hand.stg2 t) (Hand.hs0_2 t) (Hand.stg3 t) (Hand.hs0_3 t) (Hand.stg4 t) (Hand.hs0_4 t) (Hand.stg5 t) (Hand.hs0_5 t) (Hand.stg6 t) (Hand.hs0_6 t) (Hand.stg7 t) (Hand.hs0_7 t) (Hand.stg8 t) (Hand.hs0_8 t) (Hand.stg9 t) (Hand.hs0_9 t) (Hand.stg10 t) (Hand.hs0_10 t) Hand.scr0 (Memref.isWhole_whole _) Hand.scr1 (Memref.isWhole_whole _) Hand.scr2 (Memref.isWhole_whole _) Hand.scr3 (Memref.isWhole_whole _) Hand.scr4 (Memref.isWhole_whole _) Hand.scr5 (Memref.isWhole_whole _)
        (Hand.condsB t h).1 (Hand.condsB t h).2.1 (Hand.condsB t h).2.2.1 (Hand.condsB t h).2.2.2.1 (Hand.condsB t h).2.2.2.2.1 (Hand.condsB t h).2.2.2.2.2
        x.x0 x.x1 x.x2 x.x3 x.x4 x.x5 x.x6 x.x7 x.x8 x.x9 d.deg d.dis d.u1 d.y1 d.u2 d.y2
  have e2 : View.canon (Hand.piecesB2 c t h x d) = k0_pay4 (F := Ideal) d.deg x.x0 x.x2 :=
    pieceB_u1 c (grid0.coords t) (Hand.stg0 t) (Hand.hs0_0 t) (Hand.stg1 t) (Hand.hs0_1 t) (Hand.stg2 t) (Hand.hs0_2 t) (Hand.stg3 t) (Hand.hs0_3 t) (Hand.stg4 t) (Hand.hs0_4 t) (Hand.stg5 t) (Hand.hs0_5 t) (Hand.stg6 t) (Hand.hs0_6 t) (Hand.stg7 t) (Hand.hs0_7 t) (Hand.stg8 t) (Hand.hs0_8 t) (Hand.stg9 t) (Hand.hs0_9 t) (Hand.stg10 t) (Hand.hs0_10 t) Hand.scr0 (Memref.isWhole_whole _) Hand.scr1 (Memref.isWhole_whole _) Hand.scr2 (Memref.isWhole_whole _) Hand.scr3 (Memref.isWhole_whole _) Hand.scr4 (Memref.isWhole_whole _) Hand.scr5 (Memref.isWhole_whole _)
        (Hand.condsB t h).1 (Hand.condsB t h).2.1 (Hand.condsB t h).2.2.1 (Hand.condsB t h).2.2.2.1 (Hand.condsB t h).2.2.2.2.1 (Hand.condsB t h).2.2.2.2.2
        x.x0 x.x1 x.x2 x.x3 x.x4 x.x5 x.x6 x.x7 x.x8 x.x9 d.deg d.dis d.u1 d.y1 d.u2 d.y2
  have e3 : Hand.scr3.view.read (Elt Ideal) (Hand.scr3.view.writes (Elt Ideal)
        ((Memref.isWhole_whole cc0_scratch3).unread d.y1) (Hand.piecesB3 c t h x d))
      = setRows (colOf t.val) (k0_pay5 (F := Ideal) (adjBlk x.x1 (colOf t.val)) (k0_pay4 (F := Ideal) d.deg x.x0 x.x2)
          (rowBlk (k0_pay3 (F := Ideal) d.deg) (colOf t.val)) (rowBlk (k0_pay4 (F := Ideal) d.deg x.x0 x.x2) (colOf t.val))
          x.x3) d.y1 :=
    pieceB_y1 c (grid0.coords t) (Hand.stg0 t) (Hand.hs0_0 t) (Hand.stg1 t) (Hand.hs0_1 t) (Hand.stg2 t) (Hand.hs0_2 t) (Hand.stg3 t) (Hand.hs0_3 t) (Hand.stg4 t) (Hand.hs0_4 t) (Hand.stg5 t) (Hand.hs0_5 t) (Hand.stg6 t) (Hand.hs0_6 t) (Hand.stg7 t) (Hand.hs0_7 t) (Hand.stg8 t) (Hand.hs0_8 t) (Hand.stg9 t) (Hand.hs0_9 t) (Hand.stg10 t) (Hand.hs0_10 t) Hand.scr0 (Memref.isWhole_whole _) Hand.scr1 (Memref.isWhole_whole _) Hand.scr2 (Memref.isWhole_whole _) Hand.scr3 (Memref.isWhole_whole _) Hand.scr4 (Memref.isWhole_whole _) Hand.scr5 (Memref.isWhole_whole _)
        (Hand.condsB t h).1 (Hand.condsB t h).2.1 (Hand.condsB t h).2.2.1 (Hand.condsB t h).2.2.2.1 (Hand.condsB t h).2.2.2.2.1 (Hand.condsB t h).2.2.2.2.2
        x.x0 x.x1 x.x2 x.x3 x.x4 x.x5 x.x6 x.x7 x.x8 x.x9 d.deg d.dis d.u1 d.y1 d.u2 d.y2 (colOf t.val) (coords_col t)
  unfold Hand.fB0 toM
  dsimp only
  rw [e1, e2, e3]
  rfl

theorem piece_fieldC (c : Dev nD) (t : Fin cfg0.N) (h : 8 < t.val ∧ t.val < 16) (x : Hand.Ins Ideal) (d : Hand.St Ideal)
    (o : Vec Ideal S2048x32 .f32) :
    toM ((Hand.runs (F := Ideal)).fC c t h x d) o = stepY1 x.x1 x.x3 (colOf t.val) (toM d o) := by
  have hr : (Hand.runs (F := Ideal)).fC = Hand.fC0 := rfl
  rw [hr]
  have e : Hand.scr3.view.read (Elt Ideal) (Hand.scr3.view.writes (Elt Ideal)
        ((Memref.isWhole_whole cc0_scratch3).unread d.y1) (Hand.piecesC c t h x d))
      = setRows (colOf t.val) (k0_pay5 (F := Ideal) (adjBlk x.x1 (colOf t.val)) d.u1 (rowBlk d.dis (colOf t.val))
          (rowBlk d.u1 (colOf t.val)) x.x3) d.y1 :=
    pieceC c (grid0.coords t) (Hand.stg0 t) (Hand.hs0_0 t) (Hand.stg1 t) (Hand.hs0_1 t) (Hand.stg2 t) (Hand.hs0_2 t) (Hand.stg3 t) (Hand.hs0_3 t) (Hand.stg4 t) (Hand.hs0_4 t) (Hand.stg5 t) (Hand.hs0_5 t) (Hand.stg6 t) (Hand.hs0_6 t) (Hand.stg7 t) (Hand.hs0_7 t) (Hand.stg8 t) (Hand.hs0_8 t) (Hand.stg9 t) (Hand.hs0_9 t) (Hand.stg10 t) (Hand.hs0_10 t) Hand.scr0 (Memref.isWhole_whole _) Hand.scr1 (Memref.isWhole_whole _) Hand.scr2 (Memref.isWhole_whole _) Hand.scr3 (Memref.isWhole_whole _) Hand.scr4 (Memref.isWhole_whole _) Hand.scr5 (Memref.isWhole_whole _)
        (Hand.condsC t h).1 (Hand.condsC t h).2.1 (Hand.condsC t h).2.2.1 (Hand.condsC t h).2.2.2.1 (Hand.condsC t h).2.2.2.2.1 (Hand.condsC t h).2.2.2.2.2
        x.x0 x.x1 x.x2 x.x3 x.x4 x.x5 x.x6 x.x7 x.x8 x.x9 d.deg d.dis d.u1 d.y1 d.u2 d.y2 (colOf t.val) (coords_col t)
  unfold Hand.fC0 toM
  dsimp only
  rw [e]
  rfl

theorem piece_fieldD (c : Dev nD) (t : Fin cfg0.N) (h : t.val = 16) (x : Hand.Ins Ideal) (d : Hand.St Ideal)
    (o : Vec Ideal S2048x32 .f32) :
    toM ((Hand.runs (F := Ideal)).fD c t h x d) o = stepY2 x.x1 x.x7 (colOf t.val) (stepHid x.x4 x.x5 x.x6 (toM d o)) := by
  have hr : (Hand.runs (F := Ideal)).fD = Hand.fD0 := rfl
  rw [hr]
  have e1 : View.canon (Hand.piecesD4 c t h x d) = k0_pay6 (F := Ideal) d.y1 x.x4 x.x5 x.x6 d.dis :=
    pieceD_u2 c (grid0.coords t) (Hand.stg0 t) (Hand.hs0_0 t) (Hand.stg1 t) (Hand.hs0_1 t) (Hand.stg2 t) (Hand.hs0_2 t) (Hand.stg3 t) (Hand.hs0_3 t) (Hand.stg4 t) (Hand.hs0_4 t) (Hand.stg5 t) (Hand.hs0_5 t) (Hand.stg6 t) (Hand.hs0_6 t) (Hand.stg7 t) (Hand.hs0_7 t) (Hand.stg8 t) (Hand.hs0_8 t) (Hand.stg9 t) (Hand.hs0_9 t) (Hand.stg10 t) (Hand.hs0_10 t) Hand.scr0 (Memref.isWhole_whole _) Hand.scr1 (Memref.isWhole_whole _) Hand.scr2 (Memref.isWhole_whole _) Hand.scr3 (Memref.isWhole_whole _) Hand.scr4 (Memref.isWhole_whole _) Hand.scr5 (Memref.isWhole_whole _)
        (Hand.condsD t h).1 (Hand.condsD t h).2.1 (Hand.condsD t h).2.2.1 (Hand.condsD t h).2.2.2.1 (Hand.condsD t h).2.2.2.2.1 (Hand.condsD t h).2.2.2.2.2
        x.x0 x.x1 x.x2 x.x3 x.x4 x.x5 x.x6 x.x7 x.x8 x.x9 d.deg d.dis d.u1 d.y1 d.u2 d.y2
  have e2 : Hand.scr5.view.read (Elt Ideal) (Hand.scr5.view.writes (Elt Ideal)
        ((Memref.isWhole_whole cc0_scratch5).unread d.y2) (Hand.piecesD5 c t h x d))
      = setRows (colOf t.val) (k0_pay7 (F := Ideal) (adjBlk x.x1 (colOf t.val))
          (k0_pay6 (F := Ideal) d.y1 x.x4 x.x5 x.x6 d.dis) (rowBlk d.dis (colOf t.val))
          (rowBlk (k0_pay6 (F := Ideal) d.y1 x.x4 x.x5 x.x6 d.dis) (colOf t.val)) x.x7) d.y2 :=
    pieceD_y2 c (grid0.coords t) (Hand.stg0 t) (Hand.hs0_0 t) (Hand.stg1 t) (Hand.hs0_1 t) (Hand.stg2 t) (Hand.hs0_2 t) (Hand.stg3 t) (Hand.hs0_3 t) (Hand.stg4 t) (Hand.hs0_4 t) (Hand.stg5 t) (Hand.hs0_5 t) (Hand.stg6 t) (Hand.hs0_6 t) (Hand.stg7 t) (Hand.hs0_7 t) (Hand.stg8 t) (Hand.hs0_8 t) (Hand.stg9 t) (Hand.hs0_9 t) (Hand.stg10 t) (Hand.hs0_10 t) Hand.scr0 (Memref.isWhole_whole _) Hand.scr1 (Memref.isWhole_whole _) Hand.scr2 (Memref.isWhole_whole _) Hand.scr3 (Memref.isWhole_whole _) Hand.scr4 (Memref.isWhole_whole _) Hand.scr5 (Memref.isWhole_whole _)
        (Hand.condsD t h).1 (Hand.condsD t h).2.1 (Hand.condsD t h).2.2.1 (Hand.condsD t h).2.2.2.1 (Hand.condsD t h).2.2.2.2.1 (Hand.condsD t h).2.2.2.2.2
        x.x0 x.x1 x.x2 x.x3 x.x4 x.x5 x.x6 x.x7 x.x8 x.x9 d.deg d.dis d.u1 d.y1 d.u2 d.y2 (colOf t.val) (coords_col t)
  unfold Hand.fD0 toM
  dsimp only
  rw [e1, e2]
  rfl

theorem piece_fieldE (c : Dev nD) (t : Fin cfg0.N) (h : 16 < t.val ∧ t.val < 23) (x : Hand.Ins Ideal) (d : Hand.St Ideal)
    (o : Vec Ideal S2048x32 .f32) :
    toM ((Hand.runs (F := Ideal)).fE c t h x d) o = stepY2 x.x1 x.x7 (colOf t.val) (toM d o) := by
  have hr : (Hand.runs (F := Ideal)).fE = Hand.fE0 := rfl
  rw [hr]
  have e : Hand.scr5.view.read (Elt Ideal) (Hand.scr5.view.writes (Elt Ideal)
        ((Memref.isWhole_whole cc0_scratch5).unread d.y2) (Hand.piecesE c t h x d))
      = setRows (colOf t.val) (k0_pay7 (F := Ideal) (adjBlk x.x1 (colOf t.val)) d.u2 (rowBlk d.dis (colOf t.val))
          (rowBlk d.u2 (colOf t.val)) x.x7) d.y2 :=
    pieceE c (grid0.coords t) (Hand.stg0 t) (Hand.hs0_0 t) (Hand.stg1 t) (Hand.hs0_1 t) (Hand.stg2 t) (Hand.hs0_2 t) (Hand.stg3 t) (Hand.hs0_3 t) (Hand.stg4 t) (Hand.hs0_4 t) (Hand.stg5 t) (Hand.hs0_5 t) (Hand.stg6 t) (Hand.hs0_6 t) (Hand.stg7 t) (Hand.hs0_7 t) (Hand.stg8 t) (Hand.hs0_8 t) (Hand.stg9 t) (Hand.hs0_9 t) (Hand.stg10 t) (Hand.hs0_10 t) Hand.scr0 (Memref.isWhole_whole _) Hand.scr1 (Memref.isWhole_whole _) Hand.scr2 (Memref.isWhole_whole _) Hand.scr3 (Memref.isWhole_whole _) Hand.scr4 (Memref.isWhole_whole _) Hand.scr5 (Memref.isWhole_whole _)
        (Hand.condsE t h).1 (Hand.condsE t h).2.1 (Hand.condsE t h).2.2.1 (Hand.condsE t h).2.2.2.1 (Hand.condsE t h).2.2.2.2.1 (Hand.condsE t h).2.2.2.2.2
        x.x0 x.x1 x.x2 x.x3 x.x4 x.x5 x.x6 x.x7 x.x8 x.x9 d.deg d.dis d.u1 d.y1 d.u2 d.y2 (colOf t.val) (coords_col t)
  unfold Hand.fE0 toM
  dsimp only
  rw [e]
  rfl

theorem piece_fieldF (c : Dev nD) (t : Fin cfg0.N) (h : t.val = 23) (x : Hand.Ins Ideal) (d : Hand.St Ideal)
    (o : Vec Ideal S2048x32 .f32) :
    toM ((Hand.runs (F := Ideal)).fF c t h x d) ((Hand.runs (F := Ideal)).outF c t h x d) = stepOut x.x8 x.x9 (stepY2 x.x1 x.x7 (colOf t.val) (toM d o)) := by
  unfold Hand.runs
  dsimp only
  have e1 : Hand.scr5.view.read (Elt Ideal) (Hand.scr5.view.writes (Elt Ideal)
        ((Memref.isWhole_whole cc0_scratch5).unread d.y2) (Hand.piecesF5 c t h x d))
      = setRows (colOf t.val) (k0_pay7 (F := Ideal) (adjBlk x.x1 (colOf t.val)) d.u2 (rowBlk d.dis (colOf t.val))
          (rowBlk d.u2 (colOf t.val)) x.x7) d.y2 :=
    pieceF_y2 c (grid0.coords t) (Hand.stg0 t) (Hand.hs0_0 t) (Hand.stg1 t) (Hand.hs0_1 t) (Hand.stg2 t) (Hand.hs0_2 t) (Hand.stg3 t) (Hand.hs0_3 t) (Hand.stg4 t) (Hand.hs0_4 t) (Hand.stg5 t) (Hand.hs0_5 t) (Hand.stg6 t) (Hand.hs0_6 t) (Hand.stg7 t) (Hand.hs0_7 t) (Hand.stg8 t) (Hand.hs0_8 t) (Hand.stg9 t) (Hand.hs0_9 t) (Hand.stg10 t) (Hand.hs0_10 t) Hand.scr0 (Memref.isWhole_whole _) Hand.scr1 (Memref.isWhole_whole _) Hand.scr2 (Memref.isWhole_whole _) Hand.scr3 (Memref.isWhole_whole _) Hand.scr4 (Memref.isWhole_whole _) Hand.scr5 (Memref.isWhole_whole _)
        (Hand.condsF t h).1 (Hand.condsF t h).2.1 (Hand.condsF t h).2.2.1 (Hand.condsF t h).2.2.2.1 (Hand.condsF t h).2.2.2.2.1 (Hand.condsF t h).2.2.2.2.2
        x.x0 x.x1 x.x2 x.x3 x.x4 x.x5 x.x6 x.x7 x.x8 x.x9 d.deg d.dis d.u1 d.y1 d.u2 d.y2 (colOf t.val) (coords_col t)
  have e2 : Hand.outF0 (F := Ideal) c t h x d
      = k0_pay8 (F := Ideal) (setRows (colOf t.val) (k0_pay7 (F := Ideal) (adjBlk x.x1 (colOf t.val)) d.u2
          (rowBlk d.dis (colOf t.val)) (rowBlk d.u2 (colOf t.val)) x.x7) d.y2) x.x8 x.x9 := by
    have l : (Hand.stg10 t).view.read (Elt Ideal) ((Hand.stg10 t).view.writes (Elt Ideal) (Hand.stg10 t).view.junk
          (Hand.piecesF10 c t h x d)) = _ :=
      pieceF_out c (grid0.coords t) (Hand.stg0 t) (Hand.hs0_0 t) (Hand.stg1 t) (Hand.hs0_1 t) (Hand.stg2 t) (Hand.hs0_2 t) (Hand.stg3 t) (Hand.hs0_3 t) (Hand.stg4 t) (Hand.hs0_4 t) (Hand.stg5 t) (Hand.hs0_5 t) (Hand.stg6 t) (Hand.hs0_6 t) (Hand.stg7 t) (Hand.hs0_7 t) (Hand.stg8 t) (Hand.hs0_8 t) (Hand.stg9 t) (Hand.hs0_9 t) (Hand.stg10 t) (Hand.hs0_10 t) Hand.scr0 (Memref.isWhole_whole _) Hand.scr1 (Memref.isWhole_whole _) Hand.scr2 (Memref.isWhole_whole _) Hand.scr3 (Memref.isWhole_whole _) Hand.scr4 (Memref.isWhole_whole _) Hand.scr5 (Memref.isWhole_whole _)
        (Hand.condsF t h).1 (Hand.condsF t h).2.1 (Hand.condsF t h).2.2.1 (Hand.condsF t h).2.2.2.1 (Hand.condsF t h).2.2.2.2.1 (Hand.condsF t h).2.2.2.2.2
        x.x0 x.x1 x.x2 x.x3 x.x4 x.x5 x.x6 x.x7 x.x8 x.x9 d.deg d.dis d.u1 d.y1 d.u2 d.y2 (colOf t.val) (coords_col t)
        (Hand.stg10 t).view.junk
    unfold Hand.outF0
    exact (View.read_writes_junk_eq_canon (Hand.stg10 t).view (Hand.piecesF10 c t h x d)).symm.trans l
  unfold Hand.fF0 toM
  dsimp only
  rw [e1, e2]
  rfl

/-- The six cases together. -/
theorem pieces : Pieces (Hand.runs (F := Ideal)) where
  fA := piece_fieldA
  fB := piece_fieldB
  fC := piece_fieldC
  fD := piece_fieldD
  fE := piece_fieldE
  fF := piece_fieldF

/-- THE VALUE. The output buffer after the last point, from any contents of the carried buffers at entry, is the
    specification's array of the ten argument arrays. -/
theorem result_eq (m : (ℓ : Loc nD τ sig) → Buf (Elt Ideal) ℓ) (c : Dev nD) (z : Hand.St Ideal) (h : 23 < cfg0.N) :
    (Hand.stAt (Hand.runs (F := Ideal)) m c z 23 h).2
      = Gcn.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) :=
  out_eq_G m pieces c z h

/-- THE RUN. Every weakly fair execution terminates with the result array at the specification's array of the argument
    arrays, and the argument arrays as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
        = Gcn.G (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of (Hand.runs (F := Ideal)) pieces m ρ

end Cert.KernelIdeal.HandValue

end
-- ==== Proof.RefOps.lean ====
/-
  The reference's host program as a list. Its @main is a straight line of 404 StableHLO operations once every
  call of a module-local function is replaced by the callee's body over the buffers that call names (the call's
  record): a call means its callee's body on the operands, and each value of an inlined body has a buffer of its
  own. The list is cut where the printed program is cut: one list per window of @main, their concatenation the
  whole. Each entry names the buffers it reads, the one buffer it writes and the function from the operands'
  contents to the result's; no buffer is written twice, and each operand is an argument or written earlier.
-/
import proofs.«121040_g28046136442917_fold_wed_c4_759_6_alg».proof.Proof.Gen.ReferenceIdeal
import Idealize.ShloMosaic.Lib.StableHlo.Run

noncomputable section

namespace Cert.ReferenceIdeal.Hand

open Idealize.ShloMosaic Idealize.SL.Sem Idealize.ShloMosaic.TcCoe Idealize.ShloMosaic.StableHlo
open Idealize.ShloMosaic.RefSig (ofTc tcTables tileCredit tileCredit_eq_zero tileCredit_pos)
open Cert.ReferenceIdeal Cert.ReferenceIdeal.Gen

variable {F : FTy → Type} [FloatOps F]

/-- @main's operations 1 … 147 of 404: window 0 of the printed program, its calls inlined. -/
abbrev ops0 : List (HloOp τ sig (Elt F)) :=
  [ nullary main_cst (constant S_ .f32 0x00000000#32),
    unary main_cst main_v0 (broadcastInDim S2048x2048 ![] bcast_S_S2048x2048 : (⟨S_, .f32⟩ : BufTy).Contents (Elt F) → (⟨S2048x2048, .f32⟩ : BufTy).Contents (Elt F)),
    binary main_arg1 main_v0 main_v1 (cmpf .une : (⟨S2048x2048, .f32⟩ : BufTy).Contents (Elt F) → (⟨S2048x2048, .f32⟩ : BufTy).Contents (Elt F) → (⟨S2048x2048, .i1⟩ : BufTy).Contents (Elt F)),
    TRef.reshape (.of main_v1 : TRef sig ⟨S2048x2048, .i1⟩) main_call0.v0 rfl shapeCasts_S2048x2048_S4194304,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![4194304] ![1] ![4194303] ![0] x v reduceWindows_S4194304_S4194304_w4194304s1p4194303_0 h_S_),
    nullary main_c (constantI S_ 32 0#32),
    unary main_c main_v3 (broadcastInDim S4194304 ![] bcast_S_S4194304 : (⟨S_, .i32⟩ : BufTy).Contents (Elt F) → (⟨S4194304, .i32⟩ : BufTy).Contents (Elt F)),
    nullary main_c_0 (constantI S_ 32 0#32),
    TRef.unary (.of main_c_0 : TRef sig ⟨S_, .i32⟩) main_call1.v0 id,
    TRef.unary main_call1.v0 main_call1.v1 (broadcastInDim S4194304 ![] bcast_S_S4194304),
    TRef.binary main_call1.v1 (.of main_v2 : TRef sig ⟨S4194304, .i32⟩) main_call1.v2 maxsi,
    nullary main_c_1 (constantI S_ 32 0#32),
    unary main_c_1 main_v5 (broadcastInDim S4194304 ![] bcast_S_S4194304 : (⟨S_, .i32⟩ : BufTy).Contents (Elt F) → (⟨S4194304, .i32⟩ : BufTy).Contents (Elt F)),
    binary main_v4 main_v5 main_v6 (cmpi .slt : (⟨S4194304, .i32⟩ : BufTy).Contents (Elt F) → (⟨S4194304, .i32⟩ : BufTy).Contents (Elt F) → (⟨S4194304, .i1⟩ : BufTy).Contents (Elt F)),
    nullary main_c_2 (constantI S_ 32 4194304#32),
    unary main_c_2 main_v7 (broadcastInDim S4194304 ![] bcast_S_S4194304 : (⟨S_, .i32⟩ : BufTy).Contents (Elt F) → (⟨S4194304, .i32⟩ : BufTy).Contents (Elt F)),
    binary main_v4 main_v7 main_v8 (addi : (⟨S4194304, .i32⟩ : BufTy).Contents (Elt F) → (⟨S4194304, .i32⟩ : BufTy).Contents (Elt F) → (⟨S4194304, .i32⟩ : BufTy).Contents (Elt F)),
    ternary main_v6 main_v8 main_v4 main_v9 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v9 main_v10 (broadcastInDim S4194304x1 ![0] bcast_S4194304_S4194304x1_0 : (⟨S4194304, .i32⟩ : BufTy).Contents (Elt F) → (⟨S4194304x1, .i32⟩ : BufTy).Contents (Elt F)),
    nullary main_c_3 (constantI S_ 32 1#32),
    unary main_c_3 main_v11 (broadcastInDim S4194304 ![] bcast_S_S4194304 : (⟨S_, .i32⟩ : BufTy).Contents (Elt F) → (⟨S4194304, .i32⟩ : BufTy).Contents (Elt F)),
    ternary main_v3 main_v10 main_v11 main_v12 ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)),
    TRef.nullary main_call2.call0.c (constantI S_ 32 0#32),
    TRef.unary main_call2.call0.c main_call2.call0.v0 (broadcastInDim S_ ![] bcast_S_S_),
    TRef.binary (.of main_v12 : TRef sig ⟨S4194304, .i32⟩) main_call2.call0.v0 main_call2.call0.v1 (fun x v => Host.reduceWindow IntOp.addi ![4194304] ![1] ![4194303] ![0] x v reduceWindows_S4194304_S4194304_w4194304s1p4194303_0 h_S_),
    nullary main_c_4 (constantI S_ 32 2048#32),
    TRef.unary (.of main_c_4 : TRef sig ⟨S_, .i32⟩) main_call3.v0 (broadcastInDim S4194304 ![] bcast_S_S4194304),
    TRef.binary (.of main_v13 : TRef sig ⟨S4194304, .i32⟩) main_call3.v0 main_call3.v1 Host.divsi,
    TRef.unary (.of main_v13 : TRef sig ⟨S4194304, .i32⟩) main_call3.v2 signi,
    TRef.unary (.of main_c_4 : TRef sig ⟨S_, .i32⟩) main_call3.v3 signi,
    TRef.unary main_call3.v3 main_call3.v4 (broadcastInDim S4194304 ![] bcast_S_S4194304),
    TRef.binary main_call3.v2 main_call3.v4 main_call3.v5 (cmpi .ne),
    TRef.unary (.of main_c_4 : TRef sig ⟨S_, .i32⟩) main_call3.v6 (broadcastInDim S4194304 ![] bcast_S_S4194304),
    TRef.binary (.of main_v13 : TRef sig ⟨S4194304, .i32⟩) main_call3.v6 main_call3.v7 Host.remsi,
    TRef.nullary main_call3.c (constantI S_ 32 0#32),
    TRef.unary main_call3.c main_call3.v8 (broadcastInDim S4194304 ![] bcast_S_S4194304),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S4194304 ![] bcast_S_S4194304),
    TRef.binary main_call3.v1 main_call3.v11 main_call3.v12 subi,
    TRef.ternary main_call3.v10 main_call3.v12 main_call3.v1 main_call3.call0.v0 select,
    nullary main_c_5 (constantI S_ 32 2048#32),
    TRef.unary (.of main_c_5 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S4194304 ![] bcast_S_S4194304),
    TRef.binary (.of main_v14 : TRef sig ⟨S4194304, .i32⟩) main_call4.v3 main_call4.v4 Host.remsi,
    TRef.nullary main_call4.c_1 (constantI S_ 32 0#32),
    TRef.unary main_call4.c_1 main_call4.v5 (broadcastInDim S4194304 ![] bcast_S_S4194304),
    TRef.binary main_call4.v4 main_call4.v5 main_call4.v6 (cmpi .ne),
    TRef.nullary main_call4.c_2 (constantI S_ 32 0#32),
    TRef.unary main_call4.c_2 main_call4.v7 (broadcastInDim S4194304 ![] bcast_S_S4194304),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S4194304 ![] bcast_S_S4194304),
    TRef.binary main_call4.v8 main_call4.v10 main_call4.v11 (cmpi .ne),
    TRef.binary main_call4.v11 main_call4.v6 main_call4.v12 andi,
    TRef.unary main_call4.call0.v0 main_call4.v13 (broadcastInDim S4194304 ![] bcast_S_S4194304),
    TRef.binary main_call4.v4 main_call4.v13 main_call4.v14 addi,
    TRef.ternary main_call4.v12 main_call4.v14 main_call4.v4 main_call4.v15 select,
    nullary main_c_6 (constantI S_ 32 1#32),
    TRef.unary (.of main_c_6 : TRef sig ⟨S_, .i32⟩) main_call5.v0 (broadcastInDim S4194304 ![] bcast_S_S4194304),
    TRef.binary (.of main_v13 : TRef sig ⟨S4194304, .i32⟩) main_call5.v0 main_call5.v1 Host.divsi,
    TRef.unary (.of main_v13 : TRef sig ⟨S4194304, .i32⟩) main_call5.v2 signi,
    TRef.unary (.of main_c_6 : TRef sig ⟨S_, .i32⟩) main_call5.v3 signi,
    TRef.unary main_call5.v3 main_call5.v4 (broadcastInDim S4194304 ![] bcast_S_S4194304),
    TRef.binary main_call5.v2 main_call5.v4 main_call5.v5 (cmpi .ne),
    TRef.unary (.of main_c_6 : TRef sig ⟨S_, .i32⟩) main_call5.v6 (broadcastInDim S4194304 ![] bcast_S_S4194304),
    TRef.binary (.of main_v13 : TRef sig ⟨S4194304, .i32⟩) main_call5.v6 main_call5.v7 Host.remsi,
    TRef.nullary main_call5.c (constantI S_ 32 0#32),
    TRef.unary main_call5.c main_call5.v8 (broadcastInDim S4194304 ![] bcast_S_S4194304),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S4194304 ![] bcast_S_S4194304),
    TRef.binary main_call5.v1 main_call5.v11 main_call5.v12 subi,
    TRef.ternary main_call5.v10 main_call5.v12 main_call5.v1 main_call5.call0.v0 select,
    nullary main_c_7 (constantI S_ 32 2048#32),
    TRef.unary (.of main_c_7 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S4194304 ![] bcast_S_S4194304),
    TRef.binary (.of main_v16 : TRef sig ⟨S4194304, .i32⟩) main_call6.v3 main_call6.v4 Host.remsi,
    TRef.nullary main_call6.c_1 (constantI S_ 32 0#32),
    TRef.unary main_call6.c_1 main_call6.v5 (broadcastInDim S4194304 ![] bcast_S_S4194304),
    TRef.binary main_call6.v4 main_call6.v5 main_call6.v6 (cmpi .ne),
    TRef.nullary main_call6.c_2 (constantI S_ 32 0#32),
    TRef.unary main_call6.c_2 main_call6.v7 (broadcastInDim S4194304 ![] bcast_S_S4194304),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S4194304 ![] bcast_S_S4194304),
    TRef.binary main_call6.v8 main_call6.v10 main_call6.v11 (cmpi .ne),
    TRef.binary main_call6.v11 main_call6.v6 main_call6.v12 andi,
    TRef.unary main_call6.call0.v0 main_call6.v13 (broadcastInDim S4194304 ![] bcast_S_S4194304),
    TRef.binary main_call6.v4 main_call6.v13 main_call6.v14 addi,
    TRef.ternary main_call6.v12 main_call6.v14 main_call6.v4 main_call6.v15 select,
    nullary main_v18 (iotaInDim S4194304 32 0),
    unary main_v1 main_v19 ((extui 32 · natLt_1_32) : (⟨S2048x2048, .i1⟩ : BufTy).Contents (Elt F) → (⟨S2048x2048, .i32⟩ : BufTy).Contents (Elt F)),
    nullary main_c_8 (constantI S_ 32 0#32),
    binary main_v19 main_c_8 main_v20 ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)),
    unary main_v20 main_v21 (broadcastInDim S4194304 ![] bcast_S_S4194304 : (⟨S_, .i32⟩ : BufTy).Contents (Elt F) → (⟨S4194304, .i32⟩ : BufTy).Contents (Elt F)),
    binary main_v18 main_v21 main_v22 (cmpi .sge : (⟨S4194304, .i32⟩ : BufTy).Contents (Elt F) → (⟨S4194304, .i32⟩ : BufTy).Contents (Elt F) → (⟨S4194304, .i1⟩ : BufTy).Contents (Elt F)),
    nullary main_c_9 (constantI S_ 32 0#32),
    TRef.unary (.of main_c_9 : TRef sig ⟨S_, .i32⟩) main_call7.v0 id,
    TRef.unary main_call7.v0 main_call7.v1 (broadcastInDim S4194304 ![] bcast_S_S4194304),
    TRef.ternary (.of main_v22 : TRef sig ⟨S4194304, .i1⟩) main_call7.v1 (.of main_v15 : TRef sig ⟨S4194304, .i32⟩) main_call7.v2 select,
    nullary main_c_10 (constantI S_ 32 0#32),
    TRef.unary (.of main_c_10 : TRef sig ⟨S_, .i32⟩) main_call8.v0 id,
    TRef.unary main_call8.v0 main_call8.v1 (broadcastInDim S4194304 ![] bcast_S_S4194304),
    TRef.ternary (.of main_v22 : TRef sig ⟨S4194304, .i1⟩) main_call8.v1 (.of main_v17 : TRef sig ⟨S4194304, .i32⟩) main_call8.v2 select,
    nullary main_v25 (iotaInDim S4194304 32 0),
    TRef.nullary main_call9.cst (constant S_ .f32 0x00000000#32),
    TRef.unary main_call9.cst main_call9.v0 (broadcastInDim S2048x2048 ![] bcast_S_S2048x2048),
    TRef.binary (.of main_arg1 : TRef sig ⟨S2048x2048, .f32⟩) main_call9.v0 main_call9.v1 (cmpf .une),
    TRef.unary main_call9.v1 main_call9.v2 (extui 32 · natLt_1_32),
    TRef.nullary main_call9.c (constantI S_ 32 0#32),
    TRef.binary main_call9.v2 main_call9.c main_call9.v3 (fun x v => Host.reduce IntOp.addi x v reducesTo_S2048x2048_S_d0_1 h_S_),
    unary main_v26 main_v27 (broadcastInDim S4194304 ![] bcast_S_S4194304 : (⟨S_, .i32⟩ : BufTy).Contents (Elt F) → (⟨S4194304, .i32⟩ : BufTy).Contents (Elt F)),
    binary main_v25 main_v27 main_v28 (cmpi .slt : (⟨S4194304, .i32⟩ : BufTy).Contents (Elt F) → (⟨S4194304, .i32⟩ : BufTy).Contents (Elt F) → (⟨S4194304, .i1⟩ : BufTy).Contents (Elt F)),
    unary main_v28 main_v29 (uitofp .f32 : (⟨S4194304, .i1⟩ : BufTy).Contents (Elt F) → (⟨S4194304, .f32⟩ : BufTy).Contents (Elt F)),
    nullary main_c_11 (constantI S_ 32 0#32),
    unary main_c_11 main_v30 (broadcastInDim S4194304 ![] bcast_S_S4194304 : (⟨S_, .i32⟩ : BufTy).Contents (Elt F) → (⟨S4194304, .i32⟩ : BufTy).Contents (Elt F)),
    binary main_v23 main_v30 main_v31 (cmpi .slt : (⟨S4194304, .i32⟩ : BufTy).Contents (Elt F) → (⟨S4194304, .i32⟩ : BufTy).Contents (Elt F) → (⟨S4194304, .i1⟩ : BufTy).Contents (Elt F)),
    nullary main_c_12 (constantI S_ 32 2048#32),
    unary main_c_12 main_v32 (broadcastInDim S4194304 ![] bcast_S_S4194304 : (⟨S_, .i32⟩ : BufTy).Contents (Elt F) → (⟨S4194304, .i32⟩ : BufTy).Contents (Elt F)),
    binary main_v23 main_v32 main_v33 (addi : (⟨S4194304, .i32⟩ : BufTy).Contents (Elt F) → (⟨S4194304, .i32⟩ : BufTy).Contents (Elt F) → (⟨S4194304, .i32⟩ : BufTy).Contents (Elt F)),
    ternary main_v31 main_v33 main_v23 main_v34 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_13 (constantI S_ 32 0#32),
    unary main_c_13 main_v35 (broadcastInDim S4194304 ![] bcast_S_S4194304 : (⟨S_, .i32⟩ : BufTy).Contents (Elt F) → (⟨S4194304, .i32⟩ : BufTy).Contents (Elt F)),
    binary main_v24 main_v35 main_v36 (cmpi .slt : (⟨S4194304, .i32⟩ : BufTy).Contents (Elt F) → (⟨S4194304, .i32⟩ : BufTy).Contents (Elt F) → (⟨S4194304, .i1⟩ : BufTy).Contents (Elt F)),
    nullary main_c_14 (constantI S_ 32 2048#32),
    unary main_c_14 main_v37 (broadcastInDim S4194304 ![] bcast_S_S4194304 : (⟨S_, .i32⟩ : BufTy).Contents (Elt F) → (⟨S4194304, .i32⟩ : BufTy).Contents (Elt F)),
    binary main_v24 main_v37 main_v38 (addi : (⟨S4194304, .i32⟩ : BufTy).Contents (Elt F) → (⟨S4194304, .i32⟩ : BufTy).Contents (Elt F) → (⟨S4194304, .i32⟩ : BufTy).Contents (Elt F)),
    ternary main_v36 main_v38 main_v24 main_v39 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v34 main_v40 (broadcastInDim S4194304x1 ![0] bcast_S4194304_S4194304x1_0 : (⟨S4194304, .i32⟩ : BufTy).Contents (Elt F) → (⟨S4194304x1, .i32⟩ : BufTy).Contents (Elt F)),
    unary main_v39 main_v41 (broadcastInDim S4194304x1 ![0] bcast_S4194304_S4194304x1_0 : (⟨S4194304, .i32⟩ : BufTy).Contents (Elt F) → (⟨S4194304x1, .i32⟩ : BufTy).Contents (Elt F)),
    binary main_v40 main_v41 main_v42 ((fun a b => concatenate S4194304x2 1 [⟨S4194304x1, a⟩, ⟨S4194304x1, b⟩] concatenates_S4194304x1_S4194304x1_S4194304x2_d1) : (⟨S4194304x1, .i32⟩ : BufTy).Contents (Elt F) → (⟨S4194304x1, .i32⟩ : BufTy).Contents (Elt F) → (⟨S4194304x2, .i32⟩ : BufTy).Contents (Elt F)) ]

/-- @main's operations 148 … 211 of 404: window 1 of the printed program, its calls inlined. -/
abbrev ops1 : List (HloOp τ sig (Elt F)) :=
  [ binary main_arg1 main_v42 main_v43 ((fun x i => Host.gather gather_S2048x2048_S4194304x2_S4194304_n_01_n_n_01_1_11 x i) : (⟨S2048x2048, .f32⟩ : BufTy).Contents (Elt F) → (⟨S4194304x2, .i32⟩ : BufTy).Contents (Elt F) → (⟨S4194304, .f32⟩ : BufTy).Contents (Elt F)),
    binary main_v43 main_v29 main_v44 (mulf : (⟨S4194304, .f32⟩ : BufTy).Contents (Elt F) → (⟨S4194304, .f32⟩ : BufTy).Contents (Elt F) → (⟨S4194304, .f32⟩ : BufTy).Contents (Elt F)),
    nullary main_v45 (iotaInDim S2048 32 0),
    binary main_v23 main_v45 main_v46 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    binary main_v24 main_v45 main_v47 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    nullary main_cst_15 (constant S_ .f32 0x3F800000#32),
    unary main_cst_15 main_v48 (broadcastInDim S2048 ![] bcast_S_S2048 : (⟨S_, .f32⟩ : BufTy).Contents (Elt F) → (⟨S2048, .f32⟩ : BufTy).Contents (Elt F)),
    binary main_v44 main_v48 main_v49 ((fun a b => concatenate S4196352 0 [⟨S4194304, a⟩, ⟨S2048, b⟩] concatenates_S4194304_S2048_S4196352_d0) : (⟨S4194304, .f32⟩ : BufTy).Contents (Elt F) → (⟨S2048, .f32⟩ : BufTy).Contents (Elt F) → (⟨S4196352, .f32⟩ : BufTy).Contents (Elt F)),
    nullary main_cst_16 (constant S_ .f32 0x00000000#32),
    unary main_cst_16 main_v50 (broadcastInDim S2048 ![] bcast_S_S2048 : (⟨S_, .f32⟩ : BufTy).Contents (Elt F) → (⟨S2048, .f32⟩ : BufTy).Contents (Elt F)),
    nullary main_c_17 (constantI S_ 32 0#32),
    unary main_c_17 main_v51 (broadcastInDim S4196352 ![] bcast_S_S4196352 : (⟨S_, .i32⟩ : BufTy).Contents (Elt F) → (⟨S4196352, .i32⟩ : BufTy).Contents (Elt F)),
    binary main_v47 main_v51 main_v52 (cmpi .slt : (⟨S4196352, .i32⟩ : BufTy).Contents (Elt F) → (⟨S4196352, .i32⟩ : BufTy).Contents (Elt F) → (⟨S4196352, .i1⟩ : BufTy).Contents (Elt F)),
    nullary main_c_18 (constantI S_ 32 2048#32),
    unary main_c_18 main_v53 (broadcastInDim S4196352 ![] bcast_S_S4196352 : (⟨S_, .i32⟩ : BufTy).Contents (Elt F) → (⟨S4196352, .i32⟩ : BufTy).Contents (Elt F)),
    binary main_v47 main_v53 main_v54 (addi : (⟨S4196352, .i32⟩ : BufTy).Contents (Elt F) → (⟨S4196352, .i32⟩ : BufTy).Contents (Elt F) → (⟨S4196352, .i32⟩ : BufTy).Contents (Elt F)),
    ternary main_v52 main_v54 main_v47 main_v55 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v55 main_v56 (broadcastInDim S4196352x1 ![0] bcast_S4196352_S4196352x1_0 : (⟨S4196352, .i32⟩ : BufTy).Contents (Elt F) → (⟨S4196352x1, .i32⟩ : BufTy).Contents (Elt F)),
    ternary main_v50 main_v56 main_v49 main_v57 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)),
    nullary main_cst_19 (constant S_ .f32 0x00000000#32),
    unary main_cst_19 main_v58 (broadcastInDim S2048 ![] bcast_S_S2048 : (⟨S_, .f32⟩ : BufTy).Contents (Elt F) → (⟨S2048, .f32⟩ : BufTy).Contents (Elt F)),
    binary main_v57 main_v58 main_v59 (cmpf .ogt : (⟨S2048, .f32⟩ : BufTy).Contents (Elt F) → (⟨S2048, .f32⟩ : BufTy).Contents (Elt F) → (⟨S2048, .i1⟩ : BufTy).Contents (Elt F)),
    nullary main_cst_20 (constant S_ .f32 0x3F800000#32),
    TRef.unary (.of main_cst_20 : TRef sig ⟨S_, .f32⟩) main_call10.v0 id,
    TRef.unary main_call10.v0 main_call10.v1 (broadcastInDim S2048 ![] bcast_S_S2048),
    TRef.ternary (.of main_v59 : TRef sig ⟨S2048, .i1⟩) (.of main_v57 : TRef sig ⟨S2048, .f32⟩) main_call10.v1 main_call10.v2 select,
    nullary main_cst_21 (constant S_ .f32 0x00000000#32),
    unary main_cst_21 main_v61 (broadcastInDim S2048 ![] bcast_S_S2048 : (⟨S_, .f32⟩ : BufTy).Contents (Elt F) → (⟨S2048, .f32⟩ : BufTy).Contents (Elt F)),
    binary main_v57 main_v61 main_v62 (cmpf .ogt : (⟨S2048, .f32⟩ : BufTy).Contents (Elt F) → (⟨S2048, .f32⟩ : BufTy).Contents (Elt F) → (⟨S2048, .i1⟩ : BufTy).Contents (Elt F)),
    unary main_v60 main_v63 (Host.sqrt : (⟨S2048, .f32⟩ : BufTy).Contents (Elt F) → (⟨S2048, .f32⟩ : BufTy).Contents (Elt F)),
    nullary main_cst_22 (constant S_ .f32 0x3F800000#32),
    unary main_cst_22 main_v64 (broadcastInDim S2048 ![] bcast_S_S2048 : (⟨S_, .f32⟩ : BufTy).Contents (Elt F) → (⟨S2048, .f32⟩ : BufTy).Contents (Elt F)),
    binary main_v64 main_v63 main_v65 (Host.divf : (⟨S2048, .f32⟩ : BufTy).Contents (Elt F) → (⟨S2048, .f32⟩ : BufTy).Contents (Elt F) → (⟨S2048, .f32⟩ : BufTy).Contents (Elt F)),
    nullary main_cst_23 (constant S_ .f32 0x00000000#32),
    TRef.unary (.of main_cst_23 : TRef sig ⟨S_, .f32⟩) main_call11.v0 id,
    TRef.unary main_call11.v0 main_call11.v1 (broadcastInDim S2048 ![] bcast_S_S2048),
    TRef.ternary (.of main_v62 : TRef sig ⟨S2048, .i1⟩) (.of main_v65 : TRef sig ⟨S2048, .f32⟩) main_call11.v1 main_call11.v2 select,
    nullary main_c_24 (constantI S_ 32 0#32),
    unary main_c_24 main_v67 (broadcastInDim S4196352 ![] bcast_S_S4196352 : (⟨S_, .i32⟩ : BufTy).Contents (Elt F) → (⟨S4196352, .i32⟩ : BufTy).Contents (Elt F)),
    binary main_v46 main_v67 main_v68 (cmpi .slt : (⟨S4196352, .i32⟩ : BufTy).Contents (Elt F) → (⟨S4196352, .i32⟩ : BufTy).Contents (Elt F) → (⟨S4196352, .i1⟩ : BufTy).Contents (Elt F)),
    nullary main_c_25 (constantI S_ 32 2048#32),
    unary main_c_25 main_v69 (broadcastInDim S4196352 ![] bcast_S_S4196352 : (⟨S_, .i32⟩ : BufTy).Contents (Elt F) → (⟨S4196352, .i32⟩ : BufTy).Contents (Elt F)),
    binary main_v46 main_v69 main_v70 (addi : (⟨S4196352, .i32⟩ : BufTy).Contents (Elt F) → (⟨S4196352, .i32⟩ : BufTy).Contents (Elt F) → (⟨S4196352, .i32⟩ : BufTy).Contents (Elt F)),
    ternary main_v68 main_v70 main_v46 main_v71 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v71 main_v72 (broadcastInDim S4196352x1 ![0] bcast_S4196352_S4196352x1_0 : (⟨S4196352, .i32⟩ : BufTy).Contents (Elt F) → (⟨S4196352x1, .i32⟩ : BufTy).Contents (Elt F)),
    binary main_v66 main_v72 main_v73 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    binary main_v73 main_v49 main_v74 (mulf : (⟨S4196352, .f32⟩ : BufTy).Contents (Elt F) → (⟨S4196352, .f32⟩ : BufTy).Contents (Elt F) → (⟨S4196352, .f32⟩ : BufTy).Contents (Elt F)),
    nullary main_c_26 (constantI S_ 32 0#32),
    unary main_c_26 main_v75 (broadcastInDim S4196352 ![] bcast_S_S4196352 : (⟨S_, .i32⟩ : BufTy).Contents (Elt F) → (⟨S4196352, .i32⟩ : BufTy).Contents (Elt F)),
    binary main_v47 main_v75 main_v76 (cmpi .slt : (⟨S4196352, .i32⟩ : BufTy).Contents (Elt F) → (⟨S4196352, .i32⟩ : BufTy).Contents (Elt F) → (⟨S4196352, .i1⟩ : BufTy).Contents (Elt F)),
    nullary main_c_27 (constantI S_ 32 2048#32),
    unary main_c_27 main_v77 (broadcastInDim S4196352 ![] bcast_S_S4196352 : (⟨S_, .i32⟩ : BufTy).Contents (Elt F) → (⟨S4196352, .i32⟩ : BufTy).Contents (Elt F)),
    binary main_v47 main_v77 main_v78 (addi : (⟨S4196352, .i32⟩ : BufTy).Contents (Elt F) → (⟨S4196352, .i32⟩ : BufTy).Contents (Elt F) → (⟨S4196352, .i32⟩ : BufTy).Contents (Elt F)),
    ternary main_v76 main_v78 main_v47 main_v79 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v79 main_v80 (broadcastInDim S4196352x1 ![0] bcast_S4196352_S4196352x1_0 : (⟨S4196352, .i32⟩ : BufTy).Contents (Elt F) → (⟨S4196352x1, .i32⟩ : BufTy).Contents (Elt F)),
    binary main_v66 main_v80 main_v81 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    binary main_v74 main_v81 main_v82 (mulf : (⟨S4196352, .f32⟩ : BufTy).Contents (Elt F) → (⟨S4196352, .f32⟩ : BufTy).Contents (Elt F) → (⟨S4196352, .f32⟩ : BufTy).Contents (Elt F)),
    binary main_arg0 main_arg2 main_v83 ((fun l r => Host.dotGeneral dot_S2048x64_S64x32_S2048x32_1_0_0_1_n_n none l r) : (⟨S2048x64, .f32⟩ : BufTy).Contents (Elt F) → (⟨S64x32, .f32⟩ : BufTy).Contents (Elt F) → (⟨S2048x32, .f32⟩ : BufTy).Contents (Elt F)),
    unary main_v82 main_v84 (broadcastInDim S4196352x1 ![0] bcast_S4196352_S4196352x1_0 : (⟨S4196352, .f32⟩ : BufTy).Contents (Elt F) → (⟨S4196352x1, .f32⟩ : BufTy).Contents (Elt F)),
    nullary main_c_28 (constantI S_ 32 0#32),
    unary main_c_28 main_v85 (broadcastInDim S4196352 ![] bcast_S_S4196352 : (⟨S_, .i32⟩ : BufTy).Contents (Elt F) → (⟨S4196352, .i32⟩ : BufTy).Contents (Elt F)),
    binary main_v46 main_v85 main_v86 (cmpi .slt : (⟨S4196352, .i32⟩ : BufTy).Contents (Elt F) → (⟨S4196352, .i32⟩ : BufTy).Contents (Elt F) → (⟨S4196352, .i1⟩ : BufTy).Contents (Elt F)),
    nullary main_c_29 (constantI S_ 32 2048#32),
    unary main_c_29 main_v87 (broadcastInDim S4196352 ![] bcast_S_S4196352 : (⟨S_, .i32⟩ : BufTy).Contents (Elt F) → (⟨S4196352, .i32⟩ : BufTy).Contents (Elt F)) ]

/-- @main's operations 212 … 294 of 404: window 2 of the printed program, its calls inlined. -/
abbrev ops2 : List (HloOp τ sig (Elt F)) :=
  [ binary main_v46 main_v87 main_v88 (addi : (⟨S4196352, .i32⟩ : BufTy).Contents (Elt F) → (⟨S4196352, .i32⟩ : BufTy).Contents (Elt F) → (⟨S4196352, .i32⟩ : BufTy).Contents (Elt F)),
    ternary main_v86 main_v88 main_v46 main_v89 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v89 main_v90 (broadcastInDim S4196352x1 ![0] bcast_S4196352_S4196352x1_0 : (⟨S4196352, .i32⟩ : BufTy).Contents (Elt F) → (⟨S4196352x1, .i32⟩ : BufTy).Contents (Elt F)),
    binary main_v83 main_v90 main_v91 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)),
    unary main_v84 main_v92 (broadcastInDim S4196352x32 ![0, 1] bcast_S4196352x1_S4196352x32_0_1 : (⟨S4196352x1, .f32⟩ : BufTy).Contents (Elt F) → (⟨S4196352x32, .f32⟩ : BufTy).Contents (Elt F)),
    binary main_v92 main_v91 main_v93 (mulf : (⟨S4196352x32, .f32⟩ : BufTy).Contents (Elt F) → (⟨S4196352x32, .f32⟩ : BufTy).Contents (Elt F) → (⟨S4196352x32, .f32⟩ : BufTy).Contents (Elt F)),
    nullary main_cst_30 (constant S_ .f32 0x00000000#32),
    unary main_cst_30 main_v94 (broadcastInDim S2048x32 ![] bcast_S_S2048x32 : (⟨S_, .f32⟩ : BufTy).Contents (Elt F) → (⟨S2048x32, .f32⟩ : BufTy).Contents (Elt F)),
    nullary main_c_31 (constantI S_ 32 0#32),
    unary main_c_31 main_v95 (broadcastInDim S4196352 ![] bcast_S_S4196352 : (⟨S_, .i32⟩ : BufTy).Contents (Elt F) → (⟨S4196352, .i32⟩ : BufTy).Contents (Elt F)),
    binary main_v47 main_v95 main_v96 (cmpi .slt : (⟨S4196352, .i32⟩ : BufTy).Contents (Elt F) → (⟨S4196352, .i32⟩ : BufTy).Contents (Elt F) → (⟨S4196352, .i1⟩ : BufTy).Contents (Elt F)),
    nullary main_c_32 (constantI S_ 32 2048#32),
    unary main_c_32 main_v97 (broadcastInDim S4196352 ![] bcast_S_S4196352 : (⟨S_, .i32⟩ : BufTy).Contents (Elt F) → (⟨S4196352, .i32⟩ : BufTy).Contents (Elt F)),
    binary main_v47 main_v97 main_v98 (addi : (⟨S4196352, .i32⟩ : BufTy).Contents (Elt F) → (⟨S4196352, .i32⟩ : BufTy).Contents (Elt F) → (⟨S4196352, .i32⟩ : BufTy).Contents (Elt F)),
    ternary main_v96 main_v98 main_v47 main_v99 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v99 main_v100 (broadcastInDim S4196352x1 ![0] bcast_S4196352_S4196352x1_0 : (⟨S4196352, .i32⟩ : BufTy).Contents (Elt F) → (⟨S4196352x1, .i32⟩ : BufTy).Contents (Elt F)),
    ternary main_v94 main_v100 main_v93 main_v101 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)),
    unary main_arg3 main_v102 (broadcastInDim S1x32 ![1] bcast_S32_S1x32_1 : (⟨S32, .f32⟩ : BufTy).Contents (Elt F) → (⟨S1x32, .f32⟩ : BufTy).Contents (Elt F)),
    unary main_v102 main_v103 (broadcastInDim S2048x32 ![0, 1] bcast_S1x32_S2048x32_0_1 : (⟨S1x32, .f32⟩ : BufTy).Contents (Elt F) → (⟨S2048x32, .f32⟩ : BufTy).Contents (Elt F)),
    binary main_v101 main_v103 main_v104 (addf : (⟨S2048x32, .f32⟩ : BufTy).Contents (Elt F) → (⟨S2048x32, .f32⟩ : BufTy).Contents (Elt F) → (⟨S2048x32, .f32⟩ : BufTy).Contents (Elt F)),
    nullary main_cst_33 (constant S_ .f32 0x00000000#32),
    binary main_v104 main_cst_33 main_v105 ((fun x v => Host.reduceAdd x v reducesTo_S2048x32_S32_d0 h_S_) : (⟨S2048x32, .f32⟩ : BufTy).Contents (Elt F) → (⟨S_, .f32⟩ : BufTy).Contents (Elt F) → (⟨S32, .f32⟩ : BufTy).Contents (Elt F)),
    nullary main_cst_34 (constant S_ .f32 0x45000000#32),
    unary main_cst_34 main_v106 (broadcastInDim S32 ![] bcast_S_S32 : (⟨S_, .f32⟩ : BufTy).Contents (Elt F) → (⟨S32, .f32⟩ : BufTy).Contents (Elt F)),
    binary main_v105 main_v106 main_v107 (Host.divf : (⟨S32, .f32⟩ : BufTy).Contents (Elt F) → (⟨S32, .f32⟩ : BufTy).Contents (Elt F) → (⟨S32, .f32⟩ : BufTy).Contents (Elt F)),
    nullary main_c_35 (constantI S_ 32 0#32),
    TRef.nullary main_call12.cst (constant S_ .f32 0x00000000#32),
    TRef.binary (.of main_v104 : TRef sig ⟨S2048x32, .f32⟩) main_call12.cst main_call12.v0 (fun x v => Host.reduceAdd x v reducesTo_S2048x32_S32_d0 h_S_),
    TRef.unary main_call12.v0 main_call12.v1 (broadcastInDim S1x32 ![1] bcast_S32_S1x32_1),
    TRef.nullary main_call12.cst_0 (constant S_ .f32 0x45000000#32),
    TRef.unary main_call12.cst_0 main_call12.v2 (broadcastInDim S1x32 ![] bcast_S_S1x32),
    TRef.binary main_call12.v1 main_call12.v2 main_call12.v3 Host.divf,
    TRef.unary main_call12.v3 main_call12.v4 (broadcastInDim S2048x32 ![0, 1] bcast_S1x32_S2048x32_0_1),
    TRef.binary (.of main_v104 : TRef sig ⟨S2048x32, .f32⟩) main_call12.v4 main_call12.v5 subf,
    TRef.binary main_call12.v5 main_call12.v5 main_call12.v6 mulf,
    TRef.unary (.of main_c_35 : TRef sig ⟨S_, .i32⟩) main_call12.v7 (sitofp .f32),
    TRef.nullary main_call12.cst_1 (constant S_ .f32 0x45000000#32),
    TRef.binary main_call12.cst_1 main_call12.v7 main_call12.v8 subf,
    TRef.nullary main_call12.cst_2 (constant S_ .f32 0x00000000#32),
    TRef.binary main_call12.v6 main_call12.cst_2 main_call12.v9 (fun x v => Host.reduceAdd x v reducesTo_S2048x32_S32_d0 h_S_),
    TRef.unary main_call12.v8 main_call12.v10 (broadcastInDim S32 ![] bcast_S_S32),
    TRef.binary main_call12.v9 main_call12.v10 main_call12.v11 Host.divf,
    TRef.nullary main_call12.cst_3 (constant S_ .f32 0x00000000#32),
    TRef.binary main_call12.v8 main_call12.cst_3 main_call12.v12 (cmpf .ogt),
    TRef.nullary main_call12.cst_4 (constant S_ .f32 0x7FC00000#32),
    TRef.unary main_call12.cst_4 main_call12.call0.v0 id,
    TRef.unary main_call12.call0.v0 main_call12.call0.v1 (broadcastInDim S32 ![] bcast_S_S32),
    TRef.ternary main_call12.v12 main_call12.v11 main_call12.call0.v1 main_call12.call0.v2 (fun p a b => select (broadcastInDim S32 ![] bcast_S_S32 p) a b),
    unary main_v107 main_v109 (broadcastInDim S1x32 ![1] bcast_S32_S1x32_1 : (⟨S32, .f32⟩ : BufTy).Contents (Elt F) → (⟨S1x32, .f32⟩ : BufTy).Contents (Elt F)),
    unary main_v109 main_v110 (broadcastInDim S2048x32 ![0, 1] bcast_S1x32_S2048x32_0_1 : (⟨S1x32, .f32⟩ : BufTy).Contents (Elt F) → (⟨S2048x32, .f32⟩ : BufTy).Contents (Elt F)),
    binary main_v104 main_v110 main_v111 (subf : (⟨S2048x32, .f32⟩ : BufTy).Contents (Elt F) → (⟨S2048x32, .f32⟩ : BufTy).Contents (Elt F) → (⟨S2048x32, .f32⟩ : BufTy).Contents (Elt F)),
    nullary main_cst_36 (constant S_ .f32 0x3727C5AC#32),
    unary main_cst_36 main_v112 (broadcastInDim S32 ![] bcast_S_S32 : (⟨S_, .f32⟩ : BufTy).Contents (Elt F) → (⟨S32, .f32⟩ : BufTy).Contents (Elt F)),
    binary main_v108 main_v112 main_v113 (addf : (⟨S32, .f32⟩ : BufTy).Contents (Elt F) → (⟨S32, .f32⟩ : BufTy).Contents (Elt F) → (⟨S32, .f32⟩ : BufTy).Contents (Elt F)),
    unary main_v113 main_v114 (Host.sqrt : (⟨S32, .f32⟩ : BufTy).Contents (Elt F) → (⟨S32, .f32⟩ : BufTy).Contents (Elt F)),
    unary main_v114 main_v115 (broadcastInDim S1x32 ![1] bcast_S32_S1x32_1 : (⟨S32, .f32⟩ : BufTy).Contents (Elt F) → (⟨S1x32, .f32⟩ : BufTy).Contents (Elt F)),
    unary main_v115 main_v116 (broadcastInDim S2048x32 ![0, 1] bcast_S1x32_S2048x32_0_1 : (⟨S1x32, .f32⟩ : BufTy).Contents (Elt F) → (⟨S2048x32, .f32⟩ : BufTy).Contents (Elt F)),
    binary main_v111 main_v116 main_v117 (Host.divf : (⟨S2048x32, .f32⟩ : BufTy).Contents (Elt F) → (⟨S2048x32, .f32⟩ : BufTy).Contents (Elt F) → (⟨S2048x32, .f32⟩ : BufTy).Contents (Elt F)),
    unary main_arg4 main_v118 (broadcastInDim S1x32 ![1] bcast_S32_S1x32_1 : (⟨S32, .f32⟩ : BufTy).Contents (Elt F) → (⟨S1x32, .f32⟩ : BufTy).Contents (Elt F)),
    unary main_v118 main_v119 (broadcastInDim S2048x32 ![0, 1] bcast_S1x32_S2048x32_0_1 : (⟨S1x32, .f32⟩ : BufTy).Contents (Elt F) → (⟨S2048x32, .f32⟩ : BufTy).Contents (Elt F)),
    binary main_v117 main_v119 main_v120 (mulf : (⟨S2048x32, .f32⟩ : BufTy).Contents (Elt F) → (⟨S2048x32, .f32⟩ : BufTy).Contents (Elt F) → (⟨S2048x32, .f32⟩ : BufTy).Contents (Elt F)),
    unary main_arg5 main_v121 (broadcastInDim S1x32 ![1] bcast_S32_S1x32_1 : (⟨S32, .f32⟩ : BufTy).Contents (Elt F) → (⟨S1x32, .f32⟩ : BufTy).Contents (Elt F)),
    unary main_v121 main_v122 (broadcastInDim S2048x32 ![0, 1] bcast_S1x32_S2048x32_0_1 : (⟨S1x32, .f32⟩ : BufTy).Contents (Elt F) → (⟨S2048x32, .f32⟩ : BufTy).Contents (Elt F)),
    binary main_v120 main_v122 main_v123 (addf : (⟨S2048x32, .f32⟩ : BufTy).Contents (Elt F) → (⟨S2048x32, .f32⟩ : BufTy).Contents (Elt F) → (⟨S2048x32, .f32⟩ : BufTy).Contents (Elt F)),
    TRef.nullary main_call13.cst (constant S_ .f32 0x00000000#32),
    TRef.unary main_call13.cst main_call13.v0 (broadcastInDim S2048x32 ![] bcast_S_S2048x32),
    TRef.binary (.of main_v123 : TRef sig ⟨S2048x32, .f32⟩) main_call13.v0 main_call13.v1 maximumf,
    nullary main_v125 (iotaInDim S2048 32 0),
    binary main_v23 main_v125 main_v126 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    binary main_v24 main_v125 main_v127 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    nullary main_cst_37 (constant S_ .f32 0x3F800000#32),
    unary main_cst_37 main_v128 (broadcastInDim S2048 ![] bcast_S_S2048 : (⟨S_, .f32⟩ : BufTy).Contents (Elt F) → (⟨S2048, .f32⟩ : BufTy).Contents (Elt F)),
    binary main_v44 main_v128 main_v129 ((fun a b => concatenate S4196352 0 [⟨S4194304, a⟩, ⟨S2048, b⟩] concatenates_S4194304_S2048_S4196352_d0) : (⟨S4194304, .f32⟩ : BufTy).Contents (Elt F) → (⟨S2048, .f32⟩ : BufTy).Contents (Elt F) → (⟨S4196352, .f32⟩ : BufTy).Contents (Elt F)),
    nullary main_cst_38 (constant S_ .f32 0x00000000#32),
    unary main_cst_38 main_v130 (broadcastInDim S2048 ![] bcast_S_S2048 : (⟨S_, .f32⟩ : BufTy).Contents (Elt F) → (⟨S2048, .f32⟩ : BufTy).Contents (Elt F)),
    nullary main_c_39 (constantI S_ 32 0#32),
    unary main_c_39 main_v131 (broadcastInDim S4196352 ![] bcast_S_S4196352 : (⟨S_, .i32⟩ : BufTy).Contents (Elt F) → (⟨S4196352, .i32⟩ : BufTy).Contents (Elt F)),
    binary main_v127 main_v131 main_v132 (cmpi .slt : (⟨S4196352, .i32⟩ : BufTy).Contents (Elt F) → (⟨S4196352, .i32⟩ : BufTy).Contents (Elt F) → (⟨S4196352, .i1⟩ : BufTy).Contents (Elt F)),
    nullary main_c_40 (constantI S_ 32 2048#32),
    unary main_c_40 main_v133 (broadcastInDim S4196352 ![] bcast_S_S4196352 : (⟨S_, .i32⟩ : BufTy).Contents (Elt F) → (⟨S4196352, .i32⟩ : BufTy).Contents (Elt F)),
    binary main_v127 main_v133 main_v134 (addi : (⟨S4196352, .i32⟩ : BufTy).Contents (Elt F) → (⟨S4196352, .i32⟩ : BufTy).Contents (Elt F) → (⟨S4196352, .i32⟩ : BufTy).Contents (Elt F)),
    ternary main_v132 main_v134 main_v127 main_v135 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v135 main_v136 (broadcastInDim S4196352x1 ![0] bcast_S4196352_S4196352x1_0 : (⟨S4196352, .i32⟩ : BufTy).Contents (Elt F) → (⟨S4196352x1, .i32⟩ : BufTy).Contents (Elt F)) ]

/-- @main's operations 295 … 358 of 404: window 3 of the printed program, its calls inlined. -/
abbrev ops3 : List (HloOp τ sig (Elt F)) :=
  [ ternary main_v130 main_v136 main_v129 main_v137 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)),
    nullary main_cst_41 (constant S_ .f32 0x00000000#32),
    unary main_cst_41 main_v138 (broadcastInDim S2048 ![] bcast_S_S2048 : (⟨S_, .f32⟩ : BufTy).Contents (Elt F) → (⟨S2048, .f32⟩ : BufTy).Contents (Elt F)),
    binary main_v137 main_v138 main_v139 (cmpf .ogt : (⟨S2048, .f32⟩ : BufTy).Contents (Elt F) → (⟨S2048, .f32⟩ : BufTy).Contents (Elt F) → (⟨S2048, .i1⟩ : BufTy).Contents (Elt F)),
    nullary main_cst_42 (constant S_ .f32 0x3F800000#32),
    TRef.unary (.of main_cst_42 : TRef sig ⟨S_, .f32⟩) main_call14.v0 id,
    TRef.unary main_call14.v0 main_call14.v1 (broadcastInDim S2048 ![] bcast_S_S2048),
    TRef.ternary (.of main_v139 : TRef sig ⟨S2048, .i1⟩) (.of main_v137 : TRef sig ⟨S2048, .f32⟩) main_call14.v1 main_call14.v2 select,
    nullary main_cst_43 (constant S_ .f32 0x00000000#32),
    unary main_cst_43 main_v141 (broadcastInDim S2048 ![] bcast_S_S2048 : (⟨S_, .f32⟩ : BufTy).Contents (Elt F) → (⟨S2048, .f32⟩ : BufTy).Contents (Elt F)),
    binary main_v137 main_v141 main_v142 (cmpf .ogt : (⟨S2048, .f32⟩ : BufTy).Contents (Elt F) → (⟨S2048, .f32⟩ : BufTy).Contents (Elt F) → (⟨S2048, .i1⟩ : BufTy).Contents (Elt F)),
    unary main_v140 main_v143 (Host.sqrt : (⟨S2048, .f32⟩ : BufTy).Contents (Elt F) → (⟨S2048, .f32⟩ : BufTy).Contents (Elt F)),
    nullary main_cst_44 (constant S_ .f32 0x3F800000#32),
    unary main_cst_44 main_v144 (broadcastInDim S2048 ![] bcast_S_S2048 : (⟨S_, .f32⟩ : BufTy).Contents (Elt F) → (⟨S2048, .f32⟩ : BufTy).Contents (Elt F)),
    binary main_v144 main_v143 main_v145 (Host.divf : (⟨S2048, .f32⟩ : BufTy).Contents (Elt F) → (⟨S2048, .f32⟩ : BufTy).Contents (Elt F) → (⟨S2048, .f32⟩ : BufTy).Contents (Elt F)),
    nullary main_cst_45 (constant S_ .f32 0x00000000#32),
    TRef.unary (.of main_cst_45 : TRef sig ⟨S_, .f32⟩) main_call15.v0 id,
    TRef.unary main_call15.v0 main_call15.v1 (broadcastInDim S2048 ![] bcast_S_S2048),
    TRef.ternary (.of main_v142 : TRef sig ⟨S2048, .i1⟩) (.of main_v145 : TRef sig ⟨S2048, .f32⟩) main_call15.v1 main_call15.v2 select,
    nullary main_c_46 (constantI S_ 32 0#32),
    unary main_c_46 main_v147 (broadcastInDim S4196352 ![] bcast_S_S4196352 : (⟨S_, .i32⟩ : BufTy).Contents (Elt F) → (⟨S4196352, .i32⟩ : BufTy).Contents (Elt F)),
    binary main_v126 main_v147 main_v148 (cmpi .slt : (⟨S4196352, .i32⟩ : BufTy).Contents (Elt F) → (⟨S4196352, .i32⟩ : BufTy).Contents (Elt F) → (⟨S4196352, .i1⟩ : BufTy).Contents (Elt F)),
    nullary main_c_47 (constantI S_ 32 2048#32),
    unary main_c_47 main_v149 (broadcastInDim S4196352 ![] bcast_S_S4196352 : (⟨S_, .i32⟩ : BufTy).Contents (Elt F) → (⟨S4196352, .i32⟩ : BufTy).Contents (Elt F)),
    binary main_v126 main_v149 main_v150 (addi : (⟨S4196352, .i32⟩ : BufTy).Contents (Elt F) → (⟨S4196352, .i32⟩ : BufTy).Contents (Elt F) → (⟨S4196352, .i32⟩ : BufTy).Contents (Elt F)),
    ternary main_v148 main_v150 main_v126 main_v151 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v151 main_v152 (broadcastInDim S4196352x1 ![0] bcast_S4196352_S4196352x1_0 : (⟨S4196352, .i32⟩ : BufTy).Contents (Elt F) → (⟨S4196352x1, .i32⟩ : BufTy).Contents (Elt F)),
    binary main_v146 main_v152 main_v153 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    binary main_v153 main_v129 main_v154 (mulf : (⟨S4196352, .f32⟩ : BufTy).Contents (Elt F) → (⟨S4196352, .f32⟩ : BufTy).Contents (Elt F) → (⟨S4196352, .f32⟩ : BufTy).Contents (Elt F)),
    nullary main_c_48 (constantI S_ 32 0#32),
    unary main_c_48 main_v155 (broadcastInDim S4196352 ![] bcast_S_S4196352 : (⟨S_, .i32⟩ : BufTy).Contents (Elt F) → (⟨S4196352, .i32⟩ : BufTy).Contents (Elt F)),
    binary main_v127 main_v155 main_v156 (cmpi .slt : (⟨S4196352, .i32⟩ : BufTy).Contents (Elt F) → (⟨S4196352, .i32⟩ : BufTy).Contents (Elt F) → (⟨S4196352, .i1⟩ : BufTy).Contents (Elt F)),
    nullary main_c_49 (constantI S_ 32 2048#32),
    unary main_c_49 main_v157 (broadcastInDim S4196352 ![] bcast_S_S4196352 : (⟨S_, .i32⟩ : BufTy).Contents (Elt F) → (⟨S4196352, .i32⟩ : BufTy).Contents (Elt F)),
    binary main_v127 main_v157 main_v158 (addi : (⟨S4196352, .i32⟩ : BufTy).Contents (Elt F) → (⟨S4196352, .i32⟩ : BufTy).Contents (Elt F) → (⟨S4196352, .i32⟩ : BufTy).Contents (Elt F)),
    ternary main_v156 main_v158 main_v127 main_v159 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v159 main_v160 (broadcastInDim S4196352x1 ![0] bcast_S4196352_S4196352x1_0 : (⟨S4196352, .i32⟩ : BufTy).Contents (Elt F) → (⟨S4196352x1, .i32⟩ : BufTy).Contents (Elt F)),
    binary main_v146 main_v160 main_v161 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    binary main_v154 main_v161 main_v162 (mulf : (⟨S4196352, .f32⟩ : BufTy).Contents (Elt F) → (⟨S4196352, .f32⟩ : BufTy).Contents (Elt F) → (⟨S4196352, .f32⟩ : BufTy).Contents (Elt F)),
    binary main_v124 main_arg6 main_v163 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    unary main_v162 main_v164 (broadcastInDim S4196352x1 ![0] bcast_S4196352_S4196352x1_0 : (⟨S4196352, .f32⟩ : BufTy).Contents (Elt F) → (⟨S4196352x1, .f32⟩ : BufTy).Contents (Elt F)),
    nullary main_c_50 (constantI S_ 32 0#32),
    unary main_c_50 main_v165 (broadcastInDim S4196352 ![] bcast_S_S4196352 : (⟨S_, .i32⟩ : BufTy).Contents (Elt F) → (⟨S4196352, .i32⟩ : BufTy).Contents (Elt F)),
    binary main_v126 main_v165 main_v166 (cmpi .slt : (⟨S4196352, .i32⟩ : BufTy).Contents (Elt F) → (⟨S4196352, .i32⟩ : BufTy).Contents (Elt F) → (⟨S4196352, .i1⟩ : BufTy).Contents (Elt F)),
    nullary main_c_51 (constantI S_ 32 2048#32),
    unary main_c_51 main_v167 (broadcastInDim S4196352 ![] bcast_S_S4196352 : (⟨S_, .i32⟩ : BufTy).Contents (Elt F) → (⟨S4196352, .i32⟩ : BufTy).Contents (Elt F)),
    binary main_v126 main_v167 main_v168 (addi : (⟨S4196352, .i32⟩ : BufTy).Contents (Elt F) → (⟨S4196352, .i32⟩ : BufTy).Contents (Elt F) → (⟨S4196352, .i32⟩ : BufTy).Contents (Elt F)),
    ternary main_v166 main_v168 main_v126 main_v169 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v169 main_v170 (broadcastInDim S4196352x1 ![0] bcast_S4196352_S4196352x1_0 : (⟨S4196352, .i32⟩ : BufTy).Contents (Elt F) → (⟨S4196352x1, .i32⟩ : BufTy).Contents (Elt F)),
    binary main_v163 main_v170 main_v171 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)),
    unary main_v164 main_v172 (broadcastInDim S4196352x32 ![0, 1] bcast_S4196352x1_S4196352x32_0_1 : (⟨S4196352x1, .f32⟩ : BufTy).Contents (Elt F) → (⟨S4196352x32, .f32⟩ : BufTy).Contents (Elt F)),
    binary main_v172 main_v171 main_v173 (mulf : (⟨S4196352x32, .f32⟩ : BufTy).Contents (Elt F) → (⟨S4196352x32, .f32⟩ : BufTy).Contents (Elt F) → (⟨S4196352x32, .f32⟩ : BufTy).Contents (Elt F)),
    nullary main_cst_52 (constant S_ .f32 0x00000000#32),
    unary main_cst_52 main_v174 (broadcastInDim S2048x32 ![] bcast_S_S2048x32 : (⟨S_, .f32⟩ : BufTy).Contents (Elt F) → (⟨S2048x32, .f32⟩ : BufTy).Contents (Elt F)),
    nullary main_c_53 (constantI S_ 32 0#32),
    unary main_c_53 main_v175 (broadcastInDim S4196352 ![] bcast_S_S4196352 : (⟨S_, .i32⟩ : BufTy).Contents (Elt F) → (⟨S4196352, .i32⟩ : BufTy).Contents (Elt F)),
    binary main_v127 main_v175 main_v176 (cmpi .slt : (⟨S4196352, .i32⟩ : BufTy).Contents (Elt F) → (⟨S4196352, .i32⟩ : BufTy).Contents (Elt F) → (⟨S4196352, .i1⟩ : BufTy).Contents (Elt F)),
    nullary main_c_54 (constantI S_ 32 2048#32),
    unary main_c_54 main_v177 (broadcastInDim S4196352 ![] bcast_S_S4196352 : (⟨S_, .i32⟩ : BufTy).Contents (Elt F) → (⟨S4196352, .i32⟩ : BufTy).Contents (Elt F)),
    binary main_v127 main_v177 main_v178 (addi : (⟨S4196352, .i32⟩ : BufTy).Contents (Elt F) → (⟨S4196352, .i32⟩ : BufTy).Contents (Elt F) → (⟨S4196352, .i32⟩ : BufTy).Contents (Elt F)),
    ternary main_v176 main_v178 main_v127 main_v179 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    unary main_v179 main_v180 (broadcastInDim S4196352x1 ![0] bcast_S4196352_S4196352x1_0 : (⟨S4196352, .i32⟩ : BufTy).Contents (Elt F) → (⟨S4196352x1, .i32⟩ : BufTy).Contents (Elt F)),
    ternary main_v174 main_v180 main_v173 main_v181 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)),
    unary main_arg7 main_v182 (broadcastInDim S1x32 ![1] bcast_S32_S1x32_1 : (⟨S32, .f32⟩ : BufTy).Contents (Elt F) → (⟨S1x32, .f32⟩ : BufTy).Contents (Elt F)) ]

/-- @main's operations 359 … 404 of 404: window 4 of the printed program, its calls inlined. -/
abbrev ops4 : List (HloOp τ sig (Elt F)) :=
  [ unary main_v182 main_v183 (broadcastInDim S2048x32 ![0, 1] bcast_S1x32_S2048x32_0_1 : (⟨S1x32, .f32⟩ : BufTy).Contents (Elt F) → (⟨S2048x32, .f32⟩ : BufTy).Contents (Elt F)),
    binary main_v181 main_v183 main_v184 (addf : (⟨S2048x32, .f32⟩ : BufTy).Contents (Elt F) → (⟨S2048x32, .f32⟩ : BufTy).Contents (Elt F) → (⟨S2048x32, .f32⟩ : BufTy).Contents (Elt F)),
    nullary main_cst_55 (constant S_ .f32 0x00000000#32),
    binary main_v184 main_cst_55 main_v185 ((fun x v => Host.reduceAdd x v reducesTo_S2048x32_S32_d0 h_S_) : (⟨S2048x32, .f32⟩ : BufTy).Contents (Elt F) → (⟨S_, .f32⟩ : BufTy).Contents (Elt F) → (⟨S32, .f32⟩ : BufTy).Contents (Elt F)),
    nullary main_cst_56 (constant S_ .f32 0x45000000#32),
    unary main_cst_56 main_v186 (broadcastInDim S32 ![] bcast_S_S32 : (⟨S_, .f32⟩ : BufTy).Contents (Elt F) → (⟨S32, .f32⟩ : BufTy).Contents (Elt F)),
    binary main_v185 main_v186 main_v187 (Host.divf : (⟨S32, .f32⟩ : BufTy).Contents (Elt F) → (⟨S32, .f32⟩ : BufTy).Contents (Elt F) → (⟨S32, .f32⟩ : BufTy).Contents (Elt F)),
    nullary main_c_57 (constantI S_ 32 0#32),
    TRef.nullary main_call16.cst (constant S_ .f32 0x00000000#32),
    TRef.binary (.of main_v184 : TRef sig ⟨S2048x32, .f32⟩) main_call16.cst main_call16.v0 (fun x v => Host.reduceAdd x v reducesTo_S2048x32_S32_d0 h_S_),
    TRef.unary main_call16.v0 main_call16.v1 (broadcastInDim S1x32 ![1] bcast_S32_S1x32_1),
    TRef.nullary main_call16.cst_0 (constant S_ .f32 0x45000000#32),
    TRef.unary main_call16.cst_0 main_call16.v2 (broadcastInDim S1x32 ![] bcast_S_S1x32),
    TRef.binary main_call16.v1 main_call16.v2 main_call16.v3 Host.divf,
    TRef.unary main_call16.v3 main_call16.v4 (broadcastInDim S2048x32 ![0, 1] bcast_S1x32_S2048x32_0_1),
    TRef.binary (.of main_v184 : TRef sig ⟨S2048x32, .f32⟩) main_call16.v4 main_call16.v5 subf,
    TRef.binary main_call16.v5 main_call16.v5 main_call16.v6 mulf,
    TRef.unary (.of main_c_57 : TRef sig ⟨S_, .i32⟩) main_call16.v7 (sitofp .f32),
    TRef.nullary main_call16.cst_1 (constant S_ .f32 0x45000000#32),
    TRef.binary main_call16.cst_1 main_call16.v7 main_call16.v8 subf,
    TRef.nullary main_call16.cst_2 (constant S_ .f32 0x00000000#32),
    TRef.binary main_call16.v6 main_call16.cst_2 main_call16.v9 (fun x v => Host.reduceAdd x v reducesTo_S2048x32_S32_d0 h_S_),
    TRef.unary main_call16.v8 main_call16.v10 (broadcastInDim S32 ![] bcast_S_S32),
    TRef.binary main_call16.v9 main_call16.v10 main_call16.v11 Host.divf,
    TRef.nullary main_call16.cst_3 (constant S_ .f32 0x00000000#32),
    TRef.binary main_call16.v8 main_call16.cst_3 main_call16.v12 (cmpf .ogt),
    TRef.nullary main_call16.cst_4 (constant S_ .f32 0x7FC00000#32),
    TRef.unary main_call16.cst_4 main_call16.call0.v0 id,
    TRef.unary main_call16.call0.v0 main_call16.call0.v1 (broadcastInDim S32 ![] bcast_S_S32),
    TRef.ternary main_call16.v12 main_call16.v11 main_call16.call0.v1 main_call16.call0.v2 (fun p a b => select (broadcastInDim S32 ![] bcast_S_S32 p) a b),
    unary main_v187 main_v189 (broadcastInDim S1x32 ![1] bcast_S32_S1x32_1 : (⟨S32, .f32⟩ : BufTy).Contents (Elt F) → (⟨S1x32, .f32⟩ : BufTy).Contents (Elt F)),
    unary main_v189 main_v190 (broadcastInDim S2048x32 ![0, 1] bcast_S1x32_S2048x32_0_1 : (⟨S1x32, .f32⟩ : BufTy).Contents (Elt F) → (⟨S2048x32, .f32⟩ : BufTy).Contents (Elt F)),
    binary main_v184 main_v190 main_v191 (subf : (⟨S2048x32, .f32⟩ : BufTy).Contents (Elt F) → (⟨S2048x32, .f32⟩ : BufTy).Contents (Elt F) → (⟨S2048x32, .f32⟩ : BufTy).Contents (Elt F)),
    nullary main_cst_58 (constant S_ .f32 0x3727C5AC#32),
    unary main_cst_58 main_v192 (broadcastInDim S32 ![] bcast_S_S32 : (⟨S_, .f32⟩ : BufTy).Contents (Elt F) → (⟨S32, .f32⟩ : BufTy).Contents (Elt F)),
    binary main_v188 main_v192 main_v193 (addf : (⟨S32, .f32⟩ : BufTy).Contents (Elt F) → (⟨S32, .f32⟩ : BufTy).Contents (Elt F) → (⟨S32, .f32⟩ : BufTy).Contents (Elt F)),
    unary main_v193 main_v194 (Host.sqrt : (⟨S32, .f32⟩ : BufTy).Contents (Elt F) → (⟨S32, .f32⟩ : BufTy).Contents (Elt F)),
    unary main_v194 main_v195 (broadcastInDim S1x32 ![1] bcast_S32_S1x32_1 : (⟨S32, .f32⟩ : BufTy).Contents (Elt F) → (⟨S1x32, .f32⟩ : BufTy).Contents (Elt F)),
    unary main_v195 main_v196 (broadcastInDim S2048x32 ![0, 1] bcast_S1x32_S2048x32_0_1 : (⟨S1x32, .f32⟩ : BufTy).Contents (Elt F) → (⟨S2048x32, .f32⟩ : BufTy).Contents (Elt F)),
    binary main_v191 main_v196 main_v197 (Host.divf : (⟨S2048x32, .f32⟩ : BufTy).Contents (Elt F) → (⟨S2048x32, .f32⟩ : BufTy).Contents (Elt F) → (⟨S2048x32, .f32⟩ : BufTy).Contents (Elt F)),
    unary main_arg8 main_v198 (broadcastInDim S1x32 ![1] bcast_S32_S1x32_1 : (⟨S32, .f32⟩ : BufTy).Contents (Elt F) → (⟨S1x32, .f32⟩ : BufTy).Contents (Elt F)),
    unary main_v198 main_v199 (broadcastInDim S2048x32 ![0, 1] bcast_S1x32_S2048x32_0_1 : (⟨S1x32, .f32⟩ : BufTy).Contents (Elt F) → (⟨S2048x32, .f32⟩ : BufTy).Contents (Elt F)),
    binary main_v197 main_v199 main_v200 (mulf : (⟨S2048x32, .f32⟩ : BufTy).Contents (Elt F) → (⟨S2048x32, .f32⟩ : BufTy).Contents (Elt F) → (⟨S2048x32, .f32⟩ : BufTy).Contents (Elt F)),
    unary main_arg9 main_v201 (broadcastInDim S1x32 ![1] bcast_S32_S1x32_1 : (⟨S32, .f32⟩ : BufTy).Contents (Elt F) → (⟨S1x32, .f32⟩ : BufTy).Contents (Elt F)),
    unary main_v201 main_v202 (broadcastInDim S2048x32 ![0, 1] bcast_S1x32_S2048x32_0_1 : (⟨S1x32, .f32⟩ : BufTy).Contents (Elt F) → (⟨S2048x32, .f32⟩ : BufTy).Contents (Elt F)),
    binary main_v200 main_v202 main_v203 (addf : (⟨S2048x32, .f32⟩ : BufTy).Contents (Elt F) → (⟨S2048x32, .f32⟩ : BufTy).Contents (Elt F) → (⟨S2048x32, .f32⟩ : BufTy).Contents (Elt F)) ]

/-- @main's operations, in order. -/
abbrev ops : List (HloOp τ sig (Elt F)) := ops0 ++ ops1 ++ ops2 ++ ops3 ++ ops4

end Cert.ReferenceIdeal.Hand

end
-- ==== Proof.RefRunMain.lean ====
/-
  The reference's host program run as a straight line. Each window of the printed @main is, by unfolding the
  module-local functions at their calls and the call records at their fields, the line of its operations
  (main_partK_eq), so @main is the line of all 404 (main_eq: lines run one after the other are their
  concatenation run as one). Every operation touches TensorCore references only (ops_sub, builder by builder),
  and the program has no scoped buffer or semaphore; hence every weakly fair execution from any memory with zero
  counters terminates with each buffer at the fold of the operations over the launch contents (run_main).
-/
import proofs.«121040_g28046136442917_fold_wed_c4_759_6_alg».proof.Proof.RefOps
import Idealize.ShloMosaic.Lib.StableHlo.Run

noncomputable section

namespace Cert.ReferenceIdeal.Hand

open Idealize.ShloMosaic Idealize.SL.Sem Idealize.ShloMosaic.TcCoe Idealize.ShloMosaic.StableHlo
open Cert.ReferenceIdeal Cert.ReferenceIdeal.Gen

variable {F : FTy → Type} [FloatOps F]

set_option maxRecDepth 16384 in
set_option maxHeartbeats 4000000 in
/-- Window 0 of @main is the line of its operations. -/
theorem main_part0_eq (c : Dev nD) : main_part0 (F := F) c = seq ops0 := rfl

set_option maxRecDepth 16384 in
set_option maxHeartbeats 4000000 in
/-- Window 1 of @main is the line of its operations. -/
theorem main_part1_eq (c : Dev nD) : main_part1 (F := F) c = seq ops1 := rfl

set_option maxRecDepth 16384 in
set_option maxHeartbeats 4000000 in
/-- Window 2 of @main is the line of its operations. -/
theorem main_part2_eq (c : Dev nD) : main_part2 (F := F) c = seq ops2 := rfl

set_option maxRecDepth 16384 in
set_option maxHeartbeats 4000000 in
/-- Window 3 of @main is the line of its operations. -/
theorem main_part3_eq (c : Dev nD) : main_part3 (F := F) c = seq ops3 := rfl

set_option maxRecDepth 16384 in
set_option maxHeartbeats 4000000 in
/-- Window 4 of @main is the line of its operations. -/
theorem main_part4_eq (c : Dev nD) : main_part4 (F := F) c = seq ops4 := rfl

set_option maxRecDepth 16384 in
/-- @main is the line of all its operations. -/
theorem main_eq (c : Dev nD) : main (F := F) c = seq ops := by
  simp only [main, ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops0_sub : (ops0 : List (HloOp τ sig (Elt F))).Forall fun op => op.bufs ⊆ tcRefs τ sig :=
  ⟨nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    nullary_bufs_sub .., binary_bufs_sub .., unary_bufs_sub .., binary_bufs_sub .., nullary_bufs_sub .., unary_bufs_sub ..,
    unary_bufs_sub .., ternary_bufs_sub .., nullary_bufs_sub .., unary_bufs_sub .., unary_bufs_sub .., ternary_bufs_sub ..,
    nullary_bufs_sub .., nullary_bufs_sub .., unary_bufs_sub .., binary_bufs_sub .., unary_bufs_sub .., nullary_bufs_sub ..,
    binary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub ..⟩

set_option maxRecDepth 16384 in
theorem ops1_sub : (ops1 : List (HloOp τ sig (Elt F))).Forall fun op => op.bufs ⊆ tcRefs τ sig :=
  ⟨binary_bufs_sub .., binary_bufs_sub .., nullary_bufs_sub .., binary_bufs_sub .., binary_bufs_sub .., nullary_bufs_sub ..,
    unary_bufs_sub .., binary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., nullary_bufs_sub ..,
    unary_bufs_sub .., binary_bufs_sub .., nullary_bufs_sub .., unary_bufs_sub ..⟩

set_option maxRecDepth 16384 in
theorem ops2_sub : (ops2 : List (HloOp τ sig (Elt F))).Forall fun op => op.bufs ⊆ tcRefs τ sig :=
  ⟨binary_bufs_sub .., ternary_bufs_sub .., unary_bufs_sub .., binary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., binary_bufs_sub .., binary_bufs_sub .., nullary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub ..⟩

set_option maxRecDepth 16384 in
theorem ops3_sub : (ops3 : List (HloOp τ sig (Elt F))).Forall fun op => op.bufs ⊆ tcRefs τ sig :=
  ⟨ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., unary_bufs_sub ..⟩

set_option maxRecDepth 16384 in
theorem ops4_sub : (ops4 : List (HloOp τ sig (Elt F))).Forall fun op => op.bufs ⊆ tcRefs τ sig :=
  ⟨unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩

/-- Every operation of the line touches TensorCore references only. -/
theorem ops_sub : (ops : List (HloOp τ sig (Elt F))).Forall fun op => op.bufs ⊆ tcRefs τ sig :=
  List.forall_iff_forall_mem.mpr fun op h =>
    have h4 : op ∈ ops0 ++ ops1 ++ ops2 ++ ops3 ++ ops4 := h
    (List.mem_append.mp h4).elim
      (fun h3 => (List.mem_append.mp h3).elim
      (fun h2 => (List.mem_append.mp h2).elim
      (fun h1 => (List.mem_append.mp h1).elim
      (fun h0 => List.forall_iff_forall_mem.mp ops0_sub op h0)
      (fun g => List.forall_iff_forall_mem.mp ops1_sub op g))
      (fun g => List.forall_iff_forall_mem.mp ops2_sub op g))
      (fun g => List.forall_iff_forall_mem.mp ops3_sub op g))
      (fun g => List.forall_iff_forall_mem.mp ops4_sub op g)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefKept.lean ====
/-
  The arguments are kept. Each of the 404 operations of the reference's line writes exactly one buffer, and that
  buffer is none of the ten argument buffers (opsK_noarg, entry by entry: the written reference is read off the
  operation and compared with the ten). A buffer no operation writes has after the line the contents it had
  before, so every argument is read at its launch contents wherever the line reads it (kept_arg0 … kept_arg9).
-/
import proofs.«121040_g28046136442917_fold_wed_c4_759_6_alg».proof.Proof.RefOps
import Idealize.ShloMosaic.Lib.StableHlo.Run

noncomputable section

namespace Cert.ReferenceIdeal.Hand

open Idealize.ShloMosaic Idealize.SL.Sem Idealize.ShloMosaic.TcCoe Idealize.ShloMosaic.StableHlo
open Cert.ReferenceIdeal Cert.ReferenceIdeal.Gen

variable {F : FTy → Type} [FloatOps F]

/-- The ten argument buffers. -/
abbrev argRefs : List (Ref sig .tc) :=
  [main_arg0, main_arg1, main_arg2, main_arg3, main_arg4, main_arg5, main_arg6, main_arg7, main_arg8, main_arg9]

/-- The operation writes one buffer, and it is no argument's. -/
def NoArgWrite (op : HloOp τ sig (Elt F)) : Prop :=
  ∃ y : Ref sig .tc, op.writes = {Proc.devRef .tc y} ∧ y ∉ argRefs

set_option maxRecDepth 16384 in
theorem ops0_noarg : (ops0 : List (HloOp τ sig (Elt F))).Forall NoArgWrite :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩⟩

set_option maxRecDepth 16384 in
theorem ops1_noarg : (ops1 : List (HloOp τ sig (Elt F))).Forall NoArgWrite :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩⟩

set_option maxRecDepth 16384 in
theorem ops2_noarg : (ops2 : List (HloOp τ sig (Elt F))).Forall NoArgWrite :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩⟩

set_option maxRecDepth 16384 in
theorem ops3_noarg : (ops3 : List (HloOp τ sig (Elt F))).Forall NoArgWrite :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩⟩

set_option maxRecDepth 16384 in
theorem ops4_noarg : (ops4 : List (HloOp τ sig (Elt F))).Forall NoArgWrite :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩⟩

/-- No operation of the line writes an argument buffer. -/
theorem ops_noarg : (ops : List (HloOp τ sig (Elt F))).Forall NoArgWrite :=
  List.forall_iff_forall_mem.mpr fun op h =>
    have h4 : op ∈ ops0 ++ ops1 ++ ops2 ++ ops3 ++ ops4 := h
    (List.mem_append.mp h4).elim
      (fun h3 => (List.mem_append.mp h3).elim
      (fun h2 => (List.mem_append.mp h2).elim
      (fun h1 => (List.mem_append.mp h1).elim
      (fun h0 => List.forall_iff_forall_mem.mp ops0_noarg op h0)
      (fun g => List.forall_iff_forall_mem.mp ops1_noarg op g))
      (fun g => List.forall_iff_forall_mem.mp ops2_noarg op g))
      (fun g => List.forall_iff_forall_mem.mp ops3_noarg op g))
      (fun g => List.forall_iff_forall_mem.mp ops4_noarg op g)

/-- An argument buffer has after the line the contents it had before. -/
theorem kept_of_mem {r : Ref sig .tc} (hr : r ∈ argRefs) (V : Valuation τ sig (Elt F)) :
    after ops V (Proc.devRef .tc r) = V (Proc.devRef .tc r) :=
  after_of_forall_not_mem ops V fun op hop hb => by
    obtain ⟨y, hy, hny⟩ := List.forall_iff_forall_mem.mp ops_noarg op hop
    rw [hy, Finset.mem_singleton] at hb
    exact hny (Proc.devRef_injective _ hb ▸ hr)

theorem kept_arg0 (V : Valuation τ sig (Elt F)) :
    after ops V (main_arg0 : DevRef τ sig) = V (main_arg0 : DevRef τ sig) :=
  kept_of_mem (by decide) V
theorem kept_arg1 (V : Valuation τ sig (Elt F)) :
    after ops V (main_arg1 : DevRef τ sig) = V (main_arg1 : DevRef τ sig) :=
  kept_of_mem (by decide) V
theorem kept_arg2 (V : Valuation τ sig (Elt F)) :
    after ops V (main_arg2 : DevRef τ sig) = V (main_arg2 : DevRef τ sig) :=
  kept_of_mem (by decide) V
theorem kept_arg3 (V : Valuation τ sig (Elt F)) :
    after ops V (main_arg3 : DevRef τ sig) = V (main_arg3 : DevRef τ sig) :=
  kept_of_mem (by decide) V
theorem kept_arg4 (V : Valuation τ sig (Elt F)) :
    after ops V (main_arg4 : DevRef τ sig) = V (main_arg4 : DevRef τ sig) :=
  kept_of_mem (by decide) V
theorem kept_arg5 (V : Valuation τ sig (Elt F)) :
    after ops V (main_arg5 : DevRef τ sig) = V (main_arg5 : DevRef τ sig) :=
  kept_of_mem (by decide) V
theorem kept_arg6 (V : Valuation τ sig (Elt F)) :
    after ops V (main_arg6 : DevRef τ sig) = V (main_arg6 : DevRef τ sig) :=
  kept_of_mem (by decide) V
theorem kept_arg7 (V : Valuation τ sig (Elt F)) :
    after ops V (main_arg7 : DevRef τ sig) = V (main_arg7 : DevRef τ sig) :=
  kept_of_mem (by decide) V
theorem kept_arg8 (V : Valuation τ sig (Elt F)) :
    after ops V (main_arg8 : DevRef τ sig) = V (main_arg8 : DevRef τ sig) :=
  kept_of_mem (by decide) V
theorem kept_arg9 (V : Valuation τ sig (Elt F)) :
    after ops V (main_arg9 : DevRef τ sig) = V (main_arg9 : DevRef τ sig) :=
  kept_of_mem (by decide) V

end Cert.ReferenceIdeal.Hand

end
-- ==== Proof.RefVals.lean ====
/-
  The contents of every buffer the reference's host program writes, as a function of the ten argument arrays
  alone. The program is single-assignment: each of its 404 operations writes one buffer of its own from buffers
  written before it or from arguments. So the contents a buffer holds when the program ends are its operation's
  function applied to the contents of that operation's operands, and unfolding this along the program's order
  gives one definition per buffer, 'res_' followed by the buffer's name, whose body is the operation's function
  applied to the 'res_' of the operand buffers (an argument buffer's contents are the argument itself). A reshape
  is the row-major recast of its operand. Every definition takes all ten arguments, in order, whether or not
  its value depends on each.
-/
import proofs.«121040_g28046136442917_fold_wed_c4_759_6_alg».proof.Proof.Gen.ReferenceIdeal
import Idealize.ShloMosaic.Lib.StableHlo.Run

noncomputable section

namespace Cert.ReferenceIdeal.Hand

open Idealize.ShloMosaic Idealize.SL.Sem Idealize.ShloMosaic.TcCoe Idealize.ShloMosaic.StableHlo
open Idealize.ShloMosaic.RefSig (ofTc tcTables tileCredit tileCredit_eq_zero tileCredit_pos)
open Cert.ReferenceIdeal Cert.ReferenceIdeal.Gen

variable {F : FTy → Type} [FloatOps F]

def res_main_cst (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x2048, .f32⟩ : BufTy).Contents (Elt F) :=
  broadcastInDim S2048x2048 ![] bcast_S_S2048x2048 (res_main_cst a0 a1 a2 a3 a4 a5 a6 a7 a8 a9)
def res_main_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x2048, .i1⟩ : BufTy).Contents (Elt F) :=
  cmpf .une a1 (res_main_v0 a0 a1 a2 a3 a4 a5 a6 a7 a8 a9)
def res_main_call0_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  shapeCast S4194304 (res_main_v1 a0 a1 a2 a3 a4 a5 a6 a7 a8 a9) shapeCasts_S2048x2048_S4194304
def res_main_call0_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  extui 32 (res_main_call0_v0 a0 a1 a2 a3 a4 a5 a6 a7 a8 a9) natLt_1_32
def res_main_call0_call0_c (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call0_call0_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  broadcastInDim S_ ![] bcast_S_S_ (res_main_call0_call0_c a0 a1 a2 a3 a4 a5 a6 a7 a8 a9)
def res_main_v2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  Host.reduceWindow IntOp.addi ![4194304] ![1] ![4194303] ![0] (res_main_call0_v1 a0 a1 a2 a3 a4 a5 a6 a7 a8 a9) (res_main_call0_call0_v0 a0 a1 a2 a3 a4 a5 a6 a7 a8 a9) reduceWindows_S4194304_S4194304_w4194304s1p4194303_0 h_S_
def res_main_c (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c a0 a1 a2 a3 a4 a5 a6 a7 a8 a9)
def res_main_c_0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call1_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  id (res_main_c_0 a0 a1 a2 a3 a4 a5 a6 a7 a8 a9)
def res_main_call1_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call1_v0 a0 a1 a2 a3 a4 a5 a6 a7 a8 a9)
def res_main_v4 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  maxsi (res_main_call1_v1 a0 a1 a2 a3 a4 a5 a6 a7 a8 a9) (res_main_v2 a0 a1 a2 a3 a4 a5 a6 a7 a8 a9)
def res_main_c_1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v5 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c_1 a0 a1 a2 a3 a4 a5 a6 a7 a8 a9)
def res_main_v6 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .slt (res_main_v4 a0 a1 a2 a3 a4 a5 a6 a7 a8 a9) (res_main_v5 a0 a1 a2 a3 a4 a5 a6 a7 a8 a9)
def res_main_c_2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 4194304#32)
def res_main_v7 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c_2 a0 a1 a2 a3 a4 a5 a6 a7 a8 a9)
def res_main_v8 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  addi (res_main_v4 a0 a1 a2 a3 a4 a5 a6 a7 a8 a9) (res_main_v7 a0 a1 a2 a3 a4 a5 a6 a7 a8 a9)
def res_main_v9 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  select (res_main_v6 a0 a1 a2 a3 a4 a5 a6 a7 a8 a9) (res_main_v8 a0 a1 a2 a3 a4 a5 a6 a7 a8 a9) (res_main_v4 a0 a1 a2 a3 a4 a5 a6 a7 a8 a9)
def res_main_v10 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304x1, .i32⟩ : BufTy).Contents (Elt F) :=
  broadcastInDim S4194304x1 ![0] bcast_S4194304_S4194304x1_0 (res_main_v9 a0 a1 a2 a3 a4 a5 a6 a7 a8 a9)
def res_main_c_3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 1#32)
def res_main_v11 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c_3 a0 a1 a2 a3 a4 a5 a6 a7 a8 a9)
def res_main_v12 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  Host.scatter scatter_S4194304_S4194304x1_S4194304_n_0_0_1 IntOp.addi (res_main_v3 a0 a1 a2 a3 a4 a5 a6 a7 a8 a9) (res_main_v10 a0 a1 a2 a3 a4 a5 a6 a7 a8 a9) (res_main_v11 a0 a1 a2 a3 a4 a5 a6 a7 a8 a9)
def res_main_call2_call0_c (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call2_call0_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  broadcastInDim S_ ![] bcast_S_S_ (res_main_call2_call0_c a0 a1 a2 a3 a4 a5 a6 a7 a8 a9)
def res_main_v13 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  Host.reduceWindow IntOp.addi ![4194304] ![1] ![4194303] ![0] (res_main_v12 a0 a1 a2 a3 a4 a5 a6 a7 a8 a9) (res_main_call2_call0_v0 a0 a1 a2 a3 a4 a5 a6 a7 a8 a9) reduceWindows_S4194304_S4194304_w4194304s1p4194303_0 h_S_
def res_main_c_4 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_call3_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c_4 a0 a1 a2 a3 a4 a5 a6 a7 a8 a9)
def res_main_call3_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  Host.divsi (res_main_v13 a0 a1 a2 a3 a4 a5 a6 a7 a8 a9) (res_main_call3_v0 a0 a1 a2 a3 a4 a5 a6 a7 a8 a9)
def res_main_call3_v2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  signi (res_main_v13 a0 a1 a2 a3 a4 a5 a6 a7 a8 a9)
def res_main_call3_v3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  signi (res_main_c_4 a0 a1 a2 a3 a4 a5 a6 a7 a8 a9)
def res_main_call3_v4 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call3_v3 a0 a1 a2 a3 a4 a5 a6 a7 a8 a9)
def res_main_call3_v5 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .ne (res_main_call3_v2 a0 a1 a2 a3 a4 a5 a6 a7 a8 a9) (res_main_call3_v4 a0 a1 a2 a3 a4 a5 a6 a7 a8 a9)
def res_main_call3_v6 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c_4 a0 a1 a2 a3 a4 a5 a6 a7 a8 a9)
def res_main_call3_v7 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  Host.remsi (res_main_v13 a0 a1 a2 a3 a4 a5 a6 a7 a8 a9) (res_main_call3_v6 a0 a1 a2 a3 a4 a5 a6 a7 a8 a9)
def res_main_call3_c (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call3_v8 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call3_c a0 a1 a2 a3 a4 a5 a6 a7 a8 a9)
def res_main_call3_v9 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .ne (res_main_call3_v7 a0 a1 a2 a3 a4 a5 a6 a7 a8 a9) (res_main_call3_v8 a0 a1 a2 a3 a4 a5 a6 a7 a8 a9)
def res_main_call3_v10 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  andi (res_main_call3_v5 a0 a1 a2 a3 a4 a5 a6 a7 a8 a9) (res_main_call3_v9 a0 a1 a2 a3 a4 a5 a6 a7 a8 a9)
def res_main_call3_c_0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 1#32)
def res_main_call3_v11 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call3_c_0 a0 a1 a2 a3 a4 a5 a6 a7 a8 a9)
def res_main_call3_v12 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  subi (res_main_call3_v1 a0 a1 a2 a3 a4 a5 a6 a7 a8 a9) (res_main_call3_v11 a0 a1 a2 a3 a4 a5 a6 a7 a8 a9)
def res_main_v14 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  select (res_main_call3_v10 a0 a1 a2 a3 a4 a5 a6 a7 a8 a9) (res_main_call3_v12 a0 a1 a2 a3 a4 a5 a6 a7 a8 a9) (res_main_call3_v1 a0 a1 a2 a3 a4 a5 a6 a7 a8 a9)
def res_main_c_5 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_call4_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  id (res_main_c_5 a0 a1 a2 a3 a4 a5 a6 a7 a8 a9)
def res_main_call4_c (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call4_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i1⟩ : BufTy).Contents (Elt F) :=
  cmpi .eq (res_main_call4_v0 a0 a1 a2 a3 a4 a5 a6 a7 a8 a9) (res_main_call4_c a0 a1 a2 a3 a4 a5 a6 a7 a8 a9)
def res_main_call4_c_0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 1#32)
def res_main_call4_v2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  select (res_main_call4_v1 a0 a1 a2 a3 a4 a5 a6 a7 a8 a9) (res_main_call4_c_0 a0 a1 a2 a3 a4 a5 a6 a7 a8 a9) (res_main_call4_v0 a0 a1 a2 a3 a4 a5 a6 a7 a8 a9)
def res_main_call4_v3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call4_v2 a0 a1 a2 a3 a4 a5 a6 a7 a8 a9)
def res_main_call4_v4 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  Host.remsi (res_main_v14 a0 a1 a2 a3 a4 a5 a6 a7 a8 a9) (res_main_call4_v3 a0 a1 a2 a3 a4 a5 a6 a7 a8 a9)
def res_main_call4_c_1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call4_v5 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call4_c_1 a0 a1 a2 a3 a4 a5 a6 a7 a8 a9)
def res_main_call4_v6 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .ne (res_main_call4_v4 a0 a1 a2 a3 a4 a5 a6 a7 a8 a9) (res_main_call4_v5 a0 a1 a2 a3 a4 a5 a6 a7 a8 a9)
def res_main_call4_c_2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call4_v7 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call4_c_2 a0 a1 a2 a3 a4 a5 a6 a7 a8 a9)
def res_main_call4_v8 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .slt (res_main_call4_v4 a0 a1 a2 a3 a4 a5 a6 a7 a8 a9) (res_main_call4_v7 a0 a1 a2 a3 a4 a5 a6 a7 a8 a9)
def res_main_call4_c_3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call4_v9 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i1⟩ : BufTy).Contents (Elt F) :=
  cmpi .slt (res_main_call4_v2 a0 a1 a2 a3 a4 a5 a6 a7 a8 a9) (res_main_call4_c_3 a0 a1 a2 a3 a4 a5 a6 a7 a8 a9)
def res_main_call4_v10 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  broadcastInDim S4194304 ![] bcast_S_S4194304 (res_main_call4_v9 a0 a1 a2 a3 a4 a5 a6 a7 a8 a9)
def res_main_call4_v11 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .ne (res_main_call4_v8 a0 a1 a2 a3 a4 a5 a6 a7 a8 a9) (res_main_call4_v10 a0 a1 a2 a3 a4 a5 a6 a7 a8 a9)
def res_main_call4_v12 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  andi (res_main_call4_v11 a0 a1 a2 a3 a4 a5 a6 a7 a8 a9) (res_main_call4_v6 a0 a1 a2 a3 a4 a5 a6 a7 a8 a9)
def res_main_call4_v13 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call4_v2 a0 a1 a2 a3 a4 a5 a6 a7 a8 a9)
def res_main_call4_v14 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  addi (res_main_call4_v4 a0 a1 a2 a3 a4 a5 a6 a7 a8 a9) (res_main_call4_v13 a0 a1 a2 a3 a4 a5 a6 a7 a8 a9)
def res_main_v15 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  select (res_main_call4_v12 a0 a1 a2 a3 a4 a5 a6 a7 a8 a9) (res_main_call4_v14 a0 a1 a2 a3 a4 a5 a6 a7 a8 a9) (res_main_call4_v4 a0 a1 a2 a3 a4 a5 a6 a7 a8 a9)
def res_main_c_6 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 1#32)
def res_main_call5_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c_6 a0 a1 a2 a3 a4 a5 a6 a7 a8 a9)
def res_main_call5_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  Host.divsi (res_main_v13 a0 a1 a2 a3 a4 a5 a6 a7 a8 a9) (res_main_call5_v0 a0 a1 a2 a3 a4 a5 a6 a7 a8 a9)
def res_main_call5_v2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  signi (res_main_v13 a0 a1 a2 a3 a4 a5 a6 a7 a8 a9)
def res_main_call5_v3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  signi (res_main_c_6 a0 a1 a2 a3 a4 a5 a6 a7 a8 a9)
def res_main_call5_v4 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call5_v3 a0 a1 a2 a3 a4 a5 a6 a7 a8 a9)
def res_main_call5_v5 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .ne (res_main_call5_v2 a0 a1 a2 a3 a4 a5 a6 a7 a8 a9) (res_main_call5_v4 a0 a1 a2 a3 a4 a5 a6 a7 a8 a9)
def res_main_call5_v6 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c_6 a0 a1 a2 a3 a4 a5 a6 a7 a8 a9)
def res_main_call5_v7 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  Host.remsi (res_main_v13 a0 a1 a2 a3 a4 a5 a6 a7 a8 a9) (res_main_call5_v6 a0 a1 a2 a3 a4 a5 a6 a7 a8 a9)
def res_main_call5_c (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call5_v8 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call5_c a0 a1 a2 a3 a4 a5 a6 a7 a8 a9)
def res_main_call5_v9 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .ne (res_main_call5_v7 a0 a1 a2 a3 a4 a5 a6 a7 a8 a9) (res_main_call5_v8 a0 a1 a2 a3 a4 a5 a6 a7 a8 a9)
def res_main_call5_v10 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  andi (res_main_call5_v5 a0 a1 a2 a3 a4 a5 a6 a7 a8 a9) (res_main_call5_v9 a0 a1 a2 a3 a4 a5 a6 a7 a8 a9)
def res_main_call5_c_0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 1#32)
def res_main_call5_v11 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call5_c_0 a0 a1 a2 a3 a4 a5 a6 a7 a8 a9)
def res_main_call5_v12 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  subi (res_main_call5_v1 a0 a1 a2 a3 a4 a5 a6 a7 a8 a9) (res_main_call5_v11 a0 a1 a2 a3 a4 a5 a6 a7 a8 a9)
def res_main_v16 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  select (res_main_call5_v10 a0 a1 a2 a3 a4 a5 a6 a7 a8 a9) (res_main_call5_v12 a0 a1 a2 a3 a4 a5 a6 a7 a8 a9) (res_main_call5_v1 a0 a1 a2 a3 a4 a5 a6 a7 a8 a9)
def res_main_c_7 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_call6_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  id (res_main_c_7 a0 a1 a2 a3 a4 a5 a6 a7 a8 a9)
def res_main_call6_c (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call6_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i1⟩ : BufTy).Contents (Elt F) :=
  cmpi .eq (res_main_call6_v0 a0 a1 a2 a3 a4 a5 a6 a7 a8 a9) (res_main_call6_c a0 a1 a2 a3 a4 a5 a6 a7 a8 a9)
def res_main_call6_c_0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 1#32)
def res_main_call6_v2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  select (res_main_call6_v1 a0 a1 a2 a3 a4 a5 a6 a7 a8 a9) (res_main_call6_c_0 a0 a1 a2 a3 a4 a5 a6 a7 a8 a9) (res_main_call6_v0 a0 a1 a2 a3 a4 a5 a6 a7 a8 a9)
def res_main_call6_v3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call6_v2 a0 a1 a2 a3 a4 a5 a6 a7 a8 a9)
def res_main_call6_v4 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  Host.remsi (res_main_v16 a0 a1 a2 a3 a4 a5 a6 a7 a8 a9) (res_main_call6_v3 a0 a1 a2 a3 a4 a5 a6 a7 a8 a9)
def res_main_call6_c_1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call6_v5 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call6_c_1 a0 a1 a2 a3 a4 a5 a6 a7 a8 a9)
def res_main_call6_v6 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .ne (res_main_call6_v4 a0 a1 a2 a3 a4 a5 a6 a7 a8 a9) (res_main_call6_v5 a0 a1 a2 a3 a4 a5 a6 a7 a8 a9)
def res_main_call6_c_2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call6_v7 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call6_c_2 a0 a1 a2 a3 a4 a5 a6 a7 a8 a9)
def res_main_call6_v8 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .slt (res_main_call6_v4 a0 a1 a2 a3 a4 a5 a6 a7 a8 a9) (res_main_call6_v7 a0 a1 a2 a3 a4 a5 a6 a7 a8 a9)
def res_main_call6_c_3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call6_v9 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i1⟩ : BufTy).Contents (Elt F) :=
  cmpi .slt (res_main_call6_v2 a0 a1 a2 a3 a4 a5 a6 a7 a8 a9) (res_main_call6_c_3 a0 a1 a2 a3 a4 a5 a6 a7 a8 a9)
def res_main_call6_v10 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  broadcastInDim S4194304 ![] bcast_S_S4194304 (res_main_call6_v9 a0 a1 a2 a3 a4 a5 a6 a7 a8 a9)
def res_main_call6_v11 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .ne (res_main_call6_v8 a0 a1 a2 a3 a4 a5 a6 a7 a8 a9) (res_main_call6_v10 a0 a1 a2 a3 a4 a5 a6 a7 a8 a9)
def res_main_call6_v12 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  andi (res_main_call6_v11 a0 a1 a2 a3 a4 a5 a6 a7 a8 a9) (res_main_call6_v6 a0 a1 a2 a3 a4 a5 a6 a7 a8 a9)
def res_main_call6_v13 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call6_v2 a0 a1 a2 a3 a4 a5 a6 a7 a8 a9)
def res_main_call6_v14 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  addi (res_main_call6_v4 a0 a1 a2 a3 a4 a5 a6 a7 a8 a9) (res_main_call6_v13 a0 a1 a2 a3 a4 a5 a6 a7 a8 a9)
def res_main_v17 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  select (res_main_call6_v12 a0 a1 a2 a3 a4 a5 a6 a7 a8 a9) (res_main_call6_v14 a0 a1 a2 a3 a4 a5 a6 a7 a8 a9) (res_main_call6_v4 a0 a1 a2 a3 a4 a5 a6 a7 a8 a9)
def res_main_v18 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  (iotaInDim S4194304 32 0)
def res_main_v19 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x2048, .i32⟩ : BufTy).Contents (Elt F) :=
  extui 32 (res_main_v1 a0 a1 a2 a3 a4 a5 a6 a7 a8 a9) natLt_1_32
def res_main_c_8 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v20 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  Host.reduce IntOp.addi (res_main_v19 a0 a1 a2 a3 a4 a5 a6 a7 a8 a9) (res_main_c_8 a0 a1 a2 a3 a4 a5 a6 a7 a8 a9) reducesTo_S2048x2048_S_d0_1 h_S_
def res_main_v21 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_v20 a0 a1 a2 a3 a4 a5 a6 a7 a8 a9)
def res_main_v22 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .sge (res_main_v18 a0 a1 a2 a3 a4 a5 a6 a7 a8 a9) (res_main_v21 a0 a1 a2 a3 a4 a5 a6 a7 a8 a9)
def res_main_c_9 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call7_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  id (res_main_c_9 a0 a1 a2 a3 a4 a5 a6 a7 a8 a9)
def res_main_call7_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call7_v0 a0 a1 a2 a3 a4 a5 a6 a7 a8 a9)
def res_main_v23 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  select (res_main_v22 a0 a1 a2 a3 a4 a5 a6 a7 a8 a9) (res_main_call7_v1 a0 a1 a2 a3 a4 a5 a6 a7 a8 a9) (res_main_v15 a0 a1 a2 a3 a4 a5 a6 a7 a8 a9)
def res_main_c_10 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call8_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  id (res_main_c_10 a0 a1 a2 a3 a4 a5 a6 a7 a8 a9)
def res_main_call8_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_call8_v0 a0 a1 a2 a3 a4 a5 a6 a7 a8 a9)
def res_main_v24 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  select (res_main_v22 a0 a1 a2 a3 a4 a5 a6 a7 a8 a9) (res_main_call8_v1 a0 a1 a2 a3 a4 a5 a6 a7 a8 a9) (res_main_v17 a0 a1 a2 a3 a4 a5 a6 a7 a8 a9)
def res_main_v25 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  (iotaInDim S4194304 32 0)
def res_main_call9_cst (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_call9_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x2048, .f32⟩ : BufTy).Contents (Elt F) :=
  broadcastInDim S2048x2048 ![] bcast_S_S2048x2048 (res_main_call9_cst a0 a1 a2 a3 a4 a5 a6 a7 a8 a9)
def res_main_call9_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x2048, .i1⟩ : BufTy).Contents (Elt F) :=
  cmpf .une a1 (res_main_call9_v0 a0 a1 a2 a3 a4 a5 a6 a7 a8 a9)
def res_main_call9_v2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x2048, .i32⟩ : BufTy).Contents (Elt F) :=
  extui 32 (res_main_call9_v1 a0 a1 a2 a3 a4 a5 a6 a7 a8 a9) natLt_1_32
def res_main_call9_c (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v26 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  Host.reduce IntOp.addi (res_main_call9_v2 a0 a1 a2 a3 a4 a5 a6 a7 a8 a9) (res_main_call9_c a0 a1 a2 a3 a4 a5 a6 a7 a8 a9) reducesTo_S2048x2048_S_d0_1 h_S_
def res_main_v27 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_v26 a0 a1 a2 a3 a4 a5 a6 a7 a8 a9)
def res_main_v28 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .slt (res_main_v25 a0 a1 a2 a3 a4 a5 a6 a7 a8 a9) (res_main_v27 a0 a1 a2 a3 a4 a5 a6 a7 a8 a9)
def res_main_v29 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .f32⟩ : BufTy).Contents (Elt F) :=
  uitofp .f32 (res_main_v28 a0 a1 a2 a3 a4 a5 a6 a7 a8 a9)
def res_main_c_11 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v30 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c_11 a0 a1 a2 a3 a4 a5 a6 a7 a8 a9)
def res_main_v31 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .slt (res_main_v23 a0 a1 a2 a3 a4 a5 a6 a7 a8 a9) (res_main_v30 a0 a1 a2 a3 a4 a5 a6 a7 a8 a9)
def res_main_c_12 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v32 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c_12 a0 a1 a2 a3 a4 a5 a6 a7 a8 a9)
def res_main_v33 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  addi (res_main_v23 a0 a1 a2 a3 a4 a5 a6 a7 a8 a9) (res_main_v32 a0 a1 a2 a3 a4 a5 a6 a7 a8 a9)
def res_main_v34 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  select (res_main_v31 a0 a1 a2 a3 a4 a5 a6 a7 a8 a9) (res_main_v33 a0 a1 a2 a3 a4 a5 a6 a7 a8 a9) (res_main_v23 a0 a1 a2 a3 a4 a5 a6 a7 a8 a9)
def res_main_c_13 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v35 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c_13 a0 a1 a2 a3 a4 a5 a6 a7 a8 a9)
def res_main_v36 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i1⟩ : BufTy).Contents (Elt F) :=
  cmpi .slt (res_main_v24 a0 a1 a2 a3 a4 a5 a6 a7 a8 a9) (res_main_v35 a0 a1 a2 a3 a4 a5 a6 a7 a8 a9)
def res_main_c_14 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v37 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  broadcastInDim S4194304 ![] bcast_S_S4194304 (res_main_c_14 a0 a1 a2 a3 a4 a5 a6 a7 a8 a9)
def res_main_v38 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  addi (res_main_v24 a0 a1 a2 a3 a4 a5 a6 a7 a8 a9) (res_main_v37 a0 a1 a2 a3 a4 a5 a6 a7 a8 a9)
def res_main_v39 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .i32⟩ : BufTy).Contents (Elt F) :=
  select (res_main_v36 a0 a1 a2 a3 a4 a5 a6 a7 a8 a9) (res_main_v38 a0 a1 a2 a3 a4 a5 a6 a7 a8 a9) (res_main_v24 a0 a1 a2 a3 a4 a5 a6 a7 a8 a9)
def res_main_v40 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304x1, .i32⟩ : BufTy).Contents (Elt F) :=
  broadcastInDim S4194304x1 ![0] bcast_S4194304_S4194304x1_0 (res_main_v34 a0 a1 a2 a3 a4 a5 a6 a7 a8 a9)
def res_main_v41 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304x1, .i32⟩ : BufTy).Contents (Elt F) :=
  broadcastInDim S4194304x1 ![0] bcast_S4194304_S4194304x1_0 (res_main_v39 a0 a1 a2 a3 a4 a5 a6 a7 a8 a9)
def res_main_v42 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304x2, .i32⟩ : BufTy).Contents (Elt F) :=
  concatenate S4194304x2 1 [⟨S4194304x1, (res_main_v40 a0 a1 a2 a3 a4 a5 a6 a7 a8 a9)⟩, ⟨S4194304x1, (res_main_v41 a0 a1 a2 a3 a4 a5 a6 a7 a8 a9)⟩] concatenates_S4194304x1_S4194304x1_S4194304x2_d1
def res_main_v43 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .f32⟩ : BufTy).Contents (Elt F) :=
  Host.gather gather_S2048x2048_S4194304x2_S4194304_n_01_n_n_01_1_11 a1 (res_main_v42 a0 a1 a2 a3 a4 a5 a6 a7 a8 a9)
def res_main_v44 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4194304, .f32⟩ : BufTy).Contents (Elt F) :=
  mulf (res_main_v43 a0 a1 a2 a3 a4 a5 a6 a7 a8 a9) (res_main_v29 a0 a1 a2 a3 a4 a5 a6 a7 a8 a9)
def res_main_v45 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .i32⟩ : BufTy).Contents (Elt F) :=
  (iotaInDim S2048 32 0)
def res_main_v46 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  concatenate S4196352 0 [⟨S4194304, (res_main_v23 a0 a1 a2 a3 a4 a5 a6 a7 a8 a9)⟩, ⟨S2048, (res_main_v45 a0 a1 a2 a3 a4 a5 a6 a7 a8 a9)⟩] concatenates_S4194304_S2048_S4196352_d0
def res_main_v47 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  concatenate S4196352 0 [⟨S4194304, (res_main_v24 a0 a1 a2 a3 a4 a5 a6 a7 a8 a9)⟩, ⟨S2048, (res_main_v45 a0 a1 a2 a3 a4 a5 a6 a7 a8 a9)⟩] concatenates_S4194304_S2048_S4196352_d0
def res_main_cst_15 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x3F800000#32)
def res_main_v48 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_cst_15 a0 a1 a2 a3 a4 a5 a6 a7 a8 a9)
def res_main_v49 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .f32⟩ : BufTy).Contents (Elt F) :=
  concatenate S4196352 0 [⟨S4194304, (res_main_v44 a0 a1 a2 a3 a4 a5 a6 a7 a8 a9)⟩, ⟨S2048, (res_main_v48 a0 a1 a2 a3 a4 a5 a6 a7 a8 a9)⟩] concatenates_S4194304_S2048_S4196352_d0
def res_main_cst_16 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_v50 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_cst_16 a0 a1 a2 a3 a4 a5 a6 a7 a8 a9)
def res_main_c_17 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v51 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_17 a0 a1 a2 a3 a4 a5 a6 a7 a8 a9)
def res_main_v52 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i1⟩ : BufTy).Contents (Elt F) :=
  cmpi .slt (res_main_v47 a0 a1 a2 a3 a4 a5 a6 a7 a8 a9) (res_main_v51 a0 a1 a2 a3 a4 a5 a6 a7 a8 a9)
def res_main_c_18 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v53 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_18 a0 a1 a2 a3 a4 a5 a6 a7 a8 a9)
def res_main_v54 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  addi (res_main_v47 a0 a1 a2 a3 a4 a5 a6 a7 a8 a9) (res_main_v53 a0 a1 a2 a3 a4 a5 a6 a7 a8 a9)
def res_main_v55 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  select (res_main_v52 a0 a1 a2 a3 a4 a5 a6 a7 a8 a9) (res_main_v54 a0 a1 a2 a3 a4 a5 a6 a7 a8 a9) (res_main_v47 a0 a1 a2 a3 a4 a5 a6 a7 a8 a9)
def res_main_v56 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .i32⟩ : BufTy).Contents (Elt F) :=
  broadcastInDim S4196352x1 ![0] bcast_S4196352_S4196352x1_0 (res_main_v55 a0 a1 a2 a3 a4 a5 a6 a7 a8 a9)
def res_main_v57 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  Host.scatterAdd scatter_S2048_S4196352x1_S4196352_n_0_0_1 (res_main_v50 a0 a1 a2 a3 a4 a5 a6 a7 a8 a9) (res_main_v56 a0 a1 a2 a3 a4 a5 a6 a7 a8 a9) (res_main_v49 a0 a1 a2 a3 a4 a5 a6 a7 a8 a9)
def res_main_cst_19 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_v58 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_cst_19 a0 a1 a2 a3 a4 a5 a6 a7 a8 a9)
def res_main_v59 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .i1⟩ : BufTy).Contents (Elt F) :=
  cmpf .ogt (res_main_v57 a0 a1 a2 a3 a4 a5 a6 a7 a8 a9) (res_main_v58 a0 a1 a2 a3 a4 a5 a6 a7 a8 a9)
def res_main_cst_20 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x3F800000#32)
def res_main_call10_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  id (res_main_cst_20 a0 a1 a2 a3 a4 a5 a6 a7 a8 a9)
def res_main_call10_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_call10_v0 a0 a1 a2 a3 a4 a5 a6 a7 a8 a9)
def res_main_v60 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  select (res_main_v59 a0 a1 a2 a3 a4 a5 a6 a7 a8 a9) (res_main_v57 a0 a1 a2 a3 a4 a5 a6 a7 a8 a9) (res_main_call10_v1 a0 a1 a2 a3 a4 a5 a6 a7 a8 a9)
def res_main_cst_21 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_v61 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_cst_21 a0 a1 a2 a3 a4 a5 a6 a7 a8 a9)
def res_main_v62 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .i1⟩ : BufTy).Contents (Elt F) :=
  cmpf .ogt (res_main_v57 a0 a1 a2 a3 a4 a5 a6 a7 a8 a9) (res_main_v61 a0 a1 a2 a3 a4 a5 a6 a7 a8 a9)
def res_main_v63 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  Host.sqrt (res_main_v60 a0 a1 a2 a3 a4 a5 a6 a7 a8 a9)
def res_main_cst_22 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x3F800000#32)
def res_main_v64 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_cst_22 a0 a1 a2 a3 a4 a5 a6 a7 a8 a9)
def res_main_v65 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  Host.divf (res_main_v64 a0 a1 a2 a3 a4 a5 a6 a7 a8 a9) (res_main_v63 a0 a1 a2 a3 a4 a5 a6 a7 a8 a9)
def res_main_cst_23 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_call11_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  id (res_main_cst_23 a0 a1 a2 a3 a4 a5 a6 a7 a8 a9)
def res_main_call11_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_call11_v0 a0 a1 a2 a3 a4 a5 a6 a7 a8 a9)
def res_main_v66 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  select (res_main_v62 a0 a1 a2 a3 a4 a5 a6 a7 a8 a9) (res_main_v65 a0 a1 a2 a3 a4 a5 a6 a7 a8 a9) (res_main_call11_v1 a0 a1 a2 a3 a4 a5 a6 a7 a8 a9)
def res_main_c_24 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v67 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_24 a0 a1 a2 a3 a4 a5 a6 a7 a8 a9)
def res_main_v68 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i1⟩ : BufTy).Contents (Elt F) :=
  cmpi .slt (res_main_v46 a0 a1 a2 a3 a4 a5 a6 a7 a8 a9) (res_main_v67 a0 a1 a2 a3 a4 a5 a6 a7 a8 a9)
def res_main_c_25 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v69 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_25 a0 a1 a2 a3 a4 a5 a6 a7 a8 a9)
def res_main_v70 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  addi (res_main_v46 a0 a1 a2 a3 a4 a5 a6 a7 a8 a9) (res_main_v69 a0 a1 a2 a3 a4 a5 a6 a7 a8 a9)
def res_main_v71 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  select (res_main_v68 a0 a1 a2 a3 a4 a5 a6 a7 a8 a9) (res_main_v70 a0 a1 a2 a3 a4 a5 a6 a7 a8 a9) (res_main_v46 a0 a1 a2 a3 a4 a5 a6 a7 a8 a9)
def res_main_v72 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .i32⟩ : BufTy).Contents (Elt F) :=
  broadcastInDim S4196352x1 ![0] bcast_S4196352_S4196352x1_0 (res_main_v71 a0 a1 a2 a3 a4 a5 a6 a7 a8 a9)
def res_main_v73 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .f32⟩ : BufTy).Contents (Elt F) :=
  Host.gather gather_S2048_S4196352x1_S4196352_n_0_n_n_0_1_1 (res_main_v66 a0 a1 a2 a3 a4 a5 a6 a7 a8 a9) (res_main_v72 a0 a1 a2 a3 a4 a5 a6 a7 a8 a9)
def res_main_v74 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .f32⟩ : BufTy).Contents (Elt F) :=
  mulf (res_main_v73 a0 a1 a2 a3 a4 a5 a6 a7 a8 a9) (res_main_v49 a0 a1 a2 a3 a4 a5 a6 a7 a8 a9)
def res_main_c_26 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v75 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_26 a0 a1 a2 a3 a4 a5 a6 a7 a8 a9)
def res_main_v76 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i1⟩ : BufTy).Contents (Elt F) :=
  cmpi .slt (res_main_v47 a0 a1 a2 a3 a4 a5 a6 a7 a8 a9) (res_main_v75 a0 a1 a2 a3 a4 a5 a6 a7 a8 a9)
def res_main_c_27 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v77 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_27 a0 a1 a2 a3 a4 a5 a6 a7 a8 a9)
def res_main_v78 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  addi (res_main_v47 a0 a1 a2 a3 a4 a5 a6 a7 a8 a9) (res_main_v77 a0 a1 a2 a3 a4 a5 a6 a7 a8 a9)
def res_main_v79 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  select (res_main_v76 a0 a1 a2 a3 a4 a5 a6 a7 a8 a9) (res_main_v78 a0 a1 a2 a3 a4 a5 a6 a7 a8 a9) (res_main_v47 a0 a1 a2 a3 a4 a5 a6 a7 a8 a9)
def res_main_v80 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .i32⟩ : BufTy).Contents (Elt F) :=
  broadcastInDim S4196352x1 ![0] bcast_S4196352_S4196352x1_0 (res_main_v79 a0 a1 a2 a3 a4 a5 a6 a7 a8 a9)
def res_main_v81 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .f32⟩ : BufTy).Contents (Elt F) :=
  Host.gather gather_S2048_S4196352x1_S4196352_n_0_n_n_0_1_1 (res_main_v66 a0 a1 a2 a3 a4 a5 a6 a7 a8 a9) (res_main_v80 a0 a1 a2 a3 a4 a5 a6 a7 a8 a9)
def res_main_v82 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .f32⟩ : BufTy).Contents (Elt F) :=
  mulf (res_main_v74 a0 a1 a2 a3 a4 a5 a6 a7 a8 a9) (res_main_v81 a0 a1 a2 a3 a4 a5 a6 a7 a8 a9)
def res_main_v83 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  Host.dotGeneral dot_S2048x64_S64x32_S2048x32_1_0_0_1_n_n none a0 a2
def res_main_v84 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .f32⟩ : BufTy).Contents (Elt F) :=
  broadcastInDim S4196352x1 ![0] bcast_S4196352_S4196352x1_0 (res_main_v82 a0 a1 a2 a3 a4 a5 a6 a7 a8 a9)
def res_main_c_28 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v85 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_28 a0 a1 a2 a3 a4 a5 a6 a7 a8 a9)
def res_main_v86 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i1⟩ : BufTy).Contents (Elt F) :=
  cmpi .slt (res_main_v46 a0 a1 a2 a3 a4 a5 a6 a7 a8 a9) (res_main_v85 a0 a1 a2 a3 a4 a5 a6 a7 a8 a9)
def res_main_c_29 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v87 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_29 a0 a1 a2 a3 a4 a5 a6 a7 a8 a9)
def res_main_v88 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  addi (res_main_v46 a0 a1 a2 a3 a4 a5 a6 a7 a8 a9) (res_main_v87 a0 a1 a2 a3 a4 a5 a6 a7 a8 a9)
def res_main_v89 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  select (res_main_v86 a0 a1 a2 a3 a4 a5 a6 a7 a8 a9) (res_main_v88 a0 a1 a2 a3 a4 a5 a6 a7 a8 a9) (res_main_v46 a0 a1 a2 a3 a4 a5 a6 a7 a8 a9)
def res_main_v90 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .i32⟩ : BufTy).Contents (Elt F) :=
  broadcastInDim S4196352x1 ![0] bcast_S4196352_S4196352x1_0 (res_main_v89 a0 a1 a2 a3 a4 a5 a6 a7 a8 a9)
def res_main_v91 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x32, .f32⟩ : BufTy).Contents (Elt F) :=
  Host.gather gather_S2048x32_S4196352x1_S4196352x32_1_0_n_n_0_1_132 (res_main_v83 a0 a1 a2 a3 a4 a5 a6 a7 a8 a9) (res_main_v90 a0 a1 a2 a3 a4 a5 a6 a7 a8 a9)
def res_main_v92 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x32, .f32⟩ : BufTy).Contents (Elt F) :=
  broadcastInDim S4196352x32 ![0, 1] bcast_S4196352x1_S4196352x32_0_1 (res_main_v84 a0 a1 a2 a3 a4 a5 a6 a7 a8 a9)
def res_main_v93 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x32, .f32⟩ : BufTy).Contents (Elt F) :=
  mulf (res_main_v92 a0 a1 a2 a3 a4 a5 a6 a7 a8 a9) (res_main_v91 a0 a1 a2 a3 a4 a5 a6 a7 a8 a9)
def res_main_cst_30 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_v94 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![] bcast_S_S2048x32 (res_main_cst_30 a0 a1 a2 a3 a4 a5 a6 a7 a8 a9)
def res_main_c_31 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v95 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_31 a0 a1 a2 a3 a4 a5 a6 a7 a8 a9)
def res_main_v96 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i1⟩ : BufTy).Contents (Elt F) :=
  cmpi .slt (res_main_v47 a0 a1 a2 a3 a4 a5 a6 a7 a8 a9) (res_main_v95 a0 a1 a2 a3 a4 a5 a6 a7 a8 a9)
def res_main_c_32 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v97 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_32 a0 a1 a2 a3 a4 a5 a6 a7 a8 a9)
def res_main_v98 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  addi (res_main_v47 a0 a1 a2 a3 a4 a5 a6 a7 a8 a9) (res_main_v97 a0 a1 a2 a3 a4 a5 a6 a7 a8 a9)
def res_main_v99 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  select (res_main_v96 a0 a1 a2 a3 a4 a5 a6 a7 a8 a9) (res_main_v98 a0 a1 a2 a3 a4 a5 a6 a7 a8 a9) (res_main_v47 a0 a1 a2 a3 a4 a5 a6 a7 a8 a9)
def res_main_v100 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .i32⟩ : BufTy).Contents (Elt F) :=
  broadcastInDim S4196352x1 ![0] bcast_S4196352_S4196352x1_0 (res_main_v99 a0 a1 a2 a3 a4 a5 a6 a7 a8 a9)
def res_main_v101 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  Host.scatterAdd scatter_S2048x32_S4196352x1_S4196352x32_1_0_0_1 (res_main_v94 a0 a1 a2 a3 a4 a5 a6 a7 a8 a9) (res_main_v100 a0 a1 a2 a3 a4 a5 a6 a7 a8 a9) (res_main_v93 a0 a1 a2 a3 a4 a5 a6 a7 a8 a9)
def res_main_v102 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 a3
def res_main_v103 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_v102 a0 a1 a2 a3 a4 a5 a6 a7 a8 a9)
def res_main_v104 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  addf (res_main_v101 a0 a1 a2 a3 a4 a5 a6 a7 a8 a9) (res_main_v103 a0 a1 a2 a3 a4 a5 a6 a7 a8 a9)
def res_main_cst_33 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_v105 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.reduceAdd (res_main_v104 a0 a1 a2 a3 a4 a5 a6 a7 a8 a9) (res_main_cst_33 a0 a1 a2 a3 a4 a5 a6 a7 a8 a9) reducesTo_S2048x32_S32_d0 h_S_
def res_main_cst_34 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x45000000#32)
def res_main_v106 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  broadcastInDim S32 ![] bcast_S_S32 (res_main_cst_34 a0 a1 a2 a3 a4 a5 a6 a7 a8 a9)
def res_main_v107 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.divf (res_main_v105 a0 a1 a2 a3 a4 a5 a6 a7 a8 a9) (res_main_v106 a0 a1 a2 a3 a4 a5 a6 a7 a8 a9)
def res_main_c_35 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call12_cst (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_call12_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.reduceAdd (res_main_v104 a0 a1 a2 a3 a4 a5 a6 a7 a8 a9) (res_main_call12_cst a0 a1 a2 a3 a4 a5 a6 a7 a8 a9) reducesTo_S2048x32_S32_d0 h_S_
def res_main_call12_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 (res_main_call12_v0 a0 a1 a2 a3 a4 a5 a6 a7 a8 a9)
def res_main_call12_cst_0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x45000000#32)
def res_main_call12_v2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![] bcast_S_S1x32 (res_main_call12_cst_0 a0 a1 a2 a3 a4 a5 a6 a7 a8 a9)
def res_main_call12_v3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  Host.divf (res_main_call12_v1 a0 a1 a2 a3 a4 a5 a6 a7 a8 a9) (res_main_call12_v2 a0 a1 a2 a3 a4 a5 a6 a7 a8 a9)
def res_main_call12_v4 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_call12_v3 a0 a1 a2 a3 a4 a5 a6 a7 a8 a9)
def res_main_call12_v5 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  subf (res_main_v104 a0 a1 a2 a3 a4 a5 a6 a7 a8 a9) (res_main_call12_v4 a0 a1 a2 a3 a4 a5 a6 a7 a8 a9)
def res_main_call12_v6 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  mulf (res_main_call12_v5 a0 a1 a2 a3 a4 a5 a6 a7 a8 a9) (res_main_call12_v5 a0 a1 a2 a3 a4 a5 a6 a7 a8 a9)
def res_main_call12_v7 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  sitofp .f32 (res_main_c_35 a0 a1 a2 a3 a4 a5 a6 a7 a8 a9)
def res_main_call12_cst_1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x45000000#32)
def res_main_call12_v8 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  subf (res_main_call12_cst_1 a0 a1 a2 a3 a4 a5 a6 a7 a8 a9) (res_main_call12_v7 a0 a1 a2 a3 a4 a5 a6 a7 a8 a9)
def res_main_call12_cst_2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_call12_v9 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.reduceAdd (res_main_call12_v6 a0 a1 a2 a3 a4 a5 a6 a7 a8 a9) (res_main_call12_cst_2 a0 a1 a2 a3 a4 a5 a6 a7 a8 a9) reducesTo_S2048x32_S32_d0 h_S_
def res_main_call12_v10 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  broadcastInDim S32 ![] bcast_S_S32 (res_main_call12_v8 a0 a1 a2 a3 a4 a5 a6 a7 a8 a9)
def res_main_call12_v11 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.divf (res_main_call12_v9 a0 a1 a2 a3 a4 a5 a6 a7 a8 a9) (res_main_call12_v10 a0 a1 a2 a3 a4 a5 a6 a7 a8 a9)
def res_main_call12_cst_3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_call12_v12 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i1⟩ : BufTy).Contents (Elt F) :=
  cmpf .ogt (res_main_call12_v8 a0 a1 a2 a3 a4 a5 a6 a7 a8 a9) (res_main_call12_cst_3 a0 a1 a2 a3 a4 a5 a6 a7 a8 a9)
def res_main_call12_cst_4 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x7FC00000#32)
def res_main_call12_call0_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  id (res_main_call12_cst_4 a0 a1 a2 a3 a4 a5 a6 a7 a8 a9)
def res_main_call12_call0_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  broadcastInDim S32 ![] bcast_S_S32 (res_main_call12_call0_v0 a0 a1 a2 a3 a4 a5 a6 a7 a8 a9)
def res_main_v108 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  select (broadcastInDim S32 ![] bcast_S_S32 (res_main_call12_v12 a0 a1 a2 a3 a4 a5 a6 a7 a8 a9)) (res_main_call12_v11 a0 a1 a2 a3 a4 a5 a6 a7 a8 a9) (res_main_call12_call0_v1 a0 a1 a2 a3 a4 a5 a6 a7 a8 a9)
def res_main_v109 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 (res_main_v107 a0 a1 a2 a3 a4 a5 a6 a7 a8 a9)
def res_main_v110 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_v109 a0 a1 a2 a3 a4 a5 a6 a7 a8 a9)
def res_main_v111 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  subf (res_main_v104 a0 a1 a2 a3 a4 a5 a6 a7 a8 a9) (res_main_v110 a0 a1 a2 a3 a4 a5 a6 a7 a8 a9)
def res_main_cst_36 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x3727C5AC#32)
def res_main_v112 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  broadcastInDim S32 ![] bcast_S_S32 (res_main_cst_36 a0 a1 a2 a3 a4 a5 a6 a7 a8 a9)
def res_main_v113 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  addf (res_main_v108 a0 a1 a2 a3 a4 a5 a6 a7 a8 a9) (res_main_v112 a0 a1 a2 a3 a4 a5 a6 a7 a8 a9)
def res_main_v114 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.sqrt (res_main_v113 a0 a1 a2 a3 a4 a5 a6 a7 a8 a9)
def res_main_v115 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 (res_main_v114 a0 a1 a2 a3 a4 a5 a6 a7 a8 a9)
def res_main_v116 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_v115 a0 a1 a2 a3 a4 a5 a6 a7 a8 a9)
def res_main_v117 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  Host.divf (res_main_v111 a0 a1 a2 a3 a4 a5 a6 a7 a8 a9) (res_main_v116 a0 a1 a2 a3 a4 a5 a6 a7 a8 a9)
def res_main_v118 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 a4
def res_main_v119 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_v118 a0 a1 a2 a3 a4 a5 a6 a7 a8 a9)
def res_main_v120 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  mulf (res_main_v117 a0 a1 a2 a3 a4 a5 a6 a7 a8 a9) (res_main_v119 a0 a1 a2 a3 a4 a5 a6 a7 a8 a9)
def res_main_v121 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 a5
def res_main_v122 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_v121 a0 a1 a2 a3 a4 a5 a6 a7 a8 a9)
def res_main_v123 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  addf (res_main_v120 a0 a1 a2 a3 a4 a5 a6 a7 a8 a9) (res_main_v122 a0 a1 a2 a3 a4 a5 a6 a7 a8 a9)
def res_main_call13_cst (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_call13_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![] bcast_S_S2048x32 (res_main_call13_cst a0 a1 a2 a3 a4 a5 a6 a7 a8 a9)
def res_main_v124 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  maximumf (res_main_v123 a0 a1 a2 a3 a4 a5 a6 a7 a8 a9) (res_main_call13_v0 a0 a1 a2 a3 a4 a5 a6 a7 a8 a9)
def res_main_v125 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .i32⟩ : BufTy).Contents (Elt F) :=
  (iotaInDim S2048 32 0)
def res_main_v126 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  concatenate S4196352 0 [⟨S4194304, (res_main_v23 a0 a1 a2 a3 a4 a5 a6 a7 a8 a9)⟩, ⟨S2048, (res_main_v125 a0 a1 a2 a3 a4 a5 a6 a7 a8 a9)⟩] concatenates_S4194304_S2048_S4196352_d0
def res_main_v127 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  concatenate S4196352 0 [⟨S4194304, (res_main_v24 a0 a1 a2 a3 a4 a5 a6 a7 a8 a9)⟩, ⟨S2048, (res_main_v125 a0 a1 a2 a3 a4 a5 a6 a7 a8 a9)⟩] concatenates_S4194304_S2048_S4196352_d0
def res_main_cst_37 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x3F800000#32)
def res_main_v128 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_cst_37 a0 a1 a2 a3 a4 a5 a6 a7 a8 a9)
def res_main_v129 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .f32⟩ : BufTy).Contents (Elt F) :=
  concatenate S4196352 0 [⟨S4194304, (res_main_v44 a0 a1 a2 a3 a4 a5 a6 a7 a8 a9)⟩, ⟨S2048, (res_main_v128 a0 a1 a2 a3 a4 a5 a6 a7 a8 a9)⟩] concatenates_S4194304_S2048_S4196352_d0
def res_main_cst_38 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_v130 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_cst_38 a0 a1 a2 a3 a4 a5 a6 a7 a8 a9)
def res_main_c_39 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v131 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_39 a0 a1 a2 a3 a4 a5 a6 a7 a8 a9)
def res_main_v132 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i1⟩ : BufTy).Contents (Elt F) :=
  cmpi .slt (res_main_v127 a0 a1 a2 a3 a4 a5 a6 a7 a8 a9) (res_main_v131 a0 a1 a2 a3 a4 a5 a6 a7 a8 a9)
def res_main_c_40 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v133 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_40 a0 a1 a2 a3 a4 a5 a6 a7 a8 a9)
def res_main_v134 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  addi (res_main_v127 a0 a1 a2 a3 a4 a5 a6 a7 a8 a9) (res_main_v133 a0 a1 a2 a3 a4 a5 a6 a7 a8 a9)
def res_main_v135 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  select (res_main_v132 a0 a1 a2 a3 a4 a5 a6 a7 a8 a9) (res_main_v134 a0 a1 a2 a3 a4 a5 a6 a7 a8 a9) (res_main_v127 a0 a1 a2 a3 a4 a5 a6 a7 a8 a9)
def res_main_v136 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .i32⟩ : BufTy).Contents (Elt F) :=
  broadcastInDim S4196352x1 ![0] bcast_S4196352_S4196352x1_0 (res_main_v135 a0 a1 a2 a3 a4 a5 a6 a7 a8 a9)
def res_main_v137 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  Host.scatterAdd scatter_S2048_S4196352x1_S4196352_n_0_0_1 (res_main_v130 a0 a1 a2 a3 a4 a5 a6 a7 a8 a9) (res_main_v136 a0 a1 a2 a3 a4 a5 a6 a7 a8 a9) (res_main_v129 a0 a1 a2 a3 a4 a5 a6 a7 a8 a9)
def res_main_cst_41 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_v138 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_cst_41 a0 a1 a2 a3 a4 a5 a6 a7 a8 a9)
def res_main_v139 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .i1⟩ : BufTy).Contents (Elt F) :=
  cmpf .ogt (res_main_v137 a0 a1 a2 a3 a4 a5 a6 a7 a8 a9) (res_main_v138 a0 a1 a2 a3 a4 a5 a6 a7 a8 a9)
def res_main_cst_42 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x3F800000#32)
def res_main_call14_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  id (res_main_cst_42 a0 a1 a2 a3 a4 a5 a6 a7 a8 a9)
def res_main_call14_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_call14_v0 a0 a1 a2 a3 a4 a5 a6 a7 a8 a9)
def res_main_v140 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  select (res_main_v139 a0 a1 a2 a3 a4 a5 a6 a7 a8 a9) (res_main_v137 a0 a1 a2 a3 a4 a5 a6 a7 a8 a9) (res_main_call14_v1 a0 a1 a2 a3 a4 a5 a6 a7 a8 a9)
def res_main_cst_43 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_v141 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_cst_43 a0 a1 a2 a3 a4 a5 a6 a7 a8 a9)
def res_main_v142 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .i1⟩ : BufTy).Contents (Elt F) :=
  cmpf .ogt (res_main_v137 a0 a1 a2 a3 a4 a5 a6 a7 a8 a9) (res_main_v141 a0 a1 a2 a3 a4 a5 a6 a7 a8 a9)
def res_main_v143 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  Host.sqrt (res_main_v140 a0 a1 a2 a3 a4 a5 a6 a7 a8 a9)
def res_main_cst_44 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x3F800000#32)
def res_main_v144 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_cst_44 a0 a1 a2 a3 a4 a5 a6 a7 a8 a9)
def res_main_v145 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  Host.divf (res_main_v144 a0 a1 a2 a3 a4 a5 a6 a7 a8 a9) (res_main_v143 a0 a1 a2 a3 a4 a5 a6 a7 a8 a9)
def res_main_cst_45 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_call15_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  id (res_main_cst_45 a0 a1 a2 a3 a4 a5 a6 a7 a8 a9)
def res_main_call15_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  broadcastInDim S2048 ![] bcast_S_S2048 (res_main_call15_v0 a0 a1 a2 a3 a4 a5 a6 a7 a8 a9)
def res_main_v146 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048, .f32⟩ : BufTy).Contents (Elt F) :=
  select (res_main_v142 a0 a1 a2 a3 a4 a5 a6 a7 a8 a9) (res_main_v145 a0 a1 a2 a3 a4 a5 a6 a7 a8 a9) (res_main_call15_v1 a0 a1 a2 a3 a4 a5 a6 a7 a8 a9)
def res_main_c_46 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v147 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_46 a0 a1 a2 a3 a4 a5 a6 a7 a8 a9)
def res_main_v148 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i1⟩ : BufTy).Contents (Elt F) :=
  cmpi .slt (res_main_v126 a0 a1 a2 a3 a4 a5 a6 a7 a8 a9) (res_main_v147 a0 a1 a2 a3 a4 a5 a6 a7 a8 a9)
def res_main_c_47 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v149 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_47 a0 a1 a2 a3 a4 a5 a6 a7 a8 a9)
def res_main_v150 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  addi (res_main_v126 a0 a1 a2 a3 a4 a5 a6 a7 a8 a9) (res_main_v149 a0 a1 a2 a3 a4 a5 a6 a7 a8 a9)
def res_main_v151 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  select (res_main_v148 a0 a1 a2 a3 a4 a5 a6 a7 a8 a9) (res_main_v150 a0 a1 a2 a3 a4 a5 a6 a7 a8 a9) (res_main_v126 a0 a1 a2 a3 a4 a5 a6 a7 a8 a9)
def res_main_v152 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .i32⟩ : BufTy).Contents (Elt F) :=
  broadcastInDim S4196352x1 ![0] bcast_S4196352_S4196352x1_0 (res_main_v151 a0 a1 a2 a3 a4 a5 a6 a7 a8 a9)
def res_main_v153 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .f32⟩ : BufTy).Contents (Elt F) :=
  Host.gather gather_S2048_S4196352x1_S4196352_n_0_n_n_0_1_1 (res_main_v146 a0 a1 a2 a3 a4 a5 a6 a7 a8 a9) (res_main_v152 a0 a1 a2 a3 a4 a5 a6 a7 a8 a9)
def res_main_v154 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .f32⟩ : BufTy).Contents (Elt F) :=
  mulf (res_main_v153 a0 a1 a2 a3 a4 a5 a6 a7 a8 a9) (res_main_v129 a0 a1 a2 a3 a4 a5 a6 a7 a8 a9)
def res_main_c_48 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v155 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_48 a0 a1 a2 a3 a4 a5 a6 a7 a8 a9)
def res_main_v156 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i1⟩ : BufTy).Contents (Elt F) :=
  cmpi .slt (res_main_v127 a0 a1 a2 a3 a4 a5 a6 a7 a8 a9) (res_main_v155 a0 a1 a2 a3 a4 a5 a6 a7 a8 a9)
def res_main_c_49 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v157 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_49 a0 a1 a2 a3 a4 a5 a6 a7 a8 a9)
def res_main_v158 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  addi (res_main_v127 a0 a1 a2 a3 a4 a5 a6 a7 a8 a9) (res_main_v157 a0 a1 a2 a3 a4 a5 a6 a7 a8 a9)
def res_main_v159 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  select (res_main_v156 a0 a1 a2 a3 a4 a5 a6 a7 a8 a9) (res_main_v158 a0 a1 a2 a3 a4 a5 a6 a7 a8 a9) (res_main_v127 a0 a1 a2 a3 a4 a5 a6 a7 a8 a9)
def res_main_v160 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .i32⟩ : BufTy).Contents (Elt F) :=
  broadcastInDim S4196352x1 ![0] bcast_S4196352_S4196352x1_0 (res_main_v159 a0 a1 a2 a3 a4 a5 a6 a7 a8 a9)
def res_main_v161 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .f32⟩ : BufTy).Contents (Elt F) :=
  Host.gather gather_S2048_S4196352x1_S4196352_n_0_n_n_0_1_1 (res_main_v146 a0 a1 a2 a3 a4 a5 a6 a7 a8 a9) (res_main_v160 a0 a1 a2 a3 a4 a5 a6 a7 a8 a9)
def res_main_v162 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .f32⟩ : BufTy).Contents (Elt F) :=
  mulf (res_main_v154 a0 a1 a2 a3 a4 a5 a6 a7 a8 a9) (res_main_v161 a0 a1 a2 a3 a4 a5 a6 a7 a8 a9)
def res_main_v163 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  Host.dotGeneral dot_S2048x32_S32x32_S2048x32_1_0_0_1_n_n none (res_main_v124 a0 a1 a2 a3 a4 a5 a6 a7 a8 a9) a6
def res_main_v164 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .f32⟩ : BufTy).Contents (Elt F) :=
  broadcastInDim S4196352x1 ![0] bcast_S4196352_S4196352x1_0 (res_main_v162 a0 a1 a2 a3 a4 a5 a6 a7 a8 a9)
def res_main_c_50 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v165 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_50 a0 a1 a2 a3 a4 a5 a6 a7 a8 a9)
def res_main_v166 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i1⟩ : BufTy).Contents (Elt F) :=
  cmpi .slt (res_main_v126 a0 a1 a2 a3 a4 a5 a6 a7 a8 a9) (res_main_v165 a0 a1 a2 a3 a4 a5 a6 a7 a8 a9)
def res_main_c_51 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v167 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_51 a0 a1 a2 a3 a4 a5 a6 a7 a8 a9)
def res_main_v168 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  addi (res_main_v126 a0 a1 a2 a3 a4 a5 a6 a7 a8 a9) (res_main_v167 a0 a1 a2 a3 a4 a5 a6 a7 a8 a9)
def res_main_v169 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  select (res_main_v166 a0 a1 a2 a3 a4 a5 a6 a7 a8 a9) (res_main_v168 a0 a1 a2 a3 a4 a5 a6 a7 a8 a9) (res_main_v126 a0 a1 a2 a3 a4 a5 a6 a7 a8 a9)
def res_main_v170 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .i32⟩ : BufTy).Contents (Elt F) :=
  broadcastInDim S4196352x1 ![0] bcast_S4196352_S4196352x1_0 (res_main_v169 a0 a1 a2 a3 a4 a5 a6 a7 a8 a9)
def res_main_v171 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x32, .f32⟩ : BufTy).Contents (Elt F) :=
  Host.gather gather_S2048x32_S4196352x1_S4196352x32_1_0_n_n_0_1_132 (res_main_v163 a0 a1 a2 a3 a4 a5 a6 a7 a8 a9) (res_main_v170 a0 a1 a2 a3 a4 a5 a6 a7 a8 a9)
def res_main_v172 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x32, .f32⟩ : BufTy).Contents (Elt F) :=
  broadcastInDim S4196352x32 ![0, 1] bcast_S4196352x1_S4196352x32_0_1 (res_main_v164 a0 a1 a2 a3 a4 a5 a6 a7 a8 a9)
def res_main_v173 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x32, .f32⟩ : BufTy).Contents (Elt F) :=
  mulf (res_main_v172 a0 a1 a2 a3 a4 a5 a6 a7 a8 a9) (res_main_v171 a0 a1 a2 a3 a4 a5 a6 a7 a8 a9)
def res_main_cst_52 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_v174 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![] bcast_S_S2048x32 (res_main_cst_52 a0 a1 a2 a3 a4 a5 a6 a7 a8 a9)
def res_main_c_53 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_v175 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_53 a0 a1 a2 a3 a4 a5 a6 a7 a8 a9)
def res_main_v176 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i1⟩ : BufTy).Contents (Elt F) :=
  cmpi .slt (res_main_v127 a0 a1 a2 a3 a4 a5 a6 a7 a8 a9) (res_main_v175 a0 a1 a2 a3 a4 a5 a6 a7 a8 a9)
def res_main_c_54 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 2048#32)
def res_main_v177 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  broadcastInDim S4196352 ![] bcast_S_S4196352 (res_main_c_54 a0 a1 a2 a3 a4 a5 a6 a7 a8 a9)
def res_main_v178 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  addi (res_main_v127 a0 a1 a2 a3 a4 a5 a6 a7 a8 a9) (res_main_v177 a0 a1 a2 a3 a4 a5 a6 a7 a8 a9)
def res_main_v179 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352, .i32⟩ : BufTy).Contents (Elt F) :=
  select (res_main_v176 a0 a1 a2 a3 a4 a5 a6 a7 a8 a9) (res_main_v178 a0 a1 a2 a3 a4 a5 a6 a7 a8 a9) (res_main_v127 a0 a1 a2 a3 a4 a5 a6 a7 a8 a9)
def res_main_v180 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S4196352x1, .i32⟩ : BufTy).Contents (Elt F) :=
  broadcastInDim S4196352x1 ![0] bcast_S4196352_S4196352x1_0 (res_main_v179 a0 a1 a2 a3 a4 a5 a6 a7 a8 a9)
def res_main_v181 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  Host.scatterAdd scatter_S2048x32_S4196352x1_S4196352x32_1_0_0_1 (res_main_v174 a0 a1 a2 a3 a4 a5 a6 a7 a8 a9) (res_main_v180 a0 a1 a2 a3 a4 a5 a6 a7 a8 a9) (res_main_v173 a0 a1 a2 a3 a4 a5 a6 a7 a8 a9)
def res_main_v182 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 a7
def res_main_v183 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_v182 a0 a1 a2 a3 a4 a5 a6 a7 a8 a9)
def res_main_v184 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  addf (res_main_v181 a0 a1 a2 a3 a4 a5 a6 a7 a8 a9) (res_main_v183 a0 a1 a2 a3 a4 a5 a6 a7 a8 a9)
def res_main_cst_55 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_v185 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.reduceAdd (res_main_v184 a0 a1 a2 a3 a4 a5 a6 a7 a8 a9) (res_main_cst_55 a0 a1 a2 a3 a4 a5 a6 a7 a8 a9) reducesTo_S2048x32_S32_d0 h_S_
def res_main_cst_56 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x45000000#32)
def res_main_v186 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  broadcastInDim S32 ![] bcast_S_S32 (res_main_cst_56 a0 a1 a2 a3 a4 a5 a6 a7 a8 a9)
def res_main_v187 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.divf (res_main_v185 a0 a1 a2 a3 a4 a5 a6 a7 a8 a9) (res_main_v186 a0 a1 a2 a3 a4 a5 a6 a7 a8 a9)
def res_main_c_57 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i32⟩ : BufTy).Contents (Elt F) :=
  (constantI S_ 32 0#32)
def res_main_call16_cst (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_call16_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.reduceAdd (res_main_v184 a0 a1 a2 a3 a4 a5 a6 a7 a8 a9) (res_main_call16_cst a0 a1 a2 a3 a4 a5 a6 a7 a8 a9) reducesTo_S2048x32_S32_d0 h_S_
def res_main_call16_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 (res_main_call16_v0 a0 a1 a2 a3 a4 a5 a6 a7 a8 a9)
def res_main_call16_cst_0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x45000000#32)
def res_main_call16_v2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![] bcast_S_S1x32 (res_main_call16_cst_0 a0 a1 a2 a3 a4 a5 a6 a7 a8 a9)
def res_main_call16_v3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  Host.divf (res_main_call16_v1 a0 a1 a2 a3 a4 a5 a6 a7 a8 a9) (res_main_call16_v2 a0 a1 a2 a3 a4 a5 a6 a7 a8 a9)
def res_main_call16_v4 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_call16_v3 a0 a1 a2 a3 a4 a5 a6 a7 a8 a9)
def res_main_call16_v5 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  subf (res_main_v184 a0 a1 a2 a3 a4 a5 a6 a7 a8 a9) (res_main_call16_v4 a0 a1 a2 a3 a4 a5 a6 a7 a8 a9)
def res_main_call16_v6 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  mulf (res_main_call16_v5 a0 a1 a2 a3 a4 a5 a6 a7 a8 a9) (res_main_call16_v5 a0 a1 a2 a3 a4 a5 a6 a7 a8 a9)
def res_main_call16_v7 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  sitofp .f32 (res_main_c_57 a0 a1 a2 a3 a4 a5 a6 a7 a8 a9)
def res_main_call16_cst_1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x45000000#32)
def res_main_call16_v8 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  subf (res_main_call16_cst_1 a0 a1 a2 a3 a4 a5 a6 a7 a8 a9) (res_main_call16_v7 a0 a1 a2 a3 a4 a5 a6 a7 a8 a9)
def res_main_call16_cst_2 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_call16_v9 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.reduceAdd (res_main_call16_v6 a0 a1 a2 a3 a4 a5 a6 a7 a8 a9) (res_main_call16_cst_2 a0 a1 a2 a3 a4 a5 a6 a7 a8 a9) reducesTo_S2048x32_S32_d0 h_S_
def res_main_call16_v10 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  broadcastInDim S32 ![] bcast_S_S32 (res_main_call16_v8 a0 a1 a2 a3 a4 a5 a6 a7 a8 a9)
def res_main_call16_v11 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.divf (res_main_call16_v9 a0 a1 a2 a3 a4 a5 a6 a7 a8 a9) (res_main_call16_v10 a0 a1 a2 a3 a4 a5 a6 a7 a8 a9)
def res_main_call16_cst_3 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x00000000#32)
def res_main_call16_v12 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .i1⟩ : BufTy).Contents (Elt F) :=
  cmpf .ogt (res_main_call16_v8 a0 a1 a2 a3 a4 a5 a6 a7 a8 a9) (res_main_call16_cst_3 a0 a1 a2 a3 a4 a5 a6 a7 a8 a9)
def res_main_call16_cst_4 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x7FC00000#32)
def res_main_call16_call0_v0 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  id (res_main_call16_cst_4 a0 a1 a2 a3 a4 a5 a6 a7 a8 a9)
def res_main_call16_call0_v1 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  broadcastInDim S32 ![] bcast_S_S32 (res_main_call16_call0_v0 a0 a1 a2 a3 a4 a5 a6 a7 a8 a9)
def res_main_v188 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  select (broadcastInDim S32 ![] bcast_S_S32 (res_main_call16_v12 a0 a1 a2 a3 a4 a5 a6 a7 a8 a9)) (res_main_call16_v11 a0 a1 a2 a3 a4 a5 a6 a7 a8 a9) (res_main_call16_call0_v1 a0 a1 a2 a3 a4 a5 a6 a7 a8 a9)
def res_main_v189 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 (res_main_v187 a0 a1 a2 a3 a4 a5 a6 a7 a8 a9)
def res_main_v190 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_v189 a0 a1 a2 a3 a4 a5 a6 a7 a8 a9)
def res_main_v191 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  subf (res_main_v184 a0 a1 a2 a3 a4 a5 a6 a7 a8 a9) (res_main_v190 a0 a1 a2 a3 a4 a5 a6 a7 a8 a9)
def res_main_cst_58 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S_, .f32⟩ : BufTy).Contents (Elt F) :=
  (constant S_ .f32 0x3727C5AC#32)
def res_main_v192 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  broadcastInDim S32 ![] bcast_S_S32 (res_main_cst_58 a0 a1 a2 a3 a4 a5 a6 a7 a8 a9)
def res_main_v193 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  addf (res_main_v188 a0 a1 a2 a3 a4 a5 a6 a7 a8 a9) (res_main_v192 a0 a1 a2 a3 a4 a5 a6 a7 a8 a9)
def res_main_v194 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S32, .f32⟩ : BufTy).Contents (Elt F) :=
  Host.sqrt (res_main_v193 a0 a1 a2 a3 a4 a5 a6 a7 a8 a9)
def res_main_v195 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 (res_main_v194 a0 a1 a2 a3 a4 a5 a6 a7 a8 a9)
def res_main_v196 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_v195 a0 a1 a2 a3 a4 a5 a6 a7 a8 a9)
def res_main_v197 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  Host.divf (res_main_v191 a0 a1 a2 a3 a4 a5 a6 a7 a8 a9) (res_main_v196 a0 a1 a2 a3 a4 a5 a6 a7 a8 a9)
def res_main_v198 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 a8
def res_main_v199 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_v198 a0 a1 a2 a3 a4 a5 a6 a7 a8 a9)
def res_main_v200 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  mulf (res_main_v197 a0 a1 a2 a3 a4 a5 a6 a7 a8 a9) (res_main_v199 a0 a1 a2 a3 a4 a5 a6 a7 a8 a9)
def res_main_v201 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S1x32, .f32⟩ : BufTy).Contents (Elt F) :=
  broadcastInDim S1x32 ![1] bcast_S32_S1x32_1 a9
def res_main_v202 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  broadcastInDim S2048x32 ![0, 1] bcast_S1x32_S2048x32_0_1 (res_main_v201 a0 a1 a2 a3 a4 a5 a6 a7 a8 a9)
def res_main_v203 (a0 : (⟨S2048x64, .f32⟩ : BufTy).Contents (Elt F)) (a1 : (⟨S2048x2048, .f32⟩ : BufTy).Contents (Elt F)) (a2 : (⟨S64x32, .f32⟩ : BufTy).Contents (Elt F)) (a3 : (⟨S32, .f32⟩ : BufTy).Contents (Elt F)) (a4 : (⟨S32, .f32⟩ : BufTy).Contents (Elt F)) (a5 : (⟨S32, .f32⟩ : BufTy).Contents (Elt F)) (a6 : (⟨S32x32, .f32⟩ : BufTy).Contents (Elt F)) (a7 : (⟨S32, .f32⟩ : BufTy).Contents (Elt F)) (a8 : (⟨S32, .f32⟩ : BufTy).Contents (Elt F)) (a9 : (⟨S32, .f32⟩ : BufTy).Contents (Elt F)) :
    (⟨S2048x32, .f32⟩ : BufTy).Contents (Elt F) :=
  addf (res_main_v200 a0 a1 a2 a3 a4 a5 a6 a7 a8 a9) (res_main_v202 a0 a1 a2 a3 a4 a5 a6 a7 a8 a9)

end Cert.ReferenceIdeal.Hand

end
-- ==== Proof.RefStepsC2Lib.lean ====
/-
  A single-assignment line of operations, read at one buffer.

  A line of operations in which operation k writes only the buffer numbered lo + k, and reads only buffers
  with smaller numbers, assigns every buffer once: the operations before k cannot have written buffer
  lo + k or above, and the operations after k write only higher numbers.  So after the whole line

  * a buffer numbered below lo holds what it held before the line;
  * buffer lo + k holds operation k's function of the operands' contents after the whole line (they are
    what they were when operation k ran, since nothing later writes them).

  The second statement is given once per shape of operation (no operand, one, two, three, and the recast),
  with the operands' final contents as hypotheses, so that the final contents of every buffer follow one
  operation at a time, in the line's order.
-/
import Idealize.ShloMosaic.Lib.StableHlo.Run

noncomputable section

namespace Cert.Gcn.Line

open Idealize.ShloMosaic Idealize.ShloMosaic.StableHlo

variable {τ : Topo} {sig : RefSig} {Val : EltTy → Type}

/-- A reference's number. -/
abbrev rix (r : Ref sig .tc) : ℕ := r.idx.val

/-- Operation k of the line writes only the buffer numbered lo + k. -/
def Numbered : ℕ → List (HloOp τ sig Val) → Prop
  | _, [] => True
  | lo, op :: l => (∀ r : Ref sig .tc, Proc.devRef (τ := τ) .tc r ∈ op.writes → rix r = lo) ∧ Numbered (lo + 1) l

/-- An operation that writes the one buffer y writes only the buffer with y's number. -/
theorem writes_single {op : HloOp τ sig Val} {y : Ref sig .tc} {i : ℕ}
    (hw : op.writes = {Proc.devRef (τ := τ) .tc y}) (hi : rix y = i) :
    ∀ r : Ref sig .tc, Proc.devRef (τ := τ) .tc r ∈ op.writes → rix r = i := by
  intro r hr
  rw [hw, Finset.mem_singleton] at hr
  rw [Proc.devRef_injective _ hr]
  exact hi

/-- Two lines one after the other are numbered when each is, the second from where the first ends. -/
theorem numbered_append : ∀ (lo : ℕ) (l₁ l₂ : List (HloOp τ sig Val)),
    Numbered lo l₁ → Numbered (lo + l₁.length) l₂ → Numbered lo (l₁ ++ l₂)
  | _, [], l₂, _, h₂ => by simpa using h₂
  | lo, op :: l, l₂, h₁, h₂ => by
    refine ⟨h₁.1, numbered_append (lo + 1) l l₂ h₁.2 ?_⟩
    have : lo + 1 + l.length = lo + (op :: l).length := by simp [List.length_cons]; omega
    rw [this]; exact h₂

/-- A buffer numbered below the line's first number is not written. -/
theorem keep_low : ∀ (lo : ℕ) (l : List (HloOp τ sig Val)), Numbered lo l → ∀ (U : Valuation τ sig Val) (r : Ref sig .tc),
    rix r < lo → after l U (Proc.devRef .tc r) = U (Proc.devRef .tc r)
  | _, [], _, _, _, _ => rfl
  | lo, op :: l, h, U, r, hr => by
    rw [after_cons, keep_low (lo + 1) l h.2 (op.result U) r (by omega)]
    exact op.result_of_not_mem U fun hm => by have := h.1 r hm; omega

/-- A buffer numbered below lo + k holds after the first k operations what it holds after all. -/
theorem operand_at : ∀ (lo : ℕ) (l : List (HloOp τ sig Val)), Numbered lo l → ∀ (k : ℕ) (U : Valuation τ sig Val) (r : Ref sig .tc),
    rix r < lo + k → after (l.take k) U (Proc.devRef .tc r) = after l U (Proc.devRef .tc r)
  | _, [], _, _, _, _, _ => by simp
  | lo, op :: l, h, 0, U, r, hr => by
    rw [List.take_zero, after_nil]
    exact (keep_low lo (op :: l) h U r (by omega)).symm
  | lo, op :: l, h, k + 1, U, r, hr => by
    rw [List.take_succ_cons, after_cons, after_cons]
    exact operand_at (lo + 1) l h.2 k (op.result U) r (by omega)

/-- Buffer lo + k (or any below) holds after the line what operation k leaves in it. -/
theorem value_at : ∀ (lo : ℕ) (l : List (HloOp τ sig Val)), Numbered lo l → ∀ (k : ℕ) (op : HloOp τ sig Val), l[k]? = some op →
    ∀ (U : Valuation τ sig Val) (r : Ref sig .tc), rix r ≤ lo + k →
      after l U (Proc.devRef .tc r) = op.result (after (l.take k) U) (Proc.devRef .tc r)
  | _, [], _, _, _, hop, _, _, _ => by simp at hop
  | lo, o :: l, h, 0, op, hop, U, r, hr => by
    have : o = op := by simpa using hop
    subst this
    rw [List.take_zero, after_nil, after_cons]
    exact keep_low (lo + 1) l h.2 (o.result U) r (by omega)
  | lo, o :: l, h, k + 1, op, hop, U, r, hr => by
    rw [List.take_succ_cons, after_cons, after_cons]
    exact value_at (lo + 1) l h.2 k op (by simpa using hop) (o.result U) r (by omega)

section Steps

variable {lo : ℕ} {l : List (HloOp τ sig Val)} (hN : Numbered lo l) {k : ℕ}
include hN

theorem step_nullary {y : Ref sig .tc} {v : y.ty.Contents Val} {hy}
    (hop : l[k]? = some (nullary (τ := τ) y v hy)) (hyk : rix y = lo + k) (U : Valuation τ sig Val) :
    after l U (Proc.devRef .tc y) = v := by
  rw [value_at lo l hN k _ hop U y (by omega), nullary_result]

theorem step_unary {x y : Ref sig .tc} {f : x.ty.Contents Val → y.ty.Contents Val} {hx hy}
    (hop : l[k]? = some (unary (τ := τ) x y f hx hy)) (hyk : rix y = lo + k) (hxk : rix x < lo + k)
    (U : Valuation τ sig Val) {rx : x.ty.Contents Val} (hvx : after l U (Proc.devRef .tc x) = rx) :
    after l U (Proc.devRef .tc y) = f rx := by
  rw [value_at lo l hN k _ hop U y (by omega), unary_result, operand_at lo l hN k U x hxk, hvx]

theorem step_binary {a b y : Ref sig .tc} {f : a.ty.Contents Val → b.ty.Contents Val → y.ty.Contents Val} {ha hb hy}
    (hop : l[k]? = some (binary (τ := τ) a b y f ha hb hy)) (hyk : rix y = lo + k)
    (hak : rix a < lo + k) (hbk : rix b < lo + k)
    (U : Valuation τ sig Val) {ra : a.ty.Contents Val} {rb : b.ty.Contents Val}
    (hva : after l U (Proc.devRef .tc a) = ra) (hvb : after l U (Proc.devRef .tc b) = rb) :
    after l U (Proc.devRef .tc y) = f ra rb := by
  rw [value_at lo l hN k _ hop U y (by omega), binary_result, operand_at lo l hN k U a hak,
    operand_at lo l hN k U b hbk, hva, hvb]

theorem step_ternary {c a b y : Ref sig .tc}
    {f : c.ty.Contents Val → a.ty.Contents Val → b.ty.Contents Val → y.ty.Contents Val} {hc ha hb hy}
    (hop : l[k]? = some (ternary (τ := τ) c a b y f hc ha hb hy)) (hyk : rix y = lo + k)
    (hck : rix c < lo + k) (hak : rix a < lo + k) (hbk : rix b < lo + k)
    (U : Valuation τ sig Val) {rc : c.ty.Contents Val} {ra : a.ty.Contents Val} {rb : b.ty.Contents Val}
    (hvc : after l U (Proc.devRef .tc c) = rc) (hva : after l U (Proc.devRef .tc a) = ra)
    (hvb : after l U (Proc.devRef .tc b) = rb) :
    after l U (Proc.devRef .tc y) = f rc ra rb := by
  rw [value_at lo l hN k _ hop U y (by omega), ternary_result, operand_at lo l hN k U c hck,
    operand_at lo l hN k U a hak, operand_at lo l hN k U b hbk, hvc, hva, hvb]

theorem step_reshape {x y : Ref sig .tc} {he : x.ty.elt = y.ty.elt} {hn : x.ty.shape.ShapeCasts y.ty.shape} {hx hy}
    (hop : l[k]? = some (reshape (τ := τ) (Val := Val) x y he hn hx hy)) (hyk : rix y = lo + k) (hxk : rix x < lo + k)
    (U : Valuation τ sig Val) {rx : x.ty.Contents Val} (hvx : after l U (Proc.devRef .tc x) = rx) :
    after l U (Proc.devRef .tc y) = fun i => he ▸ shapeCast y.ty.shape rx hn i := by
  rw [value_at lo l hN k _ hop U y (by omega), reshape_result, operand_at lo l hN k U x hxk, hvx]

end Steps

/-! ### Operations through typed references

A typed reference carries the proof that its buffer's type is the value's type, and its operation's function
moves contents across that equation both ways. Heterogeneous equality states the step without the transports:
the written buffer's contents ARE the function's value at the operands' contents, whatever the types are
called. -/

section TypedSteps

/-- Contents moved to the buffer's type are the same contents. -/
theorem toBuf_heq {T : BufTy} (x : TRef sig T) (v : T.Contents Val) : HEq (x.toBuf v) v := cast_heq _ _

/-- Contents moved to the value's type are the same contents. -/
theorem ofBuf_eq_of_heq {T : BufTy} (x : TRef sig T) {u : x.ref.ty.Contents Val} {r : T.Contents Val} (h : HEq u r) :
    x.ofBuf u = r := eq_of_heq ((cast_heq _ _).trans h)

variable {lo : ℕ} {l : List (HloOp τ sig Val)} (hN : Numbered lo l) {k : ℕ}
include hN

theorem step_tnullary {Ty : BufTy} {Z : TRef sig Ty} {v : Ty.Contents Val}
    (hop : l[k]? = some (TRef.nullary (τ := τ) Z v)) (hyk : rix Z.ref = lo + k) (U : Valuation τ sig Val) :
    HEq (after l U (Proc.devRef .tc Z.ref)) v := by
  rw [step_nullary hN hop hyk U]
  exact toBuf_heq Z v

theorem step_tunary {Tx Ty : BufTy} {X : TRef sig Tx} {Z : TRef sig Ty} {g : Tx.Contents Val → Ty.Contents Val}
    (hop : l[k]? = some (TRef.unary (τ := τ) X Z g)) (hyk : rix Z.ref = lo + k) (hxk : rix X.ref < lo + k)
    (U : Valuation τ sig Val) {rx : Tx.Contents Val} (hvx : HEq (after l U (Proc.devRef .tc X.ref)) rx) :
    HEq (after l U (Proc.devRef .tc Z.ref)) (g rx) := by
  rw [step_unary hN hop hyk hxk U rfl]
  show HEq (Z.toBuf (g (X.ofBuf _))) _
  rw [ofBuf_eq_of_heq X hvx]
  exact toBuf_heq Z _

theorem step_tbinary {Ta Tb Ty : BufTy} {X : TRef sig Ta} {Y : TRef sig Tb} {Z : TRef sig Ty}
    {g : Ta.Contents Val → Tb.Contents Val → Ty.Contents Val}
    (hop : l[k]? = some (TRef.binary (τ := τ) X Y Z g)) (hyk : rix Z.ref = lo + k)
    (hak : rix X.ref < lo + k) (hbk : rix Y.ref < lo + k)
    (U : Valuation τ sig Val) {ra : Ta.Contents Val} {rb : Tb.Contents Val}
    (hva : HEq (after l U (Proc.devRef .tc X.ref)) ra) (hvb : HEq (after l U (Proc.devRef .tc Y.ref)) rb) :
    HEq (after l U (Proc.devRef .tc Z.ref)) (g ra rb) := by
  rw [step_binary hN hop hyk hak hbk U rfl rfl]
  show HEq (Z.toBuf (g (X.ofBuf _) (Y.ofBuf _))) _
  rw [ofBuf_eq_of_heq X hva, ofBuf_eq_of_heq Y hvb]
  exact toBuf_heq Z _

theorem step_tternary {Tc Ta Tb Ty : BufTy} {W : TRef sig Tc} {X : TRef sig Ta} {Y : TRef sig Tb} {Z : TRef sig Ty}
    {g : Tc.Contents Val → Ta.Contents Val → Tb.Contents Val → Ty.Contents Val}
    (hop : l[k]? = some (TRef.ternary (τ := τ) W X Y Z g)) (hyk : rix Z.ref = lo + k)
    (hck : rix W.ref < lo + k) (hak : rix X.ref < lo + k) (hbk : rix Y.ref < lo + k)
    (U : Valuation τ sig Val) {rc : Tc.Contents Val} {ra : Ta.Contents Val} {rb : Tb.Contents Val}
    (hvc : HEq (after l U (Proc.devRef .tc W.ref)) rc) (hva : HEq (after l U (Proc.devRef .tc X.ref)) ra)
    (hvb : HEq (after l U (Proc.devRef .tc Y.ref)) rb) :
    HEq (after l U (Proc.devRef .tc Z.ref)) (g rc ra rb) := by
  rw [step_ternary hN hop hyk hck hak hbk U rfl rfl rfl]
  show HEq (Z.toBuf (g (W.ofBuf _) (X.ofBuf _) (Y.ofBuf _))) _
  rw [ofBuf_eq_of_heq W hvc, ofBuf_eq_of_heq X hva, ofBuf_eq_of_heq Y hvb]
  exact toBuf_heq Z _

end TypedSteps

/-- An entry of a list is the same entry of the list with more appended. -/
theorem get_lift {α : Type} (l m : List α) (i : ℕ) (x : α) (h : l[i]? = some x) : (l ++ m)[i]? = some x := by
  have hi : i < l.length := by
    by_contra hc
    rw [List.getElem?_eq_none (by omega)] at h
    exact absurd h (by simp)
  rw [List.getElem?_append_left hi]
  exact h

/-- Entry j of a list appended to a list of n entries is entry n + j of the whole. -/
theorem get_last {α : Type} (pre w : List α) (n : ℕ) (hn : pre.length = n) (j : ℕ) (x : α) (h : w[j]? = some x) :
    (pre ++ w)[n + j]? = some x := by
  subst hn
  rw [List.getElem?_append_right (by omega)]
  simpa using h

end Cert.Gcn.Line

end
-- ==== Proof.RefStepsC2.lean ====
/-
  What every buffer of the reference's line holds when the line ends, one operation at a time. Operation k of the
  404 writes the buffer numbered 10 + k and reads buffers with smaller numbers (the ten arguments are numbered
  0 to 9), so the line assigns every buffer once: after the whole line an argument holds what it held before
  (arg_main_argK), and the buffer an operation writes holds that operation's function of what its operands hold
  after the whole line. Taken in the line's order this gives, for every buffer, the value RefVals.lean names
  res_ of that buffer at the arguments (val_ of the buffer): each lemma is one step, from the lemmas of the
  operation's operands, and the named value unfolds once to the operation's function of the operands' named values.
-/
import proofs.«121040_g28046136442917_fold_wed_c4_759_6_alg».proof.Proof.RefOps
import proofs.«121040_g28046136442917_fold_wed_c4_759_6_alg».proof.Proof.RefVals
import proofs.«121040_g28046136442917_fold_wed_c4_759_6_alg».proof.Proof.RefStepsC2Lib
import Idealize.ShloMosaic.Lib.StableHlo.Run

noncomputable section

namespace Cert.ReferenceIdeal.Hand

open Idealize.ShloMosaic Idealize.SL.Sem Idealize.ShloMosaic.TcCoe Idealize.ShloMosaic.StableHlo
open Cert.ReferenceIdeal Cert.ReferenceIdeal.Gen

variable {F : FTy → Type} [FloatOps F]

open Cert.Gcn.Line

set_option maxRecDepth 16384 in
theorem ops0_numbered : Numbered 10 (ops0 : List (HloOp τ sig (Elt F))) :=
  ⟨writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl,
    trivial⟩

set_option maxRecDepth 16384 in
theorem ops1_numbered : Numbered 157 (ops1 : List (HloOp τ sig (Elt F))) :=
  ⟨writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl,
    trivial⟩

set_option maxRecDepth 16384 in
theorem ops2_numbered : Numbered 221 (ops2 : List (HloOp τ sig (Elt F))) :=
  ⟨writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl,
    trivial⟩

set_option maxRecDepth 16384 in
theorem ops3_numbered : Numbered 304 (ops3 : List (HloOp τ sig (Elt F))) :=
  ⟨writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl,
    trivial⟩

set_option maxRecDepth 16384 in
theorem ops4_numbered : Numbered 368 (ops4 : List (HloOp τ sig (Elt F))) :=
  ⟨writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl, writes_single rfl rfl, writes_single rfl rfl, writes_single rfl rfl, writes_single rfl rfl,
    writes_single rfl rfl,
    trivial⟩

theorem ops0_length : (ops0 : List (HloOp τ sig (Elt F))).length = 147 := rfl
theorem ops1_length : (ops1 : List (HloOp τ sig (Elt F))).length = 64 := rfl
theorem ops2_length : (ops2 : List (HloOp τ sig (Elt F))).length = 83 := rfl
theorem ops3_length : (ops3 : List (HloOp τ sig (Elt F))).length = 64 := rfl
theorem ops4_length : (ops4 : List (HloOp τ sig (Elt F))).length = 46 := rfl

/-- Operation k of the whole line writes the buffer numbered 10 + k. -/
theorem ops_numbered : Numbered 10 (ops : List (HloOp τ sig (Elt F))) :=
  numbered_append 10 (ops0 ++ ops1 ++ ops2 ++ ops3) ops4 (numbered_append 10 (ops0 ++ ops1 ++ ops2) ops3 (numbered_append 10 (ops0 ++ ops1) ops2 (numbered_append 10 (ops0) ops1 (ops0_numbered)
    (by rw [show (ops0 : List (HloOp τ sig (Elt F))).length = 147 from by simp only [List.length_append, ops0_length]]; exact ops1_numbered))
    (by rw [show (ops0 ++ ops1 : List (HloOp τ sig (Elt F))).length = 211 from by simp only [List.length_append, ops0_length, ops1_length]]; exact ops2_numbered))
    (by rw [show (ops0 ++ ops1 ++ ops2 : List (HloOp τ sig (Elt F))).length = 294 from by simp only [List.length_append, ops0_length, ops1_length, ops2_length]]; exact ops3_numbered))
    (by rw [show (ops0 ++ ops1 ++ ops2 ++ ops3 : List (HloOp τ sig (Elt F))).length = 358 from by simp only [List.length_append, ops0_length, ops1_length, ops2_length, ops3_length]]; exact ops4_numbered)

theorem get0 (j : ℕ) (x : HloOp τ sig (Elt F)) (h : (ops0 : List (HloOp τ sig (Elt F)))[j]? = some x) :
    (ops : List (HloOp τ sig (Elt F)))[j]? = some x :=
  get_lift _ _ _ x (get_lift _ _ _ x (get_lift _ _ _ x (get_lift ops0 ops1 j x h)))
theorem get1 (j : ℕ) (x : HloOp τ sig (Elt F)) (h : (ops1 : List (HloOp τ sig (Elt F)))[j]? = some x) :
    (ops : List (HloOp τ sig (Elt F)))[147 + j]? = some x :=
  get_lift _ _ _ x (get_lift _ _ _ x (get_lift _ _ _ x (get_last (ops0) ops1 147 (by simp only [List.length_append, ops0_length]) j x h)))
theorem get2 (j : ℕ) (x : HloOp τ sig (Elt F)) (h : (ops2 : List (HloOp τ sig (Elt F)))[j]? = some x) :
    (ops : List (HloOp τ sig (Elt F)))[211 + j]? = some x :=
  get_lift _ _ _ x (get_lift _ _ _ x (get_last (ops0 ++ ops1) ops2 211 (by simp only [List.length_append, ops0_length, ops1_length]) j x h))
theorem get3 (j : ℕ) (x : HloOp τ sig (Elt F)) (h : (ops3 : List (HloOp τ sig (Elt F)))[j]? = some x) :
    (ops : List (HloOp τ sig (Elt F)))[294 + j]? = some x :=
  get_lift _ _ _ x (get_last (ops0 ++ ops1 ++ ops2) ops3 294 (by simp only [List.length_append, ops0_length, ops1_length, ops2_length]) j x h)
theorem get4 (j : ℕ) (x : HloOp τ sig (Elt F)) (h : (ops4 : List (HloOp τ sig (Elt F)))[j]? = some x) :
    (ops : List (HloOp τ sig (Elt F)))[358 + j]? = some x :=
  get_last (ops0 ++ ops1 ++ ops2 ++ ops3) ops4 358 (by simp only [List.length_append, ops0_length, ops1_length, ops2_length, ops3_length]) j x h

theorem arg_main_arg0 (V : Valuation τ sig (Elt F)) :
    after ops V (Proc.devRef .tc main_arg0) = V (Proc.devRef .tc main_arg0) :=
  keep_low 10 ops ops_numbered V main_arg0 (by decide)
theorem arg_main_arg1 (V : Valuation τ sig (Elt F)) :
    after ops V (Proc.devRef .tc main_arg1) = V (Proc.devRef .tc main_arg1) :=
  keep_low 10 ops ops_numbered V main_arg1 (by decide)
theorem arg_main_arg2 (V : Valuation τ sig (Elt F)) :
    after ops V (Proc.devRef .tc main_arg2) = V (Proc.devRef .tc main_arg2) :=
  keep_low 10 ops ops_numbered V main_arg2 (by decide)
theorem arg_main_arg3 (V : Valuation τ sig (Elt F)) :
    after ops V (Proc.devRef .tc main_arg3) = V (Proc.devRef .tc main_arg3) :=
  keep_low 10 ops ops_numbered V main_arg3 (by decide)
theorem arg_main_arg4 (V : Valuation τ sig (Elt F)) :
    after ops V (Proc.devRef .tc main_arg4) = V (Proc.devRef .tc main_arg4) :=
  keep_low 10 ops ops_numbered V main_arg4 (by decide)
theorem arg_main_arg5 (V : Valuation τ sig (Elt F)) :
    after ops V (Proc.devRef .tc main_arg5) = V (Proc.devRef .tc main_arg5) :=
  keep_low 10 ops ops_numbered V main_arg5 (by decide)
theorem arg_main_arg6 (V : Valuation τ sig (Elt F)) :
    after ops V (Proc.devRef .tc main_arg6) = V (Proc.devRef .tc main_arg6) :=
  keep_low 10 ops ops_numbered V main_arg6 (by decide)
theorem arg_main_arg7 (V : Valuation τ sig (Elt F)) :
    after ops V (Proc.devRef .tc main_arg7) = V (Proc.devRef .tc main_arg7) :=
  keep_low 10 ops ops_numbered V main_arg7 (by decide)
theorem arg_main_arg8 (V : Valuation τ sig (Elt F)) :
    after ops V (Proc.devRef .tc main_arg8) = V (Proc.devRef .tc main_arg8) :=
  keep_low 10 ops ops_numbered V main_arg8 (by decide)
theorem arg_main_arg9 (V : Valuation τ sig (Elt F)) :
    after ops V (Proc.devRef .tc main_arg9) = V (Proc.devRef .tc main_arg9) :=
  keep_low 10 ops ops_numbered V main_arg9 (by decide)

/-! ## Window 0 -/

theorem val_main_cst (V : Valuation τ sig (Elt F)) :
    after ops V (Proc.devRef .tc main_cst) = res_main_cst (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 0 _ rfl) rfl V
theorem val_main_v0 (V : Valuation τ sig (Elt F)) :
    after ops V (Proc.devRef .tc main_v0) = res_main_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 1 _ rfl) rfl (by decide) V (val_main_cst V)
theorem val_main_v1 (V : Valuation τ sig (Elt F)) :
    after ops V (Proc.devRef .tc main_v1) = res_main_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get0 2 _ rfl) rfl (by decide) (by decide) V (arg_main_arg1 V) (val_main_v0 V)
theorem val_main_call0_v0 (V : Valuation τ sig (Elt F)) :
    after ops V (Proc.devRef .tc main_call0_v0) = res_main_call0_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_reshape ops_numbered (get0 3 _ rfl) rfl (by decide) V (val_main_v1 V)
theorem val_main_call0_v1 (V : Valuation τ sig (Elt F)) :
    after ops V (Proc.devRef .tc main_call0_v1) = res_main_call0_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 4 _ rfl) rfl (by decide) V (heq_of_eq (val_main_call0_v0 V)))
theorem val_main_call0_call0_c (V : Valuation τ sig (Elt F)) :
    after ops V (Proc.devRef .tc main_call0_call0_c) = res_main_call0_call0_c (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 5 _ rfl) rfl V)
theorem val_main_call0_call0_v0 (V : Valuation τ sig (Elt F)) :
    after ops V (Proc.devRef .tc main_call0_call0_v0) = res_main_call0_call0_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 6 _ rfl) rfl (by decide) V (heq_of_eq (val_main_call0_call0_c V)))
theorem val_main_v2 (V : Valuation τ sig (Elt F)) :
    after ops V (Proc.devRef .tc main_v2) = res_main_v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 7 _ rfl) rfl (by decide) (by decide) V (heq_of_eq (val_main_call0_v1 V)) (heq_of_eq (val_main_call0_call0_v0 V)))
theorem val_main_c (V : Valuation τ sig (Elt F)) :
    after ops V (Proc.devRef .tc main_c) = res_main_c (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 8 _ rfl) rfl V
theorem val_main_v3 (V : Valuation τ sig (Elt F)) :
    after ops V (Proc.devRef .tc main_v3) = res_main_v3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 9 _ rfl) rfl (by decide) V (val_main_c V)
theorem val_main_c_0 (V : Valuation τ sig (Elt F)) :
    after ops V (Proc.devRef .tc main_c_0) = res_main_c_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 10 _ rfl) rfl V
theorem val_main_call1_v0 (V : Valuation τ sig (Elt F)) :
    after ops V (Proc.devRef .tc main_call1_v0) = res_main_call1_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 11 _ rfl) rfl (by decide) V (heq_of_eq (val_main_c_0 V)))
theorem val_main_call1_v1 (V : Valuation τ sig (Elt F)) :
    after ops V (Proc.devRef .tc main_call1_v1) = res_main_call1_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 12 _ rfl) rfl (by decide) V (heq_of_eq (val_main_call1_v0 V)))
theorem val_main_v4 (V : Valuation τ sig (Elt F)) :
    after ops V (Proc.devRef .tc main_v4) = res_main_v4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 13 _ rfl) rfl (by decide) (by decide) V (heq_of_eq (val_main_call1_v1 V)) (heq_of_eq (val_main_v2 V)))
theorem val_main_c_1 (V : Valuation τ sig (Elt F)) :
    after ops V (Proc.devRef .tc main_c_1) = res_main_c_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 14 _ rfl) rfl V
theorem val_main_v5 (V : Valuation τ sig (Elt F)) :
    after ops V (Proc.devRef .tc main_v5) = res_main_v5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 15 _ rfl) rfl (by decide) V (val_main_c_1 V)
theorem val_main_v6 (V : Valuation τ sig (Elt F)) :
    after ops V (Proc.devRef .tc main_v6) = res_main_v6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get0 16 _ rfl) rfl (by decide) (by decide) V (val_main_v4 V) (val_main_v5 V)
theorem val_main_c_2 (V : Valuation τ sig (Elt F)) :
    after ops V (Proc.devRef .tc main_c_2) = res_main_c_2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 17 _ rfl) rfl V
theorem val_main_v7 (V : Valuation τ sig (Elt F)) :
    after ops V (Proc.devRef .tc main_v7) = res_main_v7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 18 _ rfl) rfl (by decide) V (val_main_c_2 V)
theorem val_main_v8 (V : Valuation τ sig (Elt F)) :
    after ops V (Proc.devRef .tc main_v8) = res_main_v8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get0 19 _ rfl) rfl (by decide) (by decide) V (val_main_v4 V) (val_main_v7 V)
theorem val_main_v9 (V : Valuation τ sig (Elt F)) :
    after ops V (Proc.devRef .tc main_v9) = res_main_v9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get0 20 _ rfl) rfl (by decide) (by decide) (by decide) V (val_main_v6 V) (val_main_v8 V) (val_main_v4 V)
theorem val_main_v10 (V : Valuation τ sig (Elt F)) :
    after ops V (Proc.devRef .tc main_v10) = res_main_v10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 21 _ rfl) rfl (by decide) V (val_main_v9 V)
theorem val_main_c_3 (V : Valuation τ sig (Elt F)) :
    after ops V (Proc.devRef .tc main_c_3) = res_main_c_3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 22 _ rfl) rfl V
theorem val_main_v11 (V : Valuation τ sig (Elt F)) :
    after ops V (Proc.devRef .tc main_v11) = res_main_v11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 23 _ rfl) rfl (by decide) V (val_main_c_3 V)
theorem val_main_v12 (V : Valuation τ sig (Elt F)) :
    after ops V (Proc.devRef .tc main_v12) = res_main_v12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get0 24 _ rfl) rfl (by decide) (by decide) (by decide) V (val_main_v3 V) (val_main_v10 V) (val_main_v11 V)
theorem val_main_call2_call0_c (V : Valuation τ sig (Elt F)) :
    after ops V (Proc.devRef .tc main_call2_call0_c) = res_main_call2_call0_c (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 25 _ rfl) rfl V)
theorem val_main_call2_call0_v0 (V : Valuation τ sig (Elt F)) :
    after ops V (Proc.devRef .tc main_call2_call0_v0) = res_main_call2_call0_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 26 _ rfl) rfl (by decide) V (heq_of_eq (val_main_call2_call0_c V)))
theorem val_main_v13 (V : Valuation τ sig (Elt F)) :
    after ops V (Proc.devRef .tc main_v13) = res_main_v13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 27 _ rfl) rfl (by decide) (by decide) V (heq_of_eq (val_main_v12 V)) (heq_of_eq (val_main_call2_call0_v0 V)))
theorem val_main_c_4 (V : Valuation τ sig (Elt F)) :
    after ops V (Proc.devRef .tc main_c_4) = res_main_c_4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 28 _ rfl) rfl V
theorem val_main_call3_v0 (V : Valuation τ sig (Elt F)) :
    after ops V (Proc.devRef .tc main_call3_v0) = res_main_call3_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 29 _ rfl) rfl (by decide) V (heq_of_eq (val_main_c_4 V)))
theorem val_main_call3_v1 (V : Valuation τ sig (Elt F)) :
    after ops V (Proc.devRef .tc main_call3_v1) = res_main_call3_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 30 _ rfl) rfl (by decide) (by decide) V (heq_of_eq (val_main_v13 V)) (heq_of_eq (val_main_call3_v0 V)))
theorem val_main_call3_v2 (V : Valuation τ sig (Elt F)) :
    after ops V (Proc.devRef .tc main_call3_v2) = res_main_call3_v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 31 _ rfl) rfl (by decide) V (heq_of_eq (val_main_v13 V)))
theorem val_main_call3_v3 (V : Valuation τ sig (Elt F)) :
    after ops V (Proc.devRef .tc main_call3_v3) = res_main_call3_v3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 32 _ rfl) rfl (by decide) V (heq_of_eq (val_main_c_4 V)))
theorem val_main_call3_v4 (V : Valuation τ sig (Elt F)) :
    after ops V (Proc.devRef .tc main_call3_v4) = res_main_call3_v4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 33 _ rfl) rfl (by decide) V (heq_of_eq (val_main_call3_v3 V)))
theorem val_main_call3_v5 (V : Valuation τ sig (Elt F)) :
    after ops V (Proc.devRef .tc main_call3_v5) = res_main_call3_v5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 34 _ rfl) rfl (by decide) (by decide) V (heq_of_eq (val_main_call3_v2 V)) (heq_of_eq (val_main_call3_v4 V)))
theorem val_main_call3_v6 (V : Valuation τ sig (Elt F)) :
    after ops V (Proc.devRef .tc main_call3_v6) = res_main_call3_v6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 35 _ rfl) rfl (by decide) V (heq_of_eq (val_main_c_4 V)))
theorem val_main_call3_v7 (V : Valuation τ sig (Elt F)) :
    after ops V (Proc.devRef .tc main_call3_v7) = res_main_call3_v7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 36 _ rfl) rfl (by decide) (by decide) V (heq_of_eq (val_main_v13 V)) (heq_of_eq (val_main_call3_v6 V)))
theorem val_main_call3_c (V : Valuation τ sig (Elt F)) :
    after ops V (Proc.devRef .tc main_call3_c) = res_main_call3_c (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 37 _ rfl) rfl V)
theorem val_main_call3_v8 (V : Valuation τ sig (Elt F)) :
    after ops V (Proc.devRef .tc main_call3_v8) = res_main_call3_v8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 38 _ rfl) rfl (by decide) V (heq_of_eq (val_main_call3_c V)))
theorem val_main_call3_v9 (V : Valuation τ sig (Elt F)) :
    after ops V (Proc.devRef .tc main_call3_v9) = res_main_call3_v9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 39 _ rfl) rfl (by decide) (by decide) V (heq_of_eq (val_main_call3_v7 V)) (heq_of_eq (val_main_call3_v8 V)))
theorem val_main_call3_v10 (V : Valuation τ sig (Elt F)) :
    after ops V (Proc.devRef .tc main_call3_v10) = res_main_call3_v10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 40 _ rfl) rfl (by decide) (by decide) V (heq_of_eq (val_main_call3_v5 V)) (heq_of_eq (val_main_call3_v9 V)))
theorem val_main_call3_c_0 (V : Valuation τ sig (Elt F)) :
    after ops V (Proc.devRef .tc main_call3_c_0) = res_main_call3_c_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 41 _ rfl) rfl V)
theorem val_main_call3_v11 (V : Valuation τ sig (Elt F)) :
    after ops V (Proc.devRef .tc main_call3_v11) = res_main_call3_v11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 42 _ rfl) rfl (by decide) V (heq_of_eq (val_main_call3_c_0 V)))
theorem val_main_call3_v12 (V : Valuation τ sig (Elt F)) :
    after ops V (Proc.devRef .tc main_call3_v12) = res_main_call3_v12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 43 _ rfl) rfl (by decide) (by decide) V (heq_of_eq (val_main_call3_v1 V)) (heq_of_eq (val_main_call3_v11 V)))
theorem val_main_v14 (V : Valuation τ sig (Elt F)) :
    after ops V (Proc.devRef .tc main_v14) = res_main_v14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get0 44 _ rfl) rfl (by decide) (by decide) (by decide) V (heq_of_eq (val_main_call3_v10 V)) (heq_of_eq (val_main_call3_v12 V)) (heq_of_eq (val_main_call3_v1 V)))
theorem val_main_c_5 (V : Valuation τ sig (Elt F)) :
    after ops V (Proc.devRef .tc main_c_5) = res_main_c_5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 45 _ rfl) rfl V
theorem val_main_call4_v0 (V : Valuation τ sig (Elt F)) :
    after ops V (Proc.devRef .tc main_call4_v0) = res_main_call4_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 46 _ rfl) rfl (by decide) V (heq_of_eq (val_main_c_5 V)))
theorem val_main_call4_c (V : Valuation τ sig (Elt F)) :
    after ops V (Proc.devRef .tc main_call4_c) = res_main_call4_c (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 47 _ rfl) rfl V)
theorem val_main_call4_v1 (V : Valuation τ sig (Elt F)) :
    after ops V (Proc.devRef .tc main_call4_v1) = res_main_call4_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 48 _ rfl) rfl (by decide) (by decide) V (heq_of_eq (val_main_call4_v0 V)) (heq_of_eq (val_main_call4_c V)))
theorem val_main_call4_c_0 (V : Valuation τ sig (Elt F)) :
    after ops V (Proc.devRef .tc main_call4_c_0) = res_main_call4_c_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 49 _ rfl) rfl V)
theorem val_main_call4_v2 (V : Valuation τ sig (Elt F)) :
    after ops V (Proc.devRef .tc main_call4_v2) = res_main_call4_v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get0 50 _ rfl) rfl (by decide) (by decide) (by decide) V (heq_of_eq (val_main_call4_v1 V)) (heq_of_eq (val_main_call4_c_0 V)) (heq_of_eq (val_main_call4_v0 V)))
theorem val_main_call4_v3 (V : Valuation τ sig (Elt F)) :
    after ops V (Proc.devRef .tc main_call4_v3) = res_main_call4_v3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 51 _ rfl) rfl (by decide) V (heq_of_eq (val_main_call4_v2 V)))
theorem val_main_call4_v4 (V : Valuation τ sig (Elt F)) :
    after ops V (Proc.devRef .tc main_call4_v4) = res_main_call4_v4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 52 _ rfl) rfl (by decide) (by decide) V (heq_of_eq (val_main_v14 V)) (heq_of_eq (val_main_call4_v3 V)))
theorem val_main_call4_c_1 (V : Valuation τ sig (Elt F)) :
    after ops V (Proc.devRef .tc main_call4_c_1) = res_main_call4_c_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 53 _ rfl) rfl V)
theorem val_main_call4_v5 (V : Valuation τ sig (Elt F)) :
    after ops V (Proc.devRef .tc main_call4_v5) = res_main_call4_v5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 54 _ rfl) rfl (by decide) V (heq_of_eq (val_main_call4_c_1 V)))
theorem val_main_call4_v6 (V : Valuation τ sig (Elt F)) :
    after ops V (Proc.devRef .tc main_call4_v6) = res_main_call4_v6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 55 _ rfl) rfl (by decide) (by decide) V (heq_of_eq (val_main_call4_v4 V)) (heq_of_eq (val_main_call4_v5 V)))
theorem val_main_call4_c_2 (V : Valuation τ sig (Elt F)) :
    after ops V (Proc.devRef .tc main_call4_c_2) = res_main_call4_c_2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 56 _ rfl) rfl V)
theorem val_main_call4_v7 (V : Valuation τ sig (Elt F)) :
    after ops V (Proc.devRef .tc main_call4_v7) = res_main_call4_v7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 57 _ rfl) rfl (by decide) V (heq_of_eq (val_main_call4_c_2 V)))
theorem val_main_call4_v8 (V : Valuation τ sig (Elt F)) :
    after ops V (Proc.devRef .tc main_call4_v8) = res_main_call4_v8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 58 _ rfl) rfl (by decide) (by decide) V (heq_of_eq (val_main_call4_v4 V)) (heq_of_eq (val_main_call4_v7 V)))
theorem val_main_call4_c_3 (V : Valuation τ sig (Elt F)) :
    after ops V (Proc.devRef .tc main_call4_c_3) = res_main_call4_c_3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 59 _ rfl) rfl V)
theorem val_main_call4_v9 (V : Valuation τ sig (Elt F)) :
    after ops V (Proc.devRef .tc main_call4_v9) = res_main_call4_v9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 60 _ rfl) rfl (by decide) (by decide) V (heq_of_eq (val_main_call4_v2 V)) (heq_of_eq (val_main_call4_c_3 V)))
theorem val_main_call4_v10 (V : Valuation τ sig (Elt F)) :
    after ops V (Proc.devRef .tc main_call4_v10) = res_main_call4_v10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 61 _ rfl) rfl (by decide) V (heq_of_eq (val_main_call4_v9 V)))
theorem val_main_call4_v11 (V : Valuation τ sig (Elt F)) :
    after ops V (Proc.devRef .tc main_call4_v11) = res_main_call4_v11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 62 _ rfl) rfl (by decide) (by decide) V (heq_of_eq (val_main_call4_v8 V)) (heq_of_eq (val_main_call4_v10 V)))
theorem val_main_call4_v12 (V : Valuation τ sig (Elt F)) :
    after ops V (Proc.devRef .tc main_call4_v12) = res_main_call4_v12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 63 _ rfl) rfl (by decide) (by decide) V (heq_of_eq (val_main_call4_v11 V)) (heq_of_eq (val_main_call4_v6 V)))
theorem val_main_call4_v13 (V : Valuation τ sig (Elt F)) :
    after ops V (Proc.devRef .tc main_call4_v13) = res_main_call4_v13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 64 _ rfl) rfl (by decide) V (heq_of_eq (val_main_call4_v2 V)))
theorem val_main_call4_v14 (V : Valuation τ sig (Elt F)) :
    after ops V (Proc.devRef .tc main_call4_v14) = res_main_call4_v14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 65 _ rfl) rfl (by decide) (by decide) V (heq_of_eq (val_main_call4_v4 V)) (heq_of_eq (val_main_call4_v13 V)))
theorem val_main_v15 (V : Valuation τ sig (Elt F)) :
    after ops V (Proc.devRef .tc main_v15) = res_main_v15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get0 66 _ rfl) rfl (by decide) (by decide) (by decide) V (heq_of_eq (val_main_call4_v12 V)) (heq_of_eq (val_main_call4_v14 V)) (heq_of_eq (val_main_call4_v4 V)))
theorem val_main_c_6 (V : Valuation τ sig (Elt F)) :
    after ops V (Proc.devRef .tc main_c_6) = res_main_c_6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 67 _ rfl) rfl V
theorem val_main_call5_v0 (V : Valuation τ sig (Elt F)) :
    after ops V (Proc.devRef .tc main_call5_v0) = res_main_call5_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 68 _ rfl) rfl (by decide) V (heq_of_eq (val_main_c_6 V)))
theorem val_main_call5_v1 (V : Valuation τ sig (Elt F)) :
    after ops V (Proc.devRef .tc main_call5_v1) = res_main_call5_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 69 _ rfl) rfl (by decide) (by decide) V (heq_of_eq (val_main_v13 V)) (heq_of_eq (val_main_call5_v0 V)))
theorem val_main_call5_v2 (V : Valuation τ sig (Elt F)) :
    after ops V (Proc.devRef .tc main_call5_v2) = res_main_call5_v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 70 _ rfl) rfl (by decide) V (heq_of_eq (val_main_v13 V)))
theorem val_main_call5_v3 (V : Valuation τ sig (Elt F)) :
    after ops V (Proc.devRef .tc main_call5_v3) = res_main_call5_v3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 71 _ rfl) rfl (by decide) V (heq_of_eq (val_main_c_6 V)))
theorem val_main_call5_v4 (V : Valuation τ sig (Elt F)) :
    after ops V (Proc.devRef .tc main_call5_v4) = res_main_call5_v4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 72 _ rfl) rfl (by decide) V (heq_of_eq (val_main_call5_v3 V)))
theorem val_main_call5_v5 (V : Valuation τ sig (Elt F)) :
    after ops V (Proc.devRef .tc main_call5_v5) = res_main_call5_v5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 73 _ rfl) rfl (by decide) (by decide) V (heq_of_eq (val_main_call5_v2 V)) (heq_of_eq (val_main_call5_v4 V)))
theorem val_main_call5_v6 (V : Valuation τ sig (Elt F)) :
    after ops V (Proc.devRef .tc main_call5_v6) = res_main_call5_v6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 74 _ rfl) rfl (by decide) V (heq_of_eq (val_main_c_6 V)))
theorem val_main_call5_v7 (V : Valuation τ sig (Elt F)) :
    after ops V (Proc.devRef .tc main_call5_v7) = res_main_call5_v7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 75 _ rfl) rfl (by decide) (by decide) V (heq_of_eq (val_main_v13 V)) (heq_of_eq (val_main_call5_v6 V)))
theorem val_main_call5_c (V : Valuation τ sig (Elt F)) :
    after ops V (Proc.devRef .tc main_call5_c) = res_main_call5_c (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 76 _ rfl) rfl V)
theorem val_main_call5_v8 (V : Valuation τ sig (Elt F)) :
    after ops V (Proc.devRef .tc main_call5_v8) = res_main_call5_v8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 77 _ rfl) rfl (by decide) V (heq_of_eq (val_main_call5_c V)))
theorem val_main_call5_v9 (V : Valuation τ sig (Elt F)) :
    after ops V (Proc.devRef .tc main_call5_v9) = res_main_call5_v9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 78 _ rfl) rfl (by decide) (by decide) V (heq_of_eq (val_main_call5_v7 V)) (heq_of_eq (val_main_call5_v8 V)))
theorem val_main_call5_v10 (V : Valuation τ sig (Elt F)) :
    after ops V (Proc.devRef .tc main_call5_v10) = res_main_call5_v10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 79 _ rfl) rfl (by decide) (by decide) V (heq_of_eq (val_main_call5_v5 V)) (heq_of_eq (val_main_call5_v9 V)))
theorem val_main_call5_c_0 (V : Valuation τ sig (Elt F)) :
    after ops V (Proc.devRef .tc main_call5_c_0) = res_main_call5_c_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 80 _ rfl) rfl V)
theorem val_main_call5_v11 (V : Valuation τ sig (Elt F)) :
    after ops V (Proc.devRef .tc main_call5_v11) = res_main_call5_v11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 81 _ rfl) rfl (by decide) V (heq_of_eq (val_main_call5_c_0 V)))
theorem val_main_call5_v12 (V : Valuation τ sig (Elt F)) :
    after ops V (Proc.devRef .tc main_call5_v12) = res_main_call5_v12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 82 _ rfl) rfl (by decide) (by decide) V (heq_of_eq (val_main_call5_v1 V)) (heq_of_eq (val_main_call5_v11 V)))
theorem val_main_v16 (V : Valuation τ sig (Elt F)) :
    after ops V (Proc.devRef .tc main_v16) = res_main_v16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get0 83 _ rfl) rfl (by decide) (by decide) (by decide) V (heq_of_eq (val_main_call5_v10 V)) (heq_of_eq (val_main_call5_v12 V)) (heq_of_eq (val_main_call5_v1 V)))
theorem val_main_c_7 (V : Valuation τ sig (Elt F)) :
    after ops V (Proc.devRef .tc main_c_7) = res_main_c_7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 84 _ rfl) rfl V
theorem val_main_call6_v0 (V : Valuation τ sig (Elt F)) :
    after ops V (Proc.devRef .tc main_call6_v0) = res_main_call6_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 85 _ rfl) rfl (by decide) V (heq_of_eq (val_main_c_7 V)))
theorem val_main_call6_c (V : Valuation τ sig (Elt F)) :
    after ops V (Proc.devRef .tc main_call6_c) = res_main_call6_c (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 86 _ rfl) rfl V)
theorem val_main_call6_v1 (V : Valuation τ sig (Elt F)) :
    after ops V (Proc.devRef .tc main_call6_v1) = res_main_call6_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 87 _ rfl) rfl (by decide) (by decide) V (heq_of_eq (val_main_call6_v0 V)) (heq_of_eq (val_main_call6_c V)))
theorem val_main_call6_c_0 (V : Valuation τ sig (Elt F)) :
    after ops V (Proc.devRef .tc main_call6_c_0) = res_main_call6_c_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 88 _ rfl) rfl V)
theorem val_main_call6_v2 (V : Valuation τ sig (Elt F)) :
    after ops V (Proc.devRef .tc main_call6_v2) = res_main_call6_v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get0 89 _ rfl) rfl (by decide) (by decide) (by decide) V (heq_of_eq (val_main_call6_v1 V)) (heq_of_eq (val_main_call6_c_0 V)) (heq_of_eq (val_main_call6_v0 V)))
theorem val_main_call6_v3 (V : Valuation τ sig (Elt F)) :
    after ops V (Proc.devRef .tc main_call6_v3) = res_main_call6_v3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 90 _ rfl) rfl (by decide) V (heq_of_eq (val_main_call6_v2 V)))
theorem val_main_call6_v4 (V : Valuation τ sig (Elt F)) :
    after ops V (Proc.devRef .tc main_call6_v4) = res_main_call6_v4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 91 _ rfl) rfl (by decide) (by decide) V (heq_of_eq (val_main_v16 V)) (heq_of_eq (val_main_call6_v3 V)))
theorem val_main_call6_c_1 (V : Valuation τ sig (Elt F)) :
    after ops V (Proc.devRef .tc main_call6_c_1) = res_main_call6_c_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 92 _ rfl) rfl V)
theorem val_main_call6_v5 (V : Valuation τ sig (Elt F)) :
    after ops V (Proc.devRef .tc main_call6_v5) = res_main_call6_v5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 93 _ rfl) rfl (by decide) V (heq_of_eq (val_main_call6_c_1 V)))
theorem val_main_call6_v6 (V : Valuation τ sig (Elt F)) :
    after ops V (Proc.devRef .tc main_call6_v6) = res_main_call6_v6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 94 _ rfl) rfl (by decide) (by decide) V (heq_of_eq (val_main_call6_v4 V)) (heq_of_eq (val_main_call6_v5 V)))
theorem val_main_call6_c_2 (V : Valuation τ sig (Elt F)) :
    after ops V (Proc.devRef .tc main_call6_c_2) = res_main_call6_c_2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 95 _ rfl) rfl V)
theorem val_main_call6_v7 (V : Valuation τ sig (Elt F)) :
    after ops V (Proc.devRef .tc main_call6_v7) = res_main_call6_v7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 96 _ rfl) rfl (by decide) V (heq_of_eq (val_main_call6_c_2 V)))
theorem val_main_call6_v8 (V : Valuation τ sig (Elt F)) :
    after ops V (Proc.devRef .tc main_call6_v8) = res_main_call6_v8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 97 _ rfl) rfl (by decide) (by decide) V (heq_of_eq (val_main_call6_v4 V)) (heq_of_eq (val_main_call6_v7 V)))
theorem val_main_call6_c_3 (V : Valuation τ sig (Elt F)) :
    after ops V (Proc.devRef .tc main_call6_c_3) = res_main_call6_c_3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 98 _ rfl) rfl V)
theorem val_main_call6_v9 (V : Valuation τ sig (Elt F)) :
    after ops V (Proc.devRef .tc main_call6_v9) = res_main_call6_v9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 99 _ rfl) rfl (by decide) (by decide) V (heq_of_eq (val_main_call6_v2 V)) (heq_of_eq (val_main_call6_c_3 V)))
theorem val_main_call6_v10 (V : Valuation τ sig (Elt F)) :
    after ops V (Proc.devRef .tc main_call6_v10) = res_main_call6_v10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 100 _ rfl) rfl (by decide) V (heq_of_eq (val_main_call6_v9 V)))
theorem val_main_call6_v11 (V : Valuation τ sig (Elt F)) :
    after ops V (Proc.devRef .tc main_call6_v11) = res_main_call6_v11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 101 _ rfl) rfl (by decide) (by decide) V (heq_of_eq (val_main_call6_v8 V)) (heq_of_eq (val_main_call6_v10 V)))
theorem val_main_call6_v12 (V : Valuation τ sig (Elt F)) :
    after ops V (Proc.devRef .tc main_call6_v12) = res_main_call6_v12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 102 _ rfl) rfl (by decide) (by decide) V (heq_of_eq (val_main_call6_v11 V)) (heq_of_eq (val_main_call6_v6 V)))
theorem val_main_call6_v13 (V : Valuation τ sig (Elt F)) :
    after ops V (Proc.devRef .tc main_call6_v13) = res_main_call6_v13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 103 _ rfl) rfl (by decide) V (heq_of_eq (val_main_call6_v2 V)))
theorem val_main_call6_v14 (V : Valuation τ sig (Elt F)) :
    after ops V (Proc.devRef .tc main_call6_v14) = res_main_call6_v14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 104 _ rfl) rfl (by decide) (by decide) V (heq_of_eq (val_main_call6_v4 V)) (heq_of_eq (val_main_call6_v13 V)))
theorem val_main_v17 (V : Valuation τ sig (Elt F)) :
    after ops V (Proc.devRef .tc main_v17) = res_main_v17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get0 105 _ rfl) rfl (by decide) (by decide) (by decide) V (heq_of_eq (val_main_call6_v12 V)) (heq_of_eq (val_main_call6_v14 V)) (heq_of_eq (val_main_call6_v4 V)))
theorem val_main_v18 (V : Valuation τ sig (Elt F)) :
    after ops V (Proc.devRef .tc main_v18) = res_main_v18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 106 _ rfl) rfl V
theorem val_main_v19 (V : Valuation τ sig (Elt F)) :
    after ops V (Proc.devRef .tc main_v19) = res_main_v19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 107 _ rfl) rfl (by decide) V (val_main_v1 V)
theorem val_main_c_8 (V : Valuation τ sig (Elt F)) :
    after ops V (Proc.devRef .tc main_c_8) = res_main_c_8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 108 _ rfl) rfl V
theorem val_main_v20 (V : Valuation τ sig (Elt F)) :
    after ops V (Proc.devRef .tc main_v20) = res_main_v20 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get0 109 _ rfl) rfl (by decide) (by decide) V (val_main_v19 V) (val_main_c_8 V)
theorem val_main_v21 (V : Valuation τ sig (Elt F)) :
    after ops V (Proc.devRef .tc main_v21) = res_main_v21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 110 _ rfl) rfl (by decide) V (val_main_v20 V)
theorem val_main_v22 (V : Valuation τ sig (Elt F)) :
    after ops V (Proc.devRef .tc main_v22) = res_main_v22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get0 111 _ rfl) rfl (by decide) (by decide) V (val_main_v18 V) (val_main_v21 V)
theorem val_main_c_9 (V : Valuation τ sig (Elt F)) :
    after ops V (Proc.devRef .tc main_c_9) = res_main_c_9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 112 _ rfl) rfl V
theorem val_main_call7_v0 (V : Valuation τ sig (Elt F)) :
    after ops V (Proc.devRef .tc main_call7_v0) = res_main_call7_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 113 _ rfl) rfl (by decide) V (heq_of_eq (val_main_c_9 V)))
theorem val_main_call7_v1 (V : Valuation τ sig (Elt F)) :
    after ops V (Proc.devRef .tc main_call7_v1) = res_main_call7_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 114 _ rfl) rfl (by decide) V (heq_of_eq (val_main_call7_v0 V)))
theorem val_main_v23 (V : Valuation τ sig (Elt F)) :
    after ops V (Proc.devRef .tc main_v23) = res_main_v23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get0 115 _ rfl) rfl (by decide) (by decide) (by decide) V (heq_of_eq (val_main_v22 V)) (heq_of_eq (val_main_call7_v1 V)) (heq_of_eq (val_main_v15 V)))
theorem val_main_c_10 (V : Valuation τ sig (Elt F)) :
    after ops V (Proc.devRef .tc main_c_10) = res_main_c_10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 116 _ rfl) rfl V
theorem val_main_call8_v0 (V : Valuation τ sig (Elt F)) :
    after ops V (Proc.devRef .tc main_call8_v0) = res_main_call8_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 117 _ rfl) rfl (by decide) V (heq_of_eq (val_main_c_10 V)))
theorem val_main_call8_v1 (V : Valuation τ sig (Elt F)) :
    after ops V (Proc.devRef .tc main_call8_v1) = res_main_call8_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 118 _ rfl) rfl (by decide) V (heq_of_eq (val_main_call8_v0 V)))
theorem val_main_v24 (V : Valuation τ sig (Elt F)) :
    after ops V (Proc.devRef .tc main_v24) = res_main_v24 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get0 119 _ rfl) rfl (by decide) (by decide) (by decide) V (heq_of_eq (val_main_v22 V)) (heq_of_eq (val_main_call8_v1 V)) (heq_of_eq (val_main_v17 V)))
theorem val_main_v25 (V : Valuation τ sig (Elt F)) :
    after ops V (Proc.devRef .tc main_v25) = res_main_v25 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 120 _ rfl) rfl V
theorem val_main_call9_cst (V : Valuation τ sig (Elt F)) :
    after ops V (Proc.devRef .tc main_call9_cst) = res_main_call9_cst (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 121 _ rfl) rfl V)
theorem val_main_call9_v0 (V : Valuation τ sig (Elt F)) :
    after ops V (Proc.devRef .tc main_call9_v0) = res_main_call9_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 122 _ rfl) rfl (by decide) V (heq_of_eq (val_main_call9_cst V)))
theorem val_main_call9_v1 (V : Valuation τ sig (Elt F)) :
    after ops V (Proc.devRef .tc main_call9_v1) = res_main_call9_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 123 _ rfl) rfl (by decide) (by decide) V (heq_of_eq (arg_main_arg1 V)) (heq_of_eq (val_main_call9_v0 V)))
theorem val_main_call9_v2 (V : Valuation τ sig (Elt F)) :
    after ops V (Proc.devRef .tc main_call9_v2) = res_main_call9_v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get0 124 _ rfl) rfl (by decide) V (heq_of_eq (val_main_call9_v1 V)))
theorem val_main_call9_c (V : Valuation τ sig (Elt F)) :
    after ops V (Proc.devRef .tc main_call9_c) = res_main_call9_c (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get0 125 _ rfl) rfl V)
theorem val_main_v26 (V : Valuation τ sig (Elt F)) :
    after ops V (Proc.devRef .tc main_v26) = res_main_v26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get0 126 _ rfl) rfl (by decide) (by decide) V (heq_of_eq (val_main_call9_v2 V)) (heq_of_eq (val_main_call9_c V)))
theorem val_main_v27 (V : Valuation τ sig (Elt F)) :
    after ops V (Proc.devRef .tc main_v27) = res_main_v27 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 127 _ rfl) rfl (by decide) V (val_main_v26 V)
theorem val_main_v28 (V : Valuation τ sig (Elt F)) :
    after ops V (Proc.devRef .tc main_v28) = res_main_v28 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get0 128 _ rfl) rfl (by decide) (by decide) V (val_main_v25 V) (val_main_v27 V)
theorem val_main_v29 (V : Valuation τ sig (Elt F)) :
    after ops V (Proc.devRef .tc main_v29) = res_main_v29 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 129 _ rfl) rfl (by decide) V (val_main_v28 V)
theorem val_main_c_11 (V : Valuation τ sig (Elt F)) :
    after ops V (Proc.devRef .tc main_c_11) = res_main_c_11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 130 _ rfl) rfl V
theorem val_main_v30 (V : Valuation τ sig (Elt F)) :
    after ops V (Proc.devRef .tc main_v30) = res_main_v30 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 131 _ rfl) rfl (by decide) V (val_main_c_11 V)
theorem val_main_v31 (V : Valuation τ sig (Elt F)) :
    after ops V (Proc.devRef .tc main_v31) = res_main_v31 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get0 132 _ rfl) rfl (by decide) (by decide) V (val_main_v23 V) (val_main_v30 V)
theorem val_main_c_12 (V : Valuation τ sig (Elt F)) :
    after ops V (Proc.devRef .tc main_c_12) = res_main_c_12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 133 _ rfl) rfl V
theorem val_main_v32 (V : Valuation τ sig (Elt F)) :
    after ops V (Proc.devRef .tc main_v32) = res_main_v32 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 134 _ rfl) rfl (by decide) V (val_main_c_12 V)
theorem val_main_v33 (V : Valuation τ sig (Elt F)) :
    after ops V (Proc.devRef .tc main_v33) = res_main_v33 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get0 135 _ rfl) rfl (by decide) (by decide) V (val_main_v23 V) (val_main_v32 V)
theorem val_main_v34 (V : Valuation τ sig (Elt F)) :
    after ops V (Proc.devRef .tc main_v34) = res_main_v34 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get0 136 _ rfl) rfl (by decide) (by decide) (by decide) V (val_main_v31 V) (val_main_v33 V) (val_main_v23 V)
theorem val_main_c_13 (V : Valuation τ sig (Elt F)) :
    after ops V (Proc.devRef .tc main_c_13) = res_main_c_13 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 137 _ rfl) rfl V
theorem val_main_v35 (V : Valuation τ sig (Elt F)) :
    after ops V (Proc.devRef .tc main_v35) = res_main_v35 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 138 _ rfl) rfl (by decide) V (val_main_c_13 V)
theorem val_main_v36 (V : Valuation τ sig (Elt F)) :
    after ops V (Proc.devRef .tc main_v36) = res_main_v36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get0 139 _ rfl) rfl (by decide) (by decide) V (val_main_v24 V) (val_main_v35 V)
theorem val_main_c_14 (V : Valuation τ sig (Elt F)) :
    after ops V (Proc.devRef .tc main_c_14) = res_main_c_14 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get0 140 _ rfl) rfl V
theorem val_main_v37 (V : Valuation τ sig (Elt F)) :
    after ops V (Proc.devRef .tc main_v37) = res_main_v37 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 141 _ rfl) rfl (by decide) V (val_main_c_14 V)
theorem val_main_v38 (V : Valuation τ sig (Elt F)) :
    after ops V (Proc.devRef .tc main_v38) = res_main_v38 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get0 142 _ rfl) rfl (by decide) (by decide) V (val_main_v24 V) (val_main_v37 V)
theorem val_main_v39 (V : Valuation τ sig (Elt F)) :
    after ops V (Proc.devRef .tc main_v39) = res_main_v39 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get0 143 _ rfl) rfl (by decide) (by decide) (by decide) V (val_main_v36 V) (val_main_v38 V) (val_main_v24 V)
theorem val_main_v40 (V : Valuation τ sig (Elt F)) :
    after ops V (Proc.devRef .tc main_v40) = res_main_v40 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 144 _ rfl) rfl (by decide) V (val_main_v34 V)
theorem val_main_v41 (V : Valuation τ sig (Elt F)) :
    after ops V (Proc.devRef .tc main_v41) = res_main_v41 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get0 145 _ rfl) rfl (by decide) V (val_main_v39 V)
theorem val_main_v42 (V : Valuation τ sig (Elt F)) :
    after ops V (Proc.devRef .tc main_v42) = res_main_v42 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get0 146 _ rfl) rfl (by decide) (by decide) V (val_main_v40 V) (val_main_v41 V)

/-! ## Window 1 -/

theorem val_main_v43 (V : Valuation τ sig (Elt F)) :
    after ops V (Proc.devRef .tc main_v43) = res_main_v43 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 0 _ rfl) rfl (by decide) (by decide) V (arg_main_arg1 V) (val_main_v42 V)
theorem val_main_v44 (V : Valuation τ sig (Elt F)) :
    after ops V (Proc.devRef .tc main_v44) = res_main_v44 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 1 _ rfl) rfl (by decide) (by decide) V (val_main_v43 V) (val_main_v29 V)
theorem val_main_v45 (V : Valuation τ sig (Elt F)) :
    after ops V (Proc.devRef .tc main_v45) = res_main_v45 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 2 _ rfl) rfl V
theorem val_main_v46 (V : Valuation τ sig (Elt F)) :
    after ops V (Proc.devRef .tc main_v46) = res_main_v46 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 3 _ rfl) rfl (by decide) (by decide) V (val_main_v23 V) (val_main_v45 V)
theorem val_main_v47 (V : Valuation τ sig (Elt F)) :
    after ops V (Proc.devRef .tc main_v47) = res_main_v47 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 4 _ rfl) rfl (by decide) (by decide) V (val_main_v24 V) (val_main_v45 V)
theorem val_main_cst_15 (V : Valuation τ sig (Elt F)) :
    after ops V (Proc.devRef .tc main_cst_15) = res_main_cst_15 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 5 _ rfl) rfl V
theorem val_main_v48 (V : Valuation τ sig (Elt F)) :
    after ops V (Proc.devRef .tc main_v48) = res_main_v48 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 6 _ rfl) rfl (by decide) V (val_main_cst_15 V)
theorem val_main_v49 (V : Valuation τ sig (Elt F)) :
    after ops V (Proc.devRef .tc main_v49) = res_main_v49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 7 _ rfl) rfl (by decide) (by decide) V (val_main_v44 V) (val_main_v48 V)
theorem val_main_cst_16 (V : Valuation τ sig (Elt F)) :
    after ops V (Proc.devRef .tc main_cst_16) = res_main_cst_16 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 8 _ rfl) rfl V
theorem val_main_v50 (V : Valuation τ sig (Elt F)) :
    after ops V (Proc.devRef .tc main_v50) = res_main_v50 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 9 _ rfl) rfl (by decide) V (val_main_cst_16 V)
theorem val_main_c_17 (V : Valuation τ sig (Elt F)) :
    after ops V (Proc.devRef .tc main_c_17) = res_main_c_17 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 10 _ rfl) rfl V
theorem val_main_v51 (V : Valuation τ sig (Elt F)) :
    after ops V (Proc.devRef .tc main_v51) = res_main_v51 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 11 _ rfl) rfl (by decide) V (val_main_c_17 V)
theorem val_main_v52 (V : Valuation τ sig (Elt F)) :
    after ops V (Proc.devRef .tc main_v52) = res_main_v52 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 12 _ rfl) rfl (by decide) (by decide) V (val_main_v47 V) (val_main_v51 V)
theorem val_main_c_18 (V : Valuation τ sig (Elt F)) :
    after ops V (Proc.devRef .tc main_c_18) = res_main_c_18 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 13 _ rfl) rfl V
theorem val_main_v53 (V : Valuation τ sig (Elt F)) :
    after ops V (Proc.devRef .tc main_v53) = res_main_v53 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 14 _ rfl) rfl (by decide) V (val_main_c_18 V)
theorem val_main_v54 (V : Valuation τ sig (Elt F)) :
    after ops V (Proc.devRef .tc main_v54) = res_main_v54 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 15 _ rfl) rfl (by decide) (by decide) V (val_main_v47 V) (val_main_v53 V)
theorem val_main_v55 (V : Valuation τ sig (Elt F)) :
    after ops V (Proc.devRef .tc main_v55) = res_main_v55 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get1 16 _ rfl) rfl (by decide) (by decide) (by decide) V (val_main_v52 V) (val_main_v54 V) (val_main_v47 V)
theorem val_main_v56 (V : Valuation τ sig (Elt F)) :
    after ops V (Proc.devRef .tc main_v56) = res_main_v56 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 17 _ rfl) rfl (by decide) V (val_main_v55 V)
theorem val_main_v57 (V : Valuation τ sig (Elt F)) :
    after ops V (Proc.devRef .tc main_v57) = res_main_v57 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get1 18 _ rfl) rfl (by decide) (by decide) (by decide) V (val_main_v50 V) (val_main_v56 V) (val_main_v49 V)
theorem val_main_cst_19 (V : Valuation τ sig (Elt F)) :
    after ops V (Proc.devRef .tc main_cst_19) = res_main_cst_19 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 19 _ rfl) rfl V
theorem val_main_v58 (V : Valuation τ sig (Elt F)) :
    after ops V (Proc.devRef .tc main_v58) = res_main_v58 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 20 _ rfl) rfl (by decide) V (val_main_cst_19 V)
theorem val_main_v59 (V : Valuation τ sig (Elt F)) :
    after ops V (Proc.devRef .tc main_v59) = res_main_v59 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 21 _ rfl) rfl (by decide) (by decide) V (val_main_v57 V) (val_main_v58 V)
theorem val_main_cst_20 (V : Valuation τ sig (Elt F)) :
    after ops V (Proc.devRef .tc main_cst_20) = res_main_cst_20 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 22 _ rfl) rfl V
theorem val_main_call10_v0 (V : Valuation τ sig (Elt F)) :
    after ops V (Proc.devRef .tc main_call10_v0) = res_main_call10_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get1 23 _ rfl) rfl (by decide) V (heq_of_eq (val_main_cst_20 V)))
theorem val_main_call10_v1 (V : Valuation τ sig (Elt F)) :
    after ops V (Proc.devRef .tc main_call10_v1) = res_main_call10_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get1 24 _ rfl) rfl (by decide) V (heq_of_eq (val_main_call10_v0 V)))
theorem val_main_v60 (V : Valuation τ sig (Elt F)) :
    after ops V (Proc.devRef .tc main_v60) = res_main_v60 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get1 25 _ rfl) rfl (by decide) (by decide) (by decide) V (heq_of_eq (val_main_v59 V)) (heq_of_eq (val_main_v57 V)) (heq_of_eq (val_main_call10_v1 V)))
theorem val_main_cst_21 (V : Valuation τ sig (Elt F)) :
    after ops V (Proc.devRef .tc main_cst_21) = res_main_cst_21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 26 _ rfl) rfl V
theorem val_main_v61 (V : Valuation τ sig (Elt F)) :
    after ops V (Proc.devRef .tc main_v61) = res_main_v61 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 27 _ rfl) rfl (by decide) V (val_main_cst_21 V)
theorem val_main_v62 (V : Valuation τ sig (Elt F)) :
    after ops V (Proc.devRef .tc main_v62) = res_main_v62 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 28 _ rfl) rfl (by decide) (by decide) V (val_main_v57 V) (val_main_v61 V)
theorem val_main_v63 (V : Valuation τ sig (Elt F)) :
    after ops V (Proc.devRef .tc main_v63) = res_main_v63 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 29 _ rfl) rfl (by decide) V (val_main_v60 V)
theorem val_main_cst_22 (V : Valuation τ sig (Elt F)) :
    after ops V (Proc.devRef .tc main_cst_22) = res_main_cst_22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 30 _ rfl) rfl V
theorem val_main_v64 (V : Valuation τ sig (Elt F)) :
    after ops V (Proc.devRef .tc main_v64) = res_main_v64 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 31 _ rfl) rfl (by decide) V (val_main_cst_22 V)
theorem val_main_v65 (V : Valuation τ sig (Elt F)) :
    after ops V (Proc.devRef .tc main_v65) = res_main_v65 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 32 _ rfl) rfl (by decide) (by decide) V (val_main_v64 V) (val_main_v63 V)
theorem val_main_cst_23 (V : Valuation τ sig (Elt F)) :
    after ops V (Proc.devRef .tc main_cst_23) = res_main_cst_23 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 33 _ rfl) rfl V
theorem val_main_call11_v0 (V : Valuation τ sig (Elt F)) :
    after ops V (Proc.devRef .tc main_call11_v0) = res_main_call11_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get1 34 _ rfl) rfl (by decide) V (heq_of_eq (val_main_cst_23 V)))
theorem val_main_call11_v1 (V : Valuation τ sig (Elt F)) :
    after ops V (Proc.devRef .tc main_call11_v1) = res_main_call11_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get1 35 _ rfl) rfl (by decide) V (heq_of_eq (val_main_call11_v0 V)))
theorem val_main_v66 (V : Valuation τ sig (Elt F)) :
    after ops V (Proc.devRef .tc main_v66) = res_main_v66 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get1 36 _ rfl) rfl (by decide) (by decide) (by decide) V (heq_of_eq (val_main_v62 V)) (heq_of_eq (val_main_v65 V)) (heq_of_eq (val_main_call11_v1 V)))
theorem val_main_c_24 (V : Valuation τ sig (Elt F)) :
    after ops V (Proc.devRef .tc main_c_24) = res_main_c_24 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 37 _ rfl) rfl V
theorem val_main_v67 (V : Valuation τ sig (Elt F)) :
    after ops V (Proc.devRef .tc main_v67) = res_main_v67 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 38 _ rfl) rfl (by decide) V (val_main_c_24 V)
theorem val_main_v68 (V : Valuation τ sig (Elt F)) :
    after ops V (Proc.devRef .tc main_v68) = res_main_v68 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 39 _ rfl) rfl (by decide) (by decide) V (val_main_v46 V) (val_main_v67 V)
theorem val_main_c_25 (V : Valuation τ sig (Elt F)) :
    after ops V (Proc.devRef .tc main_c_25) = res_main_c_25 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 40 _ rfl) rfl V
theorem val_main_v69 (V : Valuation τ sig (Elt F)) :
    after ops V (Proc.devRef .tc main_v69) = res_main_v69 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 41 _ rfl) rfl (by decide) V (val_main_c_25 V)
theorem val_main_v70 (V : Valuation τ sig (Elt F)) :
    after ops V (Proc.devRef .tc main_v70) = res_main_v70 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 42 _ rfl) rfl (by decide) (by decide) V (val_main_v46 V) (val_main_v69 V)
theorem val_main_v71 (V : Valuation τ sig (Elt F)) :
    after ops V (Proc.devRef .tc main_v71) = res_main_v71 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get1 43 _ rfl) rfl (by decide) (by decide) (by decide) V (val_main_v68 V) (val_main_v70 V) (val_main_v46 V)
theorem val_main_v72 (V : Valuation τ sig (Elt F)) :
    after ops V (Proc.devRef .tc main_v72) = res_main_v72 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 44 _ rfl) rfl (by decide) V (val_main_v71 V)
theorem val_main_v73 (V : Valuation τ sig (Elt F)) :
    after ops V (Proc.devRef .tc main_v73) = res_main_v73 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 45 _ rfl) rfl (by decide) (by decide) V (val_main_v66 V) (val_main_v72 V)
theorem val_main_v74 (V : Valuation τ sig (Elt F)) :
    after ops V (Proc.devRef .tc main_v74) = res_main_v74 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 46 _ rfl) rfl (by decide) (by decide) V (val_main_v73 V) (val_main_v49 V)
theorem val_main_c_26 (V : Valuation τ sig (Elt F)) :
    after ops V (Proc.devRef .tc main_c_26) = res_main_c_26 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 47 _ rfl) rfl V
theorem val_main_v75 (V : Valuation τ sig (Elt F)) :
    after ops V (Proc.devRef .tc main_v75) = res_main_v75 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 48 _ rfl) rfl (by decide) V (val_main_c_26 V)
theorem val_main_v76 (V : Valuation τ sig (Elt F)) :
    after ops V (Proc.devRef .tc main_v76) = res_main_v76 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 49 _ rfl) rfl (by decide) (by decide) V (val_main_v47 V) (val_main_v75 V)
theorem val_main_c_27 (V : Valuation τ sig (Elt F)) :
    after ops V (Proc.devRef .tc main_c_27) = res_main_c_27 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 50 _ rfl) rfl V
theorem val_main_v77 (V : Valuation τ sig (Elt F)) :
    after ops V (Proc.devRef .tc main_v77) = res_main_v77 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 51 _ rfl) rfl (by decide) V (val_main_c_27 V)
theorem val_main_v78 (V : Valuation τ sig (Elt F)) :
    after ops V (Proc.devRef .tc main_v78) = res_main_v78 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 52 _ rfl) rfl (by decide) (by decide) V (val_main_v47 V) (val_main_v77 V)
theorem val_main_v79 (V : Valuation τ sig (Elt F)) :
    after ops V (Proc.devRef .tc main_v79) = res_main_v79 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get1 53 _ rfl) rfl (by decide) (by decide) (by decide) V (val_main_v76 V) (val_main_v78 V) (val_main_v47 V)
theorem val_main_v80 (V : Valuation τ sig (Elt F)) :
    after ops V (Proc.devRef .tc main_v80) = res_main_v80 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 54 _ rfl) rfl (by decide) V (val_main_v79 V)
theorem val_main_v81 (V : Valuation τ sig (Elt F)) :
    after ops V (Proc.devRef .tc main_v81) = res_main_v81 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 55 _ rfl) rfl (by decide) (by decide) V (val_main_v66 V) (val_main_v80 V)
theorem val_main_v82 (V : Valuation τ sig (Elt F)) :
    after ops V (Proc.devRef .tc main_v82) = res_main_v82 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 56 _ rfl) rfl (by decide) (by decide) V (val_main_v74 V) (val_main_v81 V)
theorem val_main_v83 (V : Valuation τ sig (Elt F)) :
    after ops V (Proc.devRef .tc main_v83) = res_main_v83 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 57 _ rfl) rfl (by decide) (by decide) V (arg_main_arg0 V) (arg_main_arg2 V)
theorem val_main_v84 (V : Valuation τ sig (Elt F)) :
    after ops V (Proc.devRef .tc main_v84) = res_main_v84 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 58 _ rfl) rfl (by decide) V (val_main_v82 V)
theorem val_main_c_28 (V : Valuation τ sig (Elt F)) :
    after ops V (Proc.devRef .tc main_c_28) = res_main_c_28 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 59 _ rfl) rfl V
theorem val_main_v85 (V : Valuation τ sig (Elt F)) :
    after ops V (Proc.devRef .tc main_v85) = res_main_v85 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 60 _ rfl) rfl (by decide) V (val_main_c_28 V)
theorem val_main_v86 (V : Valuation τ sig (Elt F)) :
    after ops V (Proc.devRef .tc main_v86) = res_main_v86 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get1 61 _ rfl) rfl (by decide) (by decide) V (val_main_v46 V) (val_main_v85 V)
theorem val_main_c_29 (V : Valuation τ sig (Elt F)) :
    after ops V (Proc.devRef .tc main_c_29) = res_main_c_29 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get1 62 _ rfl) rfl V
theorem val_main_v87 (V : Valuation τ sig (Elt F)) :
    after ops V (Proc.devRef .tc main_v87) = res_main_v87 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get1 63 _ rfl) rfl (by decide) V (val_main_c_29 V)

/-! ## Window 2 -/

theorem val_main_v88 (V : Valuation τ sig (Elt F)) :
    after ops V (Proc.devRef .tc main_v88) = res_main_v88 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 0 _ rfl) rfl (by decide) (by decide) V (val_main_v46 V) (val_main_v87 V)
theorem val_main_v89 (V : Valuation τ sig (Elt F)) :
    after ops V (Proc.devRef .tc main_v89) = res_main_v89 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get2 1 _ rfl) rfl (by decide) (by decide) (by decide) V (val_main_v86 V) (val_main_v88 V) (val_main_v46 V)
theorem val_main_v90 (V : Valuation τ sig (Elt F)) :
    after ops V (Proc.devRef .tc main_v90) = res_main_v90 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 2 _ rfl) rfl (by decide) V (val_main_v89 V)
theorem val_main_v91 (V : Valuation τ sig (Elt F)) :
    after ops V (Proc.devRef .tc main_v91) = res_main_v91 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 3 _ rfl) rfl (by decide) (by decide) V (val_main_v83 V) (val_main_v90 V)
theorem val_main_v92 (V : Valuation τ sig (Elt F)) :
    after ops V (Proc.devRef .tc main_v92) = res_main_v92 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 4 _ rfl) rfl (by decide) V (val_main_v84 V)
theorem val_main_v93 (V : Valuation τ sig (Elt F)) :
    after ops V (Proc.devRef .tc main_v93) = res_main_v93 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 5 _ rfl) rfl (by decide) (by decide) V (val_main_v92 V) (val_main_v91 V)
theorem val_main_cst_30 (V : Valuation τ sig (Elt F)) :
    after ops V (Proc.devRef .tc main_cst_30) = res_main_cst_30 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 6 _ rfl) rfl V
theorem val_main_v94 (V : Valuation τ sig (Elt F)) :
    after ops V (Proc.devRef .tc main_v94) = res_main_v94 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 7 _ rfl) rfl (by decide) V (val_main_cst_30 V)
theorem val_main_c_31 (V : Valuation τ sig (Elt F)) :
    after ops V (Proc.devRef .tc main_c_31) = res_main_c_31 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 8 _ rfl) rfl V
theorem val_main_v95 (V : Valuation τ sig (Elt F)) :
    after ops V (Proc.devRef .tc main_v95) = res_main_v95 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 9 _ rfl) rfl (by decide) V (val_main_c_31 V)
theorem val_main_v96 (V : Valuation τ sig (Elt F)) :
    after ops V (Proc.devRef .tc main_v96) = res_main_v96 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 10 _ rfl) rfl (by decide) (by decide) V (val_main_v47 V) (val_main_v95 V)
theorem val_main_c_32 (V : Valuation τ sig (Elt F)) :
    after ops V (Proc.devRef .tc main_c_32) = res_main_c_32 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 11 _ rfl) rfl V
theorem val_main_v97 (V : Valuation τ sig (Elt F)) :
    after ops V (Proc.devRef .tc main_v97) = res_main_v97 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 12 _ rfl) rfl (by decide) V (val_main_c_32 V)
theorem val_main_v98 (V : Valuation τ sig (Elt F)) :
    after ops V (Proc.devRef .tc main_v98) = res_main_v98 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 13 _ rfl) rfl (by decide) (by decide) V (val_main_v47 V) (val_main_v97 V)
theorem val_main_v99 (V : Valuation τ sig (Elt F)) :
    after ops V (Proc.devRef .tc main_v99) = res_main_v99 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get2 14 _ rfl) rfl (by decide) (by decide) (by decide) V (val_main_v96 V) (val_main_v98 V) (val_main_v47 V)
theorem val_main_v100 (V : Valuation τ sig (Elt F)) :
    after ops V (Proc.devRef .tc main_v100) = res_main_v100 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 15 _ rfl) rfl (by decide) V (val_main_v99 V)
theorem val_main_v101 (V : Valuation τ sig (Elt F)) :
    after ops V (Proc.devRef .tc main_v101) = res_main_v101 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get2 16 _ rfl) rfl (by decide) (by decide) (by decide) V (val_main_v94 V) (val_main_v100 V) (val_main_v93 V)
theorem val_main_v102 (V : Valuation τ sig (Elt F)) :
    after ops V (Proc.devRef .tc main_v102) = res_main_v102 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 17 _ rfl) rfl (by decide) V (arg_main_arg3 V)
theorem val_main_v103 (V : Valuation τ sig (Elt F)) :
    after ops V (Proc.devRef .tc main_v103) = res_main_v103 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 18 _ rfl) rfl (by decide) V (val_main_v102 V)
theorem val_main_v104 (V : Valuation τ sig (Elt F)) :
    after ops V (Proc.devRef .tc main_v104) = res_main_v104 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 19 _ rfl) rfl (by decide) (by decide) V (val_main_v101 V) (val_main_v103 V)
theorem val_main_cst_33 (V : Valuation τ sig (Elt F)) :
    after ops V (Proc.devRef .tc main_cst_33) = res_main_cst_33 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 20 _ rfl) rfl V
theorem val_main_v105 (V : Valuation τ sig (Elt F)) :
    after ops V (Proc.devRef .tc main_v105) = res_main_v105 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 21 _ rfl) rfl (by decide) (by decide) V (val_main_v104 V) (val_main_cst_33 V)
theorem val_main_cst_34 (V : Valuation τ sig (Elt F)) :
    after ops V (Proc.devRef .tc main_cst_34) = res_main_cst_34 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 22 _ rfl) rfl V
theorem val_main_v106 (V : Valuation τ sig (Elt F)) :
    after ops V (Proc.devRef .tc main_v106) = res_main_v106 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 23 _ rfl) rfl (by decide) V (val_main_cst_34 V)
theorem val_main_v107 (V : Valuation τ sig (Elt F)) :
    after ops V (Proc.devRef .tc main_v107) = res_main_v107 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 24 _ rfl) rfl (by decide) (by decide) V (val_main_v105 V) (val_main_v106 V)
theorem val_main_c_35 (V : Valuation τ sig (Elt F)) :
    after ops V (Proc.devRef .tc main_c_35) = res_main_c_35 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 25 _ rfl) rfl V
theorem val_main_call12_cst (V : Valuation τ sig (Elt F)) :
    after ops V (Proc.devRef .tc main_call12_cst) = res_main_call12_cst (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get2 26 _ rfl) rfl V)
theorem val_main_call12_v0 (V : Valuation τ sig (Elt F)) :
    after ops V (Proc.devRef .tc main_call12_v0) = res_main_call12_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get2 27 _ rfl) rfl (by decide) (by decide) V (heq_of_eq (val_main_v104 V)) (heq_of_eq (val_main_call12_cst V)))
theorem val_main_call12_v1 (V : Valuation τ sig (Elt F)) :
    after ops V (Proc.devRef .tc main_call12_v1) = res_main_call12_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get2 28 _ rfl) rfl (by decide) V (heq_of_eq (val_main_call12_v0 V)))
theorem val_main_call12_cst_0 (V : Valuation τ sig (Elt F)) :
    after ops V (Proc.devRef .tc main_call12_cst_0) = res_main_call12_cst_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get2 29 _ rfl) rfl V)
theorem val_main_call12_v2 (V : Valuation τ sig (Elt F)) :
    after ops V (Proc.devRef .tc main_call12_v2) = res_main_call12_v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get2 30 _ rfl) rfl (by decide) V (heq_of_eq (val_main_call12_cst_0 V)))
theorem val_main_call12_v3 (V : Valuation τ sig (Elt F)) :
    after ops V (Proc.devRef .tc main_call12_v3) = res_main_call12_v3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get2 31 _ rfl) rfl (by decide) (by decide) V (heq_of_eq (val_main_call12_v1 V)) (heq_of_eq (val_main_call12_v2 V)))
theorem val_main_call12_v4 (V : Valuation τ sig (Elt F)) :
    after ops V (Proc.devRef .tc main_call12_v4) = res_main_call12_v4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get2 32 _ rfl) rfl (by decide) V (heq_of_eq (val_main_call12_v3 V)))
theorem val_main_call12_v5 (V : Valuation τ sig (Elt F)) :
    after ops V (Proc.devRef .tc main_call12_v5) = res_main_call12_v5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get2 33 _ rfl) rfl (by decide) (by decide) V (heq_of_eq (val_main_v104 V)) (heq_of_eq (val_main_call12_v4 V)))
theorem val_main_call12_v6 (V : Valuation τ sig (Elt F)) :
    after ops V (Proc.devRef .tc main_call12_v6) = res_main_call12_v6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get2 34 _ rfl) rfl (by decide) (by decide) V (heq_of_eq (val_main_call12_v5 V)) (heq_of_eq (val_main_call12_v5 V)))
theorem val_main_call12_v7 (V : Valuation τ sig (Elt F)) :
    after ops V (Proc.devRef .tc main_call12_v7) = res_main_call12_v7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get2 35 _ rfl) rfl (by decide) V (heq_of_eq (val_main_c_35 V)))
theorem val_main_call12_cst_1 (V : Valuation τ sig (Elt F)) :
    after ops V (Proc.devRef .tc main_call12_cst_1) = res_main_call12_cst_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get2 36 _ rfl) rfl V)
theorem val_main_call12_v8 (V : Valuation τ sig (Elt F)) :
    after ops V (Proc.devRef .tc main_call12_v8) = res_main_call12_v8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get2 37 _ rfl) rfl (by decide) (by decide) V (heq_of_eq (val_main_call12_cst_1 V)) (heq_of_eq (val_main_call12_v7 V)))
theorem val_main_call12_cst_2 (V : Valuation τ sig (Elt F)) :
    after ops V (Proc.devRef .tc main_call12_cst_2) = res_main_call12_cst_2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get2 38 _ rfl) rfl V)
theorem val_main_call12_v9 (V : Valuation τ sig (Elt F)) :
    after ops V (Proc.devRef .tc main_call12_v9) = res_main_call12_v9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get2 39 _ rfl) rfl (by decide) (by decide) V (heq_of_eq (val_main_call12_v6 V)) (heq_of_eq (val_main_call12_cst_2 V)))
theorem val_main_call12_v10 (V : Valuation τ sig (Elt F)) :
    after ops V (Proc.devRef .tc main_call12_v10) = res_main_call12_v10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get2 40 _ rfl) rfl (by decide) V (heq_of_eq (val_main_call12_v8 V)))
theorem val_main_call12_v11 (V : Valuation τ sig (Elt F)) :
    after ops V (Proc.devRef .tc main_call12_v11) = res_main_call12_v11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get2 41 _ rfl) rfl (by decide) (by decide) V (heq_of_eq (val_main_call12_v9 V)) (heq_of_eq (val_main_call12_v10 V)))
theorem val_main_call12_cst_3 (V : Valuation τ sig (Elt F)) :
    after ops V (Proc.devRef .tc main_call12_cst_3) = res_main_call12_cst_3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get2 42 _ rfl) rfl V)
theorem val_main_call12_v12 (V : Valuation τ sig (Elt F)) :
    after ops V (Proc.devRef .tc main_call12_v12) = res_main_call12_v12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get2 43 _ rfl) rfl (by decide) (by decide) V (heq_of_eq (val_main_call12_v8 V)) (heq_of_eq (val_main_call12_cst_3 V)))
theorem val_main_call12_cst_4 (V : Valuation τ sig (Elt F)) :
    after ops V (Proc.devRef .tc main_call12_cst_4) = res_main_call12_cst_4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get2 44 _ rfl) rfl V)
theorem val_main_call12_call0_v0 (V : Valuation τ sig (Elt F)) :
    after ops V (Proc.devRef .tc main_call12_call0_v0) = res_main_call12_call0_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get2 45 _ rfl) rfl (by decide) V (heq_of_eq (val_main_call12_cst_4 V)))
theorem val_main_call12_call0_v1 (V : Valuation τ sig (Elt F)) :
    after ops V (Proc.devRef .tc main_call12_call0_v1) = res_main_call12_call0_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get2 46 _ rfl) rfl (by decide) V (heq_of_eq (val_main_call12_call0_v0 V)))
theorem val_main_v108 (V : Valuation τ sig (Elt F)) :
    after ops V (Proc.devRef .tc main_v108) = res_main_v108 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get2 47 _ rfl) rfl (by decide) (by decide) (by decide) V (heq_of_eq (val_main_call12_v12 V)) (heq_of_eq (val_main_call12_v11 V)) (heq_of_eq (val_main_call12_call0_v1 V)))
theorem val_main_v109 (V : Valuation τ sig (Elt F)) :
    after ops V (Proc.devRef .tc main_v109) = res_main_v109 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 48 _ rfl) rfl (by decide) V (val_main_v107 V)
theorem val_main_v110 (V : Valuation τ sig (Elt F)) :
    after ops V (Proc.devRef .tc main_v110) = res_main_v110 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 49 _ rfl) rfl (by decide) V (val_main_v109 V)
theorem val_main_v111 (V : Valuation τ sig (Elt F)) :
    after ops V (Proc.devRef .tc main_v111) = res_main_v111 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 50 _ rfl) rfl (by decide) (by decide) V (val_main_v104 V) (val_main_v110 V)
theorem val_main_cst_36 (V : Valuation τ sig (Elt F)) :
    after ops V (Proc.devRef .tc main_cst_36) = res_main_cst_36 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 51 _ rfl) rfl V
theorem val_main_v112 (V : Valuation τ sig (Elt F)) :
    after ops V (Proc.devRef .tc main_v112) = res_main_v112 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 52 _ rfl) rfl (by decide) V (val_main_cst_36 V)
theorem val_main_v113 (V : Valuation τ sig (Elt F)) :
    after ops V (Proc.devRef .tc main_v113) = res_main_v113 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 53 _ rfl) rfl (by decide) (by decide) V (val_main_v108 V) (val_main_v112 V)
theorem val_main_v114 (V : Valuation τ sig (Elt F)) :
    after ops V (Proc.devRef .tc main_v114) = res_main_v114 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 54 _ rfl) rfl (by decide) V (val_main_v113 V)
theorem val_main_v115 (V : Valuation τ sig (Elt F)) :
    after ops V (Proc.devRef .tc main_v115) = res_main_v115 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 55 _ rfl) rfl (by decide) V (val_main_v114 V)
theorem val_main_v116 (V : Valuation τ sig (Elt F)) :
    after ops V (Proc.devRef .tc main_v116) = res_main_v116 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 56 _ rfl) rfl (by decide) V (val_main_v115 V)
theorem val_main_v117 (V : Valuation τ sig (Elt F)) :
    after ops V (Proc.devRef .tc main_v117) = res_main_v117 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 57 _ rfl) rfl (by decide) (by decide) V (val_main_v111 V) (val_main_v116 V)
theorem val_main_v118 (V : Valuation τ sig (Elt F)) :
    after ops V (Proc.devRef .tc main_v118) = res_main_v118 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 58 _ rfl) rfl (by decide) V (arg_main_arg4 V)
theorem val_main_v119 (V : Valuation τ sig (Elt F)) :
    after ops V (Proc.devRef .tc main_v119) = res_main_v119 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 59 _ rfl) rfl (by decide) V (val_main_v118 V)
theorem val_main_v120 (V : Valuation τ sig (Elt F)) :
    after ops V (Proc.devRef .tc main_v120) = res_main_v120 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 60 _ rfl) rfl (by decide) (by decide) V (val_main_v117 V) (val_main_v119 V)
theorem val_main_v121 (V : Valuation τ sig (Elt F)) :
    after ops V (Proc.devRef .tc main_v121) = res_main_v121 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 61 _ rfl) rfl (by decide) V (arg_main_arg5 V)
theorem val_main_v122 (V : Valuation τ sig (Elt F)) :
    after ops V (Proc.devRef .tc main_v122) = res_main_v122 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 62 _ rfl) rfl (by decide) V (val_main_v121 V)
theorem val_main_v123 (V : Valuation τ sig (Elt F)) :
    after ops V (Proc.devRef .tc main_v123) = res_main_v123 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 63 _ rfl) rfl (by decide) (by decide) V (val_main_v120 V) (val_main_v122 V)
theorem val_main_call13_cst (V : Valuation τ sig (Elt F)) :
    after ops V (Proc.devRef .tc main_call13_cst) = res_main_call13_cst (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get2 64 _ rfl) rfl V)
theorem val_main_call13_v0 (V : Valuation τ sig (Elt F)) :
    after ops V (Proc.devRef .tc main_call13_v0) = res_main_call13_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get2 65 _ rfl) rfl (by decide) V (heq_of_eq (val_main_call13_cst V)))
theorem val_main_v124 (V : Valuation τ sig (Elt F)) :
    after ops V (Proc.devRef .tc main_v124) = res_main_v124 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get2 66 _ rfl) rfl (by decide) (by decide) V (heq_of_eq (val_main_v123 V)) (heq_of_eq (val_main_call13_v0 V)))
theorem val_main_v125 (V : Valuation τ sig (Elt F)) :
    after ops V (Proc.devRef .tc main_v125) = res_main_v125 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 67 _ rfl) rfl V
theorem val_main_v126 (V : Valuation τ sig (Elt F)) :
    after ops V (Proc.devRef .tc main_v126) = res_main_v126 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 68 _ rfl) rfl (by decide) (by decide) V (val_main_v23 V) (val_main_v125 V)
theorem val_main_v127 (V : Valuation τ sig (Elt F)) :
    after ops V (Proc.devRef .tc main_v127) = res_main_v127 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 69 _ rfl) rfl (by decide) (by decide) V (val_main_v24 V) (val_main_v125 V)
theorem val_main_cst_37 (V : Valuation τ sig (Elt F)) :
    after ops V (Proc.devRef .tc main_cst_37) = res_main_cst_37 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 70 _ rfl) rfl V
theorem val_main_v128 (V : Valuation τ sig (Elt F)) :
    after ops V (Proc.devRef .tc main_v128) = res_main_v128 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 71 _ rfl) rfl (by decide) V (val_main_cst_37 V)
theorem val_main_v129 (V : Valuation τ sig (Elt F)) :
    after ops V (Proc.devRef .tc main_v129) = res_main_v129 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 72 _ rfl) rfl (by decide) (by decide) V (val_main_v44 V) (val_main_v128 V)
theorem val_main_cst_38 (V : Valuation τ sig (Elt F)) :
    after ops V (Proc.devRef .tc main_cst_38) = res_main_cst_38 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 73 _ rfl) rfl V
theorem val_main_v130 (V : Valuation τ sig (Elt F)) :
    after ops V (Proc.devRef .tc main_v130) = res_main_v130 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 74 _ rfl) rfl (by decide) V (val_main_cst_38 V)
theorem val_main_c_39 (V : Valuation τ sig (Elt F)) :
    after ops V (Proc.devRef .tc main_c_39) = res_main_c_39 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 75 _ rfl) rfl V
theorem val_main_v131 (V : Valuation τ sig (Elt F)) :
    after ops V (Proc.devRef .tc main_v131) = res_main_v131 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 76 _ rfl) rfl (by decide) V (val_main_c_39 V)
theorem val_main_v132 (V : Valuation τ sig (Elt F)) :
    after ops V (Proc.devRef .tc main_v132) = res_main_v132 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 77 _ rfl) rfl (by decide) (by decide) V (val_main_v127 V) (val_main_v131 V)
theorem val_main_c_40 (V : Valuation τ sig (Elt F)) :
    after ops V (Proc.devRef .tc main_c_40) = res_main_c_40 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get2 78 _ rfl) rfl V
theorem val_main_v133 (V : Valuation τ sig (Elt F)) :
    after ops V (Proc.devRef .tc main_v133) = res_main_v133 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 79 _ rfl) rfl (by decide) V (val_main_c_40 V)
theorem val_main_v134 (V : Valuation τ sig (Elt F)) :
    after ops V (Proc.devRef .tc main_v134) = res_main_v134 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get2 80 _ rfl) rfl (by decide) (by decide) V (val_main_v127 V) (val_main_v133 V)
theorem val_main_v135 (V : Valuation τ sig (Elt F)) :
    after ops V (Proc.devRef .tc main_v135) = res_main_v135 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get2 81 _ rfl) rfl (by decide) (by decide) (by decide) V (val_main_v132 V) (val_main_v134 V) (val_main_v127 V)
theorem val_main_v136 (V : Valuation τ sig (Elt F)) :
    after ops V (Proc.devRef .tc main_v136) = res_main_v136 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get2 82 _ rfl) rfl (by decide) V (val_main_v135 V)

/-! ## Window 3 -/

theorem val_main_v137 (V : Valuation τ sig (Elt F)) :
    after ops V (Proc.devRef .tc main_v137) = res_main_v137 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get3 0 _ rfl) rfl (by decide) (by decide) (by decide) V (val_main_v130 V) (val_main_v136 V) (val_main_v129 V)
theorem val_main_cst_41 (V : Valuation τ sig (Elt F)) :
    after ops V (Proc.devRef .tc main_cst_41) = res_main_cst_41 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 1 _ rfl) rfl V
theorem val_main_v138 (V : Valuation τ sig (Elt F)) :
    after ops V (Proc.devRef .tc main_v138) = res_main_v138 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 2 _ rfl) rfl (by decide) V (val_main_cst_41 V)
theorem val_main_v139 (V : Valuation τ sig (Elt F)) :
    after ops V (Proc.devRef .tc main_v139) = res_main_v139 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 3 _ rfl) rfl (by decide) (by decide) V (val_main_v137 V) (val_main_v138 V)
theorem val_main_cst_42 (V : Valuation τ sig (Elt F)) :
    after ops V (Proc.devRef .tc main_cst_42) = res_main_cst_42 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 4 _ rfl) rfl V
theorem val_main_call14_v0 (V : Valuation τ sig (Elt F)) :
    after ops V (Proc.devRef .tc main_call14_v0) = res_main_call14_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get3 5 _ rfl) rfl (by decide) V (heq_of_eq (val_main_cst_42 V)))
theorem val_main_call14_v1 (V : Valuation τ sig (Elt F)) :
    after ops V (Proc.devRef .tc main_call14_v1) = res_main_call14_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get3 6 _ rfl) rfl (by decide) V (heq_of_eq (val_main_call14_v0 V)))
theorem val_main_v140 (V : Valuation τ sig (Elt F)) :
    after ops V (Proc.devRef .tc main_v140) = res_main_v140 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get3 7 _ rfl) rfl (by decide) (by decide) (by decide) V (heq_of_eq (val_main_v139 V)) (heq_of_eq (val_main_v137 V)) (heq_of_eq (val_main_call14_v1 V)))
theorem val_main_cst_43 (V : Valuation τ sig (Elt F)) :
    after ops V (Proc.devRef .tc main_cst_43) = res_main_cst_43 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 8 _ rfl) rfl V
theorem val_main_v141 (V : Valuation τ sig (Elt F)) :
    after ops V (Proc.devRef .tc main_v141) = res_main_v141 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 9 _ rfl) rfl (by decide) V (val_main_cst_43 V)
theorem val_main_v142 (V : Valuation τ sig (Elt F)) :
    after ops V (Proc.devRef .tc main_v142) = res_main_v142 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 10 _ rfl) rfl (by decide) (by decide) V (val_main_v137 V) (val_main_v141 V)
theorem val_main_v143 (V : Valuation τ sig (Elt F)) :
    after ops V (Proc.devRef .tc main_v143) = res_main_v143 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 11 _ rfl) rfl (by decide) V (val_main_v140 V)
theorem val_main_cst_44 (V : Valuation τ sig (Elt F)) :
    after ops V (Proc.devRef .tc main_cst_44) = res_main_cst_44 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 12 _ rfl) rfl V
theorem val_main_v144 (V : Valuation τ sig (Elt F)) :
    after ops V (Proc.devRef .tc main_v144) = res_main_v144 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 13 _ rfl) rfl (by decide) V (val_main_cst_44 V)
theorem val_main_v145 (V : Valuation τ sig (Elt F)) :
    after ops V (Proc.devRef .tc main_v145) = res_main_v145 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 14 _ rfl) rfl (by decide) (by decide) V (val_main_v144 V) (val_main_v143 V)
theorem val_main_cst_45 (V : Valuation τ sig (Elt F)) :
    after ops V (Proc.devRef .tc main_cst_45) = res_main_cst_45 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 15 _ rfl) rfl V
theorem val_main_call15_v0 (V : Valuation τ sig (Elt F)) :
    after ops V (Proc.devRef .tc main_call15_v0) = res_main_call15_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get3 16 _ rfl) rfl (by decide) V (heq_of_eq (val_main_cst_45 V)))
theorem val_main_call15_v1 (V : Valuation τ sig (Elt F)) :
    after ops V (Proc.devRef .tc main_call15_v1) = res_main_call15_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get3 17 _ rfl) rfl (by decide) V (heq_of_eq (val_main_call15_v0 V)))
theorem val_main_v146 (V : Valuation τ sig (Elt F)) :
    after ops V (Proc.devRef .tc main_v146) = res_main_v146 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get3 18 _ rfl) rfl (by decide) (by decide) (by decide) V (heq_of_eq (val_main_v142 V)) (heq_of_eq (val_main_v145 V)) (heq_of_eq (val_main_call15_v1 V)))
theorem val_main_c_46 (V : Valuation τ sig (Elt F)) :
    after ops V (Proc.devRef .tc main_c_46) = res_main_c_46 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 19 _ rfl) rfl V
theorem val_main_v147 (V : Valuation τ sig (Elt F)) :
    after ops V (Proc.devRef .tc main_v147) = res_main_v147 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 20 _ rfl) rfl (by decide) V (val_main_c_46 V)
theorem val_main_v148 (V : Valuation τ sig (Elt F)) :
    after ops V (Proc.devRef .tc main_v148) = res_main_v148 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 21 _ rfl) rfl (by decide) (by decide) V (val_main_v126 V) (val_main_v147 V)
theorem val_main_c_47 (V : Valuation τ sig (Elt F)) :
    after ops V (Proc.devRef .tc main_c_47) = res_main_c_47 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 22 _ rfl) rfl V
theorem val_main_v149 (V : Valuation τ sig (Elt F)) :
    after ops V (Proc.devRef .tc main_v149) = res_main_v149 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 23 _ rfl) rfl (by decide) V (val_main_c_47 V)
theorem val_main_v150 (V : Valuation τ sig (Elt F)) :
    after ops V (Proc.devRef .tc main_v150) = res_main_v150 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 24 _ rfl) rfl (by decide) (by decide) V (val_main_v126 V) (val_main_v149 V)
theorem val_main_v151 (V : Valuation τ sig (Elt F)) :
    after ops V (Proc.devRef .tc main_v151) = res_main_v151 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get3 25 _ rfl) rfl (by decide) (by decide) (by decide) V (val_main_v148 V) (val_main_v150 V) (val_main_v126 V)
theorem val_main_v152 (V : Valuation τ sig (Elt F)) :
    after ops V (Proc.devRef .tc main_v152) = res_main_v152 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 26 _ rfl) rfl (by decide) V (val_main_v151 V)
theorem val_main_v153 (V : Valuation τ sig (Elt F)) :
    after ops V (Proc.devRef .tc main_v153) = res_main_v153 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 27 _ rfl) rfl (by decide) (by decide) V (val_main_v146 V) (val_main_v152 V)
theorem val_main_v154 (V : Valuation τ sig (Elt F)) :
    after ops V (Proc.devRef .tc main_v154) = res_main_v154 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 28 _ rfl) rfl (by decide) (by decide) V (val_main_v153 V) (val_main_v129 V)
theorem val_main_c_48 (V : Valuation τ sig (Elt F)) :
    after ops V (Proc.devRef .tc main_c_48) = res_main_c_48 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 29 _ rfl) rfl V
theorem val_main_v155 (V : Valuation τ sig (Elt F)) :
    after ops V (Proc.devRef .tc main_v155) = res_main_v155 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 30 _ rfl) rfl (by decide) V (val_main_c_48 V)
theorem val_main_v156 (V : Valuation τ sig (Elt F)) :
    after ops V (Proc.devRef .tc main_v156) = res_main_v156 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 31 _ rfl) rfl (by decide) (by decide) V (val_main_v127 V) (val_main_v155 V)
theorem val_main_c_49 (V : Valuation τ sig (Elt F)) :
    after ops V (Proc.devRef .tc main_c_49) = res_main_c_49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 32 _ rfl) rfl V
theorem val_main_v157 (V : Valuation τ sig (Elt F)) :
    after ops V (Proc.devRef .tc main_v157) = res_main_v157 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 33 _ rfl) rfl (by decide) V (val_main_c_49 V)
theorem val_main_v158 (V : Valuation τ sig (Elt F)) :
    after ops V (Proc.devRef .tc main_v158) = res_main_v158 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 34 _ rfl) rfl (by decide) (by decide) V (val_main_v127 V) (val_main_v157 V)
theorem val_main_v159 (V : Valuation τ sig (Elt F)) :
    after ops V (Proc.devRef .tc main_v159) = res_main_v159 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get3 35 _ rfl) rfl (by decide) (by decide) (by decide) V (val_main_v156 V) (val_main_v158 V) (val_main_v127 V)
theorem val_main_v160 (V : Valuation τ sig (Elt F)) :
    after ops V (Proc.devRef .tc main_v160) = res_main_v160 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 36 _ rfl) rfl (by decide) V (val_main_v159 V)
theorem val_main_v161 (V : Valuation τ sig (Elt F)) :
    after ops V (Proc.devRef .tc main_v161) = res_main_v161 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 37 _ rfl) rfl (by decide) (by decide) V (val_main_v146 V) (val_main_v160 V)
theorem val_main_v162 (V : Valuation τ sig (Elt F)) :
    after ops V (Proc.devRef .tc main_v162) = res_main_v162 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 38 _ rfl) rfl (by decide) (by decide) V (val_main_v154 V) (val_main_v161 V)
theorem val_main_v163 (V : Valuation τ sig (Elt F)) :
    after ops V (Proc.devRef .tc main_v163) = res_main_v163 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 39 _ rfl) rfl (by decide) (by decide) V (val_main_v124 V) (arg_main_arg6 V)
theorem val_main_v164 (V : Valuation τ sig (Elt F)) :
    after ops V (Proc.devRef .tc main_v164) = res_main_v164 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 40 _ rfl) rfl (by decide) V (val_main_v162 V)
theorem val_main_c_50 (V : Valuation τ sig (Elt F)) :
    after ops V (Proc.devRef .tc main_c_50) = res_main_c_50 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 41 _ rfl) rfl V
theorem val_main_v165 (V : Valuation τ sig (Elt F)) :
    after ops V (Proc.devRef .tc main_v165) = res_main_v165 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 42 _ rfl) rfl (by decide) V (val_main_c_50 V)
theorem val_main_v166 (V : Valuation τ sig (Elt F)) :
    after ops V (Proc.devRef .tc main_v166) = res_main_v166 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 43 _ rfl) rfl (by decide) (by decide) V (val_main_v126 V) (val_main_v165 V)
theorem val_main_c_51 (V : Valuation τ sig (Elt F)) :
    after ops V (Proc.devRef .tc main_c_51) = res_main_c_51 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 44 _ rfl) rfl V
theorem val_main_v167 (V : Valuation τ sig (Elt F)) :
    after ops V (Proc.devRef .tc main_v167) = res_main_v167 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 45 _ rfl) rfl (by decide) V (val_main_c_51 V)
theorem val_main_v168 (V : Valuation τ sig (Elt F)) :
    after ops V (Proc.devRef .tc main_v168) = res_main_v168 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 46 _ rfl) rfl (by decide) (by decide) V (val_main_v126 V) (val_main_v167 V)
theorem val_main_v169 (V : Valuation τ sig (Elt F)) :
    after ops V (Proc.devRef .tc main_v169) = res_main_v169 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get3 47 _ rfl) rfl (by decide) (by decide) (by decide) V (val_main_v166 V) (val_main_v168 V) (val_main_v126 V)
theorem val_main_v170 (V : Valuation τ sig (Elt F)) :
    after ops V (Proc.devRef .tc main_v170) = res_main_v170 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 48 _ rfl) rfl (by decide) V (val_main_v169 V)
theorem val_main_v171 (V : Valuation τ sig (Elt F)) :
    after ops V (Proc.devRef .tc main_v171) = res_main_v171 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 49 _ rfl) rfl (by decide) (by decide) V (val_main_v163 V) (val_main_v170 V)
theorem val_main_v172 (V : Valuation τ sig (Elt F)) :
    after ops V (Proc.devRef .tc main_v172) = res_main_v172 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 50 _ rfl) rfl (by decide) V (val_main_v164 V)
theorem val_main_v173 (V : Valuation τ sig (Elt F)) :
    after ops V (Proc.devRef .tc main_v173) = res_main_v173 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 51 _ rfl) rfl (by decide) (by decide) V (val_main_v172 V) (val_main_v171 V)
theorem val_main_cst_52 (V : Valuation τ sig (Elt F)) :
    after ops V (Proc.devRef .tc main_cst_52) = res_main_cst_52 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 52 _ rfl) rfl V
theorem val_main_v174 (V : Valuation τ sig (Elt F)) :
    after ops V (Proc.devRef .tc main_v174) = res_main_v174 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 53 _ rfl) rfl (by decide) V (val_main_cst_52 V)
theorem val_main_c_53 (V : Valuation τ sig (Elt F)) :
    after ops V (Proc.devRef .tc main_c_53) = res_main_c_53 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 54 _ rfl) rfl V
theorem val_main_v175 (V : Valuation τ sig (Elt F)) :
    after ops V (Proc.devRef .tc main_v175) = res_main_v175 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 55 _ rfl) rfl (by decide) V (val_main_c_53 V)
theorem val_main_v176 (V : Valuation τ sig (Elt F)) :
    after ops V (Proc.devRef .tc main_v176) = res_main_v176 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 56 _ rfl) rfl (by decide) (by decide) V (val_main_v127 V) (val_main_v175 V)
theorem val_main_c_54 (V : Valuation τ sig (Elt F)) :
    after ops V (Proc.devRef .tc main_c_54) = res_main_c_54 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get3 57 _ rfl) rfl V
theorem val_main_v177 (V : Valuation τ sig (Elt F)) :
    after ops V (Proc.devRef .tc main_v177) = res_main_v177 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 58 _ rfl) rfl (by decide) V (val_main_c_54 V)
theorem val_main_v178 (V : Valuation τ sig (Elt F)) :
    after ops V (Proc.devRef .tc main_v178) = res_main_v178 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get3 59 _ rfl) rfl (by decide) (by decide) V (val_main_v127 V) (val_main_v177 V)
theorem val_main_v179 (V : Valuation τ sig (Elt F)) :
    after ops V (Proc.devRef .tc main_v179) = res_main_v179 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get3 60 _ rfl) rfl (by decide) (by decide) (by decide) V (val_main_v176 V) (val_main_v178 V) (val_main_v127 V)
theorem val_main_v180 (V : Valuation τ sig (Elt F)) :
    after ops V (Proc.devRef .tc main_v180) = res_main_v180 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 61 _ rfl) rfl (by decide) V (val_main_v179 V)
theorem val_main_v181 (V : Valuation τ sig (Elt F)) :
    after ops V (Proc.devRef .tc main_v181) = res_main_v181 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_ternary ops_numbered (get3 62 _ rfl) rfl (by decide) (by decide) (by decide) V (val_main_v174 V) (val_main_v180 V) (val_main_v173 V)
theorem val_main_v182 (V : Valuation τ sig (Elt F)) :
    after ops V (Proc.devRef .tc main_v182) = res_main_v182 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get3 63 _ rfl) rfl (by decide) V (arg_main_arg7 V)

/-! ## Window 4 -/

theorem val_main_v183 (V : Valuation τ sig (Elt F)) :
    after ops V (Proc.devRef .tc main_v183) = res_main_v183 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 0 _ rfl) rfl (by decide) V (val_main_v182 V)
theorem val_main_v184 (V : Valuation τ sig (Elt F)) :
    after ops V (Proc.devRef .tc main_v184) = res_main_v184 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get4 1 _ rfl) rfl (by decide) (by decide) V (val_main_v181 V) (val_main_v183 V)
theorem val_main_cst_55 (V : Valuation τ sig (Elt F)) :
    after ops V (Proc.devRef .tc main_cst_55) = res_main_cst_55 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get4 2 _ rfl) rfl V
theorem val_main_v185 (V : Valuation τ sig (Elt F)) :
    after ops V (Proc.devRef .tc main_v185) = res_main_v185 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get4 3 _ rfl) rfl (by decide) (by decide) V (val_main_v184 V) (val_main_cst_55 V)
theorem val_main_cst_56 (V : Valuation τ sig (Elt F)) :
    after ops V (Proc.devRef .tc main_cst_56) = res_main_cst_56 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get4 4 _ rfl) rfl V
theorem val_main_v186 (V : Valuation τ sig (Elt F)) :
    after ops V (Proc.devRef .tc main_v186) = res_main_v186 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 5 _ rfl) rfl (by decide) V (val_main_cst_56 V)
theorem val_main_v187 (V : Valuation τ sig (Elt F)) :
    after ops V (Proc.devRef .tc main_v187) = res_main_v187 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get4 6 _ rfl) rfl (by decide) (by decide) V (val_main_v185 V) (val_main_v186 V)
theorem val_main_c_57 (V : Valuation τ sig (Elt F)) :
    after ops V (Proc.devRef .tc main_c_57) = res_main_c_57 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get4 7 _ rfl) rfl V
theorem val_main_call16_cst (V : Valuation τ sig (Elt F)) :
    after ops V (Proc.devRef .tc main_call16_cst) = res_main_call16_cst (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get4 8 _ rfl) rfl V)
theorem val_main_call16_v0 (V : Valuation τ sig (Elt F)) :
    after ops V (Proc.devRef .tc main_call16_v0) = res_main_call16_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get4 9 _ rfl) rfl (by decide) (by decide) V (heq_of_eq (val_main_v184 V)) (heq_of_eq (val_main_call16_cst V)))
theorem val_main_call16_v1 (V : Valuation τ sig (Elt F)) :
    after ops V (Proc.devRef .tc main_call16_v1) = res_main_call16_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get4 10 _ rfl) rfl (by decide) V (heq_of_eq (val_main_call16_v0 V)))
theorem val_main_call16_cst_0 (V : Valuation τ sig (Elt F)) :
    after ops V (Proc.devRef .tc main_call16_cst_0) = res_main_call16_cst_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get4 11 _ rfl) rfl V)
theorem val_main_call16_v2 (V : Valuation τ sig (Elt F)) :
    after ops V (Proc.devRef .tc main_call16_v2) = res_main_call16_v2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get4 12 _ rfl) rfl (by decide) V (heq_of_eq (val_main_call16_cst_0 V)))
theorem val_main_call16_v3 (V : Valuation τ sig (Elt F)) :
    after ops V (Proc.devRef .tc main_call16_v3) = res_main_call16_v3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get4 13 _ rfl) rfl (by decide) (by decide) V (heq_of_eq (val_main_call16_v1 V)) (heq_of_eq (val_main_call16_v2 V)))
theorem val_main_call16_v4 (V : Valuation τ sig (Elt F)) :
    after ops V (Proc.devRef .tc main_call16_v4) = res_main_call16_v4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get4 14 _ rfl) rfl (by decide) V (heq_of_eq (val_main_call16_v3 V)))
theorem val_main_call16_v5 (V : Valuation τ sig (Elt F)) :
    after ops V (Proc.devRef .tc main_call16_v5) = res_main_call16_v5 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get4 15 _ rfl) rfl (by decide) (by decide) V (heq_of_eq (val_main_v184 V)) (heq_of_eq (val_main_call16_v4 V)))
theorem val_main_call16_v6 (V : Valuation τ sig (Elt F)) :
    after ops V (Proc.devRef .tc main_call16_v6) = res_main_call16_v6 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get4 16 _ rfl) rfl (by decide) (by decide) V (heq_of_eq (val_main_call16_v5 V)) (heq_of_eq (val_main_call16_v5 V)))
theorem val_main_call16_v7 (V : Valuation τ sig (Elt F)) :
    after ops V (Proc.devRef .tc main_call16_v7) = res_main_call16_v7 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get4 17 _ rfl) rfl (by decide) V (heq_of_eq (val_main_c_57 V)))
theorem val_main_call16_cst_1 (V : Valuation τ sig (Elt F)) :
    after ops V (Proc.devRef .tc main_call16_cst_1) = res_main_call16_cst_1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get4 18 _ rfl) rfl V)
theorem val_main_call16_v8 (V : Valuation τ sig (Elt F)) :
    after ops V (Proc.devRef .tc main_call16_v8) = res_main_call16_v8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get4 19 _ rfl) rfl (by decide) (by decide) V (heq_of_eq (val_main_call16_cst_1 V)) (heq_of_eq (val_main_call16_v7 V)))
theorem val_main_call16_cst_2 (V : Valuation τ sig (Elt F)) :
    after ops V (Proc.devRef .tc main_call16_cst_2) = res_main_call16_cst_2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get4 20 _ rfl) rfl V)
theorem val_main_call16_v9 (V : Valuation τ sig (Elt F)) :
    after ops V (Proc.devRef .tc main_call16_v9) = res_main_call16_v9 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get4 21 _ rfl) rfl (by decide) (by decide) V (heq_of_eq (val_main_call16_v6 V)) (heq_of_eq (val_main_call16_cst_2 V)))
theorem val_main_call16_v10 (V : Valuation τ sig (Elt F)) :
    after ops V (Proc.devRef .tc main_call16_v10) = res_main_call16_v10 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get4 22 _ rfl) rfl (by decide) V (heq_of_eq (val_main_call16_v8 V)))
theorem val_main_call16_v11 (V : Valuation τ sig (Elt F)) :
    after ops V (Proc.devRef .tc main_call16_v11) = res_main_call16_v11 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get4 23 _ rfl) rfl (by decide) (by decide) V (heq_of_eq (val_main_call16_v9 V)) (heq_of_eq (val_main_call16_v10 V)))
theorem val_main_call16_cst_3 (V : Valuation τ sig (Elt F)) :
    after ops V (Proc.devRef .tc main_call16_cst_3) = res_main_call16_cst_3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get4 24 _ rfl) rfl V)
theorem val_main_call16_v12 (V : Valuation τ sig (Elt F)) :
    after ops V (Proc.devRef .tc main_call16_v12) = res_main_call16_v12 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tbinary ops_numbered (get4 25 _ rfl) rfl (by decide) (by decide) V (heq_of_eq (val_main_call16_v8 V)) (heq_of_eq (val_main_call16_cst_3 V)))
theorem val_main_call16_cst_4 (V : Valuation τ sig (Elt F)) :
    after ops V (Proc.devRef .tc main_call16_cst_4) = res_main_call16_cst_4 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tnullary ops_numbered (get4 26 _ rfl) rfl V)
theorem val_main_call16_call0_v0 (V : Valuation τ sig (Elt F)) :
    after ops V (Proc.devRef .tc main_call16_call0_v0) = res_main_call16_call0_v0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get4 27 _ rfl) rfl (by decide) V (heq_of_eq (val_main_call16_cst_4 V)))
theorem val_main_call16_call0_v1 (V : Valuation τ sig (Elt F)) :
    after ops V (Proc.devRef .tc main_call16_call0_v1) = res_main_call16_call0_v1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tunary ops_numbered (get4 28 _ rfl) rfl (by decide) V (heq_of_eq (val_main_call16_call0_v0 V)))
theorem val_main_v188 (V : Valuation τ sig (Elt F)) :
    after ops V (Proc.devRef .tc main_v188) = res_main_v188 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  eq_of_heq (step_tternary ops_numbered (get4 29 _ rfl) rfl (by decide) (by decide) (by decide) V (heq_of_eq (val_main_call16_v12 V)) (heq_of_eq (val_main_call16_v11 V)) (heq_of_eq (val_main_call16_call0_v1 V)))
theorem val_main_v189 (V : Valuation τ sig (Elt F)) :
    after ops V (Proc.devRef .tc main_v189) = res_main_v189 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 30 _ rfl) rfl (by decide) V (val_main_v187 V)
theorem val_main_v190 (V : Valuation τ sig (Elt F)) :
    after ops V (Proc.devRef .tc main_v190) = res_main_v190 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 31 _ rfl) rfl (by decide) V (val_main_v189 V)
theorem val_main_v191 (V : Valuation τ sig (Elt F)) :
    after ops V (Proc.devRef .tc main_v191) = res_main_v191 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get4 32 _ rfl) rfl (by decide) (by decide) V (val_main_v184 V) (val_main_v190 V)
theorem val_main_cst_58 (V : Valuation τ sig (Elt F)) :
    after ops V (Proc.devRef .tc main_cst_58) = res_main_cst_58 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_nullary ops_numbered (get4 33 _ rfl) rfl V
theorem val_main_v192 (V : Valuation τ sig (Elt F)) :
    after ops V (Proc.devRef .tc main_v192) = res_main_v192 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 34 _ rfl) rfl (by decide) V (val_main_cst_58 V)
theorem val_main_v193 (V : Valuation τ sig (Elt F)) :
    after ops V (Proc.devRef .tc main_v193) = res_main_v193 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get4 35 _ rfl) rfl (by decide) (by decide) V (val_main_v188 V) (val_main_v192 V)
theorem val_main_v194 (V : Valuation τ sig (Elt F)) :
    after ops V (Proc.devRef .tc main_v194) = res_main_v194 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 36 _ rfl) rfl (by decide) V (val_main_v193 V)
theorem val_main_v195 (V : Valuation τ sig (Elt F)) :
    after ops V (Proc.devRef .tc main_v195) = res_main_v195 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 37 _ rfl) rfl (by decide) V (val_main_v194 V)
theorem val_main_v196 (V : Valuation τ sig (Elt F)) :
    after ops V (Proc.devRef .tc main_v196) = res_main_v196 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 38 _ rfl) rfl (by decide) V (val_main_v195 V)
theorem val_main_v197 (V : Valuation τ sig (Elt F)) :
    after ops V (Proc.devRef .tc main_v197) = res_main_v197 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get4 39 _ rfl) rfl (by decide) (by decide) V (val_main_v191 V) (val_main_v196 V)
theorem val_main_v198 (V : Valuation τ sig (Elt F)) :
    after ops V (Proc.devRef .tc main_v198) = res_main_v198 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 40 _ rfl) rfl (by decide) V (arg_main_arg8 V)
theorem val_main_v199 (V : Valuation τ sig (Elt F)) :
    after ops V (Proc.devRef .tc main_v199) = res_main_v199 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 41 _ rfl) rfl (by decide) V (val_main_v198 V)
theorem val_main_v200 (V : Valuation τ sig (Elt F)) :
    after ops V (Proc.devRef .tc main_v200) = res_main_v200 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get4 42 _ rfl) rfl (by decide) (by decide) V (val_main_v197 V) (val_main_v199 V)
theorem val_main_v201 (V : Valuation τ sig (Elt F)) :
    after ops V (Proc.devRef .tc main_v201) = res_main_v201 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 43 _ rfl) rfl (by decide) V (arg_main_arg9 V)
theorem val_main_v202 (V : Valuation τ sig (Elt F)) :
    after ops V (Proc.devRef .tc main_v202) = res_main_v202 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_unary ops_numbered (get4 44 _ rfl) rfl (by decide) V (val_main_v201 V)
theorem val_main_v203 (V : Valuation τ sig (Elt F)) :
    after ops V (Proc.devRef .tc main_v203) = res_main_v203 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  step_binary ops_numbered (get4 45 _ rfl) rfl (by decide) (by decide) V (val_main_v200 V) (val_main_v202 V)

end Cert.ReferenceIdeal.Hand

end
-- ==== Proof.RefOutC2.lean ====
/-
  The reference's result as a function of its arguments. After the whole line of the reference's operations the
  result buffer holds the value named for it: the composition of the operations' functions along the program's
  dependencies, applied to the ten argument arrays as they were at launch.
-/
import proofs.«121040_g28046136442917_fold_wed_c4_759_6_alg».proof.Proof.RefStepsC2

noncomputable section

namespace Cert.ReferenceIdeal.Hand

open Idealize.ShloMosaic Idealize.SL.Sem Idealize.ShloMosaic.TcCoe Idealize.ShloMosaic.StableHlo
open Cert.ReferenceIdeal Cert.ReferenceIdeal.Gen

variable {F : FTy → Type} [FloatOps F]

/-- The result buffer after the line, from any contents V before it. -/
theorem out_eq (V : Valuation τ sig (Elt F)) :
    after ops V (main_v203 : DevRef τ sig)
      = res_main_v203 (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) :=
  val_main_v203 V

end Cert.ReferenceIdeal.Hand

end
-- ==== Proof.RefEdgesDefs.lean ====
/-
  The reference's edge list, as pure functions of the adjacency array.

  The reference lists the nonzero entries of the 2048 x 2048 adjacency in row-major order, padded to
  4194304 = 2048 * 2048 entries.  Write p = 2048 r + c for the flat position of entry (r, c), call p
  marked when adj (r, c) is not zero, and let cnt be the number of marked positions.  The list is
  computed by counting:
    cs p  = the number of marked positions q <= p                        (a running sum of the mask),
    b v   = the number of positions p with cs p = v                      (a scatter-add of ones at cs p;
                                                                          the value 4194304 falls outside and is dropped),
    fi k  = the sum of b v over v <= k                                   (a second running sum),
  so that fi k is the number of positions with cs p <= k, which for k < cnt is the (k+1)-th marked
  position.  Entry k of the list is then the pair (fi k / 2048 mod 2048, fi k mod 2048) for k < cnt and
  (0, 0) for k >= cnt, and its weight is the adjacency there times the indicator of k < cnt.

-/
import proofs.«121040_g28046136442917_fold_wed_c4_759_6_alg».proof.ReferenceIdeal
import Idealize.ShloMosaic.Lib.ValueIdx
import Idealize.ShloMosaic.PureOps.Ideal

noncomputable section

namespace Cert.ReferenceIdeal.HandNz

open Idealize.ShloMosaic Idealize.ShloMosaic.ValueIdx
open Facts₀

variable [Facts₀]

/-! ### The outlined functions, as functions of their arguments -/

/-- A scalar copied to every one of the 4194304 positions. -/
abbrev splat {α : Type} (c : S_.Idx → α) : S4194304.Idx → α :=
  broadcastInDim S4194304 ![] bcast_S_S4194304 c

/-- The running sum of a flat integer array: entry j is the sum of the entries q <= j. -/
def cumsum0 (x : IVec S4194304 32) : IVec S4194304 32 :=
  Host.reduceWindow IntOp.addi ![4194304] ![1] ![4194303] ![0] x
    (broadcastInDim S_ ![] bcast_S_S_ (constantI S_ 32 0#32))
    reduceWindows_S4194304_S4194304_w4194304s1p4194303_0 h_S_

/-- The larger of a scalar and each entry. -/
def clipLo (x : IVec S4194304 32) (c : IVec S_ 32) : IVec S4194304 32 :=
  maxsi (broadcastInDim S4194304 ![] bcast_S_S4194304 (id c)) x

/-- The quotient rounded towards minus infinity: the truncated quotient, less one where the signs
differ and the division is not exact. -/
def floorDiv (x : IVec S4194304 32) (c : IVec S_ 32) : IVec S4194304 32 :=
  select
    (andi
      (cmpi .ne (signi x) (broadcastInDim S4194304 ![] bcast_S_S4194304 (signi c)))
      (cmpi .ne (Host.remsi x (broadcastInDim S4194304 ![] bcast_S_S4194304 c))
        (broadcastInDim S4194304 ![] bcast_S_S4194304 (constantI S_ 32 0#32))))
    (subi (Host.divsi x (broadcastInDim S4194304 ![] bcast_S_S4194304 c))
      (broadcastInDim S4194304 ![] bcast_S_S4194304 (constantI S_ 32 1#32)))
    (Host.divsi x (broadcastInDim S4194304 ![] bcast_S_S4194304 c))

/-- The divisor, with one in place of zero. -/
def safeDiv (c : IVec S_ 32) : IVec S_ 32 :=
  select (cmpi .eq (id c) (constantI S_ 32 0#32)) (constantI S_ 32 1#32) (id c)

/-- The truncated remainder by the safe divisor. -/
def remT (x : IVec S4194304 32) (c : IVec S_ 32) : IVec S4194304 32 :=
  Host.remsi x (broadcastInDim S4194304 ![] bcast_S_S4194304 (safeDiv c))

/-- The remainder with the divisor's sign: the truncated remainder, plus the divisor where it is
not zero and its sign differs from the divisor's. -/
def remF (x : IVec S4194304 32) (c : IVec S_ 32) : IVec S4194304 32 :=
  select
    (andi
      (cmpi .ne
        (cmpi .slt (remT x c) (broadcastInDim S4194304 ![] bcast_S_S4194304 (constantI S_ 32 0#32)))
        (broadcastInDim S4194304 ![] bcast_S_S4194304 (cmpi .slt (safeDiv c) (constantI S_ 32 0#32))))
      (cmpi .ne (remT x c) (broadcastInDim S4194304 ![] bcast_S_S4194304 (constantI S_ 32 0#32))))
    (addi (remT x c) (broadcastInDim S4194304 ![] bcast_S_S4194304 (safeDiv c)))
    (remT x c)

/-- A scalar where the condition holds, the array's entry elsewhere. -/
def whereS (m : IVec S4194304 1) (c : IVec S_ 32) (x : IVec S4194304 32) : IVec S4194304 32 :=
  select m (broadcastInDim S4194304 ![] bcast_S_S4194304 (id c)) x

/-- An index with the axis length added where it is negative. -/
def normNeg (x : IVec S4194304 32) (n : BitVec 32) : IVec S4194304 32 :=
  select (cmpi .slt x (broadcastInDim S4194304 ![] bcast_S_S4194304 (constantI S_ 32 0#32)))
    (addi x (broadcastInDim S4194304 ![] bcast_S_S4194304 (constantI S_ 32 n))) x

/-! ### The buffers of the edge list, as functions of the adjacency -/

/-- The adjacency array: an extended real at every (row, column). -/
abbrev Adj : Type := (⟨S2048x2048, .f32⟩ : BufTy).Contents (Elt Ideal)

/-- The mask: one where the adjacency is not zero. -/
def maskB (adj : Adj) : IVec S2048x2048 1 :=
  cmpf (F := Ideal) (φ := .f32) .une adj
    (broadcastInDim S2048x2048 ![] bcast_S_S2048x2048 (constant (F := Ideal) S_ .f32 0x00000000#32))

/-- The mask in row-major order, as 32-bit words. -/
def maskW (adj : Adj) : IVec S4194304 32 :=
  extui 32 (shapeCast S4194304 (maskB adj) shapeCasts_S2048x2048_S4194304) natLt_1_32

/-- The inclusive running count of marked positions. -/
def csB (adj : Adj) : IVec S4194304 32 := cumsum0 (maskW adj)

/-- The running count clipped below at zero. -/
def csClip (adj : Adj) : IVec S4194304 32 := clipLo (csB adj) (constantI S_ 32 0#32)

/-- The clipped running count, as a scatter index (negative values moved up by the length). -/
def csIdx (adj : Adj) : IVec S4194304 32 :=
  select (cmpi .slt (csClip adj) (broadcastInDim S4194304 ![] bcast_S_S4194304 (constantI S_ 32 0#32)))
    (addi (csClip adj) (broadcastInDim S4194304 ![] bcast_S_S4194304 (constantI S_ 32 4194304#32)))
    (csClip adj)

/-- The bucket counts: entry v is the number of positions whose running count is v. -/
def binB (adj : Adj) : IVec S4194304 32 :=
  Host.scatter scatter_S4194304_S4194304x1_S4194304_n_0_0_1 IntOp.addi
    (broadcastInDim S4194304 ![] bcast_S_S4194304 (constantI S_ 32 0#32))
    (broadcastInDim S4194304x1 ![0] bcast_S4194304_S4194304x1_0 (csIdx adj))
    (broadcastInDim S4194304 ![] bcast_S_S4194304 (constantI S_ 32 1#32))

/-- The running sum of the bucket counts: entry k is the number of positions with running count <= k. -/
def fiB (adj : Adj) : IVec S4194304 32 := cumsum0 (binB adj)

/-- The row of the k-th listed position, before the fill. -/
def rowPre (adj : Adj) : IVec S4194304 32 :=
  remF (floorDiv (fiB adj) (constantI S_ 32 2048#32)) (constantI S_ 32 2048#32)

/-- The column of the k-th listed position, before the fill. -/
def colPre (adj : Adj) : IVec S4194304 32 :=
  remF (floorDiv (fiB adj) (constantI S_ 32 1#32)) (constantI S_ 32 2048#32)

/-- The number of marked positions (the sum of the mask over the matrix). -/
def cntB (adj : Adj) : IVec S_ 32 :=
  Host.reduce IntOp.addi (extui 32 (maskB adj) natLt_1_32) (constantI S_ 32 0#32)
    reducesTo_S2048x2048_S_d0_1 h_S_

/-- One at the list entries past the number of marked positions. -/
def pastB (adj : Adj) : IVec S4194304 1 :=
  cmpi .sge (iotaInDim S4194304 32 0) (broadcastInDim S4194304 ![] bcast_S_S4194304 (cntB adj))

/-- The listed rows: zero past the number of marked positions. -/
def rowI (adj : Adj) : IVec S4194304 32 := whereS (pastB adj) (constantI S_ 32 0#32) (rowPre adj)

/-- The listed columns: zero past the number of marked positions. -/
def colI (adj : Adj) : IVec S4194304 32 := whereS (pastB adj) (constantI S_ 32 0#32) (colPre adj)

/-- The indicator, as an extended real, of the list entries below the number of marked positions. -/
def validF (adj : Adj) : FVec Ideal S4194304 .f32 :=
  uitofp (F := Ideal) .f32
    (cmpi .slt (iotaInDim S4194304 32 0) (broadcastInDim S4194304 ![] bcast_S_S4194304 (cntB adj)))

/-- The (row, column) pairs of the list as one two-column index array. -/
def pairB (adj : Adj) : IVec S4194304x2 32 :=
  concatenate S4194304x2 1
    [⟨S4194304x1, broadcastInDim S4194304x1 ![0] bcast_S4194304_S4194304x1_0 (normNeg (rowI adj) 2048#32)⟩,
     ⟨S4194304x1, broadcastInDim S4194304x1 ![0] bcast_S4194304_S4194304x1_0 (normNeg (colI adj) 2048#32)⟩]
    concatenates_S4194304x1_S4194304x1_S4194304x2_d1

/-- The adjacency at the listed pairs. -/
def gathF (adj : Adj) : FVec Ideal S4194304 .f32 :=
  Host.gather gather_S2048x2048_S4194304x2_S4194304_n_01_n_n_01_1_11 adj (pairB adj)

/-- The listed weights: the adjacency at the listed pair times the indicator. -/
def ewF (adj : Adj) : FVec Ideal S4194304 .f32 := mulf (F := Ideal) (gathF adj) (validF adj)

end Cert.ReferenceIdeal.HandNz
-- ==== Proof.RefConvDefs.lean ====
/-
  The reference's graph-convolution stage, operation by operation.

  The stage receives an edge list (rows rowI, columns colI, weights ew : 4194304 entries each), a feature array
  h : [2048 x 32] and a bias b : [32].  It appends the 2048 self loops (k, k) with weight 1, so that there are
  4196352 = 4194304 + 2048 entries (R p, C p, W p), wraps a negative index by adding 2048, and computes

    deg c  = 0 + sum over the entries p with C p = c of W p                       (a scatter-add into zeros)
    dis c  = 1 / sqrt (deg c if deg c > 0 else 1)  if deg c > 0,  else 0
    out (c, f) = 0 + sum over the entries p with C p = c of ((dis (R p) * W p) * dis (C p)) * h (R p, f)  +  b f.

  Each definition below is one named intermediate of that computation, as a composition of the array operations.
-/
import proofs.«121040_g28046136442917_fold_wed_c4_759_6_alg».proof.ReferenceIdeal
import Idealize.ShloMosaic.PureOps.Ideal

noncomputable section

namespace Cert.ReferenceIdeal.HandConv

open Idealize.ShloMosaic
open Cert.ReferenceIdeal

variable [Facts]
open Facts₀ Facts

/-- The self loops' node numbers 0, …, 2047. -/
def loopIdx : IVec S2048 32 := iotaInDim S2048 32 0

/-- An index array of the edge list with the self loops appended. -/
def withLoops (v : IVec S4194304 32) : IVec S4196352 32 :=
  concatenate S4196352 0 [⟨S4194304, v⟩, ⟨S2048, loopIdx⟩] concatenates_S4194304_S2048_S4196352_d0

/-- The weights with the self loops' weight 1 appended. -/
def weights (ew : FVec Ideal S4194304 .f32) : FVec Ideal S4196352 .f32 :=
  concatenate S4196352 0
    [⟨S4194304, ew⟩, ⟨S2048, broadcastInDim S2048 ![] bcast_S_S2048 (constant (F := Ideal) S_ .f32 0x3F800000#32)⟩]
    concatenates_S4194304_S2048_S4196352_d0

/-- A negative index counted from the end: i + 2048 where i < 0, else i. -/
def wrapNeg (v : IVec S4196352 32) : IVec S4196352 32 :=
  select (cmpi .slt v (broadcastInDim S4196352 ![] bcast_S_S4196352 (constantI S_ 32 0#32)))
    (addi v (broadcastInDim S4196352 ![] bcast_S_S4196352 (constantI S_ 32 2048#32))) v

/-- The wrapped indices as a column of one-component index vectors. -/
def idxCol (v : IVec S4196352 32) : IVec S4196352x1 32 :=
  broadcastInDim S4196352x1 ![0] bcast_S4196352_S4196352x1_0 (wrapNeg v)

/-- A vector of 2048 zeros. -/
def zeros1 : FVec Ideal S2048 .f32 := broadcastInDim S2048 ![] bcast_S_S2048 (constant (F := Ideal) S_ .f32 0x00000000#32)

/-- The weighted in-degree with the self loop: the weights scattered by column into zeros. -/
def degRef (colI : IVec S4194304 32) (ew : FVec Ideal S4194304 .f32) : FVec Ideal S2048 .f32 :=
  Host.scatterAdd scatter_S2048_S4196352x1_S4196352_n_0_0_1 zeros1 (idxCol (withLoops colI)) (weights ew)

/-- where c, x, k: x where the bit is set, the scalar k elsewhere. -/
def where4 (c : IVec S2048 1) (x : FVec Ideal S2048 .f32) (k : FVec Ideal S_ .f32) : FVec Ideal S2048 .f32 :=
  select c x (broadcastInDim S2048 ![] bcast_S_S2048 (id k))

/-- deg^(-1/2), computed as 1 / sqrt of the degree made safe, where the degree is positive; 0 elsewhere. -/
def disRef (colI : IVec S4194304 32) (ew : FVec Ideal S4194304 .f32) : FVec Ideal S2048 .f32 :=
  where4 (cmpf .ogt (degRef colI ew) zeros1)
    (Host.divf (broadcastInDim S2048 ![] bcast_S_S2048 (constant (F := Ideal) S_ .f32 0x3F800000#32))
      (Host.sqrt (where4 (cmpf .ogt (degRef colI ew) zeros1) (degRef colI ew) (constant (F := Ideal) S_ .f32 0x3F800000#32))))
    (constant (F := Ideal) S_ .f32 0x00000000#32)

/-- The normalisation of each entry: dis at its row, times its weight, times dis at its column. -/
def normRef (rowI colI : IVec S4194304 32) (ew : FVec Ideal S4194304 .f32) : FVec Ideal S4196352 .f32 :=
  mulf
    (mulf (Host.gather gather_S2048_S4196352x1_S4196352_n_0_n_n_0_1_1 (disRef colI ew) (idxCol (withLoops rowI)))
      (weights ew))
    (Host.gather gather_S2048_S4196352x1_S4196352_n_0_n_n_0_1_1 (disRef colI ew) (idxCol (withLoops colI)))

/-- Each entry's message: its normalisation times the feature row at its row index. -/
def msgRef (rowI colI : IVec S4194304 32) (ew : FVec Ideal S4194304 .f32) (h : FVec Ideal S2048x32 .f32) :
    FVec Ideal S4196352x32 .f32 :=
  mulf
    (broadcastInDim S4196352x32 ![0, 1] bcast_S4196352x1_S4196352x32_0_1
      (broadcastInDim S4196352x1 ![0] bcast_S4196352_S4196352x1_0 (normRef rowI colI ew)))
    (Host.gather gather_S2048x32_S4196352x1_S4196352x32_1_0_n_n_0_1_132 h (idxCol (withLoops rowI)))

/-- The messages scattered by column into zeros. -/
def aggRef (rowI colI : IVec S4194304 32) (ew : FVec Ideal S4194304 .f32) (h : FVec Ideal S2048x32 .f32) :
    FVec Ideal S2048x32 .f32 :=
  Host.scatterAdd scatter_S2048x32_S4196352x1_S4196352x32_1_0_0_1
    (broadcastInDim S2048x32 ![] bcast_S_S2048x32 (constant (F := Ideal) S_ .f32 0x00000000#32))
    (idxCol (withLoops colI)) (msgRef rowI colI ew h)

/-- The stage's result: the aggregated messages plus the bias on every row. -/
def convRef (rowI colI : (⟨S4194304, .i32⟩ : BufTy).Contents (Elt Ideal)) (ew : (⟨S4194304, .f32⟩ : BufTy).Contents (Elt Ideal))
    (h : (⟨S2048x32, .f32⟩ : BufTy).Contents (Elt Ideal)) (b : (⟨S32, .f32⟩ : BufTy).Contents (Elt Ideal)) :
    (⟨S2048x32, .f32⟩ : BufTy).Contents (Elt Ideal) :=
  addf (aggRef rowI colI ew h)
    (broadcastInDim S2048x32 ![0, 1] bcast_S1x32_S2048x32_0_1 (broadcastInDim S1x32 ![1] bcast_S32_S1x32_1 b))

end Cert.ReferenceIdeal.HandConv

end
-- ==== Proof.RefNormDefs.lean ====
/-
  The reference's batch normalisation, rectifier and linear maps as functions of their operand arrays.

  Batch normalisation of a [2048, 32] array y with scale g and shift be, as the reference computes it:
    s    = the column sums of y (the sum over the 2048 rows, started from 0.0)
    m    = s / 2048.0                                       (the mean, per feature)
    the variance v: the mean is computed again (column sums as a [1, 32] row, divided by 2048.0),
      d = y - m (the row broadcast down the rows), q = d * d, the column sums of q are divided by
      n = 2048.0 - float(0) (the degrees-of-freedom word is 0), and the quotient is kept where n > 0.0
      (else the not-a-number word)
    result = (y - m) / sqrt (v + eps) * g + be               (m, the root, g and be broadcast down the rows)
  The rectifier is the maximum with the array of 0.0.  The two linear maps are the products
  [2048, 64] x [64, 32] and [2048, 32] x [32, 32], contracting the left operand's columns with the right
  operand's rows.  Every definition is the composition of the array operations in the program's order.
-/
import proofs.«121040_g28046136442917_fold_wed_c4_759_6_alg».proof.Proof.Gen.ReferenceIdeal
import Idealize.ShloMosaic.PureOps.Ideal

noncomputable section

namespace Cert.ReferenceIdeal.HandNorm

open Idealize.ShloMosaic
open Cert.ReferenceIdeal Cert.ReferenceIdeal.Gen

/-- A [2048, 32] float array at the ideal values. -/
abbrev A2048x32 : Type := (⟨S2048x32, .f32⟩ : BufTy).Contents (Elt Ideal)
/-- A [32] float array at the ideal values. -/
abbrev A32 : Type := (⟨S32, .f32⟩ : BufTy).Contents (Elt Ideal)

/-- The column sums of y divided by 2048.0: the mean per feature. -/
def meanRef (y : A2048x32) : A32 :=
  Host.divf (Host.reduceAdd y (constant (F := Ideal) S_ .f32 0x00000000#32) reducesTo_S2048x32_S32_d0 h_S_)
    (broadcastInDim S32 ![] bcast_S_S32 (constant (F := Ideal) S_ .f32 0x45000000#32))

/-- Inside the variance: y minus its mean, the mean computed as a [1, 32] row and broadcast down the rows. -/
def centVarRef (y : A2048x32) : A2048x32 :=
  subf y (broadcastInDim S2048x32 ![0, 1] bcast_S1x32_S2048x32_0_1
    (Host.divf
      (broadcastInDim S1x32 ![1] bcast_S32_S1x32_1
        (Host.reduceAdd y (constant (F := Ideal) S_ .f32 0x00000000#32) reducesTo_S2048x32_S32_d0 h_S_))
      (broadcastInDim S1x32 ![] bcast_S_S1x32 (constant (F := Ideal) S_ .f32 0x45000000#32))))

/-- The divisor of the variance: 2048.0 minus the float of the degrees-of-freedom word 0. -/
def dofRef : (⟨S_, .f32⟩ : BufTy).Contents (Elt Ideal) :=
  subf (constant (F := Ideal) S_ .f32 0x45000000#32) (sitofp .f32 (constantI S_ 32 0#32))

/-- The biased variance per feature: the column sums of the squared deviations over the divisor, kept where
    the divisor is positive. -/
def varRef (y : A2048x32) : A32 :=
  select (broadcastInDim S32 ![] bcast_S_S32 (cmpf .ogt dofRef (constant (F := Ideal) S_ .f32 0x00000000#32)))
    (Host.divf
      (Host.reduceAdd (mulf (centVarRef y) (centVarRef y)) (constant (F := Ideal) S_ .f32 0x00000000#32)
        reducesTo_S2048x32_S32_d0 h_S_)
      (broadcastInDim S32 ![] bcast_S_S32 dofRef))
    (broadcastInDim S32 ![] bcast_S_S32 (id (constant (F := Ideal) S_ .f32 0x7FC00000#32)))

/-- Batch normalisation of y over its rows with scale g and shift be. -/
def bnRef (y : A2048x32) (g be : A32) : A2048x32 :=
  addf
    (mulf
      (Host.divf
        (subf y (broadcastInDim S2048x32 ![0, 1] bcast_S1x32_S2048x32_0_1
          (broadcastInDim S1x32 ![1] bcast_S32_S1x32_1 (meanRef y))))
        (broadcastInDim S2048x32 ![0, 1] bcast_S1x32_S2048x32_0_1
          (broadcastInDim S1x32 ![1] bcast_S32_S1x32_1
            (Host.sqrt (addf (varRef y)
              (broadcastInDim S32 ![] bcast_S_S32 (constant (F := Ideal) S_ .f32 0x3727C5AC#32)))))))
      (broadcastInDim S2048x32 ![0, 1] bcast_S1x32_S2048x32_0_1 (broadcastInDim S1x32 ![1] bcast_S32_S1x32_1 g)))
    (broadcastInDim S2048x32 ![0, 1] bcast_S1x32_S2048x32_0_1 (broadcastInDim S1x32 ![1] bcast_S32_S1x32_1 be))

/-- The rectifier: the maximum with 0.0 at every index. -/
def reluRef (x : A2048x32) : A2048x32 :=
  maximumf x (broadcastInDim S2048x32 ![] bcast_S_S2048x32 (constant (F := Ideal) S_ .f32 0x00000000#32))

/-- The first linear map: [2048, 64] times [64, 32]. -/
def lin1Ref (x : (⟨S2048x64, .f32⟩ : BufTy).Contents (Elt Ideal)) (W : (⟨S64x32, .f32⟩ : BufTy).Contents (Elt Ideal)) :
    A2048x32 :=
  Host.dotGeneral (F := Ideal) (φ₁ := .f32) (φ₂ := .f32) dot_S2048x64_S64x32_S2048x32_1_0_0_1_n_n none x W

/-- The second linear map: [2048, 32] times [32, 32]. -/
def lin2Ref (x : A2048x32) (W : (⟨S32x32, .f32⟩ : BufTy).Contents (Elt Ideal)) : A2048x32 :=
  Host.dotGeneral (F := Ideal) (φ₁ := .f32) (φ₂ := .f32) dot_S2048x32_S32x32_S2048x32_1_0_0_1_n_n none x W

end Cert.ReferenceIdeal.HandNorm

end
-- ==== Proof.RefLink.lean ====
/-
  The buffers of the reference's host program, named by the stages they belong to.

  The host program is single-assignment, so the contents of each buffer at the end of the run are one fixed
  composition of array operations applied to the ten argument arrays.  The stages of the computation are stated
  separately as compositions of the same array operations over their inputs:
    the edge list of the adjacency (the listed rows, the listed columns and the listed weights),
    the graph-convolution stage (from an edge list, a feature array and a bias),
    the batch normalisation (from an array, a scale and a shift) and the rectifier.
  Each identification below says that a buffer's composition is the stage's composition applied to the buffers
  that feed it.  The two sides consist of the same operations applied in the same order to the same operands, so
  after replacing every name by its definition they are one and the same expression.
-/
import proofs.«121040_g28046136442917_fold_wed_c4_759_6_alg».proof.Proof.RefVals
import proofs.«121040_g28046136442917_fold_wed_c4_759_6_alg».proof.Proof.RefEdgesDefs
import proofs.«121040_g28046136442917_fold_wed_c4_759_6_alg».proof.Proof.RefConvDefs
import proofs.«121040_g28046136442917_fold_wed_c4_759_6_alg».proof.Proof.RefNormDefs

noncomputable section

namespace Cert.ReferenceIdeal.HandLink

open Idealize.ShloMosaic
open Cert.ReferenceIdeal Cert.ReferenceIdeal.Gen Cert.ReferenceIdeal.Hand

attribute [local irreducible] Host.reduceWindow Host.scatter Host.gather Host.scatterAdd Host.reduce Host.reduceAdd
  concatenate

variable (a0 : (⟨S2048x64, .f32⟩ : BufTy).Contents (Elt Ideal)) (a1 : (⟨S2048x2048, .f32⟩ : BufTy).Contents (Elt Ideal))
  (a2 : (⟨S64x32, .f32⟩ : BufTy).Contents (Elt Ideal)) (a3 : (⟨S32, .f32⟩ : BufTy).Contents (Elt Ideal))
  (a4 : (⟨S32, .f32⟩ : BufTy).Contents (Elt Ideal)) (a5 : (⟨S32, .f32⟩ : BufTy).Contents (Elt Ideal))
  (a6 : (⟨S32x32, .f32⟩ : BufTy).Contents (Elt Ideal)) (a7 : (⟨S32, .f32⟩ : BufTy).Contents (Elt Ideal))
  (a8 : (⟨S32, .f32⟩ : BufTy).Contents (Elt Ideal)) (a9 : (⟨S32, .f32⟩ : BufTy).Contents (Elt Ideal))

/-! ### The edge list -/

/-- The listed rows. -/
theorem rowI_eq : res_main_v23 a0 a1 a2 a3 a4 a5 a6 a7 a8 a9 = HandNz.rowI a1 := rfl

/-- The listed columns. -/
theorem colI_eq : res_main_v24 a0 a1 a2 a3 a4 a5 a6 a7 a8 a9 = HandNz.colI a1 := rfl

/-- The indicator of the list entries below the number of nonzero entries. -/
theorem validF_eq : res_main_v29 a0 a1 a2 a3 a4 a5 a6 a7 a8 a9 = HandNz.validF a1 := rfl

/-- The adjacency at the listed pairs. -/
theorem gathF_eq : res_main_v43 a0 a1 a2 a3 a4 a5 a6 a7 a8 a9 = HandNz.gathF a1 := rfl

/-- The listed weights. -/
theorem ewF_eq : res_main_v44 a0 a1 a2 a3 a4 a5 a6 a7 a8 a9 = HandNz.ewF a1 := rfl

/-! ### The first layer -/

/-- The first linear map. -/
theorem lin1_eq : res_main_v83 a0 a1 a2 a3 a4 a5 a6 a7 a8 a9 = HandNorm.lin1Ref a0 a2 := rfl

/-- The first graph convolution. -/
theorem conv1_eq :
    res_main_v104 a0 a1 a2 a3 a4 a5 a6 a7 a8 a9
      = HandConv.convRef (HandNz.rowI a1) (HandNz.colI a1) (HandNz.ewF a1) (res_main_v83 a0 a1 a2 a3 a4 a5 a6 a7 a8 a9) a3 := rfl

/-- The first batch normalisation. -/
theorem bn1_eq : res_main_v123 a0 a1 a2 a3 a4 a5 a6 a7 a8 a9 = HandNorm.bnRef (res_main_v104 a0 a1 a2 a3 a4 a5 a6 a7 a8 a9) a4 a5 := rfl

/-- The rectifier. -/
theorem relu_eq : res_main_v124 a0 a1 a2 a3 a4 a5 a6 a7 a8 a9 = HandNorm.reluRef (res_main_v123 a0 a1 a2 a3 a4 a5 a6 a7 a8 a9) := rfl

/-! ### The second layer -/

/-- The second linear map. -/
theorem lin2_eq : res_main_v163 a0 a1 a2 a3 a4 a5 a6 a7 a8 a9 = HandNorm.lin2Ref (res_main_v124 a0 a1 a2 a3 a4 a5 a6 a7 a8 a9) a6 := rfl

/-- The second graph convolution. -/
theorem conv2_eq :
    res_main_v184 a0 a1 a2 a3 a4 a5 a6 a7 a8 a9
      = HandConv.convRef (HandNz.rowI a1) (HandNz.colI a1) (HandNz.ewF a1) (res_main_v163 a0 a1 a2 a3 a4 a5 a6 a7 a8 a9) a7 := rfl

/-- The second batch normalisation: the program's result. -/
theorem bn2_eq : res_main_v203 a0 a1 a2 a3 a4 a5 a6 a7 a8 a9 = HandNorm.bnRef (res_main_v184 a0 a1 a2 a3 a4 a5 a6 a7 a8 a9) a8 a9 := rfl

end Cert.ReferenceIdeal.HandLink
-- ==== Proof.RefFinite.lean ====
/-
  Real-valued arrays through the network's specification.

  An extended real is REAL when it is the image of a real number (neither infinity).  The four float
  words of the specification denote the reals 0, 1, 2048 and 10995116 / 2^40 (the last is positive).
  Sums, products, differences of reals are real, a quotient by 2048 is the product with 1/2048, the
  reciprocal square root of a positive real is real, and the maximum of two reals is real.  Hence every
  stage of the specification — degree, its inverse square root, linear map, propagation, mean,
  variance, batch normalisation, the hidden activations and both layers — maps real arrays to real
  arrays; the variance of a real array is moreover not negative, so variance plus epsilon is positive.
-/
import Mathlib.Data.EReal.Basic
import Mathlib.Data.EReal.Operations
import Mathlib.Data.EReal.Inv
import Mathlib.Analysis.SpecialFunctions.Pow.Real
import Idealize.ShloMosaic.PureOps.Ideal
import Idealize.ShloMosaic.PureOps.Ideal.Laws
import Idealize.ShloMosaic.Lib.ValueIdx
import Idealize.ShloMosaic.Lib.IdealHost
import proofs.«121040_g28046136442917_fold_wed_c4_759_6_alg».proof.Proof.Spec

noncomputable section

namespace Cert.ReferenceIdeal.HandNorm

open Idealize.ShloMosaic Idealize.ShloMosaic.ValueIdx Cert.Gcn

/-! ## The words -/

/-- The word of 0.0 denotes 0. -/
theorem wZero_eq : wZero = 0 := Ideal.ofBits_zero_f32

/-- The word of 1.0 denotes 1. -/
theorem wOne_eq : wOne = 1 := Ideal.ofBits_one_f32

/-- The word of 2048.0 denotes the real 2048. -/
theorem wRows_eq : wRows = ((2048 : ℝ) : EReal) := by
  simp [Ideal.ofBits, Ideal.ieee, -EReal.coe_mul]; norm_num

/-- The epsilon word denotes the real 10995116 / 2^40. -/
theorem wEps_eq : wEps = (((10995116 : ℝ) / 2 ^ 40 : ℝ) : EReal) := by
  simp [Ideal.ofBits, Ideal.ieee, -EReal.coe_mul]; norm_num

/-- The word of +infinity denotes the top element. -/
theorem wInf_eq : Ideal.ofBits .f32 0x7F800000#32 = ⊤ := by
  simp [Ideal.ofBits, Ideal.ieee]

/-! ## Real extended reals -/

/-- An extended real that is a real number: neither infinity. -/
abbrev IsR (x : EReal) : Prop := x ≠ ⊥ ∧ x ≠ ⊤

/-- The image of a real number is real. -/
theorem isR_coe (r : ℝ) : IsR (r : EReal) := ⟨EReal.coe_ne_bot r, EReal.coe_ne_top r⟩

/-- A real extended real is the image of a real number. -/
theorem IsR.exists {x : EReal} (h : IsR x) : ∃ r : ℝ, x = (r : EReal) := by
  lift x to ℝ using ⟨h.2, h.1⟩
  exact ⟨x, rfl⟩

/-- Zero is real. -/
theorem isR_zero : IsR (0 : EReal) := by
  have h := isR_coe 0
  rwa [EReal.coe_zero] at h

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.add {x y : EReal} (hx : IsR x) (hy : IsR y) : IsR (x + y) := by
  obtain ⟨a, rfl⟩ := hx.exists
  obtain ⟨b, rfl⟩ := hy.exists
  rw [← EReal.coe_add]; exact isR_coe _

theorem IsR.sub {x y : EReal} (hx : IsR x) (hy : IsR y) : IsR (x - y) := by
  obtain ⟨a, rfl⟩ := hx.exists
  obtain ⟨b, rfl⟩ := hy.exists
  rw [← EReal.coe_sub]; exact isR_coe _

theorem IsR.mul {x y : EReal} (hx : IsR x) (hy : IsR y) : IsR (x * y) := by
  obtain ⟨a, rfl⟩ := hx.exists
  obtain ⟨b, rfl⟩ := hy.exists
  rw [← EReal.coe_mul]; exact isR_coe _

theorem IsR.max {x y : EReal} (hx : IsR x) (hy : IsR y) : IsR (max x y) := by
  rcases le_total x y with h | h
  · rw [max_eq_right h]; exact hy
  · rw [max_eq_left h]; exact hx

/-- A finite sum of real extended reals is real. -/
theorem isR_sum {ι : Type*} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact (h a (Finset.mem_insert_self a s)).add (ih fun i hi => h i (Finset.mem_insert_of_mem hi))

theorem isR_wZero : IsR wZero := by rw [wZero_eq]; exact isR_zero
theorem isR_wOne : IsR wOne := by
  rw [wOne_eq]
  have h := isR_coe 1
  rwa [EReal.coe_one] at h
theorem isR_wRows : IsR wRows := by rw [wRows_eq]; exact isR_coe _
theorem isR_wEps : IsR wEps := by rw [wEps_eq]; exact isR_coe _

/-- The quotient of a real by the row count is the real quotient. -/
theorem div_rows_coe (x : ℝ) : Ideal.div (x : EReal) wRows = ((x / 2048 : ℝ) : EReal) := by
  rw [wRows_eq, Ideal.div_coe (by norm_num), ← EReal.coe_mul]
  congr 1; ring

theorem isR_div_rows {x : EReal} (hx : IsR x) : IsR (Ideal.div x wRows) := by
  obtain ⟨a, rfl⟩ := hx.exists
  rw [div_rows_coe]; exact isR_coe _

/-- The reciprocal square root of a positive real is the real reciprocal of its root. -/
theorem rsqrt_coe_pos {x : ℝ} (hx : 0 < x) : Ideal.rsqrt (x : EReal) = (((Real.sqrt x)⁻¹ : ℝ) : EReal) := by
  rw [Ideal.rsqrt_coe, if_neg (not_lt.2 hx.le), if_neg hx.ne']

/-- The square root of a positive real is its real root. -/
theorem sqrt_coe_pos {x : ℝ} (hx : 0 < x) : Ideal.sqrt (x : EReal) = ((Real.sqrt x : ℝ) : EReal) := by
  rw [Ideal.sqrt_coe, if_neg (not_lt.2 hx.le)]

/-- Dividing by the root of a positive real is multiplying by its reciprocal root. -/
theorem div_sqrt_eq_mul_rsqrt {x : ℝ} (hx : 0 < x) (a : EReal) :
    Ideal.div a (Ideal.sqrt (x : EReal)) = a * Ideal.rsqrt (x : EReal) := by
  rw [sqrt_coe_pos hx, rsqrt_coe_pos hx, Ideal.div_coe (Real.sqrt_pos.2 hx).ne', one_div]

/-- The comparison "greater than" is the one-bit word 1 where the order holds. -/
theorem cmp_ogt_of_lt {x y : EReal} (h : y < x) : Ideal.cmp .ogt x y = 1#1 := by
  show BitVec.ofBool (decide (y < x)) = 1#1
  rw [decide_eq_true h]; rfl

/-- The comparison "greater than" is the one-bit word 0 where the order fails. -/
theorem cmp_ogt_of_not_lt {x y : EReal} (h : ¬ y < x) : Ideal.cmp .ogt x y = 0#1 := by
  show BitVec.ofBool (decide (y < x)) = 0#1
  rw [decide_eq_false h]; rfl

/-! ## The specification's stages on real arrays -/

section Stages

variable {adj : Fin 2048 → Fin 2048 → EReal}

/-- The degree of a real adjacency is real. -/
theorem isR_deg (hadj : ∀ r c, IsR (adj r c)) (c : Fin 2048) : IsR (deg adj c) :=
  (isR_sum _ _ fun r _ => hadj r c).add isR_wOne

/-- The inverse square root of the degree is real: the reciprocal root of a positive real, or zero. -/
theorem isR_dis (hadj : ∀ r c, IsR (adj r c)) (c : Fin 2048) : IsR (dis adj c) := by
  unfold dis
  obtain ⟨d, hd⟩ := (isR_deg hadj c).exists
  by_cases h : wZero < deg adj c
  · have hc : Ideal.cmp .ogt (deg adj c) wZero = 1#1 := cmp_ogt_of_lt h
    rw [hc, select_one, hd]
    have hd0 : 0 < d := by
      rw [hd, wZero_eq] at h
      exact EReal.coe_pos.1 h
    rw [rsqrt_coe_pos hd0]; exact isR_coe _
  · have hc : Ideal.cmp .ogt (deg adj c) wZero = 0#1 := cmp_ogt_of_not_lt h
    rw [hc, select_zero]; exact isR_wZero

/-- A product of real arrays is real. -/
theorem isR_lin {K : ℕ} {y : Fin 2048 → Fin K → EReal} {W : Fin K → Fin 32 → EReal}
    (hy : ∀ r k, IsR (y r k)) (hW : ∀ k f, IsR (W k f)) (r : Fin 2048) (f : Fin 32) : IsR (lin y W r f) :=
  isR_sum _ _ fun k _ => (hy r k).mul (hW k f)

/-- The propagation of a real array along a real adjacency, with a real bias, is real. -/
theorem isR_conv {h : Fin 2048 → Fin 32 → EReal} {b : Fin 32 → EReal} (hadj : ∀ r c, IsR (adj r c))
    (hh : ∀ r f, IsR (h r f)) (hb : ∀ f, IsR (b f)) (c : Fin 2048) (f : Fin 32) : IsR (conv adj h b c f) :=
  ((isR_dis hadj c).mul
    ((isR_sum _ _ fun r _ => (hadj r c).mul ((isR_dis hadj r).mul (hh r f))).add
      ((isR_dis hadj c).mul (hh c f)))).add (hb f)

variable {y : Fin 2048 → Fin 32 → EReal}

/-- The mean of a real array is real. -/
theorem isR_mean (hy : ∀ r f, IsR (y r f)) (f : Fin 32) : IsR (mean y f) :=
  isR_div_rows (isR_sum _ _ fun r _ => hy r f)

/-- The variance of a real array is a real that is not negative: a sum of squares over 2048. -/
theorem var_real (hy : ∀ r f, IsR (y r f)) (f : Fin 32) : ∃ v : ℝ, 0 ≤ v ∧ var y f = (v : EReal) := by
  obtain ⟨M, hM⟩ := (isR_mean hy f).exists
  choose Y hY using fun r => (hy r f).exists
  refine ⟨(∑ r, (Y r - M) * (Y r - M)) / 2048,
    div_nonneg (Finset.sum_nonneg fun r _ => mul_self_nonneg _) (by norm_num), ?_⟩
  unfold var
  rw [hM]
  simp only [hY, ← EReal.coe_sub, ← EReal.coe_mul]
  rw [← coe_sum, div_rows_coe]

theorem isR_var (hy : ∀ r f, IsR (y r f)) (f : Fin 32) : IsR (var y f) := by
  obtain ⟨v, _, hv⟩ := var_real hy f
  rw [hv]; exact isR_coe _

/-- Variance plus epsilon is a positive real. -/
theorem var_add_eps_pos (hy : ∀ r f, IsR (y r f)) (f : Fin 32) :
    ∃ x : ℝ, 0 < x ∧ var y f + wEps = (x : EReal) := by
  obtain ⟨v, hv0, hv⟩ := var_real hy f
  refine ⟨v + 10995116 / 2 ^ 40, by positivity, ?_⟩
  rw [hv, wEps_eq, ← EReal.coe_add]

/-- The batch normalisation of a real array with real scale and shift is real. -/
theorem isR_bn {g be : Fin 32 → EReal} (hy : ∀ r f, IsR (y r f)) (hg : ∀ f, IsR (g f)) (hbe : ∀ f, IsR (be f))
    (r : Fin 2048) (f : Fin 32) : IsR (bn y g be r f) := by
  unfold bn
  obtain ⟨x, hx0, hx⟩ := var_add_eps_pos hy f
  rw [hx, rsqrt_coe_pos hx0]
  exact ((((hy r f).sub (isR_mean hy f)).mul (isR_coe _)).mul (hg f)).add (hbe f)

variable {x : Fin 2048 → Fin 64 → EReal} {W1 : Fin 64 → Fin 32 → EReal} {b1 g1 be1 : Fin 32 → EReal}
  {W2 : Fin 32 → Fin 32 → EReal} {b2 g2 be2 : Fin 32 → EReal}

theorem isR_layer1 (hx : ∀ r k, IsR (x r k)) (hadj : ∀ r c, IsR (adj r c)) (hW1 : ∀ k f, IsR (W1 k f))
    (hb1 : ∀ f, IsR (b1 f)) (r : Fin 2048) (f : Fin 32) : IsR (layer1 x adj W1 b1 r f) :=
  isR_conv hadj (isR_lin hx hW1) hb1 r f

theorem isR_hidden (hx : ∀ r k, IsR (x r k)) (hadj : ∀ r c, IsR (adj r c)) (hW1 : ∀ k f, IsR (W1 k f))
    (hb1 : ∀ f, IsR (b1 f)) (hg1 : ∀ f, IsR (g1 f)) (hbe1 : ∀ f, IsR (be1 f)) (r : Fin 2048) (f : Fin 32) :
    IsR (hidden x adj W1 b1 g1 be1 r f) :=
  (isR_bn (isR_layer1 hx hadj hW1 hb1) hg1 hbe1 r f).max isR_wZero

theorem isR_layer2 (hx : ∀ r k, IsR (x r k)) (hadj : ∀ r c, IsR (adj r c)) (hW1 : ∀ k f, IsR (W1 k f))
    (hb1 : ∀ f, IsR (b1 f)) (hg1 : ∀ f, IsR (g1 f)) (hbe1 : ∀ f, IsR (be1 f)) (hW2 : ∀ k f, IsR (W2 k f))
    (hb2 : ∀ f, IsR (b2 f)) (r : Fin 2048) (f : Fin 32) : IsR (layer2 x adj W1 b1 g1 be1 W2 b2 r f) :=
  isR_conv hadj (isR_lin (isR_hidden hx hadj hW1 hb1 hg1 hbe1) hW2) hb2 r f

theorem isR_net (hx : ∀ r k, IsR (x r k)) (hadj : ∀ r c, IsR (adj r c)) (hW1 : ∀ k f, IsR (W1 k f))
    (hb1 : ∀ f, IsR (b1 f)) (hg1 : ∀ f, IsR (g1 f)) (hbe1 : ∀ f, IsR (be1 f)) (hW2 : ∀ k f, IsR (W2 k f))
    (hb2 : ∀ f, IsR (b2 f)) (hg2 : ∀ f, IsR (g2 f)) (hbe2 : ∀ f, IsR (be2 f)) (r : Fin 2048) (f : Fin 32) :
    IsR (net x adj W1 b1 g1 be1 W2 b2 g2 be2 r f) :=
  isR_bn (isR_layer2 hx hadj hW1 hb1 hg1 hbe1 hW2 hb2) hg2 hbe2 r f

end Stages

end Cert.ReferenceIdeal.HandNorm

end
-- ==== Proof.RefNorm.lean ====
/-
  The reference's batch normalisation, rectifier and linear maps are the specification's.

  Read at an index (r, f):
  * a [32] row broadcast to [1, 32] and then down the 2048 rows reads the row at f; a scalar broadcast reads the scalar;
  * a column sum started from 0.0 is the plain sum over the 2048 rows (0 + s = s), so the reference's mean is the
    specification's: the same sum divided by the same word 2048.0;
  * the variance's divisor 2048.0 - float(0) is 2048.0 (the word denotes the real 2048 and float(0) is 0), it is
    positive, so the guarded quotient is the quotient: the reference's variance is the specification's;
  * for a real array the variance is a real that is not negative and epsilon is a positive real, so
    (y - m) / sqrt (v + eps) = (y - m) * rsqrt (v + eps): the reference's normalisation is the specification's;
  * the rectifier is the maximum with the word 0.0;
  * a product contracting the left columns with the right rows reads, at (r, f), the sum over k of
    left (r, k) * right (k, f).
-/
import proofs.«121040_g28046136442917_fold_wed_c4_759_6_alg».proof.Proof.RefNormDefs
import proofs.«121040_g28046136442917_fold_wed_c4_759_6_alg».proof.Proof.RefFinite
import proofs.«121040_g28046136442917_fold_wed_c4_759_6_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.HandNorm

open Idealize.ShloMosaic Idealize.ShloMosaic.ValueIdx
open Cert.ReferenceIdeal Cert.ReferenceIdeal.Gen

/-! ## Broadcasts at an index -/

/-- A [32] row broadcast to [1, 32] reads the row at the second coordinate. -/
theorem bcRow1_apply (v : A32) (j : S1x32.Idx) :
    broadcastInDim S1x32 ![1] bcast_S32_S1x32_1 v j = v (ix1 (j 1)) :=
  broadcastInDim_apply _ _ v j (ix1 (j 1)) (fun a => by match a with | ⟨0, _⟩ => rfl)

/-- A [1, 32] row broadcast down the 2048 rows reads the row at the second coordinate. -/
theorem bcRows_apply (v : (⟨S1x32, .f32⟩ : BufTy).Contents (Elt Ideal)) (i : S2048x32.Idx) :
    broadcastInDim S2048x32 ![0, 1] bcast_S1x32_S2048x32_0_1 v i = v (ix2 (0 : Fin 1) (i 1)) :=
  broadcastInDim_apply _ _ v i (ix2 (0 : Fin 1) (i 1)) (fun a => by match a with | ⟨0, _⟩ => rfl | ⟨1, _⟩ => rfl)

/-- A [32] row broadcast to [1, 32] and down the rows reads the row at the second coordinate. -/
theorem bcRow_apply (v : A32) (i : S2048x32.Idx) :
    broadcastInDim S2048x32 ![0, 1] bcast_S1x32_S2048x32_0_1 (broadcastInDim S1x32 ![1] bcast_S32_S1x32_1 v) i
      = v (ix1 (i 1)) := by
  rw [bcRows_apply, bcRow1_apply]

/-! ## Column sums -/

/-- The column sum of a [2048, 32] array started from the word 0.0 is the sum over the rows. -/
theorem colSum_apply (y : A2048x32) (j : S32.Idx) :
    Host.reduceAdd y (constant (F := Ideal) S_ .f32 0x00000000#32) reducesTo_S2048x32_S32_d0 h_S_ j
      = ∑ r : Fin 2048, y (ix2 r (j 0)) := by
  rw [hostReduceAdd_apply, Ideal.hostReduceAdd_single reducesTo_S2048x32_S32_d0 (by decide), constant_apply,
    Ideal.ofBits_zero_f32, zero_add]
  refine Finset.sum_congr rfl fun k _ => ?_
  exact congrArg y (funext fun a => Fin.ext (by match a with | ⟨0, _⟩ => rfl | ⟨1, _⟩ => rfl))

/-! ## Mean and variance -/

/-- The reference's mean is the specification's. -/
theorem meanRef_apply (y : A2048x32) (j : S32.Idx) :
    meanRef y j = Cert.Gcn.mean (fun r f => y (ix2 r f)) (j 0) := by
  unfold meanRef Cert.Gcn.mean
  rw [hostDivf_apply, colSum_apply, broadcastInDim_scalar_apply, constant_apply]

/-- Inside the variance, the deviation from the mean. -/
theorem centVarRef_apply (y : A2048x32) (i : S2048x32.Idx) :
    centVarRef y i = y i - Cert.Gcn.mean (fun r f => y (ix2 r f)) (i 1) := by
  unfold centVarRef Cert.Gcn.mean
  rw [subf_apply, bcRows_apply, hostDivf_apply, bcRow1_apply, colSum_apply, broadcastInDim_scalar_apply, constant_apply]

/-- The variance's divisor is the word 2048.0: the float of the word 0 is 0. -/
theorem dofRef_apply : dofRef ix0 = Cert.Gcn.wRows := by
  show Cert.Gcn.wRows - (((0#32 : BitVec 32).toInt : ℝ) : EReal) = Cert.Gcn.wRows
  have h0 : (0#32 : BitVec 32).toInt = 0 := by decide
  rw [h0, Int.cast_zero, EReal.coe_zero, sub_zero]

/-- The word 0.0 is below the word 2048.0. -/
theorem wZero_lt_wRows : Cert.Gcn.wZero < Cert.Gcn.wRows := by
  rw [wZero_eq, wRows_eq]
  exact EReal.coe_pos.2 (by norm_num)

/-- The reference's variance is the specification's. -/
theorem varRef_apply (y : A2048x32) (j : S32.Idx) :
    varRef y j = Cert.Gcn.var (fun r f => y (ix2 r f)) (j 0) := by
  unfold varRef
  rw [select_apply, broadcastInDim_scalar_apply, cmpf_apply, dofRef_apply, constant_apply]
  rw [show FloatOps.cmpf (F := Ideal) .ogt Cert.Gcn.wRows (Ideal.ofBits .f32 0x00000000#32)
      = Ideal.cmp .ogt Cert.Gcn.wRows Cert.Gcn.wZero from rfl, cmp_ogt_of_lt wZero_lt_wRows, select_one]
  unfold Cert.Gcn.var
  rw [hostDivf_apply, colSum_apply, broadcastInDim_scalar_apply, dofRef_apply]
  refine congrArg (fun s => Ideal.div s Cert.Gcn.wRows) (Finset.sum_congr rfl fun r _ => ?_)
  rw [mulf_apply, centVarRef_apply]

/-! ## Batch normalisation -/

/-- The reference's batch normalisation of a real array is the specification's. -/
theorem bnRef_eq (y : A2048x32) (g be : A32) (hy : ∀ i, IsR (y i)) :
    bnRef y g be = fun i =>
      Cert.Gcn.bn (fun r f => y (ix2 r f)) (fun f => g (ix1 f)) (fun f => be (ix1 f)) (i 0) (i 1) := by
  funext i
  obtain ⟨x, hx0, hx⟩ := var_add_eps_pos (y := fun r f => y (ix2 r f)) (fun r f => hy (ix2 r f)) (i 1)
  unfold bnRef Cert.Gcn.bn
  rw [addf_apply, mulf_apply, hostDivf_apply, subf_apply, bcRow_apply, bcRow_apply, bcRow_apply, bcRow_apply,
    meanRef_apply]
  rw [show Host.sqrt (addf (varRef y) (broadcastInDim S32 ![] bcast_S_S32 (constant (F := Ideal) S_ .f32 0x3727C5AC#32)))
        (ix1 (i 1)) = Ideal.sqrt (varRef y (ix1 (i 1)) + Cert.Gcn.wEps) from rfl, varRef_apply]
  rw [show (ix1 (i 1) : S32.Idx) 0 = i 1 from rfl, hx, div_sqrt_eq_mul_rsqrt hx0]
  rw [congrArg y (eq_ix2 i)]
  rfl

/-! ## The rectifier -/

/-- The rectifier at an index is the maximum with the word 0.0. -/
theorem reluRef_apply (x : A2048x32) (i : S2048x32.Idx) : reluRef x i = max (x i) Cert.Gcn.wZero := by
  unfold reluRef
  rw [maximumf_apply, broadcastInDim_scalar_apply, constant_apply]

/-! ## The linear maps -/

/-- The first product's left operand is read at (row of the result, contraction index). -/
theorem lhs1_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide),
    dif_pos (show (0 : Fin S2048x64.rank) ∈ dot_S2048x64_S64x32_S2048x32_1_0_0_1_n_n.lhsNonContracting by decide)]
  rfl
theorem lhs1_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
/-- The first product's right operand is read at (contraction index, column of the result). -/
theorem rhs1_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem rhs1_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide),
    dif_pos (show (1 : Fin S64x32.rank) ∈ dot_S2048x64_S64x32_S2048x32_1_0_0_1_n_n.rhsNonContracting by decide)]
  rfl

/-- The first linear map is the specification's product of the operand arrays. -/
theorem lin1Ref_eq (x : (⟨S2048x64, .f32⟩ : BufTy).Contents (Elt Ideal)) (W : (⟨S64x32, .f32⟩ : BufTy).Contents (Elt Ideal)) :
    lin1Ref x W = fun i => Cert.Gcn.lin (fun r k => x (ix2 r k)) (fun k f => W (ix2 k f)) (i 0) (i 1) := by
  funext i
  unfold lin1Ref Cert.Gcn.lin
  simp only [Host.dotGeneral]
  rw [Ideal.dotGeneral_apply,
    ← Equiv.sum_comp (contrEquiv1 dot_S2048x64_S64x32_S2048x32_1_0_0_1_n_n 64 rfl rfl).symm]
  refine Finset.sum_congr rfl fun k _ => ?_
  have hk := contrEquiv1_symm_val dot_S2048x64_S64x32_S2048x32_1_0_0_1_n_n 64 rfl rfl k
  have el : dot_S2048x64_S64x32_S2048x32_1_0_0_1_n_n.lhsIdx i
      ((contrEquiv1 dot_S2048x64_S64x32_S2048x32_1_0_0_1_n_n 64 rfl rfl).symm k) = ix2 (i 0) k :=
    funext fun a => Fin.ext (by
      match a with
      | ⟨0, _⟩ => exact lhs1_0 _ _
      | ⟨1, _⟩ => exact (lhs1_1 _ _).trans hk)
  have er : dot_S2048x64_S64x32_S2048x32_1_0_0_1_n_n.rhsIdx i
      ((contrEquiv1 dot_S2048x64_S64x32_S2048x32_1_0_0_1_n_n 64 rfl rfl).symm k) = ix2 k (i 1) :=
    funext fun a => Fin.ext (by
      match a with
      | ⟨0, _⟩ => exact (rhs1_0 _ _).trans hk
      | ⟨1, _⟩ => exact rhs1_1 _ _)
  rw [el, er]
  rfl

/-- The second product's left operand is read at (row of the result, contraction index). -/
theorem lhs2_0 (i : S2048x32.Idx) (q : dot_S2048x32_S32x32_S2048x32_1_0_0_1_n_n.contr.Idx) :
    (dot_S2048x32_S32x32_S2048x32_1_0_0_1_n_n.lhsIdx i q 0).val = (i 0).val := by
  unfold DotDims.lhsIdx
  rw [dif_neg (show ¬(0 : Fin S2048x32.rank) ∈ dot_S2048x32_S32x32_S2048x32_1_0_0_1_n_n.lhsBatch by decide),
    dif_pos (show (0 : Fin S2048x32.rank) ∈ dot_S2048x32_S32x32_S2048x32_1_0_0_1_n_n.lhsNonContracting by decide)]
  rfl
theorem lhs2_1 (i : S2048x32.Idx) (q : dot_S2048x32_S32x32_S2048x32_1_0_0_1_n_n.contr.Idx) :
    (dot_S2048x32_S32x32_S2048x32_1_0_0_1_n_n.lhsIdx i q 1).val = (q ⟨0, by decide⟩).val :=
  dot_S2048x32_S32x32_S2048x32_1_0_0_1_n_n.lhsIdx_val_of_single rfl i q
/-- The second product's right operand is read at (contraction index, column of the result). -/
theorem rhs2_0 (i : S2048x32.Idx) (q : dot_S2048x32_S32x32_S2048x32_1_0_0_1_n_n.contr.Idx) :
    (dot_S2048x32_S32x32_S2048x32_1_0_0_1_n_n.rhsIdx i q 0).val = (q ⟨0, by decide⟩).val :=
  dot_S2048x32_S32x32_S2048x32_1_0_0_1_n_n.rhsIdx_val_of_single rfl i q
theorem rhs2_1 (i : S2048x32.Idx) (q : dot_S2048x32_S32x32_S2048x32_1_0_0_1_n_n.contr.Idx) :
    (dot_S2048x32_S32x32_S2048x32_1_0_0_1_n_n.rhsIdx i q 1).val = (i 1).val := by
  unfold DotDims.rhsIdx
  rw [dif_neg (show ¬(1 : Fin S32x32.rank) ∈ dot_S2048x32_S32x32_S2048x32_1_0_0_1_n_n.rhsBatch by decide),
    dif_pos (show (1 : Fin S32x32.rank) ∈ dot_S2048x32_S32x32_S2048x32_1_0_0_1_n_n.rhsNonContracting by decide)]
  rfl

/-- The second linear map is the specification's product of the operand arrays. -/
theorem lin2Ref_eq (x : A2048x32) (W : (⟨S32x32, .f32⟩ : BufTy).Contents (Elt Ideal)) :
    lin2Ref x W = fun i => Cert.Gcn.lin (fun r k => x (ix2 r k)) (fun k f => W (ix2 k f)) (i 0) (i 1) := by
  funext i
  unfold lin2Ref Cert.Gcn.lin
  simp only [Host.dotGeneral]
  rw [Ideal.dotGeneral_apply,
    ← Equiv.sum_comp (contrEquiv1 dot_S2048x32_S32x32_S2048x32_1_0_0_1_n_n 32 rfl rfl).symm]
  refine Finset.sum_congr rfl fun k _ => ?_
  have hk := contrEquiv1_symm_val dot_S2048x32_S32x32_S2048x32_1_0_0_1_n_n 32 rfl rfl k
  have el : dot_S2048x32_S32x32_S2048x32_1_0_0_1_n_n.lhsIdx i
      ((contrEquiv1 dot_S2048x32_S32x32_S2048x32_1_0_0_1_n_n 32 rfl rfl).symm k) = ix2 (i 0) k :=
    funext fun a => Fin.ext (by
      match a with
      | ⟨0, _⟩ => exact lhs2_0 _ _
      | ⟨1, _⟩ => exact (lhs2_1 _ _).trans hk)
  have er : dot_S2048x32_S32x32_S2048x32_1_0_0_1_n_n.rhsIdx i
      ((contrEquiv1 dot_S2048x32_S32x32_S2048x32_1_0_0_1_n_n 32 rfl rfl).symm k) = ix2 k (i 1) :=
    funext fun a => Fin.ext (by
      match a with
      | ⟨0, _⟩ => exact (rhs2_0 _ _).trans hk
      | ⟨1, _⟩ => exact rhs2_1 _ _)
  rw [el, er]
  rfl

end Cert.ReferenceIdeal.HandNorm

end
-- ==== Proof.RefPre.lean ====
/-
  The precondition says the ten argument arrays are real.

  The precondition is the conjunction, over the ten arrays, of "every |x| is below +infinity", each conjunct a
  reduction by "and" of the elementwise comparison.  A conjunction that is 1 has both conjuncts 1; a reduction by
  "and" that is 1 had 1 at every element; and |x| = max x (-x) below the top element says x is neither infinity:
  x < top rules out the top, -x < top rules out the bottom.
-/
import proofs.«121040_g28046136442917_fold_wed_c4_759_6_alg».proof.Pre_finite_inputs
import proofs.«121040_g28046136442917_fold_wed_c4_759_6_alg».proof.Proof.RefFinite
import Idealize.ShloMosaic.Lib.ReduceAll
import Idealize.ShloMosaic.Lib.IdealHost
import Idealize.ShloMosaic.Lib.ValueIdx

noncomputable section

namespace Cert.ReferenceIdeal.HandNorm

open Idealize.ShloMosaic Idealize.ShloMosaic.ValueIdx
open Cert.Pre_finite_inputs

/-- The rank-0 shape has one index. -/
instance subsingleton_scalar_idx : Subsingleton (⟨0, ![]⟩ : Shape).Idx := ⟨fun a b => funext fun d => d.elim0⟩

/-- An extended real whose absolute value is below the top element is real. -/
theorem isR_of_abs_lt_top {x : EReal} (h : max x (-x) < ⊤) : IsR x := by
  rw [max_lt_iff] at h
  refine ⟨?_, h.1.ne⟩
  rintro rfl
  exact absurd h.2 (by simp)

/-- A one-bit word of a decided proposition that is 1 gives the proposition. -/
theorem of_ofBool_decide_eq_one {p : Prop} [Decidable p] (h : BitVec.ofBool (decide p) = 1#1) : p := by
  by_contra hp
  rw [decide_eq_false hp] at h
  exact absurd h (by decide)

/-- One conjunct of the precondition: all |a| below +infinity gives a real array. -/
theorem isR_of_all {s : Shape} {axes : List (Fin s.rank)} (a : FVec Ideal s .f32)
    (hb : (⟨0, ![]⟩ : Shape).BroadcastsInDim s ![]) (hr : s.ReducesTo axes (⟨0, ![]⟩ : Shape))
    (init : IVec (⟨0, ![]⟩ : Shape) 1) (hu : 0 < (⟨0, ![]⟩ : Shape).numel)
    (e : Host.reduce IntOp.andi
        (cmpf .olt (Host.absf a) (broadcastInDim s ![] hb (constant (F := Ideal) (⟨0, ![]⟩ : Shape) .f32 0x7F800000#32)))
        init hr hu ix0 = 1#1) (i : s.Idx) : IsR (a i) := by
  have h := Host.reduce_andi_all _ init hr hu ix0 e i
  rw [cmpf_apply, broadcastInDim_scalar_apply, constant_apply, wInf_eq] at h
  exact isR_of_abs_lt_top (of_ofBool_decide_eq_one (p := max (a i) (-(a i)) < ⊤) h)

variable [Cert.Pre_finite_inputs.Facts]
open Cert.Pre_finite_inputs.Facts

/-- Under the precondition every entry of each of the ten argument arrays is real. -/
theorem inputs_real (a0 : FVec Ideal S2048x64 .f32) (a1 : FVec Ideal S2048x2048 .f32) (a2 : FVec Ideal S64x32 .f32)
    (a3 a4 a5 : FVec Ideal S32 .f32) (a6 : FVec Ideal S32x32 .f32) (a7 a8 a9 : FVec Ideal S32 .f32)
    (h : Cert.Pre_finite_inputs.fn (F := Ideal) a0 a1 a2 a3 a4 a5 a6 a7 a8 a9 = fun _ => 1#1) :
    (∀ i, IsR (a0 i)) ∧ (∀ i, IsR (a1 i)) ∧ (∀ i, IsR (a2 i)) ∧ (∀ i, IsR (a3 i)) ∧ (∀ i, IsR (a4 i)) ∧
      (∀ i, IsR (a5 i)) ∧ (∀ i, IsR (a6 i)) ∧ (∀ i, IsR (a7 i)) ∧ (∀ i, IsR (a8 i)) ∧ (∀ i, IsR (a9 i)) := by
  have h0 := congrFun h ix0
  dsimp only [Cert.Pre_finite_inputs.fn, Cert.Pre_finite_inputs.fn_part1, Cert.Pre_finite_inputs.fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isR_of_all a0 _ _ _ _ e0, isR_of_all a1 _ _ _ _ e1, isR_of_all a2 _ _ _ _ e2, isR_of_all a3 _ _ _ _ e3,
    isR_of_all a4 _ _ _ _ e4, isR_of_all a5 _ _ _ _ e5, isR_of_all a6 _ _ _ _ e6, isR_of_all a7 _ _ _ _ e7,
    isR_of_all a8 _ _ _ _ e8, isR_of_all a9 _ _ _ _ e9⟩

end Cert.ReferenceIdeal.HandNorm

end
-- ==== Proof.RefConvAux.lean ====
/-
  Small facts about sums and about the layout operations read at one index, for arrays of any extents.

  (1) A sum over t = a + b positions is the sum over the first a positions plus the sum over the last b; a sum over
      the indices of a one-axis array is the sum over its positions.
  (2) A sum over the members of a set described by a condition equivalent to another one is the sum, over
      everything, of the terms the other condition selects.
  (3) A two-piece concatenation of one-axis arrays of extents a and b reads the first piece at a position k < a
      and the second piece, at l, at the position a + l.
  (4) A broadcast of a scalar reads the scalar everywhere; a one-axis array of extent t made a [t x 1] column reads
      its element p at (p, 0); a [t x 1] column made [t x f] reads (p, 0) at (p, c); a one-axis array of extent m made
      a [1 x m] row and then [n x m] reads its element c at (r, c).
  (5) The coercion of the reals into the extended reals commutes with finite sums, since it commutes with 0 and +.
  (6) For an extended real d > 0, 1 / sqrt d is d to the power -1/2: for a positive real this is
      1 * (sqrt d)^(-1) on both sides, and for d the positive infinity both sides are 0.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value
import Mathlib.Algebra.BigOperators.Fin
import Mathlib.Data.EReal.Inv

noncomputable section

open scoped BigOperators

namespace Cert.Gcn.ConvAux

open Idealize.ShloMosaic Idealize.ShloMosaic.ValueIdx

/-! ## Sums -/

/-- (1) A sum over a + b positions splits into the first a and the last b. -/
theorem sum_fin_split {M : Type*} [AddCommMonoid M] (a b t : ℕ) (ht : a + b = t) (f : Fin t → M) :
    ∑ p : Fin t, f p
      = ∑ k : Fin a, f ⟨k.val, by have := k.isLt; omega⟩ + ∑ l : Fin b, f ⟨a + l.val, by have := l.isLt; omega⟩ := by
  subst ht
  rw [Fin.sum_univ_add]
  rfl

/-- (1) A sum over the indices of a one-axis array is the sum over its positions. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- (2) A filtered sum under an equivalent condition, written as a sum of selected terms. -/
theorem sum_filter_iff {ι M : Type*} [Fintype ι] [AddCommMonoid M] (p q : ι → Prop) [DecidablePred p] [DecidablePred q]
    (hpq : ∀ j, p j ↔ q j) (f : ι → M) :
    ∑ j ∈ Finset.univ.filter p, f j = ∑ j, if q j then f j else 0 := by
  rw [Finset.sum_filter]
  exact Finset.sum_congr rfl fun j _ => if_congr (hpq j) rfl rfl

/-- (5) The coercion of the reals into the extended reals commutes with finite sums. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-! ## Layout operations at an index -/

section Layout
variable {α : Type}

/-- (3) A two-piece concatenation of one-axis arrays reads the first piece below its extent. -/
theorem concat1_left {a b t : ℕ} (x₁ : (⟨1, ![a]⟩ : Shape).Idx → α) (x₂ : (⟨1, ![b]⟩ : Shape).Idx → α)
    (h : Shape.Concatenates [(⟨1, ![a]⟩ : Shape), ⟨1, ![b]⟩] ⟨1, ![t]⟩ (0 : Fin 1)) (p : Fin t) (k : Fin a)
    (hk : k.val = p.val) :
    concatenate ⟨1, ![t]⟩ (0 : Fin 1) [⟨⟨1, ![a]⟩, x₁⟩, ⟨⟨1, ![b]⟩, x₂⟩] h (ix1 p) = x₁ (ix1 k) := by
  refine concatenate_pair_apply_left (0 : Fin 1) x₁ x₂ h (ix1 p) rfl (ix1 k) ?_
  intro c
  match c with
  | ⟨0, _⟩ => exact hk

/-- (3) A two-piece concatenation of one-axis arrays reads the second piece from the first one's extent on. -/
theorem concat1_right {a b t : ℕ} (x₁ : (⟨1, ![a]⟩ : Shape).Idx → α) (x₂ : (⟨1, ![b]⟩ : Shape).Idx → α)
    (h : Shape.Concatenates [(⟨1, ![a]⟩ : Shape), ⟨1, ![b]⟩] ⟨1, ![t]⟩ (0 : Fin 1)) (p : Fin t) (l : Fin b)
    (hl : l.val + a = p.val) :
    concatenate ⟨1, ![t]⟩ (0 : Fin 1) [⟨⟨1, ![a]⟩, x₁⟩, ⟨⟨1, ![b]⟩, x₂⟩] h (ix1 p) = x₂ (ix1 l) := by
  refine concatenate_pair_apply_right (0 : Fin 1) x₁ x₂ h (ix1 p) rfl rfl (ix1 l) ?_ ?_
  · intro c hc
    exact absurd (Subsingleton.elim _ _) hc
  · exact hl

/-- (4) A broadcast scalar reads the scalar everywhere. -/
theorem bcast_scalar_apply (t : Shape) (h : (⟨0, ![]⟩ : Shape).BroadcastsInDim t (![] : Fin 0 → Fin t.rank))
    (x : (⟨0, ![]⟩ : Shape).Idx → α) (j : t.Idx) : broadcastInDim t ![] h x j = x ix0 := by
  unfold broadcastInDim
  congr 1
  funext a
  exact a.elim0

/-- (4) A one-axis array made a column reads its element p at (p, 0). -/
theorem bcast_col_apply {t : ℕ} (h : (⟨1, ![t]⟩ : Shape).BroadcastsInDim ⟨2, ![t, 1]⟩ (![0] : Fin 1 → Fin 2))
    (x : (⟨1, ![t]⟩ : Shape).Idx → α) (j : (⟨2, ![t, 1]⟩ : Shape).Idx) :
    broadcastInDim ⟨2, ![t, 1]⟩ ![0] h x j = x (ix1 (j 0)) := by
  unfold broadcastInDim
  congr 1
  funext a
  match a with
  | ⟨0, _⟩ =>
    by_cases h1 : t = 1
    · rw [dif_pos (by exact h1)]
      apply Fin.ext
      have := (j 0).isLt
      simp at this ⊢
      omega
    · rw [dif_neg (by exact h1)]
      rfl

/-- (4) A column made [t x f] reads (p, 0) at (p, c). -/
theorem bcast_cols_apply {t f : ℕ} (h : (⟨2, ![t, 1]⟩ : Shape).BroadcastsInDim ⟨2, ![t, f]⟩ (![0, 1] : Fin 2 → Fin 2))
    (x : (⟨2, ![t, 1]⟩ : Shape).Idx → α) (j : (⟨2, ![t, f]⟩ : Shape).Idx) :
    broadcastInDim ⟨2, ![t, f]⟩ ![0, 1] h x j = x (ix2 (j 0) 0) := by
  unfold broadcastInDim
  congr 1
  funext a
  match a with
  | ⟨0, _⟩ =>
    by_cases h1 : t = 1
    · rw [dif_pos (by exact h1)]
      apply Fin.ext
      have := (j 0).isLt
      simp at this ⊢
      omega
    · rw [dif_neg (by exact h1)]
      rfl
  | ⟨1, _⟩ =>
    rw [dif_pos (by rfl)]
    rfl

/-- (4) A one-axis array made a [1 x m] row reads its element c at (0, c). -/
theorem bcast_row_apply {m : ℕ} (h : (⟨1, ![m]⟩ : Shape).BroadcastsInDim ⟨2, ![1, m]⟩ (![1] : Fin 1 → Fin 2))
    (x : (⟨1, ![m]⟩ : Shape).Idx → α) (j : (⟨2, ![1, m]⟩ : Shape).Idx) :
    broadcastInDim ⟨2, ![1, m]⟩ ![1] h x j = x (ix1 (j 1)) := by
  unfold broadcastInDim
  congr 1
  funext a
  match a with
  | ⟨0, _⟩ =>
    by_cases h1 : m = 1
    · rw [dif_pos (by exact h1)]
      apply Fin.ext
      have := (j 1).isLt
      simp at this ⊢
      omega
    · rw [dif_neg (by exact h1)]
      rfl

/-- (4) A [1 x m] row made [n x m] reads (0, c) at (r, c). -/
theorem bcast_rows_apply {n m : ℕ} (h : (⟨2, ![1, m]⟩ : Shape).BroadcastsInDim ⟨2, ![n, m]⟩ (![0, 1] : Fin 2 → Fin 2))
    (x : (⟨2, ![1, m]⟩ : Shape).Idx → α) (j : (⟨2, ![n, m]⟩ : Shape).Idx) :
    broadcastInDim ⟨2, ![n, m]⟩ ![0, 1] h x j = x (ix2 0 (j 1)) := by
  unfold broadcastInDim
  congr 1
  funext a
  match a with
  | ⟨0, _⟩ =>
    rw [dif_pos (by rfl)]
    rfl
  | ⟨1, _⟩ =>
    by_cases h1 : m = 1
    · rw [dif_pos (by exact h1)]
      apply Fin.ext
      have := (j 1).isLt
      simp at this ⊢
      omega
    · rw [dif_neg (by exact h1)]
      rfl

end Layout

/-! ## Scalars -/

/-- The word of 1.0 denotes 1. -/
theorem ofBits_one_f32 : Ideal.ofBits .f32 0x3F800000#32 = 1 := by
  simp [Ideal.ofBits, Ideal.ieee]
  norm_num [← EReal.coe_mul]

/-- (6) For d > 0, 1 / sqrt d is d to the power -1/2. -/
theorem div_one_sqrt (d : EReal) (hd : 0 < d) : Ideal.div 1 (Ideal.sqrt d) = Ideal.rsqrt d := by
  induction d using EReal.rec with
  | bot => exact absurd hd (by simp)
  | top =>
    rw [Ideal.sqrt_top, Ideal.rsqrt_top, Ideal.div, if_neg (by simp), EReal.inv_top, mul_zero]
  | coe r =>
    have hr : 0 < r := by exact_mod_cast hd
    have hs : Real.sqrt r ≠ 0 := (Real.sqrt_pos.2 hr).ne'
    rw [Ideal.sqrt_coe, if_neg (not_lt.2 hr.le), Ideal.div_coe hs, Ideal.rsqrt_coe, if_neg (not_lt.2 hr.le),
      if_neg hr.ne', one_mul, one_div]

end Cert.Gcn.ConvAux

end
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.RefConvParts.lean ====
/-
  The reference's graph-convolution stage: its entries, and sums over the entries of one column.

  The stage appends to the edge list (rowI k, colI k, ew k), k < 4194304, the 2048 self loops (l, l) with
  weight 1: entry p < 4194304 is edge p, entry 4194304 + l is the self loop l.  Where every rowI k and colI k is
  below 2048 no index is negative, the wrap of negative indices does nothing, and the index column read as a
  signed integer is the node number.  Hence a sum over the entries whose column is c is the sum over the edges k
  with colI k = c plus the term of the self loop c.  If moreover the edge list enumerates an adjacency array adj,
      sum_k ew k * g (rowI k) (colI k) = sum_r sum_c adj (r, c) * g r c     for every g,
  then taking g = G on column c and 0 elsewhere,
      sum over the edges k with colI k = c of ew k * G (rowI k) (colI k) = sum_r adj (r, c) * G r c.
  With G = 1 this gives the degree: deg c = 0 + (sum_r adj (r, c)) + 1.
-/
import proofs.«121040_g28046136442917_fold_wed_c4_759_6_alg».proof.Proof.RefConvDefs
import proofs.«121040_g28046136442917_fold_wed_c4_759_6_alg».proof.Proof.RefConvAux
import proofs.«121040_g28046136442917_fold_wed_c4_759_6_alg».proof.Proof.Spec
import proofs.«121040_g28046136442917_fold_wed_c4_759_6_alg».proof.Proof.LibWordArith
import proofs.«121040_g28046136442917_fold_wed_c4_759_6_alg».proof.Proof.LibIndexMaps
import Idealize.ShloMosaic.Lib.ValueIdx
import Idealize.ShloMosaic.Lib.IdealHost
import Idealize.ShloMosaic.PureOps.Ideal
import Idealize.ShloMosaic.PureOps.Ideal.Laws
import Mathlib.Algebra.BigOperators.Fin
import Mathlib.Data.EReal.Inv

noncomputable section

open scoped BigOperators

namespace Cert.ReferenceIdeal.HandConv

open Idealize.ShloMosaic Idealize.ShloMosaic.ValueIdx
open Cert.ReferenceIdeal Cert.Gcn.WordArith
open Cert.Gcn.ConvAux (sum_fin_split concat1_left concat1_right bcast_scalar_apply bcast_col_apply bcast_cols_apply bcast_row_apply bcast_rows_apply div_one_sqrt)
open Cert.Gcn.IndexMaps (hostScatterAdd1_apply hostScatterAdd2_apply gather1_ix_apply gather2_ix_apply)

variable [Facts]
open Facts₀ Facts

/-! ## The appended arrays and the index column at a position -/

/-- Among the first 4194304 entries an appended index array reads the edge list. -/
theorem withLoops_edge (v : IVec S4194304 32) (k : Fin 4194304) :
    withLoops v (ix1 (⟨k.val, by have := k.isLt; omega⟩ : Fin 4196352)) = v (ix1 k) := by
  unfold withLoops
  exact concat1_left v loopIdx concatenates_S4194304_S2048_S4196352_d0 _ k rfl

/-- From entry 4194304 on an appended index array reads the self loops' node numbers. -/
theorem withLoops_loop (v : IVec S4194304 32) (l : Fin 2048) :
    withLoops v (ix1 (⟨4194304 + l.val, by have := l.isLt; omega⟩ : Fin 4196352)) = BitVec.ofNat 32 l.val := by
  unfold withLoops
  exact concat1_right v loopIdx concatenates_S4194304_S2048_S4196352_d0 _ l (Nat.add_comm _ _)

/-- Among the first 4194304 entries the appended weights read the edge weights. -/
theorem weights_edge (ew : FVec Ideal S4194304 .f32) (k : Fin 4194304) :
    weights ew (ix1 (⟨k.val, by have := k.isLt; omega⟩ : Fin 4196352)) = ew (ix1 k) := by
  unfold weights
  exact concat1_left ew _ concatenates_S4194304_S2048_S4196352_d0 _ k rfl

/-- From entry 4194304 on the appended weights read the word of 1.0. -/
theorem weights_loop (ew : FVec Ideal S4194304 .f32) (l : Fin 2048) :
    weights ew (ix1 (⟨4194304 + l.val, by have := l.isLt; omega⟩ : Fin 4196352)) = Cert.Gcn.wOne := by
  unfold weights
  exact concat1_right ew _ concatenates_S4194304_S2048_S4196352_d0 _ l (Nat.add_comm _ _)

/-- Where the index word is small the wrap of negative indices does nothing: the column reads the word itself. -/
theorem idxCol_apply (v : IVec S4196352 32) (p : Fin 4196352) (hv : (v (ix1 p)).toNat < 2 ^ 31) :
    idxCol v (ix2 p (0 : Fin 1)) = v (ix1 p) := by
  unfold idxCol
  rw [bcast_col_apply]
  exact select_slt_zero_small 2048#32 hv

/-- At an edge the index column, read signed, is the edge's node number. -/
theorem idx_edge (v : IVec S4194304 32) (hv : ∀ k, (v k).toNat < 2048) (k : Fin 4194304) :
    (idxCol (withLoops v) (ix2 (⟨k.val, by have := k.isLt; omega⟩ : Fin 4196352) (0 : Fin 1))).toInt
      = ((v (ix1 k)).toNat : Int) := by
  have h := hv (ix1 k)
  rw [idxCol_apply _ _ (by rw [withLoops_edge]; omega), withLoops_edge]
  exact toInt_of_small (by omega)

/-- At a self loop the index column, read signed, is the loop's node number. -/
theorem idx_loop (v : IVec S4194304 32) (l : Fin 2048) :
    (idxCol (withLoops v) (ix2 (⟨4194304 + l.val, by have := l.isLt; omega⟩ : Fin 4196352) (0 : Fin 1))).toInt
      = (l.val : Int) := by
  have h := l.isLt
  rw [idxCol_apply _ _ (by rw [withLoops_loop, toNat_ofNat_small _ (by omega)]; omega), withLoops_loop]
  exact toInt_ofNat_small _ (by omega)

/-! ## A sum over the entries selected by their column -/

/-- A sum over the entries whose column index, read signed, is c: the edges whose column is c, and the self loop c. -/
theorem sum_entries_at (colI : IVec S4194304 32) (hc : ∀ k, (colI k).toNat < 2048) (c : Fin 2048)
    (u : Fin 4196352 → EReal) :
    ∑ p : Fin 4196352, (if (idxCol (withLoops colI) (ix2 p (0 : Fin 1))).toInt = ((c.val : ℕ) : Int) then u p else 0)
      = ∑ k : Fin 4194304, (if (colI (ix1 k)).toNat = c.val then u ⟨k.val, by have := k.isLt; omega⟩ else 0)
        + u ⟨4194304 + c.val, by have := c.isLt; omega⟩ := by
  rw [sum_fin_split 4194304 2048 4196352 (by norm_num)]
  refine congrArg₂ (· + ·) ?_ ?_
  · refine Finset.sum_congr rfl fun k _ => ?_
    rw [idx_edge colI hc k]
    exact if_congr Nat.cast_inj rfl rfl
  · rw [Finset.sum_eq_single c]
    · rw [idx_loop colI c, if_pos rfl]
    · intro l _ hl
      rw [idx_loop colI l, if_neg]
      intro h
      exact hl (Fin.ext (Nat.cast_inj.1 h))
    · intro h
      exact absurd (Finset.mem_univ c) h

/-! ## The float operations of the stage at an index, at the ideal values -/

/-- A comparison at an index compares the elements in the extended reals' order. -/
theorem cmpf_ideal {s : Shape} {φ : FTy} (p : CmpFPredicate) (a b : FVec Ideal s φ) (i : s.Idx) :
    cmpf p a b i = Ideal.cmp p (a i) (b i) := rfl

/-- The host's square root at an index is the extended reals' square root of the element. -/
theorem hostSqrt_ideal {s : Shape} {φ : FTy} (a : FVec Ideal s φ) (i : s.Idx) :
    Host.sqrt a i = Ideal.sqrt (a i) := rfl

/-- The host's accumulating scatter is the exact sum of the updates landing on each element. -/
theorem hostScatterAdd_ideal {s si u : Shape} {w : ℕ} {φ : FTy} (d : ScatterDims s si u) (x : FVec Ideal s φ)
    (idx : IVec si w) (upd : FVec Ideal u φ) :
    Host.scatterAdd d x idx upd = Ideal.hostScatterAdd d x idx upd := rfl
/-! ## The degree and its inverse square root -/

/-- Summing, over a whole array, its entries times a function that vanishes off column c leaves column c. -/
theorem sum_sum_mul_col {n m : ℕ} (A G : Fin n → Fin m → EReal) (c : Fin m) :
    ∑ r : Fin n, ∑ c' : Fin m, A r c' * (if c' = c then G r c' else 0) = ∑ r : Fin n, A r c * G r c := by
  refine Finset.sum_congr rfl fun r _ => ?_
  rw [Finset.sum_eq_single c]
  · rw [if_pos rfl]
  · intro c' _ hc'
    rw [if_neg hc', mul_zero]
  · intro hn
    exact absurd (Finset.mem_univ c) hn

/-- The function of (row, column) that is G on column c and vanishes elsewhere. -/
def onCol (c : Fin 2048) (G : Fin 2048 → Fin 2048 → EReal) : Fin 2048 → Fin 2048 → EReal :=
  fun r c' => if c' = c then G r c' else 0

theorem onCol_apply (c : Fin 2048) (G : Fin 2048 → Fin 2048 → EReal) (r c' : Fin 2048) :
    onCol c G r c' = if c' = c then G r c' else 0 := rfl

section Closed
variable (rowI colI : IVec S4194304 32) (ew : FVec Ideal S4194304 .f32) (adj : S2048x2048.Idx → EReal)
  (H1 : ∀ k : S4194304.Idx, (rowI k).toNat < 2048 ∧ (colI k).toNat < 2048)
  (H2 : ∀ g : Fin 2048 → Fin 2048 → EReal,
    ∑ k : Fin 4194304, ew (ix1 k) * g ⟨(rowI (ix1 k)).toNat, (H1 (ix1 k)).1⟩ ⟨(colI (ix1 k)).toNat, (H1 (ix1 k)).2⟩
      = ∑ r : Fin 2048, ∑ c : Fin 2048, adj (ix2 r c) * g r c)
include H2

/-- The edges whose column is c, each weighted by G of its row and column, carry the adjacency's column c weighted by G. -/
theorem edge_sum (c : Fin 2048) (G : Fin 2048 → Fin 2048 → EReal) :
    ∑ k : Fin 4194304, (if (colI (ix1 k)).toNat = c.val
        then ew (ix1 k) * G ⟨(rowI (ix1 k)).toNat, (H1 (ix1 k)).1⟩ ⟨(colI (ix1 k)).toNat, (H1 (ix1 k)).2⟩ else 0)
      = ∑ r : Fin 2048, adj (ix2 r c) * G r c := by
  have hE := H2 (onCol c G)
  simp only [onCol_apply] at hE
  rw [sum_sum_mul_col (fun r c' => adj (ix2 r c')) G c] at hE
  rw [← hE]
  refine Finset.sum_congr rfl fun k _ => ?_
  by_cases hk : (colI (ix1 k)).toNat = c.val
  · rw [if_pos hk, if_pos (Fin.ext hk)]
  · rw [if_neg hk, if_neg (fun h => hk (congrArg Fin.val h)), mul_zero]

omit H2 in
/-- The degree as a scatter-add: zero plus the weights of the entries whose column index is c. -/
theorem degRef_scatter (c : Fin 2048) :
    degRef colI ew (ix1 c)
      = zeros1 (ix1 c) + ∑ p : Fin 4196352,
          if (idxCol (withLoops colI) (ix2 p (0 : Fin 1))).toInt = ((c.val : ℕ) : Int) then weights ew (ix1 p) else 0 := by
  unfold degRef
  rw [hostScatterAdd_ideal]
  exact hostScatterAdd1_apply scatter_S2048_S4196352x1_S4196352_n_0_0_1 rfl rfl rfl rfl zeros1
    (idxCol (withLoops colI)) (weights ew) c

omit H2 in
/-- The vector of zeros reads the word of 0.0, which denotes 0. -/
theorem zeros1_apply (i : S2048.Idx) : zeros1 i = 0 := by
  unfold zeros1
  rw [bcast_scalar_apply, constant_apply, Ideal.ofBits_zero_f32]

/-- The edge weights whose column is c add up to the adjacency's column c. -/
theorem edge_weight_sum (c : Fin 2048) :
    ∑ k : Fin 4194304, (if (colI (ix1 k)).toNat = c.val
        then weights ew (ix1 (⟨k.val, by have := k.isLt; omega⟩ : Fin 4196352)) else 0)
      = ∑ r : Fin 2048, adj (ix2 r c) := by
  rw [← (show ∑ r : Fin 2048, adj (ix2 r c) * (fun _ _ => (1 : EReal)) r c = ∑ r : Fin 2048, adj (ix2 r c) from
      Finset.sum_congr rfl fun r _ => mul_one _)]
  rw [← edge_sum rowI colI ew adj H1 H2 c (fun _ _ => 1)]
  refine Finset.sum_congr rfl fun k _ => ?_
  rw [weights_edge, mul_one]

/-- The degree is the adjacency's column sum plus the self loop's weight. -/
theorem degRef_apply (c : Fin 2048) :
    degRef colI ew (ix1 c) = Cert.Gcn.deg (fun r c' => adj (ix2 r c')) c := by
  have h1 := sum_entries_at colI (fun k => (H1 k).2) c (fun p => weights ew (ix1 p))
  rw [degRef_scatter, h1, edge_weight_sum rowI colI ew adj H1 H2 c, weights_loop, zeros1_apply, zero_add]
  unfold Cert.Gcn.deg
  rfl

end Closed

end Cert.ReferenceIdeal.HandConv

end
-- ==== Proof.RefConvAgg.lean ====
/-
  The reference's graph-convolution stage: the aggregated messages in closed form.

  Entry p of the stage's list (an edge k < 4194304, or the self loop l at position 4194304 + l) carries the
  message
      msg (p, f) = ((dis (R p) * W p) * dis (C p)) * h (R p, f),
  where R p, C p are its row and column and W p its weight (the edge's weight, or 1 for a self loop), and the
  aggregate at (c, f) is zero plus the sum of the messages of the entries whose column is c.  Those entries are
  the edges k with colI k = c and the self loop c.  If the edge list enumerates an adjacency array adj, that is
      sum_k ew k * g (rowI k) (colI k) = sum_r sum_c adj (r, c) * g r c      for every g,
  then with g r c' = (dis r * dis c') * h (r, f) on column c and 0 elsewhere the edges contribute
      sum_r adj (r, c) * ((dis r * dis c) * h (r, f)),
  each edge term ((dis r * w) * dis c) * h being w * ((dis r * dis c) * h) by commutativity and associativity of
  the product; the self loop contributes ((dis c * 1) * dis c) * h (c, f).
-/
import proofs.«121040_g28046136442917_fold_wed_c4_759_6_alg».proof.Proof.RefConvParts
import proofs.«121040_g28046136442917_fold_wed_c4_759_6_alg».proof.Proof.RefFinite

noncomputable section

open scoped BigOperators

namespace Cert.ReferenceIdeal.HandConv

open Idealize.ShloMosaic Idealize.ShloMosaic.ValueIdx
open Cert.ReferenceIdeal Cert.Gcn.WordArith
open Cert.Gcn.ConvAux (sum_fin_split concat1_left concat1_right bcast_scalar_apply bcast_col_apply bcast_cols_apply bcast_row_apply bcast_rows_apply div_one_sqrt)
open Cert.Gcn.IndexMaps (hostScatterAdd1_apply hostScatterAdd2_apply gather1_ix_apply gather2_ix_apply)

variable [Facts]
open Facts₀ Facts

section Agg
variable (rowI colI : IVec S4194304 32) (ew : FVec Ideal S4194304 .f32) (h : FVec Ideal S2048x32 .f32)
  (H1 : ∀ k : S4194304.Idx, (rowI k).toNat < 2048 ∧ (colI k).toNat < 2048)
  (D : Fin 2048 → EReal) (hD : ∀ c : Fin 2048, disRef colI ew (ix1 c) = D c)
include hD

set_option maxHeartbeats 40000 in
/-- An edge's normalisation: dis at its row, times its weight, times dis at its column. -/
theorem normRef_edge (k : Fin 4194304) :
    normRef rowI colI ew (ix1 (⟨k.val, by have := k.isLt; omega⟩ : Fin 4196352))
      = (D ⟨(rowI (ix1 k)).toNat, (H1 (ix1 k)).1⟩ * ew (ix1 k)) * D ⟨(colI (ix1 k)).toNat, (H1 (ix1 k)).2⟩ := by
  unfold normRef
  rw [mulf_apply, mulf_apply,
    gather1_ix_apply gather_S2048_S4196352x1_S4196352_n_0_n_n_0_1_1 rfl rfl rfl rfl (disRef colI ew)
      (idxCol (withLoops rowI)) _ _ (H1 (ix1 k)).1 (idx_edge rowI (fun k => (H1 k).1) k),
    gather1_ix_apply gather_S2048_S4196352x1_S4196352_n_0_n_n_0_1_1 rfl rfl rfl rfl (disRef colI ew)
      (idxCol (withLoops colI)) _ _ (H1 (ix1 k)).2 (idx_edge colI (fun k => (H1 k).2) k),
    weights_edge, hD, hD]

set_option maxHeartbeats 40000 in
/-- A self loop's normalisation: dis at its node, times one, times dis at its node. -/
theorem normRef_loop (l : Fin 2048) :
    normRef rowI colI ew (ix1 (⟨4194304 + l.val, by have := l.isLt; omega⟩ : Fin 4196352))
      = (D l * 1) * D l := by
  unfold normRef
  rw [mulf_apply, mulf_apply,
    gather1_ix_apply gather_S2048_S4196352x1_S4196352_n_0_n_n_0_1_1 rfl rfl rfl rfl (disRef colI ew)
      (idxCol (withLoops rowI)) _ l.val l.isLt (idx_loop rowI l),
    gather1_ix_apply gather_S2048_S4196352x1_S4196352_n_0_n_n_0_1_1 rfl rfl rfl rfl (disRef colI ew)
      (idxCol (withLoops colI)) _ l.val l.isLt (idx_loop colI l),
    weights_loop, hD, Cert.ReferenceIdeal.HandNorm.wOne_eq]

omit hD in
set_option maxHeartbeats 40000 in
/-- A message: the entry's normalisation times the feature at the entry's row. -/
theorem msgRef_apply (p : Fin 4196352) (f : Fin 32) (r : ℕ) (hr : r < 2048)
    (hidx : (idxCol (withLoops rowI) (ix2 p (0 : Fin 1))).toInt = (r : Int)) :
    msgRef rowI colI ew h (ix2 p f) = normRef rowI colI ew (ix1 p) * h (ix2 ⟨r, hr⟩ f) := by
  unfold msgRef
  rw [mulf_apply, bcast_cols_apply, bcast_col_apply,
    gather2_ix_apply gather_S2048x32_S4196352x1_S4196352x32_1_0_n_n_0_1_132 rfl rfl rfl rfl rfl h
      (idxCol (withLoops rowI)) p f r hr hidx]

end Agg

set_option maxHeartbeats 40000 in
/-- The aggregate at (c, f): the adjacency's column c against the normalised features, plus the self loop. -/
theorem aggRef_apply (rowI colI : IVec S4194304 32) (ew : FVec Ideal S4194304 .f32) (h : FVec Ideal S2048x32 .f32)
    (adj : S2048x2048.Idx → EReal)
    (H1 : ∀ k : S4194304.Idx, (rowI k).toNat < 2048 ∧ (colI k).toNat < 2048)
    (H2 : ∀ g : Fin 2048 → Fin 2048 → EReal,
      ∑ k : Fin 4194304, ew (ix1 k) * g ⟨(rowI (ix1 k)).toNat, (H1 (ix1 k)).1⟩ ⟨(colI (ix1 k)).toNat, (H1 (ix1 k)).2⟩
        = ∑ r : Fin 2048, ∑ c : Fin 2048, adj (ix2 r c) * g r c)
    (D : Fin 2048 → EReal) (hD : ∀ c : Fin 2048, disRef colI ew (ix1 c) = D c) (c : Fin 2048) (f : Fin 32) :
    aggRef rowI colI ew h (ix2 c f)
      = (∑ r : Fin 2048, adj (ix2 r c) * ((D r * D c) * h (ix2 r f))) + ((D c * 1) * D c) * h (ix2 c f) := by
  have hs := hostScatterAdd2_apply scatter_S2048x32_S4196352x1_S4196352x32_1_0_0_1 rfl rfl rfl rfl
    (broadcastInDim S2048x32 ![] bcast_S_S2048x32 (constant (F := Ideal) S_ .f32 0x00000000#32))
    (idxCol (withLoops colI)) (msgRef rowI colI ew h) c f
  have hsplit := sum_entries_at colI (fun k => (H1 k).2) c (fun p => msgRef rowI colI ew h (ix2 p f))
  unfold aggRef
  rw [hostScatterAdd_ideal, hs, bcast_scalar_apply, constant_apply, Ideal.ofBits_zero_f32, zero_add, hsplit]
  refine congrArg₂ (· + ·) ?_ ?_
  · rw [← edge_sum rowI colI ew adj H1 H2 c (fun r c' => (D r * D c') * h (ix2 r f))]
    refine Finset.sum_congr rfl fun k _ => ?_
    by_cases hk : (colI (ix1 k)).toNat = c.val
    · rw [if_pos hk, if_pos hk,
        msgRef_apply rowI colI ew h _ f _ (H1 (ix1 k)).1 (idx_edge rowI (fun k => (H1 k).1) k),
        normRef_edge rowI colI ew H1 D hD k,
        mul_comm (D ⟨(rowI (ix1 k)).toNat, (H1 (ix1 k)).1⟩) (ew (ix1 k)), mul_assoc (ew (ix1 k)), mul_assoc (ew (ix1 k))]
    · rw [if_neg hk, if_neg hk]
  · rw [msgRef_apply rowI colI ew h _ f c.val c.isLt (idx_loop rowI c), normRef_loop rowI colI ew D hD c]

end Cert.ReferenceIdeal.HandConv
-- ==== Proof.ConvAlgebra.lean ====
/-
  The algebra of one graph-convolution column, over the extended reals at real (finite) values.

  For real numbers a r (the adjacency column), d r (the normalisers) and h r (the features), and a fixed
  column c,
      sum_r a r * (d r * d c * h r)  +  (d c * 1 * d c) * h c
        =  d c * ( sum_r a r * (d r * h r)  +  d c * h c ):
  the factor d c is common to every summand and to the self-loop term (distributivity, and commutativity
  of the real product).  Extended reals that are neither bottom nor top are images of real numbers, and
  on such images the extended sum and product are the images of the real sum and product; so the identity,
  and its restatements with the summand's factors in another order or association, hold there as well.
-/
import Mathlib.Data.EReal.Basic
import Mathlib.Data.EReal.Operations
import Mathlib.Algebra.BigOperators.Ring.Finset
import Mathlib.Tactic.Ring
import proofs.«121040_g28046136442917_fold_wed_c4_759_6_alg».proof.Proof.RefFinite

noncomputable section

namespace Cert.Gcn.ConvAux

open Cert.ReferenceIdeal.HandNorm

/-- The identity over the reals: `d c` is a common factor of the propagated sum and of the self-loop term. -/
theorem conv_real {ι : Type*} [Fintype ι] (a h d : ι → ℝ) (c : ι) (t : ι → ℝ)
    (ht : ∀ r, t r = a r * (d r * d c * h r)) :
    (∑ r, t r) + (d c * 1 * d c) * h c = d c * ((∑ r, a r * (d r * h r)) + d c * h c) := by
  rw [mul_add, Finset.mul_sum]
  congr 1
  · exact Finset.sum_congr rfl (fun r _ => by rw [ht r]; ring)
  · ring

/-- The identity over the extended reals, the summand given as the image of any real expression equal to
`a r * (d r * d c * h r)`. -/
theorem conv_coe {ι : Type*} [Fintype ι] (a h d : ι → ℝ) (c : ι) (t : ι → ℝ)
    (ht : ∀ r, t r = a r * (d r * d c * h r)) :
    (∑ r, ((t r : ℝ) : EReal)) + ((d c : EReal) * 1 * (d c : EReal)) * (h c : EReal)
      = (d c : EReal) * ((∑ r, (a r : EReal) * ((d r : EReal) * (h r : EReal))) + (d c : EReal) * (h c : EReal)) := by
  have h1 : (1 : EReal) = ((1 : ℝ) : EReal) := EReal.coe_one.symm
  rw [h1]
  simp only [← EReal.coe_mul, ← coe_sum, ← EReal.coe_add]
  rw [EReal.coe_eq_coe_iff]
  exact conv_real a h d c t ht

section General
variable {ι : Type*} [Fintype ι] (A : ι → ι → EReal) (H D : ι → EReal) (c : ι)
  (hA : ∀ r c, IsR (A r c)) (hH : ∀ r, IsR (H r)) (hD : ∀ r, IsR (D r))
include hA hH hD

/-- The summand `A r c * (D r * D c * H r)`. -/
theorem conv_algebra_gen :
    (∑ r, A r c * (D r * D c * H r)) + (D c * 1 * D c) * H c
      = D c * ((∑ r, A r c * (D r * H r)) + D c * H c) := by
  choose a ha using fun r => (hA r c).exists
  choose h hh using fun r => (hH r).exists
  choose d hd using fun r => (hD r).exists
  simp only [ha, hh, hd]
  have key := conv_coe a h d c (fun r => a r * (d r * d c * h r)) (fun _ => rfl)
  simp only [EReal.coe_mul] at key
  exact key

/-- (V1) The summand `A r c * ((D r * D c) * H r)`. -/
theorem conv_algebra_gen_v1 :
    (∑ r, A r c * ((D r * D c) * H r)) + (D c * 1 * D c) * H c
      = D c * ((∑ r, A r c * (D r * H r)) + D c * H c) :=
  conv_algebra_gen A H D c hA hH hD

/-- (V2) The summand `((D r * A r c) * D c) * H r`. -/
theorem conv_algebra_gen_v2 :
    (∑ r, ((D r * A r c) * D c) * H r) + (D c * 1 * D c) * H c
      = D c * ((∑ r, A r c * (D r * H r)) + D c * H c) := by
  choose a ha using fun r => (hA r c).exists
  choose h hh using fun r => (hH r).exists
  choose d hd using fun r => (hD r).exists
  simp only [ha, hh, hd]
  have key := conv_coe a h d c (fun r => ((d r * a r) * d c) * h r) (fun _ => by ring)
  simp only [EReal.coe_mul] at key
  exact key

/-- (V3) The summand `(D r * A r c * D c) * H r`. -/
theorem conv_algebra_gen_v3 :
    (∑ r, (D r * A r c * D c) * H r) + (D c * 1 * D c) * H c
      = D c * ((∑ r, A r c * (D r * H r)) + D c * H c) :=
  conv_algebra_gen_v2 A H D c hA hH hD

/-- (V4) The summand `((D r * (A r c * 1)) * D c) * H r`: the weight carried with its indicator one. -/
theorem conv_algebra_gen_v4 :
    (∑ r, ((D r * (A r c * 1)) * D c) * H r) + (D c * 1 * D c) * H c
      = D c * ((∑ r, A r c * (D r * H r)) + D c * H c) := by
  simp only [mul_one]
  have key := conv_algebra_gen_v2 A H D c hA hH hD
  simp only [mul_one] at key
  exact key

/-- (V5) The summand `A r c * (((D r * 1) * D c) * H r)`: the adjacency factored out of the edge term whose
weight is one. -/
theorem conv_algebra_gen_v5 :
    (∑ r, A r c * (((D r * 1) * D c) * H r)) + (D c * 1 * D c) * H c
      = D c * ((∑ r, A r c * (D r * H r)) + D c * H c) := by
  simp only [mul_one]
  have key := conv_algebra_gen A H D c hA hH hD
  simp only [mul_one] at key
  exact key

end General

/-! ### At the 2048 rows -/

section Rows
variable (A : Fin 2048 → Fin 2048 → EReal) (H : Fin 2048 → EReal) (D : Fin 2048 → EReal) (c : Fin 2048)
  (hA : ∀ r c, IsR (A r c)) (hH : ∀ r, IsR (H r)) (hD : ∀ r, IsR (D r))
include hA hH hD

/-- The convolution column with the normalisers inside the sum equals the one with `D c` outside. -/
theorem conv_algebra :
    (∑ r : Fin 2048, A r c * (D r * D c * H r)) + (D c * 1 * D c) * H c
      = D c * ((∑ r : Fin 2048, A r c * (D r * H r)) + D c * H c) :=
  conv_algebra_gen A H D c hA hH hD

/-- (V1) -/
theorem conv_algebra_v1 :
    (∑ r : Fin 2048, A r c * ((D r * D c) * H r)) + (D c * 1 * D c) * H c
      = D c * ((∑ r : Fin 2048, A r c * (D r * H r)) + D c * H c) :=
  conv_algebra_gen_v1 A H D c hA hH hD

/-- (V2) -/
theorem conv_algebra_v2 :
    (∑ r : Fin 2048, ((D r * A r c) * D c) * H r) + (D c * 1 * D c) * H c
      = D c * ((∑ r : Fin 2048, A r c * (D r * H r)) + D c * H c) :=
  conv_algebra_gen_v2 A H D c hA hH hD

/-- (V3) -/
theorem conv_algebra_v3 :
    (∑ r : Fin 2048, (D r * A r c * D c) * H r) + (D c * 1 * D c) * H c
      = D c * ((∑ r : Fin 2048, A r c * (D r * H r)) + D c * H c) :=
  conv_algebra_gen_v3 A H D c hA hH hD

/-- (V4) -/
theorem conv_algebra_v4 :
    (∑ r : Fin 2048, ((D r * (A r c * 1)) * D c) * H r) + (D c * 1 * D c) * H c
      = D c * ((∑ r : Fin 2048, A r c * (D r * H r)) + D c * H c) :=
  conv_algebra_gen_v4 A H D c hA hH hD

/-- (V5) -/
theorem conv_algebra_v5 :
    (∑ r : Fin 2048, A r c * (((D r * 1) * D c) * H r)) + (D c * 1 * D c) * H c
      = D c * ((∑ r : Fin 2048, A r c * (D r * H r)) + D c * H c) :=
  conv_algebra_gen_v5 A H D c hA hH hD

end Rows

end Cert.Gcn.ConvAux
-- ==== Proof.RefConv.lean ====
/-
  The reference's graph-convolution stage in closed form.

  The stage (its operations: the definitions of the module imported first) appends to the edge list
  (rowI k, colI k, ew k), k < 4194304, the 2048 self loops (l, l) with weight 1, and computes

    deg c  = 0 + sum over the entries p with C p = c of W p
    dis c  = 1 / sqrt (deg c if deg c > 0 else 1)  if deg c > 0,  else 0
    out (c, f) = 0 + sum over the entries p with C p = c of ((dis (R p) * W p) * dis (C p)) * h (R p, f)  +  b f.

  Suppose every rowI k and colI k is below 2048 (so that no index is negative and the wrap of negative indices
  does nothing, and a signed reading of the index word is the node number), that the edge list enumerates the
  adjacency array adj : [2048 x 2048], in the sense that for every function g
      sum_k ew k * g (rowI k) (colI k) = sum_r sum_c adj (r, c) * g r c,
  and that adj and h take finite values only.  A sum over the entries with C p = c is the sum over the edges k
  with colI k = c plus the term of the one self loop l = c.  Hence
    deg c = (sum_r adj (r, c)) + 1                      (take g r c' = 1 if c' = c, else 0),
    dis c = deg c ^ (-1/2) where deg c > 0, 0 elsewhere (for d > 0, 1 / sqrt d = d ^ (-1/2)),
    out (c, f) = sum_r adj (r, c) * (dis r * dis c * h (r, f)) + (dis c * 1 * dis c) * h (c, f) + b f
                                                        (take g r c' = dis r * dis c' * h (r, f) if c' = c, else 0)
               = dis c * (sum_r adj (r, c) * (dis r * h (r, f)) + dis c * h (c, f)) + b f,
  the last step by distributivity, which holds because every number in it is a finite real: adj and h are by
  hypothesis, deg c is a finite sum of them plus 1, and dis c is 0 or the inverse square root of a positive real.
-/
import proofs.«121040_g28046136442917_fold_wed_c4_759_6_alg».proof.Proof.RefConvDefs
import proofs.«121040_g28046136442917_fold_wed_c4_759_6_alg».proof.Proof.RefConvAux
import proofs.«121040_g28046136442917_fold_wed_c4_759_6_alg».proof.Proof.RefConvParts
import proofs.«121040_g28046136442917_fold_wed_c4_759_6_alg».proof.Proof.RefConvAgg
import proofs.«121040_g28046136442917_fold_wed_c4_759_6_alg».proof.Proof.Spec
import proofs.«121040_g28046136442917_fold_wed_c4_759_6_alg».proof.Proof.LibWordArith
import proofs.«121040_g28046136442917_fold_wed_c4_759_6_alg».proof.Proof.RefFinite
import proofs.«121040_g28046136442917_fold_wed_c4_759_6_alg».proof.Proof.ConvAlgebra
import proofs.«121040_g28046136442917_fold_wed_c4_759_6_alg».proof.Proof.LibIndexMaps
import Idealize.ShloMosaic.Lib.ValueIdx
import Idealize.ShloMosaic.PureOps.Ideal
import Idealize.ShloMosaic.PureOps.Ideal.Laws
import Mathlib.Algebra.BigOperators.Fin
import Mathlib.Data.EReal.Inv

noncomputable section

open scoped BigOperators

namespace Cert.ReferenceIdeal.HandConv

open Idealize.ShloMosaic Idealize.ShloMosaic.ValueIdx
open Cert.ReferenceIdeal Cert.Gcn.WordArith Cert.ReferenceIdeal.HandNorm
open Cert.Gcn.ConvAux (sum_fin_split concat1_left concat1_right bcast_scalar_apply bcast_col_apply bcast_cols_apply bcast_row_apply bcast_rows_apply div_one_sqrt)
open Cert.Gcn.IndexMaps (hostScatterAdd1_apply hostScatterAdd2_apply gather1_ix_apply gather2_ix_apply)

variable [Facts]
open Facts₀ Facts

/-! ## The inverse square root of the degree -/

section Closed2
variable (rowI colI : IVec S4194304 32) (ew : FVec Ideal S4194304 .f32) (adj : S2048x2048.Idx → EReal)
  (H1 : ∀ k : S4194304.Idx, (rowI k).toNat < 2048 ∧ (colI k).toNat < 2048)
  (H2 : ∀ g : Fin 2048 → Fin 2048 → EReal,
    ∑ k : Fin 4194304, ew (ix1 k) * g ⟨(rowI (ix1 k)).toNat, (H1 (ix1 k)).1⟩ ⟨(colI (ix1 k)).toNat, (H1 (ix1 k)).2⟩
      = ∑ r : Fin 2048, ∑ c : Fin 2048, adj (ix2 r c) * g r c)

omit [Facts] in
/-- For an extended real d, the stage's recipe 1 / sqrt (d if d > 0 else 1) where d > 0, else 0, is the
    specification's d ^ (-1/2) where d > 0, else 0. -/
theorem dis_recipe (d : EReal) :
    Scalar.select (Ideal.cmp .ogt d 0) (Ideal.div 1 (Ideal.sqrt (Scalar.select (Ideal.cmp .ogt d 0) d 1))) 0
      = Scalar.select (Ideal.cmp .ogt d 0) (Ideal.rsqrt d) 0 := by
  by_cases hlt : (0 : EReal) < d
  · rw [cmp_ogt_of_lt hlt, select_one, select_one, select_one]
    exact div_one_sqrt _ hlt
  · rw [cmp_ogt_of_not_lt hlt, select_zero, select_zero]

include H2

/-- The stage's 1 / sqrt of the safe degree is the specification's inverse square root of the degree. -/
theorem disRef_apply (c : Fin 2048) :
    disRef colI ew (ix1 c) = Cert.Gcn.dis (fun r c' => adj (ix2 r c')) c := by
  unfold disRef where4
  rw [select_apply, cmpf_ideal, hostDivf_apply, hostSqrt_ideal, select_apply, cmpf_ideal, zeros1_apply, id_eq, id_eq]
  rw [bcast_scalar_apply, bcast_scalar_apply, constant_apply, constant_apply, Ideal.ofBits_one_f32,
    Ideal.ofBits_zero_f32]
  rw [degRef_apply rowI colI ew adj H1 H2 c, dis_recipe]
  unfold Cert.Gcn.dis
  rw [wZero_eq]

end Closed2

/-! ## The closed form -/

/-- The stage computes the specification's convolution of the adjacency the edge list enumerates. -/
theorem convRef_eq (rowI colI : (⟨S4194304, .i32⟩ : BufTy).Contents (Elt Ideal))
    (ew : (⟨S4194304, .f32⟩ : BufTy).Contents (Elt Ideal))
    (h : (⟨S2048x32, .f32⟩ : BufTy).Contents (Elt Ideal)) (b : (⟨S32, .f32⟩ : BufTy).Contents (Elt Ideal))
    (adj : S2048x2048.Idx → EReal)
    (H1 : ∀ k : S4194304.Idx, (rowI k).toNat < 2048 ∧ (colI k).toNat < 2048)
    (H2 : ∀ g : Fin 2048 → Fin 2048 → EReal,
      ∑ k : Fin 4194304, ew (ix1 k) * g ⟨(rowI (ix1 k)).toNat, (H1 (ix1 k)).1⟩ ⟨(colI (ix1 k)).toNat, (H1 (ix1 k)).2⟩
        = ∑ r : Fin 2048, ∑ c : Fin 2048, adj (ix2 r c) * g r c)
    (Hadj : ∀ i, adj i ≠ ⊥ ∧ adj i ≠ ⊤) (Hh : ∀ i, h i ≠ ⊥ ∧ h i ≠ ⊤) :
    convRef rowI colI ew h b
      = fun i => Cert.Gcn.conv (fun r c => adj (ix2 r c)) (fun r f => h (ix2 r f)) (fun f => b (ix1 f)) (i 0) (i 1) := by
  funext i
  obtain ⟨c, f, rfl⟩ : ∃ (c : Fin 2048) (f : Fin 32), i = ix2 c f := ⟨i 0, i 1, eq_ix2 i⟩
  show _ = Cert.Gcn.conv (fun r c => adj (ix2 r c)) (fun r f => h (ix2 r f)) (fun f => b (ix1 f)) c f
  unfold convRef
  rw [addf_apply, bcast_rows_apply, bcast_row_apply]
  rw [aggRef_apply rowI colI ew h adj H1 H2 (Cert.Gcn.dis (fun r c => adj (ix2 r c)))
    (fun c => disRef_apply rowI colI ew adj H1 H2 c) c f]
  rw [Cert.Gcn.ConvAux.conv_algebra_v1 (fun r c => adj (ix2 r c)) (fun r => h (ix2 r f))
    (Cert.Gcn.dis (fun r c => adj (ix2 r c))) c (fun r c => Hadj (ix2 r c)) (fun r => Hh (ix2 r f))
    (fun r => isR_dis (fun r c => Hadj (ix2 r c)) r)]
  unfold Cert.Gcn.conv
  rfl

end Cert.ReferenceIdeal.HandConv

end
-- ==== Proof.LibEnum.lean ====
/-
  The k-th marked position by counting.

  Let `mask` be a decidable property of the positions `0, 1, …, N - 1` of a flat array.  Write
    cs p   = the number of marked positions `q ≤ p`                 (the inclusive prefix count),
    cnt    = the number of marked positions below `N`,
    fi k   = the number of positions `p < N` with `cs p ≤ k`.
  The prefix count is monotone and climbs in steps of 0 or 1, one step at every marked position.
  Hence `{p < N | cs p ≤ k}` is an initial segment `[0, q)` of the positions, and its length `q = fi k`
  is the first position at which the prefix count exceeds `k`: for `k < cnt` this is the `(k+1)`-th
  marked position.  So `k ↦ fi k` enumerates the marked positions below `N` in increasing order, without
  repetition and without omission; the inverse map sends a marked position to the number of marked
  positions strictly below it.  A sum over the marked positions is therefore the sum over `k < cnt` of the
  summand at `fi k`.

  `fi k` is also obtained bucket-wise: sort the positions into buckets by the value `v` of their prefix
  count; the buckets `v = 0, …, k` together hold exactly the positions with `cs p ≤ k`.
-/
import Mathlib.Data.Nat.Count
import Mathlib.Algebra.BigOperators.Group.Finset.Basic

noncomputable section

namespace Cert.Gcn.Enum

variable (N : ℕ) (mask : ℕ → Prop) [DecidablePred mask]

/-- Inclusive prefix count: the number of marked positions `q ≤ p`. -/
def cs (p : ℕ) : ℕ := ((Finset.range (p + 1)).filter mask).card

/-- The number of marked positions below `N`. -/
def cnt : ℕ := ((Finset.range N).filter mask).card

/-- The number of positions `p < N` whose inclusive prefix count is at most `k`. -/
def fi (k : ℕ) : ℕ := ((Finset.range N).filter (fun p => cs mask p ≤ k)).card

/-- The inclusive prefix count at `p` is the count of marked positions below `p + 1`. -/
theorem cs_eq_count (p : ℕ) : cs mask p = Nat.count mask (p + 1) := by
  rw [cs, Nat.count_eq_card_filter_range]

/-- The total count is the count of marked positions below `N`. -/
theorem cnt_eq_count : cnt N mask = Nat.count mask N := by
  rw [cnt, Nat.count_eq_card_filter_range]

/-- The prefix count is monotone. -/
theorem cs_mono {p q : ℕ} (h : p ≤ q) : cs mask p ≤ cs mask q := by
  rw [cs_eq_count, cs_eq_count]
  exact Nat.count_monotone mask (Nat.succ_le_succ h)

/-- The positions with prefix count at most `k` form the initial segment `[0, fi k)`: since the prefix
count is monotone, the set is closed downwards, so it contains `[0, p]` as soon as it contains `p`, and it
is contained in `[0, p)` as soon as it misses `p`; compare cardinalities. -/
theorem lt_fi_iff (k p : ℕ) : p < fi N mask k ↔ p < N ∧ cs mask p ≤ k := by
  constructor
  · intro h
    by_contra hn
    have hsub : (Finset.range N).filter (fun q => cs mask q ≤ k) ⊆ Finset.range p := by
      intro q hq
      rw [Finset.mem_filter, Finset.mem_range] at hq
      rw [Finset.mem_range]
      by_contra hpq
      exact hn ⟨lt_of_le_of_lt (Nat.le_of_not_lt hpq) hq.1,
        le_trans (cs_mono mask (Nat.le_of_not_lt hpq)) hq.2⟩
    have hc := Finset.card_le_card hsub
    rw [Finset.card_range] at hc
    unfold fi at h
    omega
  · rintro ⟨hN, hk⟩
    have hsub : Finset.range (p + 1) ⊆ (Finset.range N).filter (fun q => cs mask q ≤ k) := by
      intro q hq
      rw [Finset.mem_range] at hq
      rw [Finset.mem_filter, Finset.mem_range]
      exact ⟨by omega, le_trans (cs_mono mask (by omega)) hk⟩
    have hc := Finset.card_le_card hsub
    rw [Finset.card_range] at hc
    unfold fi
    omega

/-- `fi k` counts some of the positions below `N`, so it is at most `N`. -/
theorem fi_le (k : ℕ) : fi N mask k ≤ N := by
  unfold fi
  calc ((Finset.range N).filter (fun p => cs mask p ≤ k)).card
      ≤ (Finset.range N).card := Finset.card_filter_le _ _
    _ = N := Finset.card_range N

/-- For `k < cnt` the position `fi k` lies below `N`: otherwise every position, the last one included,
would have prefix count at most `k`, but the prefix count of the last position is `cnt`. -/
theorem fi_lt {k : ℕ} (hk : k < cnt N mask) : fi N mask k < N := by
  rcases Nat.lt_or_ge (fi N mask k) N with h | h
  · exact h
  · exfalso
    have hN : fi N mask k = N := le_antisymm (fi_le N mask k) h
    rw [cnt_eq_count] at hk
    rcases Nat.eq_zero_or_pos N with h0 | hpos
    · rw [h0, Nat.count_zero] at hk
      exact Nat.not_lt_zero _ hk
    · have h1 : N - 1 < fi N mask k := by omega
      rw [lt_fi_iff, cs_eq_count] at h1
      have h2 : N - 1 + 1 = N := by omega
      rw [h2] at h1
      omega

/-- For `k < cnt`, exactly `k` marked positions lie strictly below `fi k`, and `fi k` itself is marked:
the prefix count is at most `k` just before `fi k` and exceeds `k` at `fi k`, and it climbs by at most one
per position, and only at marked positions. -/
theorem count_fi {k : ℕ} (hk : k < cnt N mask) :
    Nat.count mask (fi N mask k) = k ∧ mask (fi N mask k) := by
  have hlt := fi_lt N mask hk
  have h1 : k < Nat.count mask (fi N mask k + 1) := by
    by_contra hc
    have hself : fi N mask k < fi N mask k :=
      (lt_fi_iff N mask k _).2 ⟨hlt, by rw [cs_eq_count]; exact Nat.le_of_not_lt hc⟩
    exact lt_irrefl _ hself
  have h2 : Nat.count mask (fi N mask k) ≤ k := by
    rcases Nat.eq_zero_or_pos (fi N mask k) with h0 | hpos
    · rw [h0, Nat.count_zero]
      exact Nat.zero_le _
    · have hpred : fi N mask k - 1 < fi N mask k := by omega
      have h3 := ((lt_fi_iff N mask k _).1 hpred).2
      rw [cs_eq_count] at h3
      have e : fi N mask k - 1 + 1 = fi N mask k := by omega
      rw [e] at h3
      exact h3
  rw [Nat.count_succ] at h1
  by_cases hm : mask (fi N mask k)
  · rw [if_pos hm] at h1
    exact ⟨by omega, hm⟩
  · rw [if_neg hm] at h1
    omega

/-- For `k < cnt` the position `fi k` is marked. -/
theorem fi_mask {k : ℕ} (hk : k < cnt N mask) : mask (fi N mask k) :=
  (count_fi N mask hk).2

/-- `k ↦ fi k` is strictly increasing on `k < cnt`: more marked positions lie below `fi k` than below
`fi j` when `j < k`. -/
theorem fi_strictMono {j k : ℕ} (hjk : j < k) (hk : k < cnt N mask) : fi N mask j < fi N mask k := by
  apply Nat.lt_of_count_lt_count (p := mask)
  rw [(count_fi N mask hk).1, (count_fi N mask (lt_trans hjk hk)).1]
  exact hjk

/-- Every marked position `p < N` is `fi k` for `k` the number of marked positions strictly below `p`:
both `p` and `fi k` are marked and have `k` marked positions below them, and two marked positions with
the same number of marked positions below them coincide. -/
theorem fi_count {p : ℕ} (hp : p < N) (hm : mask p) :
    Nat.count mask p < cnt N mask ∧ fi N mask (Nat.count mask p) = p := by
  have hk : Nat.count mask p < cnt N mask := by
    rw [cnt_eq_count]
    exact Nat.count_strict_mono hm hp
  exact ⟨hk, Nat.count_injective (fi_mask N mask hk) hm (count_fi N mask hk).1⟩

/-- Every marked position below `N` is enumerated. -/
theorem fi_surj {p : ℕ} (hp : p < N) (hm : mask p) : ∃ k, k < cnt N mask ∧ fi N mask k = p :=
  ⟨Nat.count mask p, fi_count N mask hp hm⟩

/-- A sum over the marked positions below `N` is the sum over `k < cnt` of the summand at `fi k`:
`k ↦ fi k` is a bijection from `[0, cnt)` onto the marked positions, with inverse "number of marked
positions strictly below". -/
theorem sum_fi {M : Type*} [AddCommMonoid M] (Φ : ℕ → M) :
    ∑ k ∈ Finset.range (cnt N mask), Φ (fi N mask k) = ∑ p ∈ (Finset.range N).filter mask, Φ p := by
  refine Finset.sum_nbij' (fun k => fi N mask k) (fun p => Nat.count mask p) ?_ ?_ ?_ ?_ ?_
  · intro k hk
    rw [Finset.mem_range] at hk
    rw [Finset.mem_filter, Finset.mem_range]
    exact ⟨fi_lt N mask hk, fi_mask N mask hk⟩
  · intro p hp
    rw [Finset.mem_filter, Finset.mem_range] at hp
    rw [Finset.mem_range]
    exact (fi_count N mask hp.1 hp.2).1
  · intro k hk
    rw [Finset.mem_range] at hk
    exact (count_fi N mask hk).1
  · intro p hp
    rw [Finset.mem_filter, Finset.mem_range] at hp
    exact (fi_count N mask hp.1 hp.2).2
  · intro k _
    rfl

/-- The bucket form: the number of positions whose prefix count is exactly `v`, summed over `v ≤ k`, is
`fi k`; the positions with prefix count at most `k` are sorted by the value of their prefix count. -/
theorem sum_bucket (k : ℕ) :
    ∑ v ∈ Finset.range (k + 1), ((Finset.range N).filter (fun p => cs mask p = v)).card
      = fi N mask k := by
  unfold fi
  rw [Finset.card_eq_sum_card_fiberwise (f := fun p => cs mask p) (t := Finset.range (k + 1))]
  · refine Finset.sum_congr rfl ?_
    intro v hv
    rw [Finset.mem_range] at hv
    congr 1
    ext p
    simp only [Finset.mem_filter, Finset.mem_range]
    constructor
    · rintro ⟨hp, hv'⟩
      exact ⟨⟨hp, by omega⟩, hv'⟩
    · rintro ⟨⟨hp, _⟩, hv'⟩
      exact ⟨hp, hv'⟩
  · intro p hp
    have hp' := Finset.mem_filter.1 (Finset.mem_coe.1 hp)
    refine Finset.mem_coe.2 (Finset.mem_range.2 ?_)
    have h3 : cs mask p ≤ k := hp'.2
    show cs mask p < k + 1
    omega

end Cert.Gcn.Enum
-- ==== Proof.LibIntOps.lean ====
/-
  Integer host operations as finite sums.

  (a) A left fold of the step "add g n to the accumulator" over the positions 0, …, N-1 in order, started at a,
      is a plus the sum of g over all positions, in any commutative monoid: addition is associative and
      commutative, so the order of the fold does not matter.

  (b) Integer scatter-add.  The scatter visits the update indices in row-major order; at an update index j
      whose result index is i₀ it replaces the element at i₀ by that element plus the update's element, and
      it skips an update whose result index falls outside the operand.  Read at one result index i, every
      step adds either the update's element (when the step's result index is i) or nothing.  Hence the
      scattered array at i is the operand at i plus the sum of the update elements whose result index is
      i.  Row-major numbering is a bijection between positions and update indices, so the sum over positions
      is a sum over update indices.

  (c) Cumulative sum as a windowed sum.  A window of N positions slides over a length-N vector padded by
      N - 1 zeros on the low side, with stride one; the result at j adds, for each window position p, the
      padded vector's element at j + p, which is the vector's element at j + p - (N-1) when
      j + p ≥ N - 1 and zero otherwise.  The map p ↦ j + p - (N-1) is a bijection from the positions
      p ≥ N - 1 - j onto the vector indices q ≤ j, so the result at j is the sum of the vector's elements
      at the indices q ≤ j.

  (d) Words and naturals.  The natural number of a sum of words is the sum of their natural numbers
      modulo 2^w; when the sum of all the naturals is below 2^32 no partial sum wraps, so the cumulative
      sum read as a natural is the cumulative sum of the naturals.
-/
import Idealize.ShloMosaic.Lib.ValueIdx
import Idealize.ShloMosaic.PureOps.Contract
import Idealize.ShloMosaic.PureOps.ShapeOps
import Mathlib.Data.BitVec
import Mathlib.Algebra.BigOperators.Fin
import Mathlib.Algebra.BigOperators.Group.Finset.Basic

noncomputable section

open scoped BigOperators

namespace Cert.Gcn.IntOps

open Idealize.ShloMosaic Idealize.ShloMosaic.ValueIdx

/-- (a) A left fold of additions over all positions in order is the start plus the sum over the positions. -/
theorem foldl_finRange_add {M : Type} [AddCommMonoid M] (N : Nat) (g : Fin N → M) (a : M) :
    List.foldl (fun r n => r + g n) a (List.finRange N) = a + ∑ n : Fin N, g n := by
  rw [Fin.sum_univ_def]
  generalize List.finRange N = l
  induction l generalizing a with
  | nil => simp
  | cons n l ih => rw [List.foldl_cons, ih, List.map_cons, List.sum_cons, add_assoc]

/-- (b), one result index along any list of positions: each step adds the update's element when the step's
    result index is the index read, and nothing otherwise. -/
private theorem scatter_fold_apply {s si u : Shape} {w w' : Nat} [DecidableEq s.Idx] (d : ScatterDims s si u)
    (idx : IVec si w') (upd : u.Idx → BitVec w) (i : s.Idx)
    [DecidablePred fun j : u.Idx => d.resultIdx? j idx = some i] (l : List (Fin u.numel)) :
    ∀ r : s.Idx → BitVec w,
      (l.foldl (fun r n =>
        match d.resultIdx? (u.rowMajor.symm n) idx with
        | some i => fun i' => if i' = i then IntOp.addi (r i) (upd (u.rowMajor.symm n)) else r i'
        | none => r) r) i
      = r i + (l.map fun n => if d.resultIdx? (u.rowMajor.symm n) idx = some i
                                then upd (u.rowMajor.symm n) else 0).sum := by
  induction l with
  | nil => intro r; simp
  | cons n l ih =>
    intro r
    rw [List.foldl_cons, ih, List.map_cons, List.sum_cons, ← add_assoc]
    congr 1
    by_cases hc : d.resultIdx? (u.rowMajor.symm n) idx = some i
    · rw [if_pos hc, hc]
      simp [IntOp.addi]
    · rw [if_neg hc, add_zero]
      cases hres : d.resultIdx? (u.rowMajor.symm n) idx with
      | none => rfl
      | some i0 =>
        have hi : i ≠ i0 := fun e => hc (by rw [hres, e])
        simp [hi]

/-- (b) Integer scatter-add at a result index: the operand's element plus the sum of the update elements whose
    result index it is. -/
theorem scatter_addi_apply {s si u : Shape} {w w' : Nat} (d : ScatterDims s si u) (x : s.Idx → BitVec w)
    (idx : IVec si w') (upd : u.Idx → BitVec w) (i : s.Idx)
    [DecidablePred fun j : u.Idx => d.resultIdx? j idx = some i] :
    Host.scatter d IntOp.addi x idx upd i
      = x i + ∑ j ∈ Finset.univ.filter (fun j : u.Idx => d.resultIdx? j idx = some i), upd j := by
  unfold Host.scatter
  refine (scatter_fold_apply d idx upd i (List.finRange u.numel) x).trans ?_
  rw [← Fin.sum_univ_def, Finset.sum_filter]
  congr 1
  exact Equiv.sum_comp u.rowMajor.symm (fun j => if d.resultIdx? j idx = some i then upd j else 0)

/-- (d) The natural number of a sum of words is the sum of the natural numbers modulo 2^w. -/
theorem toNat_sum {w : Nat} {ι : Type} (S : Finset ι) (f : ι → BitVec w) :
    (∑ q ∈ S, f q).toNat = (∑ q ∈ S, (f q).toNat) % 2 ^ w := by
  classical
  induction S using Finset.induction_on with
  | empty => simp
  | insert a S ha ih =>
    rw [Finset.sum_insert ha, Finset.sum_insert ha, BitVec.toNat_add, ih, Nat.add_mod_mod]

/-- (b), (d) When the operand's element and the updates landing on it add up to less than 2^w as natural
    numbers, the scattered element read as a natural number is that sum. -/
theorem scatter_addi_toNat {s si u : Shape} {w w' : Nat} (d : ScatterDims s si u) (x : s.Idx → BitVec w)
    (idx : IVec si w') (upd : u.Idx → BitVec w) (i : s.Idx)
    [DecidablePred fun j : u.Idx => d.resultIdx? j idx = some i]
    (hlt : (x i).toNat
      + ∑ j ∈ Finset.univ.filter (fun j : u.Idx => d.resultIdx? j idx = some i), (upd j).toNat < 2 ^ w) :
    (Host.scatter d IntOp.addi x idx upd i).toNat
      = (x i).toNat
        + ∑ j ∈ Finset.univ.filter (fun j : u.Idx => d.resultIdx? j idx = some i), (upd j).toNat := by
  rw [scatter_addi_apply, BitVec.toNat_add, toNat_sum, Nat.add_mod_mod, Nat.mod_eq_of_lt hlt]

/-- A rank-one index is its one coordinate. -/
def idx1Equiv (n : Nat) : (⟨1, ![n]⟩ : Shape).Idx ≃ Fin n where
  toFun i := i 0
  invFun a := ix1 a
  left_inv i := (eq_ix1 i).symm
  right_inv _ := rfl

/-- (c) The cumulative sum, written as a windowed sum of N positions over the vector padded low by L = N - 1
    zeros, is at j the sum of the vector's elements at the indices up to j. -/
theorem cumsum_apply (N L : Nat) (hL : L + 1 = N) (x : (⟨1, ![N]⟩ : Shape).Idx → BitVec 32)
    (init : (⟨0, ![]⟩ : Shape).Idx → BitVec 32) (h0 : ∀ k, init k = 0#32)
    (h : (⟨1, ![N]⟩ : Shape).ReduceWindows (![N] : Fin 1 → Nat) ![1] ![L] ![0] ⟨1, ![N]⟩)
    (hu : 0 < (⟨0, ![]⟩ : Shape).numel) (j : (⟨1, ![N]⟩ : Shape).Idx) :
    Host.reduceWindow IntOp.addi (![N] : Fin 1 → Nat) ![1] ![L] ![0] x init h hu j
      = ∑ q ∈ Finset.univ.filter (fun q : Fin N => q.val ≤ (j 0).val), x (ix1 q) := by
  subst hL
  have hj : (j 0).val < L + 1 := (j 0).isLt
  -- the vector as a function of a natural position, zero outside
  let X : Nat → BitVec 32 := fun k => if hk : k < L + 1 then x (ix1 ⟨k, hk⟩) else 0
  -- the padded vector's element under window position i of the window at j
  let H : (⟨1, ![L + 1]⟩ : Shape).Idx → BitVec 32 := fun i =>
    if L ≤ (j 0).val + (i 0).val then X ((j 0).val + (i 0).val - L) else 0
  unfold Host.reduceWindow
  dsimp only
  rw [h0 (Shape.Idx.first hu)]
  simp only [IntOp.addi]
  rw [foldl_finRange_add, BitVec.zero_add]
  calc _ = ∑ n : Fin (Shape.numel ⟨1, ![L + 1]⟩), H ((Shape.rowMajor ⟨1, ![L + 1]⟩).symm n) :=
        Finset.sum_congr rfl (fun n _ => ?_)
    _ = ∑ i : (⟨1, ![L + 1]⟩ : Shape).Idx, H i := Equiv.sum_comp _ H
    _ = ∑ p : Fin (L + 1), H (ix1 p) := (Equiv.sum_comp (idx1Equiv (L + 1)).symm H).symm
    _ = ∑ q ∈ Finset.univ.filter (fun q : Fin (L + 1) => q.val ≤ (j 0).val), x (ix1 q) := ?_
  · -- one window position: inside the vector exactly when L ≤ j + p
    have hi : ((Shape.rowMajor ⟨1, ![L + 1]⟩).symm n 0).val < L + 1 := ((Shape.rowMajor ⟨1, ![L + 1]⟩).symm n 0).isLt
    show _ = (if L ≤ (j 0).val + ((Shape.rowMajor ⟨1, ![L + 1]⟩).symm n 0).val then X ((j 0).val + ((Shape.rowMajor ⟨1, ![L + 1]⟩).symm n 0).val - L) else 0)
    split_ifs with hin hc hc
    · show _ = (if hk : (j 0).val + ((Shape.rowMajor ⟨1, ![L + 1]⟩).symm n 0).val - L < L + 1 then x (ix1 ⟨_, hk⟩) else 0)
      rw [dif_pos (by omega)]
      congr 1
      funext a
      match a with
      | ⟨0, _⟩ => exact Fin.ext (by show (j 0).val * 1 + ((Shape.rowMajor ⟨1, ![L + 1]⟩).symm n 0).val - L = (j 0).val + ((Shape.rowMajor ⟨1, ![L + 1]⟩).symm n 0).val - L; omega)
    · exfalso
      have h1 := (hin 0).1
      change L ≤ (j 0).val * 1 + ((Shape.rowMajor ⟨1, ![L + 1]⟩).symm n 0).val at h1
      omega
    · exfalso
      apply hin
      rw [Fin.forall_fin_one]
      show L ≤ (j 0).val * 1 + ((Shape.rowMajor ⟨1, ![L + 1]⟩).symm n 0).val ∧ (j 0).val * 1 + ((Shape.rowMajor ⟨1, ![L + 1]⟩).symm n 0).val - L < L + 1
      omega
    · rfl
  · -- the positions p with L ≤ j + p correspond to the indices q = j + p - L ≤ j
    show ∑ p : Fin (L + 1), (if L ≤ (j 0).val + p.val then X ((j 0).val + p.val - L) else 0) = _
    rw [← Finset.sum_filter]
    refine Finset.sum_bij
      (fun p _ => (⟨(j 0).val + p.val - L, by have := p.isLt; omega⟩ : Fin (L + 1))) ?_ ?_ ?_ ?_
    · intro p hp
      rw [Finset.mem_filter] at hp ⊢
      exact ⟨Finset.mem_univ _, by show (j 0).val + p.val - L ≤ (j 0).val; have := p.isLt; omega⟩
    · intro p hp p' hp' e
      rw [Finset.mem_filter] at hp hp'
      have e' : (j 0).val + p.val - L = (j 0).val + p'.val - L := congrArg Fin.val e
      exact Fin.ext (by omega)
    · intro q hq
      rw [Finset.mem_filter] at hq
      have hq' := q.isLt
      refine ⟨⟨q.val + L - (j 0).val, by omega⟩, ?_, ?_⟩
      · rw [Finset.mem_filter]
        exact ⟨Finset.mem_univ _, by show L ≤ (j 0).val + (q.val + L - (j 0).val); omega⟩
      · exact Fin.ext (by show (j 0).val + (q.val + L - (j 0).val) - L = q.val; omega)
    · intro p hp
      have hp' := p.isLt
      show (if hk : (j 0).val + p.val - L < L + 1 then x (ix1 ⟨_, hk⟩) else 0) = _
      rw [dif_pos (by omega)]

/-- (c), (d) When the sum of all the elements' natural numbers is below 2^32, the cumulative sum read as a
    natural number is the cumulative sum of the natural numbers. -/
theorem cumsum_toNat (N L : Nat) (hL : L + 1 = N) (x : (⟨1, ![N]⟩ : Shape).Idx → BitVec 32)
    (init : (⟨0, ![]⟩ : Shape).Idx → BitVec 32) (h0 : ∀ k, init k = 0#32)
    (h : (⟨1, ![N]⟩ : Shape).ReduceWindows (![N] : Fin 1 → Nat) ![1] ![L] ![0] ⟨1, ![N]⟩)
    (hu : 0 < (⟨0, ![]⟩ : Shape).numel) (j : (⟨1, ![N]⟩ : Shape).Idx)
    (hsum : ∑ q : Fin N, (x (ix1 q)).toNat < 2 ^ 32) :
    (Host.reduceWindow IntOp.addi (![N] : Fin 1 → Nat) ![1] ![L] ![0] x init h hu j).toNat
      = ∑ q ∈ Finset.univ.filter (fun q : Fin N => q.val ≤ (j 0).val), (x (ix1 q)).toNat := by
  rw [cumsum_apply N L hL x init h0 h hu j, toNat_sum]
  refine Nat.mod_eq_of_lt (lt_of_le_of_lt ?_ hsum)
  exact Finset.sum_le_sum_of_subset (Finset.filter_subset _ _)

/-- The windowed sum at the length 4194304, padded low by 4194303: an instance of (c). -/
example (x : (⟨1, ![4194304]⟩ : Shape).Idx → BitVec 32) (v : (⟨0, ![]⟩ : Shape).Idx → BitVec 32)
    (h0 : ∀ k, v k = 0#32)
    (h : (⟨1, ![4194304]⟩ : Shape).ReduceWindows (![4194304] : Fin 1 → Nat) ![1] ![4194303] ![0] ⟨1, ![4194304]⟩)
    (hu : 0 < (⟨0, ![]⟩ : Shape).numel) (j : (⟨1, ![4194304]⟩ : Shape).Idx) :
    Host.reduceWindow IntOp.addi ![4194304] ![1] ![4194303] ![0] x v h hu j
      = ∑ q ∈ Finset.univ.filter (fun q : Fin 4194304 => q.val ≤ (j 0).val), x (ix1 q) :=
  cumsum_apply 4194304 4194303 rfl x v h0 h hu j

end Cert.Gcn.IntOps
-- ==== Proof.RefEdgesCount.lean ====
/-
  The counting buffers of the reference's edge list, read as natural numbers.

  Flat position p of the 2048 x 2048 adjacency (row p / 2048, column p % 2048) is marked when the
  adjacency there is not zero.  With N = 4194304 positions:
    the mask word at p is 1 where p is marked and 0 elsewhere;
    the first running sum at j is cs j, the number of marked positions q <= j; it stays below 2^31, so
      clipping it at zero and moving negative values up by N change nothing;
    the scatter-add of ones at the index cs p puts into bucket v the number of positions with cs p = v
      (an update lands on v exactly when its index word, read as a signed number, is v; the value N names
      no bucket and is dropped);
    the second running sum at k is the sum of the buckets v <= k, which is the number fi k of positions
      with cs p <= k, at most N.
  No word overflows: every sum of words here is a sum of at most N ones.
-/
import proofs.«121040_g28046136442917_fold_wed_c4_759_6_alg».proof.ReferenceIdeal
import proofs.«121040_g28046136442917_fold_wed_c4_759_6_alg».proof.Proof.RefEdgesDefs
import proofs.«121040_g28046136442917_fold_wed_c4_759_6_alg».proof.Proof.LibEnum
import proofs.«121040_g28046136442917_fold_wed_c4_759_6_alg».proof.Proof.LibWordArith
import proofs.«121040_g28046136442917_fold_wed_c4_759_6_alg».proof.Proof.LibIntOps
import proofs.«121040_g28046136442917_fold_wed_c4_759_6_alg».proof.Proof.LibIndexMaps
import Idealize.ShloMosaic.Lib.ValueIdx
import Idealize.ShloMosaic.Lib.IdealHost
import Idealize.ShloMosaic.Lib.Pipeline.Value
import Idealize.ShloMosaic.PureOps.Ideal
import Idealize.ShloMosaic.PureOps.Ideal.Laws
import Mathlib.Algebra.BigOperators.Fin
import Mathlib.Algebra.BigOperators.Group.Finset.Basic

noncomputable section

namespace Cert.ReferenceIdeal.HandNz

open Idealize.ShloMosaic Idealize.ShloMosaic.ValueIdx
open Facts₀
open Cert.Gcn

variable [Facts₀]

/-! ### Counting over `Fin N` and over `range N` -/

/-- The number of `p : Fin N` with a property of the value is the number of `p < N` with it. -/
theorem card_fin_filter (N : ℕ) (Q : ℕ → Prop) [DecidablePred Q] :
    (Finset.univ.filter (fun p : Fin N => Q p.val)).card = ((Finset.range N).filter Q).card := by
  rw [Finset.card_filter, Finset.card_filter, Finset.sum_range]

/-- A sum over the `q : Fin N` with `q ≤ j` is the sum over `range (j + 1)`, when `j < N`. -/
theorem sum_fin_le {M : Type} [AddCommMonoid M] (N j : ℕ) (hj : j < N) (f : ℕ → M) :
    ∑ q ∈ Finset.univ.filter (fun q : Fin N => q.val ≤ j), f q.val = ∑ i ∈ Finset.range (j + 1), f i := by
  rw [Finset.sum_filter, ← Finset.sum_range (fun i => if i ≤ j then f i else 0), ← Finset.sum_filter]
  refine Finset.sum_congr ?_ (fun _ _ => rfl)
  ext i
  simp only [Finset.mem_filter, Finset.mem_range]
  omega

/-! ### The mask -/

/-- Flat position `p` is marked when the adjacency at row `p / 2048`, column `p % 2048` is not zero. -/
def mk (adj : Adj) (p : ℕ) : Prop :=
  adj (ix2 (⟨p / 2048 % 2048, Nat.mod_lt _ (by norm_num)⟩ : Fin 2048)
    (⟨p % 2048, Nat.mod_lt _ (by norm_num)⟩ : Fin 2048)) ≠ 0

instance mkDec (adj : Adj) : DecidablePred (mk adj) := fun _ => Classical.dec _

/-- The mask word at a (row, column) is one exactly where the adjacency is not zero. -/
theorem maskB_apply (adj : Adj) (j : S2048x2048.Idx) :
    maskB adj j = if adj j ≠ 0 then 1#1 else 0#1 := by
  show Ideal.cmp .une (adj j) (Ideal.ofBits .f32 0x00000000#32) = _
  rw [Ideal.ofBits_zero_f32]
  unfold Ideal.cmp
  by_cases h : adj j ≠ 0
  · rw [if_pos h]; simp [h]
  · rw [if_neg h]; simp [h]

/-- The flat mask word at position `q` is one where `q` is marked and zero elsewhere. -/
theorem maskW_apply (adj : Adj) (q : Fin 4194304) :
    maskW adj (ix1 q) = if mk adj q.val then 1#32 else 0#32 := by
  have hq := q.isLt
  have hr : q.val / 2048 % 2048 < 2048 := Nat.mod_lt _ (by norm_num)
  have hc : q.val % 2048 < 2048 := Nat.mod_lt _ (by norm_num)
  have hsc : shapeCast S4194304 (maskB adj) shapeCasts_S2048x2048_S4194304 (ix1 q)
      = maskB adj (ix2 (⟨q.val / 2048 % 2048, hr⟩ : Fin 2048) (⟨q.val % 2048, hc⟩ : Fin 2048)) := by
    apply shapeCast_apply
    rw [Shape.rowMajor_val_two, Shape.rowMajor_val_one]
    show q.val / 2048 % 2048 * 2048 + q.val % 2048 = q.val
    omega
  show (shapeCast S4194304 (maskB adj) shapeCasts_S2048x2048_S4194304 (ix1 q)).setWidth 32 = _
  rw [hsc, maskB_apply]
  by_cases h : mk adj q.val
  · rw [if_pos h, if_pos (show adj _ ≠ 0 from h)]; rfl
  · rw [if_neg h, if_neg (show ¬ adj _ ≠ 0 from h)]; rfl

/-- The flat mask word as a number: one where marked, zero elsewhere. -/
theorem maskW_toNat (adj : Adj) (q : Fin 4194304) :
    (maskW adj (ix1 q)).toNat = if mk adj q.val then 1 else 0 := by
  rw [maskW_apply]
  split_ifs <;> rfl

end Cert.ReferenceIdeal.HandNz

namespace Cert.ReferenceIdeal.HandNz

open Idealize.ShloMosaic Idealize.ShloMosaic.ValueIdx
open Facts₀
open Cert.Gcn

variable [Facts₀]

/-! ### The running count -/

/-- The prefix count at `p` is at most `p + 1`. -/
theorem cs_le (mask : ℕ → Prop) [DecidablePred mask] (p : ℕ) : Enum.cs mask p ≤ p + 1 := by
  unfold Enum.cs
  calc ((Finset.range (p + 1)).filter mask).card ≤ (Finset.range (p + 1)).card := Finset.card_filter_le _ _
    _ = p + 1 := Finset.card_range _

/-- The number of marked positions is at most the number of positions. -/
theorem cnt_le (N : ℕ) (mask : ℕ → Prop) [DecidablePred mask] : Enum.cnt N mask ≤ N := by
  unfold Enum.cnt
  calc ((Finset.range N).filter mask).card ≤ (Finset.range N).card := Finset.card_filter_le _ _
    _ = N := Finset.card_range _

/-- The mask words add up to less than 2^32: there are 4194304 of them, each zero or one. -/
theorem maskW_sum_lt (adj : Adj) : ∑ q : Fin 4194304, (maskW adj (ix1 q)).toNat < 2 ^ 32 := by
  have h1 : ∑ q : Fin 4194304, (maskW adj (ix1 q)).toNat ≤ ∑ _q : Fin 4194304, 1 := by
    refine Finset.sum_le_sum (fun q _ => ?_)
    rw [maskW_toNat]
    split_ifs <;> omega
  have h2 : ∑ _q : Fin 4194304, 1 = 4194304 := by
    rw [Finset.sum_const, Finset.card_univ, Fintype.card_fin, smul_eq_mul, mul_one]
  omega

/-- The running sum of the mask at `j` is the number of marked positions `q ≤ j`. -/
theorem csB_toNat (adj : Adj) (j : Fin 4194304) :
    (csB adj (ix1 j)).toNat = Enum.cs (mk adj) j.val := by
  have h := IntOps.cumsum_toNat 4194304 4194303 rfl (maskW adj)
    (broadcastInDim S_ ![] bcast_S_S_ (constantI S_ 32 0#32)) (fun _ => rfl)
    reduceWindows_S4194304_S4194304_w4194304s1p4194303_0 h_S_ (ix1 j) (maskW_sum_lt adj)
  unfold csB cumsum0
  rw [h]
  simp only [maskW_toNat]
  show ∑ q ∈ Finset.univ.filter (fun q : Fin 4194304 => q.val ≤ j.val), (if mk adj q.val then 1 else 0) = _
  rw [sum_fin_le 4194304 j.val j.isLt (fun i => if mk adj i then 1 else 0), Enum.cs, Finset.card_filter]

/-- The running count is below 2^31. -/
theorem csB_small (adj : Adj) (i : S4194304.Idx) : (csB adj i).toNat < 2 ^ 31 := by
  obtain ⟨p, rfl⟩ : ∃ p : Fin 4194304, i = ix1 p := ⟨i 0, eq_ix1 i⟩
  rw [csB_toNat]
  have := cs_le (mk adj) p.val
  have := p.isLt
  omega

/-- Clipping the running count below at zero changes nothing: it is not negative. -/
theorem csClip_apply (adj : Adj) (i : S4194304.Idx) : csClip adj i = csB adj i := by
  have h := WordArith.maxsi_zero_small (csB_small adj i)
  unfold csClip clipLo maxsi
  rw [broadcastInDim_scalar_apply]
  exact h

/-- Moving negative indices up changes nothing either. -/
theorem csIdx_apply (adj : Adj) (i : S4194304.Idx) : csIdx adj i = csB adj i := by
  have h := WordArith.select_slt_zero_small 4194304#32 (csB_small adj i)
  unfold csIdx select cmpi addi
  rw [broadcastInDim_scalar_apply, broadcastInDim_scalar_apply, csClip_apply]
  exact h

/-! ### The bucket counts -/

/-- A flat array copied into a one-column matrix, read at (p, 0). -/
theorem bcastCol_apply {α : Type} (x : S4194304.Idx → α) (p : Fin 4194304) :
    broadcastInDim S4194304x1 ![0] bcast_S4194304_S4194304x1_0 x (ix2 p (0 : Fin 1)) = x (ix1 p) := by
  apply broadcastInDim_apply
  intro a
  have ha : a = 0 := Subsingleton.elim _ _
  subst ha
  rw [if_neg (by show ¬ (4194304 : ℕ) = 1; omega)]
  rfl

/-- Bucket `v` holds the number of positions whose running count is `v`. -/
theorem binB_toNat (adj : Adj) (v : Fin 4194304) :
    (binB adj (ix1 v)).toNat
      = ((Finset.range 4194304).filter (fun p => Enum.cs (mk adj) p = v.val)).card := by
  classical
  have hfilt : ∀ p : Fin 4194304,
      (scatter_S4194304_S4194304x1_S4194304_n_0_0_1.resultIdx? (ix1 p)
        (broadcastInDim S4194304x1 ![0] bcast_S4194304_S4194304x1_0 (csIdx adj)) = some (ix1 v))
        ↔ Enum.cs (mk adj) p.val = v.val := by
    intro p
    rw [IndexMaps.scatter1_resultIdx_ix_iff _ rfl rfl rfl rfl, bcastCol_apply, csIdx_apply,
      WordArith.toInt_of_small (csB_small adj _), csB_toNat]
    exact Int.natCast_inj
  have hcard : (Finset.univ.filter (fun j : S4194304.Idx =>
      scatter_S4194304_S4194304x1_S4194304_n_0_0_1.resultIdx? j
        (broadcastInDim S4194304x1 ![0] bcast_S4194304_S4194304x1_0 (csIdx adj)) = some (ix1 v))).card
      = ((Finset.range 4194304).filter (fun p => Enum.cs (mk adj) p = v.val)).card := by
    rw [← card_fin_filter 4194304 (fun p => Enum.cs (mk adj) p = v.val)]
    refine (Finset.card_equiv (IntOps.idx1Equiv 4194304).symm (fun p => ?_)).symm
    rw [Finset.mem_filter, Finset.mem_filter]
    exact and_congr (by simp) (hfilt p).symm
  have hsum : ∑ j ∈ Finset.univ.filter (fun j : S4194304.Idx =>
      scatter_S4194304_S4194304x1_S4194304_n_0_0_1.resultIdx? j
        (broadcastInDim S4194304x1 ![0] bcast_S4194304_S4194304x1_0 (csIdx adj)) = some (ix1 v)),
      ((broadcastInDim S4194304 ![] bcast_S_S4194304 (constantI S_ 32 1#32) : IVec S4194304 32) j).toNat
      = ((Finset.range 4194304).filter (fun p => Enum.cs (mk adj) p = v.val)).card := by
    rw [← hcard, Finset.card_eq_sum_ones]
    rfl
  have hle : ((Finset.range 4194304).filter (fun p => Enum.cs (mk adj) p = v.val)).card ≤ 4194304 := by
    calc _ ≤ (Finset.range 4194304).card := Finset.card_filter_le _ _
      _ = 4194304 := Finset.card_range _
  unfold binB
  rw [IntOps.scatter_addi_toNat _ _ _ _ _ (by
    rw [hsum]
    show 0 + _ < 2 ^ 32
    omega), hsum]
  show 0 + _ = _
  omega

/-! ### The second running sum -/

/-- The bucket counts add up to at most the number of positions. -/
theorem binB_sum_lt (adj : Adj) : ∑ q : Fin 4194304, (binB adj (ix1 q)).toNat < 2 ^ 32 := by
  simp only [binB_toNat]
  rw [← Finset.sum_range (fun v => ((Finset.range 4194304).filter (fun p => Enum.cs (mk adj) p = v)).card)]
  have h := Enum.sum_bucket 4194304 (mk adj) 4194303
  have h' := Enum.fi_le 4194304 (mk adj) 4194303
  rw [show 4194303 + 1 = 4194304 from rfl] at h
  omega

/-- The running sum of the bucket counts at `k` is the number of positions with running count `≤ k`. -/
theorem fiB_toNat (adj : Adj) (k : Fin 4194304) :
    (fiB adj (ix1 k)).toNat = Enum.fi 4194304 (mk adj) k.val := by
  have h := IntOps.cumsum_toNat 4194304 4194303 rfl (binB adj)
    (broadcastInDim S_ ![] bcast_S_S_ (constantI S_ 32 0#32)) (fun _ => rfl)
    reduceWindows_S4194304_S4194304_w4194304s1p4194303_0 h_S_ (ix1 k) (binB_sum_lt adj)
  unfold fiB cumsum0
  rw [h]
  simp only [binB_toNat]
  show ∑ q ∈ Finset.univ.filter (fun q : Fin 4194304 => q.val ≤ k.val),
    ((Finset.range 4194304).filter (fun p => Enum.cs (mk adj) p = q.val)).card = _
  rw [sum_fin_le 4194304 k.val k.isLt
    (fun v => ((Finset.range 4194304).filter (fun p => Enum.cs (mk adj) p = v)).card)]
  exact Enum.sum_bucket 4194304 (mk adj) k.val

/-- The second running sum is below 2^31. -/
theorem fiB_small (adj : Adj) (i : S4194304.Idx) : (fiB adj i).toNat < 2 ^ 31 := by
  obtain ⟨p, rfl⟩ : ∃ p : Fin 4194304, i = ix1 p := ⟨i 0, eq_ix1 i⟩
  rw [fiB_toNat]
  have := Enum.fi_le 4194304 (mk adj) p.val
  omega

end Cert.ReferenceIdeal.HandNz
-- ==== Proof.LibSums.lean ====
/-
  Two re-indexings of finite sums.

  (1) The positions below n * m are the pairs (r, c) with r below n and c below m, through p = r * m + c
      (division with remainder by m); so a sum over the positions below n * m is the double sum over the pairs.

  (2) A reduction over every axis of an array by integer addition.  The result has one element; every index of
      the array reduces to it, so the left fold visits all positions in row-major order, adding the element at
      each to the accumulator, started at the initial value.  Addition is associative and commutative, and
      row-major numbering is a bijection between positions and indices; hence the result is the initial value
      plus the sum of all the array's elements.
-/
import proofs.«121040_g28046136442917_fold_wed_c4_759_6_alg».proof.Proof.LibIntOps
import Idealize.ShloMosaic.Lib.ValueIdx
import Idealize.ShloMosaic.PureOps.Contract
import Mathlib.Algebra.BigOperators.Fin
import Mathlib.Algebra.BigOperators.Group.Finset.Basic
import Mathlib.Logic.Equiv.Fin.Basic
import Mathlib.Tactic.Ring

noncomputable section

open scoped BigOperators

namespace Cert.Gcn.Sums

open Idealize.ShloMosaic Idealize.ShloMosaic.ValueIdx

/-- (1) A sum over the positions below n * m is the double sum over rows r and columns c of the term at
    r * m + c. -/
theorem sum_range_mul {M : Type*} [AddCommMonoid M] (n m : ℕ) (Φ : ℕ → M) :
    ∑ p ∈ Finset.range (n * m), Φ p = ∑ r : Fin n, ∑ c : Fin m, Φ (r.val * m + c.val) := by
  rw [Finset.sum_range, ← Equiv.sum_comp (finProdFinEquiv (m := n) (n := m)), Fintype.sum_prod_type]
  refine Finset.sum_congr rfl fun r _ => Finset.sum_congr rfl fun c _ => ?_
  rw [finProdFinEquiv_apply_val]
  congr 1
  ring

/-- (2) The reduction of an integer array over all its axes by addition is the initial value plus the sum of
    all the elements. -/
theorem reduce_addi_all {s : Shape} {axes : List (Fin s.rank)} (x : s.Idx → BitVec 32)
    (init : (⟨0, ![]⟩ : Shape).Idx → BitVec 32) (h : s.ReducesTo axes ⟨0, ![]⟩)
    (hu : 0 < (⟨0, ![]⟩ : Shape).numel) (j : (⟨0, ![]⟩ : Shape).Idx) :
    Host.reduce IntOp.addi x init h hu j = init (Shape.Idx.first hu) + ∑ i : s.Idx, x i := by
  unfold Host.reduce
  rw [List.filter_eq_self.2]
  · simp only [IntOp.addi]
    rw [IntOps.foldl_finRange_add]
    congr 1
    exact Equiv.sum_comp s.rowMajor.symm x
  · intro n _
    exact decide_eq_true (funext fun a => a.elim0)

end Cert.Gcn.Sums
-- ==== Proof.RefEdges.lean ====
/-
  The reference's edge list: the listed rows and columns are in range, and a weighted sum over the list is
  the sum over the whole matrix.

  Flat position p of the 2048 x 2048 adjacency is (row p / 2048, column p % 2048); it is marked when the
  adjacency there is not zero; cnt is the number of marked positions and fi k the number of positions whose
  running count of marked positions is at most k, which for k < cnt is the (k+1)-th marked position.
  Entry k of the list (0 <= k < 4194304) is
    row k = fi k / 2048 mod 2048 and col k = fi k mod 2048   for k < cnt,   (0, 0)   for k >= cnt
  (the floored quotient and the remainder of a number in [0, 2^31) by 2048 are the ordinary ones), its weight
  the adjacency at (row k, col k) times the indicator of k < cnt: the gathered pair is in range, so the gather
  reads exactly that entry.

  (R) Every listed row and column is below 2048: a remainder modulo 2048, or zero.
  (S) For every g,   sum_k  weight k * g (row k) (col k)  =  sum_r sum_c  adj (r, c) * g r c.
      The entries k >= cnt contribute adj (0, 0) * 0 * g = 0.  For k < cnt, fi k < 4194304, so row k is
      fi k / 2048 and the contribution is the matrix summand at position fi k; k -> fi k runs through the
      marked positions once each.  An unmarked position's matrix summand is 0 * g = 0, so the sum over the
      marked positions is the sum over all positions p = 2048 r + c.  Nothing here needs the adjacency finite.
-/
import proofs.«121040_g28046136442917_fold_wed_c4_759_6_alg».proof.ReferenceIdeal
import proofs.«121040_g28046136442917_fold_wed_c4_759_6_alg».proof.Proof.RefEdgesDefs
import proofs.«121040_g28046136442917_fold_wed_c4_759_6_alg».proof.Proof.LibEnum
import proofs.«121040_g28046136442917_fold_wed_c4_759_6_alg».proof.Proof.LibWordArith
import proofs.«121040_g28046136442917_fold_wed_c4_759_6_alg».proof.Proof.RefEdgesCount
import proofs.«121040_g28046136442917_fold_wed_c4_759_6_alg».proof.Proof.LibIntOps
import proofs.«121040_g28046136442917_fold_wed_c4_759_6_alg».proof.Proof.LibIndexMaps
import proofs.«121040_g28046136442917_fold_wed_c4_759_6_alg».proof.Proof.LibSums
import Idealize.ShloMosaic.Lib.ValueIdx
import Idealize.ShloMosaic.Lib.IdealHost
import Idealize.ShloMosaic.Lib.Pipeline.Value
import Idealize.ShloMosaic.PureOps.Ideal
import Idealize.ShloMosaic.PureOps.Ideal.Laws
import Mathlib.Algebra.BigOperators.Fin
import Mathlib.Algebra.BigOperators.Group.Finset.Basic

noncomputable section

namespace Cert.ReferenceIdeal.HandNz

open Idealize.ShloMosaic Idealize.ShloMosaic.ValueIdx
open Facts₀
open Cert.Gcn

variable [Facts₀]

/-! ### Quotient and remainder, entry by entry -/

/-- The floored quotient by a constant, at one entry. -/
theorem floorDiv_apply (x : IVec S4194304 32) (d : BitVec 32) (i : S4194304.Idx) :
    floorDiv x (constantI S_ 32 d) i = WordArith.floorDivide (x i) d := by
  unfold floorDiv select andi cmpi subi Host.divsi Host.remsi signi
  simp only [broadcastInDim_scalar_apply]
  rfl

/-- The remainder by a constant, at one entry. -/
theorem remF_apply (x : IVec S4194304 32) (d : BitVec 32) (i : S4194304.Idx) :
    remF x (constantI S_ 32 d) i = WordArith.remainderW (x i) d := by
  unfold remF remT safeDiv select andi cmpi addi Host.remsi
  simp only [broadcastInDim_scalar_apply]
  rfl

/-- The row before the fill: the listed position divided by 2048, modulo 2048. -/
theorem rowPre_toNat (adj : Adj) (i : S4194304.Idx) :
    (rowPre adj i).toNat = (fiB adj i).toNat / 2048 % 2048 := by
  unfold rowPre
  rw [remF_apply, floorDiv_apply]
  have h1 := fiB_small adj i
  have h2 : (WordArith.floorDivide (fiB adj i) 2048#32).toNat < 2 ^ 31 :=
    WordArith.floorDivide_lt h1 (by decide) (by decide)
  rw [WordArith.remainderW_2048 h2, WordArith.floorDivide_2048 h1]

/-- The column before the fill: the listed position modulo 2048. -/
theorem colPre_toNat (adj : Adj) (i : S4194304.Idx) :
    (colPre adj i).toNat = (fiB adj i).toNat % 2048 := by
  unfold colPre
  rw [remF_apply, floorDiv_apply]
  have h1 := fiB_small adj i
  rw [WordArith.floorDivide_one h1, WordArith.remainderW_2048 h1]

/-! ### The count of marked positions -/

/-- The mask word of the matrix at the entry matched with flat position `q` is the flat mask word at `q`. -/
theorem extui_maskB_reshape (adj : Adj) (q : Fin 4194304) :
    extui 32 (maskB adj) natLt_1_32
        (Shape.reshapeEquiv shapeCasts_S2048x2048_S4194304 ((IntOps.idx1Equiv 4194304).symm q))
      = maskW adj (ix1 q) := rfl

/-- The sum of the mask over the matrix is the number of marked flat positions. -/
theorem cntB_toNat (adj : Adj) : (cntB adj ix0).toNat = Enum.cnt 4194304 (mk adj) := by
  unfold cntB
  rw [Sums.reduce_addi_all]
  have hinit : (constantI S_ 32 0#32 : IVec S_ 32) (Shape.Idx.first h_S_) = 0#32 := rfl
  rw [hinit, BitVec.zero_add]
  -- the sum over the matrix is the sum over the flat positions
  have hflat : ∑ i : S2048x2048.Idx, extui 32 (maskB adj) natLt_1_32 i
      = ∑ q : Fin 4194304, maskW adj (ix1 q) := by
    rw [← Equiv.sum_comp (Shape.reshapeEquiv shapeCasts_S2048x2048_S4194304)
      (fun i => extui 32 (maskB adj) natLt_1_32 i)]
    rw [← Equiv.sum_comp (IntOps.idx1Equiv 4194304).symm]
    exact Finset.sum_congr (Eq.refl _) (fun q _ => extui_maskB_reshape adj q)
  rw [hflat, IntOps.toNat_sum, Nat.mod_eq_of_lt (maskW_sum_lt adj)]
  simp only [maskW_toNat]
  rw [Enum.cnt, Finset.card_filter, Finset.sum_range]

/-- The count is below 2^31. -/
theorem cntB_small (adj : Adj) : (cntB adj ix0).toNat < 2 ^ 31 := by
  rw [cntB_toNat]
  have := cnt_le 4194304 (mk adj)
  omega

/-! ### The fill -/

/-- The word of a list index reads back as the index. -/
theorem iota_toNat (k : Fin 4194304) : (iotaInDim S4194304 32 0 (ix1 k)).toNat = k.val := by
  rw [iotaInDim_apply]
  exact WordArith.toNat_ofNat_small k.val (by have := k.isLt; omega)

/-- The list entries past the count. -/
theorem pastB_apply (adj : Adj) (k : Fin 4194304) :
    pastB adj (ix1 k) = if Enum.cnt 4194304 (mk adj) ≤ k.val then 1#1 else 0#1 := by
  have hk : (iotaInDim S4194304 32 0 (ix1 k)).toNat < 2 ^ 31 := by
    rw [iota_toNat]; have := k.isLt; omega
  have h := WordArith.sge_small hk (cntB_small adj)
  rw [iota_toNat, cntB_toNat] at h
  unfold pastB cmpi
  rw [broadcastInDim_scalar_apply]
  exact h

/-- A listed row: the position's row below the count, zero past it. -/
theorem rowI_apply (adj : Adj) (k : Fin 4194304) :
    rowI adj (ix1 k) = if Enum.cnt 4194304 (mk adj) ≤ k.val then 0#32 else rowPre adj (ix1 k) := by
  unfold rowI whereS select
  rw [broadcastInDim_scalar_apply, pastB_apply]
  by_cases h : Enum.cnt 4194304 (mk adj) ≤ k.val
  · rw [if_pos h, if_pos h, select_one]; rfl
  · rw [if_neg h, if_neg h, select_zero]

/-- A listed column: the position's column below the count, zero past it. -/
theorem colI_apply (adj : Adj) (k : Fin 4194304) :
    colI adj (ix1 k) = if Enum.cnt 4194304 (mk adj) ≤ k.val then 0#32 else colPre adj (ix1 k) := by
  unfold colI whereS select
  rw [broadcastInDim_scalar_apply, pastB_apply]
  by_cases h : Enum.cnt 4194304 (mk adj) ≤ k.val
  · rw [if_pos h, if_pos h, select_one]; rfl
  · rw [if_neg h, if_neg h, select_zero]

/-- (R) Every listed row and column is below 2048. -/
theorem rowI_colI_lt (adj : Adj) (i : S4194304.Idx) :
    (rowI adj i).toNat < 2048 ∧ (colI adj i).toNat < 2048 := by
  obtain ⟨k, rfl⟩ : ∃ k : Fin 4194304, i = ix1 k := ⟨i 0, eq_ix1 i⟩
  rw [rowI_apply, colI_apply]
  by_cases h : Enum.cnt 4194304 (mk adj) ≤ k.val
  · rw [if_pos h, if_pos h]
    exact ⟨by decide, by decide⟩
  · rw [if_neg h, if_neg h, rowPre_toNat, colPre_toNat]
    exact ⟨Nat.mod_lt _ (by norm_num), Nat.mod_lt _ (by norm_num)⟩

/-! ### The weights -/

/-- The indicator of the list entries below the count, as an extended real. -/
theorem validF_apply (adj : Adj) (k : Fin 4194304) :
    validF adj (ix1 k) = if k.val < Enum.cnt 4194304 (mk adj) then (1 : EReal) else 0 := by
  have hk : (iotaInDim S4194304 32 0 (ix1 k)).toNat < 2 ^ 31 := by
    rw [iota_toNat]; have := k.isLt; omega
  have h := WordArith.slt_small hk (cntB_small adj)
  rw [iota_toNat, cntB_toNat] at h
  unfold validF uitofp cmpi
  rw [broadcastInDim_scalar_apply, h]
  by_cases hc : k.val < Enum.cnt 4194304 (mk adj)
  · rw [if_pos hc, if_pos hc]
    show (((1#1 : BitVec 1).toNat : ℝ) : EReal) = 1
    simp
  · rw [if_neg hc, if_neg hc]
    show (((0#1 : BitVec 1).toNat : ℝ) : EReal) = 0
    simp

/-- Moving a negative index up by the axis length, at one entry. -/
theorem normNeg_apply (x : IVec S4194304 32) (n : BitVec 32) (i : S4194304.Idx) :
    normNeg x n i = WordArith.normIdx (x i) n := by
  unfold normNeg select cmpi addi
  simp only [broadcastInDim_scalar_apply]
  rfl

/-- The first column of the pair array holds the listed rows. -/
theorem pairB_row (adj : Adj) (k : Fin 4194304) :
    pairB adj (ix2 k (0 : Fin 2)) = rowI adj (ix1 k) := by
  unfold pairB
  rw [concatenate_pair_apply_left (1 : Fin S4194304x2.rank) _ _
    concatenates_S4194304x1_S4194304x1_S4194304x2_d1 (ix2 k (0 : Fin 2)) rfl (ix2 k (0 : Fin 1))
    (by intro b; fin_cases b <;> rfl)]
  rw [bcastCol_apply, normNeg_apply]
  exact WordArith.normIdx_small _ (by have := (rowI_colI_lt adj (ix1 k)).1; omega)

/-- The second column of the pair array holds the listed columns. -/
theorem pairB_col (adj : Adj) (k : Fin 4194304) :
    pairB adj (ix2 k (1 : Fin 2)) = colI adj (ix1 k) := by
  unfold pairB
  rw [concatenate_pair_apply_right (1 : Fin S4194304x2.rank) _ _
    concatenates_S4194304x1_S4194304x1_S4194304x2_d1 (ix2 k (1 : Fin 2)) rfl rfl (ix2 k (0 : Fin 1))
    (by intro b hb; fin_cases b
        · rfl
        · exact absurd rfl hb)
    rfl]
  rw [bcastCol_apply, normNeg_apply]
  exact WordArith.normIdx_small _ (by have := (rowI_colI_lt adj (ix1 k)).2; omega)

/-- The gathered value at list entry `k` is the adjacency at the listed (row, column). -/
theorem gathF_apply (adj : Adj) (k : Fin 4194304) :
    gathF adj (ix1 k)
      = adj (ix2 (⟨(rowI adj (ix1 k)).toNat, (rowI_colI_lt adj (ix1 k)).1⟩ : Fin 2048)
          (⟨(colI adj (ix1 k)).toNat, (rowI_colI_lt adj (ix1 k)).2⟩ : Fin 2048)) := by
  unfold gathF
  refine IndexMaps.gatherPair_ix_apply _ rfl rfl rfl rfl adj (pairB adj) k _ _ _ _ ?_ ?_
  · rw [pairB_row]
    exact WordArith.toInt_of_small (by have := (rowI_colI_lt adj (ix1 k)).1; omega)
  · rw [pairB_col]
    exact WordArith.toInt_of_small (by have := (rowI_colI_lt adj (ix1 k)).2; omega)

/-! ### The weighted sum over the list -/

/-- The summand of the matrix sum at flat position `p`: the adjacency at (p / 2048, p % 2048) times `g` there. -/
def term (adj : Adj) (g : Fin 2048 → Fin 2048 → EReal) (p : ℕ) : EReal :=
  adj (ix2 (⟨p / 2048 % 2048, Nat.mod_lt _ (by norm_num)⟩ : Fin 2048)
      (⟨p % 2048, Nat.mod_lt _ (by norm_num)⟩ : Fin 2048))
    * g ⟨p / 2048 % 2048, Nat.mod_lt _ (by norm_num)⟩ ⟨p % 2048, Nat.mod_lt _ (by norm_num)⟩

/-- The summand at a (row, column) that is the row and column of flat position `p`. -/
theorem term_congr (adj : Adj) (g : Fin 2048 → Fin 2048 → EReal) (r c : ℕ) (hr : r < 2048) (hc : c < 2048)
    (p : ℕ) (h1 : r = p / 2048 % 2048) (h2 : c = p % 2048) :
    adj (ix2 (⟨r, hr⟩ : Fin 2048) (⟨c, hc⟩ : Fin 2048)) * g ⟨r, hr⟩ ⟨c, hc⟩ = term adj g p := by
  subst h1 h2
  rfl

/-- The summand at an unmarked position is zero. -/
theorem term_unmarked (adj : Adj) (g : Fin 2048 → Fin 2048 → EReal) (p : ℕ) (h : ¬ mk adj p) :
    term adj g p = 0 := by
  unfold term
  rw [show adj _ = 0 from not_not.1 h, zero_mul]

/-- One list entry's contribution: the summand at the (k+1)-th marked position for `k` below the count,
zero past it (there the weight is the adjacency at (0, 0) times zero). -/
theorem edge_term (adj : Adj) (g : Fin 2048 → Fin 2048 → EReal) (k : Fin 4194304) :
    ewF adj (ix1 k) *
        g ⟨(rowI adj (ix1 k)).toNat, (rowI_colI_lt adj (ix1 k)).1⟩
          ⟨(colI adj (ix1 k)).toNat, (rowI_colI_lt adj (ix1 k)).2⟩
      = if k.val < Enum.cnt 4194304 (mk adj) then term adj g (Enum.fi 4194304 (mk adj) k.val) else 0 := by
  unfold ewF
  rw [mulf_apply, gathF_apply, validF_apply]
  by_cases hc : k.val < Enum.cnt 4194304 (mk adj)
  · rw [if_pos hc, if_pos hc, mul_one]
    have hn : ¬ Enum.cnt 4194304 (mk adj) ≤ k.val := by omega
    refine term_congr adj g _ _ _ _ _ ?_ ?_
    · rw [rowI_apply, if_neg hn, rowPre_toNat, fiB_toNat]
    · rw [colI_apply, if_neg hn, colPre_toNat, fiB_toNat]
  · rw [if_neg hc, if_neg hc, mul_zero, zero_mul]

/-- (S) A weighted sum over the list is the sum over all entries of the matrix. -/
theorem sum_edges (adj : Adj) (g : Fin 2048 → Fin 2048 → EReal) :
    ∑ k : Fin 4194304, ewF adj (ix1 k) *
        g ⟨(rowI adj (ix1 k)).toNat, (rowI_colI_lt adj (ix1 k)).1⟩
          ⟨(colI adj (ix1 k)).toNat, (rowI_colI_lt adj (ix1 k)).2⟩
      = ∑ r : Fin 2048, ∑ c : Fin 2048, adj (ix2 r c) * g r c := by
  have hcnt := cnt_le 4194304 (mk adj)
  -- the list entries, one by one
  have h1 : ∑ k : Fin 4194304, ewF adj (ix1 k) *
        g ⟨(rowI adj (ix1 k)).toNat, (rowI_colI_lt adj (ix1 k)).1⟩
          ⟨(colI adj (ix1 k)).toNat, (rowI_colI_lt adj (ix1 k)).2⟩
      = ∑ k : Fin 4194304,
          (if k.val < Enum.cnt 4194304 (mk adj) then term adj g (Enum.fi 4194304 (mk adj) k.val) else 0) :=
    Finset.sum_congr (Eq.refl _) (fun k _ => edge_term adj g k)
  -- the entries below the count
  have h2 : ∑ k : Fin 4194304,
          (if k.val < Enum.cnt 4194304 (mk adj) then term adj g (Enum.fi 4194304 (mk adj) k.val) else 0)
      = ∑ k ∈ Finset.range (Enum.cnt 4194304 (mk adj)), term adj g (Enum.fi 4194304 (mk adj) k) := by
    rw [← Finset.sum_range (fun k =>
      if k < Enum.cnt 4194304 (mk adj) then term adj g (Enum.fi 4194304 (mk adj) k) else 0),
      ← Finset.sum_filter]
    refine Finset.sum_congr ?_ (fun _ _ => rfl)
    ext k
    simp only [Finset.mem_filter, Finset.mem_range]
    omega
  -- the marked positions, then all positions
  have h3 : ∑ p ∈ (Finset.range 4194304).filter (mk adj), term adj g p
      = ∑ p ∈ Finset.range 4194304, term adj g p := by
    rw [Finset.sum_filter]
    refine Finset.sum_congr rfl (fun p _ => ?_)
    by_cases hm : mk adj p
    · rw [if_pos hm]
    · rw [if_neg hm, term_unmarked adj g p hm]
  -- rows and columns
  have h4 : ∑ p ∈ Finset.range 4194304, term adj g p
      = ∑ r : Fin 2048, ∑ c : Fin 2048, adj (ix2 r c) * g r c := by
    rw [show (4194304 : ℕ) = 2048 * 2048 from rfl, Sums.sum_range_mul 2048 2048 (term adj g)]
    refine Finset.sum_congr rfl (fun r _ => Finset.sum_congr rfl (fun c _ => ?_))
    have hr := r.isLt
    have hc := c.isLt
    exact (term_congr adj g r.val c.val hr hc (r.val * 2048 + c.val) (by omega) (by omega)).symm
  rw [h1, h2, Enum.sum_fi 4194304 (mk adj) (term adj g), h3, h4]

end Cert.ReferenceIdeal.HandNz
-- ==== Proof.RefAssembly.lean ====
/-
  The reference's result array is the specification's network of the ten argument arrays.

  The program's buffers, as functions of the arguments, chain the stages: first product, first propagation,
  first normalisation, rectifier, second product, second propagation, second normalisation.  Each stage is the
  specification's stage of its operand (the product and the rectifier always; the propagation for real operands,
  the edge list having in-range indices and the edge sum being the double sum over the adjacency; the
  normalisation for a real operand), and each stage maps real arrays to real arrays, so the hypotheses of the
  later stages follow from the arguments being real.  Composing the seven equalities gives the network.
-/
import proofs.«121040_g28046136442917_fold_wed_c4_759_6_alg».proof.Proof.RefLink
import proofs.«121040_g28046136442917_fold_wed_c4_759_6_alg».proof.Proof.RefNorm
import proofs.«121040_g28046136442917_fold_wed_c4_759_6_alg».proof.Proof.RefPre
import proofs.«121040_g28046136442917_fold_wed_c4_759_6_alg».proof.Proof.RefConv
import proofs.«121040_g28046136442917_fold_wed_c4_759_6_alg».proof.Proof.RefEdges
import proofs.«121040_g28046136442917_fold_wed_c4_759_6_alg».proof.Proof.Spec
import Idealize.ShloMosaic.Lib.ValueIdx

noncomputable section

namespace Cert.ReferenceIdeal.HandNorm

open Idealize.ShloMosaic Idealize.ShloMosaic.ValueIdx
open Cert.ReferenceIdeal Cert.ReferenceIdeal.Gen Cert.ReferenceIdeal.Hand Cert.Gcn

variable (a0 : (⟨S2048x64, .f32⟩ : BufTy).Contents (Elt Ideal)) (a1 : (⟨S2048x2048, .f32⟩ : BufTy).Contents (Elt Ideal))
  (a2 : (⟨S64x32, .f32⟩ : BufTy).Contents (Elt Ideal)) (a3 a4 a5 : (⟨S32, .f32⟩ : BufTy).Contents (Elt Ideal))
  (a6 : (⟨S32x32, .f32⟩ : BufTy).Contents (Elt Ideal)) (a7 a8 a9 : (⟨S32, .f32⟩ : BufTy).Contents (Elt Ideal))

/-- The reference's result array, for real argument arrays, is the specification's network of them. -/
theorem ref_eq_G (h0 : ∀ i, IsR (a0 i)) (h1 : ∀ i, IsR (a1 i)) (h2 : ∀ i, IsR (a2 i)) (h3 : ∀ i, IsR (a3 i))
    (h4 : ∀ i, IsR (a4 i)) (h5 : ∀ i, IsR (a5 i)) (h6 : ∀ i, IsR (a6 i)) (h7 : ∀ i, IsR (a7 i))
    (h8 : ∀ i, IsR (a8 i)) (h9 : ∀ i, IsR (a9 i)) :
    res_main_v203 (F := Ideal) a0 a1 a2 a3 a4 a5 a6 a7 a8 a9 = Cert.Gcn.G a0 a1 a2 a3 a4 a5 a6 a7 a8 a9 := by
  have hx : ∀ r k, IsR (a0 (ix2 r k)) := fun r k => h0 _
  have hadj : ∀ r c, IsR (a1 (ix2 r c)) := fun r c => h1 _
  have hW1 : ∀ k f, IsR (a2 (ix2 k f)) := fun k f => h2 _
  have hb1 : ∀ f, IsR (a3 (ix1 f)) := fun f => h3 _
  have hg1 : ∀ f, IsR (a4 (ix1 f)) := fun f => h4 _
  have hbe1 : ∀ f, IsR (a5 (ix1 f)) := fun f => h5 _
  have hW2 : ∀ k f, IsR (a6 (ix2 k f)) := fun k f => h6 _
  have hb2 : ∀ f, IsR (a7 (ix1 f)) := fun f => h7 _
  -- the first layer
  have L1 : res_main_v83 (F := Ideal) a0 a1 a2 a3 a4 a5 a6 a7 a8 a9
      = fun i => lin (fun r k => a0 (ix2 r k)) (fun k f => a2 (ix2 k f)) (i 0) (i 1) := by
    rw [HandLink.lin1_eq, lin1Ref_eq]
  have C1 : res_main_v104 (F := Ideal) a0 a1 a2 a3 a4 a5 a6 a7 a8 a9
      = fun i => layer1 (fun r k => a0 (ix2 r k)) (fun r c => a1 (ix2 r c)) (fun k f => a2 (ix2 k f))
          (fun f => a3 (ix1 f)) (i 0) (i 1) := by
    rw [HandLink.conv1_eq, L1]
    exact HandConv.convRef_eq (HandNz.rowI a1) (HandNz.colI a1) (HandNz.ewF a1) _ a3 a1 (HandNz.rowI_colI_lt a1)
      (HandNz.sum_edges a1) h1 (fun i => isR_lin hx hW1 (i 0) (i 1))
  have B1 : res_main_v123 (F := Ideal) a0 a1 a2 a3 a4 a5 a6 a7 a8 a9
      = fun i => bn (layer1 (fun r k => a0 (ix2 r k)) (fun r c => a1 (ix2 r c)) (fun k f => a2 (ix2 k f))
          (fun f => a3 (ix1 f))) (fun f => a4 (ix1 f)) (fun f => a5 (ix1 f)) (i 0) (i 1) := by
    rw [HandLink.bn1_eq, C1]
    exact bnRef_eq _ a4 a5 (fun i => isR_layer1 hx hadj hW1 hb1 (i 0) (i 1))
  have R1 : res_main_v124 (F := Ideal) a0 a1 a2 a3 a4 a5 a6 a7 a8 a9
      = fun i => hidden (fun r k => a0 (ix2 r k)) (fun r c => a1 (ix2 r c)) (fun k f => a2 (ix2 k f))
          (fun f => a3 (ix1 f)) (fun f => a4 (ix1 f)) (fun f => a5 (ix1 f)) (i 0) (i 1) := by
    rw [HandLink.relu_eq, B1]
    funext i
    rw [reluRef_apply]
    rfl
  -- the second layer
  have L2 : res_main_v163 (F := Ideal) a0 a1 a2 a3 a4 a5 a6 a7 a8 a9
      = fun i => lin (hidden (fun r k => a0 (ix2 r k)) (fun r c => a1 (ix2 r c)) (fun k f => a2 (ix2 k f))
          (fun f => a3 (ix1 f)) (fun f => a4 (ix1 f)) (fun f => a5 (ix1 f))) (fun k f => a6 (ix2 k f)) (i 0) (i 1) := by
    rw [HandLink.lin2_eq, R1, lin2Ref_eq]
  have C2 : res_main_v184 (F := Ideal) a0 a1 a2 a3 a4 a5 a6 a7 a8 a9
      = fun i => layer2 (fun r k => a0 (ix2 r k)) (fun r c => a1 (ix2 r c)) (fun k f => a2 (ix2 k f))
          (fun f => a3 (ix1 f)) (fun f => a4 (ix1 f)) (fun f => a5 (ix1 f)) (fun k f => a6 (ix2 k f))
          (fun f => a7 (ix1 f)) (i 0) (i 1) := by
    rw [HandLink.conv2_eq, L2]
    exact HandConv.convRef_eq (HandNz.rowI a1) (HandNz.colI a1) (HandNz.ewF a1) _ a7 a1 (HandNz.rowI_colI_lt a1)
      (HandNz.sum_edges a1) h1
      (fun i => isR_lin (isR_hidden hx hadj hW1 hb1 hg1 hbe1) hW2 (i 0) (i 1))
  rw [HandLink.bn2_eq, C2]
  exact bnRef_eq _ a8 a9 (fun i => isR_layer2 hx hadj hW1 hb1 hg1 hbe1 hW2 hb2 (i 0) (i 1))

/-- Under the precondition the reference's result array is the specification's network of the arguments. -/
theorem ref_eq_G_of_pre [Cert.Pre_finite_inputs.Facts]
    (h : Cert.Pre_finite_inputs.fn (F := Ideal) a0 a1 a2 a3 a4 a5 a6 a7 a8 a9 = fun _ => 1#1) :
    res_main_v203 (F := Ideal) a0 a1 a2 a3 a4 a5 a6 a7 a8 a9 = Cert.Gcn.G a0 a1 a2 a3 a4 a5 a6 a7 a8 a9 := by
  obtain ⟨h0, h1, h2, h3, h4, h5, h6, h7, h8, h9⟩ := inputs_real a0 a1 a2 a3 a4 a5 a6 a7 a8 a9 h
  exact ref_eq_G a0 a1 a2 a3 a4 a5 a6 a7 a8 a9 h0 h1 h2 h3 h4 h5 h6 h7 h8 h9

end Cert.ReferenceIdeal.HandNorm

end
-- ==== Proof.lean ====
/-
  A two-layer graph convolution over a dense 2048 x 2048 adjacency, computed two ways.

  The kernel streams the adjacency in blocks of 256 columns three times over a 3 x 8 grid: the first pass sums each
  column (the degrees), the second propagates the first layer, the third normalises, cuts the negative part,
  applies the second weight matrix and propagates the second layer; the last grid point normalises once more and
  writes the result.  Everything it keeps between grid points lives in six buffers whose contents after each point
  are a function of the argument arrays; after the last point the result array is `Cert.Gcn.G` of the arguments
  (Spec.lean), whatever those buffers held at the start.

  The reference lists the nonzero entries of the adjacency (positions found by counting: a prefix count of the
  marks, the number of positions per count, a second prefix count), appends one self loop per node, and computes
  each layer by gathering along the list and adding the messages up per target node.  A sum over the list of
  `weight * g (row, column)` is the sum over all matrix entries of `entry * g`: marked positions are listed once
  each, unlisted entries are zero, padding carries weight zero.  With all inputs finite every intermediate value is
  a real number, the sums rearrange, `1 / sqrt d` is `d ^ (-1/2)` for positive `d`, and the reference's result is
  `Cert.Gcn.G` of the arguments as well.

  Frames: the kernel's body is run case by case of its six conditions on the grid coordinates (once for both
  float instances); the reference is a straight line of host operations, none of which writes an argument.
-/
import proofs.«121040_g28046136442917_fold_wed_c4_759_6_alg».proof.Defs
import proofs.«121040_g28046136442917_fold_wed_c4_759_6_alg».proof.Proof.Gen.Kernel
import proofs.«121040_g28046136442917_fold_wed_c4_759_6_alg».proof.Proof.Gen.KernelIdeal
import proofs.«121040_g28046136442917_fold_wed_c4_759_6_alg».proof.Proof.Gen.ReferenceIdeal
import proofs.«121040_g28046136442917_fold_wed_c4_759_6_alg».proof.Proof.Gen.Pre_finite_inputs
import proofs.«121040_g28046136442917_fold_wed_c4_759_6_alg».proof.Proof.WFrame
import proofs.«121040_g28046136442917_fold_wed_c4_759_6_alg».proof.Proof.WCases
import proofs.«121040_g28046136442917_fold_wed_c4_759_6_alg».proof.Proof.KRunValue
import proofs.«121040_g28046136442917_fold_wed_c4_759_6_alg».proof.Proof.RefRunMain
import proofs.«121040_g28046136442917_fold_wed_c4_759_6_alg».proof.Proof.RefKept
import proofs.«121040_g28046136442917_fold_wed_c4_759_6_alg».proof.Proof.RefOutC2
import proofs.«121040_g28046136442917_fold_wed_c4_759_6_alg».proof.Proof.RefAssembly
import Idealize.ShloMosaic.Adequacy
import Idealize.ShloMosaic.Init

noncomputable section

namespace Cert.Proof

open Idealize.ShloMosaic Idealize.SL.Sem

/-- The word-level kernel runs to its end and leaves its arguments as they were. -/
theorem frame_k : Cert.frame_Kernel := fun m ρ _ => Cert.Kernel.Hand.frame Cert.Kernel.Hand.runs m ρ

/-- So does the kernel read over the extended reals. -/
theorem frame_ki : Cert.frame_KernelIdeal := fun m ρ _ => Cert.KernelIdeal.Hand.frame Cert.KernelIdeal.Hand.runs m ρ

/-- The reference is a straight line of host operations; none of them writes an argument. -/
theorem frame_ri : Cert.frame_ReferenceIdeal := by
  intro m ρ _
  exact (θ_run Cert.ReferenceIdeal.defs _ _).mono
    (fun _ h c => ⟨(h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _)⟩)
    (Cert.ReferenceIdeal.Hand.run_main (F := Ideal) m ρ)

/-- Both programs end with the result array `Cert.Gcn.G` of the (agreeing, finite) argument arrays. -/
theorem algebraic : Cert.algebraic_KernelIdeal_ReferenceIdeal := by
  intro m ρ m' ρ' hpre hagree
  refine ⟨_, Cert.KernelIdeal.HandValue.run m ρ, ?_⟩
  refine (θ_run Cert.ReferenceIdeal.defs _ _).mono
    (fun _ h c => ⟨((h c Cert.ReferenceIdeal.main_v203).trans (Cert.ReferenceIdeal.Hand.out_eq _)).trans ?_,
      (h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _)⟩)
    (Cert.ReferenceIdeal.Hand.run_main (F := Ideal) m' ρ')
  have hp := hpre c
  have ha := hagree c
  show Cert.ReferenceIdeal.Hand.res_main_v203 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = _
  rw [ha.1, ha.2.1, ha.2.2.1, ha.2.2.2.1, ha.2.2.2.2.1, ha.2.2.2.2.2.1, ha.2.2.2.2.2.2.1, ha.2.2.2.2.2.2.2.1,
    ha.2.2.2.2.2.2.2.2.1, ha.2.2.2.2.2.2.2.2.2]
  exact Cert.ReferenceIdeal.HandNorm.ref_eq_G_of_pre _ _ _ _ _ _ _ _ _ _ hp

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
